-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v551)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v551) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v676) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S525000x6 : Shape := ⟨2, ![525000, 6]⟩
abbrev S525000x10 : Shape := ⟨2, ![525000, 10]⟩
abbrev S2x1600000 : Shape := ⟨2, ![2, 1600000]⟩
abbrev S1600000 : Shape := ⟨1, ![1600000]⟩
abbrev S2x400000 : Shape := ⟨2, ![2, 400000]⟩
abbrev S400000 : Shape := ⟨1, ![400000]⟩
abbrev S2x100000 : Shape := ⟨2, ![2, 100000]⟩
abbrev S100000 : Shape := ⟨1, ![100000]⟩
abbrev S25000 : Shape := ⟨1, ![25000]⟩
abbrev S16x64 : Shape := ⟨2, ![16, 64]⟩
abbrev S64 : Shape := ⟨1, ![64]⟩
abbrev S64x64 : Shape := ⟨2, ![64, 64]⟩
abbrev S_ : Shape := ⟨0, ![]⟩
abbrev S3x64x64 : Shape := ⟨3, ![3, 64, 64]⟩
abbrev S3x64 : Shape := ⟨2, ![3, 64]⟩
abbrev S3x3 : Shape := ⟨2, ![3, 3]⟩
abbrev S64x2 : Shape := ⟨2, ![64, 2]⟩
abbrev S2 : Shape := ⟨1, ![2]⟩

class Facts : Prop where
  bcast_S_S525000x6 : S_.BroadcastsInDim S525000x6 (![] : Fin 0 → Fin S525000x6.rank)
  reducesTo_S525000x6_S_d0_1 : S525000x6.ReducesTo [0, 1] S_
  h_S_ : 0 < S_.numel
  bcast_S_S525000x10 : S_.BroadcastsInDim S525000x10 (![] : Fin 0 → Fin S525000x10.rank)
  reducesTo_S525000x10_S_d0_1 : S525000x10.ReducesTo [0, 1] S_
  bcast_S_S1600000 : S_.BroadcastsInDim S1600000 (![] : Fin 0 → Fin S1600000.rank)
  reducesTo_S1600000_S_d0 : S1600000.ReducesTo [0] S_
  bcast_S_S400000 : S_.BroadcastsInDim S400000 (![] : Fin 0 → Fin S400000.rank)
  reducesTo_S400000_S_d0 : S400000.ReducesTo [0] S_
  bcast_S_S100000 : S_.BroadcastsInDim S100000 (![] : Fin 0 → Fin S100000.rank)
  reducesTo_S100000_S_d0 : S100000.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  reducesTo_S_S_d : S_.ReducesTo [] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x3 : S_.BroadcastsInDim S3x3 (![] : Fin 0 → Fin S3x3.rank)
  reducesTo_S3x3_S_d0_1 : S3x3.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v82 : IVec S_ 1) (main_v84 : IVec S_ 1) : IVec S_ 1 :=
  let main_c_33 : IVec S_ 1 := constantI S_ 1 1#1
  let main_v85 : IVec S_ 1 := (fun x v => Host.reduce IntOp.andi x v reducesTo_S_S_d h_S_) main_v84 main_c_33
  let main_v86 : IVec S_ 1 := andi main_v82 main_v85
  main_v86

def fn_part4 {F : FTy → Type} [FloatOps F] (main_arg19 : FVec F S64 .f32) (main_arg20 : FVec F S64x2 .f32) (main_arg21 : FVec F S2 .f32) (main_arg22 : FVec F S_ .f32) (main_v67 : IVec S_ 1) : IVec S_ 1 :=
  let main_v68 : FVec F S64 .f32 := Host.absf main_arg19
  let main_cst_26 : FVec F S_ .f32 := constant S_ .f32 0x7F800000#32
  let main_v69 : FVec F S64 .f32 := broadcastInDim S64 ![] bcast_S_S64 main_cst_26
  let main_v70 : IVec S64 1 := cmpf .olt main_v68 main_v69
  let main_c_27 : IVec S_ 1 := constantI S_ 1 1#1
  let main_v71 : IVec S_ 1 := (fun x v => Host.reduce IntOp.andi x v reducesTo_S64_S_d0 h_S_) main_v70 main_c_27
  let main_v72 : IVec S_ 1 := andi main_v67 main_v71
  let main_v73 : FVec F S64x2 .f32 := Host.absf main_arg20
  let main_cst_28 : FVec F S_ .f32 := constant S_ .f32 0x7F800000#32
  let main_v74 : FVec F S64x2 .f32 := broadcastInDim S64x2 ![] bcast_S_S64x2 main_cst_28
  let main_v75 : IVec S64x2 1 := cmpf .olt main_v73 main_v74
  let main_c_29 : IVec S_ 1 := constantI S_ 1 1#1
  let main_v76 : IVec S_ 1 := (fun x v => Host.reduce IntOp.andi x v reducesTo_S64x2_S_d0_1 h_S_) main_v75 main_c_29
  let main_v77 : IVec S_ 1 := andi main_v72 main_v76
  let main_v78 : FVec F S2 .f32 := Host.absf main_arg21
  let main_cst_30 : FVec F S_ .f32 := constant S_ .f32 0x7F800000#32
  let main_v79 : FVec F S2 .f32 := broadcastInDim S2 ![] bcast_S_S2 main_cst_30
  let main_v80 : IVec S2 1 := cmpf .olt main_v78 main_v79
  let main_c_31 : IVec S_ 1 := constantI S_ 1 1#1
  let main_v81 : IVec S_ 1 := (fun x v => Host.reduce IntOp.andi x v reducesTo_S2_S_d0 h_S_) main_v80 main_c_31
  let main_v82 : IVec S_ 1 := andi main_v77 main_v81
  let main_v83 : FVec F S_ .f32 := Host.absf main_arg22
  let main_cst_32 : FVec F S_ .f32 := constant S_ .f32 0x7F800000#32
  let main_v84 : IVec S_ 1 := cmpf .olt main_v83 main_cst_32
  fn_part5 (F := F) main_v82 main_v84

def fn_part3 {F : FTy → Type} [FloatOps F] (main_arg16 : FVec F S3x64 .f32) (main_arg17 : FVec F S3x3 .f32) (main_arg18 : FVec F S64x64 .f32) (main_arg19 : FVec F S64 .f32) (main_arg20 : FVec F S64x2 .f32) (main_arg21 : FVec F S2 .f32) (main_arg22 : FVec F S_ .f32) (main_v47 : IVec S_ 1) (main_v50 : IVec S3x64x64 1) : IVec S_ 1 :=
  let main_c_19 : IVec S_ 1 := constantI S_ 1 1#1
  let main_v51 : IVec S_ 1 := (fun x v => Host.reduce IntOp.andi x v reducesTo_S3x64x64_S_d0_1_2 h_S_) main_v50 main_c_19
  let main_v52 : IVec S_ 1 := andi main_v47 main_v51
  let main_v53 : FVec F S3x64 .f32 := Host.absf main_arg16
  let main_cst_20 : FVec F S_ .f32 := constant S_ .f32 0x7F800000#32
  let main_v54 : FVec F S3x64 .f32 := broadcastInDim S3x64 ![] bcast_S_S3x64 main_cst_20
  let main_v55 : IVec S3x64 1 := cmpf .olt main_v53 main_v54
  let main_c_21 : IVec S_ 1 := constantI S_ 1 1#1
  let main_v56 : IVec S_ 1 := (fun x v => Host.reduce IntOp.andi x v reducesTo_S3x64_S_d0_1 h_S_) main_v55 main_c_21
  let main_v57 : IVec S_ 1 := andi main_v52 main_v56
  let main_v58 : FVec F S3x3 .f32 := Host.absf main_arg17
  let main_cst_22 : FVec F S_ .f32 := constant S_ .f32 0x7F800000#32
  let main_v59 : FVec F S3x3 .f32 := broadcastInDim S3x3 ![] bcast_S_S3x3 main_cst_22
  let main_v60 : IVec S3x3 1 := cmpf .olt main_v58 main_v59
  let main_c_23 : IVec S_ 1 := constantI S_ 1 1#1
  let main_v61 : IVec S_ 1 := (fun x v => Host.reduce IntOp.andi x v reducesTo_S3x3_S_d0_1 h_S_) main_v60 main_c_23
  let main_v62 : IVec S_ 1 := andi main_v57 main_v61
  let main_v63 : FVec F S64x64 .f32 := Host.absf main_arg18
  let main_cst_24 : FVec F S_ .f32 := constant S_ .f32 0x7F800000#32
  let main_v64 : FVec F S64x64 .f32 := broadcastInDim S64x64 ![] bcast_S_S64x64 main_cst_24
  let main_v65 : IVec S64x64 1 := cmpf .olt main_v63 main_v64
  let main_c_25 : IVec S_ 1 := constantI S_ 1 1#1
  let main_v66 : IVec S_ 1 := (fun x v => Host.reduce IntOp.andi x v reducesTo_S64x64_S_d0_1 h_S_) main_v65 main_c_25
  let main_v67 : IVec S_ 1 := andi main_v62 main_v66
  fn_part4 (F := F) main_arg19 main_arg20 main_arg21 main_arg22 main_v67

def fn_part2 {F : FTy → Type} [FloatOps F] (main_arg12 : FVec F S64x64 .f32) (main_arg13 : FVec F S64 .f32) (main_arg14 : FVec F S_ .f32) (main_arg15 : FVec F S3x64x64 .f32) (main_arg16 : FVec F S3x64 .f32) (main_arg17 : FVec F S3x3 .f32) (main_arg18 : FVec F S64x64 .f32) (main_arg19 : FVec F S64 .f32) (main_arg20 : FVec F S64x2 .f32) (main_arg21 : FVec F S2 .f32) (main_arg22 : FVec F S_ .f32) (main_v33 : IVec S_ 1) : IVec S_ 1 :=
  let main_v34 : FVec F S64x64 .f32 := Host.absf main_arg12
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg13
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S_ .f32 := Host.absf main_arg14
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  let main_v48 : FVec F S3x64x64 .f32 := Host.absf main_arg15
  let main_cst_18 : FVec F S_ .f32 := constant S_ .f32 0x7F800000#32
  let main_v49 : FVec F S3x64x64 .f32 := broadcastInDim S3x64x64 ![] bcast_S_S3x64x64 main_cst_18
  let main_v50 : IVec S3x64x64 1 := cmpf .olt main_v48 main_v49
  fn_part3 (F := F) main_arg16 main_arg17 main_arg18 main_arg19 main_arg20 main_arg21 main_arg22 main_v47 main_v50

def fn_part1 {F : FTy → Type} [FloatOps F] (main_arg7 : FVec F S100000 .f32) (main_arg10 : FVec F S16x64 .f32) (main_arg11 : FVec F S64 .f32) (main_arg12 : FVec F S64x64 .f32) (main_arg13 : FVec F S64 .f32) (main_arg14 : FVec F S_ .f32) (main_arg15 : FVec F S3x64x64 .f32) (main_arg16 : FVec F S3x64 .f32) (main_arg17 : FVec F S3x3 .f32) (main_arg18 : FVec F S64x64 .f32) (main_arg19 : FVec F S64 .f32) (main_arg20 : FVec F S64x2 .f32) (main_arg21 : FVec F S2 .f32) (main_arg22 : FVec F S_ .f32) (main_v13 : IVec S_ 1) (main_v16 : IVec S400000 1) : IVec S_ 1 :=
  let main_c_5 : IVec S_ 1 := constantI S_ 1 1#1
  let main_v17 : IVec S_ 1 := (fun x v => Host.reduce IntOp.andi x v reducesTo_S400000_S_d0 h_S_) main_v16 main_c_5
  let main_v18 : IVec S_ 1 := andi main_v13 main_v17
  let main_v19 : FVec F S100000 .f32 := Host.absf main_arg7
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S16x64 .f32 := Host.absf main_arg10
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg11
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_v33

def fn {F : FTy → Type} [FloatOps F] (main_arg0 : FVec F S525000x6 .f32) (main_arg1 : FVec F S525000x10 .f32) (main_arg2 : IVec S2x1600000 32) (main_arg3 : FVec F S1600000 .f32) (main_arg4 : IVec S2x400000 32) (main_arg5 : FVec F S400000 .f32) (main_arg6 : IVec S2x100000 32) (main_arg7 : FVec F S100000 .f32) (main_arg8 : IVec S100000 32) (main_arg9 : IVec S25000 32) (main_arg10 : FVec F S16x64 .f32) (main_arg11 : FVec F S64 .f32) (main_arg12 : FVec F S64x64 .f32) (main_arg13 : FVec F S64 .f32) (main_arg14 : FVec F S_ .f32) (main_arg15 : FVec F S3x64x64 .f32) (main_arg16 : FVec F S3x64 .f32) (main_arg17 : FVec F S3x3 .f32) (main_arg18 : FVec F S64x64 .f32) (main_arg19 : FVec F S64 .f32) (main_arg20 : FVec F S64x2 .f32) (main_arg21 : FVec F S2 .f32) (main_arg22 : FVec F S_ .f32) : IVec S_ 1 :=
  let main_v0 : FVec F S525000x6 .f32 := Host.absf main_arg0
  let main_cst : FVec F S_ .f32 := constant S_ .f32 0x7F800000#32
  let main_v1 : FVec F S525000x6 .f32 := broadcastInDim S525000x6 ![] bcast_S_S525000x6 main_cst
  let main_v2 : IVec S525000x6 1 := cmpf .olt main_v0 main_v1
  let main_c : IVec S_ 1 := constantI S_ 1 1#1
  let main_v3 : IVec S_ 1 := (fun x v => Host.reduce IntOp.andi x v reducesTo_S525000x6_S_d0_1 h_S_) main_v2 main_c
  let main_v4 : FVec F S525000x10 .f32 := Host.absf main_arg1
  let main_cst_0 : FVec F S_ .f32 := constant S_ .f32 0x7F800000#32
  let main_v5 : FVec F S525000x10 .f32 := broadcastInDim S525000x10 ![] bcast_S_S525000x10 main_cst_0
  let main_v6 : IVec S525000x10 1 := cmpf .olt main_v4 main_v5
  let main_c_1 : IVec S_ 1 := constantI S_ 1 1#1
  let main_v7 : IVec S_ 1 := (fun x v => Host.reduce IntOp.andi x v reducesTo_S525000x10_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S400000 .f32 := Host.absf main_arg5
  let main_cst_4 : FVec F S_ .f32 := constant S_ .f32 0x7F800000#32
  let main_v15 : FVec F S400000 .f32 := broadcastInDim S400000 ![] bcast_S_S400000 main_cst_4
  let main_v16 : IVec S400000 1 := cmpf .olt main_v14 main_v15
  fn_part1 (F := F) main_arg7 main_arg10 main_arg11 main_arg12 main_arg13 main_arg14 main_arg15 main_arg16 main_arg17 main_arg18 main_arg19 main_arg20 main_arg21 main_arg22 main_v13 main_v16
-- ==== Kernel.lean ====
abbrev S525000x6 : Shape := ⟨2, ![525000, 6]⟩
abbrev S525000x10 : Shape := ⟨2, ![525000, 10]⟩
abbrev S2x1600000 : Shape := ⟨2, ![2, 1600000]⟩
abbrev S1600000 : Shape := ⟨1, ![1600000]⟩
abbrev S2x400000 : Shape := ⟨2, ![2, 400000]⟩
abbrev S400000 : Shape := ⟨1, ![400000]⟩
abbrev S2x100000 : Shape := ⟨2, ![2, 100000]⟩
abbrev S100000 : Shape := ⟨1, ![100000]⟩
abbrev S25000 : Shape := ⟨1, ![25000]⟩
abbrev S16x64 : Shape := ⟨2, ![16, 64]⟩
abbrev S64 : Shape := ⟨1, ![64]⟩
abbrev S64x64 : Shape := ⟨2, ![64, 64]⟩
abbrev S_ : Shape := ⟨0, ![]⟩
abbrev S3x64x64 : Shape := ⟨3, ![3, 64, 64]⟩
abbrev S3x64 : Shape := ⟨2, ![3, 64]⟩
abbrev S3x3 : Shape := ⟨2, ![3, 3]⟩
abbrev S64x2 : Shape := ⟨2, ![64, 2]⟩
abbrev S2 : Shape := ⟨1, ![2]⟩
abbrev S525000x16 : Shape := ⟨2, ![525000, 16]⟩
abbrev S1x64 : Shape := ⟨2, ![1, 64]⟩
abbrev S1x1 : Shape := ⟨2, ![1, 1]⟩
abbrev S525000x64 : Shape := ⟨2, ![525000, 64]⟩
abbrev S5000x16 : Shape := ⟨2, ![5000, 16]⟩
abbrev S5000x64 : Shape := ⟨2, ![5000, 64]⟩
abbrev S400000x64 : Shape := ⟨2, ![400000, 64]⟩
abbrev S100000x64 : Shape := ⟨2, ![100000, 64]⟩
abbrev S25000x64 : Shape := ⟨2, ![25000, 64]⟩
abbrev S1x1600000 : Shape := ⟨2, ![1, 1600000]⟩
abbrev S1x64x64 : Shape := ⟨3, ![1, 64, 64]⟩
abbrev S1x3 : Shape := ⟨2, ![1, 3]⟩
abbrev S3 : Shape := ⟨1, ![3]⟩
abbrev S1600000x1 : Shape := ⟨2, ![1600000, 1]⟩
abbrev S1600000x64 : Shape := ⟨2, ![1600000, 64]⟩
abbrev S1 : Shape := ⟨1, ![1]⟩
abbrev S400000x1 : Shape := ⟨2, ![400000, 1]⟩
abbrev S5000x1 : Shape := ⟨2, ![5000, 1]⟩
abbrev S1x400000 : Shape := ⟨2, ![1, 400000]⟩
abbrev S100000x1 : Shape := ⟨2, ![100000, 1]⟩
abbrev S1x100000 : Shape := ⟨2, ![1, 100000]⟩
abbrev S25000x1 : Shape := ⟨2, ![25000, 1]⟩
abbrev S1x2 : Shape := ⟨2, ![1, 2]⟩
abbrev S400000x2 : Shape := ⟨2, ![400000, 2]⟩
abbrev S5000x2 : Shape := ⟨2, ![5000, 2]⟩

abbrev nBuf : Space → Nat
  | .hbm => 720
  | .vmem => 197
  | .smem => 0
  | _ => 0

abbrev hbmTy0_0 (i : Nat) : BufTy := match i % 128 with
  | 0 => ⟨S525000x6, .f32⟩
  | 1 => ⟨S525000x10, .f32⟩
  | 2 => ⟨S2x1600000, .i32⟩
  | 3 => ⟨S1600000, .f32⟩
  | 4 => ⟨S2x400000, .i32⟩
  | 5 => ⟨S400000, .f32⟩
  | 6 => ⟨S2x100000, .i32⟩
  | 7 => ⟨S100000, .f32⟩
  | 8 => ⟨S100000, .i32⟩
  | 9 => ⟨S25000, .i32⟩
  | 10 => ⟨S16x64, .f32⟩
  | 11 => ⟨S64, .f32⟩
  | 12 => ⟨S64x64, .f32⟩
  | 13 => ⟨S64, .f32⟩
  | 14 => ⟨S_, .f32⟩
  | 15 => ⟨S3x64x64, .f32⟩
  | 16 => ⟨S3x64, .f32⟩
  | 17 => ⟨S3x3, .f32⟩
  | 18 => ⟨S64x64, .f32⟩
  | 19 => ⟨S64, .f32⟩
  | 20 => ⟨S64x2, .f32⟩
  | 21 => ⟨S2, .f32⟩
  | 22 => ⟨S_, .f32⟩
  | 23 => ⟨S525000x16, .f32⟩
  | 24 => ⟨S1x64, .f32⟩
  | 25 => ⟨S1x64, .f32⟩
  | 26 => ⟨S1x1, .f32⟩
  | 27 => ⟨S525000x64, .f32⟩
  | 28 => ⟨S400000x64, .f32⟩
  | 29 => ⟨S100000x64, .f32⟩
  | 30 => ⟨S25000x64, .f32⟩
  | 31 => ⟨S1x1600000, .i32⟩
  | 32 => ⟨S1600000, .i32⟩
  | 33 => ⟨S1x1600000, .i32⟩
  | 34 => ⟨S1600000, .i32⟩
  | 35 => ⟨S1x64x64, .f32⟩
  | 36 => ⟨S64x64, .f32⟩
  | 37 => ⟨S1x64, .f32⟩
  | 38 => ⟨S64, .f32⟩
  | 39 => ⟨S1x3, .f32⟩
  | 40 => ⟨S3, .f32⟩
  | 41 => ⟨S_, .f32⟩
  | 42 => ⟨S400000x64, .f32⟩
  | 43 => ⟨S1x64, .f32⟩
  | 44 => ⟨S400000x64, .f32⟩
  | 45 => ⟨S_, .f32⟩
  | 46 => ⟨S400000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S400000, .f32⟩
  | 56 => ⟨S_, .f32⟩
  | 57 => ⟨S400000, .f32⟩
  | 58 => ⟨S400000, .f32⟩
  | 59 => ⟨S400000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000, .f32⟩
  | 69 => ⟨S1600000, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000, .f32⟩
  | 79 => ⟨S1600000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x1, .f32⟩
  | 90 => ⟨S1600000x64, .f32⟩
  | 91 => ⟨S1600000x64, .f32⟩
  | 92 => ⟨S_, .f32⟩
  | 93 => ⟨S400000x64, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S400000x64, .f32⟩
  | 103 => ⟨S1, .f32⟩
  | 104 => ⟨S_, .f32⟩
  | 105 => ⟨S1x1, .f32⟩
  | 106 => ⟨S400000x1, .f32⟩
  | 107 => ⟨S400000x64, .f32⟩
  | 108 => ⟨S400000x64, .f32⟩
  | 109 => ⟨S400000x64, .f32⟩
  | 110 => ⟨S_, .f32⟩
  | 111 => ⟨S400000, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S400000, .f32⟩
  | 121 => ⟨S_, .f32⟩
  | 122 => ⟨S400000, .f32⟩
  | 123 => ⟨S400000, .f32⟩
  | 124 => ⟨S400000, .f32⟩
  | 125 => ⟨S_, .i32⟩
  | 126 => ⟨S1600000, .i32⟩
  | 127 => ⟨S1600000, .i1⟩
  | _ => ⟨S525000x6, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000, .f32⟩
  | 6 => ⟨S1600000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S1600000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S1600000x1, .f32⟩
  | 27 => ⟨S1600000x64, .f32⟩
  | 28 => ⟨S1600000x64, .f32⟩
  | 29 => ⟨S_, .f32⟩
  | 30 => ⟨S400000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S400000x64, .f32⟩
  | 40 => ⟨S1, .f32⟩
  | 41 => ⟨S_, .f32⟩
  | 42 => ⟨S1x1, .f32⟩
  | 43 => ⟨S400000x1, .f32⟩
  | 44 => ⟨S400000x64, .f32⟩
  | 45 => ⟨S400000x64, .f32⟩
  | 46 => ⟨S400000x64, .f32⟩
  | 47 => ⟨S_, .f32⟩
  | 48 => ⟨S400000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S400000, .f32⟩
  | 58 => ⟨S_, .f32⟩
  | 59 => ⟨S400000, .f32⟩
  | 60 => ⟨S400000, .f32⟩
  | 61 => ⟨S400000, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000, .f32⟩
  | 71 => ⟨S1600000, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S1600000x1, .f32⟩
  | 92 => ⟨S1600000x64, .f32⟩
  | 93 => ⟨S1600000x64, .f32⟩
  | 94 => ⟨S_, .f32⟩
  | 95 => ⟨S400000x64, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S400000x64, .f32⟩
  | 105 => ⟨S1, .f32⟩
  | 106 => ⟨S_, .f32⟩
  | 107 => ⟨S1x1, .f32⟩
  | 108 => ⟨S400000x1, .f32⟩
  | 109 => ⟨S400000x64, .f32⟩
  | 110 => ⟨S400000x64, .f32⟩
  | 111 => ⟨S1x400000, .i32⟩
  | 112 => ⟨S400000, .i32⟩
  | 113 => ⟨S1x400000, .i32⟩
  | 114 => ⟨S400000, .i32⟩
  | 115 => ⟨S1x64x64, .f32⟩
  | 116 => ⟨S64x64, .f32⟩
  | 117 => ⟨S1x64, .f32⟩
  | 118 => ⟨S64, .f32⟩
  | 119 => ⟨S1x3, .f32⟩
  | 120 => ⟨S3, .f32⟩
  | 121 => ⟨S_, .f32⟩
  | 122 => ⟨S100000x64, .f32⟩
  | 123 => ⟨S1x64, .f32⟩
  | 124 => ⟨S100000x64, .f32⟩
  | 125 => ⟨S_, .f32⟩
  | 126 => ⟨S100000, .f32⟩
  | 127 => ⟨S_, .i32⟩
  | _ => ⟨S525000x6, .f32⟩

abbrev hbmTy0_2 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S100000, .f32⟩
  | 8 => ⟨S_, .f32⟩
  | 9 => ⟨S100000, .f32⟩
  | 10 => ⟨S100000, .f32⟩
  | 11 => ⟨S100000, .f32⟩
  | 12 => ⟨S_, .i32⟩
  | 13 => ⟨S400000, .i32⟩
  | 14 => ⟨S400000, .i1⟩
  | 15 => ⟨S_, .i32⟩
  | 16 => ⟨S400000, .i32⟩
  | 17 => ⟨S400000, .i32⟩
  | 18 => ⟨S400000, .i32⟩
  | 19 => ⟨S400000x1, .i32⟩
  | 20 => ⟨S400000, .f32⟩
  | 21 => ⟨S400000, .f32⟩
  | 22 => ⟨S_, .i32⟩
  | 23 => ⟨S400000, .i32⟩
  | 24 => ⟨S400000, .i1⟩
  | 25 => ⟨S_, .i32⟩
  | 26 => ⟨S400000, .i32⟩
  | 27 => ⟨S400000, .i32⟩
  | 28 => ⟨S400000, .i32⟩
  | 29 => ⟨S400000x1, .i32⟩
  | 30 => ⟨S400000, .f32⟩
  | 31 => ⟨S400000, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S400000x64, .f32⟩
  | 41 => ⟨S400000x1, .f32⟩
  | 42 => ⟨S400000x64, .f32⟩
  | 43 => ⟨S400000x64, .f32⟩
  | 44 => ⟨S_, .f32⟩
  | 45 => ⟨S100000x64, .f32⟩
  | 46 => ⟨S_, .i32⟩
  | 47 => ⟨S400000, .i32⟩
  | 48 => ⟨S400000, .i1⟩
  | 49 => ⟨S_, .i32⟩
  | 50 => ⟨S400000, .i32⟩
  | 51 => ⟨S400000, .i32⟩
  | 52 => ⟨S400000, .i32⟩
  | 53 => ⟨S400000x1, .i32⟩
  | 54 => ⟨S100000x64, .f32⟩
  | 55 => ⟨S1, .f32⟩
  | 56 => ⟨S_, .f32⟩
  | 57 => ⟨S1x1, .f32⟩
  | 58 => ⟨S100000x1, .f32⟩
  | 59 => ⟨S100000x64, .f32⟩
  | 60 => ⟨S100000x64, .f32⟩
  | 61 => ⟨S100000x64, .f32⟩
  | 62 => ⟨S_, .f32⟩
  | 63 => ⟨S100000, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S100000, .f32⟩
  | 73 => ⟨S_, .f32⟩
  | 74 => ⟨S100000, .f32⟩
  | 75 => ⟨S100000, .f32⟩
  | 76 => ⟨S100000, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000, .f32⟩
  | 86 => ⟨S400000, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000, .f32⟩
  | 96 => ⟨S400000, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x64, .f32⟩
  | 106 => ⟨S400000x1, .f32⟩
  | 107 => ⟨S400000x64, .f32⟩
  | 108 => ⟨S400000x64, .f32⟩
  | 109 => ⟨S_, .f32⟩
  | 110 => ⟨S100000x64, .f32⟩
  | 111 => ⟨S_, .i32⟩
  | 112 => ⟨S400000, .i32⟩
  | 113 => ⟨S400000, .i1⟩
  | 114 => ⟨S_, .i32⟩
  | 115 => ⟨S400000, .i32⟩
  | 116 => ⟨S400000, .i32⟩
  | 117 => ⟨S400000, .i32⟩
  | 118 => ⟨S400000x1, .i32⟩
  | 119 => ⟨S100000x64, .f32⟩
  | 120 => ⟨S1, .f32⟩
  | 121 => ⟨S_, .f32⟩
  | 122 => ⟨S1x1, .f32⟩
  | 123 => ⟨S100000x1, .f32⟩
  | 124 => ⟨S100000x64, .f32⟩
  | 125 => ⟨S100000x64, .f32⟩
  | 126 => ⟨S100000x64, .f32⟩
  | 127 => ⟨S_, .f32⟩
  | _ => ⟨S525000x6, .f32⟩

abbrev hbmTy0_3 (i : Nat) : BufTy := match i % 128 with
  | 0 => ⟨S100000, .f32⟩
  | 1 => ⟨S_, .i32⟩
  | 2 => ⟨S400000, .i32⟩
  | 3 => ⟨S400000, .i1⟩
  | 4 => ⟨S_, .i32⟩
  | 5 => ⟨S400000, .i32⟩
  | 6 => ⟨S400000, .i32⟩
  | 7 => ⟨S400000, .i32⟩
  | 8 => ⟨S400000x1, .i32⟩
  | 9 => ⟨S100000, .f32⟩
  | 10 => ⟨S_, .f32⟩
  | 11 => ⟨S100000, .f32⟩
  | 12 => ⟨S100000, .f32⟩
  | 13 => ⟨S100000, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000, .f32⟩
  | 23 => ⟨S400000, .f32⟩
  | 24 => ⟨S_, .i32⟩
  | 25 => ⟨S400000, .i32⟩
  | 26 => ⟨S400000, .i1⟩
  | 27 => ⟨S_, .i32⟩
  | 28 => ⟨S400000, .i32⟩
  | 29 => ⟨S400000, .i32⟩
  | 30 => ⟨S400000, .i32⟩
  | 31 => ⟨S400000x1, .i32⟩
  | 32 => ⟨S400000, .f32⟩
  | 33 => ⟨S400000, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x64, .f32⟩
  | 43 => ⟨S400000x1, .f32⟩
  | 44 => ⟨S400000x64, .f32⟩
  | 45 => ⟨S400000x64, .f32⟩
  | 46 => ⟨S_, .f32⟩
  | 47 => ⟨S100000x64, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S100000x64, .f32⟩
  | 57 => ⟨S1, .f32⟩
  | 58 => ⟨S_, .f32⟩
  | 59 => ⟨S1x1, .f32⟩
  | 60 => ⟨S100000x1, .f32⟩
  | 61 => ⟨S100000x64, .f32⟩
  | 62 => ⟨S100000x64, .f32⟩
  | 63 => ⟨S1x100000, .i32⟩
  | 64 => ⟨S100000, .i32⟩
  | 65 => ⟨S1x100000, .i32⟩
  | 66 => ⟨S100000, .i32⟩
  | 67 => ⟨S1x64x64, .f32⟩
  | 68 => ⟨S64x64, .f32⟩
  | 69 => ⟨S1x64, .f32⟩
  | 70 => ⟨S64, .f32⟩
  | 71 => ⟨S1x3, .f32⟩
  | 72 => ⟨S3, .f32⟩
  | 73 => ⟨S_, .f32⟩
  | 74 => ⟨S25000x64, .f32⟩
  | 75 => ⟨S1x64, .f32⟩
  | 76 => ⟨S25000x64, .f32⟩
  | 77 => ⟨S_, .f32⟩
  | 78 => ⟨S25000, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S25000, .f32⟩
  | 88 => ⟨S_, .f32⟩
  | 89 => ⟨S25000, .f32⟩
  | 90 => ⟨S25000, .f32⟩
  | 91 => ⟨S25000, .f32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S100000, .f32⟩
  | 101 => ⟨S100000, .f32⟩
  | 102 => ⟨S_, .i32⟩
  | 103 => ⟨S100000, .i32⟩
  | 104 => ⟨S100000, .i1⟩
  | 105 => ⟨S_, .i32⟩
  | 106 => ⟨S100000, .i32⟩
  | 107 => ⟨S100000, .i32⟩
  | 108 => ⟨S100000, .i32⟩
  | 109 => ⟨S100000x1, .i32⟩
  | 110 => ⟨S100000, .f32⟩
  | 111 => ⟨S100000, .f32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x64, .f32⟩
  | 121 => ⟨S100000x1, .f32⟩
  | 122 => ⟨S100000x64, .f32⟩
  | 123 => ⟨S100000x64, .f32⟩
  | 124 => ⟨S_, .f32⟩
  | 125 => ⟨S25000x64, .f32⟩
  | 126 => ⟨S_, .i32⟩
  | 127 => ⟨S100000, .i32⟩
  | _ => ⟨S525000x6, .f32⟩

abbrev hbmTy0_4 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S25000x64, .f32⟩
  | 7 => ⟨S1, .f32⟩
  | 8 => ⟨S_, .f32⟩
  | 9 => ⟨S1x1, .f32⟩
  | 10 => ⟨S25000x1, .f32⟩
  | 11 => ⟨S25000x64, .f32⟩
  | 12 => ⟨S25000x64, .f32⟩
  | 13 => ⟨S25000x64, .f32⟩
  | 14 => ⟨S_, .f32⟩
  | 15 => ⟨S25000, .f32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S25000, .f32⟩
  | 25 => ⟨S_, .f32⟩
  | 26 => ⟨S25000, .f32⟩
  | 27 => ⟨S25000, .f32⟩
  | 28 => ⟨S25000, .f32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000, .f32⟩
  | 38 => ⟨S100000, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000, .f32⟩
  | 48 => ⟨S100000, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000x64, .f32⟩
  | 58 => ⟨S100000x1, .f32⟩
  | 59 => ⟨S100000x64, .f32⟩
  | 60 => ⟨S100000x64, .f32⟩
  | 61 => ⟨S_, .f32⟩
  | 62 => ⟨S25000x64, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S25000x64, .f32⟩
  | 72 => ⟨S1, .f32⟩
  | 73 => ⟨S_, .f32⟩
  | 74 => ⟨S1x1, .f32⟩
  | 75 => ⟨S25000x1, .f32⟩
  | 76 => ⟨S25000x64, .f32⟩
  | 77 => ⟨S25000x64, .f32⟩
  | 78 => ⟨S25000x64, .f32⟩
  | 79 => ⟨S_, .f32⟩
  | 80 => ⟨S25000, .f32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S25000, .f32⟩
  | 90 => ⟨S_, .f32⟩
  | 91 => ⟨S25000, .f32⟩
  | 92 => ⟨S25000, .f32⟩
  | 93 => ⟨S25000, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000, .f32⟩
  | 103 => ⟨S100000, .f32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000, .f32⟩
  | 113 => ⟨S100000, .f32⟩
  | 114 => ⟨S_, .i32⟩
  | 115 => ⟨S100000, .i32⟩
  | 116 => ⟨S100000, .i1⟩
  | 117 => ⟨S_, .i32⟩
  | 118 => ⟨S100000, .i32⟩
  | 119 => ⟨S100000, .i32⟩
  | 120 => ⟨S100000, .i32⟩
  | 121 => ⟨S100000x1, .i32⟩
  | 122 => ⟨S100000x64, .f32⟩
  | 123 => ⟨S100000x1, .f32⟩
  | 124 => ⟨S100000x64, .f32⟩
  | 125 => ⟨S100000x64, .f32⟩
  | 126 => ⟨S_, .f32⟩
  | 127 => ⟨S25000x64, .f32⟩
  | _ => ⟨S525000x6, .f32⟩

abbrev hbmTy0_5 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S25000x64, .f32⟩
  | 9 => ⟨S1, .f32⟩
  | 10 => ⟨S_, .f32⟩
  | 11 => ⟨S1x1, .f32⟩
  | 12 => ⟨S25000x1, .f32⟩
  | 13 => ⟨S25000x64, .f32⟩
  | 14 => ⟨S25000x64, .f32⟩
  | 15 => ⟨S_, .f32⟩
  | 16 => ⟨S400000, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S_, .f32⟩
  | 26 => ⟨S100000, .f32⟩
  | 27 => ⟨S400000, .f32⟩
  | 28 => ⟨S_, .f32⟩
  | 29 => ⟨S400000x64, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S400000x64, .f32⟩
  | 39 => ⟨S_, .f32⟩
  | 40 => ⟨S400000, .f32⟩
  | 41 => ⟨S400000, .f32⟩
  | 42 => ⟨S400000x1, .f32⟩
  | 43 => ⟨S400000x64, .f32⟩
  | 44 => ⟨S400000x64, .f32⟩
  | 45 => ⟨S_, .f32⟩
  | 46 => ⟨S400000, .f32⟩
  | 47 => ⟨S_, .i32⟩
  | 48 => ⟨S25000, .i32⟩
  | 49 => ⟨S25000, .i1⟩
  | 50 => ⟨S_, .i32⟩
  | 51 => ⟨S25000, .i32⟩
  | 52 => ⟨S25000, .i32⟩
  | 53 => ⟨S25000, .i32⟩
  | 54 => ⟨S25000x1, .i32⟩
  | 55 => ⟨S_, .f32⟩
  | 56 => ⟨S25000, .f32⟩
  | 57 => ⟨S400000, .f32⟩
  | 58 => ⟨S_, .f32⟩
  | 59 => ⟨S400000x64, .f32⟩
  | 60 => ⟨S_, .i32⟩
  | 61 => ⟨S25000, .i32⟩
  | 62 => ⟨S25000, .i1⟩
  | 63 => ⟨S_, .i32⟩
  | 64 => ⟨S25000, .i32⟩
  | 65 => ⟨S25000, .i32⟩
  | 66 => ⟨S25000, .i32⟩
  | 67 => ⟨S25000x1, .i32⟩
  | 68 => ⟨S400000x64, .f32⟩
  | 69 => ⟨S_, .f32⟩
  | 70 => ⟨S400000, .f32⟩
  | 71 => ⟨S400000, .f32⟩
  | 72 => ⟨S400000x1, .f32⟩
  | 73 => ⟨S400000x64, .f32⟩
  | 74 => ⟨S400000x64, .f32⟩
  | 75 => ⟨S400000x64, .f32⟩
  | 76 => ⟨S1x64, .f32⟩
  | 77 => ⟨S1x2, .f32⟩
  | 78 => ⟨S1x1, .f32⟩
  | 79 => ⟨S400000x2, .f32⟩
  | _ => ⟨S525000x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S525000x6, .f32⟩

abbrev vmemTy0_0 (i : Nat) : BufTy := match i % 128 with
  | 0 => ⟨S5000x16, .f32⟩
  | 1 => ⟨S5000x16, .f32⟩
  | 2 => ⟨S16x64, .f32⟩
  | 3 => ⟨S1x64, .f32⟩
  | 4 => ⟨S64x64, .f32⟩
  | 5 => ⟨S1x64, .f32⟩
  | 6 => ⟨S1x1, .f32⟩
  | 7 => ⟨S5000x64, .f32⟩
  | 8 => ⟨S5000x64, .f32⟩
  | 9 => ⟨S5000x64, .f32⟩
  | 10 => ⟨S5000x64, .f32⟩
  | 11 => ⟨S64x64, .f32⟩
  | 12 => ⟨S5000x64, .f32⟩
  | 13 => ⟨S5000x64, .f32⟩
  | 14 => ⟨S5000x64, .f32⟩
  | 15 => ⟨S5000x64, .f32⟩
  | 16 => ⟨S5000x64, .f32⟩
  | 17 => ⟨S5000x64, .f32⟩
  | 18 => ⟨S5000x1, .f32⟩
  | 19 => ⟨S5000x1, .f32⟩
  | 20 => ⟨S1x64, .f32⟩
  | 21 => ⟨S1x1, .f32⟩
  | 22 => ⟨S5000x64, .f32⟩
  | 23 => ⟨S5000x64, .f32⟩
  | 24 => ⟨S5000x64, .f32⟩
  | 25 => ⟨S5000x64, .f32⟩
  | 26 => ⟨S5000x64, .f32⟩
  | 27 => ⟨S5000x64, .f32⟩
  | 28 => ⟨S5000x64, .f32⟩
  | 29 => ⟨S5000x64, .f32⟩
  | 30 => ⟨S64x64, .f32⟩
  | 31 => ⟨S5000x64, .f32⟩
  | 32 => ⟨S5000x64, .f32⟩
  | 33 => ⟨S5000x64, .f32⟩
  | 34 => ⟨S5000x64, .f32⟩
  | 35 => ⟨S5000x64, .f32⟩
  | 36 => ⟨S5000x64, .f32⟩
  | 37 => ⟨S5000x1, .f32⟩
  | 38 => ⟨S5000x1, .f32⟩
  | 39 => ⟨S1x64, .f32⟩
  | 40 => ⟨S1x1, .f32⟩
  | 41 => ⟨S5000x64, .f32⟩
  | 42 => ⟨S5000x64, .f32⟩
  | 43 => ⟨S5000x64, .f32⟩
  | 44 => ⟨S5000x64, .f32⟩
  | 45 => ⟨S5000x64, .f32⟩
  | 46 => ⟨S5000x64, .f32⟩
  | 47 => ⟨S5000x64, .f32⟩
  | 48 => ⟨S5000x64, .f32⟩
  | 49 => ⟨S64x64, .f32⟩
  | 50 => ⟨S5000x64, .f32⟩
  | 51 => ⟨S5000x64, .f32⟩
  | 52 => ⟨S5000x64, .f32⟩
  | 53 => ⟨S5000x64, .f32⟩
  | 54 => ⟨S5000x64, .f32⟩
  | 55 => ⟨S5000x64, .f32⟩
  | 56 => ⟨S5000x1, .f32⟩
  | 57 => ⟨S5000x1, .f32⟩
  | 58 => ⟨S1x64, .f32⟩
  | 59 => ⟨S1x1, .f32⟩
  | 60 => ⟨S5000x64, .f32⟩
  | 61 => ⟨S5000x64, .f32⟩
  | 62 => ⟨S5000x64, .f32⟩
  | 63 => ⟨S5000x64, .f32⟩
  | 64 => ⟨S5000x64, .f32⟩
  | 65 => ⟨S5000x64, .f32⟩
  | 66 => ⟨S5000x64, .f32⟩
  | 67 => ⟨S5000x64, .f32⟩
  | 68 => ⟨S64x64, .f32⟩
  | 69 => ⟨S5000x64, .f32⟩
  | 70 => ⟨S5000x64, .f32⟩
  | 71 => ⟨S5000x64, .f32⟩
  | 72 => ⟨S5000x64, .f32⟩
  | 73 => ⟨S5000x64, .f32⟩
  | 74 => ⟨S5000x64, .f32⟩
  | 75 => ⟨S5000x1, .f32⟩
  | 76 => ⟨S5000x1, .f32⟩
  | 77 => ⟨S1x64, .f32⟩
  | 78 => ⟨S1x1, .f32⟩
  | 79 => ⟨S5000x64, .f32⟩
  | 80 => ⟨S5000x64, .f32⟩
  | 81 => ⟨S5000x64, .f32⟩
  | 82 => ⟨S5000x64, .f32⟩
  | 83 => ⟨S5000x64, .f32⟩
  | 84 => ⟨S5000x64, .f32⟩
  | 85 => ⟨S5000x64, .f32⟩
  | 86 => ⟨S5000x64, .f32⟩
  | 87 => ⟨S64x64, .f32⟩
  | 88 => ⟨S5000x64, .f32⟩
  | 89 => ⟨S5000x64, .f32⟩
  | 90 => ⟨S5000x64, .f32⟩
  | 91 => ⟨S5000x64, .f32⟩
  | 92 => ⟨S5000x64, .f32⟩
  | 93 => ⟨S5000x64, .f32⟩
  | 94 => ⟨S5000x1, .f32⟩
  | 95 => ⟨S5000x1, .f32⟩
  | 96 => ⟨S1x64, .f32⟩
  | 97 => ⟨S1x1, .f32⟩
  | 98 => ⟨S5000x64, .f32⟩
  | 99 => ⟨S5000x64, .f32⟩
  | 100 => ⟨S5000x64, .f32⟩
  | 101 => ⟨S5000x64, .f32⟩
  | 102 => ⟨S5000x64, .f32⟩
  | 103 => ⟨S5000x64, .f32⟩
  | 104 => ⟨S5000x64, .f32⟩
  | 105 => ⟨S5000x64, .f32⟩
  | 106 => ⟨S64x64, .f32⟩
  | 107 => ⟨S5000x64, .f32⟩
  | 108 => ⟨S5000x64, .f32⟩
  | 109 => ⟨S5000x64, .f32⟩
  | 110 => ⟨S5000x64, .f32⟩
  | 111 => ⟨S5000x64, .f32⟩
  | 112 => ⟨S5000x64, .f32⟩
  | 113 => ⟨S5000x1, .f32⟩
  | 114 => ⟨S5000x1, .f32⟩
  | 115 => ⟨S1x64, .f32⟩
  | 116 => ⟨S1x1, .f32⟩
  | 117 => ⟨S5000x64, .f32⟩
  | 118 => ⟨S5000x64, .f32⟩
  | 119 => ⟨S5000x64, .f32⟩
  | 120 => ⟨S5000x64, .f32⟩
  | 121 => ⟨S5000x64, .f32⟩
  | 122 => ⟨S5000x64, .f32⟩
  | 123 => ⟨S5000x64, .f32⟩
  | 124 => ⟨S5000x64, .f32⟩
  | 125 => ⟨S64x64, .f32⟩
  | 126 => ⟨S5000x64, .f32⟩
  | 127 => ⟨S5000x64, .f32⟩
  | _ => ⟨S525000x6, .f32⟩

abbrev vmemTy0_1 (i : Nat) : BufTy := match i % 128 with
  | 0 => ⟨S5000x64, .f32⟩
  | 1 => ⟨S5000x64, .f32⟩
  | 2 => ⟨S5000x64, .f32⟩
  | 3 => ⟨S5000x64, .f32⟩
  | 4 => ⟨S5000x1, .f32⟩
  | 5 => ⟨S5000x1, .f32⟩
  | 6 => ⟨S1x64, .f32⟩
  | 7 => ⟨S1x1, .f32⟩
  | 8 => ⟨S5000x64, .f32⟩
  | 9 => ⟨S5000x64, .f32⟩
  | 10 => ⟨S5000x64, .f32⟩
  | 11 => ⟨S5000x64, .f32⟩
  | 12 => ⟨S5000x64, .f32⟩
  | 13 => ⟨S5000x64, .f32⟩
  | 14 => ⟨S5000x64, .f32⟩
  | 15 => ⟨S5000x64, .f32⟩
  | 16 => ⟨S64x64, .f32⟩
  | 17 => ⟨S5000x64, .f32⟩
  | 18 => ⟨S5000x64, .f32⟩
  | 19 => ⟨S5000x64, .f32⟩
  | 20 => ⟨S5000x64, .f32⟩
  | 21 => ⟨S5000x64, .f32⟩
  | 22 => ⟨S5000x64, .f32⟩
  | 23 => ⟨S5000x1, .f32⟩
  | 24 => ⟨S5000x1, .f32⟩
  | 25 => ⟨S1x64, .f32⟩
  | 26 => ⟨S1x1, .f32⟩
  | 27 => ⟨S5000x64, .f32⟩
  | 28 => ⟨S5000x64, .f32⟩
  | 29 => ⟨S5000x64, .f32⟩
  | 30 => ⟨S5000x64, .f32⟩
  | 31 => ⟨S5000x64, .f32⟩
  | 32 => ⟨S5000x64, .f32⟩
  | 33 => ⟨S5000x64, .f32⟩
  | 34 => ⟨S5000x64, .f32⟩
  | 35 => ⟨S64x64, .f32⟩
  | 36 => ⟨S5000x64, .f32⟩
  | 37 => ⟨S5000x64, .f32⟩
  | 38 => ⟨S5000x64, .f32⟩
  | 39 => ⟨S5000x64, .f32⟩
  | 40 => ⟨S5000x64, .f32⟩
  | 41 => ⟨S5000x64, .f32⟩
  | 42 => ⟨S5000x1, .f32⟩
  | 43 => ⟨S5000x1, .f32⟩
  | 44 => ⟨S1x64, .f32⟩
  | 45 => ⟨S1x1, .f32⟩
  | 46 => ⟨S5000x64, .f32⟩
  | 47 => ⟨S5000x64, .f32⟩
  | 48 => ⟨S5000x64, .f32⟩
  | 49 => ⟨S5000x64, .f32⟩
  | 50 => ⟨S5000x64, .f32⟩
  | 51 => ⟨S5000x64, .f32⟩
  | 52 => ⟨S5000x64, .f32⟩
  | 53 => ⟨S5000x64, .f32⟩
  | 54 => ⟨S5000x64, .f32⟩
  | 55 => ⟨S5000x64, .f32⟩
  | 56 => ⟨S5000x64, .f32⟩
  | 57 => ⟨S5000x64, .f32⟩
  | 58 => ⟨S5000x64, .f32⟩
  | 59 => ⟨S5000x64, .f32⟩
  | 60 => ⟨S5000x64, .f32⟩
  | 61 => ⟨S5000x64, .f32⟩
  | 62 => ⟨S64x64, .f32⟩
  | 63 => ⟨S1x64, .f32⟩
  | 64 => ⟨S64x2, .f32⟩
  | 65 => ⟨S1x2, .f32⟩
  | 66 => ⟨S1x1, .f32⟩
  | 67 => ⟨S5000x2, .f32⟩
  | 68 => ⟨S5000x2, .f32⟩
  | _ => ⟨S525000x6, .f32⟩

abbrev vmemTy (i : Nat) : BufTy := match i / 128 with
  | 0 => vmemTy0_0 i
  | 1 => vmemTy0_1 i
  | _ => ⟨S525000x6, .f32⟩

abbrev bufTy : (tb : Table) → Fin (tcTables nBuf tb) → BufTy
  | .hbm, ⟨i, _⟩ => hbmTy i
  | .local _ .vmem, ⟨i, _⟩ => vmemTy i
  | _, _ => ⟨S525000x6, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 197 → Bool
  | ⟨i, _⟩ => dmaSemScopedAt i

abbrev sig : RefSig :=
  ofTc nBuf bufTy 0 197 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_0 : Ref sig .tc := ⟨.hbm, 45, rfl⟩
abbrev main_v21 : Ref sig .tc := ⟨.hbm, 46, rfl⟩
abbrev main_c : Ref sig .tc := ⟨.hbm, 47, rfl⟩
abbrev main_v22 : Ref sig .tc := ⟨.hbm, 48, rfl⟩
abbrev main_v23 : Ref sig .tc := ⟨.hbm, 49, rfl⟩
abbrev main_c_1 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_3 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_5 : Ref sig .tc := ⟨.hbm, 70, rfl⟩
abbrev main_v40 : Ref sig .tc := ⟨.hbm, 71, rfl⟩
abbrev main_v41 : Ref sig .tc := ⟨.hbm, 72, rfl⟩
abbrev main_c_6 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_7 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_9 : Ref sig .tc := ⟨.hbm, 92, rfl⟩
abbrev main_v58 : Ref sig .tc := ⟨.hbm, 93, rfl⟩
abbrev main_c_10 : Ref sig .tc := ⟨.hbm, 94, rfl⟩
abbrev main_v59 : Ref sig .tc := ⟨.hbm, 95, rfl⟩
abbrev main_v60 : Ref sig .tc := ⟨.hbm, 96, rfl⟩
abbrev main_c_11 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70_0 : Ref sig .tc := ⟨.hbm, 107, rfl⟩
abbrev main_v70_1 : Ref sig .tc := ⟨.hbm, 108, rfl⟩
abbrev main_v71 : Ref sig .tc := ⟨.hbm, 109, rfl⟩
abbrev main_cst_12 : Ref sig .tc := ⟨.hbm, 110, rfl⟩
abbrev main_v72 : Ref sig .tc := ⟨.hbm, 111, rfl⟩
abbrev main_c_13 : Ref sig .tc := ⟨.hbm, 112, rfl⟩
abbrev main_v73 : Ref sig .tc := ⟨.hbm, 113, rfl⟩
abbrev main_v74 : Ref sig .tc := ⟨.hbm, 114, rfl⟩
abbrev main_c_14 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_15 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_16 : Ref sig .tc := ⟨.hbm, 125, rfl⟩
abbrev main_v83 : Ref sig .tc := ⟨.hbm, 126, rfl⟩
abbrev main_v84 : Ref sig .tc := ⟨.hbm, 127, rfl⟩
abbrev main_c_17 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_c_18 : Ref sig .tc := ⟨.hbm, 135, rfl⟩
abbrev main_v91 : Ref sig .tc := ⟨.hbm, 136, rfl⟩
abbrev main_v92 : Ref sig .tc := ⟨.hbm, 137, rfl⟩
abbrev main_c_19 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_20 : Ref sig .tc := ⟨.hbm, 145, rfl⟩
abbrev main_v99 : Ref sig .tc := ⟨.hbm, 146, rfl⟩
abbrev main_v100 : Ref sig .tc := ⟨.hbm, 147, rfl⟩
abbrev main_c_21 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_22 : Ref sig .tc := ⟨.hbm, 157, rfl⟩
abbrev main_v109 : Ref sig .tc := ⟨.hbm, 158, rfl⟩
abbrev main_c_23 : Ref sig .tc := ⟨.hbm, 159, rfl⟩
abbrev main_v110 : Ref sig .tc := ⟨.hbm, 160, rfl⟩
abbrev main_v111 : Ref sig .tc := ⟨.hbm, 161, rfl⟩
abbrev main_c_24 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121_0 : Ref sig .tc := ⟨.hbm, 172, rfl⟩
abbrev main_v121_1 : Ref sig .tc := ⟨.hbm, 173, rfl⟩
abbrev main_v122 : Ref sig .tc := ⟨.hbm, 174, rfl⟩
abbrev main_cst_25 : Ref sig .tc := ⟨.hbm, 175, rfl⟩
abbrev main_v123 : Ref sig .tc := ⟨.hbm, 176, rfl⟩
abbrev main_c_26 : Ref sig .tc := ⟨.hbm, 177, rfl⟩
abbrev main_v124 : Ref sig .tc := ⟨.hbm, 178, rfl⟩
abbrev main_v125 : Ref sig .tc := ⟨.hbm, 179, rfl⟩
abbrev main_c_27 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_28 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_c_29 : Ref sig .tc := ⟨.hbm, 190, rfl⟩
abbrev main_v134 : Ref sig .tc := ⟨.hbm, 191, rfl⟩
abbrev main_v135 : Ref sig .tc := ⟨.hbm, 192, rfl⟩
abbrev main_c_30 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_c_31 : Ref sig .tc := ⟨.hbm, 200, rfl⟩
abbrev main_v142 : Ref sig .tc := ⟨.hbm, 201, rfl⟩
abbrev main_v143 : Ref sig .tc := ⟨.hbm, 202, rfl⟩
abbrev main_c_32 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_c_33 : Ref sig .tc := ⟨.hbm, 210, rfl⟩
abbrev main_v150 : Ref sig .tc := ⟨.hbm, 211, rfl⟩
abbrev main_v151 : Ref sig .tc := ⟨.hbm, 212, rfl⟩
abbrev main_c_34 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_35 : Ref sig .tc := ⟨.hbm, 222, rfl⟩
abbrev main_v160 : Ref sig .tc := ⟨.hbm, 223, rfl⟩
abbrev main_c_36 : Ref sig .tc := ⟨.hbm, 224, rfl⟩
abbrev main_v161 : Ref sig .tc := ⟨.hbm, 225, rfl⟩
abbrev main_v162 : Ref sig .tc := ⟨.hbm, 226, rfl⟩
abbrev main_c_37 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172_0 : Ref sig .tc := ⟨.hbm, 237, rfl⟩
abbrev main_v172_1 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_38 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_cst_39 : Ref sig .tc := ⟨.hbm, 253, rfl⟩
abbrev main_v186 : Ref sig .tc := ⟨.hbm, 254, rfl⟩
abbrev main_c_40 : Ref sig .tc := ⟨.hbm, 255, rfl⟩
abbrev main_v187 : Ref sig .tc := ⟨.hbm, 256, rfl⟩
abbrev main_v188 : Ref sig .tc := ⟨.hbm, 257, rfl⟩
abbrev main_c_41 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_cst_42 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_c_43 : Ref sig .tc := ⟨.hbm, 268, rfl⟩
abbrev main_v197 : Ref sig .tc := ⟨.hbm, 269, rfl⟩
abbrev main_v198 : Ref sig .tc := ⟨.hbm, 270, rfl⟩
abbrev main_c_44 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_c_45 : Ref sig .tc := ⟨.hbm, 278, rfl⟩
abbrev main_v205 : Ref sig .tc := ⟨.hbm, 279, rfl⟩
abbrev main_v206 : Ref sig .tc := ⟨.hbm, 280, rfl⟩
abbrev main_c_46 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_c_47 : Ref sig .tc := ⟨.hbm, 288, rfl⟩
abbrev main_v213 : Ref sig .tc := ⟨.hbm, 289, rfl⟩
abbrev main_v214 : Ref sig .tc := ⟨.hbm, 290, rfl⟩
abbrev main_c_48 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_cst_49 : Ref sig .tc := ⟨.hbm, 300, rfl⟩
abbrev main_v223 : Ref sig .tc := ⟨.hbm, 301, rfl⟩
abbrev main_c_50 : Ref sig .tc := ⟨.hbm, 302, rfl⟩
abbrev main_v224 : Ref sig .tc := ⟨.hbm, 303, rfl⟩
abbrev main_v225 : Ref sig .tc := ⟨.hbm, 304, rfl⟩
abbrev main_c_51 : Ref sig .tc := ⟨.hbm, 305, rfl⟩
abbrev main_v226 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235_0 : Ref sig .tc := ⟨.hbm, 315, rfl⟩
abbrev main_v235_1 : Ref sig .tc := ⟨.hbm, 316, rfl⟩
abbrev main_v236 : Ref sig .tc := ⟨.hbm, 317, rfl⟩
abbrev main_cst_52 : Ref sig .tc := ⟨.hbm, 318, rfl⟩
abbrev main_v237 : Ref sig .tc := ⟨.hbm, 319, rfl⟩
abbrev main_c_53 : Ref sig .tc := ⟨.hbm, 320, rfl⟩
abbrev main_v238 : Ref sig .tc := ⟨.hbm, 321, rfl⟩
abbrev main_v239 : Ref sig .tc := ⟨.hbm, 322, rfl⟩
abbrev main_c_54 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_cst_55 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_c_56 : Ref sig .tc := ⟨.hbm, 333, rfl⟩
abbrev main_v248 : Ref sig .tc := ⟨.hbm, 334, rfl⟩
abbrev main_v249 : Ref sig .tc := ⟨.hbm, 335, rfl⟩
abbrev main_c_57 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_c_58 : Ref sig .tc := ⟨.hbm, 343, rfl⟩
abbrev main_v256 : Ref sig .tc := ⟨.hbm, 344, rfl⟩
abbrev main_v257 : Ref sig .tc := ⟨.hbm, 345, rfl⟩
abbrev main_c_59 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_c_60 : Ref sig .tc := ⟨.hbm, 353, rfl⟩
abbrev main_v264 : Ref sig .tc := ⟨.hbm, 354, rfl⟩
abbrev main_v265 : Ref sig .tc := ⟨.hbm, 355, rfl⟩
abbrev main_c_61 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_v272 : Ref sig .tc := ⟨.hbm, 363, rfl⟩
abbrev main_v273 : Ref sig .tc := ⟨.hbm, 364, rfl⟩
abbrev main_cst_62 : Ref sig .tc := ⟨.hbm, 365, rfl⟩
abbrev main_v274 : Ref sig .tc := ⟨.hbm, 366, rfl⟩
abbrev main_c_63 : Ref sig .tc := ⟨.hbm, 367, rfl⟩
abbrev main_v275 : Ref sig .tc := ⟨.hbm, 368, rfl⟩
abbrev main_v276 : Ref sig .tc := ⟨.hbm, 369, rfl⟩
abbrev main_c_64 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev main_v286_0 : Ref sig .tc := ⟨.hbm, 380, rfl⟩
abbrev main_v286_1 : Ref sig .tc := ⟨.hbm, 381, rfl⟩
abbrev main_v287 : Ref sig .tc := ⟨.hbm, 382, rfl⟩
abbrev main_cst_65 : Ref sig .tc := ⟨.hbm, 383, rfl⟩
abbrev main_v288 : Ref sig .tc := ⟨.hbm, 384, rfl⟩
abbrev main_c_66 : Ref sig .tc := ⟨.hbm, 385, rfl⟩
abbrev main_v289 : Ref sig .tc := ⟨.hbm, 386, rfl⟩
abbrev main_v290 : Ref sig .tc := ⟨.hbm, 387, rfl⟩
abbrev main_c_67 : Ref sig .tc := ⟨.hbm, 388, rfl⟩
abbrev main_v291 : Ref sig .tc := ⟨.hbm, 389, rfl⟩
abbrev main_v292 : Ref sig .tc := ⟨.hbm, 390, rfl⟩
abbrev main_v293 : Ref sig .tc := ⟨.hbm, 391, rfl⟩
abbrev main_v294 : Ref sig .tc := ⟨.hbm, 392, rfl⟩
abbrev main_v295 : Ref sig .tc := ⟨.hbm, 393, rfl⟩
abbrev main_cst_68 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_c_69 : Ref sig .tc := ⟨.hbm, 398, rfl⟩
abbrev main_v299 : Ref sig .tc := ⟨.hbm, 399, rfl⟩
abbrev main_v300 : Ref sig .tc := ⟨.hbm, 400, rfl⟩
abbrev main_c_70 : Ref sig .tc := ⟨.hbm, 401, rfl⟩
abbrev main_v301 : Ref sig .tc := ⟨.hbm, 402, rfl⟩
abbrev main_v302 : Ref sig .tc := ⟨.hbm, 403, rfl⟩
abbrev main_v303 : Ref sig .tc := ⟨.hbm, 404, rfl⟩
abbrev main_v304 : Ref sig .tc := ⟨.hbm, 405, rfl⟩
abbrev main_v305 : Ref sig .tc := ⟨.hbm, 406, rfl⟩
abbrev main_v306 : Ref sig .tc := ⟨.hbm, 407, rfl⟩
abbrev main_c_71 : Ref sig .tc := ⟨.hbm, 408, rfl⟩
abbrev main_v307 : Ref sig .tc := ⟨.hbm, 409, rfl⟩
abbrev main_v308 : Ref sig .tc := ⟨.hbm, 410, rfl⟩
abbrev main_c_72 : Ref sig .tc := ⟨.hbm, 411, rfl⟩
abbrev main_v309 : Ref sig .tc := ⟨.hbm, 412, rfl⟩
abbrev main_v310 : Ref sig .tc := ⟨.hbm, 413, rfl⟩
abbrev main_v311 : Ref sig .tc := ⟨.hbm, 414, rfl⟩
abbrev main_v312 : Ref sig .tc := ⟨.hbm, 415, rfl⟩
abbrev main_v313 : Ref sig .tc := ⟨.hbm, 416, rfl⟩
abbrev main_v314 : Ref sig .tc := ⟨.hbm, 417, rfl⟩
abbrev main_c_73 : Ref sig .tc := ⟨.hbm, 418, rfl⟩
abbrev main_v315 : Ref sig .tc := ⟨.hbm, 419, rfl⟩
abbrev main_v316 : Ref sig .tc := ⟨.hbm, 420, rfl⟩
abbrev main_c_74 : Ref sig .tc := ⟨.hbm, 421, rfl⟩
abbrev main_v317 : Ref sig .tc := ⟨.hbm, 422, rfl⟩
abbrev main_v318 : Ref sig .tc := ⟨.hbm, 423, rfl⟩
abbrev main_v319 : Ref sig .tc := ⟨.hbm, 424, rfl⟩
abbrev main_v320 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_v324 : Ref sig .tc := ⟨.hbm, 429, rfl⟩
abbrev main_cst_75 : Ref sig .tc := ⟨.hbm, 430, rfl⟩
abbrev main_v325 : Ref sig .tc := ⟨.hbm, 431, rfl⟩
abbrev main_c_76 : Ref sig .tc := ⟨.hbm, 432, rfl⟩
abbrev main_v326 : Ref sig .tc := ⟨.hbm, 433, rfl⟩
abbrev main_v327 : Ref sig .tc := ⟨.hbm, 434, rfl⟩
abbrev main_c_77 : Ref sig .tc := ⟨.hbm, 435, rfl⟩
abbrev main_v328 : Ref sig .tc := ⟨.hbm, 436, rfl⟩
abbrev main_v329 : Ref sig .tc := ⟨.hbm, 437, rfl⟩
abbrev main_v330 : Ref sig .tc := ⟨.hbm, 438, rfl⟩
abbrev main_v331 : Ref sig .tc := ⟨.hbm, 439, rfl⟩
abbrev main_v332 : Ref sig .tc := ⟨.hbm, 440, rfl⟩
abbrev main_v333 : Ref sig .tc := ⟨.hbm, 441, rfl⟩
abbrev main_v334 : Ref sig .tc := ⟨.hbm, 442, rfl⟩
abbrev main_v335 : Ref sig .tc := ⟨.hbm, 443, rfl⟩
abbrev main_v336 : Ref sig .tc := ⟨.hbm, 444, rfl⟩
abbrev main_v337_0 : Ref sig .tc := ⟨.hbm, 445, rfl⟩
abbrev main_v337_1 : Ref sig .tc := ⟨.hbm, 446, rfl⟩
abbrev main_v338 : Ref sig .tc := ⟨.hbm, 447, rfl⟩
abbrev main_v339 : Ref sig .tc := ⟨.hbm, 448, rfl⟩
abbrev main_v340 : Ref sig .tc := ⟨.hbm, 449, rfl⟩
abbrev main_v341 : Ref sig .tc := ⟨.hbm, 450, rfl⟩
abbrev main_v342 : Ref sig .tc := ⟨.hbm, 451, rfl⟩
abbrev main_v343 : Ref sig .tc := ⟨.hbm, 452, rfl⟩
abbrev main_v344 : Ref sig .tc := ⟨.hbm, 453, rfl⟩
abbrev main_v345 : Ref sig .tc := ⟨.hbm, 454, rfl⟩
abbrev main_v346 : Ref sig .tc := ⟨.hbm, 455, rfl⟩
abbrev main_v347 : Ref sig .tc := ⟨.hbm, 456, rfl⟩
abbrev main_cst_78 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_cst_79 : Ref sig .tc := ⟨.hbm, 461, rfl⟩
abbrev main_v351 : Ref sig .tc := ⟨.hbm, 462, rfl⟩
abbrev main_c_80 : Ref sig .tc := ⟨.hbm, 463, rfl⟩
abbrev main_v352 : Ref sig .tc := ⟨.hbm, 464, rfl⟩
abbrev main_v353 : Ref sig .tc := ⟨.hbm, 465, rfl⟩
abbrev main_c_81 : Ref sig .tc := ⟨.hbm, 466, rfl⟩
abbrev main_v354 : Ref sig .tc := ⟨.hbm, 467, rfl⟩
abbrev main_v355 : Ref sig .tc := ⟨.hbm, 468, rfl⟩
abbrev main_v356 : Ref sig .tc := ⟨.hbm, 469, rfl⟩
abbrev main_v357 : Ref sig .tc := ⟨.hbm, 470, rfl⟩
abbrev main_v358 : Ref sig .tc := ⟨.hbm, 471, rfl⟩
abbrev main_cst_82 : Ref sig .tc := ⟨.hbm, 472, rfl⟩
abbrev main_v359 : Ref sig .tc := ⟨.hbm, 473, rfl⟩
abbrev main_v360 : Ref sig .tc := ⟨.hbm, 474, rfl⟩
abbrev main_v361 : Ref sig .tc := ⟨.hbm, 475, rfl⟩
abbrev main_c_83 : Ref sig .tc := ⟨.hbm, 476, rfl⟩
abbrev main_v362 : Ref sig .tc := ⟨.hbm, 477, rfl⟩
abbrev main_v363 : Ref sig .tc := ⟨.hbm, 478, rfl⟩
abbrev main_c_84 : Ref sig .tc := ⟨.hbm, 479, rfl⟩
abbrev main_v364 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_c_85 : Ref sig .tc := ⟨.hbm, 486, rfl⟩
abbrev main_v370 : Ref sig .tc := ⟨.hbm, 487, rfl⟩
abbrev main_v371 : Ref sig .tc := ⟨.hbm, 488, rfl⟩
abbrev main_c_86 : Ref sig .tc := ⟨.hbm, 489, rfl⟩
abbrev main_v372 : Ref sig .tc := ⟨.hbm, 490, rfl⟩
abbrev main_v373 : Ref sig .tc := ⟨.hbm, 491, rfl⟩
abbrev main_v374 : Ref sig .tc := ⟨.hbm, 492, rfl⟩
abbrev main_v375 : Ref sig .tc := ⟨.hbm, 493, rfl⟩
abbrev main_v376 : Ref sig .tc := ⟨.hbm, 494, rfl⟩
abbrev main_v377 : Ref sig .tc := ⟨.hbm, 495, rfl⟩
abbrev main_c_87 : Ref sig .tc := ⟨.hbm, 496, rfl⟩
abbrev main_v378 : Ref sig .tc := ⟨.hbm, 497, rfl⟩
abbrev main_v379 : Ref sig .tc := ⟨.hbm, 498, rfl⟩
abbrev main_c_88 : Ref sig .tc := ⟨.hbm, 499, rfl⟩
abbrev main_v380 : Ref sig .tc := ⟨.hbm, 500, rfl⟩
abbrev main_v381 : Ref sig .tc := ⟨.hbm, 501, rfl⟩
abbrev main_v382 : Ref sig .tc := ⟨.hbm, 502, rfl⟩
abbrev main_v383 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_v387 : Ref sig .tc := ⟨.hbm, 507, rfl⟩
abbrev main_cst_89 : Ref sig .tc := ⟨.hbm, 508, rfl⟩
abbrev main_v388 : Ref sig .tc := ⟨.hbm, 509, rfl⟩
abbrev main_c_90 : Ref sig .tc := ⟨.hbm, 510, rfl⟩
abbrev main_v389 : Ref sig .tc := ⟨.hbm, 511, rfl⟩
abbrev main_v390 : Ref sig .tc := ⟨.hbm, 512, rfl⟩
abbrev main_c_91 : Ref sig .tc := ⟨.hbm, 513, rfl⟩
abbrev main_v391 : Ref sig .tc := ⟨.hbm, 514, rfl⟩
abbrev main_v392 : Ref sig .tc := ⟨.hbm, 515, rfl⟩
abbrev main_v393 : Ref sig .tc := ⟨.hbm, 516, rfl⟩
abbrev main_v394 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_v398 : Ref sig .tc := ⟨.hbm, 521, rfl⟩
abbrev main_v399 : Ref sig .tc := ⟨.hbm, 522, rfl⟩
abbrev main_v400_0 : Ref sig .tc := ⟨.hbm, 523, rfl⟩
abbrev main_v400_1 : Ref sig .tc := ⟨.hbm, 524, rfl⟩
abbrev main_v401 : Ref sig .tc := ⟨.hbm, 525, rfl⟩
abbrev main_cst_92 : Ref sig .tc := ⟨.hbm, 526, rfl⟩
abbrev main_v402 : Ref sig .tc := ⟨.hbm, 527, rfl⟩
abbrev main_c_93 : Ref sig .tc := ⟨.hbm, 528, rfl⟩
abbrev main_v403 : Ref sig .tc := ⟨.hbm, 529, rfl⟩
abbrev main_v404 : Ref sig .tc := ⟨.hbm, 530, rfl⟩
abbrev main_c_94 : Ref sig .tc := ⟨.hbm, 531, rfl⟩
abbrev main_v405 : Ref sig .tc := ⟨.hbm, 532, rfl⟩
abbrev main_v406 : Ref sig .tc := ⟨.hbm, 533, rfl⟩
abbrev main_v407 : Ref sig .tc := ⟨.hbm, 534, rfl⟩
abbrev main_v408 : Ref sig .tc := ⟨.hbm, 535, rfl⟩
abbrev main_v409 : Ref sig .tc := ⟨.hbm, 536, rfl⟩
abbrev main_cst_95 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_c_96 : Ref sig .tc := ⟨.hbm, 541, rfl⟩
abbrev main_v413 : Ref sig .tc := ⟨.hbm, 542, rfl⟩
abbrev main_v414 : Ref sig .tc := ⟨.hbm, 543, rfl⟩
abbrev main_c_97 : Ref sig .tc := ⟨.hbm, 544, rfl⟩
abbrev main_v415 : Ref sig .tc := ⟨.hbm, 545, rfl⟩
abbrev main_v416 : Ref sig .tc := ⟨.hbm, 546, rfl⟩
abbrev main_v417 : Ref sig .tc := ⟨.hbm, 547, rfl⟩
abbrev main_v418 : Ref sig .tc := ⟨.hbm, 548, rfl⟩
abbrev main_v419 : Ref sig .tc := ⟨.hbm, 549, rfl⟩
abbrev main_v420 : Ref sig .tc := ⟨.hbm, 550, rfl⟩
abbrev main_c_98 : Ref sig .tc := ⟨.hbm, 551, rfl⟩
abbrev main_v421 : Ref sig .tc := ⟨.hbm, 552, rfl⟩
abbrev main_v422 : Ref sig .tc := ⟨.hbm, 553, rfl⟩
abbrev main_c_99 : Ref sig .tc := ⟨.hbm, 554, rfl⟩
abbrev main_v423 : Ref sig .tc := ⟨.hbm, 555, rfl⟩
abbrev main_v424 : Ref sig .tc := ⟨.hbm, 556, rfl⟩
abbrev main_v425 : Ref sig .tc := ⟨.hbm, 557, rfl⟩
abbrev main_v426 : Ref sig .tc := ⟨.hbm, 558, rfl⟩
abbrev main_v427 : Ref sig .tc := ⟨.hbm, 559, rfl⟩
abbrev main_v428 : Ref sig .tc := ⟨.hbm, 560, rfl⟩
abbrev main_c_100 : Ref sig .tc := ⟨.hbm, 561, rfl⟩
abbrev main_v429 : Ref sig .tc := ⟨.hbm, 562, rfl⟩
abbrev main_v430 : Ref sig .tc := ⟨.hbm, 563, rfl⟩
abbrev main_c_101 : Ref sig .tc := ⟨.hbm, 564, rfl⟩
abbrev main_v431 : Ref sig .tc := ⟨.hbm, 565, rfl⟩
abbrev main_v432 : Ref sig .tc := ⟨.hbm, 566, rfl⟩
abbrev main_v433 : Ref sig .tc := ⟨.hbm, 567, rfl⟩
abbrev main_v434 : Ref sig .tc := ⟨.hbm, 568, rfl⟩
abbrev main_v435 : Ref sig .tc := ⟨.hbm, 569, rfl⟩
abbrev main_v436 : Ref sig .tc := ⟨.hbm, 570, rfl⟩
abbrev main_v437 : Ref sig .tc := ⟨.hbm, 571, rfl⟩
abbrev main_v438 : Ref sig .tc := ⟨.hbm, 572, rfl⟩
abbrev main_cst_102 : Ref sig .tc := ⟨.hbm, 573, rfl⟩
abbrev main_v439 : Ref sig .tc := ⟨.hbm, 574, rfl⟩
abbrev main_c_103 : Ref sig .tc := ⟨.hbm, 575, rfl⟩
abbrev main_v440 : Ref sig .tc := ⟨.hbm, 576, rfl⟩
abbrev main_v441 : Ref sig .tc := ⟨.hbm, 577, rfl⟩
abbrev main_c_104 : Ref sig .tc := ⟨.hbm, 578, rfl⟩
abbrev main_v442 : Ref sig .tc := ⟨.hbm, 579, rfl⟩
abbrev main_v443 : Ref sig .tc := ⟨.hbm, 580, rfl⟩
abbrev main_v444 : Ref sig .tc := ⟨.hbm, 581, rfl⟩
abbrev main_v445 : Ref sig .tc := ⟨.hbm, 582, rfl⟩
abbrev main_v446 : Ref sig .tc := ⟨.hbm, 583, rfl⟩
abbrev main_v447 : Ref sig .tc := ⟨.hbm, 584, rfl⟩
abbrev main_v448 : Ref sig .tc := ⟨.hbm, 585, rfl⟩
abbrev main_v449 : Ref sig .tc := ⟨.hbm, 586, rfl⟩
abbrev main_v450 : Ref sig .tc := ⟨.hbm, 587, rfl⟩
abbrev main_v451_0 : Ref sig .tc := ⟨.hbm, 588, rfl⟩
abbrev main_v451_1 : Ref sig .tc := ⟨.hbm, 589, rfl⟩
abbrev main_v452 : Ref sig .tc := ⟨.hbm, 590, rfl⟩
abbrev main_cst_105 : Ref sig .tc := ⟨.hbm, 591, rfl⟩
abbrev main_v453 : Ref sig .tc := ⟨.hbm, 592, rfl⟩
abbrev main_c_106 : Ref sig .tc := ⟨.hbm, 593, rfl⟩
abbrev main_v454 : Ref sig .tc := ⟨.hbm, 594, rfl⟩
abbrev main_v455 : Ref sig .tc := ⟨.hbm, 595, rfl⟩
abbrev main_c_107 : Ref sig .tc := ⟨.hbm, 596, rfl⟩
abbrev main_v456 : Ref sig .tc := ⟨.hbm, 597, rfl⟩
abbrev main_v457 : Ref sig .tc := ⟨.hbm, 598, rfl⟩
abbrev main_v458 : Ref sig .tc := ⟨.hbm, 599, rfl⟩
abbrev main_v459 : Ref sig .tc := ⟨.hbm, 600, rfl⟩
abbrev main_v460 : Ref sig .tc := ⟨.hbm, 601, rfl⟩
abbrev main_cst_108 : Ref sig .tc := ⟨.hbm, 602, rfl⟩
abbrev main_v461 : Ref sig .tc := ⟨.hbm, 603, rfl⟩
abbrev main_v462 : Ref sig .tc := ⟨.hbm, 604, rfl⟩
abbrev main_v463 : Ref sig .tc := ⟨.hbm, 605, rfl⟩
abbrev main_c_109 : Ref sig .tc := ⟨.hbm, 606, rfl⟩
abbrev main_v464 : Ref sig .tc := ⟨.hbm, 607, rfl⟩
abbrev main_v465 : Ref sig .tc := ⟨.hbm, 608, rfl⟩
abbrev main_c_110 : Ref sig .tc := ⟨.hbm, 609, rfl⟩
abbrev main_v466 : Ref sig .tc := ⟨.hbm, 610, rfl⟩
abbrev main_v467 : Ref sig .tc := ⟨.hbm, 611, rfl⟩
abbrev main_v468 : Ref sig .tc := ⟨.hbm, 612, rfl⟩
abbrev main_v469 : Ref sig .tc := ⟨.hbm, 613, rfl⟩
abbrev main_v470 : Ref sig .tc := ⟨.hbm, 614, rfl⟩
abbrev main_v471 : Ref sig .tc := ⟨.hbm, 615, rfl⟩
abbrev main_c_111 : Ref sig .tc := ⟨.hbm, 616, rfl⟩
abbrev main_v472 : Ref sig .tc := ⟨.hbm, 617, rfl⟩
abbrev main_v473 : Ref sig .tc := ⟨.hbm, 618, rfl⟩
abbrev main_c_112 : Ref sig .tc := ⟨.hbm, 619, rfl⟩
abbrev main_v474 : Ref sig .tc := ⟨.hbm, 620, rfl⟩
abbrev main_v475 : Ref sig .tc := ⟨.hbm, 621, rfl⟩
abbrev main_v476 : Ref sig .tc := ⟨.hbm, 622, rfl⟩
abbrev main_v477 : Ref sig .tc := ⟨.hbm, 623, rfl⟩
abbrev main_v478 : Ref sig .tc := ⟨.hbm, 624, rfl⟩
abbrev main_v479 : Ref sig .tc := ⟨.hbm, 625, rfl⟩
abbrev main_c_113 : Ref sig .tc := ⟨.hbm, 626, rfl⟩
abbrev main_v480 : Ref sig .tc := ⟨.hbm, 627, rfl⟩
abbrev main_v481 : Ref sig .tc := ⟨.hbm, 628, rfl⟩
abbrev main_c_114 : Ref sig .tc := ⟨.hbm, 629, rfl⟩
abbrev main_v482 : Ref sig .tc := ⟨.hbm, 630, rfl⟩
abbrev main_v483 : Ref sig .tc := ⟨.hbm, 631, rfl⟩
abbrev main_v484 : Ref sig .tc := ⟨.hbm, 632, rfl⟩
abbrev main_v485 : Ref sig .tc := ⟨.hbm, 633, rfl⟩
abbrev main_v486 : Ref sig .tc := ⟨.hbm, 634, rfl⟩
abbrev main_v487 : Ref sig .tc := ⟨.hbm, 635, rfl⟩
abbrev main_v488 : Ref sig .tc := ⟨.hbm, 636, rfl⟩
abbrev main_v489 : Ref sig .tc := ⟨.hbm, 637, rfl⟩
abbrev main_cst_115 : Ref sig .tc := ⟨.hbm, 638, rfl⟩
abbrev main_v490 : Ref sig .tc := ⟨.hbm, 639, rfl⟩
abbrev main_c_116 : Ref sig .tc := ⟨.hbm, 640, rfl⟩
abbrev main_v491 : Ref sig .tc := ⟨.hbm, 641, rfl⟩
abbrev main_v492 : Ref sig .tc := ⟨.hbm, 642, rfl⟩
abbrev main_c_117 : Ref sig .tc := ⟨.hbm, 643, rfl⟩
abbrev main_v493 : Ref sig .tc := ⟨.hbm, 644, rfl⟩
abbrev main_v494 : Ref sig .tc := ⟨.hbm, 645, rfl⟩
abbrev main_v495 : Ref sig .tc := ⟨.hbm, 646, rfl⟩
abbrev main_v496 : Ref sig .tc := ⟨.hbm, 647, rfl⟩
abbrev main_v497 : Ref sig .tc := ⟨.hbm, 648, rfl⟩
abbrev main_v498 : Ref sig .tc := ⟨.hbm, 649, rfl⟩
abbrev main_v499 : Ref sig .tc := ⟨.hbm, 650, rfl⟩
abbrev main_v500 : Ref sig .tc := ⟨.hbm, 651, rfl⟩
abbrev main_v501 : Ref sig .tc := ⟨.hbm, 652, rfl⟩
abbrev main_v502_0 : Ref sig .tc := ⟨.hbm, 653, rfl⟩
abbrev main_v502_1 : Ref sig .tc := ⟨.hbm, 654, rfl⟩
abbrev main_cst_118 : Ref sig .tc := ⟨.hbm, 655, rfl⟩
abbrev main_v503 : Ref sig .tc := ⟨.hbm, 656, rfl⟩
abbrev main_c_119 : Ref sig .tc := ⟨.hbm, 657, rfl⟩
abbrev main_v504 : Ref sig .tc := ⟨.hbm, 658, rfl⟩
abbrev main_v505 : Ref sig .tc := ⟨.hbm, 659, rfl⟩
abbrev main_c_120 : Ref sig .tc := ⟨.hbm, 660, rfl⟩
abbrev main_v506 : Ref sig .tc := ⟨.hbm, 661, rfl⟩
abbrev main_v507 : Ref sig .tc := ⟨.hbm, 662, rfl⟩
abbrev main_v508 : Ref sig .tc := ⟨.hbm, 663, rfl⟩
abbrev main_v509 : Ref sig .tc := ⟨.hbm, 664, rfl⟩
abbrev main_cst_121 : Ref sig .tc := ⟨.hbm, 665, rfl⟩
abbrev main_v510 : Ref sig .tc := ⟨.hbm, 666, rfl⟩
abbrev main_v511 : Ref sig .tc := ⟨.hbm, 667, rfl⟩
abbrev main_cst_122 : Ref sig .tc := ⟨.hbm, 668, rfl⟩
abbrev main_v512 : Ref sig .tc := ⟨.hbm, 669, rfl⟩
abbrev main_c_123 : Ref sig .tc := ⟨.hbm, 670, rfl⟩
abbrev main_v513 : Ref sig .tc := ⟨.hbm, 671, rfl⟩
abbrev main_v514 : Ref sig .tc := ⟨.hbm, 672, rfl⟩
abbrev main_c_124 : Ref sig .tc := ⟨.hbm, 673, rfl⟩
abbrev main_v515 : Ref sig .tc := ⟨.hbm, 674, rfl⟩
abbrev main_v516 : Ref sig .tc := ⟨.hbm, 675, rfl⟩
abbrev main_v517 : Ref sig .tc := ⟨.hbm, 676, rfl⟩
abbrev main_v518 : Ref sig .tc := ⟨.hbm, 677, rfl⟩
abbrev main_v519 : Ref sig .tc := ⟨.hbm, 678, rfl⟩
abbrev main_cst_125 : Ref sig .tc := ⟨.hbm, 679, rfl⟩
abbrev main_v520 : Ref sig .tc := ⟨.hbm, 680, rfl⟩
abbrev main_v521 : Ref sig .tc := ⟨.hbm, 681, rfl⟩
abbrev main_v522 : Ref sig .tc := ⟨.hbm, 682, rfl⟩
abbrev main_v523 : Ref sig .tc := ⟨.hbm, 683, rfl⟩
abbrev main_v524 : Ref sig .tc := ⟨.hbm, 684, rfl⟩
abbrev main_cst_126 : Ref sig .tc := ⟨.hbm, 685, rfl⟩
abbrev main_v525 : Ref sig .tc := ⟨.hbm, 686, rfl⟩
abbrev main_c_127 : Ref sig .tc := ⟨.hbm, 687, rfl⟩
abbrev main_v526 : Ref sig .tc := ⟨.hbm, 688, rfl⟩
abbrev main_v527 : Ref sig .tc := ⟨.hbm, 689, rfl⟩
abbrev main_c_128 : Ref sig .tc := ⟨.hbm, 690, rfl⟩
abbrev main_v528 : Ref sig .tc := ⟨.hbm, 691, rfl⟩
abbrev main_v529 : Ref sig .tc := ⟨.hbm, 692, rfl⟩
abbrev main_v530 : Ref sig .tc := ⟨.hbm, 693, rfl⟩
abbrev main_v531 : Ref sig .tc := ⟨.hbm, 694, rfl⟩
abbrev main_cst_129 : Ref sig .tc := ⟨.hbm, 695, rfl⟩
abbrev main_v532 : Ref sig .tc := ⟨.hbm, 696, rfl⟩
abbrev main_v533 : Ref sig .tc := ⟨.hbm, 697, rfl⟩
abbrev main_cst_130 : Ref sig .tc := ⟨.hbm, 698, rfl⟩
abbrev main_v534 : Ref sig .tc := ⟨.hbm, 699, rfl⟩
abbrev main_c_131 : Ref sig .tc := ⟨.hbm, 700, rfl⟩
abbrev main_v535 : Ref sig .tc := ⟨.hbm, 701, rfl⟩
abbrev main_v536 : Ref sig .tc := ⟨.hbm, 702, rfl⟩
abbrev main_c_132 : Ref sig .tc := ⟨.hbm, 703, rfl⟩
abbrev main_v537 : Ref sig .tc := ⟨.hbm, 704, rfl⟩
abbrev main_v538 : Ref sig .tc := ⟨.hbm, 705, rfl⟩
abbrev main_v539 : Ref sig .tc := ⟨.hbm, 706, rfl⟩
abbrev main_v540 : Ref sig .tc := ⟨.hbm, 707, rfl⟩
abbrev main_v541 : Ref sig .tc := ⟨.hbm, 708, rfl⟩
abbrev main_cst_133 : Ref sig .tc := ⟨.hbm, 709, rfl⟩
abbrev main_v542 : Ref sig .tc := ⟨.hbm, 710, rfl⟩
abbrev main_v543 : Ref sig .tc := ⟨.hbm, 711, rfl⟩
abbrev main_v544 : Ref sig .tc := ⟨.hbm, 712, rfl⟩
abbrev main_v545 : Ref sig .tc := ⟨.hbm, 713, rfl⟩
abbrev main_v546 : Ref sig .tc := ⟨.hbm, 714, rfl⟩
abbrev main_v547 : Ref sig .tc := ⟨.hbm, 715, rfl⟩
abbrev main_v548 : Ref sig .tc := ⟨.hbm, 716, rfl⟩
abbrev main_v549 : Ref sig .tc := ⟨.hbm, 717, rfl⟩
abbrev main_v550 : Ref sig .tc := ⟨.hbm, 718, rfl⟩
abbrev main_v551 : Ref sig .tc := ⟨.hbm, 719, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc4_stg6_0 : Ref sig .tc := ⟨.vmem, 43, rfl⟩
abbrev cc4_stg6_1 : Ref sig .tc := ⟨.vmem, 44, rfl⟩
abbrev cc4_stg7_0 : Ref sig .tc := ⟨.vmem, 45, rfl⟩
abbrev cc4_stg7_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc6_stg6_0 : Ref sig .tc := ⟨.vmem, 62, rfl⟩
abbrev cc6_stg6_1 : Ref sig .tc := ⟨.vmem, 63, rfl⟩
abbrev cc6_stg7_0 : Ref sig .tc := ⟨.vmem, 64, rfl⟩
abbrev cc6_stg7_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg2_1 : Ref sig .tc := ⟨.vmem, 70, rfl⟩
abbrev cc8_stg0_0 : Ref sig .tc := ⟨.vmem, 71, rfl⟩
abbrev cc8_stg0_1 : Ref sig .tc := ⟨.vmem, 72, rfl⟩
abbrev cc8_stg1_0 : Ref sig .tc := ⟨.vmem, 73, rfl⟩
abbrev cc8_stg1_1 : Ref sig .tc := ⟨.vmem, 74, rfl⟩
abbrev cc8_stg2_0 : Ref sig .tc := ⟨.vmem, 75, rfl⟩
abbrev cc8_stg2_1 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg5_1 : Ref sig .tc := ⟨.vmem, 80, rfl⟩
abbrev cc8_stg6_0 : Ref sig .tc := ⟨.vmem, 81, rfl⟩
abbrev cc8_stg6_1 : Ref sig .tc := ⟨.vmem, 82, rfl⟩
abbrev cc8_stg7_0 : Ref sig .tc := ⟨.vmem, 83, rfl⟩
abbrev cc8_stg7_1 : Ref sig .tc := ⟨.vmem, 84, rfl⟩
abbrev cc9_stg0_0 : Ref sig .tc := ⟨.vmem, 85, rfl⟩
abbrev cc9_stg0_1 : Ref sig .tc := ⟨.vmem, 86, rfl⟩
abbrev cc9_stg1_0 : Ref sig .tc := ⟨.vmem, 87, rfl⟩
abbrev cc9_stg2_0 : Ref sig .tc := ⟨.vmem, 88, rfl⟩
abbrev cc9_stg2_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg1_1 : Ref sig .tc := ⟨.vmem, 93, rfl⟩
abbrev cc10_stg2_0 : Ref sig .tc := ⟨.vmem, 94, rfl⟩
abbrev cc10_stg2_1 : Ref sig .tc := ⟨.vmem, 95, rfl⟩
abbrev cc10_stg3_0 : Ref sig .tc := ⟨.vmem, 96, rfl⟩
abbrev cc10_stg4_0 : Ref sig .tc := ⟨.vmem, 97, rfl⟩
abbrev cc10_stg5_0 : Ref sig .tc := ⟨.vmem, 98, rfl⟩
abbrev cc10_stg5_1 : Ref sig .tc := ⟨.vmem, 99, rfl⟩
abbrev cc10_stg6_0 : Ref sig .tc := ⟨.vmem, 100, rfl⟩
abbrev cc10_stg6_1 : Ref sig .tc := ⟨.vmem, 101, rfl⟩
abbrev cc10_stg7_0 : Ref sig .tc := ⟨.vmem, 102, rfl⟩
abbrev cc10_stg7_1 : Ref sig .tc := ⟨.vmem, 103, rfl⟩
abbrev cc11_stg0_0 : Ref sig .tc := ⟨.vmem, 104, rfl⟩
abbrev cc11_stg0_1 : Ref sig .tc := ⟨.vmem, 105, rfl⟩
abbrev cc11_stg1_0 : Ref sig .tc := ⟨.vmem, 106, rfl⟩
abbrev cc11_stg2_0 : Ref sig .tc := ⟨.vmem, 107, rfl⟩
abbrev cc11_stg2_1 : Ref sig .tc := ⟨.vmem, 108, rfl⟩
abbrev cc12_stg0_0 : Ref sig .tc := ⟨.vmem, 109, rfl⟩
abbrev cc12_stg0_1 : Ref sig .tc := ⟨.vmem, 110, rfl⟩
abbrev cc12_stg1_0 : Ref sig .tc := ⟨.vmem, 111, rfl⟩
abbrev cc12_stg1_1 : Ref sig .tc := ⟨.vmem, 112, rfl⟩
abbrev cc12_stg2_0 : Ref sig .tc := ⟨.vmem, 113, rfl⟩
abbrev cc12_stg2_1 : Ref sig .tc := ⟨.vmem, 114, rfl⟩
abbrev cc12_stg3_0 : Ref sig .tc := ⟨.vmem, 115, rfl⟩
abbrev cc12_stg4_0 : Ref sig .tc := ⟨.vmem, 116, rfl⟩
abbrev cc12_stg5_0 : Ref sig .tc := ⟨.vmem, 117, rfl⟩
abbrev cc12_stg5_1 : Ref sig .tc := ⟨.vmem, 118, rfl⟩
abbrev cc12_stg6_0 : Ref sig .tc := ⟨.vmem, 119, rfl⟩
abbrev cc12_stg6_1 : Ref sig .tc := ⟨.vmem, 120, rfl⟩
abbrev cc12_stg7_0 : Ref sig .tc := ⟨.vmem, 121, rfl⟩
abbrev cc12_stg7_1 : Ref sig .tc := ⟨.vmem, 122, rfl⟩
abbrev cc13_stg0_0 : Ref sig .tc := ⟨.vmem, 123, rfl⟩
abbrev cc13_stg0_1 : Ref sig .tc := ⟨.vmem, 124, rfl⟩
abbrev cc13_stg1_0 : Ref sig .tc := ⟨.vmem, 125, rfl⟩
abbrev cc13_stg2_0 : Ref sig .tc := ⟨.vmem, 126, rfl⟩
abbrev cc13_stg2_1 : Ref sig .tc := ⟨.vmem, 127, rfl⟩
abbrev cc14_stg0_0 : Ref sig .tc := ⟨.vmem, 128, rfl⟩
abbrev cc14_stg0_1 : Ref sig .tc := ⟨.vmem, 129, rfl⟩
abbrev cc14_stg1_0 : Ref sig .tc := ⟨.vmem, 130, rfl⟩
abbrev cc14_stg1_1 : Ref sig .tc := ⟨.vmem, 131, rfl⟩
abbrev cc14_stg2_0 : Ref sig .tc := ⟨.vmem, 132, rfl⟩
abbrev cc14_stg2_1 : Ref sig .tc := ⟨.vmem, 133, rfl⟩
abbrev cc14_stg3_0 : Ref sig .tc := ⟨.vmem, 134, rfl⟩
abbrev cc14_stg4_0 : Ref sig .tc := ⟨.vmem, 135, rfl⟩
abbrev cc14_stg5_0 : Ref sig .tc := ⟨.vmem, 136, rfl⟩
abbrev cc14_stg5_1 : Ref sig .tc := ⟨.vmem, 137, rfl⟩
abbrev cc14_stg6_0 : Ref sig .tc := ⟨.vmem, 138, rfl⟩
abbrev cc14_stg6_1 : Ref sig .tc := ⟨.vmem, 139, rfl⟩
abbrev cc14_stg7_0 : Ref sig .tc := ⟨.vmem, 140, rfl⟩
abbrev cc14_stg7_1 : Ref sig .tc := ⟨.vmem, 141, rfl⟩
abbrev cc15_stg0_0 : Ref sig .tc := ⟨.vmem, 142, rfl⟩
abbrev cc15_stg0_1 : Ref sig .tc := ⟨.vmem, 143, rfl⟩
abbrev cc15_stg1_0 : Ref sig .tc := ⟨.vmem, 144, rfl⟩
abbrev cc15_stg2_0 : Ref sig .tc := ⟨.vmem, 145, rfl⟩
abbrev cc15_stg2_1 : Ref sig .tc := ⟨.vmem, 146, rfl⟩
abbrev cc16_stg0_0 : Ref sig .tc := ⟨.vmem, 147, rfl⟩
abbrev cc16_stg0_1 : Ref sig .tc := ⟨.vmem, 148, rfl⟩
abbrev cc16_stg1_0 : Ref sig .tc := ⟨.vmem, 149, rfl⟩
abbrev cc16_stg1_1 : Ref sig .tc := ⟨.vmem, 150, rfl⟩
abbrev cc16_stg2_0 : Ref sig .tc := ⟨.vmem, 151, rfl⟩
abbrev cc16_stg2_1 : Ref sig .tc := ⟨.vmem, 152, rfl⟩
abbrev cc16_stg3_0 : Ref sig .tc := ⟨.vmem, 153, rfl⟩
abbrev cc16_stg4_0 : Ref sig .tc := ⟨.vmem, 154, rfl⟩
abbrev cc16_stg5_0 : Ref sig .tc := ⟨.vmem, 155, rfl⟩
abbrev cc16_stg5_1 : Ref sig .tc := ⟨.vmem, 156, rfl⟩
abbrev cc16_stg6_0 : Ref sig .tc := ⟨.vmem, 157, rfl⟩
abbrev cc16_stg6_1 : Ref sig .tc := ⟨.vmem, 158, rfl⟩
abbrev cc16_stg7_0 : Ref sig .tc := ⟨.vmem, 159, rfl⟩
abbrev cc16_stg7_1 : Ref sig .tc := ⟨.vmem, 160, rfl⟩
abbrev cc17_stg0_0 : Ref sig .tc := ⟨.vmem, 161, rfl⟩
abbrev cc17_stg0_1 : Ref sig .tc := ⟨.vmem, 162, rfl⟩
abbrev cc17_stg1_0 : Ref sig .tc := ⟨.vmem, 163, rfl⟩
abbrev cc17_stg2_0 : Ref sig .tc := ⟨.vmem, 164, rfl⟩
abbrev cc17_stg2_1 : Ref sig .tc := ⟨.vmem, 165, rfl⟩
abbrev cc18_stg0_0 : Ref sig .tc := ⟨.vmem, 166, rfl⟩
abbrev cc18_stg0_1 : Ref sig .tc := ⟨.vmem, 167, rfl⟩
abbrev cc18_stg1_0 : Ref sig .tc := ⟨.vmem, 168, rfl⟩
abbrev cc18_stg1_1 : Ref sig .tc := ⟨.vmem, 169, rfl⟩
abbrev cc18_stg2_0 : Ref sig .tc := ⟨.vmem, 170, rfl⟩
abbrev cc18_stg2_1 : Ref sig .tc := ⟨.vmem, 171, rfl⟩
abbrev cc18_stg3_0 : Ref sig .tc := ⟨.vmem, 172, rfl⟩
abbrev cc18_stg4_0 : Ref sig .tc := ⟨.vmem, 173, rfl⟩
abbrev cc18_stg5_0 : Ref sig .tc := ⟨.vmem, 174, rfl⟩
abbrev cc18_stg5_1 : Ref sig .tc := ⟨.vmem, 175, rfl⟩
abbrev cc18_stg6_0 : Ref sig .tc := ⟨.vmem, 176, rfl⟩
abbrev cc18_stg6_1 : Ref sig .tc := ⟨.vmem, 177, rfl⟩
abbrev cc18_stg7_0 : Ref sig .tc := ⟨.vmem, 178, rfl⟩
abbrev cc18_stg7_1 : Ref sig .tc := ⟨.vmem, 179, rfl⟩
abbrev cc19_stg0_0 : Ref sig .tc := ⟨.vmem, 180, rfl⟩
abbrev cc19_stg0_1 : Ref sig .tc := ⟨.vmem, 181, rfl⟩
abbrev cc19_stg1_0 : Ref sig .tc := ⟨.vmem, 182, rfl⟩
abbrev cc19_stg1_1 : Ref sig .tc := ⟨.vmem, 183, rfl⟩
abbrev cc19_stg2_0 : Ref sig .tc := ⟨.vmem, 184, rfl⟩
abbrev cc19_stg2_1 : Ref sig .tc := ⟨.vmem, 185, rfl⟩
abbrev cc19_stg3_0 : Ref sig .tc := ⟨.vmem, 186, rfl⟩
abbrev cc19_stg3_1 : Ref sig .tc := ⟨.vmem, 187, rfl⟩
abbrev cc20_stg0_0 : Ref sig .tc := ⟨.vmem, 188, rfl⟩
abbrev cc20_stg0_1 : Ref sig .tc := ⟨.vmem, 189, rfl⟩
abbrev cc20_stg1_0 : Ref sig .tc := ⟨.vmem, 190, rfl⟩
abbrev cc20_stg2_0 : Ref sig .tc := ⟨.vmem, 191, rfl⟩
abbrev cc20_stg3_0 : Ref sig .tc := ⟨.vmem, 192, rfl⟩
abbrev cc20_stg4_0 : Ref sig .tc := ⟨.vmem, 193, rfl⟩
abbrev cc20_stg5_0 : Ref sig .tc := ⟨.vmem, 194, rfl⟩
abbrev cc20_stg6_0 : Ref sig .tc := ⟨.vmem, 195, rfl⟩
abbrev cc20_stg6_1 : Ref sig .tc := ⟨.vmem, 196, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem4_0 : DmaSem sig := 40
abbrev cc4_sem5_0 : DmaSem sig := 41
abbrev cc4_sem5_1 : DmaSem sig := 42
abbrev cc4_sem6_0 : DmaSem sig := 43
abbrev cc4_sem6_1 : DmaSem sig := 44
abbrev cc4_sem7_0 : DmaSem sig := 45
abbrev cc4_sem7_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem6_1 : DmaSem sig := 63
abbrev cc6_sem7_0 : DmaSem sig := 64
abbrev cc6_sem7_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem2_1 : DmaSem sig := 70
abbrev cc8_sem0_0 : DmaSem sig := 71
abbrev cc8_sem0_1 : DmaSem sig := 72
abbrev cc8_sem1_0 : DmaSem sig := 73
abbrev cc8_sem1_1 : DmaSem sig := 74
abbrev cc8_sem2_0 : DmaSem sig := 75
abbrev cc8_sem2_1 : DmaSem sig := 76
abbrev cc8_sem3_0 : DmaSem sig := 77
abbrev cc8_sem4_0 : DmaSem sig := 78
abbrev cc8_sem5_0 : DmaSem sig := 79
abbrev cc8_sem5_1 : DmaSem sig := 80
abbrev cc8_sem6_0 : DmaSem sig := 81
abbrev cc8_sem6_1 : DmaSem sig := 82
abbrev cc8_sem7_0 : DmaSem sig := 83
abbrev cc8_sem7_1 : DmaSem sig := 84
abbrev cc9_sem0_0 : DmaSem sig := 85
abbrev cc9_sem0_1 : DmaSem sig := 86
abbrev cc9_sem1_0 : DmaSem sig := 87
abbrev cc9_sem2_0 : DmaSem sig := 88
abbrev cc9_sem2_1 : DmaSem sig := 89
abbrev cc10_sem0_0 : DmaSem sig := 90
abbrev cc10_sem0_1 : DmaSem sig := 91
abbrev cc10_sem1_0 : DmaSem sig := 92
abbrev cc10_sem1_1 : DmaSem sig := 93
abbrev cc10_sem2_0 : DmaSem sig := 94
abbrev cc10_sem2_1 : DmaSem sig := 95
abbrev cc10_sem3_0 : DmaSem sig := 96
abbrev cc10_sem4_0 : DmaSem sig := 97
abbrev cc10_sem5_0 : DmaSem sig := 98
abbrev cc10_sem5_1 : DmaSem sig := 99
abbrev cc10_sem6_0 : DmaSem sig := 100
abbrev cc10_sem6_1 : DmaSem sig := 101
abbrev cc10_sem7_0 : DmaSem sig := 102
abbrev cc10_sem7_1 : DmaSem sig := 103
abbrev cc11_sem0_0 : DmaSem sig := 104
abbrev cc11_sem0_1 : DmaSem sig := 105
abbrev cc11_sem1_0 : DmaSem sig := 106
abbrev cc11_sem2_0 : DmaSem sig := 107
abbrev cc11_sem2_1 : DmaSem sig := 108
abbrev cc12_sem0_0 : DmaSem sig := 109
abbrev cc12_sem0_1 : DmaSem sig := 110
abbrev cc12_sem1_0 : DmaSem sig := 111
abbrev cc12_sem1_1 : DmaSem sig := 112
abbrev cc12_sem2_0 : DmaSem sig := 113
abbrev cc12_sem2_1 : DmaSem sig := 114
abbrev cc12_sem3_0 : DmaSem sig := 115
abbrev cc12_sem4_0 : DmaSem sig := 116
abbrev cc12_sem5_0 : DmaSem sig := 117
abbrev cc12_sem5_1 : DmaSem sig := 118
abbrev cc12_sem6_0 : DmaSem sig := 119
abbrev cc12_sem6_1 : DmaSem sig := 120
abbrev cc12_sem7_0 : DmaSem sig := 121
abbrev cc12_sem7_1 : DmaSem sig := 122
abbrev cc13_sem0_0 : DmaSem sig := 123
abbrev cc13_sem0_1 : DmaSem sig := 124
abbrev cc13_sem1_0 : DmaSem sig := 125
abbrev cc13_sem2_0 : DmaSem sig := 126
abbrev cc13_sem2_1 : DmaSem sig := 127
abbrev cc14_sem0_0 : DmaSem sig := 128
abbrev cc14_sem0_1 : DmaSem sig := 129
abbrev cc14_sem1_0 : DmaSem sig := 130
abbrev cc14_sem1_1 : DmaSem sig := 131
abbrev cc14_sem2_0 : DmaSem sig := 132
abbrev cc14_sem2_1 : DmaSem sig := 133
abbrev cc14_sem3_0 : DmaSem sig := 134
abbrev cc14_sem4_0 : DmaSem sig := 135
abbrev cc14_sem5_0 : DmaSem sig := 136
abbrev cc14_sem5_1 : DmaSem sig := 137
abbrev cc14_sem6_0 : DmaSem sig := 138
abbrev cc14_sem6_1 : DmaSem sig := 139
abbrev cc14_sem7_0 : DmaSem sig := 140
abbrev cc14_sem7_1 : DmaSem sig := 141
abbrev cc15_sem0_0 : DmaSem sig := 142
abbrev cc15_sem0_1 : DmaSem sig := 143
abbrev cc15_sem1_0 : DmaSem sig := 144
abbrev cc15_sem2_0 : DmaSem sig := 145
abbrev cc15_sem2_1 : DmaSem sig := 146
abbrev cc16_sem0_0 : DmaSem sig := 147
abbrev cc16_sem0_1 : DmaSem sig := 148
abbrev cc16_sem1_0 : DmaSem sig := 149
abbrev cc16_sem1_1 : DmaSem sig := 150
abbrev cc16_sem2_0 : DmaSem sig := 151
abbrev cc16_sem2_1 : DmaSem sig := 152
abbrev cc16_sem3_0 : DmaSem sig := 153
abbrev cc16_sem4_0 : DmaSem sig := 154
abbrev cc16_sem5_0 : DmaSem sig := 155
abbrev cc16_sem5_1 : DmaSem sig := 156
abbrev cc16_sem6_0 : DmaSem sig := 157
abbrev cc16_sem6_1 : DmaSem sig := 158
abbrev cc16_sem7_0 : DmaSem sig := 159
abbrev cc16_sem7_1 : DmaSem sig := 160
abbrev cc17_sem0_0 : DmaSem sig := 161
abbrev cc17_sem0_1 : DmaSem sig := 162
abbrev cc17_sem1_0 : DmaSem sig := 163
abbrev cc17_sem2_0 : DmaSem sig := 164
abbrev cc17_sem2_1 : DmaSem sig := 165
abbrev cc18_sem0_0 : DmaSem sig := 166
abbrev cc18_sem0_1 : DmaSem sig := 167
abbrev cc18_sem1_0 : DmaSem sig := 168
abbrev cc18_sem1_1 : DmaSem sig := 169
abbrev cc18_sem2_0 : DmaSem sig := 170
abbrev cc18_sem2_1 : DmaSem sig := 171
abbrev cc18_sem3_0 : DmaSem sig := 172
abbrev cc18_sem4_0 : DmaSem sig := 173
abbrev cc18_sem5_0 : DmaSem sig := 174
abbrev cc18_sem5_1 : DmaSem sig := 175
abbrev cc18_sem6_0 : DmaSem sig := 176
abbrev cc18_sem6_1 : DmaSem sig := 177
abbrev cc18_sem7_0 : DmaSem sig := 178
abbrev cc18_sem7_1 : DmaSem sig := 179
abbrev cc19_sem0_0 : DmaSem sig := 180
abbrev cc19_sem0_1 : DmaSem sig := 181
abbrev cc19_sem1_0 : DmaSem sig := 182
abbrev cc19_sem1_1 : DmaSem sig := 183
abbrev cc19_sem2_0 : DmaSem sig := 184
abbrev cc19_sem2_1 : DmaSem sig := 185
abbrev cc19_sem3_0 : DmaSem sig := 186
abbrev cc19_sem3_1 : DmaSem sig := 187
abbrev cc20_sem0_0 : DmaSem sig := 188
abbrev cc20_sem0_1 : DmaSem sig := 189
abbrev cc20_sem1_0 : DmaSem sig := 190
abbrev cc20_sem2_0 : DmaSem sig := 191
abbrev cc20_sem3_0 : DmaSem sig := 192
abbrev cc20_sem4_0 : DmaSem sig := 193
abbrev cc20_sem5_0 : DmaSem sig := 194
abbrev cc20_sem6_0 : DmaSem sig := 195
abbrev cc20_sem6_1 : DmaSem sig := 196

abbrev nD : Nat := 1
abbrev τ : Topo := Topo.v7x

variable {F : FTy → Type} [FloatOps F]

abbrev grid0 : Pipeline.Grid := ⟨1, ![105], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![80], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S5000x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 2 → Memref sig .tc .vmem S5000x64 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 2 → Memref sig .tc .vmem S5000x64 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S5000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x1 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x64 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S5000x64 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S5000x64 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S5000x1 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x1 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x64 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev stage14_6 : Fin 2 → Memref sig .tc .vmem S5000x64 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev stage14_7 : Fin 2 → Memref sig .tc .vmem S5000x64 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S64x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S5000x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![5], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_6 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_7 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x1 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 1 → Memref sig .tc .vmem S1x64 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x1 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S5000x64 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev stage16_6 : Fin 2 → Memref sig .tc .vmem S5000x64 .f32 := fun | 0 => Memref.whole cc16_stg6_0 | 1 => Memref.whole cc16_stg6_1 | ⟨_ + 2, h⟩ => absurd h (Nat.not_lt.2 (Nat.le_add_left _ _))
abbrev sem16_6 : Fin 2 → DmaSem sig := fun | 0 => cc16_sem6_0 | 1 => cc16_sem6_1 | ⟨_ + 2, h⟩ => absurd h (Nat.not_lt.2 (Nat.le_add_left _ _))
abbrev reads16_6 : Fin grid16.rank → Bool := ![true]

abbrev stage16_7 : Fin 2 → Memref sig .tc .vmem S5000x64 .f32 := fun | 0 => Memref.whole cc16_stg7_0 | 1 => Memref.whole cc16_stg7_1 | ⟨_ + 2, h⟩ => absurd h (Nat.not_lt.2 (Nat.le_add_left _ _))
abbrev sem16_7 : Fin 2 → DmaSem sig := fun | 0 => cc16_sem7_0 | 1 => cc16_sem7_1 | ⟨_ + 2, h⟩ => absurd h (Nat.not_lt.2 (Nat.le_add_left _ _))
abbrev reads16_7 : Fin grid16.rank → Bool := ![true]

abbrev grid17 : Pipeline.Grid := ⟨1, ![5], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S64x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S5000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![5], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_6 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_7 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x64 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S5000x1 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 1 → Memref sig .tc .vmem S1x64 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x1 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S5000x64 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

abbrev stage18_6 : Fin 2 → Memref sig .tc .vmem S5000x64 .f32 := fun | 0 => Memref.whole cc18_stg6_0 | 1 => Memref.whole cc18_stg6_1 | ⟨_ + 2, h⟩ => absurd h (Nat.not_lt.2 (Nat.le_add_left _ _))
abbrev sem18_6 : Fin 2 → DmaSem sig := fun | 0 => cc18_sem6_0 | 1 => cc18_sem6_1 | ⟨_ + 2, h⟩ => absurd h (Nat.not_lt.2 (Nat.le_add_left _ _))
abbrev reads18_6 : Fin grid18.rank → Bool := ![true]

abbrev stage18_7 : Fin 2 → Memref sig .tc .vmem S5000x64 .f32 := fun | 0 => Memref.whole cc18_stg7_0 | 1 => Memref.whole cc18_stg7_1 | ⟨_ + 2, h⟩ => absurd h (Nat.not_lt.2 (Nat.le_add_left _ _))
abbrev sem18_7 : Fin 2 → DmaSem sig := fun | 0 => cc18_sem7_0 | 1 => cc18_sem7_1 | ⟨_ + 2, h⟩ => absurd h (Nat.not_lt.2 (Nat.le_add_left _ _))
abbrev reads18_7 : Fin grid18.rank → Bool := ![true]

abbrev grid19 : Pipeline.Grid := ⟨1, ![80], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S5000x64 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S5000x64 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 2 → Memref sig .tc .vmem S5000x64 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![80], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_5 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_6 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S5000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S64x64 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x64 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 1 → Memref sig .tc .vmem S64x2 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 1 → Memref sig .tc .vmem S1x2 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))
abbrev reads20_4 : Fin grid20.rank → Bool := ![false]

abbrev stage20_5 : Fin 1 → Memref sig .tc .vmem S1x1 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))
abbrev reads20_5 : Fin grid20.rank → Bool := ![false]

abbrev stage20_6 : Fin 2 → Memref sig .tc .vmem S5000x2 .f32 := fun | 0 => Memref.whole cc20_stg6_0 | 1 => Memref.whole cc20_stg6_1 | ⟨_ + 2, h⟩ => absurd h (Nat.not_lt.2 (Nat.le_add_left _ _))
abbrev sem20_6 : Fin 2 → DmaSem sig := fun | 0 => cc20_sem6_0 | 1 => cc20_sem6_1 | ⟨_ + 2, h⟩ => absurd h (Nat.not_lt.2 (Nat.le_add_left _ _))
abbrev reads20_6 : Fin grid20.rank → Bool := ![true]

class Facts₀ : Prop where
  concatenates_S525000x6_S525000x10_S525000x16_d1 : Shape.Concatenates [S525000x6, S525000x10] S525000x16 1
  shapeCasts_S64_S1x64 : S64.ShapeCasts S1x64
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  slices_S525000x64_S400000x64_0_0 : S525000x64.Slices ![0, 0] S400000x64
  slices_S525000x64_S100000x64_400000_0 : S525000x64.Slices ![400000, 0] S100000x64
  slices_S525000x64_S25000x64_500000_0 : S525000x64.Slices ![500000, 0] S25000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x3_S1x3_0_0 : S3x3.Slices ![0, 0] S1x3
  shapeCasts_S1x3_S3 : S1x3.ShapeCasts S3
  bcast_S_S400000x64 : S_.BroadcastsInDim S400000x64 (![] : Fin 0 → Fin S400000x64.rank)
  shapeCasts_S5000x64_S5000x64 : S5000x64.ShapeCasts S5000x64
  shapeCasts_S64x64_S64x64 : S64x64.ShapeCasts S64x64
  bcast_S_S400000 : S_.BroadcastsInDim S400000 (![] : Fin 0 → Fin S400000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  slices_S3_S1_0 : S3.Slices ![0] S1
  shapeCasts_S1_S_ : S1.ShapeCasts S_
  shapeCasts_S400000_S400000x1 : S400000.ShapeCasts S400000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  slices_S3_S1_1 : S3.Slices ![1] S1
  slices_S3_S1_2 : S3.Slices ![2] S1
  slices_S2x400000_S1x400000_0_0 : S2x400000.Slices ![0, 0] S1x400000
  shapeCasts_S1x400000_S400000 : S1x400000.ShapeCasts S400000
  slices_S2x400000_S1x400000_1_0 : S2x400000.Slices ![1, 0] S1x400000
  slices_S3x64x64_S1x64x64_1_0_0 : S3x64x64.Slices ![1, 0, 0] S1x64x64
  slices_S3x64_S1x64_1_0 : S3x64.Slices ![1, 0] S1x64
  slices_S3x3_S1x3_1_0 : S3x3.Slices ![1, 0] S1x3
  bcast_S_S100000x64 : S_.BroadcastsInDim S100000x64 (![] : Fin 0 → Fin S100000x64.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x64_0_1 : S400000x1.BroadcastsInDim S400000x64 (![0, 1] : Fin 2 → Fin S400000x64.rank)
  shapeCasts_S100000_S100000x1 : S100000.ShapeCasts S100000x1
  slices_S2x100000_S1x100000_0_0 : S2x100000.Slices ![0, 0] S1x100000
  shapeCasts_S1x100000_S100000 : S1x100000.ShapeCasts S100000
  slices_S2x100000_S1x100000_1_0 : S2x100000.Slices ![1, 0] S1x100000
  slices_S3x64x64_S1x64x64_2_0_0 : S3x64x64.Slices ![2, 0, 0] S1x64x64
  slices_S3x64_S1x64_2_0 : S3x64.Slices ![2, 0] S1x64
  slices_S3x3_S1x3_2_0 : S3x3.Slices ![2, 0] S1x3
  bcast_S_S25000x64 : S_.BroadcastsInDim S25000x64 (![] : Fin 0 → Fin S25000x64.rank)
  bcast_S_S25000 : S_.BroadcastsInDim S25000 (![] : Fin 0 → Fin S25000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S25000_S25000x1 : S25000.ShapeCasts S25000x1
  bcast_S25000_S25000x1_0 : S25000.BroadcastsInDim S25000x1 (![0] : Fin 1 → Fin S25000x1.rank)
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  scatter_S400000_S1600000x1_S1600000_n_0_0_1_wf : ScatterDims.WF S400000 S1600000x1 S1600000 [] [0] [0] 1
  gather_S400000_S1600000x1_S1600000_n_0_n_n_0_1_1_wf : GatherDims.WF S400000 S1600000x1 S1600000 [] [0] [] [0] [] 1 ![1]
  gather_S400000x64_S1600000x1_S1600000x64_1_0_n_n_0_1_164_wf : GatherDims.WF S400000x64 S1600000x1 S1600000x64 [1] [0] [] [0] [] 1 ![1, 64]
  scatter_S400000x64_S1600000x1_S1600000x64_1_0_0_1_wf : ScatterDims.WF S400000x64 S1600000x1 S1600000x64 [1] [0] [0] 1
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x64_S400000x1_S400000x64_1_0_n_n_0_1_164_wf : GatherDims.WF S100000x64 S400000x1 S400000x64 [1] [0] [] [0] [] 1 ![1, 64]
  scatter_S100000x64_S400000x1_S400000x64_1_0_0_1_wf : ScatterDims.WF S100000x64 S400000x1 S400000x64 [1] [0] [0] 1
  scatter_S25000_S100000x1_S100000_n_0_0_1_wf : ScatterDims.WF S25000 S100000x1 S100000 [] [0] [0] 1
  gather_S25000_S100000x1_S100000_n_0_n_n_0_1_1_wf : GatherDims.WF S25000 S100000x1 S100000 [] [0] [] [0] [] 1 ![1]
  gather_S25000x64_S100000x1_S100000x64_1_0_n_n_0_1_164_wf : GatherDims.WF S25000x64 S100000x1 S100000x64 [1] [0] [] [0] [] 1 ![1, 64]
  scatter_S25000x64_S100000x1_S100000x64_1_0_0_1_wf : ScatterDims.WF S25000x64 S100000x1 S100000x64 [1] [0] [0] 1
  scatter_S400000_S100000x1_S100000_n_0_0_1_wf : ScatterDims.WF S400000 S100000x1 S100000 [] [0] [0] 1
  scatter_S400000x64_S100000x1_S100000x64_1_0_0_1_wf : ScatterDims.WF S400000x64 S100000x1 S100000x64 [1] [0] [0] 1
  scatter_S400000_S25000x1_S25000_n_0_0_1_wf : ScatterDims.WF S400000 S25000x1 S25000 [] [0] [0] 1
  scatter_S400000x64_S25000x1_S25000x64_1_0_0_1_wf : ScatterDims.WF S400000x64 S25000x1 S25000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S525000x16.size a
  hwx0_0 : ∀ i : grid0.Coords, EltTy.bits .f32 = 32 ∨ (Rect.block (s := S525000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S525000x64.size a
  hwx0_6 : ∀ i : grid0.Coords, EltTy.bits .f32 = 32 ∨ (Rect.block (s := S525000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S400000x64.size a
  hwx1_0 : ∀ i : grid1.Coords, EltTy.bits .f32 = 32 ∨ (Rect.block (s := S400000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S400000x64.size a
  hwx1_2 : ∀ i : grid1.Coords, EltTy.bits .f32 = 32 ∨ (Rect.block (s := S400000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S400000x64.size a
  hwx2_0 : ∀ i : grid2.Coords, EltTy.bits .f32 = 32 ∨ (Rect.block (s := S400000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S400000x64.size a
  hwx2_1 : ∀ i : grid2.Coords, EltTy.bits .f32 = 32 ∨ (Rect.block (s := S400000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S400000x1.size a
  hwx2_2 : ∀ i : grid2.Coords, EltTy.bits .f32 = 32 ∨ (Rect.block (s := S400000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S400000x64.size a
  hwx2_5 : ∀ i : grid2.Coords, EltTy.bits .f32 = 32 ∨ (Rect.block (s := S400000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S400000x64.size a
  hwx2_6 : ∀ i : grid2.Coords, EltTy.bits .f32 = 32 ∨ (Rect.block (s := S400000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S400000x64.size a
  hwx2_7 : ∀ i : grid2.Coords, EltTy.bits .f32 = 32 ∨ (Rect.block (s := S400000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S400000x64.size a
  hwx3_0 : ∀ i : grid3.Coords, EltTy.bits .f32 = 32 ∨ (Rect.block (s := S400000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S400000x64.size a
  hwx3_2 : ∀ i : grid3.Coords, EltTy.bits .f32 = 32 ∨ (Rect.block (s := S400000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S400000x64.size a
  hwx4_0 : ∀ i : grid4.Coords, EltTy.bits .f32 = 32 ∨ (Rect.block (s := S400000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S400000x64.size a
  hwx4_1 : ∀ i : grid4.Coords, EltTy.bits .f32 = 32 ∨ (Rect.block (s := S400000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S400000x1.size a
  hwx4_2 : ∀ i : grid4.Coords, EltTy.bits .f32 = 32 ∨ (Rect.block (s := S400000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S400000x64.size a
  hwx4_5 : ∀ i : grid4.Coords, EltTy.bits .f32 = 32 ∨ (Rect.block (s := S400000x64) S5000x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S400000x64.size a
  hwx4_6 : ∀ i : grid4.Coords, EltTy.bits .f32 = 32 ∨ (Rect.block (s := S400000x64) S5000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S400000x64.size a
  hwx4_7 : ∀ i : grid4.Coords, EltTy.bits .f32 = 32 ∨ (Rect.block (s := S400000x64) S5000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S400000x64.size a
  hwx5_0 : ∀ i : grid5.Coords, EltTy.bits .f32 = 32 ∨ (Rect.block (s := S400000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S400000x64.size a
  hwx5_2 : ∀ i : grid5.Coords, EltTy.bits .f32 = 32 ∨ (Rect.block (s := S400000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S400000x64.size a
  hwx6_0 : ∀ i : grid6.Coords, EltTy.bits .f32 = 32 ∨ (Rect.block (s := S400000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S400000x64.size a
  hwx6_1 : ∀ i : grid6.Coords, EltTy.bits .f32 = 32 ∨ (Rect.block (s := S400000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S400000x1.size a
  hwx6_2 : ∀ i : grid6.Coords, EltTy.bits .f32 = 32 ∨ (Rect.block (s := S400000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S400000x64.size a
  hwx6_5 : ∀ i : grid6.Coords, EltTy.bits .f32 = 32 ∨ (Rect.block (s := S400000x64) S5000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S400000x64.size a
  hwx6_6 : ∀ i : grid6.Coords, EltTy.bits .f32 = 32 ∨ (Rect.block (s := S400000x64) S5000x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S400000x64.size a
  hwx6_7 : ∀ i : grid6.Coords, EltTy.bits .f32 = 32 ∨ (Rect.block (s := S400000x64) S5000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x64.size a ≤ S100000x64.size a
  hwx8_6 : ∀ i : grid8.Coords, EltTy.bits .f32 = 32 ∨ (Rect.block (s := S100000x64) S5000x64.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x64.size a ≤ S100000x64.size a
  hwx8_7 : ∀ i : grid8.Coords, EltTy.bits .f32 = 32 ∨ (Rect.block (s := S100000x64) S5000x64.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S100000x64.size a
  hwx9_2 : ∀ i : grid9.Coords, EltTy.bits .f32 = 32 ∨ (Rect.block (s := S100000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S100000x64.size a
  hwx10_1 : ∀ i : grid10.Coords, EltTy.bits .f32 = 32 ∨ (Rect.block (s := S100000x64) S5000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S100000x1.size a
  hwx10_2 : ∀ i : grid10.Coords, EltTy.bits .f32 = 32 ∨ (Rect.block (s := S100000x1) S5000x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1.size a ≤ S1x1.size a
  hwx10_4 : ∀ i : grid10.Coords, EltTy.bits .f32 = 32 ∨ (Rect.block (s := S1x1) S1x1.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x64.size a ≤ S100000x64.size a
  hwx10_5 : ∀ i : grid10.Coords, EltTy.bits .f32 = 32 ∨ (Rect.block (s := S100000x64) S5000x64.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x64.size a ≤ S100000x64.size a
  hwx10_6 : ∀ i : grid10.Coords, EltTy.bits .f32 = 32 ∨ (Rect.block (s := S100000x64) S5000x64.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x64.size a ≤ S100000x64.size a
  hwx10_7 : ∀ i : grid10.Coords, EltTy.bits .f32 = 32 ∨ (Rect.block (s := S100000x64) S5000x64.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S5000x64.size a ≤ S100000x64.size a
  hwx11_2 : ∀ i : grid11.Coords, EltTy.bits .f32 = 32 ∨ (Rect.block (s := S100000x64) S5000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S100000x64.size a
  hwx12_0 : ∀ i : grid12.Coords, EltTy.bits .f32 = 32 ∨ (Rect.block (s := S100000x64) S5000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S100000x64.size a
  hwx12_1 : ∀ i : grid12.Coords, EltTy.bits .f32 = 32 ∨ (Rect.block (s := S100000x64) S5000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x1.size a ≤ S100000x1.size a
  hwx12_2 : ∀ i : grid12.Coords, EltTy.bits .f32 = 32 ∨ (Rect.block (s := S100000x1) S5000x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x1.size a ≤ S1x1.size a
  hwx12_4 : ∀ i : grid12.Coords, EltTy.bits .f32 = 32 ∨ (Rect.block (s := S1x1) S1x1.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x64.size a ≤ S100000x64.size a
  hwx12_5 : ∀ i : grid12.Coords, EltTy.bits .f32 = 32 ∨ (Rect.block (s := S100000x64) S5000x64.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S5000x64.size a ≤ S100000x64.size a
  hwx12_6 : ∀ i : grid12.Coords, EltTy.bits .f32 = 32 ∨ (Rect.block (s := S100000x64) S5000x64.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S5000x64.size a ≤ S100000x64.size a
  hwx12_7 : ∀ i : grid12.Coords, EltTy.bits .f32 = 32 ∨ (Rect.block (s := S100000x64) S5000x64.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S25000x64.size a
  hwx13_0 : ∀ i : grid13.Coords, EltTy.bits .f32 = 32 ∨ (Rect.block (s := S25000x64) S5000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x64.size a ≤ S64x64.size a
  hwx13_1 : ∀ i : grid13.Coords, EltTy.bits .f32 = 32 ∨ (Rect.block (s := S64x64) S64x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x64.size a ≤ S25000x64.size a
  hwx13_2 : ∀ i : grid13.Coords, EltTy.bits .f32 = 32 ∨ (Rect.block (s := S25000x64) S5000x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S25000x64.size a
  hwx14_0 : ∀ i : grid14.Coords, EltTy.bits .f32 = 32 ∨ (Rect.block (s := S25000x64) S5000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x64.size a ≤ S25000x64.size a
  hwx14_1 : ∀ i : grid14.Coords, EltTy.bits .f32 = 32 ∨ (Rect.block (s := S25000x64) S5000x64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x1.size a ≤ S25000x1.size a
  hwx14_2 : ∀ i : grid14.Coords, EltTy.bits .f32 = 32 ∨ (Rect.block (s := S25000x1) S5000x1.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x1.size a ≤ S1x1.size a
  hwx14_4 : ∀ i : grid14.Coords, EltTy.bits .f32 = 32 ∨ (Rect.block (s := S1x1) S1x1.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x64.size a ≤ S25000x64.size a
  hwx14_5 : ∀ i : grid14.Coords, EltTy.bits .f32 = 32 ∨ (Rect.block (s := S25000x64) S5000x64.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S5000x64.size a ≤ S25000x64.size a
  hwx14_6 : ∀ i : grid14.Coords, EltTy.bits .f32 = 32 ∨ (Rect.block (s := S25000x64) S5000x64.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S5000x64.size a ≤ S25000x64.size a
  hwx14_7 : ∀ i : grid14.Coords, EltTy.bits .f32 = 32 ∨ (Rect.block (s := S25000x64) S5000x64.size (cc14_transform_7 i) (hinb14_7 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S25000x64.size a
  hwx15_0 : ∀ i : grid15.Coords, EltTy.bits .f32 = 32 ∨ (Rect.block (s := S25000x64) S5000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S64x64.size a ≤ S64x64.size a
  hwx15_1 : ∀ i : grid15.Coords, EltTy.bits .f32 = 32 ∨ (Rect.block (s := S64x64) S64x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x64.size a ≤ S25000x64.size a
  hwx15_2 : ∀ i : grid15.Coords, EltTy.bits .f32 = 32 ∨ (Rect.block (s := S25000x64) S5000x64.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x64.size a ≤ S25000x64.size a
  hwx16_0 : ∀ i : grid16.Coords, EltTy.bits .f32 = 32 ∨ (Rect.block (s := S25000x64) S5000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x64.size a ≤ S25000x64.size a
  hwx16_1 : ∀ i : grid16.Coords, EltTy.bits .f32 = 32 ∨ (Rect.block (s := S25000x64) S5000x64.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x1.size a ≤ S25000x1.size a
  hwx16_2 : ∀ i : grid16.Coords, EltTy.bits .f32 = 32 ∨ (Rect.block (s := S25000x1) S5000x1.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x64.size a ≤ S1x64.size a
  hwx16_3 : ∀ i : grid16.Coords, EltTy.bits .f32 = 32 ∨ (Rect.block (s := S1x64) S1x64.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x1.size a ≤ S1x1.size a
  hwx16_4 : ∀ i : grid16.Coords, EltTy.bits .f32 = 32 ∨ (Rect.block (s := S1x1) S1x1.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S5000x64.size a ≤ S25000x64.size a
  hwx16_5 : ∀ i : grid16.Coords, EltTy.bits .f32 = 32 ∨ (Rect.block (s := S25000x64) S5000x64.size (cc16_transform_5 i) (hinb16_5 i)).WholeWords (EltTy.packing .f32)
  hstage16_6 : ∀ j, (stage16_6 j).IsWhole
  nbuf16_6 : grid16.bufCount reads16_6 false = 2
  hreads16_6 : ∀ i i' : grid16.Coords, (∀ a, reads16_6 a = true → i a = i' a) → cc16_transform_6 i = cc16_transform_6 i'
  hinb16_6 : ∀ (i : grid16.Coords) a, (cc16_transform_6 i a + 1) * S5000x64.size a ≤ S25000x64.size a
  hwx16_6 : ∀ i : grid16.Coords, EltTy.bits .f32 = 32 ∨ (Rect.block (s := S25000x64) S5000x64.size (cc16_transform_6 i) (hinb16_6 i)).WholeWords (EltTy.packing .f32)
  hstage16_7 : ∀ j, (stage16_7 j).IsWhole
  nbuf16_7 : grid16.bufCount reads16_7 false = 2
  hreads16_7 : ∀ i i' : grid16.Coords, (∀ a, reads16_7 a = true → i a = i' a) → cc16_transform_7 i = cc16_transform_7 i'
  hinb16_7 : ∀ (i : grid16.Coords) a, (cc16_transform_7 i a + 1) * S5000x64.size a ≤ S25000x64.size a
  hwx16_7 : ∀ i : grid16.Coords, EltTy.bits .f32 = 32 ∨ (Rect.block (s := S25000x64) S5000x64.size (cc16_transform_7 i) (hinb16_7 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x64.size a ≤ S25000x64.size a
  hwx17_0 : ∀ i : grid17.Coords, EltTy.bits .f32 = 32 ∨ (Rect.block (s := S25000x64) S5000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S64x64.size a ≤ S64x64.size a
  hwx17_1 : ∀ i : grid17.Coords, EltTy.bits .f32 = 32 ∨ (Rect.block (s := S64x64) S64x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x64.size a ≤ S25000x64.size a
  hwx17_2 : ∀ i : grid17.Coords, EltTy.bits .f32 = 32 ∨ (Rect.block (s := S25000x64) S5000x64.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x64.size a ≤ S25000x64.size a
  hwx18_0 : ∀ i : grid18.Coords, EltTy.bits .f32 = 32 ∨ (Rect.block (s := S25000x64) S5000x64.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x64.size a ≤ S25000x64.size a
  hwx18_1 : ∀ i : grid18.Coords, EltTy.bits .f32 = 32 ∨ (Rect.block (s := S25000x64) S5000x64.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x1.size a ≤ S25000x1.size a
  hwx18_2 : ∀ i : grid18.Coords, EltTy.bits .f32 = 32 ∨ (Rect.block (s := S25000x1) S5000x1.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x64.size a ≤ S1x64.size a
  hwx18_3 : ∀ i : grid18.Coords, EltTy.bits .f32 = 32 ∨ (Rect.block (s := S1x64) S1x64.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x1.size a ≤ S1x1.size a
  hwx18_4 : ∀ i : grid18.Coords, EltTy.bits .f32 = 32 ∨ (Rect.block (s := S1x1) S1x1.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S5000x64.size a ≤ S25000x64.size a
  hwx18_5 : ∀ i : grid18.Coords, EltTy.bits .f32 = 32 ∨ (Rect.block (s := S25000x64) S5000x64.size (cc18_transform_5 i) (hinb18_5 i)).WholeWords (EltTy.packing .f32)
  hstage18_6 : ∀ j, (stage18_6 j).IsWhole
  nbuf18_6 : grid18.bufCount reads18_6 false = 2
  hreads18_6 : ∀ i i' : grid18.Coords, (∀ a, reads18_6 a = true → i a = i' a) → cc18_transform_6 i = cc18_transform_6 i'
  hinb18_6 : ∀ (i : grid18.Coords) a, (cc18_transform_6 i a + 1) * S5000x64.size a ≤ S25000x64.size a
  hwx18_6 : ∀ i : grid18.Coords, EltTy.bits .f32 = 32 ∨ (Rect.block (s := S25000x64) S5000x64.size (cc18_transform_6 i) (hinb18_6 i)).WholeWords (EltTy.packing .f32)
  hstage18_7 : ∀ j, (stage18_7 j).IsWhole
  nbuf18_7 : grid18.bufCount reads18_7 false = 2
  hreads18_7 : ∀ i i' : grid18.Coords, (∀ a, reads18_7 a = true → i a = i' a) → cc18_transform_7 i = cc18_transform_7 i'
  hinb18_7 : ∀ (i : grid18.Coords) a, (cc18_transform_7 i a + 1) * S5000x64.size a ≤ S25000x64.size a
  hwx18_7 : ∀ i : grid18.Coords, EltTy.bits .f32 = 32 ∨ (Rect.block (s := S25000x64) S5000x64.size (cc18_transform_7 i) (hinb18_7 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x64.size a ≤ S400000x64.size a
  hwx19_0 : ∀ i : grid19.Coords, EltTy.bits .f32 = 32 ∨ (Rect.block (s := S400000x64) S5000x64.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S5000x64.size a ≤ S400000x64.size a
  hwx19_1 : ∀ i : grid19.Coords, EltTy.bits .f32 = 32 ∨ (Rect.block (s := S400000x64) S5000x64.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x64.size a ≤ S400000x64.size a
  hwx19_2 : ∀ i : grid19.Coords, EltTy.bits .f32 = 32 ∨ (Rect.block (s := S400000x64) S5000x64.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S5000x64.size a ≤ S400000x64.size a
  hwx19_3 : ∀ i : grid19.Coords, EltTy.bits .f32 = 32 ∨ (Rect.block (s := S400000x64) S5000x64.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x64.size a ≤ S400000x64.size a
  hwx20_0 : ∀ i : grid20.Coords, EltTy.bits .f32 = 32 ∨ (Rect.block (s := S400000x64) S5000x64.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S64x64.size a ≤ S64x64.size a
  hwx20_1 : ∀ i : grid20.Coords, EltTy.bits .f32 = 32 ∨ (Rect.block (s := S64x64) S64x64.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x64.size a ≤ S1x64.size a
  hwx20_2 : ∀ i : grid20.Coords, EltTy.bits .f32 = 32 ∨ (Rect.block (s := S1x64) S1x64.size (cc20_transform_2 i) (hinb20_2 i)).WholeWords (EltTy.packing .f32)
  hstage20_3 : ∀ j, (stage20_3 j).IsWhole
  nbuf20_3 : grid20.bufCount reads20_3 true = 1
  hreads20_3 : ∀ i i' : grid20.Coords, (∀ a, reads20_3 a = true → i a = i' a) → cc20_transform_3 i = cc20_transform_3 i'
  hinb20_3 : ∀ (i : grid20.Coords) a, (cc20_transform_3 i a + 1) * S64x2.size a ≤ S64x2.size a
  hwx20_3 : ∀ i : grid20.Coords, EltTy.bits .f32 = 32 ∨ (Rect.block (s := S64x2) S64x2.size (cc20_transform_3 i) (hinb20_3 i)).WholeWords (EltTy.packing .f32)
  hstage20_4 : ∀ j, (stage20_4 j).IsWhole
  nbuf20_4 : grid20.bufCount reads20_4 true = 1
  hreads20_4 : ∀ i i' : grid20.Coords, (∀ a, reads20_4 a = true → i a = i' a) → cc20_transform_4 i = cc20_transform_4 i'
  hinb20_4 : ∀ (i : grid20.Coords) a, (cc20_transform_4 i a + 1) * S1x2.size a ≤ S1x2.size a
  hwx20_4 : ∀ i : grid20.Coords, EltTy.bits .f32 = 32 ∨ (Rect.block (s := S1x2) S1x2.size (cc20_transform_4 i) (hinb20_4 i)).WholeWords (EltTy.packing .f32)
  hstage20_5 : ∀ j, (stage20_5 j).IsWhole
  nbuf20_5 : grid20.bufCount reads20_5 true = 1
  hreads20_5 : ∀ i i' : grid20.Coords, (∀ a, reads20_5 a = true → i a = i' a) → cc20_transform_5 i = cc20_transform_5 i'
  hinb20_5 : ∀ (i : grid20.Coords) a, (cc20_transform_5 i a + 1) * S1x1.size a ≤ S1x1.size a
  hwx20_5 : ∀ i : grid20.Coords, EltTy.bits .f32 = 32 ∨ (Rect.block (s := S1x1) S1x1.size (cc20_transform_5 i) (hinb20_5 i)).WholeWords (EltTy.packing .f32)
  hstage20_6 : ∀ j, (stage20_6 j).IsWhole
  nbuf20_6 : grid20.bufCount reads20_6 false = 2
  hreads20_6 : ∀ i i' : grid20.Coords, (∀ a, reads20_6 a = true → i a = i' a) → cc20_transform_6 i = cc20_transform_6 i'
  hinb20_6 : ∀ (i : grid20.Coords) a, (cc20_transform_6 i a + 1) * S5000x2.size a ≤ S400000x2.size a
  hwx20_6 : ∀ i : grid20.Coords, EltTy.bits .f32 = 32 ∨ (Rect.block (s := S400000x2) S5000x2.size (cc20_transform_6 i) (hinb20_6 i)).WholeWords (EltTy.packing .f32)

variable [Facts₀]

def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S400000_S1600000x1_S1600000_n_0_0_1 : ScatterDims S400000 S1600000x1 S1600000 where
  updateWindowDims := []
  insertedWindowDims := [0]
  scatterDimsToOperandDims := [0]
  indexVectorDim := 1
  wf := scatter_S400000_S1600000x1_S1600000_n_0_0_1_wf
def gather_S400000_S1600000x1_S1600000_n_0_n_n_0_1_1 : GatherDims S400000 S1600000x1 S1600000 where
  offsetDims := []
  collapsedSliceDims := [0]
  operandBatchingDims := []
  startIndicesBatchingDims := []
  startIndexMap := [0]
  indexVectorDim := 1
  sliceSizes := ![1]
  wf := gather_S400000_S1600000x1_S1600000_n_0_n_n_0_1_1_wf
def gather_S400000x64_S1600000x1_S1600000x64_1_0_n_n_0_1_164 : GatherDims S400000x64 S1600000x1 S1600000x64 where
  offsetDims := [1]
  collapsedSliceDims := [0]
  operandBatchingDims := []
  startIndicesBatchingDims := []
  startIndexMap := [0]
  indexVectorDim := 1
  sliceSizes := ![1, 64]
  wf := gather_S400000x64_S1600000x1_S1600000x64_1_0_n_n_0_1_164_wf
def scatter_S400000x64_S1600000x1_S1600000x64_1_0_0_1 : ScatterDims S400000x64 S1600000x1 S1600000x64 where
  updateWindowDims := [1]
  insertedWindowDims := [0]
  scatterDimsToOperandDims := [0]
  indexVectorDim := 1
  wf := scatter_S400000x64_S1600000x1_S1600000x64_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def scatter_S25000_S100000x1_S100000_n_0_0_1 : ScatterDims S25000 S100000x1 S100000 where
  updateWindowDims := []
  insertedWindowDims := [0]
  scatterDimsToOperandDims := [0]
  indexVectorDim := 1
  wf := scatter_S25000_S100000x1_S100000_n_0_0_1_wf
def gather_S25000_S100000x1_S100000_n_0_n_n_0_1_1 : GatherDims S25000 S100000x1 S100000 where
  offsetDims := []
  collapsedSliceDims := [0]
  operandBatchingDims := []
  startIndicesBatchingDims := []
  startIndexMap := [0]
  indexVectorDim := 1
  sliceSizes := ![1]
  wf := gather_S25000_S100000x1_S100000_n_0_n_n_0_1_1_wf
def gather_S25000x64_S100000x1_S100000x64_1_0_n_n_0_1_164 : GatherDims S25000x64 S100000x1 S100000x64 where
  offsetDims := [1]
  collapsedSliceDims := [0]
  operandBatchingDims := []
  startIndicesBatchingDims := []
  startIndexMap := [0]
  indexVectorDim := 1
  sliceSizes := ![1, 64]
  wf := gather_S25000x64_S100000x1_S100000x64_1_0_n_n_0_1_164_wf
def scatter_S25000x64_S100000x1_S100000x64_1_0_0_1 : ScatterDims S25000x64 S100000x1 S100000x64 where
  updateWindowDims := [1]
  insertedWindowDims := [0]
  scatterDimsToOperandDims := [0]
  indexVectorDim := 1
  wf := scatter_S25000x64_S100000x1_S100000x64_1_0_0_1_wf
def scatter_S400000_S100000x1_S100000_n_0_0_1 : ScatterDims S400000 S100000x1 S100000 where
  updateWindowDims := []
  insertedWindowDims := [0]
  scatterDimsToOperandDims := [0]
  indexVectorDim := 1
  wf := scatter_S400000_S100000x1_S100000_n_0_0_1_wf
def scatter_S400000x64_S100000x1_S100000x64_1_0_0_1 : ScatterDims S400000x64 S100000x1 S100000x64 where
  updateWindowDims := [1]
  insertedWindowDims := [0]
  scatterDimsToOperandDims := [0]
  indexVectorDim := 1
  wf := scatter_S400000x64_S100000x1_S100000x64_1_0_0_1_wf
def scatter_S400000_S25000x1_S25000_n_0_0_1 : ScatterDims S400000 S25000x1 S25000 where
  updateWindowDims := []
  insertedWindowDims := [0]
  scatterDimsToOperandDims := [0]
  indexVectorDim := 1
  wf := scatter_S400000_S25000x1_S25000_n_0_0_1_wf
def scatter_S400000x64_S25000x1_S25000x64_1_0_0_1 : ScatterDims S400000x64 S25000x1 S25000x64 where
  updateWindowDims := [1]
  insertedWindowDims := [0]
  scatterDimsToOperandDims := [0]
  indexVectorDim := 1
  wf := scatter_S400000x64_S25000x1_S25000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S5000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v70_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v70_1) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v70_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v116) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v120) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v19) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v119) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70_1) S5000x64.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v121_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v121_1) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v121_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v13) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v167) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v122) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v171) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v19) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v170) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v121_1) S5000x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v172_0) S5000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v172_1) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v6) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v178) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v185) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v230) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v185) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v234) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v184) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v233) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v183) S5000x64.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v235_0) S5000x64.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v235_1) S5000x64.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v235_0) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v178) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v236) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v281) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v236) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v285) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v184) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v284) S1x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v235_1) S5000x64.size cc10_transform_5 reads10_5 false false 2 stage10_5 sem10_5
    hrank10 hreads10_5 hinb10_5 nbuf10_5 (Memref.isWhole_whole _) hwx10_5 hstage10_5

abbrev win10_6 : Pipeline.Window sig grid10 :=
  Pipeline.Window.ofSpec (Memref.whole main_v286_0) S5000x64.size cc10_transform_6 reads10_6 true false 2 stage10_6 sem10_6
    hrank10 hreads10_6 hinb10_6 nbuf10_6 (Memref.isWhole_whole _) hwx10_6 hstage10_6

abbrev win10_7 : Pipeline.Window sig grid10 :=
  Pipeline.Window.ofSpec (Memref.whole main_v286_1) S5000x64.size cc10_transform_7 reads10_7 true false 2 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_v286_0) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v178) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v287) S5000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v332) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v287) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v336) S5000x1.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v184) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v335) S1x1.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v286_1) S5000x64.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v337_0) S5000x64.size cc12_transform_6 reads12_6 true false 2 stage12_6 sem12_6
    hrank12 hreads12_6 hinb12_6 nbuf12_6 (Memref.isWhole_whole _) hwx12_6 hstage12_6

abbrev win12_7 : Pipeline.Window sig grid12 :=
  Pipeline.Window.ofSpec (Memref.whole main_v337_1) S5000x64.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v7) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v343) S64x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v350) S5000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v395) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v350) S5000x64.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v399) S5000x1.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v349) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v398) S1x1.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v348) S5000x64.size cc14_transform_5 reads14_5 false false 2 stage14_5 sem14_5
    hrank14 hreads14_5 hinb14_5 nbuf14_5 (Memref.isWhole_whole _) hwx14_5 hstage14_5

abbrev win14_6 : Pipeline.Window sig grid14 :=
  Pipeline.Window.ofSpec (Memref.whole main_v400_0) S5000x64.size cc14_transform_6 reads14_6 true false 2 stage14_6 sem14_6
    hrank14 hreads14_6 hinb14_6 nbuf14_6 (Memref.isWhole_whole _) hwx14_6 hstage14_6

abbrev win14_7 : Pipeline.Window sig grid14 :=
  Pipeline.Window.ofSpec (Memref.whole main_v400_1) S5000x64.size cc14_transform_7 reads14_7 true false 2 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

abbrev win15_0 : Pipeline.Window sig grid15 :=
  Pipeline.Window.ofSpec (Memref.whole main_v400_0) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v343) S64x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v401) S5000x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v446) S5000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v401) S5000x64.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v450) S5000x1.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v349) S1x64.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v449) S1x1.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v400_1) S5000x64.size cc16_transform_5 reads16_5 false false 2 stage16_5 sem16_5
    hrank16 hreads16_5 hinb16_5 nbuf16_5 (Memref.isWhole_whole _) hwx16_5 hstage16_5

abbrev win16_6 : Pipeline.Window sig grid16 :=
  Pipeline.Window.ofSpec (Memref.whole main_v451_0) S5000x64.size cc16_transform_6 reads16_6 true false 2 stage16_6 sem16_6
    hrank16 hreads16_6 hinb16_6 nbuf16_6 (Memref.isWhole_whole _) hwx16_6 hstage16_6

abbrev win16_7 : Pipeline.Window sig grid16 :=
  Pipeline.Window.ofSpec (Memref.whole main_v451_1) S5000x64.size cc16_transform_7 reads16_7 true false 2 stage16_7 sem16_7
    hrank16 hreads16_7 hinb16_7 nbuf16_7 (Memref.isWhole_whole _) hwx16_7 hstage16_7

abbrev win16 : Fin 8 → Pipeline.Window sig grid16 := fun | 0 => win16_0 | 1 => win16_1 | 2 => win16_2 | 3 => win16_3 | 4 => win16_4 | 5 => win16_5 | 6 => win16_6 | 7 => win16_7 | ⟨_ + 8, h⟩ => absurd h (Nat.not_lt.2 (Nat.le_add_left _ _))
abbrev spec16 : Fin 8 → Pipeline.WinSpec sig grid16.rank := fun w => (win16 w).toWinSpec

abbrev win17_0 : Pipeline.Window sig grid17 :=
  Pipeline.Window.ofSpec (Memref.whole main_v451_0) S5000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v343) S64x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v452) S5000x64.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v497) S5000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v452) S5000x64.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v501) S5000x1.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v349) S1x64.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v500) S1x1.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v451_1) S5000x64.size cc18_transform_5 reads18_5 false false 2 stage18_5 sem18_5
    hrank18 hreads18_5 hinb18_5 nbuf18_5 (Memref.isWhole_whole _) hwx18_5 hstage18_5

abbrev win18_6 : Pipeline.Window sig grid18 :=
  Pipeline.Window.ofSpec (Memref.whole main_v502_0) S5000x64.size cc18_transform_6 reads18_6 true false 2 stage18_6 sem18_6
    hrank18 hreads18_6 hinb18_6 nbuf18_6 (Memref.isWhole_whole _) hwx18_6 hstage18_6

abbrev win18_7 : Pipeline.Window sig grid18 :=
  Pipeline.Window.ofSpec (Memref.whole main_v502_1) S5000x64.size cc18_transform_7 reads18_7 true false 2 stage18_7 sem18_7
    hrank18 hreads18_7 hinb18_7 nbuf18_7 (Memref.isWhole_whole _) hwx18_7 hstage18_7

abbrev win18 : Fin 8 → Pipeline.Window sig grid18 := fun | 0 => win18_0 | 1 => win18_1 | 2 => win18_2 | 3 => win18_3 | 4 => win18_4 | 5 => win18_5 | 6 => win18_6 | 7 => win18_7 | ⟨_ + 8, h⟩ => absurd h (Nat.not_lt.2 (Nat.le_add_left _ _))
abbrev spec18 : Fin 8 → Pipeline.WinSpec sig grid18.rank := fun w => (win18 w).toWinSpec

abbrev win19_0 : Pipeline.Window sig grid19 :=
  Pipeline.Window.ofSpec (Memref.whole main_v172_1) S5000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v524) S5000x64.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v546) S5000x64.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_v547) S5000x64.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v547) S5000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_arg18) S64x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v548) S1x64.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_arg20) S64x2.size cc20_transform_3 reads20_3 false true 1 stage20_3 sem20_3
    hrank20 hreads20_3 hinb20_3 nbuf20_3 (Memref.isWhole_whole _) hwx20_3 hstage20_3

abbrev win20_4 : Pipeline.Window sig grid20 :=
  Pipeline.Window.ofSpec (Memref.whole main_v549) S1x2.size cc20_transform_4 reads20_4 false true 1 stage20_4 sem20_4
    hrank20 hreads20_4 hinb20_4 nbuf20_4 (Memref.isWhole_whole _) hwx20_4 hstage20_4

abbrev win20_5 : Pipeline.Window sig grid20 :=
  Pipeline.Window.ofSpec (Memref.whole main_v550) S1x1.size cc20_transform_5 reads20_5 false true 1 stage20_5 sem20_5
    hrank20 hreads20_5 hinb20_5 nbuf20_5 (Memref.isWhole_whole _) hwx20_5 hstage20_5

abbrev win20_6 : Pipeline.Window sig grid20 :=
  Pipeline.Window.ofSpec (Memref.whole main_v551) S5000x2.size cc20_transform_6 reads20_6 true false 2 stage20_6 sem20_6
    hrank20 hreads20_6 hinb20_6 nbuf20_6 (Memref.isWhole_whole _) hwx20_6 hstage20_6

abbrev win20 : Fin 7 → Pipeline.Window sig grid20 := fun | 0 => win20_0 | 1 => win20_1 | 2 => win20_2 | 3 => win20_3 | 4 => win20_4 | 5 => win20_5 | 6 => win20_6 | ⟨_ + 7, h⟩ => absurd h (Nat.not_lt.2 (Nat.le_add_left _ _))
abbrev spec20 : Fin 7 → Pipeline.WinSpec sig grid20.rank := fun w => (win20 w).toWinSpec

class Facts : Prop extends Facts₀ where

variable [Facts]
-- ==== ReferenceIdeal.lean ====
abbrev S525000x6 : Shape := ⟨2, ![525000, 6]⟩
abbrev S525000x10 : Shape := ⟨2, ![525000, 10]⟩
abbrev S2x1600000 : Shape := ⟨2, ![2, 1600000]⟩
abbrev S1600000 : Shape := ⟨1, ![1600000]⟩
abbrev S2x400000 : Shape := ⟨2, ![2, 400000]⟩
abbrev S400000 : Shape := ⟨1, ![400000]⟩
abbrev S2x100000 : Shape := ⟨2, ![2, 100000]⟩
abbrev S100000 : Shape := ⟨1, ![100000]⟩
abbrev S25000 : Shape := ⟨1, ![25000]⟩
abbrev S16x64 : Shape := ⟨2, ![16, 64]⟩
abbrev S64 : Shape := ⟨1, ![64]⟩
abbrev S64x64 : Shape := ⟨2, ![64, 64]⟩
abbrev S_ : Shape := ⟨0, ![]⟩
abbrev S3x64x64 : Shape := ⟨3, ![3, 64, 64]⟩
abbrev S3x64 : Shape := ⟨2, ![3, 64]⟩
abbrev S3x3 : Shape := ⟨2, ![3, 3]⟩
abbrev S64x2 : Shape := ⟨2, ![64, 2]⟩
abbrev S2 : Shape := ⟨1, ![2]⟩
abbrev S525000x16 : Shape := ⟨2, ![525000, 16]⟩
abbrev S525000x64 : Shape := ⟨2, ![525000, 64]⟩
abbrev S1x64 : Shape := ⟨2, ![1, 64]⟩
abbrev S400000x64 : Shape := ⟨2, ![400000, 64]⟩
abbrev S100000x64 : Shape := ⟨2, ![100000, 64]⟩
abbrev S25000x64 : Shape := ⟨2, ![25000, 64]⟩
abbrev S1x1600000 : Shape := ⟨2, ![1, 1600000]⟩
abbrev S1x64x64 : Shape := ⟨3, ![1, 64, 64]⟩
abbrev S1600000x1 : Shape := ⟨2, ![1600000, 1]⟩
abbrev S1600000x64 : Shape := ⟨2, ![1600000, 64]⟩
abbrev S400000x1 : Shape := ⟨2, ![400000, 1]⟩
abbrev S1x1 : Shape := ⟨2, ![1, 1]⟩
abbrev S1x400000 : Shape := ⟨2, ![1, 400000]⟩
abbrev S100000x1 : Shape := ⟨2, ![100000, 1]⟩
abbrev S1x100000 : Shape := ⟨2, ![1, 100000]⟩
abbrev S25000x1 : Shape := ⟨2, ![25000, 1]⟩
abbrev S400000x2 : Shape := ⟨2, ![400000, 2]⟩
abbrev S1x2 : Shape := ⟨2, ![1, 2]⟩

abbrev nBuf : Space → Nat
  | .hbm => 840
  | .vmem => 0
  | .smem => 0
  | _ => 0

abbrev hbmTy0_0 (i : Nat) : BufTy := match i % 128 with
  | 0 => ⟨S525000x6, .f32⟩
  | 1 => ⟨S525000x10, .f32⟩
  | 2 => ⟨S2x1600000, .i32⟩
  | 3 => ⟨S1600000, .f32⟩
  | 4 => ⟨S2x400000, .i32⟩
  | 5 => ⟨S400000, .f32⟩
  | 6 => ⟨S2x100000, .i32⟩
  | 7 => ⟨S100000, .f32⟩
  | 8 => ⟨S100000, .i32⟩
  | 9 => ⟨S25000, .i32⟩
  | 10 => ⟨S16x64, .f32⟩
  | 11 => ⟨S64, .f32⟩
  | 12 => ⟨S64x64, .f32⟩
  | 13 => ⟨S64, .f32⟩
  | 14 => ⟨S_, .f32⟩
  | 15 => ⟨S3x64x64, .f32⟩
  | 16 => ⟨S3x64, .f32⟩
  | 17 => ⟨S3x3, .f32⟩
  | 18 => ⟨S64x64, .f32⟩
  | 19 => ⟨S64, .f32⟩
  | 20 => ⟨S64x2, .f32⟩
  | 21 => ⟨S2, .f32⟩
  | 22 => ⟨S_, .f32⟩
  | 23 => ⟨S525000x16, .f32⟩
  | 24 => ⟨S525000x64, .f32⟩
  | 25 => ⟨S1x64, .f32⟩
  | 26 => ⟨S525000x64, .f32⟩
  | 27 => ⟨S525000x64, .f32⟩
  | 28 => ⟨S_, .f32⟩
  | 29 => ⟨S525000x64, .f32⟩
  | 30 => ⟨S525000x64, .i1⟩
  | 31 => ⟨S525000x64, .f32⟩
  | 32 => ⟨S525000x64, .f32⟩
  | 33 => ⟨S525000x64, .f32⟩
  | 34 => ⟨S525000x64, .f32⟩
  | 35 => ⟨S1x64, .f32⟩
  | 36 => ⟨S525000x64, .f32⟩
  | 37 => ⟨S525000x64, .f32⟩
  | 38 => ⟨S_, .f32⟩
  | 39 => ⟨S525000x64, .f32⟩
  | 40 => ⟨S525000x64, .i1⟩
  | 41 => ⟨S525000x64, .f32⟩
  | 42 => ⟨S525000x64, .f32⟩
  | 43 => ⟨S525000x64, .f32⟩
  | 44 => ⟨S400000x64, .f32⟩
  | 45 => ⟨S100000x64, .f32⟩
  | 46 => ⟨S25000x64, .f32⟩
  | 47 => ⟨S1x1600000, .i32⟩
  | 48 => ⟨S1600000, .i32⟩
  | 49 => ⟨S1x1600000, .i32⟩
  | 50 => ⟨S1600000, .i32⟩
  | 51 => ⟨S_, .f32⟩
  | 52 => ⟨S400000x64, .f32⟩
  | 53 => ⟨S1x64x64, .f32⟩
  | 54 => ⟨S64x64, .f32⟩
  | 55 => ⟨S1x64, .f32⟩
  | 56 => ⟨S64, .f32⟩
  | 57 => ⟨S400000x64, .f32⟩
  | 58 => ⟨S_, .f32⟩
  | 59 => ⟨S400000, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S400000, .f32⟩
  | 69 => ⟨S_, .f32⟩
  | 70 => ⟨S400000, .f32⟩
  | 71 => ⟨S400000, .f32⟩
  | 72 => ⟨S400000, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S1600000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S1600000, .f32⟩
  | 93 => ⟨S_, .f32⟩
  | 94 => ⟨S400000x64, .f32⟩
  | 95 => ⟨S1600000x1, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x64, .f32⟩
  | 105 => ⟨S1600000x64, .f32⟩
  | 106 => ⟨S1600000x64, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S400000x64, .f32⟩
  | 116 => ⟨S400000, .f32⟩
  | 117 => ⟨S400000x1, .f32⟩
  | 118 => ⟨S400000x64, .f32⟩
  | 119 => ⟨S400000x64, .f32⟩
  | 120 => ⟨S400000x64, .f32⟩
  | 121 => ⟨S1x64, .f32⟩
  | 122 => ⟨S400000x64, .f32⟩
  | 123 => ⟨S400000x64, .f32⟩
  | 124 => ⟨S400000x64, .f32⟩
  | 125 => ⟨S1x1, .f32⟩
  | 126 => ⟨S_, .f32⟩
  | 127 => ⟨S400000x64, .f32⟩
  | _ => ⟨S525000x6, .f32⟩

abbrev hbmTy0_1 (i : Nat) : BufTy := match i % 128 with
  | 0 => ⟨S400000x64, .f32⟩
  | 1 => ⟨S400000x64, .f32⟩
  | 2 => ⟨S1x64x64, .f32⟩
  | 3 => ⟨S64x64, .f32⟩
  | 4 => ⟨S1x64, .f32⟩
  | 5 => ⟨S64, .f32⟩
  | 6 => ⟨S400000x64, .f32⟩
  | 7 => ⟨S_, .f32⟩
  | 8 => ⟨S400000, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S400000, .f32⟩
  | 18 => ⟨S_, .f32⟩
  | 19 => ⟨S400000, .f32⟩
  | 20 => ⟨S400000, .f32⟩
  | 21 => ⟨S400000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000, .f32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .f32⟩
  | 43 => ⟨S400000x64, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S400000x64, .f32⟩
  | 65 => ⟨S400000, .f32⟩
  | 66 => ⟨S400000x1, .f32⟩
  | 67 => ⟨S400000x64, .f32⟩
  | 68 => ⟨S400000x64, .f32⟩
  | 69 => ⟨S400000x64, .f32⟩
  | 70 => ⟨S1x64, .f32⟩
  | 71 => ⟨S400000x64, .f32⟩
  | 72 => ⟨S400000x64, .f32⟩
  | 73 => ⟨S400000x64, .f32⟩
  | 74 => ⟨S1x1, .f32⟩
  | 75 => ⟨S_, .f32⟩
  | 76 => ⟨S400000x64, .f32⟩
  | 77 => ⟨S400000x64, .f32⟩
  | 78 => ⟨S400000x64, .f32⟩
  | 79 => ⟨S1x64x64, .f32⟩
  | 80 => ⟨S64x64, .f32⟩
  | 81 => ⟨S1x64, .f32⟩
  | 82 => ⟨S64, .f32⟩
  | 83 => ⟨S400000x64, .f32⟩
  | 84 => ⟨S_, .f32⟩
  | 85 => ⟨S400000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S400000, .f32⟩
  | 95 => ⟨S_, .f32⟩
  | 96 => ⟨S400000, .f32⟩
  | 97 => ⟨S400000, .f32⟩
  | 98 => ⟨S400000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000, .f32⟩
  | 118 => ⟨S1600000, .f32⟩
  | 119 => ⟨S_, .f32⟩
  | 120 => ⟨S400000x64, .f32⟩
  | 121 => ⟨S1600000x1, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S525000x6, .f32⟩

abbrev hbmTy0_2 (i : Nat) : BufTy := match i % 128 with
  | 0 => ⟨S1600000, .i32⟩
  | 1 => ⟨S1600000x1, .i32⟩
  | 2 => ⟨S1600000x64, .f32⟩
  | 3 => ⟨S1600000x64, .f32⟩
  | 4 => ⟨S1600000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S400000x64, .f32⟩
  | 14 => ⟨S400000, .f32⟩
  | 15 => ⟨S400000x1, .f32⟩
  | 16 => ⟨S400000x64, .f32⟩
  | 17 => ⟨S400000x64, .f32⟩
  | 18 => ⟨S400000x64, .f32⟩
  | 19 => ⟨S1x64, .f32⟩
  | 20 => ⟨S400000x64, .f32⟩
  | 21 => ⟨S400000x64, .f32⟩
  | 22 => ⟨S400000x64, .f32⟩
  | 23 => ⟨S1x1, .f32⟩
  | 24 => ⟨S_, .f32⟩
  | 25 => ⟨S400000x64, .f32⟩
  | 26 => ⟨S400000x64, .f32⟩
  | 27 => ⟨S400000x64, .f32⟩
  | 28 => ⟨S1x400000, .i32⟩
  | 29 => ⟨S400000, .i32⟩
  | 30 => ⟨S1x400000, .i32⟩
  | 31 => ⟨S400000, .i32⟩
  | 32 => ⟨S_, .f32⟩
  | 33 => ⟨S100000x64, .f32⟩
  | 34 => ⟨S1x64x64, .f32⟩
  | 35 => ⟨S64x64, .f32⟩
  | 36 => ⟨S1x64, .f32⟩
  | 37 => ⟨S64, .f32⟩
  | 38 => ⟨S100000x64, .f32⟩
  | 39 => ⟨S_, .f32⟩
  | 40 => ⟨S100000, .f32⟩
  | 41 => ⟨S_, .i32⟩
  | 42 => ⟨S400000, .i32⟩
  | 43 => ⟨S400000, .i1⟩
  | 44 => ⟨S_, .i32⟩
  | 45 => ⟨S400000, .i32⟩
  | 46 => ⟨S400000, .i32⟩
  | 47 => ⟨S400000, .i32⟩
  | 48 => ⟨S400000x1, .i32⟩
  | 49 => ⟨S100000, .f32⟩
  | 50 => ⟨S_, .f32⟩
  | 51 => ⟨S100000, .f32⟩
  | 52 => ⟨S100000, .f32⟩
  | 53 => ⟨S100000, .f32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000, .f32⟩
  | 63 => ⟨S400000, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000, .f32⟩
  | 73 => ⟨S400000, .f32⟩
  | 74 => ⟨S_, .f32⟩
  | 75 => ⟨S100000x64, .f32⟩
  | 76 => ⟨S400000x1, .f32⟩
  | 77 => ⟨S_, .i32⟩
  | 78 => ⟨S400000, .i32⟩
  | 79 => ⟨S400000, .i1⟩
  | 80 => ⟨S_, .i32⟩
  | 81 => ⟨S400000, .i32⟩
  | 82 => ⟨S400000, .i32⟩
  | 83 => ⟨S400000, .i32⟩
  | 84 => ⟨S400000x1, .i32⟩
  | 85 => ⟨S400000x64, .f32⟩
  | 86 => ⟨S400000x64, .f32⟩
  | 87 => ⟨S400000x64, .f32⟩
  | 88 => ⟨S_, .i32⟩
  | 89 => ⟨S400000, .i32⟩
  | 90 => ⟨S400000, .i1⟩
  | 91 => ⟨S_, .i32⟩
  | 92 => ⟨S400000, .i32⟩
  | 93 => ⟨S400000, .i32⟩
  | 94 => ⟨S400000, .i32⟩
  | 95 => ⟨S400000x1, .i32⟩
  | 96 => ⟨S100000x64, .f32⟩
  | 97 => ⟨S100000, .f32⟩
  | 98 => ⟨S100000x1, .f32⟩
  | 99 => ⟨S100000x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S100000x64, .f32⟩
  | 106 => ⟨S1x1, .f32⟩
  | 107 => ⟨S_, .f32⟩
  | 108 => ⟨S100000x64, .f32⟩
  | 109 => ⟨S100000x64, .f32⟩
  | 110 => ⟨S100000x64, .f32⟩
  | 111 => ⟨S1x64x64, .f32⟩
  | 112 => ⟨S64x64, .f32⟩
  | 113 => ⟨S1x64, .f32⟩
  | 114 => ⟨S64, .f32⟩
  | 115 => ⟨S100000x64, .f32⟩
  | 116 => ⟨S_, .f32⟩
  | 117 => ⟨S100000, .f32⟩
  | 118 => ⟨S_, .i32⟩
  | 119 => ⟨S400000, .i32⟩
  | 120 => ⟨S400000, .i1⟩
  | 121 => ⟨S_, .i32⟩
  | 122 => ⟨S400000, .i32⟩
  | 123 => ⟨S400000, .i32⟩
  | 124 => ⟨S400000, .i32⟩
  | 125 => ⟨S400000x1, .i32⟩
  | 126 => ⟨S100000, .f32⟩
  | 127 => ⟨S_, .f32⟩
  | _ => ⟨S525000x6, .f32⟩

abbrev hbmTy0_3 (i : Nat) : BufTy := match i % 128 with
  | 0 => ⟨S100000, .f32⟩
  | 1 => ⟨S100000, .f32⟩
  | 2 => ⟨S100000, .f32⟩
  | 3 => ⟨S_, .i32⟩
  | 4 => ⟨S400000, .i32⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S400000, .f32⟩
  | 12 => ⟨S400000, .f32⟩
  | 13 => ⟨S_, .i32⟩
  | 14 => ⟨S400000, .i32⟩
  | 15 => ⟨S400000, .i1⟩
  | 16 => ⟨S_, .i32⟩
  | 17 => ⟨S400000, .i32⟩
  | 18 => ⟨S400000, .i32⟩
  | 19 => ⟨S400000, .i32⟩
  | 20 => ⟨S400000x1, .i32⟩
  | 21 => ⟨S400000, .f32⟩
  | 22 => ⟨S400000, .f32⟩
  | 23 => ⟨S_, .f32⟩
  | 24 => ⟨S100000x64, .f32⟩
  | 25 => ⟨S400000x1, .f32⟩
  | 26 => ⟨S_, .i32⟩
  | 27 => ⟨S400000, .i32⟩
  | 28 => ⟨S400000, .i1⟩
  | 29 => ⟨S_, .i32⟩
  | 30 => ⟨S400000, .i32⟩
  | 31 => ⟨S400000, .i32⟩
  | 32 => ⟨S400000, .i32⟩
  | 33 => ⟨S400000x1, .i32⟩
  | 34 => ⟨S400000x64, .f32⟩
  | 35 => ⟨S400000x64, .f32⟩
  | 36 => ⟨S400000x64, .f32⟩
  | 37 => ⟨S_, .i32⟩
  | 38 => ⟨S400000, .i32⟩
  | 39 => ⟨S400000, .i1⟩
  | 40 => ⟨S_, .i32⟩
  | 41 => ⟨S400000, .i32⟩
  | 42 => ⟨S400000, .i32⟩
  | 43 => ⟨S400000, .i32⟩
  | 44 => ⟨S400000x1, .i32⟩
  | 45 => ⟨S100000x64, .f32⟩
  | 46 => ⟨S100000, .f32⟩
  | 47 => ⟨S100000x1, .f32⟩
  | 48 => ⟨S100000x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S100000x64, .f32⟩
  | 55 => ⟨S1x1, .f32⟩
  | 56 => ⟨S_, .f32⟩
  | 57 => ⟨S100000x64, .f32⟩
  | 58 => ⟨S100000x64, .f32⟩
  | 59 => ⟨S100000x64, .f32⟩
  | 60 => ⟨S1x64x64, .f32⟩
  | 61 => ⟨S64x64, .f32⟩
  | 62 => ⟨S1x64, .f32⟩
  | 63 => ⟨S64, .f32⟩
  | 64 => ⟨S100000x64, .f32⟩
  | 65 => ⟨S_, .f32⟩
  | 66 => ⟨S100000, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000, .f32⟩
  | 89 => ⟨S400000, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000, .f32⟩
  | 99 => ⟨S400000, .f32⟩
  | 100 => ⟨S_, .f32⟩
  | 101 => ⟨S100000x64, .f32⟩
  | 102 => ⟨S400000x1, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000x64, .f32⟩
  | 112 => ⟨S400000x64, .f32⟩
  | 113 => ⟨S400000x64, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S100000x64, .f32⟩
  | 123 => ⟨S100000, .f32⟩
  | 124 => ⟨S100000x1, .f32⟩
  | 125 => ⟨S100000x64, .f32⟩
  | 126 => ⟨S100000x64, .f32⟩
  | 127 => ⟨S100000x64, .f32⟩
  | _ => ⟨S525000x6, .f32⟩

abbrev hbmTy0_4 (i : Nat) : BufTy := match i % 128 with
  | 0 => ⟨S1x64, .f32⟩
  | 1 => ⟨S100000x64, .f32⟩
  | 2 => ⟨S100000x64, .f32⟩
  | 3 => ⟨S100000x64, .f32⟩
  | 4 => ⟨S1x1, .f32⟩
  | 5 => ⟨S_, .f32⟩
  | 6 => ⟨S100000x64, .f32⟩
  | 7 => ⟨S100000x64, .f32⟩
  | 8 => ⟨S100000x64, .f32⟩
  | 9 => ⟨S1x100000, .i32⟩
  | 10 => ⟨S100000, .i32⟩
  | 11 => ⟨S1x100000, .i32⟩
  | 12 => ⟨S100000, .i32⟩
  | 13 => ⟨S_, .f32⟩
  | 14 => ⟨S25000x64, .f32⟩
  | 15 => ⟨S1x64x64, .f32⟩
  | 16 => ⟨S64x64, .f32⟩
  | 17 => ⟨S1x64, .f32⟩
  | 18 => ⟨S64, .f32⟩
  | 19 => ⟨S25000x64, .f32⟩
  | 20 => ⟨S_, .f32⟩
  | 21 => ⟨S25000, .f32⟩
  | 22 => ⟨S_, .i32⟩
  | 23 => ⟨S100000, .i32⟩
  | 24 => ⟨S100000, .i1⟩
  | 25 => ⟨S_, .i32⟩
  | 26 => ⟨S100000, .i32⟩
  | 27 => ⟨S100000, .i32⟩
  | 28 => ⟨S100000, .i32⟩
  | 29 => ⟨S100000x1, .i32⟩
  | 30 => ⟨S25000, .f32⟩
  | 31 => ⟨S_, .f32⟩
  | 32 => ⟨S25000, .f32⟩
  | 33 => ⟨S25000, .f32⟩
  | 34 => ⟨S25000, .f32⟩
  | 35 => ⟨S_, .i32⟩
  | 36 => ⟨S100000, .i32⟩
  | 37 => ⟨S100000, .i1⟩
  | 38 => ⟨S_, .i32⟩
  | 39 => ⟨S100000, .i32⟩
  | 40 => ⟨S100000, .i32⟩
  | 41 => ⟨S100000, .i32⟩
  | 42 => ⟨S100000x1, .i32⟩
  | 43 => ⟨S100000, .f32⟩
  | 44 => ⟨S100000, .f32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000, .f32⟩
  | 54 => ⟨S100000, .f32⟩
  | 55 => ⟨S_, .f32⟩
  | 56 => ⟨S25000x64, .f32⟩
  | 57 => ⟨S100000x1, .f32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S100000x64, .f32⟩
  | 67 => ⟨S100000x64, .f32⟩
  | 68 => ⟨S100000x64, .f32⟩
  | 69 => ⟨S_, .i32⟩
  | 70 => ⟨S100000, .i32⟩
  | 71 => ⟨S100000, .i1⟩
  | 72 => ⟨S_, .i32⟩
  | 73 => ⟨S100000, .i32⟩
  | 74 => ⟨S100000, .i32⟩
  | 75 => ⟨S100000, .i32⟩
  | 76 => ⟨S100000x1, .i32⟩
  | 77 => ⟨S25000x64, .f32⟩
  | 78 => ⟨S25000, .f32⟩
  | 79 => ⟨S25000x1, .f32⟩
  | 80 => ⟨S25000x64, .f32⟩
  | 81 => ⟨S25000x64, .f32⟩
  | 82 => ⟨S25000x64, .f32⟩
  | 83 => ⟨S1x64, .f32⟩
  | 84 => ⟨S25000x64, .f32⟩
  | 85 => ⟨S25000x64, .f32⟩
  | 86 => ⟨S25000x64, .f32⟩
  | 87 => ⟨S1x1, .f32⟩
  | 88 => ⟨S_, .f32⟩
  | 89 => ⟨S25000x64, .f32⟩
  | 90 => ⟨S25000x64, .f32⟩
  | 91 => ⟨S25000x64, .f32⟩
  | 92 => ⟨S1x64x64, .f32⟩
  | 93 => ⟨S64x64, .f32⟩
  | 94 => ⟨S1x64, .f32⟩
  | 95 => ⟨S64, .f32⟩
  | 96 => ⟨S25000x64, .f32⟩
  | 97 => ⟨S_, .f32⟩
  | 98 => ⟨S25000, .f32⟩
  | 99 => ⟨S_, .i32⟩
  | 100 => ⟨S100000, .i32⟩
  | 101 => ⟨S100000, .i1⟩
  | 102 => ⟨S_, .i32⟩
  | 103 => ⟨S100000, .i32⟩
  | 104 => ⟨S100000, .i32⟩
  | 105 => ⟨S100000, .i32⟩
  | 106 => ⟨S100000x1, .i32⟩
  | 107 => ⟨S25000, .f32⟩
  | 108 => ⟨S_, .f32⟩
  | 109 => ⟨S25000, .f32⟩
  | 110 => ⟨S25000, .f32⟩
  | 111 => ⟨S25000, .f32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000, .f32⟩
  | 121 => ⟨S100000, .f32⟩
  | 122 => ⟨S_, .i32⟩
  | 123 => ⟨S100000, .i32⟩
  | 124 => ⟨S100000, .i1⟩
  | 125 => ⟨S_, .i32⟩
  | 126 => ⟨S100000, .i32⟩
  | 127 => ⟨S100000, .i32⟩
  | _ => ⟨S525000x6, .f32⟩

abbrev hbmTy0_5 (i : Nat) : BufTy := match i % 128 with
  | 0 => ⟨S100000, .i32⟩
  | 1 => ⟨S100000x1, .i32⟩
  | 2 => ⟨S100000, .f32⟩
  | 3 => ⟨S100000, .f32⟩
  | 4 => ⟨S_, .f32⟩
  | 5 => ⟨S25000x64, .f32⟩
  | 6 => ⟨S100000x1, .f32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S100000x64, .f32⟩
  | 16 => ⟨S100000x64, .f32⟩
  | 17 => ⟨S100000x64, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S25000x64, .f32⟩
  | 27 => ⟨S25000, .f32⟩
  | 28 => ⟨S25000x1, .f32⟩
  | 29 => ⟨S25000x64, .f32⟩
  | 30 => ⟨S25000x64, .f32⟩
  | 31 => ⟨S25000x64, .f32⟩
  | 32 => ⟨S1x64, .f32⟩
  | 33 => ⟨S25000x64, .f32⟩
  | 34 => ⟨S25000x64, .f32⟩
  | 35 => ⟨S25000x64, .f32⟩
  | 36 => ⟨S1x1, .f32⟩
  | 37 => ⟨S_, .f32⟩
  | 38 => ⟨S25000x64, .f32⟩
  | 39 => ⟨S25000x64, .f32⟩
  | 40 => ⟨S25000x64, .f32⟩
  | 41 => ⟨S1x64x64, .f32⟩
  | 42 => ⟨S64x64, .f32⟩
  | 43 => ⟨S1x64, .f32⟩
  | 44 => ⟨S64, .f32⟩
  | 45 => ⟨S25000x64, .f32⟩
  | 46 => ⟨S_, .f32⟩
  | 47 => ⟨S25000, .f32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S25000, .f32⟩
  | 57 => ⟨S_, .f32⟩
  | 58 => ⟨S25000, .f32⟩
  | 59 => ⟨S25000, .f32⟩
  | 60 => ⟨S25000, .f32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000, .f32⟩
  | 70 => ⟨S100000, .f32⟩
  | 71 => ⟨S_, .i32⟩
  | 72 => ⟨S100000, .i32⟩
  | 73 => ⟨S100000, .i1⟩
  | 74 => ⟨S_, .i32⟩
  | 75 => ⟨S100000, .i32⟩
  | 76 => ⟨S100000, .i32⟩
  | 77 => ⟨S100000, .i32⟩
  | 78 => ⟨S100000x1, .i32⟩
  | 79 => ⟨S100000, .f32⟩
  | 80 => ⟨S100000, .f32⟩
  | 81 => ⟨S_, .f32⟩
  | 82 => ⟨S25000x64, .f32⟩
  | 83 => ⟨S100000x1, .f32⟩
  | 84 => ⟨S_, .i32⟩
  | 85 => ⟨S100000, .i32⟩
  | 86 => ⟨S100000, .i1⟩
  | 87 => ⟨S_, .i32⟩
  | 88 => ⟨S100000, .i32⟩
  | 89 => ⟨S100000, .i32⟩
  | 90 => ⟨S100000, .i32⟩
  | 91 => ⟨S100000x1, .i32⟩
  | 92 => ⟨S100000x64, .f32⟩
  | 93 => ⟨S100000x64, .f32⟩
  | 94 => ⟨S100000x64, .f32⟩
  | 95 => ⟨S_, .i32⟩
  | 96 => ⟨S100000, .i32⟩
  | 97 => ⟨S100000, .i1⟩
  | 98 => ⟨S_, .i32⟩
  | 99 => ⟨S100000, .i32⟩
  | 100 => ⟨S100000, .i32⟩
  | 101 => ⟨S100000, .i32⟩
  | 102 => ⟨S100000x1, .i32⟩
  | 103 => ⟨S25000x64, .f32⟩
  | 104 => ⟨S25000, .f32⟩
  | 105 => ⟨S25000x1, .f32⟩
  | 106 => ⟨S25000x64, .f32⟩
  | 107 => ⟨S25000x64, .f32⟩
  | 108 => ⟨S25000x64, .f32⟩
  | 109 => ⟨S1x64, .f32⟩
  | 110 => ⟨S25000x64, .f32⟩
  | 111 => ⟨S25000x64, .f32⟩
  | 112 => ⟨S25000x64, .f32⟩
  | 113 => ⟨S1x1, .f32⟩
  | 114 => ⟨S_, .f32⟩
  | 115 => ⟨S25000x64, .f32⟩
  | 116 => ⟨S25000x64, .f32⟩
  | 117 => ⟨S25000x64, .f32⟩
  | 118 => ⟨S_, .f32⟩
  | 119 => ⟨S400000, .f32⟩
  | 120 => ⟨S_, .i32⟩
  | 121 => ⟨S100000, .i32⟩
  | 122 => ⟨S100000, .i1⟩
  | 123 => ⟨S_, .i32⟩
  | 124 => ⟨S100000, .i32⟩
  | 125 => ⟨S100000, .i32⟩
  | 126 => ⟨S100000, .i32⟩
  | 127 => ⟨S100000x1, .i32⟩
  | _ => ⟨S525000x6, .f32⟩

abbrev hbmTy0_6 (i : Nat) : BufTy := match i % 128 with
  | 0 => ⟨S_, .f32⟩
  | 1 => ⟨S100000, .f32⟩
  | 2 => ⟨S400000, .f32⟩
  | 3 => ⟨S_, .f32⟩
  | 4 => ⟨S400000x64, .f32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S400000x64, .f32⟩
  | 14 => ⟨S_, .f32⟩
  | 15 => ⟨S400000, .f32⟩
  | 16 => ⟨S400000, .f32⟩
  | 17 => ⟨S400000x1, .f32⟩
  | 18 => ⟨S400000x64, .f32⟩
  | 19 => ⟨S400000x64, .f32⟩
  | 20 => ⟨S400000x64, .f32⟩
  | 21 => ⟨S_, .f32⟩
  | 22 => ⟨S400000, .f32⟩
  | 23 => ⟨S_, .i32⟩
  | 24 => ⟨S25000, .i32⟩
  | 25 => ⟨S25000, .i1⟩
  | 26 => ⟨S_, .i32⟩
  | 27 => ⟨S25000, .i32⟩
  | 28 => ⟨S25000, .i32⟩
  | 29 => ⟨S25000, .i32⟩
  | 30 => ⟨S25000x1, .i32⟩
  | 31 => ⟨S_, .f32⟩
  | 32 => ⟨S25000, .f32⟩
  | 33 => ⟨S400000, .f32⟩
  | 34 => ⟨S_, .f32⟩
  | 35 => ⟨S400000x64, .f32⟩
  | 36 => ⟨S_, .i32⟩
  | 37 => ⟨S25000, .i32⟩
  | 38 => ⟨S25000, .i1⟩
  | 39 => ⟨S_, .i32⟩
  | 40 => ⟨S25000, .i32⟩
  | 41 => ⟨S25000, .i32⟩
  | 42 => ⟨S25000, .i32⟩
  | 43 => ⟨S25000x1, .i32⟩
  | 44 => ⟨S400000x64, .f32⟩
  | 45 => ⟨S_, .f32⟩
  | 46 => ⟨S400000, .f32⟩
  | 47 => ⟨S400000, .f32⟩
  | 48 => ⟨S400000x1, .f32⟩
  | 49 => ⟨S400000x64, .f32⟩
  | 50 => ⟨S400000x64, .f32⟩
  | 51 => ⟨S400000x64, .f32⟩
  | 52 => ⟨S400000x64, .f32⟩
  | 53 => ⟨S1x64, .f32⟩
  | 54 => ⟨S400000x64, .f32⟩
  | 55 => ⟨S400000x64, .f32⟩
  | 56 => ⟨S_, .f32⟩
  | 57 => ⟨S400000x64, .f32⟩
  | 58 => ⟨S400000x64, .i1⟩
  | 59 => ⟨S400000x64, .f32⟩
  | 60 => ⟨S400000x64, .f32⟩
  | 61 => ⟨S400000x64, .f32⟩
  | 62 => ⟨S400000x2, .f32⟩
  | 63 => ⟨S1x2, .f32⟩
  | 64 => ⟨S400000x2, .f32⟩
  | 65 => ⟨S400000x2, .f32⟩
  | 66 => ⟨S_, .f32⟩
  | 67 => ⟨S400000x2, .f32⟩
  | 68 => ⟨S400000x2, .i1⟩
  | 69 => ⟨S400000x2, .f32⟩
  | 70 => ⟨S400000x2, .f32⟩
  | 71 => ⟨S400000x2, .f32⟩
  | _ => ⟨S525000x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S525000x6, .f32⟩

abbrev bufTy : (tb : Table) → Fin (tcTables nBuf tb) → BufTy
  | .hbm, ⟨i, _⟩ => hbmTy i
  | _, _ => ⟨S525000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_1 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_2 : Ref sig .tc := ⟨.hbm, 58, rfl⟩
abbrev main_v32 : Ref sig .tc := ⟨.hbm, 59, rfl⟩
abbrev main_c : Ref sig .tc := ⟨.hbm, 60, rfl⟩
abbrev main_v33 : Ref sig .tc := ⟨.hbm, 61, rfl⟩
abbrev main_v34 : Ref sig .tc := ⟨.hbm, 62, rfl⟩
abbrev main_c_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_5 : Ref sig .tc := ⟨.hbm, 73, rfl⟩
abbrev main_v43 : Ref sig .tc := ⟨.hbm, 74, rfl⟩
abbrev main_v44 : Ref sig .tc := ⟨.hbm, 75, rfl⟩
abbrev main_c_6 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_7 : Ref sig .tc := ⟨.hbm, 83, rfl⟩
abbrev main_v51 : Ref sig .tc := ⟨.hbm, 84, rfl⟩
abbrev main_v52 : Ref sig .tc := ⟨.hbm, 85, rfl⟩
abbrev main_c_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_c_10 : Ref sig .tc := ⟨.hbm, 96, rfl⟩
abbrev main_v61 : Ref sig .tc := ⟨.hbm, 97, rfl⟩
abbrev main_v62 : Ref sig .tc := ⟨.hbm, 98, rfl⟩
abbrev main_c_11 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_12 : Ref sig .tc := ⟨.hbm, 107, rfl⟩
abbrev main_v70 : Ref sig .tc := ⟨.hbm, 108, rfl⟩
abbrev main_v71 : Ref sig .tc := ⟨.hbm, 109, rfl⟩
abbrev main_c_13 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_14 : Ref sig .tc := ⟨.hbm, 135, rfl⟩
abbrev main_v96 : Ref sig .tc := ⟨.hbm, 136, rfl⟩
abbrev main_c_15 : Ref sig .tc := ⟨.hbm, 137, rfl⟩
abbrev main_v97 : Ref sig .tc := ⟨.hbm, 138, rfl⟩
abbrev main_v98 : Ref sig .tc := ⟨.hbm, 139, rfl⟩
abbrev main_c_16 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_17 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_c_18 : Ref sig .tc := ⟨.hbm, 150, rfl⟩
abbrev main_v107 : Ref sig .tc := ⟨.hbm, 151, rfl⟩
abbrev main_v108 : Ref sig .tc := ⟨.hbm, 152, rfl⟩
abbrev main_c_19 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_20 : Ref sig .tc := ⟨.hbm, 160, rfl⟩
abbrev main_v115 : Ref sig .tc := ⟨.hbm, 161, rfl⟩
abbrev main_v116 : Ref sig .tc := ⟨.hbm, 162, rfl⟩
abbrev main_c_21 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_22 : Ref sig .tc := ⟨.hbm, 170, rfl⟩
abbrev main_v123 : Ref sig .tc := ⟨.hbm, 171, rfl⟩
abbrev main_v124 : Ref sig .tc := ⟨.hbm, 172, rfl⟩
abbrev main_c_23 : Ref sig .tc := ⟨.hbm, 173, rfl⟩
abbrev main_v125 : Ref sig .tc := ⟨.hbm, 174, rfl⟩
abbrev main_v126 : Ref sig .tc := ⟨.hbm, 175, rfl⟩
abbrev main_c_24 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_c_25 : Ref sig .tc := ⟨.hbm, 184, rfl⟩
abbrev main_v134 : Ref sig .tc := ⟨.hbm, 185, rfl⟩
abbrev main_v135 : Ref sig .tc := ⟨.hbm, 186, rfl⟩
abbrev main_c_26 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_27 : Ref sig .tc := ⟨.hbm, 212, rfl⟩
abbrev main_v160 : Ref sig .tc := ⟨.hbm, 213, rfl⟩
abbrev main_c_28 : Ref sig .tc := ⟨.hbm, 214, rfl⟩
abbrev main_v161 : Ref sig .tc := ⟨.hbm, 215, rfl⟩
abbrev main_v162 : Ref sig .tc := ⟨.hbm, 216, rfl⟩
abbrev main_c_29 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_cst_30 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_c_31 : Ref sig .tc := ⟨.hbm, 227, rfl⟩
abbrev main_v171 : Ref sig .tc := ⟨.hbm, 228, rfl⟩
abbrev main_v172 : Ref sig .tc := ⟨.hbm, 229, rfl⟩
abbrev main_c_32 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_c_33 : Ref sig .tc := ⟨.hbm, 237, rfl⟩
abbrev main_v179 : Ref sig .tc := ⟨.hbm, 238, rfl⟩
abbrev main_v180 : Ref sig .tc := ⟨.hbm, 239, rfl⟩
abbrev main_c_34 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_cst_35 : Ref sig .tc := ⟨.hbm, 247, rfl⟩
abbrev main_v187 : Ref sig .tc := ⟨.hbm, 248, rfl⟩
abbrev main_v188 : Ref sig .tc := ⟨.hbm, 249, rfl⟩
abbrev main_c_36 : Ref sig .tc := ⟨.hbm, 250, rfl⟩
abbrev main_v189 : Ref sig .tc := ⟨.hbm, 251, rfl⟩
abbrev main_v190 : Ref sig .tc := ⟨.hbm, 252, rfl⟩
abbrev main_c_37 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_38 : Ref sig .tc := ⟨.hbm, 261, rfl⟩
abbrev main_v198 : Ref sig .tc := ⟨.hbm, 262, rfl⟩
abbrev main_v199 : Ref sig .tc := ⟨.hbm, 263, rfl⟩
abbrev main_c_39 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_cst_40 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_cst_41 : Ref sig .tc := ⟨.hbm, 295, rfl⟩
abbrev main_v229 : Ref sig .tc := ⟨.hbm, 296, rfl⟩
abbrev main_c_42 : Ref sig .tc := ⟨.hbm, 297, rfl⟩
abbrev main_v230 : Ref sig .tc := ⟨.hbm, 298, rfl⟩
abbrev main_v231 : Ref sig .tc := ⟨.hbm, 299, rfl⟩
abbrev main_c_43 : Ref sig .tc := ⟨.hbm, 300, rfl⟩
abbrev main_v232 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_cst_44 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_c_45 : Ref sig .tc := ⟨.hbm, 310, rfl⟩
abbrev main_v240 : Ref sig .tc := ⟨.hbm, 311, rfl⟩
abbrev main_v241 : Ref sig .tc := ⟨.hbm, 312, rfl⟩
abbrev main_c_46 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_c_47 : Ref sig .tc := ⟨.hbm, 320, rfl⟩
abbrev main_v248 : Ref sig .tc := ⟨.hbm, 321, rfl⟩
abbrev main_v249 : Ref sig .tc := ⟨.hbm, 322, rfl⟩
abbrev main_c_48 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_cst_49 : Ref sig .tc := ⟨.hbm, 330, rfl⟩
abbrev main_v256 : Ref sig .tc := ⟨.hbm, 331, rfl⟩
abbrev main_v257 : Ref sig .tc := ⟨.hbm, 332, rfl⟩
abbrev main_c_50 : Ref sig .tc := ⟨.hbm, 333, rfl⟩
abbrev main_v258 : Ref sig .tc := ⟨.hbm, 334, rfl⟩
abbrev main_v259 : Ref sig .tc := ⟨.hbm, 335, rfl⟩
abbrev main_c_51 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_c_52 : Ref sig .tc := ⟨.hbm, 344, rfl⟩
abbrev main_v267 : Ref sig .tc := ⟨.hbm, 345, rfl⟩
abbrev main_v268 : Ref sig .tc := ⟨.hbm, 346, rfl⟩
abbrev main_c_53 : Ref sig .tc := ⟨.hbm, 347, rfl⟩
abbrev main_v269 : Ref sig .tc := ⟨.hbm, 348, rfl⟩
abbrev main_v270 : Ref sig .tc := ⟨.hbm, 349, rfl⟩
abbrev main_v271 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_v282 : Ref sig .tc := ⟨.hbm, 361, rfl⟩
abbrev main_v283 : Ref sig .tc := ⟨.hbm, 362, rfl⟩
abbrev main_v284 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_cst_54 : Ref sig .tc := ⟨.hbm, 372, rfl⟩
abbrev main_v293 : Ref sig .tc := ⟨.hbm, 373, rfl⟩
abbrev main_c_55 : Ref sig .tc := ⟨.hbm, 374, rfl⟩
abbrev main_v294 : Ref sig .tc := ⟨.hbm, 375, rfl⟩
abbrev main_v295 : Ref sig .tc := ⟨.hbm, 376, rfl⟩
abbrev main_c_56 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_cst_57 : Ref sig .tc := ⟨.hbm, 383, rfl⟩
abbrev main_v301 : Ref sig .tc := ⟨.hbm, 384, rfl⟩
abbrev main_v302 : Ref sig .tc := ⟨.hbm, 385, rfl⟩
abbrev main_v303 : Ref sig .tc := ⟨.hbm, 386, rfl⟩
abbrev main_c_58 : Ref sig .tc := ⟨.hbm, 387, rfl⟩
abbrev main_v304 : Ref sig .tc := ⟨.hbm, 388, rfl⟩
abbrev main_v305 : Ref sig .tc := ⟨.hbm, 389, rfl⟩
abbrev main_c_59 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_c_60 : Ref sig .tc := ⟨.hbm, 397, rfl⟩
abbrev main_v312 : Ref sig .tc := ⟨.hbm, 398, rfl⟩
abbrev main_v313 : Ref sig .tc := ⟨.hbm, 399, rfl⟩
abbrev main_c_61 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_cst_62 : Ref sig .tc := ⟨.hbm, 407, rfl⟩
abbrev main_v320 : Ref sig .tc := ⟨.hbm, 408, rfl⟩
abbrev main_v321 : Ref sig .tc := ⟨.hbm, 409, rfl⟩
abbrev main_c_63 : Ref sig .tc := ⟨.hbm, 410, rfl⟩
abbrev main_v322 : Ref sig .tc := ⟨.hbm, 411, rfl⟩
abbrev main_v323 : Ref sig .tc := ⟨.hbm, 412, rfl⟩
abbrev main_c_64 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_v328 : Ref sig .tc := ⟨.hbm, 418, rfl⟩
abbrev main_v329 : Ref sig .tc := ⟨.hbm, 419, rfl⟩
abbrev main_v330 : Ref sig .tc := ⟨.hbm, 420, rfl⟩
abbrev main_c_65 : Ref sig .tc := ⟨.hbm, 421, rfl⟩
abbrev main_v331 : Ref sig .tc := ⟨.hbm, 422, rfl⟩
abbrev main_v332 : Ref sig .tc := ⟨.hbm, 423, rfl⟩
abbrev main_c_66 : Ref sig .tc := ⟨.hbm, 424, rfl⟩
abbrev main_v333 : Ref sig .tc := ⟨.hbm, 425, rfl⟩
abbrev main_v334 : Ref sig .tc := ⟨.hbm, 426, rfl⟩
abbrev main_v335 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_v345 : Ref sig .tc := ⟨.hbm, 437, rfl⟩
abbrev main_v346 : Ref sig .tc := ⟨.hbm, 438, rfl⟩
abbrev main_v347 : Ref sig .tc := ⟨.hbm, 439, rfl⟩
abbrev main_v348 : Ref sig .tc := ⟨.hbm, 440, rfl⟩
abbrev main_v349 : Ref sig .tc := ⟨.hbm, 441, rfl⟩
abbrev main_v350 : Ref sig .tc := ⟨.hbm, 442, rfl⟩
abbrev main_v351 : Ref sig .tc := ⟨.hbm, 443, rfl⟩
abbrev main_v352 : Ref sig .tc := ⟨.hbm, 444, rfl⟩
abbrev main_v353 : Ref sig .tc := ⟨.hbm, 445, rfl⟩
abbrev main_v354 : Ref sig .tc := ⟨.hbm, 446, rfl⟩
abbrev main_v355 : Ref sig .tc := ⟨.hbm, 447, rfl⟩
abbrev main_v356 : Ref sig .tc := ⟨.hbm, 448, rfl⟩
abbrev main_cst_67 : Ref sig .tc := ⟨.hbm, 449, rfl⟩
abbrev main_v357 : Ref sig .tc := ⟨.hbm, 450, rfl⟩
abbrev main_c_68 : Ref sig .tc := ⟨.hbm, 451, rfl⟩
abbrev main_v358 : Ref sig .tc := ⟨.hbm, 452, rfl⟩
abbrev main_v359 : Ref sig .tc := ⟨.hbm, 453, rfl⟩
abbrev main_c_69 : Ref sig .tc := ⟨.hbm, 454, rfl⟩
abbrev main_v360 : Ref sig .tc := ⟨.hbm, 455, rfl⟩
abbrev main_v361 : Ref sig .tc := ⟨.hbm, 456, rfl⟩
abbrev main_v362 : Ref sig .tc := ⟨.hbm, 457, rfl⟩
abbrev main_v363 : Ref sig .tc := ⟨.hbm, 458, rfl⟩
abbrev main_v364 : Ref sig .tc := ⟨.hbm, 459, rfl⟩
abbrev main_cst_70 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_c_71 : Ref sig .tc := ⟨.hbm, 464, rfl⟩
abbrev main_v368 : Ref sig .tc := ⟨.hbm, 465, rfl⟩
abbrev main_v369 : Ref sig .tc := ⟨.hbm, 466, rfl⟩
abbrev main_c_72 : Ref sig .tc := ⟨.hbm, 467, rfl⟩
abbrev main_v370 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_c_73 : Ref sig .tc := ⟨.hbm, 474, rfl⟩
abbrev main_v376 : Ref sig .tc := ⟨.hbm, 475, rfl⟩
abbrev main_v377 : Ref sig .tc := ⟨.hbm, 476, rfl⟩
abbrev main_c_74 : Ref sig .tc := ⟨.hbm, 477, rfl⟩
abbrev main_v378 : Ref sig .tc := ⟨.hbm, 478, rfl⟩
abbrev main_v379 : Ref sig .tc := ⟨.hbm, 479, rfl⟩
abbrev main_v380 : Ref sig .tc := ⟨.hbm, 480, rfl⟩
abbrev main_v381 : Ref sig .tc := ⟨.hbm, 481, rfl⟩
abbrev main_v382 : Ref sig .tc := ⟨.hbm, 482, rfl⟩
abbrev main_v383 : Ref sig .tc := ⟨.hbm, 483, rfl⟩
abbrev main_cst_75 : Ref sig .tc := ⟨.hbm, 484, rfl⟩
abbrev main_v384 : Ref sig .tc := ⟨.hbm, 485, rfl⟩
abbrev main_v385 : Ref sig .tc := ⟨.hbm, 486, rfl⟩
abbrev main_c_76 : Ref sig .tc := ⟨.hbm, 487, rfl⟩
abbrev main_v386 : Ref sig .tc := ⟨.hbm, 488, rfl⟩
abbrev main_v387 : Ref sig .tc := ⟨.hbm, 489, rfl⟩
abbrev main_c_77 : Ref sig .tc := ⟨.hbm, 490, rfl⟩
abbrev main_v388 : Ref sig .tc := ⟨.hbm, 491, rfl⟩
abbrev main_v389 : Ref sig .tc := ⟨.hbm, 492, rfl⟩
abbrev main_v390 : Ref sig .tc := ⟨.hbm, 493, rfl⟩
abbrev main_v391 : Ref sig .tc := ⟨.hbm, 494, rfl⟩
abbrev main_v392 : Ref sig .tc := ⟨.hbm, 495, rfl⟩
abbrev main_v393 : Ref sig .tc := ⟨.hbm, 496, rfl⟩
abbrev main_v394 : Ref sig .tc := ⟨.hbm, 497, rfl⟩
abbrev main_c_78 : Ref sig .tc := ⟨.hbm, 498, rfl⟩
abbrev main_v395 : Ref sig .tc := ⟨.hbm, 499, rfl⟩
abbrev main_v396 : Ref sig .tc := ⟨.hbm, 500, rfl⟩
abbrev main_c_79 : Ref sig .tc := ⟨.hbm, 501, rfl⟩
abbrev main_v397 : Ref sig .tc := ⟨.hbm, 502, rfl⟩
abbrev main_v398 : Ref sig .tc := ⟨.hbm, 503, rfl⟩
abbrev main_v399 : Ref sig .tc := ⟨.hbm, 504, rfl⟩
abbrev main_v400 : Ref sig .tc := ⟨.hbm, 505, rfl⟩
abbrev main_v401 : Ref sig .tc := ⟨.hbm, 506, rfl⟩
abbrev main_v402 : Ref sig .tc := ⟨.hbm, 507, rfl⟩
abbrev main_v403 : Ref sig .tc := ⟨.hbm, 508, rfl⟩
abbrev main_v404 : Ref sig .tc := ⟨.hbm, 509, rfl⟩
abbrev main_v405 : Ref sig .tc := ⟨.hbm, 510, rfl⟩
abbrev main_v406 : Ref sig .tc := ⟨.hbm, 511, rfl⟩
abbrev main_v407 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_v412 : Ref sig .tc := ⟨.hbm, 517, rfl⟩
abbrev main_v413 : Ref sig .tc := ⟨.hbm, 518, rfl⟩
abbrev main_v414 : Ref sig .tc := ⟨.hbm, 519, rfl⟩
abbrev main_v415 : Ref sig .tc := ⟨.hbm, 520, rfl⟩
abbrev main_v416 : Ref sig .tc := ⟨.hbm, 521, rfl⟩
abbrev main_v417 : Ref sig .tc := ⟨.hbm, 522, rfl⟩
abbrev main_v418 : Ref sig .tc := ⟨.hbm, 523, rfl⟩
abbrev main_v419 : Ref sig .tc := ⟨.hbm, 524, rfl⟩
abbrev main_cst_80 : Ref sig .tc := ⟨.hbm, 525, rfl⟩
abbrev main_v420 : Ref sig .tc := ⟨.hbm, 526, rfl⟩
abbrev main_v421 : Ref sig .tc := ⟨.hbm, 527, rfl⟩
abbrev main_v422 : Ref sig .tc := ⟨.hbm, 528, rfl⟩
abbrev main_v423 : Ref sig .tc := ⟨.hbm, 529, rfl⟩
abbrev main_v424 : Ref sig .tc := ⟨.hbm, 530, rfl⟩
abbrev main_v425 : Ref sig .tc := ⟨.hbm, 531, rfl⟩
abbrev main_cst_81 : Ref sig .tc := ⟨.hbm, 532, rfl⟩
abbrev main_v426 : Ref sig .tc := ⟨.hbm, 533, rfl⟩
abbrev main_c_82 : Ref sig .tc := ⟨.hbm, 534, rfl⟩
abbrev main_v427 : Ref sig .tc := ⟨.hbm, 535, rfl⟩
abbrev main_v428 : Ref sig .tc := ⟨.hbm, 536, rfl⟩
abbrev main_c_83 : Ref sig .tc := ⟨.hbm, 537, rfl⟩
abbrev main_v429 : Ref sig .tc := ⟨.hbm, 538, rfl⟩
abbrev main_v430 : Ref sig .tc := ⟨.hbm, 539, rfl⟩
abbrev main_v431 : Ref sig .tc := ⟨.hbm, 540, rfl⟩
abbrev main_v432 : Ref sig .tc := ⟨.hbm, 541, rfl⟩
abbrev main_v433 : Ref sig .tc := ⟨.hbm, 542, rfl⟩
abbrev main_cst_84 : Ref sig .tc := ⟨.hbm, 543, rfl⟩
abbrev main_v434 : Ref sig .tc := ⟨.hbm, 544, rfl⟩
abbrev main_v435 : Ref sig .tc := ⟨.hbm, 545, rfl⟩
abbrev main_v436 : Ref sig .tc := ⟨.hbm, 546, rfl⟩
abbrev main_c_85 : Ref sig .tc := ⟨.hbm, 547, rfl⟩
abbrev main_v437 : Ref sig .tc := ⟨.hbm, 548, rfl⟩
abbrev main_v438 : Ref sig .tc := ⟨.hbm, 549, rfl⟩
abbrev main_c_86 : Ref sig .tc := ⟨.hbm, 550, rfl⟩
abbrev main_v439 : Ref sig .tc := ⟨.hbm, 551, rfl⟩
abbrev main_v440 : Ref sig .tc := ⟨.hbm, 552, rfl⟩
abbrev main_v441 : Ref sig .tc := ⟨.hbm, 553, rfl⟩
abbrev main_v442 : Ref sig .tc := ⟨.hbm, 554, rfl⟩
abbrev main_v443 : Ref sig .tc := ⟨.hbm, 555, rfl⟩
abbrev main_v444 : Ref sig .tc := ⟨.hbm, 556, rfl⟩
abbrev main_c_87 : Ref sig .tc := ⟨.hbm, 557, rfl⟩
abbrev main_v445 : Ref sig .tc := ⟨.hbm, 558, rfl⟩
abbrev main_v446 : Ref sig .tc := ⟨.hbm, 559, rfl⟩
abbrev main_c_88 : Ref sig .tc := ⟨.hbm, 560, rfl⟩
abbrev main_v447 : Ref sig .tc := ⟨.hbm, 561, rfl⟩
abbrev main_v448 : Ref sig .tc := ⟨.hbm, 562, rfl⟩
abbrev main_v449 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_cst_89 : Ref sig .tc := ⟨.hbm, 567, rfl⟩
abbrev main_v453 : Ref sig .tc := ⟨.hbm, 568, rfl⟩
abbrev main_v454 : Ref sig .tc := ⟨.hbm, 569, rfl⟩
abbrev main_c_90 : Ref sig .tc := ⟨.hbm, 570, rfl⟩
abbrev main_v455 : Ref sig .tc := ⟨.hbm, 571, rfl⟩
abbrev main_v456 : Ref sig .tc := ⟨.hbm, 572, rfl⟩
abbrev main_c_91 : Ref sig .tc := ⟨.hbm, 573, rfl⟩
abbrev main_v457 : Ref sig .tc := ⟨.hbm, 574, rfl⟩
abbrev main_v458 : Ref sig .tc := ⟨.hbm, 575, rfl⟩
abbrev main_v459 : Ref sig .tc := ⟨.hbm, 576, rfl⟩
abbrev main_v460 : Ref sig .tc := ⟨.hbm, 577, rfl⟩
abbrev main_v461 : Ref sig .tc := ⟨.hbm, 578, rfl⟩
abbrev main_v462 : Ref sig .tc := ⟨.hbm, 579, rfl⟩
abbrev main_v463 : Ref sig .tc := ⟨.hbm, 580, rfl⟩
abbrev main_c_92 : Ref sig .tc := ⟨.hbm, 581, rfl⟩
abbrev main_v464 : Ref sig .tc := ⟨.hbm, 582, rfl⟩
abbrev main_v465 : Ref sig .tc := ⟨.hbm, 583, rfl⟩
abbrev main_c_93 : Ref sig .tc := ⟨.hbm, 584, rfl⟩
abbrev main_v466 : Ref sig .tc := ⟨.hbm, 585, rfl⟩
abbrev main_v467 : Ref sig .tc := ⟨.hbm, 586, rfl⟩
abbrev main_v468 : Ref sig .tc := ⟨.hbm, 587, rfl⟩
abbrev main_v469 : Ref sig .tc := ⟨.hbm, 588, rfl⟩
abbrev main_v470 : Ref sig .tc := ⟨.hbm, 589, rfl⟩
abbrev main_v471 : Ref sig .tc := ⟨.hbm, 590, rfl⟩
abbrev main_v472 : Ref sig .tc := ⟨.hbm, 591, rfl⟩
abbrev main_v473 : Ref sig .tc := ⟨.hbm, 592, rfl⟩
abbrev main_v474 : Ref sig .tc := ⟨.hbm, 593, rfl⟩
abbrev main_v475 : Ref sig .tc := ⟨.hbm, 594, rfl⟩
abbrev main_v476 : Ref sig .tc := ⟨.hbm, 595, rfl⟩
abbrev main_v477 : Ref sig .tc := ⟨.hbm, 596, rfl⟩
abbrev main_v478 : Ref sig .tc := ⟨.hbm, 597, rfl⟩
abbrev main_v479 : Ref sig .tc := ⟨.hbm, 598, rfl⟩
abbrev main_v480 : Ref sig .tc := ⟨.hbm, 599, rfl⟩
abbrev main_v481 : Ref sig .tc := ⟨.hbm, 600, rfl⟩
abbrev main_v482 : Ref sig .tc := ⟨.hbm, 601, rfl⟩
abbrev main_v483 : Ref sig .tc := ⟨.hbm, 602, rfl⟩
abbrev main_v484 : Ref sig .tc := ⟨.hbm, 603, rfl⟩
abbrev main_v485 : Ref sig .tc := ⟨.hbm, 604, rfl⟩
abbrev main_v486 : Ref sig .tc := ⟨.hbm, 605, rfl⟩
abbrev main_v487 : Ref sig .tc := ⟨.hbm, 606, rfl⟩
abbrev main_v488 : Ref sig .tc := ⟨.hbm, 607, rfl⟩
abbrev main_v489 : Ref sig .tc := ⟨.hbm, 608, rfl⟩
abbrev main_cst_94 : Ref sig .tc := ⟨.hbm, 609, rfl⟩
abbrev main_v490 : Ref sig .tc := ⟨.hbm, 610, rfl⟩
abbrev main_c_95 : Ref sig .tc := ⟨.hbm, 611, rfl⟩
abbrev main_v491 : Ref sig .tc := ⟨.hbm, 612, rfl⟩
abbrev main_v492 : Ref sig .tc := ⟨.hbm, 613, rfl⟩
abbrev main_c_96 : Ref sig .tc := ⟨.hbm, 614, rfl⟩
abbrev main_v493 : Ref sig .tc := ⟨.hbm, 615, rfl⟩
abbrev main_v494 : Ref sig .tc := ⟨.hbm, 616, rfl⟩
abbrev main_v495 : Ref sig .tc := ⟨.hbm, 617, rfl⟩
abbrev main_v496 : Ref sig .tc := ⟨.hbm, 618, rfl⟩
abbrev main_v497 : Ref sig .tc := ⟨.hbm, 619, rfl⟩
abbrev main_cst_97 : Ref sig .tc := ⟨.hbm, 620, rfl⟩
abbrev main_v498 : Ref sig .tc := ⟨.hbm, 621, rfl⟩
abbrev main_v499 : Ref sig .tc := ⟨.hbm, 622, rfl⟩
abbrev main_v500 : Ref sig .tc := ⟨.hbm, 623, rfl⟩
abbrev main_c_98 : Ref sig .tc := ⟨.hbm, 624, rfl⟩
abbrev main_v501 : Ref sig .tc := ⟨.hbm, 625, rfl⟩
abbrev main_v502 : Ref sig .tc := ⟨.hbm, 626, rfl⟩
abbrev main_c_99 : Ref sig .tc := ⟨.hbm, 627, rfl⟩
abbrev main_v503 : Ref sig .tc := ⟨.hbm, 628, rfl⟩
abbrev main_v504 : Ref sig .tc := ⟨.hbm, 629, rfl⟩
abbrev main_v505 : Ref sig .tc := ⟨.hbm, 630, rfl⟩
abbrev main_v506 : Ref sig .tc := ⟨.hbm, 631, rfl⟩
abbrev main_v507 : Ref sig .tc := ⟨.hbm, 632, rfl⟩
abbrev main_v508 : Ref sig .tc := ⟨.hbm, 633, rfl⟩
abbrev main_c_100 : Ref sig .tc := ⟨.hbm, 634, rfl⟩
abbrev main_v509 : Ref sig .tc := ⟨.hbm, 635, rfl⟩
abbrev main_v510 : Ref sig .tc := ⟨.hbm, 636, rfl⟩
abbrev main_c_101 : Ref sig .tc := ⟨.hbm, 637, rfl⟩
abbrev main_v511 : Ref sig .tc := ⟨.hbm, 638, rfl⟩
abbrev main_v512 : Ref sig .tc := ⟨.hbm, 639, rfl⟩
abbrev main_v513 : Ref sig .tc := ⟨.hbm, 640, rfl⟩
abbrev main_v514 : Ref sig .tc := ⟨.hbm, 641, rfl⟩
abbrev main_v515 : Ref sig .tc := ⟨.hbm, 642, rfl⟩
abbrev main_v516 : Ref sig .tc := ⟨.hbm, 643, rfl⟩
abbrev main_cst_102 : Ref sig .tc := ⟨.hbm, 644, rfl⟩
abbrev main_v517 : Ref sig .tc := ⟨.hbm, 645, rfl⟩
abbrev main_v518 : Ref sig .tc := ⟨.hbm, 646, rfl⟩
abbrev main_c_103 : Ref sig .tc := ⟨.hbm, 647, rfl⟩
abbrev main_v519 : Ref sig .tc := ⟨.hbm, 648, rfl⟩
abbrev main_v520 : Ref sig .tc := ⟨.hbm, 649, rfl⟩
abbrev main_c_104 : Ref sig .tc := ⟨.hbm, 650, rfl⟩
abbrev main_v521 : Ref sig .tc := ⟨.hbm, 651, rfl⟩
abbrev main_v522 : Ref sig .tc := ⟨.hbm, 652, rfl⟩
abbrev main_v523 : Ref sig .tc := ⟨.hbm, 653, rfl⟩
abbrev main_v524 : Ref sig .tc := ⟨.hbm, 654, rfl⟩
abbrev main_v525 : Ref sig .tc := ⟨.hbm, 655, rfl⟩
abbrev main_v526 : Ref sig .tc := ⟨.hbm, 656, rfl⟩
abbrev main_v527 : Ref sig .tc := ⟨.hbm, 657, rfl⟩
abbrev main_c_105 : Ref sig .tc := ⟨.hbm, 658, rfl⟩
abbrev main_v528 : Ref sig .tc := ⟨.hbm, 659, rfl⟩
abbrev main_v529 : Ref sig .tc := ⟨.hbm, 660, rfl⟩
abbrev main_c_106 : Ref sig .tc := ⟨.hbm, 661, rfl⟩
abbrev main_v530 : Ref sig .tc := ⟨.hbm, 662, rfl⟩
abbrev main_v531 : Ref sig .tc := ⟨.hbm, 663, rfl⟩
abbrev main_v532 : Ref sig .tc := ⟨.hbm, 664, rfl⟩
abbrev main_v533 : Ref sig .tc := ⟨.hbm, 665, rfl⟩
abbrev main_v534 : Ref sig .tc := ⟨.hbm, 666, rfl⟩
abbrev main_v535 : Ref sig .tc := ⟨.hbm, 667, rfl⟩
abbrev main_v536 : Ref sig .tc := ⟨.hbm, 668, rfl⟩
abbrev main_v537 : Ref sig .tc := ⟨.hbm, 669, rfl⟩
abbrev main_v538 : Ref sig .tc := ⟨.hbm, 670, rfl⟩
abbrev main_v539 : Ref sig .tc := ⟨.hbm, 671, rfl⟩
abbrev main_v540 : Ref sig .tc := ⟨.hbm, 672, rfl⟩
abbrev main_v541 : Ref sig .tc := ⟨.hbm, 673, rfl⟩
abbrev main_v542 : Ref sig .tc := ⟨.hbm, 674, rfl⟩
abbrev main_v543 : Ref sig .tc := ⟨.hbm, 675, rfl⟩
abbrev main_v544 : Ref sig .tc := ⟨.hbm, 676, rfl⟩
abbrev main_v545 : Ref sig .tc := ⟨.hbm, 677, rfl⟩
abbrev main_v546 : Ref sig .tc := ⟨.hbm, 678, rfl⟩
abbrev main_v547 : Ref sig .tc := ⟨.hbm, 679, rfl⟩
abbrev main_v548 : Ref sig .tc := ⟨.hbm, 680, rfl⟩
abbrev main_v549 : Ref sig .tc := ⟨.hbm, 681, rfl⟩
abbrev main_v550 : Ref sig .tc := ⟨.hbm, 682, rfl⟩
abbrev main_v551 : Ref sig .tc := ⟨.hbm, 683, rfl⟩
abbrev main_v552 : Ref sig .tc := ⟨.hbm, 684, rfl⟩
abbrev main_v553 : Ref sig .tc := ⟨.hbm, 685, rfl⟩
abbrev main_cst_107 : Ref sig .tc := ⟨.hbm, 686, rfl⟩
abbrev main_v554 : Ref sig .tc := ⟨.hbm, 687, rfl⟩
abbrev main_c_108 : Ref sig .tc := ⟨.hbm, 688, rfl⟩
abbrev main_v555 : Ref sig .tc := ⟨.hbm, 689, rfl⟩
abbrev main_v556 : Ref sig .tc := ⟨.hbm, 690, rfl⟩
abbrev main_c_109 : Ref sig .tc := ⟨.hbm, 691, rfl⟩
abbrev main_v557 : Ref sig .tc := ⟨.hbm, 692, rfl⟩
abbrev main_v558 : Ref sig .tc := ⟨.hbm, 693, rfl⟩
abbrev main_v559 : Ref sig .tc := ⟨.hbm, 694, rfl⟩
abbrev main_v560 : Ref sig .tc := ⟨.hbm, 695, rfl⟩
abbrev main_v561 : Ref sig .tc := ⟨.hbm, 696, rfl⟩
abbrev main_cst_110 : Ref sig .tc := ⟨.hbm, 697, rfl⟩
abbrev main_v562 : Ref sig .tc := ⟨.hbm, 698, rfl⟩
abbrev main_v563 : Ref sig .tc := ⟨.hbm, 699, rfl⟩
abbrev main_v564 : Ref sig .tc := ⟨.hbm, 700, rfl⟩
abbrev main_c_111 : Ref sig .tc := ⟨.hbm, 701, rfl⟩
abbrev main_v565 : Ref sig .tc := ⟨.hbm, 702, rfl⟩
abbrev main_v566 : Ref sig .tc := ⟨.hbm, 703, rfl⟩
abbrev main_c_112 : Ref sig .tc := ⟨.hbm, 704, rfl⟩
abbrev main_v567 : Ref sig .tc := ⟨.hbm, 705, rfl⟩
abbrev main_v568 : Ref sig .tc := ⟨.hbm, 706, rfl⟩
abbrev main_v569 : Ref sig .tc := ⟨.hbm, 707, rfl⟩
abbrev main_v570 : Ref sig .tc := ⟨.hbm, 708, rfl⟩
abbrev main_v571 : Ref sig .tc := ⟨.hbm, 709, rfl⟩
abbrev main_v572 : Ref sig .tc := ⟨.hbm, 710, rfl⟩
abbrev main_c_113 : Ref sig .tc := ⟨.hbm, 711, rfl⟩
abbrev main_v573 : Ref sig .tc := ⟨.hbm, 712, rfl⟩
abbrev main_v574 : Ref sig .tc := ⟨.hbm, 713, rfl⟩
abbrev main_c_114 : Ref sig .tc := ⟨.hbm, 714, rfl⟩
abbrev main_v575 : Ref sig .tc := ⟨.hbm, 715, rfl⟩
abbrev main_v576 : Ref sig .tc := ⟨.hbm, 716, rfl⟩
abbrev main_v577 : Ref sig .tc := ⟨.hbm, 717, rfl⟩
abbrev main_v578 : Ref sig .tc := ⟨.hbm, 718, rfl⟩
abbrev main_v579 : Ref sig .tc := ⟨.hbm, 719, rfl⟩
abbrev main_v580 : Ref sig .tc := ⟨.hbm, 720, rfl⟩
abbrev main_cst_115 : Ref sig .tc := ⟨.hbm, 721, rfl⟩
abbrev main_v581 : Ref sig .tc := ⟨.hbm, 722, rfl⟩
abbrev main_v582 : Ref sig .tc := ⟨.hbm, 723, rfl⟩
abbrev main_c_116 : Ref sig .tc := ⟨.hbm, 724, rfl⟩
abbrev main_v583 : Ref sig .tc := ⟨.hbm, 725, rfl⟩
abbrev main_v584 : Ref sig .tc := ⟨.hbm, 726, rfl⟩
abbrev main_c_117 : Ref sig .tc := ⟨.hbm, 727, rfl⟩
abbrev main_v585 : Ref sig .tc := ⟨.hbm, 728, rfl⟩
abbrev main_v586 : Ref sig .tc := ⟨.hbm, 729, rfl⟩
abbrev main_v587 : Ref sig .tc := ⟨.hbm, 730, rfl⟩
abbrev main_v588 : Ref sig .tc := ⟨.hbm, 731, rfl⟩
abbrev main_v589 : Ref sig .tc := ⟨.hbm, 732, rfl⟩
abbrev main_v590 : Ref sig .tc := ⟨.hbm, 733, rfl⟩
abbrev main_v591 : Ref sig .tc := ⟨.hbm, 734, rfl⟩
abbrev main_c_118 : Ref sig .tc := ⟨.hbm, 735, rfl⟩
abbrev main_v592 : Ref sig .tc := ⟨.hbm, 736, rfl⟩
abbrev main_v593 : Ref sig .tc := ⟨.hbm, 737, rfl⟩
abbrev main_c_119 : Ref sig .tc := ⟨.hbm, 738, rfl⟩
abbrev main_v594 : Ref sig .tc := ⟨.hbm, 739, rfl⟩
abbrev main_v595 : Ref sig .tc := ⟨.hbm, 740, rfl⟩
abbrev main_v596 : Ref sig .tc := ⟨.hbm, 741, rfl⟩
abbrev main_v597 : Ref sig .tc := ⟨.hbm, 742, rfl⟩
abbrev main_v598 : Ref sig .tc := ⟨.hbm, 743, rfl⟩
abbrev main_v599 : Ref sig .tc := ⟨.hbm, 744, rfl⟩
abbrev main_v600 : Ref sig .tc := ⟨.hbm, 745, rfl⟩
abbrev main_v601 : Ref sig .tc := ⟨.hbm, 746, rfl⟩
abbrev main_v602 : Ref sig .tc := ⟨.hbm, 747, rfl⟩
abbrev main_v603 : Ref sig .tc := ⟨.hbm, 748, rfl⟩
abbrev main_v604 : Ref sig .tc := ⟨.hbm, 749, rfl⟩
abbrev main_v605 : Ref sig .tc := ⟨.hbm, 750, rfl⟩
abbrev main_v606 : Ref sig .tc := ⟨.hbm, 751, rfl⟩
abbrev main_v607 : Ref sig .tc := ⟨.hbm, 752, rfl⟩
abbrev main_v608 : Ref sig .tc := ⟨.hbm, 753, rfl⟩
abbrev main_v609 : Ref sig .tc := ⟨.hbm, 754, rfl⟩
abbrev main_v610 : Ref sig .tc := ⟨.hbm, 755, rfl⟩
abbrev main_v611 : Ref sig .tc := ⟨.hbm, 756, rfl⟩
abbrev main_v612 : Ref sig .tc := ⟨.hbm, 757, rfl⟩
abbrev main_cst_120 : Ref sig .tc := ⟨.hbm, 758, rfl⟩
abbrev main_v613 : Ref sig .tc := ⟨.hbm, 759, rfl⟩
abbrev main_c_121 : Ref sig .tc := ⟨.hbm, 760, rfl⟩
abbrev main_v614 : Ref sig .tc := ⟨.hbm, 761, rfl⟩
abbrev main_v615 : Ref sig .tc := ⟨.hbm, 762, rfl⟩
abbrev main_c_122 : Ref sig .tc := ⟨.hbm, 763, rfl⟩
abbrev main_v616 : Ref sig .tc := ⟨.hbm, 764, rfl⟩
abbrev main_v617 : Ref sig .tc := ⟨.hbm, 765, rfl⟩
abbrev main_v618 : Ref sig .tc := ⟨.hbm, 766, rfl⟩
abbrev main_v619 : Ref sig .tc := ⟨.hbm, 767, rfl⟩
abbrev main_cst_123 : Ref sig .tc := ⟨.hbm, 768, rfl⟩
abbrev main_v620 : Ref sig .tc := ⟨.hbm, 769, rfl⟩
abbrev main_v621 : Ref sig .tc := ⟨.hbm, 770, rfl⟩
abbrev main_cst_124 : Ref sig .tc := ⟨.hbm, 771, rfl⟩
abbrev main_v622 : Ref sig .tc := ⟨.hbm, 772, rfl⟩
abbrev main_c_125 : Ref sig .tc := ⟨.hbm, 773, rfl⟩
abbrev main_v623 : Ref sig .tc := ⟨.hbm, 774, rfl⟩
abbrev main_v624 : Ref sig .tc := ⟨.hbm, 775, rfl⟩
abbrev main_c_126 : Ref sig .tc := ⟨.hbm, 776, rfl⟩
abbrev main_v625 : Ref sig .tc := ⟨.hbm, 777, rfl⟩
abbrev main_v626 : Ref sig .tc := ⟨.hbm, 778, rfl⟩
abbrev main_v627 : Ref sig .tc := ⟨.hbm, 779, rfl⟩
abbrev main_v628 : Ref sig .tc := ⟨.hbm, 780, rfl⟩
abbrev main_v629 : Ref sig .tc := ⟨.hbm, 781, rfl⟩
abbrev main_cst_127 : Ref sig .tc := ⟨.hbm, 782, rfl⟩
abbrev main_v630 : Ref sig .tc := ⟨.hbm, 783, rfl⟩
abbrev main_v631 : Ref sig .tc := ⟨.hbm, 784, rfl⟩
abbrev main_v632 : Ref sig .tc := ⟨.hbm, 785, rfl⟩
abbrev main_v633 : Ref sig .tc := ⟨.hbm, 786, rfl⟩
abbrev main_v634 : Ref sig .tc := ⟨.hbm, 787, rfl⟩
abbrev main_v635 : Ref sig .tc := ⟨.hbm, 788, rfl⟩
abbrev main_cst_128 : Ref sig .tc := ⟨.hbm, 789, rfl⟩
abbrev main_v636 : Ref sig .tc := ⟨.hbm, 790, rfl⟩
abbrev main_c_129 : Ref sig .tc := ⟨.hbm, 791, rfl⟩
abbrev main_v637 : Ref sig .tc := ⟨.hbm, 792, rfl⟩
abbrev main_v638 : Ref sig .tc := ⟨.hbm, 793, rfl⟩
abbrev main_c_130 : Ref sig .tc := ⟨.hbm, 794, rfl⟩
abbrev main_v639 : Ref sig .tc := ⟨.hbm, 795, rfl⟩
abbrev main_v640 : Ref sig .tc := ⟨.hbm, 796, rfl⟩
abbrev main_v641 : Ref sig .tc := ⟨.hbm, 797, rfl⟩
abbrev main_v642 : Ref sig .tc := ⟨.hbm, 798, rfl⟩
abbrev main_cst_131 : Ref sig .tc := ⟨.hbm, 799, rfl⟩
abbrev main_v643 : Ref sig .tc := ⟨.hbm, 800, rfl⟩
abbrev main_v644 : Ref sig .tc := ⟨.hbm, 801, rfl⟩
abbrev main_cst_132 : Ref sig .tc := ⟨.hbm, 802, rfl⟩
abbrev main_v645 : Ref sig .tc := ⟨.hbm, 803, rfl⟩
abbrev main_c_133 : Ref sig .tc := ⟨.hbm, 804, rfl⟩
abbrev main_v646 : Ref sig .tc := ⟨.hbm, 805, rfl⟩
abbrev main_v647 : Ref sig .tc := ⟨.hbm, 806, rfl⟩
abbrev main_c_134 : Ref sig .tc := ⟨.hbm, 807, rfl⟩
abbrev main_v648 : Ref sig .tc := ⟨.hbm, 808, rfl⟩
abbrev main_v649 : Ref sig .tc := ⟨.hbm, 809, rfl⟩
abbrev main_v650 : Ref sig .tc := ⟨.hbm, 810, rfl⟩
abbrev main_v651 : Ref sig .tc := ⟨.hbm, 811, rfl⟩
abbrev main_v652 : Ref sig .tc := ⟨.hbm, 812, rfl⟩
abbrev main_cst_135 : Ref sig .tc := ⟨.hbm, 813, rfl⟩
abbrev main_v653 : Ref sig .tc := ⟨.hbm, 814, rfl⟩
abbrev main_v654 : Ref sig .tc := ⟨.hbm, 815, rfl⟩
abbrev main_v655 : Ref sig .tc := ⟨.hbm, 816, rfl⟩
abbrev main_v656 : Ref sig .tc := ⟨.hbm, 817, rfl⟩
abbrev main_v657 : Ref sig .tc := ⟨.hbm, 818, rfl⟩
abbrev main_v658 : Ref sig .tc := ⟨.hbm, 819, rfl⟩
abbrev main_v659 : Ref sig .tc := ⟨.hbm, 820, rfl⟩
abbrev main_v660 : Ref sig .tc := ⟨.hbm, 821, rfl⟩
abbrev main_v661 : Ref sig .tc := ⟨.hbm, 822, rfl⟩
abbrev main_v662 : Ref sig .tc := ⟨.hbm, 823, rfl⟩
abbrev main_cst_136 : Ref sig .tc := ⟨.hbm, 824, rfl⟩
abbrev main_v663 : Ref sig .tc := ⟨.hbm, 825, rfl⟩
abbrev main_v664 : Ref sig .tc := ⟨.hbm, 826, rfl⟩
abbrev main_v665 : Ref sig .tc := ⟨.hbm, 827, rfl⟩
abbrev main_v666 : Ref sig .tc := ⟨.hbm, 828, rfl⟩
abbrev main_v667 : Ref sig .tc := ⟨.hbm, 829, rfl⟩
abbrev main_v668 : Ref sig .tc := ⟨.hbm, 830, rfl⟩
abbrev main_v669 : Ref sig .tc := ⟨.hbm, 831, rfl⟩
abbrev main_v670 : Ref sig .tc := ⟨.hbm, 832, rfl⟩
abbrev main_v671 : Ref sig .tc := ⟨.hbm, 833, rfl⟩
abbrev main_cst_137 : Ref sig .tc := ⟨.hbm, 834, rfl⟩
abbrev main_v672 : Ref sig .tc := ⟨.hbm, 835, rfl⟩
abbrev main_v673 : Ref sig .tc := ⟨.hbm, 836, rfl⟩
abbrev main_v674 : Ref sig .tc := ⟨.hbm, 837, rfl⟩
abbrev main_v675 : Ref sig .tc := ⟨.hbm, 838, rfl⟩
abbrev main_v676 : Ref sig .tc := ⟨.hbm, 839, rfl⟩

abbrev nD : Nat := 1
abbrev τ : Topo := Topo.v7x

variable {F : FTy → Type} [FloatOps F]

class Facts₀ : Prop where
  concatenates_S525000x6_S525000x10_S525000x16_d1 : Shape.Concatenates [S525000x6, S525000x10] S525000x16 1
  bcast_S64_S1x64_1 : S64.BroadcastsInDim S1x64 (![1] : Fin 1 → Fin S1x64.rank)
  bcast_S1x64_S525000x64_0_1 : S1x64.BroadcastsInDim S525000x64 (![0, 1] : Fin 2 → Fin S525000x64.rank)
  bcast_S_S525000x64 : S_.BroadcastsInDim S525000x64 (![] : Fin 0 → Fin S525000x64.rank)
  slices_S525000x64_S400000x64_0_0 : S525000x64.Slices ![0, 0] S400000x64
  slices_S525000x64_S100000x64_400000_0 : S525000x64.Slices ![400000, 0] S100000x64
  slices_S525000x64_S25000x64_500000_0 : S525000x64.Slices ![500000, 0] S25000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S400000x64 : S_.BroadcastsInDim S400000x64 (![] : Fin 0 → Fin S400000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S400000 : S_.BroadcastsInDim S400000 (![] : Fin 0 → Fin S400000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S400000_S400000x1_0 : S400000.BroadcastsInDim S400000x1 (![0] : Fin 1 → Fin S400000x1.rank)
  bcast_S400000x1_S400000x64_0_1 : S400000x1.BroadcastsInDim S400000x64 (![0, 1] : Fin 2 → Fin S400000x64.rank)
  bcast_S1x64_S400000x64_0_1 : S1x64.BroadcastsInDim S400000x64 (![0, 1] : Fin 2 → Fin S400000x64.rank)
  slices_S3x3_S1x1_0_0 : S3x3.Slices ![0, 0] S1x1
  shapeCasts_S1x1_S_ : S1x1.ShapeCasts S_
  slices_S3x3_S1x1_0_1 : S3x3.Slices ![0, 1] S1x1
  slices_S3x3_S1x1_0_2 : S3x3.Slices ![0, 2] S1x1
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S100000x64 : S_.BroadcastsInDim S100000x64 (![] : Fin 0 → Fin S100000x64.rank)
  slices_S3x64x64_S1x64x64_1_0_0 : S3x64x64.Slices ![1, 0, 0] S1x64x64
  slices_S3x64_S1x64_1_0 : S3x64.Slices ![1, 0] S1x64
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  slices_S3x3_S1x1_1_0 : S3x3.Slices ![1, 0] S1x1
  slices_S3x3_S1x1_1_1 : S3x3.Slices ![1, 1] S1x1
  slices_S3x3_S1x1_1_2 : S3x3.Slices ![1, 2] S1x1
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S25000x64 : S_.BroadcastsInDim S25000x64 (![] : Fin 0 → Fin S25000x64.rank)
  slices_S3x64x64_S1x64x64_2_0_0 : S3x64x64.Slices ![2, 0, 0] S1x64x64
  slices_S3x64_S1x64_2_0 : S3x64.Slices ![2, 0] S1x64
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x64_0_1 : S25000x1.BroadcastsInDim S25000x64 (![0, 1] : Fin 2 → Fin S25000x64.rank)
  bcast_S1x64_S25000x64_0_1 : S1x64.BroadcastsInDim S25000x64 (![0, 1] : Fin 2 → Fin S25000x64.rank)
  slices_S3x3_S1x1_2_0 : S3x3.Slices ![2, 0] S1x1
  slices_S3x3_S1x1_2_1 : S3x3.Slices ![2, 1] S1x1
  slices_S3x3_S1x1_2_2 : S3x3.Slices ![2, 2] S1x1
  bcast_S2_S1x2_1 : S2.BroadcastsInDim S1x2 (![1] : Fin 1 → Fin S1x2.rank)
  bcast_S1x2_S400000x2_0_1 : S1x2.BroadcastsInDim S400000x2 (![0, 1] : Fin 2 → Fin S400000x2.rank)
  bcast_S_S400000x2 : S_.BroadcastsInDim S400000x2 (![] : Fin 0 → Fin S400000x2.rank)
  dot_S525000x16_S16x64_S525000x64_1_0_0_1_n_n_wf : DotDims.WF S525000x16 S16x64 S525000x64 [1] [0] [0] [1] [] []
  dot_S525000x64_S64x64_S525000x64_1_0_0_1_n_n_wf : DotDims.WF S525000x64 S64x64 S525000x64 [1] [0] [0] [1] [] []
  dot_S400000x64_S64x64_S400000x64_1_0_0_1_n_n_wf : DotDims.WF S400000x64 S64x64 S400000x64 [1] [0] [0] [1] [] []
  scatter_S400000_S1600000x1_S1600000_n_0_0_1_wf : ScatterDims.WF S400000 S1600000x1 S1600000 [] [0] [0] 1
  gather_S400000_S1600000x1_S1600000_n_0_n_n_0_1_1_wf : GatherDims.WF S400000 S1600000x1 S1600000 [] [0] [] [0] [] 1 ![1]
  gather_S400000x64_S1600000x1_S1600000x64_1_0_n_n_0_1_164_wf : GatherDims.WF S400000x64 S1600000x1 S1600000x64 [1] [0] [] [0] [] 1 ![1, 64]
  scatter_S400000x64_S1600000x1_S1600000x64_1_0_0_1_wf : ScatterDims.WF S400000x64 S1600000x1 S1600000x64 [1] [0] [0] 1
  dot_S100000x64_S64x64_S100000x64_1_0_0_1_n_n_wf : DotDims.WF S100000x64 S64x64 S100000x64 [1] [0] [0] [1] [] []
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x64_S400000x1_S400000x64_1_0_n_n_0_1_164_wf : GatherDims.WF S100000x64 S400000x1 S400000x64 [1] [0] [] [0] [] 1 ![1, 64]
  scatter_S100000x64_S400000x1_S400000x64_1_0_0_1_wf : ScatterDims.WF S100000x64 S400000x1 S400000x64 [1] [0] [0] 1
  dot_S25000x64_S64x64_S25000x64_1_0_0_1_n_n_wf : DotDims.WF S25000x64 S64x64 S25000x64 [1] [0] [0] [1] [] []
  scatter_S25000_S100000x1_S100000_n_0_0_1_wf : ScatterDims.WF S25000 S100000x1 S100000 [] [0] [0] 1
  gather_S25000_S100000x1_S100000_n_0_n_n_0_1_1_wf : GatherDims.WF S25000 S100000x1 S100000 [] [0] [] [0] [] 1 ![1]
  gather_S25000x64_S100000x1_S100000x64_1_0_n_n_0_1_164_wf : GatherDims.WF S25000x64 S100000x1 S100000x64 [1] [0] [] [0] [] 1 ![1, 64]
  scatter_S25000x64_S100000x1_S100000x64_1_0_0_1_wf : ScatterDims.WF S25000x64 S100000x1 S100000x64 [1] [0] [0] 1
  scatter_S400000_S100000x1_S100000_n_0_0_1_wf : ScatterDims.WF S400000 S100000x1 S100000 [] [0] [0] 1
  scatter_S400000x64_S100000x1_S100000x64_1_0_0_1_wf : ScatterDims.WF S400000x64 S100000x1 S100000x64 [1] [0] [0] 1
  scatter_S400000_S25000x1_S25000_n_0_0_1_wf : ScatterDims.WF S400000 S25000x1 S25000 [] [0] [0] 1
  scatter_S400000x64_S25000x1_S25000x64_1_0_0_1_wf : ScatterDims.WF S400000x64 S25000x1 S25000x64 [1] [0] [0] 1
  dot_S400000x64_S64x2_S400000x2_1_0_0_1_n_n_wf : DotDims.WF S400000x64 S64x2 S400000x2 [1] [0] [0] [1] [] []

variable [Facts₀]

def dot_S525000x16_S16x64_S525000x64_1_0_0_1_n_n : DotDims S525000x16 S16x64 S525000x64 where
  lhsContracting := [1]
  rhsContracting := [0]
  lhsNonContracting := [0]
  rhsNonContracting := [1]
  lhsBatch := []
  rhsBatch := []
  wf := dot_S525000x16_S16x64_S525000x64_1_0_0_1_n_n_wf
def dot_S525000x64_S64x64_S525000x64_1_0_0_1_n_n : DotDims S525000x64 S64x64 S525000x64 where
  lhsContracting := [1]
  rhsContracting := [0]
  lhsNonContracting := [0]
  rhsNonContracting := [1]
  lhsBatch := []
  rhsBatch := []
  wf := dot_S525000x64_S64x64_S525000x64_1_0_0_1_n_n_wf
def dot_S400000x64_S64x64_S400000x64_1_0_0_1_n_n : DotDims S400000x64 S64x64 S400000x64 where
  lhsContracting := [1]
  rhsContracting := [0]
  lhsNonContracting := [0]
  rhsNonContracting := [1]
  lhsBatch := []
  rhsBatch := []
  wf := dot_S400000x64_S64x64_S400000x64_1_0_0_1_n_n_wf
def scatter_S400000_S1600000x1_S1600000_n_0_0_1 : ScatterDims S400000 S1600000x1 S1600000 where
  updateWindowDims := []
  insertedWindowDims := [0]
  scatterDimsToOperandDims := [0]
  indexVectorDim := 1
  wf := scatter_S400000_S1600000x1_S1600000_n_0_0_1_wf
def gather_S400000_S1600000x1_S1600000_n_0_n_n_0_1_1 : GatherDims S400000 S1600000x1 S1600000 where
  offsetDims := []
  collapsedSliceDims := [0]
  operandBatchingDims := []
  startIndicesBatchingDims := []
  startIndexMap := [0]
  indexVectorDim := 1
  sliceSizes := ![1]
  wf := gather_S400000_S1600000x1_S1600000_n_0_n_n_0_1_1_wf
def gather_S400000x64_S1600000x1_S1600000x64_1_0_n_n_0_1_164 : GatherDims S400000x64 S1600000x1 S1600000x64 where
  offsetDims := [1]
  collapsedSliceDims := [0]
  operandBatchingDims := []
  startIndicesBatchingDims := []
  startIndexMap := [0]
  indexVectorDim := 1
  sliceSizes := ![1, 64]
  wf := gather_S400000x64_S1600000x1_S1600000x64_1_0_n_n_0_1_164_wf
def scatter_S400000x64_S1600000x1_S1600000x64_1_0_0_1 : ScatterDims S400000x64 S1600000x1 S1600000x64 where
  updateWindowDims := [1]
  insertedWindowDims := [0]
  scatterDimsToOperandDims := [0]
  indexVectorDim := 1
  wf := scatter_S400000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x64_S400000x1_S400000x64_1_0_n_n_0_1_164 : GatherDims S100000x64 S400000x1 S400000x64 where
  offsetDims := [1]
  collapsedSliceDims := [0]
  operandBatchingDims := []
  startIndicesBatchingDims := []
  startIndexMap := [0]
  indexVectorDim := 1
  sliceSizes := ![1, 64]
  wf := gather_S100000x64_S400000x1_S400000x64_1_0_n_n_0_1_164_wf
def scatter_S100000x64_S400000x1_S400000x64_1_0_0_1 : ScatterDims S100000x64 S400000x1 S400000x64 where
  updateWindowDims := [1]
  insertedWindowDims := [0]
  scatterDimsToOperandDims := [0]
  indexVectorDim := 1
  wf := scatter_S100000x64_S400000x1_S400000x64_1_0_0_1_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf
def scatter_S25000_S100000x1_S100000_n_0_0_1 : ScatterDims S25000 S100000x1 S100000 where
  updateWindowDims := []
  insertedWindowDims := [0]
  scatterDimsToOperandDims := [0]
  indexVectorDim := 1
  wf := scatter_S25000_S100000x1_S100000_n_0_0_1_wf
def gather_S25000_S100000x1_S100000_n_0_n_n_0_1_1 : GatherDims S25000 S100000x1 S100000 where
  offsetDims := []
  collapsedSliceDims := [0]
  operandBatchingDims := []
  startIndicesBatchingDims := []
  startIndexMap := [0]
  indexVectorDim := 1
  sliceSizes := ![1]
  wf := gather_S25000_S100000x1_S100000_n_0_n_n_0_1_1_wf
def gather_S25000x64_S100000x1_S100000x64_1_0_n_n_0_1_164 : GatherDims S25000x64 S100000x1 S100000x64 where
  offsetDims := [1]
  collapsedSliceDims := [0]
  operandBatchingDims := []
  startIndicesBatchingDims := []
  startIndexMap := [0]
  indexVectorDim := 1
  sliceSizes := ![1, 64]
  wf := gather_S25000x64_S100000x1_S100000x64_1_0_n_n_0_1_164_wf
def scatter_S25000x64_S100000x1_S100000x64_1_0_0_1 : ScatterDims S25000x64 S100000x1 S100000x64 where
  updateWindowDims := [1]
  insertedWindowDims := [0]
  scatterDimsToOperandDims := [0]
  indexVectorDim := 1
  wf := scatter_S25000x64_S100000x1_S100000x64_1_0_0_1_wf
def scatter_S400000_S100000x1_S100000_n_0_0_1 : ScatterDims S400000 S100000x1 S100000 where
  updateWindowDims := []
  insertedWindowDims := [0]
  scatterDimsToOperandDims := [0]
  indexVectorDim := 1
  wf := scatter_S400000_S100000x1_S100000_n_0_0_1_wf
def scatter_S400000x64_S100000x1_S100000x64_1_0_0_1 : ScatterDims S400000x64 S100000x1 S100000x64 where
  updateWindowDims := [1]
  insertedWindowDims := [0]
  scatterDimsToOperandDims := [0]
  indexVectorDim := 1
  wf := scatter_S400000x64_S100000x1_S100000x64_1_0_0_1_wf
def scatter_S400000_S25000x1_S25000_n_0_0_1 : ScatterDims S400000 S25000x1 S25000 where
  updateWindowDims := []
  insertedWindowDims := [0]
  scatterDimsToOperandDims := [0]
  indexVectorDim := 1
  wf := scatter_S400000_S25000x1_S25000_n_0_0_1_wf
def scatter_S400000x64_S25000x1_S25000x64_1_0_0_1 : ScatterDims S400000x64 S25000x1 S25000x64 where
  updateWindowDims := [1]
  insertedWindowDims := [0]
  scatterDimsToOperandDims := [0]
  indexVectorDim := 1
  wf := scatter_S400000x64_S25000x1_S25000x64_1_0_0_1_wf
def dot_S400000x64_S64x2_S400000x2_1_0_0_1_n_n : DotDims S400000x64 S64x2 S400000x2 where
  lhsContracting := [1]
  rhsContracting := [0]
  lhsNonContracting := [0]
  rhsNonContracting := [1]
  lhsBatch := []
  rhsBatch := []
  wf := dot_S400000x64_S64x2_S400000x2_1_0_0_1_n_n_wf

class Facts : Prop extends Facts₀ where

variable [Facts]
-- ==== Proof.KernelHostKeep.lean ====
/-
  For each host stretch of the program: the list of the buffers its operations write, that every operation writes one of
  them, and hence that a buffer not in the list holds after the stretch what it held before.
-/
import proofs.«418542_j22608707846200_1_alg».proof.Proof.Gen.Kernel.Launch
import Idealize.ShloMosaic.Lib.StableHlo.Run

set_option maxRecDepth 16384

noncomputable section

namespace Cert.Kernel.HostKeep

open Idealize.ShloMosaic Idealize.ShloMosaic.TcCoe Idealize.ShloMosaic.StableHlo Cert.Kernel Cert.Kernel.Gen

variable {F : FTy → Type} [FloatOps F]

/-- The buffers stretch 0 writes. -/
abbrev written0 : List (Ref sig .tc) := [main_v0, main_v1, main_v2, main_v3]

theorem writes0 : (hostOps0 (F := F) : List (HloOp τ sig (Elt F))).Forall fun op => op.writes ⊆ ((written0).map (Proc.devRef (τ := τ) .tc)).toFinset := by
  simp only [hostOps0, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 0 does not write keeps its contents through it. -/
theorem keep0 (W : Valuation τ sig (Elt F)) (r : Ref sig .tc) (h : r ∉ written0) :
    StableHlo.after (hostOps0 (F := F)) W (Proc.devRef .tc r) = W (Proc.devRef .tc r) :=
  after_of_writes_sub (hostOps0 (F := F)) W writes0 h

/-- The buffers stretch 1 writes. -/
abbrev written1 : List (Ref sig .tc) := [main_v5, main_v6, main_v7, main_v8, main_v9, main_v10, main_v11, main_v12, main_v13, main_v14, main_v15, main_v16, main_v17, main_cst, main_v18, main_v19]

theorem writes1 : (hostOps1 (F := F) : List (HloOp τ sig (Elt F))).Forall fun op => op.writes ⊆ ((written1).map (Proc.devRef (τ := τ) .tc)).toFinset := by
  simp only [hostOps1, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 1 does not write keeps its contents through it. -/
theorem keep1 (W : Valuation τ sig (Elt F)) (r : Ref sig .tc) (h : r ∉ written1) :
    StableHlo.after (hostOps1 (F := F)) W (Proc.devRef .tc r) = W (Proc.devRef .tc r) :=
  after_of_writes_sub (hostOps1 (F := F)) W writes1 h

/-- The buffers stretch 2 writes. -/
abbrev written2 : List (Ref sig .tc) := [main_cst_0, main_v21, main_c, main_v22, main_v23, main_c_1, main_v24, main_v25, main_v26, main_v27, main_v28, main_cst_2, main_v29, main_v30, main_v31, main_c_3, main_v32, main_v33, main_c_4, main_v34, main_v35, main_v36, main_v37, main_v38, main_v39, main_c_5, main_v40, main_v41, main_c_6, main_v42, main_v43, main_v44, main_v45, main_v46, main_v47, main_c_7, main_v48, main_v49, main_c_8, main_v50, main_v51, main_v52, main_v53, main_v54, main_v55, main_v56, main_v57, main_cst_9, main_v58, main_c_10, main_v59, main_v60, main_c_11, main_v61, main_v62, main_v63, main_v64, main_v65, main_v66, main_v67, main_v68, main_v69]

theorem writes2 : (hostOps2 (F := F) : List (HloOp τ sig (Elt F))).Forall fun op => op.writes ⊆ ((written2).map (Proc.devRef (τ := τ) .tc)).toFinset := by
  simp only [hostOps2, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 2 does not write keeps its contents through it. -/
theorem keep2 (W : Valuation τ sig (Elt F)) (r : Ref sig .tc) (h : r ∉ written2) :
    StableHlo.after (hostOps2 (F := F)) W (Proc.devRef .tc r) = W (Proc.devRef .tc r) :=
  after_of_writes_sub (hostOps2 (F := F)) W writes2 h

/-- The buffers stretch 4 writes. -/
abbrev written4 : List (Ref sig .tc) := [main_cst_12, main_v72, main_c_13, main_v73, main_v74, main_c_14, main_v75, main_v76, main_v77, main_v78, main_v79, main_cst_15, main_v80, main_v81, main_v82, main_c_16, main_v83, main_v84, main_c_17, main_v85, main_v86, main_v87, main_v88, main_v89, main_v90, main_c_18, main_v91, main_v92, main_c_19, main_v93, main_v94, main_v95, main_v96, main_v97, main_v98, main_c_20, main_v99, main_v100, main_c_21, main_v101, main_v102, main_v103, main_v104, main_v105, main_v106, main_v107, main_v108, main_cst_22, main_v109, main_c_23, main_v110, main_v111, main_c_24, main_v112, main_v113, main_v114, main_v115, main_v116, main_v117, main_v118, main_v119, main_v120]

theorem writes4 : (hostOps4 (F := F) : List (HloOp τ sig (Elt F))).Forall fun op => op.writes ⊆ ((written4).map (Proc.devRef (τ := τ) .tc)).toFinset := by
  simp only [hostOps4, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 4 does not write keeps its contents through it. -/
theorem keep4 (W : Valuation τ sig (Elt F)) (r : Ref sig .tc) (h : r ∉ written4) :
    StableHlo.after (hostOps4 (F := F)) W (Proc.devRef .tc r) = W (Proc.devRef .tc r) :=
  after_of_writes_sub (hostOps4 (F := F)) W writes4 h

/-- The buffers stretch 6 writes. -/
abbrev written6 : List (Ref sig .tc) := [main_cst_25, main_v123, main_c_26, main_v124, main_v125, main_c_27, main_v126, main_v127, main_v128, main_v129, main_v130, main_cst_28, main_v131, main_v132, main_v133, main_c_29, main_v134, main_v135, main_c_30, main_v136, main_v137, main_v138, main_v139, main_v140, main_v141, main_c_31, main_v142, main_v143, main_c_32, main_v144, main_v145, main_v146, main_v147, main_v148, main_v149, main_c_33, main_v150, main_v151, main_c_34, main_v152, main_v153, main_v154, main_v155, main_v156, main_v157, main_v158, main_v159, main_cst_35, main_v160, main_c_36, main_v161, main_v162, main_c_37, main_v163, main_v164, main_v165, main_v166, main_v167, main_v168, main_v169, main_v170, main_v171]

theorem writes6 : (hostOps6 (F := F) : List (HloOp τ sig (Elt F))).Forall fun op => op.writes ⊆ ((written6).map (Proc.devRef (τ := τ) .tc)).toFinset := by
  simp only [hostOps6, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 6 does not write keeps its contents through it. -/
theorem keep6 (W : Valuation τ sig (Elt F)) (r : Ref sig .tc) (h : r ∉ written6) :
    StableHlo.after (hostOps6 (F := F)) W (Proc.devRef .tc r) = W (Proc.devRef .tc r) :=
  after_of_writes_sub (hostOps6 (F := F)) W writes6 h

/-- The buffers stretch 7 writes. -/
abbrev written7 : List (Ref sig .tc) := [main_v173, main_v174, main_v175, main_v176, main_v177, main_v178, main_v179, main_v180, main_v181, main_v182, main_cst_38, main_v183, main_v184]

theorem writes7 : (hostOps7 (F := F) : List (HloOp τ sig (Elt F))).Forall fun op => op.writes ⊆ ((written7).map (Proc.devRef (τ := τ) .tc)).toFinset := by
  simp only [hostOps7, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 7 does not write keeps its contents through it. -/
theorem keep7 (W : Valuation τ sig (Elt F)) (r : Ref sig .tc) (h : r ∉ written7) :
    StableHlo.after (hostOps7 (F := F)) W (Proc.devRef .tc r) = W (Proc.devRef .tc r) :=
  after_of_writes_sub (hostOps7 (F := F)) W writes7 h

/-- The buffers stretch 8 writes. -/
abbrev written8 : List (Ref sig .tc) := [main_cst_39, main_v186, main_c_40, main_v187, main_v188, main_c_41, main_v189, main_v190, main_v191, main_v192, main_v193, main_cst_42, main_v194, main_v195, main_v196, main_c_43, main_v197, main_v198, main_c_44, main_v199, main_v200, main_v201, main_v202, main_v203, main_v204, main_c_45, main_v205, main_v206, main_c_46, main_v207, main_v208, main_v209, main_v210, main_v211, main_v212, main_c_47, main_v213, main_v214, main_c_48, main_v215, main_v216, main_v217, main_v218, main_v219, main_v220, main_v221, main_v222, main_cst_49, main_v223, main_c_50, main_v224, main_v225, main_c_51, main_v226, main_v227, main_v228, main_v229, main_v230, main_v231, main_v232, main_v233, main_v234]

theorem writes8 : (hostOps8 (F := F) : List (HloOp τ sig (Elt F))).Forall fun op => op.writes ⊆ ((written8).map (Proc.devRef (τ := τ) .tc)).toFinset := by
  simp only [hostOps8, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 8 does not write keeps its contents through it. -/
theorem keep8 (W : Valuation τ sig (Elt F)) (r : Ref sig .tc) (h : r ∉ written8) :
    StableHlo.after (hostOps8 (F := F)) W (Proc.devRef .tc r) = W (Proc.devRef .tc r) :=
  after_of_writes_sub (hostOps8 (F := F)) W writes8 h

/-- The buffers stretch 10 writes. -/
abbrev written10 : List (Ref sig .tc) := [main_cst_52, main_v237, main_c_53, main_v238, main_v239, main_c_54, main_v240, main_v241, main_v242, main_v243, main_v244, main_cst_55, main_v245, main_v246, main_v247, main_c_56, main_v248, main_v249, main_c_57, main_v250, main_v251, main_v252, main_v253, main_v254, main_v255, main_c_58, main_v256, main_v257, main_c_59, main_v258, main_v259, main_v260, main_v261, main_v262, main_v263, main_c_60, main_v264, main_v265, main_c_61, main_v266, main_v267, main_v268, main_v269, main_v270, main_v271, main_v272, main_v273, main_cst_62, main_v274, main_c_63, main_v275, main_v276, main_c_64, main_v277, main_v278, main_v279, main_v280, main_v281, main_v282, main_v283, main_v284, main_v285]

theorem writes10 : (hostOps10 (F := F) : List (HloOp τ sig (Elt F))).Forall fun op => op.writes ⊆ ((written10).map (Proc.devRef (τ := τ) .tc)).toFinset := by
  simp only [hostOps10, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 10 does not write keeps its contents through it. -/
theorem keep10 (W : Valuation τ sig (Elt F)) (r : Ref sig .tc) (h : r ∉ written10) :
    StableHlo.after (hostOps10 (F := F)) W (Proc.devRef .tc r) = W (Proc.devRef .tc r) :=
  after_of_writes_sub (hostOps10 (F := F)) W writes10 h

/-- The buffers stretch 12 writes. -/
abbrev written12 : List (Ref sig .tc) := [main_cst_65, main_v288, main_c_66, main_v289, main_v290, main_c_67, main_v291, main_v292, main_v293, main_v294, main_v295, main_cst_68, main_v296, main_v297, main_v298, main_c_69, main_v299, main_v300, main_c_70, main_v301, main_v302, main_v303, main_v304, main_v305, main_v306, main_c_71, main_v307, main_v308, main_c_72, main_v309, main_v310, main_v311, main_v312, main_v313, main_v314, main_c_73, main_v315, main_v316, main_c_74, main_v317, main_v318, main_v319, main_v320, main_v321, main_v322, main_v323, main_v324, main_cst_75, main_v325, main_c_76, main_v326, main_v327, main_c_77, main_v328, main_v329, main_v330, main_v331, main_v332, main_v333, main_v334, main_v335, main_v336]

theorem writes12 : (hostOps12 (F := F) : List (HloOp τ sig (Elt F))).Forall fun op => op.writes ⊆ ((written12).map (Proc.devRef (τ := τ) .tc)).toFinset := by
  simp only [hostOps12, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 12 does not write keeps its contents through it. -/
theorem keep12 (W : Valuation τ sig (Elt F)) (r : Ref sig .tc) (h : r ∉ written12) :
    StableHlo.after (hostOps12 (F := F)) W (Proc.devRef .tc r) = W (Proc.devRef .tc r) :=
  after_of_writes_sub (hostOps12 (F := F)) W writes12 h

/-- The buffers stretch 13 writes. -/
abbrev written13 : List (Ref sig .tc) := [main_v338, main_v339, main_v340, main_v341, main_v342, main_v343, main_v344, main_v345, main_v346, main_v347, main_cst_78, main_v348, main_v349]

theorem writes13 : (hostOps13 (F := F) : List (HloOp τ sig (Elt F))).Forall fun op => op.writes ⊆ ((written13).map (Proc.devRef (τ := τ) .tc)).toFinset := by
  simp only [hostOps13, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 13 does not write keeps its contents through it. -/
theorem keep13 (W : Valuation τ sig (Elt F)) (r : Ref sig .tc) (h : r ∉ written13) :
    StableHlo.after (hostOps13 (F := F)) W (Proc.devRef .tc r) = W (Proc.devRef .tc r) :=
  after_of_writes_sub (hostOps13 (F := F)) W writes13 h

/-- The buffers stretch 14 writes. -/
abbrev written14 : List (Ref sig .tc) := [main_cst_79, main_v351, main_c_80, main_v352, main_v353, main_c_81, main_v354, main_v355, main_v356, main_v357, main_v358, main_cst_82, main_v359, main_v360, main_v361, main_c_83, main_v362, main_v363, main_c_84, main_v364, main_v365, main_v366, main_v367, main_v368, main_v369, main_c_85, main_v370, main_v371, main_c_86, main_v372, main_v373, main_v374, main_v375, main_v376, main_v377, main_c_87, main_v378, main_v379, main_c_88, main_v380, main_v381, main_v382, main_v383, main_v384, main_v385, main_v386, main_v387, main_cst_89, main_v388, main_c_90, main_v389, main_v390, main_c_91, main_v391, main_v392, main_v393, main_v394, main_v395, main_v396, main_v397, main_v398, main_v399]

theorem writes14 : (hostOps14 (F := F) : List (HloOp τ sig (Elt F))).Forall fun op => op.writes ⊆ ((written14).map (Proc.devRef (τ := τ) .tc)).toFinset := by
  simp only [hostOps14, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 14 does not write keeps its contents through it. -/
theorem keep14 (W : Valuation τ sig (Elt F)) (r : Ref sig .tc) (h : r ∉ written14) :
    StableHlo.after (hostOps14 (F := F)) W (Proc.devRef .tc r) = W (Proc.devRef .tc r) :=
  after_of_writes_sub (hostOps14 (F := F)) W writes14 h

/-- The buffers stretch 16 writes. -/
abbrev written16 : List (Ref sig .tc) := [main_cst_92, main_v402, main_c_93, main_v403, main_v404, main_c_94, main_v405, main_v406, main_v407, main_v408, main_v409, main_cst_95, main_v410, main_v411, main_v412, main_c_96, main_v413, main_v414, main_c_97, main_v415, main_v416, main_v417, main_v418, main_v419, main_v420, main_c_98, main_v421, main_v422, main_c_99, main_v423, main_v424, main_v425, main_v426, main_v427, main_v428, main_c_100, main_v429, main_v430, main_c_101, main_v431, main_v432, main_v433, main_v434, main_v435, main_v436, main_v437, main_v438, main_cst_102, main_v439, main_c_103, main_v440, main_v441, main_c_104, main_v442, main_v443, main_v444, main_v445, main_v446, main_v447, main_v448, main_v449, main_v450]

theorem writes16 : (hostOps16 (F := F) : List (HloOp τ sig (Elt F))).Forall fun op => op.writes ⊆ ((written16).map (Proc.devRef (τ := τ) .tc)).toFinset := by
  simp only [hostOps16, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 16 does not write keeps its contents through it. -/
theorem keep16 (W : Valuation τ sig (Elt F)) (r : Ref sig .tc) (h : r ∉ written16) :
    StableHlo.after (hostOps16 (F := F)) W (Proc.devRef .tc r) = W (Proc.devRef .tc r) :=
  after_of_writes_sub (hostOps16 (F := F)) W writes16 h

/-- The buffers stretch 18 writes. -/
abbrev written18 : List (Ref sig .tc) := [main_cst_105, main_v453, main_c_106, main_v454, main_v455, main_c_107, main_v456, main_v457, main_v458, main_v459, main_v460, main_cst_108, main_v461, main_v462, main_v463, main_c_109, main_v464, main_v465, main_c_110, main_v466, main_v467, main_v468, main_v469, main_v470, main_v471, main_c_111, main_v472, main_v473, main_c_112, main_v474, main_v475, main_v476, main_v477, main_v478, main_v479, main_c_113, main_v480, main_v481, main_c_114, main_v482, main_v483, main_v484, main_v485, main_v486, main_v487, main_v488, main_v489, main_cst_115, main_v490, main_c_116, main_v491, main_v492, main_c_117, main_v493, main_v494, main_v495, main_v496, main_v497, main_v498, main_v499, main_v500, main_v501]

theorem writes18 : (hostOps18 (F := F) : List (HloOp τ sig (Elt F))).Forall fun op => op.writes ⊆ ((written18).map (Proc.devRef (τ := τ) .tc)).toFinset := by
  simp only [hostOps18, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 18 does not write keeps its contents through it. -/
theorem keep18 (W : Valuation τ sig (Elt F)) (r : Ref sig .tc) (h : r ∉ written18) :
    StableHlo.after (hostOps18 (F := F)) W (Proc.devRef .tc r) = W (Proc.devRef .tc r) :=
  after_of_writes_sub (hostOps18 (F := F)) W writes18 h

/-- The buffers stretch 19 writes. -/
abbrev written19 : List (Ref sig .tc) := [main_cst_118, main_v503, main_c_119, main_v504, main_v505, main_c_120, main_v506, main_v507, main_v508, main_v509, main_cst_121, main_v510, main_v511, main_cst_122, main_v512, main_c_123, main_v513, main_v514, main_c_124, main_v515, main_v516, main_v517, main_v518, main_v519, main_cst_125, main_v520, main_v521, main_v522, main_v523, main_v524, main_cst_126, main_v525, main_c_127, main_v526, main_v527, main_c_128, main_v528, main_v529, main_v530, main_v531, main_cst_129, main_v532, main_v533, main_cst_130, main_v534, main_c_131, main_v535, main_v536, main_c_132, main_v537, main_v538, main_v539, main_v540, main_v541, main_cst_133, main_v542, main_v543, main_v544, main_v545, main_v546]

theorem writes19 : (hostOps19 (F := F) : List (HloOp τ sig (Elt F))).Forall fun op => op.writes ⊆ ((written19).map (Proc.devRef (τ := τ) .tc)).toFinset := by
  simp only [hostOps19, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 19 does not write keeps its contents through it. -/
theorem keep19 (W : Valuation τ sig (Elt F)) (r : Ref sig .tc) (h : r ∉ written19) :
    StableHlo.after (hostOps19 (F := F)) W (Proc.devRef .tc r) = W (Proc.devRef .tc r) :=
  after_of_writes_sub (hostOps19 (F := F)) W writes19 h

/-- The buffers stretch 20 writes. -/
abbrev written20 : List (Ref sig .tc) := [main_v548, main_v549, main_v550]

theorem writes20 : (hostOps20 (F := F) : List (HloOp τ sig (Elt F))).Forall fun op => op.writes ⊆ ((written20).map (Proc.devRef (τ := τ) .tc)).toFinset := by
  simp only [hostOps20, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 20 does not write keeps its contents through it. -/
theorem keep20 (W : Valuation τ sig (Elt F)) (r : Ref sig .tc) (h : r ∉ written20) :
    StableHlo.after (hostOps20 (F := F)) W (Proc.devRef .tc r) = W (Proc.devRef .tc r) :=
  after_of_writes_sub (hostOps20 (F := F)) W writes20 h

end Cert.Kernel.HostKeep

end
-- ==== Proof.KernelFrameArgs.lean ====
/-
  Each argument array of @main holds at the last segment boundary what it held at launch: no host stretch writes it (it is
  not in the stretch's list of written buffers), a region that reads it leaves an input window's array as it found it, and
  every other region leaves every buffer that is not one of its windows' arrays alone. These are the 23 facts the frame's
  last step reads the arguments back with; they carry the names that step cites.
-/
import proofs.«418542_j22608707846200_1_alg».proof.Proof.KernelFrameBoundaries
import proofs.«418542_j22608707846200_1_alg».proof.Proof.KernelHostKeep

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem W36_main_arg0 (c : Dev nD) : W36 m ρ c (Proc.devRef .tc main_arg0) = m ((c : Thread nD τ).loc main_arg0) :=
  (W36_of_ne m ρ c main_arg0 (by decide)).trans ((Cert.Kernel.HostKeep.keep20 (W34 m ρ c) main_arg0 (by decide)).trans ((W34_of_ne m ρ c main_arg0 (by decide)).trans ((Cert.Kernel.HostKeep.keep19 (W32 m ρ c) main_arg0 (by decide)).trans ((W32_of_ne m ρ c main_arg0 (by decide)).trans ((Cert.Kernel.HostKeep.keep18 (W30 m ρ c) main_arg0 (by decide)).trans ((W30_of_ne m ρ c main_arg0 (by decide)).trans ((W29_of_ne m ρ c main_arg0 (by decide)).trans ((Cert.Kernel.HostKeep.keep16 (W27 m ρ c) main_arg0 (by decide)).trans ((W27_of_ne m ρ c main_arg0 (by decide)).trans ((W26_of_ne m ρ c main_arg0 (by decide)).trans ((Cert.Kernel.HostKeep.keep14 (W24 m ρ c) main_arg0 (by decide)).trans ((W24_of_ne m ρ c main_arg0 (by decide)).trans ((Cert.Kernel.HostKeep.keep13 (W22 m ρ c) main_arg0 (by decide)).trans ((W22_of_ne m ρ c main_arg0 (by decide)).trans ((Cert.Kernel.HostKeep.keep12 (W20 m ρ c) main_arg0 (by decide)).trans ((W20_of_ne m ρ c main_arg0 (by decide)).trans ((W19_of_ne m ρ c main_arg0 (by decide)).trans ((Cert.Kernel.HostKeep.keep10 (W17 m ρ c) main_arg0 (by decide)).trans ((W17_of_ne m ρ c main_arg0 (by decide)).trans ((W16_of_ne m ρ c main_arg0 (by decide)).trans ((Cert.Kernel.HostKeep.keep8 (W14 m ρ c) main_arg0 (by decide)).trans ((W14_of_ne m ρ c main_arg0 (by decide)).trans ((Cert.Kernel.HostKeep.keep7 (W12 m ρ c) main_arg0 (by decide)).trans ((W12_of_ne m ρ c main_arg0 (by decide)).trans ((Cert.Kernel.HostKeep.keep6 (W10 m ρ c) main_arg0 (by decide)).trans ((W10_of_ne m ρ c main_arg0 (by decide)).trans ((W9_of_ne m ρ c main_arg0 (by decide)).trans ((Cert.Kernel.HostKeep.keep4 (W7 m ρ c) main_arg0 (by decide)).trans ((W7_of_ne m ρ c main_arg0 (by decide)).trans ((W6_of_ne m ρ c main_arg0 (by decide)).trans ((Cert.Kernel.HostKeep.keep2 (W4 m ρ c) main_arg0 (by decide)).trans ((W4_of_ne m ρ c main_arg0 (by decide)).trans ((Cert.Kernel.HostKeep.keep1 (W2 m ρ c) main_arg0 (by decide)).trans ((W2_of_ne m ρ c main_arg0 (by decide)).trans ((Cert.Kernel.HostKeep.keep0 (W0 m ρ c) main_arg0 (by decide)).trans (rfl))))))))))))))))))))))))))))))))))))
theorem W36_main_arg1 (c : Dev nD) : W36 m ρ c (Proc.devRef .tc main_arg1) = m ((c : Thread nD τ).loc main_arg1) :=
  (W36_of_ne m ρ c main_arg1 (by decide)).trans ((Cert.Kernel.HostKeep.keep20 (W34 m ρ c) main_arg1 (by decide)).trans ((W34_of_ne m ρ c main_arg1 (by decide)).trans ((Cert.Kernel.HostKeep.keep19 (W32 m ρ c) main_arg1 (by decide)).trans ((W32_of_ne m ρ c main_arg1 (by decide)).trans ((Cert.Kernel.HostKeep.keep18 (W30 m ρ c) main_arg1 (by decide)).trans ((W30_of_ne m ρ c main_arg1 (by decide)).trans ((W29_of_ne m ρ c main_arg1 (by decide)).trans ((Cert.Kernel.HostKeep.keep16 (W27 m ρ c) main_arg1 (by decide)).trans ((W27_of_ne m ρ c main_arg1 (by decide)).trans ((W26_of_ne m ρ c main_arg1 (by decide)).trans ((Cert.Kernel.HostKeep.keep14 (W24 m ρ c) main_arg1 (by decide)).trans ((W24_of_ne m ρ c main_arg1 (by decide)).trans ((Cert.Kernel.HostKeep.keep13 (W22 m ρ c) main_arg1 (by decide)).trans ((W22_of_ne m ρ c main_arg1 (by decide)).trans ((Cert.Kernel.HostKeep.keep12 (W20 m ρ c) main_arg1 (by decide)).trans ((W20_of_ne m ρ c main_arg1 (by decide)).trans ((W19_of_ne m ρ c main_arg1 (by decide)).trans ((Cert.Kernel.HostKeep.keep10 (W17 m ρ c) main_arg1 (by decide)).trans ((W17_of_ne m ρ c main_arg1 (by decide)).trans ((W16_of_ne m ρ c main_arg1 (by decide)).trans ((Cert.Kernel.HostKeep.keep8 (W14 m ρ c) main_arg1 (by decide)).trans ((W14_of_ne m ρ c main_arg1 (by decide)).trans ((Cert.Kernel.HostKeep.keep7 (W12 m ρ c) main_arg1 (by decide)).trans ((W12_of_ne m ρ c main_arg1 (by decide)).trans ((Cert.Kernel.HostKeep.keep6 (W10 m ρ c) main_arg1 (by decide)).trans ((W10_of_ne m ρ c main_arg1 (by decide)).trans ((W9_of_ne m ρ c main_arg1 (by decide)).trans ((Cert.Kernel.HostKeep.keep4 (W7 m ρ c) main_arg1 (by decide)).trans ((W7_of_ne m ρ c main_arg1 (by decide)).trans ((W6_of_ne m ρ c main_arg1 (by decide)).trans ((Cert.Kernel.HostKeep.keep2 (W4 m ρ c) main_arg1 (by decide)).trans ((W4_of_ne m ρ c main_arg1 (by decide)).trans ((Cert.Kernel.HostKeep.keep1 (W2 m ρ c) main_arg1 (by decide)).trans ((W2_of_ne m ρ c main_arg1 (by decide)).trans ((Cert.Kernel.HostKeep.keep0 (W0 m ρ c) main_arg1 (by decide)).trans (rfl))))))))))))))))))))))))))))))))))))
theorem W36_main_arg2 (c : Dev nD) : W36 m ρ c (Proc.devRef .tc main_arg2) = m ((c : Thread nD τ).loc main_arg2) :=
  (W36_of_ne m ρ c main_arg2 (by decide)).trans ((Cert.Kernel.HostKeep.keep20 (W34 m ρ c) main_arg2 (by decide)).trans ((W34_of_ne m ρ c main_arg2 (by decide)).trans ((Cert.Kernel.HostKeep.keep19 (W32 m ρ c) main_arg2 (by decide)).trans ((W32_of_ne m ρ c main_arg2 (by decide)).trans ((Cert.Kernel.HostKeep.keep18 (W30 m ρ c) main_arg2 (by decide)).trans ((W30_of_ne m ρ c main_arg2 (by decide)).trans ((W29_of_ne m ρ c main_arg2 (by decide)).trans ((Cert.Kernel.HostKeep.keep16 (W27 m ρ c) main_arg2 (by decide)).trans ((W27_of_ne m ρ c main_arg2 (by decide)).trans ((W26_of_ne m ρ c main_arg2 (by decide)).trans ((Cert.Kernel.HostKeep.keep14 (W24 m ρ c) main_arg2 (by decide)).trans ((W24_of_ne m ρ c main_arg2 (by decide)).trans ((Cert.Kernel.HostKeep.keep13 (W22 m ρ c) main_arg2 (by decide)).trans ((W22_of_ne m ρ c main_arg2 (by decide)).trans ((Cert.Kernel.HostKeep.keep12 (W20 m ρ c) main_arg2 (by decide)).trans ((W20_of_ne m ρ c main_arg2 (by decide)).trans ((W19_of_ne m ρ c main_arg2 (by decide)).trans ((Cert.Kernel.HostKeep.keep10 (W17 m ρ c) main_arg2 (by decide)).trans ((W17_of_ne m ρ c main_arg2 (by decide)).trans ((W16_of_ne m ρ c main_arg2 (by decide)).trans ((Cert.Kernel.HostKeep.keep8 (W14 m ρ c) main_arg2 (by decide)).trans ((W14_of_ne m ρ c main_arg2 (by decide)).trans ((Cert.Kernel.HostKeep.keep7 (W12 m ρ c) main_arg2 (by decide)).trans ((W12_of_ne m ρ c main_arg2 (by decide)).trans ((Cert.Kernel.HostKeep.keep6 (W10 m ρ c) main_arg2 (by decide)).trans ((W10_of_ne m ρ c main_arg2 (by decide)).trans ((W9_of_ne m ρ c main_arg2 (by decide)).trans ((Cert.Kernel.HostKeep.keep4 (W7 m ρ c) main_arg2 (by decide)).trans ((W7_of_ne m ρ c main_arg2 (by decide)).trans ((W6_of_ne m ρ c main_arg2 (by decide)).trans ((Cert.Kernel.HostKeep.keep2 (W4 m ρ c) main_arg2 (by decide)).trans ((W4_of_ne m ρ c main_arg2 (by decide)).trans ((Cert.Kernel.HostKeep.keep1 (W2 m ρ c) main_arg2 (by decide)).trans ((W2_of_ne m ρ c main_arg2 (by decide)).trans ((Cert.Kernel.HostKeep.keep0 (W0 m ρ c) main_arg2 (by decide)).trans (rfl))))))))))))))))))))))))))))))))))))
theorem W36_main_arg3 (c : Dev nD) : W36 m ρ c (Proc.devRef .tc main_arg3) = m ((c : Thread nD τ).loc main_arg3) :=
  (W36_of_ne m ρ c main_arg3 (by decide)).trans ((Cert.Kernel.HostKeep.keep20 (W34 m ρ c) main_arg3 (by decide)).trans ((W34_of_ne m ρ c main_arg3 (by decide)).trans ((Cert.Kernel.HostKeep.keep19 (W32 m ρ c) main_arg3 (by decide)).trans ((W32_of_ne m ρ c main_arg3 (by decide)).trans ((Cert.Kernel.HostKeep.keep18 (W30 m ρ c) main_arg3 (by decide)).trans ((W30_of_ne m ρ c main_arg3 (by decide)).trans ((W29_of_ne m ρ c main_arg3 (by decide)).trans ((Cert.Kernel.HostKeep.keep16 (W27 m ρ c) main_arg3 (by decide)).trans ((W27_of_ne m ρ c main_arg3 (by decide)).trans ((W26_of_ne m ρ c main_arg3 (by decide)).trans ((Cert.Kernel.HostKeep.keep14 (W24 m ρ c) main_arg3 (by decide)).trans ((W24_of_ne m ρ c main_arg3 (by decide)).trans ((Cert.Kernel.HostKeep.keep13 (W22 m ρ c) main_arg3 (by decide)).trans ((W22_of_ne m ρ c main_arg3 (by decide)).trans ((Cert.Kernel.HostKeep.keep12 (W20 m ρ c) main_arg3 (by decide)).trans ((W20_of_ne m ρ c main_arg3 (by decide)).trans ((W19_of_ne m ρ c main_arg3 (by decide)).trans ((Cert.Kernel.HostKeep.keep10 (W17 m ρ c) main_arg3 (by decide)).trans ((W17_of_ne m ρ c main_arg3 (by decide)).trans ((W16_of_ne m ρ c main_arg3 (by decide)).trans ((Cert.Kernel.HostKeep.keep8 (W14 m ρ c) main_arg3 (by decide)).trans ((W14_of_ne m ρ c main_arg3 (by decide)).trans ((Cert.Kernel.HostKeep.keep7 (W12 m ρ c) main_arg3 (by decide)).trans ((W12_of_ne m ρ c main_arg3 (by decide)).trans ((Cert.Kernel.HostKeep.keep6 (W10 m ρ c) main_arg3 (by decide)).trans ((W10_of_ne m ρ c main_arg3 (by decide)).trans ((W9_of_ne m ρ c main_arg3 (by decide)).trans ((Cert.Kernel.HostKeep.keep4 (W7 m ρ c) main_arg3 (by decide)).trans ((W7_of_ne m ρ c main_arg3 (by decide)).trans ((W6_of_ne m ρ c main_arg3 (by decide)).trans ((Cert.Kernel.HostKeep.keep2 (W4 m ρ c) main_arg3 (by decide)).trans ((W4_of_ne m ρ c main_arg3 (by decide)).trans ((Cert.Kernel.HostKeep.keep1 (W2 m ρ c) main_arg3 (by decide)).trans ((W2_of_ne m ρ c main_arg3 (by decide)).trans ((Cert.Kernel.HostKeep.keep0 (W0 m ρ c) main_arg3 (by decide)).trans (rfl))))))))))))))))))))))))))))))))))))
theorem W36_main_arg4 (c : Dev nD) : W36 m ρ c (Proc.devRef .tc main_arg4) = m ((c : Thread nD τ).loc main_arg4) :=
  (W36_of_ne m ρ c main_arg4 (by decide)).trans ((Cert.Kernel.HostKeep.keep20 (W34 m ρ c) main_arg4 (by decide)).trans ((W34_of_ne m ρ c main_arg4 (by decide)).trans ((Cert.Kernel.HostKeep.keep19 (W32 m ρ c) main_arg4 (by decide)).trans ((W32_of_ne m ρ c main_arg4 (by decide)).trans ((Cert.Kernel.HostKeep.keep18 (W30 m ρ c) main_arg4 (by decide)).trans ((W30_of_ne m ρ c main_arg4 (by decide)).trans ((W29_of_ne m ρ c main_arg4 (by decide)).trans ((Cert.Kernel.HostKeep.keep16 (W27 m ρ c) main_arg4 (by decide)).trans ((W27_of_ne m ρ c main_arg4 (by decide)).trans ((W26_of_ne m ρ c main_arg4 (by decide)).trans ((Cert.Kernel.HostKeep.keep14 (W24 m ρ c) main_arg4 (by decide)).trans ((W24_of_ne m ρ c main_arg4 (by decide)).trans ((Cert.Kernel.HostKeep.keep13 (W22 m ρ c) main_arg4 (by decide)).trans ((W22_of_ne m ρ c main_arg4 (by decide)).trans ((Cert.Kernel.HostKeep.keep12 (W20 m ρ c) main_arg4 (by decide)).trans ((W20_of_ne m ρ c main_arg4 (by decide)).trans ((W19_of_ne m ρ c main_arg4 (by decide)).trans ((Cert.Kernel.HostKeep.keep10 (W17 m ρ c) main_arg4 (by decide)).trans ((W17_of_ne m ρ c main_arg4 (by decide)).trans ((W16_of_ne m ρ c main_arg4 (by decide)).trans ((Cert.Kernel.HostKeep.keep8 (W14 m ρ c) main_arg4 (by decide)).trans ((W14_of_ne m ρ c main_arg4 (by decide)).trans ((Cert.Kernel.HostKeep.keep7 (W12 m ρ c) main_arg4 (by decide)).trans ((W12_of_ne m ρ c main_arg4 (by decide)).trans ((Cert.Kernel.HostKeep.keep6 (W10 m ρ c) main_arg4 (by decide)).trans ((W10_of_ne m ρ c main_arg4 (by decide)).trans ((W9_of_ne m ρ c main_arg4 (by decide)).trans ((Cert.Kernel.HostKeep.keep4 (W7 m ρ c) main_arg4 (by decide)).trans ((W7_of_ne m ρ c main_arg4 (by decide)).trans ((W6_of_ne m ρ c main_arg4 (by decide)).trans ((Cert.Kernel.HostKeep.keep2 (W4 m ρ c) main_arg4 (by decide)).trans ((W4_of_ne m ρ c main_arg4 (by decide)).trans ((Cert.Kernel.HostKeep.keep1 (W2 m ρ c) main_arg4 (by decide)).trans ((W2_of_ne m ρ c main_arg4 (by decide)).trans ((Cert.Kernel.HostKeep.keep0 (W0 m ρ c) main_arg4 (by decide)).trans (rfl))))))))))))))))))))))))))))))))))))
theorem W36_main_arg5 (c : Dev nD) : W36 m ρ c (Proc.devRef .tc main_arg5) = m ((c : Thread nD τ).loc main_arg5) :=
  (W36_of_ne m ρ c main_arg5 (by decide)).trans ((Cert.Kernel.HostKeep.keep20 (W34 m ρ c) main_arg5 (by decide)).trans ((W34_of_ne m ρ c main_arg5 (by decide)).trans ((Cert.Kernel.HostKeep.keep19 (W32 m ρ c) main_arg5 (by decide)).trans ((W32_of_ne m ρ c main_arg5 (by decide)).trans ((Cert.Kernel.HostKeep.keep18 (W30 m ρ c) main_arg5 (by decide)).trans ((W30_of_ne m ρ c main_arg5 (by decide)).trans ((W29_of_ne m ρ c main_arg5 (by decide)).trans ((Cert.Kernel.HostKeep.keep16 (W27 m ρ c) main_arg5 (by decide)).trans ((W27_of_ne m ρ c main_arg5 (by decide)).trans ((W26_of_ne m ρ c main_arg5 (by decide)).trans ((Cert.Kernel.HostKeep.keep14 (W24 m ρ c) main_arg5 (by decide)).trans ((W24_of_ne m ρ c main_arg5 (by decide)).trans ((Cert.Kernel.HostKeep.keep13 (W22 m ρ c) main_arg5 (by decide)).trans ((W22_of_ne m ρ c main_arg5 (by decide)).trans ((Cert.Kernel.HostKeep.keep12 (W20 m ρ c) main_arg5 (by decide)).trans ((W20_of_ne m ρ c main_arg5 (by decide)).trans ((W19_of_ne m ρ c main_arg5 (by decide)).trans ((Cert.Kernel.HostKeep.keep10 (W17 m ρ c) main_arg5 (by decide)).trans ((W17_of_ne m ρ c main_arg5 (by decide)).trans ((W16_of_ne m ρ c main_arg5 (by decide)).trans ((Cert.Kernel.HostKeep.keep8 (W14 m ρ c) main_arg5 (by decide)).trans ((W14_of_ne m ρ c main_arg5 (by decide)).trans ((Cert.Kernel.HostKeep.keep7 (W12 m ρ c) main_arg5 (by decide)).trans ((W12_of_ne m ρ c main_arg5 (by decide)).trans ((Cert.Kernel.HostKeep.keep6 (W10 m ρ c) main_arg5 (by decide)).trans ((W10_of_ne m ρ c main_arg5 (by decide)).trans ((W9_of_ne m ρ c main_arg5 (by decide)).trans ((Cert.Kernel.HostKeep.keep4 (W7 m ρ c) main_arg5 (by decide)).trans ((W7_of_ne m ρ c main_arg5 (by decide)).trans ((W6_of_ne m ρ c main_arg5 (by decide)).trans ((Cert.Kernel.HostKeep.keep2 (W4 m ρ c) main_arg5 (by decide)).trans ((W4_of_ne m ρ c main_arg5 (by decide)).trans ((Cert.Kernel.HostKeep.keep1 (W2 m ρ c) main_arg5 (by decide)).trans ((W2_of_ne m ρ c main_arg5 (by decide)).trans ((Cert.Kernel.HostKeep.keep0 (W0 m ρ c) main_arg5 (by decide)).trans (rfl))))))))))))))))))))))))))))))))))))
theorem W36_main_arg6 (c : Dev nD) : W36 m ρ c (Proc.devRef .tc main_arg6) = m ((c : Thread nD τ).loc main_arg6) :=
  (W36_of_ne m ρ c main_arg6 (by decide)).trans ((Cert.Kernel.HostKeep.keep20 (W34 m ρ c) main_arg6 (by decide)).trans ((W34_of_ne m ρ c main_arg6 (by decide)).trans ((Cert.Kernel.HostKeep.keep19 (W32 m ρ c) main_arg6 (by decide)).trans ((W32_of_ne m ρ c main_arg6 (by decide)).trans ((Cert.Kernel.HostKeep.keep18 (W30 m ρ c) main_arg6 (by decide)).trans ((W30_of_ne m ρ c main_arg6 (by decide)).trans ((W29_of_ne m ρ c main_arg6 (by decide)).trans ((Cert.Kernel.HostKeep.keep16 (W27 m ρ c) main_arg6 (by decide)).trans ((W27_of_ne m ρ c main_arg6 (by decide)).trans ((W26_of_ne m ρ c main_arg6 (by decide)).trans ((Cert.Kernel.HostKeep.keep14 (W24 m ρ c) main_arg6 (by decide)).trans ((W24_of_ne m ρ c main_arg6 (by decide)).trans ((Cert.Kernel.HostKeep.keep13 (W22 m ρ c) main_arg6 (by decide)).trans ((W22_of_ne m ρ c main_arg6 (by decide)).trans ((Cert.Kernel.HostKeep.keep12 (W20 m ρ c) main_arg6 (by decide)).trans ((W20_of_ne m ρ c main_arg6 (by decide)).trans ((W19_of_ne m ρ c main_arg6 (by decide)).trans ((Cert.Kernel.HostKeep.keep10 (W17 m ρ c) main_arg6 (by decide)).trans ((W17_of_ne m ρ c main_arg6 (by decide)).trans ((W16_of_ne m ρ c main_arg6 (by decide)).trans ((Cert.Kernel.HostKeep.keep8 (W14 m ρ c) main_arg6 (by decide)).trans ((W14_of_ne m ρ c main_arg6 (by decide)).trans ((Cert.Kernel.HostKeep.keep7 (W12 m ρ c) main_arg6 (by decide)).trans ((W12_of_ne m ρ c main_arg6 (by decide)).trans ((Cert.Kernel.HostKeep.keep6 (W10 m ρ c) main_arg6 (by decide)).trans ((W10_of_ne m ρ c main_arg6 (by decide)).trans ((W9_of_ne m ρ c main_arg6 (by decide)).trans ((Cert.Kernel.HostKeep.keep4 (W7 m ρ c) main_arg6 (by decide)).trans ((W7_of_ne m ρ c main_arg6 (by decide)).trans ((W6_of_ne m ρ c main_arg6 (by decide)).trans ((Cert.Kernel.HostKeep.keep2 (W4 m ρ c) main_arg6 (by decide)).trans ((W4_of_ne m ρ c main_arg6 (by decide)).trans ((Cert.Kernel.HostKeep.keep1 (W2 m ρ c) main_arg6 (by decide)).trans ((W2_of_ne m ρ c main_arg6 (by decide)).trans ((Cert.Kernel.HostKeep.keep0 (W0 m ρ c) main_arg6 (by decide)).trans (rfl))))))))))))))))))))))))))))))))))))
theorem W36_main_arg7 (c : Dev nD) : W36 m ρ c (Proc.devRef .tc main_arg7) = m ((c : Thread nD τ).loc main_arg7) :=
  (W36_of_ne m ρ c main_arg7 (by decide)).trans ((Cert.Kernel.HostKeep.keep20 (W34 m ρ c) main_arg7 (by decide)).trans ((W34_of_ne m ρ c main_arg7 (by decide)).trans ((Cert.Kernel.HostKeep.keep19 (W32 m ρ c) main_arg7 (by decide)).trans ((W32_of_ne m ρ c main_arg7 (by decide)).trans ((Cert.Kernel.HostKeep.keep18 (W30 m ρ c) main_arg7 (by decide)).trans ((W30_of_ne m ρ c main_arg7 (by decide)).trans ((W29_of_ne m ρ c main_arg7 (by decide)).trans ((Cert.Kernel.HostKeep.keep16 (W27 m ρ c) main_arg7 (by decide)).trans ((W27_of_ne m ρ c main_arg7 (by decide)).trans ((W26_of_ne m ρ c main_arg7 (by decide)).trans ((Cert.Kernel.HostKeep.keep14 (W24 m ρ c) main_arg7 (by decide)).trans ((W24_of_ne m ρ c main_arg7 (by decide)).trans ((Cert.Kernel.HostKeep.keep13 (W22 m ρ c) main_arg7 (by decide)).trans ((W22_of_ne m ρ c main_arg7 (by decide)).trans ((Cert.Kernel.HostKeep.keep12 (W20 m ρ c) main_arg7 (by decide)).trans ((W20_of_ne m ρ c main_arg7 (by decide)).trans ((W19_of_ne m ρ c main_arg7 (by decide)).trans ((Cert.Kernel.HostKeep.keep10 (W17 m ρ c) main_arg7 (by decide)).trans ((W17_of_ne m ρ c main_arg7 (by decide)).trans ((W16_of_ne m ρ c main_arg7 (by decide)).trans ((Cert.Kernel.HostKeep.keep8 (W14 m ρ c) main_arg7 (by decide)).trans ((W14_of_ne m ρ c main_arg7 (by decide)).trans ((Cert.Kernel.HostKeep.keep7 (W12 m ρ c) main_arg7 (by decide)).trans ((W12_of_ne m ρ c main_arg7 (by decide)).trans ((Cert.Kernel.HostKeep.keep6 (W10 m ρ c) main_arg7 (by decide)).trans ((W10_of_ne m ρ c main_arg7 (by decide)).trans ((W9_of_ne m ρ c main_arg7 (by decide)).trans ((Cert.Kernel.HostKeep.keep4 (W7 m ρ c) main_arg7 (by decide)).trans ((W7_of_ne m ρ c main_arg7 (by decide)).trans ((W6_of_ne m ρ c main_arg7 (by decide)).trans ((Cert.Kernel.HostKeep.keep2 (W4 m ρ c) main_arg7 (by decide)).trans ((W4_of_ne m ρ c main_arg7 (by decide)).trans ((Cert.Kernel.HostKeep.keep1 (W2 m ρ c) main_arg7 (by decide)).trans ((W2_of_ne m ρ c main_arg7 (by decide)).trans ((Cert.Kernel.HostKeep.keep0 (W0 m ρ c) main_arg7 (by decide)).trans (rfl))))))))))))))))))))))))))))))))))))
theorem W36_main_arg8 (c : Dev nD) : W36 m ρ c (Proc.devRef .tc main_arg8) = m ((c : Thread nD τ).loc main_arg8) :=
  (W36_of_ne m ρ c main_arg8 (by decide)).trans ((Cert.Kernel.HostKeep.keep20 (W34 m ρ c) main_arg8 (by decide)).trans ((W34_of_ne m ρ c main_arg8 (by decide)).trans ((Cert.Kernel.HostKeep.keep19 (W32 m ρ c) main_arg8 (by decide)).trans ((W32_of_ne m ρ c main_arg8 (by decide)).trans ((Cert.Kernel.HostKeep.keep18 (W30 m ρ c) main_arg8 (by decide)).trans ((W30_of_ne m ρ c main_arg8 (by decide)).trans ((W29_of_ne m ρ c main_arg8 (by decide)).trans ((Cert.Kernel.HostKeep.keep16 (W27 m ρ c) main_arg8 (by decide)).trans ((W27_of_ne m ρ c main_arg8 (by decide)).trans ((W26_of_ne m ρ c main_arg8 (by decide)).trans ((Cert.Kernel.HostKeep.keep14 (W24 m ρ c) main_arg8 (by decide)).trans ((W24_of_ne m ρ c main_arg8 (by decide)).trans ((Cert.Kernel.HostKeep.keep13 (W22 m ρ c) main_arg8 (by decide)).trans ((W22_of_ne m ρ c main_arg8 (by decide)).trans ((Cert.Kernel.HostKeep.keep12 (W20 m ρ c) main_arg8 (by decide)).trans ((W20_of_ne m ρ c main_arg8 (by decide)).trans ((W19_of_ne m ρ c main_arg8 (by decide)).trans ((Cert.Kernel.HostKeep.keep10 (W17 m ρ c) main_arg8 (by decide)).trans ((W17_of_ne m ρ c main_arg8 (by decide)).trans ((W16_of_ne m ρ c main_arg8 (by decide)).trans ((Cert.Kernel.HostKeep.keep8 (W14 m ρ c) main_arg8 (by decide)).trans ((W14_of_ne m ρ c main_arg8 (by decide)).trans ((Cert.Kernel.HostKeep.keep7 (W12 m ρ c) main_arg8 (by decide)).trans ((W12_of_ne m ρ c main_arg8 (by decide)).trans ((Cert.Kernel.HostKeep.keep6 (W10 m ρ c) main_arg8 (by decide)).trans ((W10_of_ne m ρ c main_arg8 (by decide)).trans ((W9_of_ne m ρ c main_arg8 (by decide)).trans ((Cert.Kernel.HostKeep.keep4 (W7 m ρ c) main_arg8 (by decide)).trans ((W7_of_ne m ρ c main_arg8 (by decide)).trans ((W6_of_ne m ρ c main_arg8 (by decide)).trans ((Cert.Kernel.HostKeep.keep2 (W4 m ρ c) main_arg8 (by decide)).trans ((W4_of_ne m ρ c main_arg8 (by decide)).trans ((Cert.Kernel.HostKeep.keep1 (W2 m ρ c) main_arg8 (by decide)).trans ((W2_of_ne m ρ c main_arg8 (by decide)).trans ((Cert.Kernel.HostKeep.keep0 (W0 m ρ c) main_arg8 (by decide)).trans (rfl))))))))))))))))))))))))))))))))))))
theorem W36_main_arg9 (c : Dev nD) : W36 m ρ c (Proc.devRef .tc main_arg9) = m ((c : Thread nD τ).loc main_arg9) :=
  (W36_of_ne m ρ c main_arg9 (by decide)).trans ((Cert.Kernel.HostKeep.keep20 (W34 m ρ c) main_arg9 (by decide)).trans ((W34_of_ne m ρ c main_arg9 (by decide)).trans ((Cert.Kernel.HostKeep.keep19 (W32 m ρ c) main_arg9 (by decide)).trans ((W32_of_ne m ρ c main_arg9 (by decide)).trans ((Cert.Kernel.HostKeep.keep18 (W30 m ρ c) main_arg9 (by decide)).trans ((W30_of_ne m ρ c main_arg9 (by decide)).trans ((W29_of_ne m ρ c main_arg9 (by decide)).trans ((Cert.Kernel.HostKeep.keep16 (W27 m ρ c) main_arg9 (by decide)).trans ((W27_of_ne m ρ c main_arg9 (by decide)).trans ((W26_of_ne m ρ c main_arg9 (by decide)).trans ((Cert.Kernel.HostKeep.keep14 (W24 m ρ c) main_arg9 (by decide)).trans ((W24_of_ne m ρ c main_arg9 (by decide)).trans ((Cert.Kernel.HostKeep.keep13 (W22 m ρ c) main_arg9 (by decide)).trans ((W22_of_ne m ρ c main_arg9 (by decide)).trans ((Cert.Kernel.HostKeep.keep12 (W20 m ρ c) main_arg9 (by decide)).trans ((W20_of_ne m ρ c main_arg9 (by decide)).trans ((W19_of_ne m ρ c main_arg9 (by decide)).trans ((Cert.Kernel.HostKeep.keep10 (W17 m ρ c) main_arg9 (by decide)).trans ((W17_of_ne m ρ c main_arg9 (by decide)).trans ((W16_of_ne m ρ c main_arg9 (by decide)).trans ((Cert.Kernel.HostKeep.keep8 (W14 m ρ c) main_arg9 (by decide)).trans ((W14_of_ne m ρ c main_arg9 (by decide)).trans ((Cert.Kernel.HostKeep.keep7 (W12 m ρ c) main_arg9 (by decide)).trans ((W12_of_ne m ρ c main_arg9 (by decide)).trans ((Cert.Kernel.HostKeep.keep6 (W10 m ρ c) main_arg9 (by decide)).trans ((W10_of_ne m ρ c main_arg9 (by decide)).trans ((W9_of_ne m ρ c main_arg9 (by decide)).trans ((Cert.Kernel.HostKeep.keep4 (W7 m ρ c) main_arg9 (by decide)).trans ((W7_of_ne m ρ c main_arg9 (by decide)).trans ((W6_of_ne m ρ c main_arg9 (by decide)).trans ((Cert.Kernel.HostKeep.keep2 (W4 m ρ c) main_arg9 (by decide)).trans ((W4_of_ne m ρ c main_arg9 (by decide)).trans ((Cert.Kernel.HostKeep.keep1 (W2 m ρ c) main_arg9 (by decide)).trans ((W2_of_ne m ρ c main_arg9 (by decide)).trans ((Cert.Kernel.HostKeep.keep0 (W0 m ρ c) main_arg9 (by decide)).trans (rfl))))))))))))))))))))))))))))))))))))
theorem W36_main_arg10 (c : Dev nD) : W36 m ρ c (Proc.devRef .tc main_arg10) = m ((c : Thread nD τ).loc main_arg10) :=
  (W36_of_ne m ρ c main_arg10 (by decide)).trans ((Cert.Kernel.HostKeep.keep20 (W34 m ρ c) main_arg10 (by decide)).trans ((W34_of_ne m ρ c main_arg10 (by decide)).trans ((Cert.Kernel.HostKeep.keep19 (W32 m ρ c) main_arg10 (by decide)).trans ((W32_of_ne m ρ c main_arg10 (by decide)).trans ((Cert.Kernel.HostKeep.keep18 (W30 m ρ c) main_arg10 (by decide)).trans ((W30_of_ne m ρ c main_arg10 (by decide)).trans ((W29_of_ne m ρ c main_arg10 (by decide)).trans ((Cert.Kernel.HostKeep.keep16 (W27 m ρ c) main_arg10 (by decide)).trans ((W27_of_ne m ρ c main_arg10 (by decide)).trans ((W26_of_ne m ρ c main_arg10 (by decide)).trans ((Cert.Kernel.HostKeep.keep14 (W24 m ρ c) main_arg10 (by decide)).trans ((W24_of_ne m ρ c main_arg10 (by decide)).trans ((Cert.Kernel.HostKeep.keep13 (W22 m ρ c) main_arg10 (by decide)).trans ((W22_of_ne m ρ c main_arg10 (by decide)).trans ((Cert.Kernel.HostKeep.keep12 (W20 m ρ c) main_arg10 (by decide)).trans ((W20_of_ne m ρ c main_arg10 (by decide)).trans ((W19_of_ne m ρ c main_arg10 (by decide)).trans ((Cert.Kernel.HostKeep.keep10 (W17 m ρ c) main_arg10 (by decide)).trans ((W17_of_ne m ρ c main_arg10 (by decide)).trans ((W16_of_ne m ρ c main_arg10 (by decide)).trans ((Cert.Kernel.HostKeep.keep8 (W14 m ρ c) main_arg10 (by decide)).trans ((W14_of_ne m ρ c main_arg10 (by decide)).trans ((Cert.Kernel.HostKeep.keep7 (W12 m ρ c) main_arg10 (by decide)).trans ((W12_of_ne m ρ c main_arg10 (by decide)).trans ((Cert.Kernel.HostKeep.keep6 (W10 m ρ c) main_arg10 (by decide)).trans ((W10_of_ne m ρ c main_arg10 (by decide)).trans ((W9_of_ne m ρ c main_arg10 (by decide)).trans ((Cert.Kernel.HostKeep.keep4 (W7 m ρ c) main_arg10 (by decide)).trans ((W7_of_ne m ρ c main_arg10 (by decide)).trans ((W6_of_ne m ρ c main_arg10 (by decide)).trans ((Cert.Kernel.HostKeep.keep2 (W4 m ρ c) main_arg10 (by decide)).trans ((W4_of_ne m ρ c main_arg10 (by decide)).trans ((Cert.Kernel.HostKeep.keep1 (W2 m ρ c) main_arg10 (by decide)).trans (((W2_arr m ρ c 1).trans (((dat0 (V1 m ρ) c).arrAt_in 1 rfl _).trans (A_eq0 (V1 m ρ) c 1))).trans ((Cert.Kernel.HostKeep.keep0 (W0 m ρ c) main_arg10 (by decide)).trans (rfl))))))))))))))))))))))))))))))))))))
theorem W36_main_arg11 (c : Dev nD) : W36 m ρ c (Proc.devRef .tc main_arg11) = m ((c : Thread nD τ).loc main_arg11) :=
  (W36_of_ne m ρ c main_arg11 (by decide)).trans ((Cert.Kernel.HostKeep.keep20 (W34 m ρ c) main_arg11 (by decide)).trans ((W34_of_ne m ρ c main_arg11 (by decide)).trans ((Cert.Kernel.HostKeep.keep19 (W32 m ρ c) main_arg11 (by decide)).trans ((W32_of_ne m ρ c main_arg11 (by decide)).trans ((Cert.Kernel.HostKeep.keep18 (W30 m ρ c) main_arg11 (by decide)).trans ((W30_of_ne m ρ c main_arg11 (by decide)).trans ((W29_of_ne m ρ c main_arg11 (by decide)).trans ((Cert.Kernel.HostKeep.keep16 (W27 m ρ c) main_arg11 (by decide)).trans ((W27_of_ne m ρ c main_arg11 (by decide)).trans ((W26_of_ne m ρ c main_arg11 (by decide)).trans ((Cert.Kernel.HostKeep.keep14 (W24 m ρ c) main_arg11 (by decide)).trans ((W24_of_ne m ρ c main_arg11 (by decide)).trans ((Cert.Kernel.HostKeep.keep13 (W22 m ρ c) main_arg11 (by decide)).trans ((W22_of_ne m ρ c main_arg11 (by decide)).trans ((Cert.Kernel.HostKeep.keep12 (W20 m ρ c) main_arg11 (by decide)).trans ((W20_of_ne m ρ c main_arg11 (by decide)).trans ((W19_of_ne m ρ c main_arg11 (by decide)).trans ((Cert.Kernel.HostKeep.keep10 (W17 m ρ c) main_arg11 (by decide)).trans ((W17_of_ne m ρ c main_arg11 (by decide)).trans ((W16_of_ne m ρ c main_arg11 (by decide)).trans ((Cert.Kernel.HostKeep.keep8 (W14 m ρ c) main_arg11 (by decide)).trans ((W14_of_ne m ρ c main_arg11 (by decide)).trans ((Cert.Kernel.HostKeep.keep7 (W12 m ρ c) main_arg11 (by decide)).trans ((W12_of_ne m ρ c main_arg11 (by decide)).trans ((Cert.Kernel.HostKeep.keep6 (W10 m ρ c) main_arg11 (by decide)).trans ((W10_of_ne m ρ c main_arg11 (by decide)).trans ((W9_of_ne m ρ c main_arg11 (by decide)).trans ((Cert.Kernel.HostKeep.keep4 (W7 m ρ c) main_arg11 (by decide)).trans ((W7_of_ne m ρ c main_arg11 (by decide)).trans ((W6_of_ne m ρ c main_arg11 (by decide)).trans ((Cert.Kernel.HostKeep.keep2 (W4 m ρ c) main_arg11 (by decide)).trans ((W4_of_ne m ρ c main_arg11 (by decide)).trans ((Cert.Kernel.HostKeep.keep1 (W2 m ρ c) main_arg11 (by decide)).trans ((W2_of_ne m ρ c main_arg11 (by decide)).trans ((Cert.Kernel.HostKeep.keep0 (W0 m ρ c) main_arg11 (by decide)).trans (rfl))))))))))))))))))))))))))))))))))))
theorem W36_main_arg12 (c : Dev nD) : W36 m ρ c (Proc.devRef .tc main_arg12) = m ((c : Thread nD τ).loc main_arg12) :=
  (W36_of_ne m ρ c main_arg12 (by decide)).trans ((Cert.Kernel.HostKeep.keep20 (W34 m ρ c) main_arg12 (by decide)).trans ((W34_of_ne m ρ c main_arg12 (by decide)).trans ((Cert.Kernel.HostKeep.keep19 (W32 m ρ c) main_arg12 (by decide)).trans ((W32_of_ne m ρ c main_arg12 (by decide)).trans ((Cert.Kernel.HostKeep.keep18 (W30 m ρ c) main_arg12 (by decide)).trans ((W30_of_ne m ρ c main_arg12 (by decide)).trans ((W29_of_ne m ρ c main_arg12 (by decide)).trans ((Cert.Kernel.HostKeep.keep16 (W27 m ρ c) main_arg12 (by decide)).trans ((W27_of_ne m ρ c main_arg12 (by decide)).trans ((W26_of_ne m ρ c main_arg12 (by decide)).trans ((Cert.Kernel.HostKeep.keep14 (W24 m ρ c) main_arg12 (by decide)).trans ((W24_of_ne m ρ c main_arg12 (by decide)).trans ((Cert.Kernel.HostKeep.keep13 (W22 m ρ c) main_arg12 (by decide)).trans ((W22_of_ne m ρ c main_arg12 (by decide)).trans ((Cert.Kernel.HostKeep.keep12 (W20 m ρ c) main_arg12 (by decide)).trans ((W20_of_ne m ρ c main_arg12 (by decide)).trans ((W19_of_ne m ρ c main_arg12 (by decide)).trans ((Cert.Kernel.HostKeep.keep10 (W17 m ρ c) main_arg12 (by decide)).trans ((W17_of_ne m ρ c main_arg12 (by decide)).trans ((W16_of_ne m ρ c main_arg12 (by decide)).trans ((Cert.Kernel.HostKeep.keep8 (W14 m ρ c) main_arg12 (by decide)).trans ((W14_of_ne m ρ c main_arg12 (by decide)).trans ((Cert.Kernel.HostKeep.keep7 (W12 m ρ c) main_arg12 (by decide)).trans ((W12_of_ne m ρ c main_arg12 (by decide)).trans ((Cert.Kernel.HostKeep.keep6 (W10 m ρ c) main_arg12 (by decide)).trans ((W10_of_ne m ρ c main_arg12 (by decide)).trans ((W9_of_ne m ρ c main_arg12 (by decide)).trans ((Cert.Kernel.HostKeep.keep4 (W7 m ρ c) main_arg12 (by decide)).trans ((W7_of_ne m ρ c main_arg12 (by decide)).trans ((W6_of_ne m ρ c main_arg12 (by decide)).trans ((Cert.Kernel.HostKeep.keep2 (W4 m ρ c) main_arg12 (by decide)).trans ((W4_of_ne m ρ c main_arg12 (by decide)).trans ((Cert.Kernel.HostKeep.keep1 (W2 m ρ c) main_arg12 (by decide)).trans (((W2_arr m ρ c 3).trans (((dat0 (V1 m ρ) c).arrAt_in 3 rfl _).trans (A_eq0 (V1 m ρ) c 3))).trans ((Cert.Kernel.HostKeep.keep0 (W0 m ρ c) main_arg12 (by decide)).trans (rfl))))))))))))))))))))))))))))))))))))
theorem W36_main_arg13 (c : Dev nD) : W36 m ρ c (Proc.devRef .tc main_arg13) = m ((c : Thread nD τ).loc main_arg13) :=
  (W36_of_ne m ρ c main_arg13 (by decide)).trans ((Cert.Kernel.HostKeep.keep20 (W34 m ρ c) main_arg13 (by decide)).trans ((W34_of_ne m ρ c main_arg13 (by decide)).trans ((Cert.Kernel.HostKeep.keep19 (W32 m ρ c) main_arg13 (by decide)).trans ((W32_of_ne m ρ c main_arg13 (by decide)).trans ((Cert.Kernel.HostKeep.keep18 (W30 m ρ c) main_arg13 (by decide)).trans ((W30_of_ne m ρ c main_arg13 (by decide)).trans ((W29_of_ne m ρ c main_arg13 (by decide)).trans ((Cert.Kernel.HostKeep.keep16 (W27 m ρ c) main_arg13 (by decide)).trans ((W27_of_ne m ρ c main_arg13 (by decide)).trans ((W26_of_ne m ρ c main_arg13 (by decide)).trans ((Cert.Kernel.HostKeep.keep14 (W24 m ρ c) main_arg13 (by decide)).trans ((W24_of_ne m ρ c main_arg13 (by decide)).trans ((Cert.Kernel.HostKeep.keep13 (W22 m ρ c) main_arg13 (by decide)).trans ((W22_of_ne m ρ c main_arg13 (by decide)).trans ((Cert.Kernel.HostKeep.keep12 (W20 m ρ c) main_arg13 (by decide)).trans ((W20_of_ne m ρ c main_arg13 (by decide)).trans ((W19_of_ne m ρ c main_arg13 (by decide)).trans ((Cert.Kernel.HostKeep.keep10 (W17 m ρ c) main_arg13 (by decide)).trans ((W17_of_ne m ρ c main_arg13 (by decide)).trans ((W16_of_ne m ρ c main_arg13 (by decide)).trans ((Cert.Kernel.HostKeep.keep8 (W14 m ρ c) main_arg13 (by decide)).trans ((W14_of_ne m ρ c main_arg13 (by decide)).trans ((Cert.Kernel.HostKeep.keep7 (W12 m ρ c) main_arg13 (by decide)).trans ((W12_of_ne m ρ c main_arg13 (by decide)).trans ((Cert.Kernel.HostKeep.keep6 (W10 m ρ c) main_arg13 (by decide)).trans ((W10_of_ne m ρ c main_arg13 (by decide)).trans ((W9_of_ne m ρ c main_arg13 (by decide)).trans ((Cert.Kernel.HostKeep.keep4 (W7 m ρ c) main_arg13 (by decide)).trans ((W7_of_ne m ρ c main_arg13 (by decide)).trans ((W6_of_ne m ρ c main_arg13 (by decide)).trans ((Cert.Kernel.HostKeep.keep2 (W4 m ρ c) main_arg13 (by decide)).trans ((W4_of_ne m ρ c main_arg13 (by decide)).trans ((Cert.Kernel.HostKeep.keep1 (W2 m ρ c) main_arg13 (by decide)).trans ((W2_of_ne m ρ c main_arg13 (by decide)).trans ((Cert.Kernel.HostKeep.keep0 (W0 m ρ c) main_arg13 (by decide)).trans (rfl))))))))))))))))))))))))))))))))))))
theorem W36_main_arg14 (c : Dev nD) : W36 m ρ c (Proc.devRef .tc main_arg14) = m ((c : Thread nD τ).loc main_arg14) :=
  (W36_of_ne m ρ c main_arg14 (by decide)).trans ((Cert.Kernel.HostKeep.keep20 (W34 m ρ c) main_arg14 (by decide)).trans ((W34_of_ne m ρ c main_arg14 (by decide)).trans ((Cert.Kernel.HostKeep.keep19 (W32 m ρ c) main_arg14 (by decide)).trans ((W32_of_ne m ρ c main_arg14 (by decide)).trans ((Cert.Kernel.HostKeep.keep18 (W30 m ρ c) main_arg14 (by decide)).trans ((W30_of_ne m ρ c main_arg14 (by decide)).trans ((W29_of_ne m ρ c main_arg14 (by decide)).trans ((Cert.Kernel.HostKeep.keep16 (W27 m ρ c) main_arg14 (by decide)).trans ((W27_of_ne m ρ c main_arg14 (by decide)).trans ((W26_of_ne m ρ c main_arg14 (by decide)).trans ((Cert.Kernel.HostKeep.keep14 (W24 m ρ c) main_arg14 (by decide)).trans ((W24_of_ne m ρ c main_arg14 (by decide)).trans ((Cert.Kernel.HostKeep.keep13 (W22 m ρ c) main_arg14 (by decide)).trans ((W22_of_ne m ρ c main_arg14 (by decide)).trans ((Cert.Kernel.HostKeep.keep12 (W20 m ρ c) main_arg14 (by decide)).trans ((W20_of_ne m ρ c main_arg14 (by decide)).trans ((W19_of_ne m ρ c main_arg14 (by decide)).trans ((Cert.Kernel.HostKeep.keep10 (W17 m ρ c) main_arg14 (by decide)).trans ((W17_of_ne m ρ c main_arg14 (by decide)).trans ((W16_of_ne m ρ c main_arg14 (by decide)).trans ((Cert.Kernel.HostKeep.keep8 (W14 m ρ c) main_arg14 (by decide)).trans ((W14_of_ne m ρ c main_arg14 (by decide)).trans ((Cert.Kernel.HostKeep.keep7 (W12 m ρ c) main_arg14 (by decide)).trans ((W12_of_ne m ρ c main_arg14 (by decide)).trans ((Cert.Kernel.HostKeep.keep6 (W10 m ρ c) main_arg14 (by decide)).trans ((W10_of_ne m ρ c main_arg14 (by decide)).trans ((W9_of_ne m ρ c main_arg14 (by decide)).trans ((Cert.Kernel.HostKeep.keep4 (W7 m ρ c) main_arg14 (by decide)).trans ((W7_of_ne m ρ c main_arg14 (by decide)).trans ((W6_of_ne m ρ c main_arg14 (by decide)).trans ((Cert.Kernel.HostKeep.keep2 (W4 m ρ c) main_arg14 (by decide)).trans ((W4_of_ne m ρ c main_arg14 (by decide)).trans ((Cert.Kernel.HostKeep.keep1 (W2 m ρ c) main_arg14 (by decide)).trans ((W2_of_ne m ρ c main_arg14 (by decide)).trans ((Cert.Kernel.HostKeep.keep0 (W0 m ρ c) main_arg14 (by decide)).trans (rfl))))))))))))))))))))))))))))))))))))
theorem W36_main_arg15 (c : Dev nD) : W36 m ρ c (Proc.devRef .tc main_arg15) = m ((c : Thread nD τ).loc main_arg15) :=
  (W36_of_ne m ρ c main_arg15 (by decide)).trans ((Cert.Kernel.HostKeep.keep20 (W34 m ρ c) main_arg15 (by decide)).trans ((W34_of_ne m ρ c main_arg15 (by decide)).trans ((Cert.Kernel.HostKeep.keep19 (W32 m ρ c) main_arg15 (by decide)).trans ((W32_of_ne m ρ c main_arg15 (by decide)).trans ((Cert.Kernel.HostKeep.keep18 (W30 m ρ c) main_arg15 (by decide)).trans ((W30_of_ne m ρ c main_arg15 (by decide)).trans ((W29_of_ne m ρ c main_arg15 (by decide)).trans ((Cert.Kernel.HostKeep.keep16 (W27 m ρ c) main_arg15 (by decide)).trans ((W27_of_ne m ρ c main_arg15 (by decide)).trans ((W26_of_ne m ρ c main_arg15 (by decide)).trans ((Cert.Kernel.HostKeep.keep14 (W24 m ρ c) main_arg15 (by decide)).trans ((W24_of_ne m ρ c main_arg15 (by decide)).trans ((Cert.Kernel.HostKeep.keep13 (W22 m ρ c) main_arg15 (by decide)).trans ((W22_of_ne m ρ c main_arg15 (by decide)).trans ((Cert.Kernel.HostKeep.keep12 (W20 m ρ c) main_arg15 (by decide)).trans ((W20_of_ne m ρ c main_arg15 (by decide)).trans ((W19_of_ne m ρ c main_arg15 (by decide)).trans ((Cert.Kernel.HostKeep.keep10 (W17 m ρ c) main_arg15 (by decide)).trans ((W17_of_ne m ρ c main_arg15 (by decide)).trans ((W16_of_ne m ρ c main_arg15 (by decide)).trans ((Cert.Kernel.HostKeep.keep8 (W14 m ρ c) main_arg15 (by decide)).trans ((W14_of_ne m ρ c main_arg15 (by decide)).trans ((Cert.Kernel.HostKeep.keep7 (W12 m ρ c) main_arg15 (by decide)).trans ((W12_of_ne m ρ c main_arg15 (by decide)).trans ((Cert.Kernel.HostKeep.keep6 (W10 m ρ c) main_arg15 (by decide)).trans ((W10_of_ne m ρ c main_arg15 (by decide)).trans ((W9_of_ne m ρ c main_arg15 (by decide)).trans ((Cert.Kernel.HostKeep.keep4 (W7 m ρ c) main_arg15 (by decide)).trans ((W7_of_ne m ρ c main_arg15 (by decide)).trans ((W6_of_ne m ρ c main_arg15 (by decide)).trans ((Cert.Kernel.HostKeep.keep2 (W4 m ρ c) main_arg15 (by decide)).trans ((W4_of_ne m ρ c main_arg15 (by decide)).trans ((Cert.Kernel.HostKeep.keep1 (W2 m ρ c) main_arg15 (by decide)).trans ((W2_of_ne m ρ c main_arg15 (by decide)).trans ((Cert.Kernel.HostKeep.keep0 (W0 m ρ c) main_arg15 (by decide)).trans (rfl))))))))))))))))))))))))))))))))))))
theorem W36_main_arg16 (c : Dev nD) : W36 m ρ c (Proc.devRef .tc main_arg16) = m ((c : Thread nD τ).loc main_arg16) :=
  (W36_of_ne m ρ c main_arg16 (by decide)).trans ((Cert.Kernel.HostKeep.keep20 (W34 m ρ c) main_arg16 (by decide)).trans ((W34_of_ne m ρ c main_arg16 (by decide)).trans ((Cert.Kernel.HostKeep.keep19 (W32 m ρ c) main_arg16 (by decide)).trans ((W32_of_ne m ρ c main_arg16 (by decide)).trans ((Cert.Kernel.HostKeep.keep18 (W30 m ρ c) main_arg16 (by decide)).trans ((W30_of_ne m ρ c main_arg16 (by decide)).trans ((W29_of_ne m ρ c main_arg16 (by decide)).trans ((Cert.Kernel.HostKeep.keep16 (W27 m ρ c) main_arg16 (by decide)).trans ((W27_of_ne m ρ c main_arg16 (by decide)).trans ((W26_of_ne m ρ c main_arg16 (by decide)).trans ((Cert.Kernel.HostKeep.keep14 (W24 m ρ c) main_arg16 (by decide)).trans ((W24_of_ne m ρ c main_arg16 (by decide)).trans ((Cert.Kernel.HostKeep.keep13 (W22 m ρ c) main_arg16 (by decide)).trans ((W22_of_ne m ρ c main_arg16 (by decide)).trans ((Cert.Kernel.HostKeep.keep12 (W20 m ρ c) main_arg16 (by decide)).trans ((W20_of_ne m ρ c main_arg16 (by decide)).trans ((W19_of_ne m ρ c main_arg16 (by decide)).trans ((Cert.Kernel.HostKeep.keep10 (W17 m ρ c) main_arg16 (by decide)).trans ((W17_of_ne m ρ c main_arg16 (by decide)).trans ((W16_of_ne m ρ c main_arg16 (by decide)).trans ((Cert.Kernel.HostKeep.keep8 (W14 m ρ c) main_arg16 (by decide)).trans ((W14_of_ne m ρ c main_arg16 (by decide)).trans ((Cert.Kernel.HostKeep.keep7 (W12 m ρ c) main_arg16 (by decide)).trans ((W12_of_ne m ρ c main_arg16 (by decide)).trans ((Cert.Kernel.HostKeep.keep6 (W10 m ρ c) main_arg16 (by decide)).trans ((W10_of_ne m ρ c main_arg16 (by decide)).trans ((W9_of_ne m ρ c main_arg16 (by decide)).trans ((Cert.Kernel.HostKeep.keep4 (W7 m ρ c) main_arg16 (by decide)).trans ((W7_of_ne m ρ c main_arg16 (by decide)).trans ((W6_of_ne m ρ c main_arg16 (by decide)).trans ((Cert.Kernel.HostKeep.keep2 (W4 m ρ c) main_arg16 (by decide)).trans ((W4_of_ne m ρ c main_arg16 (by decide)).trans ((Cert.Kernel.HostKeep.keep1 (W2 m ρ c) main_arg16 (by decide)).trans ((W2_of_ne m ρ c main_arg16 (by decide)).trans ((Cert.Kernel.HostKeep.keep0 (W0 m ρ c) main_arg16 (by decide)).trans (rfl))))))))))))))))))))))))))))))))))))
theorem W36_main_arg17 (c : Dev nD) : W36 m ρ c (Proc.devRef .tc main_arg17) = m ((c : Thread nD τ).loc main_arg17) :=
  (W36_of_ne m ρ c main_arg17 (by decide)).trans ((Cert.Kernel.HostKeep.keep20 (W34 m ρ c) main_arg17 (by decide)).trans ((W34_of_ne m ρ c main_arg17 (by decide)).trans ((Cert.Kernel.HostKeep.keep19 (W32 m ρ c) main_arg17 (by decide)).trans ((W32_of_ne m ρ c main_arg17 (by decide)).trans ((Cert.Kernel.HostKeep.keep18 (W30 m ρ c) main_arg17 (by decide)).trans ((W30_of_ne m ρ c main_arg17 (by decide)).trans ((W29_of_ne m ρ c main_arg17 (by decide)).trans ((Cert.Kernel.HostKeep.keep16 (W27 m ρ c) main_arg17 (by decide)).trans ((W27_of_ne m ρ c main_arg17 (by decide)).trans ((W26_of_ne m ρ c main_arg17 (by decide)).trans ((Cert.Kernel.HostKeep.keep14 (W24 m ρ c) main_arg17 (by decide)).trans ((W24_of_ne m ρ c main_arg17 (by decide)).trans ((Cert.Kernel.HostKeep.keep13 (W22 m ρ c) main_arg17 (by decide)).trans ((W22_of_ne m ρ c main_arg17 (by decide)).trans ((Cert.Kernel.HostKeep.keep12 (W20 m ρ c) main_arg17 (by decide)).trans ((W20_of_ne m ρ c main_arg17 (by decide)).trans ((W19_of_ne m ρ c main_arg17 (by decide)).trans ((Cert.Kernel.HostKeep.keep10 (W17 m ρ c) main_arg17 (by decide)).trans ((W17_of_ne m ρ c main_arg17 (by decide)).trans ((W16_of_ne m ρ c main_arg17 (by decide)).trans ((Cert.Kernel.HostKeep.keep8 (W14 m ρ c) main_arg17 (by decide)).trans ((W14_of_ne m ρ c main_arg17 (by decide)).trans ((Cert.Kernel.HostKeep.keep7 (W12 m ρ c) main_arg17 (by decide)).trans ((W12_of_ne m ρ c main_arg17 (by decide)).trans ((Cert.Kernel.HostKeep.keep6 (W10 m ρ c) main_arg17 (by decide)).trans ((W10_of_ne m ρ c main_arg17 (by decide)).trans ((W9_of_ne m ρ c main_arg17 (by decide)).trans ((Cert.Kernel.HostKeep.keep4 (W7 m ρ c) main_arg17 (by decide)).trans ((W7_of_ne m ρ c main_arg17 (by decide)).trans ((W6_of_ne m ρ c main_arg17 (by decide)).trans ((Cert.Kernel.HostKeep.keep2 (W4 m ρ c) main_arg17 (by decide)).trans ((W4_of_ne m ρ c main_arg17 (by decide)).trans ((Cert.Kernel.HostKeep.keep1 (W2 m ρ c) main_arg17 (by decide)).trans ((W2_of_ne m ρ c main_arg17 (by decide)).trans ((Cert.Kernel.HostKeep.keep0 (W0 m ρ c) main_arg17 (by decide)).trans (rfl))))))))))))))))))))))))))))))))))))
theorem W36_main_arg18 (c : Dev nD) : W36 m ρ c (Proc.devRef .tc main_arg18) = m ((c : Thread nD τ).loc main_arg18) :=
  ((W36_arr m ρ c 1).trans (((dat20 (V35 m ρ) c).arrAt_in 1 rfl _).trans (A_eq20 (V35 m ρ) c 1))).trans ((Cert.Kernel.HostKeep.keep20 (W34 m ρ c) main_arg18 (by decide)).trans ((W34_of_ne m ρ c main_arg18 (by decide)).trans ((Cert.Kernel.HostKeep.keep19 (W32 m ρ c) main_arg18 (by decide)).trans ((W32_of_ne m ρ c main_arg18 (by decide)).trans ((Cert.Kernel.HostKeep.keep18 (W30 m ρ c) main_arg18 (by decide)).trans ((W30_of_ne m ρ c main_arg18 (by decide)).trans ((W29_of_ne m ρ c main_arg18 (by decide)).trans ((Cert.Kernel.HostKeep.keep16 (W27 m ρ c) main_arg18 (by decide)).trans ((W27_of_ne m ρ c main_arg18 (by decide)).trans ((W26_of_ne m ρ c main_arg18 (by decide)).trans ((Cert.Kernel.HostKeep.keep14 (W24 m ρ c) main_arg18 (by decide)).trans ((W24_of_ne m ρ c main_arg18 (by decide)).trans ((Cert.Kernel.HostKeep.keep13 (W22 m ρ c) main_arg18 (by decide)).trans ((W22_of_ne m ρ c main_arg18 (by decide)).trans ((Cert.Kernel.HostKeep.keep12 (W20 m ρ c) main_arg18 (by decide)).trans ((W20_of_ne m ρ c main_arg18 (by decide)).trans ((W19_of_ne m ρ c main_arg18 (by decide)).trans ((Cert.Kernel.HostKeep.keep10 (W17 m ρ c) main_arg18 (by decide)).trans ((W17_of_ne m ρ c main_arg18 (by decide)).trans ((W16_of_ne m ρ c main_arg18 (by decide)).trans ((Cert.Kernel.HostKeep.keep8 (W14 m ρ c) main_arg18 (by decide)).trans ((W14_of_ne m ρ c main_arg18 (by decide)).trans ((Cert.Kernel.HostKeep.keep7 (W12 m ρ c) main_arg18 (by decide)).trans ((W12_of_ne m ρ c main_arg18 (by decide)).trans ((Cert.Kernel.HostKeep.keep6 (W10 m ρ c) main_arg18 (by decide)).trans ((W10_of_ne m ρ c main_arg18 (by decide)).trans ((W9_of_ne m ρ c main_arg18 (by decide)).trans ((Cert.Kernel.HostKeep.keep4 (W7 m ρ c) main_arg18 (by decide)).trans ((W7_of_ne m ρ c main_arg18 (by decide)).trans ((W6_of_ne m ρ c main_arg18 (by decide)).trans ((Cert.Kernel.HostKeep.keep2 (W4 m ρ c) main_arg18 (by decide)).trans ((W4_of_ne m ρ c main_arg18 (by decide)).trans ((Cert.Kernel.HostKeep.keep1 (W2 m ρ c) main_arg18 (by decide)).trans ((W2_of_ne m ρ c main_arg18 (by decide)).trans ((Cert.Kernel.HostKeep.keep0 (W0 m ρ c) main_arg18 (by decide)).trans (rfl))))))))))))))))))))))))))))))))))))
theorem W36_main_arg19 (c : Dev nD) : W36 m ρ c (Proc.devRef .tc main_arg19) = m ((c : Thread nD τ).loc main_arg19) :=
  (W36_of_ne m ρ c main_arg19 (by decide)).trans ((Cert.Kernel.HostKeep.keep20 (W34 m ρ c) main_arg19 (by decide)).trans ((W34_of_ne m ρ c main_arg19 (by decide)).trans ((Cert.Kernel.HostKeep.keep19 (W32 m ρ c) main_arg19 (by decide)).trans ((W32_of_ne m ρ c main_arg19 (by decide)).trans ((Cert.Kernel.HostKeep.keep18 (W30 m ρ c) main_arg19 (by decide)).trans ((W30_of_ne m ρ c main_arg19 (by decide)).trans ((W29_of_ne m ρ c main_arg19 (by decide)).trans ((Cert.Kernel.HostKeep.keep16 (W27 m ρ c) main_arg19 (by decide)).trans ((W27_of_ne m ρ c main_arg19 (by decide)).trans ((W26_of_ne m ρ c main_arg19 (by decide)).trans ((Cert.Kernel.HostKeep.keep14 (W24 m ρ c) main_arg19 (by decide)).trans ((W24_of_ne m ρ c main_arg19 (by decide)).trans ((Cert.Kernel.HostKeep.keep13 (W22 m ρ c) main_arg19 (by decide)).trans ((W22_of_ne m ρ c main_arg19 (by decide)).trans ((Cert.Kernel.HostKeep.keep12 (W20 m ρ c) main_arg19 (by decide)).trans ((W20_of_ne m ρ c main_arg19 (by decide)).trans ((W19_of_ne m ρ c main_arg19 (by decide)).trans ((Cert.Kernel.HostKeep.keep10 (W17 m ρ c) main_arg19 (by decide)).trans ((W17_of_ne m ρ c main_arg19 (by decide)).trans ((W16_of_ne m ρ c main_arg19 (by decide)).trans ((Cert.Kernel.HostKeep.keep8 (W14 m ρ c) main_arg19 (by decide)).trans ((W14_of_ne m ρ c main_arg19 (by decide)).trans ((Cert.Kernel.HostKeep.keep7 (W12 m ρ c) main_arg19 (by decide)).trans ((W12_of_ne m ρ c main_arg19 (by decide)).trans ((Cert.Kernel.HostKeep.keep6 (W10 m ρ c) main_arg19 (by decide)).trans ((W10_of_ne m ρ c main_arg19 (by decide)).trans ((W9_of_ne m ρ c main_arg19 (by decide)).trans ((Cert.Kernel.HostKeep.keep4 (W7 m ρ c) main_arg19 (by decide)).trans ((W7_of_ne m ρ c main_arg19 (by decide)).trans ((W6_of_ne m ρ c main_arg19 (by decide)).trans ((Cert.Kernel.HostKeep.keep2 (W4 m ρ c) main_arg19 (by decide)).trans ((W4_of_ne m ρ c main_arg19 (by decide)).trans ((Cert.Kernel.HostKeep.keep1 (W2 m ρ c) main_arg19 (by decide)).trans ((W2_of_ne m ρ c main_arg19 (by decide)).trans ((Cert.Kernel.HostKeep.keep0 (W0 m ρ c) main_arg19 (by decide)).trans (rfl))))))))))))))))))))))))))))))))))))
theorem W36_main_arg20 (c : Dev nD) : W36 m ρ c (Proc.devRef .tc main_arg20) = m ((c : Thread nD τ).loc main_arg20) :=
  ((W36_arr m ρ c 3).trans (((dat20 (V35 m ρ) c).arrAt_in 3 rfl _).trans (A_eq20 (V35 m ρ) c 3))).trans ((Cert.Kernel.HostKeep.keep20 (W34 m ρ c) main_arg20 (by decide)).trans ((W34_of_ne m ρ c main_arg20 (by decide)).trans ((Cert.Kernel.HostKeep.keep19 (W32 m ρ c) main_arg20 (by decide)).trans ((W32_of_ne m ρ c main_arg20 (by decide)).trans ((Cert.Kernel.HostKeep.keep18 (W30 m ρ c) main_arg20 (by decide)).trans ((W30_of_ne m ρ c main_arg20 (by decide)).trans ((W29_of_ne m ρ c main_arg20 (by decide)).trans ((Cert.Kernel.HostKeep.keep16 (W27 m ρ c) main_arg20 (by decide)).trans ((W27_of_ne m ρ c main_arg20 (by decide)).trans ((W26_of_ne m ρ c main_arg20 (by decide)).trans ((Cert.Kernel.HostKeep.keep14 (W24 m ρ c) main_arg20 (by decide)).trans ((W24_of_ne m ρ c main_arg20 (by decide)).trans ((Cert.Kernel.HostKeep.keep13 (W22 m ρ c) main_arg20 (by decide)).trans ((W22_of_ne m ρ c main_arg20 (by decide)).trans ((Cert.Kernel.HostKeep.keep12 (W20 m ρ c) main_arg20 (by decide)).trans ((W20_of_ne m ρ c main_arg20 (by decide)).trans ((W19_of_ne m ρ c main_arg20 (by decide)).trans ((Cert.Kernel.HostKeep.keep10 (W17 m ρ c) main_arg20 (by decide)).trans ((W17_of_ne m ρ c main_arg20 (by decide)).trans ((W16_of_ne m ρ c main_arg20 (by decide)).trans ((Cert.Kernel.HostKeep.keep8 (W14 m ρ c) main_arg20 (by decide)).trans ((W14_of_ne m ρ c main_arg20 (by decide)).trans ((Cert.Kernel.HostKeep.keep7 (W12 m ρ c) main_arg20 (by decide)).trans ((W12_of_ne m ρ c main_arg20 (by decide)).trans ((Cert.Kernel.HostKeep.keep6 (W10 m ρ c) main_arg20 (by decide)).trans ((W10_of_ne m ρ c main_arg20 (by decide)).trans ((W9_of_ne m ρ c main_arg20 (by decide)).trans ((Cert.Kernel.HostKeep.keep4 (W7 m ρ c) main_arg20 (by decide)).trans ((W7_of_ne m ρ c main_arg20 (by decide)).trans ((W6_of_ne m ρ c main_arg20 (by decide)).trans ((Cert.Kernel.HostKeep.keep2 (W4 m ρ c) main_arg20 (by decide)).trans ((W4_of_ne m ρ c main_arg20 (by decide)).trans ((Cert.Kernel.HostKeep.keep1 (W2 m ρ c) main_arg20 (by decide)).trans ((W2_of_ne m ρ c main_arg20 (by decide)).trans ((Cert.Kernel.HostKeep.keep0 (W0 m ρ c) main_arg20 (by decide)).trans (rfl))))))))))))))))))))))))))))))))))))
theorem W36_main_arg21 (c : Dev nD) : W36 m ρ c (Proc.devRef .tc main_arg21) = m ((c : Thread nD τ).loc main_arg21) :=
  (W36_of_ne m ρ c main_arg21 (by decide)).trans ((Cert.Kernel.HostKeep.keep20 (W34 m ρ c) main_arg21 (by decide)).trans ((W34_of_ne m ρ c main_arg21 (by decide)).trans ((Cert.Kernel.HostKeep.keep19 (W32 m ρ c) main_arg21 (by decide)).trans ((W32_of_ne m ρ c main_arg21 (by decide)).trans ((Cert.Kernel.HostKeep.keep18 (W30 m ρ c) main_arg21 (by decide)).trans ((W30_of_ne m ρ c main_arg21 (by decide)).trans ((W29_of_ne m ρ c main_arg21 (by decide)).trans ((Cert.Kernel.HostKeep.keep16 (W27 m ρ c) main_arg21 (by decide)).trans ((W27_of_ne m ρ c main_arg21 (by decide)).trans ((W26_of_ne m ρ c main_arg21 (by decide)).trans ((Cert.Kernel.HostKeep.keep14 (W24 m ρ c) main_arg21 (by decide)).trans ((W24_of_ne m ρ c main_arg21 (by decide)).trans ((Cert.Kernel.HostKeep.keep13 (W22 m ρ c) main_arg21 (by decide)).trans ((W22_of_ne m ρ c main_arg21 (by decide)).trans ((Cert.Kernel.HostKeep.keep12 (W20 m ρ c) main_arg21 (by decide)).trans ((W20_of_ne m ρ c main_arg21 (by decide)).trans ((W19_of_ne m ρ c main_arg21 (by decide)).trans ((Cert.Kernel.HostKeep.keep10 (W17 m ρ c) main_arg21 (by decide)).trans ((W17_of_ne m ρ c main_arg21 (by decide)).trans ((W16_of_ne m ρ c main_arg21 (by decide)).trans ((Cert.Kernel.HostKeep.keep8 (W14 m ρ c) main_arg21 (by decide)).trans ((W14_of_ne m ρ c main_arg21 (by decide)).trans ((Cert.Kernel.HostKeep.keep7 (W12 m ρ c) main_arg21 (by decide)).trans ((W12_of_ne m ρ c main_arg21 (by decide)).trans ((Cert.Kernel.HostKeep.keep6 (W10 m ρ c) main_arg21 (by decide)).trans ((W10_of_ne m ρ c main_arg21 (by decide)).trans ((W9_of_ne m ρ c main_arg21 (by decide)).trans ((Cert.Kernel.HostKeep.keep4 (W7 m ρ c) main_arg21 (by decide)).trans ((W7_of_ne m ρ c main_arg21 (by decide)).trans ((W6_of_ne m ρ c main_arg21 (by decide)).trans ((Cert.Kernel.HostKeep.keep2 (W4 m ρ c) main_arg21 (by decide)).trans ((W4_of_ne m ρ c main_arg21 (by decide)).trans ((Cert.Kernel.HostKeep.keep1 (W2 m ρ c) main_arg21 (by decide)).trans ((W2_of_ne m ρ c main_arg21 (by decide)).trans ((Cert.Kernel.HostKeep.keep0 (W0 m ρ c) main_arg21 (by decide)).trans (rfl))))))))))))))))))))))))))))))))))))
theorem W36_main_arg22 (c : Dev nD) : W36 m ρ c (Proc.devRef .tc main_arg22) = m ((c : Thread nD τ).loc main_arg22) :=
  (W36_of_ne m ρ c main_arg22 (by decide)).trans ((Cert.Kernel.HostKeep.keep20 (W34 m ρ c) main_arg22 (by decide)).trans ((W34_of_ne m ρ c main_arg22 (by decide)).trans ((Cert.Kernel.HostKeep.keep19 (W32 m ρ c) main_arg22 (by decide)).trans ((W32_of_ne m ρ c main_arg22 (by decide)).trans ((Cert.Kernel.HostKeep.keep18 (W30 m ρ c) main_arg22 (by decide)).trans ((W30_of_ne m ρ c main_arg22 (by decide)).trans ((W29_of_ne m ρ c main_arg22 (by decide)).trans ((Cert.Kernel.HostKeep.keep16 (W27 m ρ c) main_arg22 (by decide)).trans ((W27_of_ne m ρ c main_arg22 (by decide)).trans ((W26_of_ne m ρ c main_arg22 (by decide)).trans ((Cert.Kernel.HostKeep.keep14 (W24 m ρ c) main_arg22 (by decide)).trans ((W24_of_ne m ρ c main_arg22 (by decide)).trans ((Cert.Kernel.HostKeep.keep13 (W22 m ρ c) main_arg22 (by decide)).trans ((W22_of_ne m ρ c main_arg22 (by decide)).trans ((Cert.Kernel.HostKeep.keep12 (W20 m ρ c) main_arg22 (by decide)).trans ((W20_of_ne m ρ c main_arg22 (by decide)).trans ((W19_of_ne m ρ c main_arg22 (by decide)).trans ((Cert.Kernel.HostKeep.keep10 (W17 m ρ c) main_arg22 (by decide)).trans ((W17_of_ne m ρ c main_arg22 (by decide)).trans ((W16_of_ne m ρ c main_arg22 (by decide)).trans ((Cert.Kernel.HostKeep.keep8 (W14 m ρ c) main_arg22 (by decide)).trans ((W14_of_ne m ρ c main_arg22 (by decide)).trans ((Cert.Kernel.HostKeep.keep7 (W12 m ρ c) main_arg22 (by decide)).trans ((W12_of_ne m ρ c main_arg22 (by decide)).trans ((Cert.Kernel.HostKeep.keep6 (W10 m ρ c) main_arg22 (by decide)).trans ((W10_of_ne m ρ c main_arg22 (by decide)).trans ((W9_of_ne m ρ c main_arg22 (by decide)).trans ((Cert.Kernel.HostKeep.keep4 (W7 m ρ c) main_arg22 (by decide)).trans ((W7_of_ne m ρ c main_arg22 (by decide)).trans ((W6_of_ne m ρ c main_arg22 (by decide)).trans ((Cert.Kernel.HostKeep.keep2 (W4 m ρ c) main_arg22 (by decide)).trans ((W4_of_ne m ρ c main_arg22 (by decide)).trans ((Cert.Kernel.HostKeep.keep1 (W2 m ρ c) main_arg22 (by decide)).trans ((W2_of_ne m ρ c main_arg22 (by decide)).trans ((Cert.Kernel.HostKeep.keep0 (W0 m ρ c) main_arg22 (by decide)).trans (rfl))))))))))))))))))))))))))))))))))))

end Cert.Kernel.Gen

end
-- ==== Proof.KernelIdealHostKeep.lean ====
/-
  For each host stretch of the program: the list of the buffers its operations write, that every operation writes one of
  them, and hence that a buffer not in the list holds after the stretch what it held before.
-/
import proofs.«418542_j22608707846200_1_alg».proof.Proof.Gen.KernelIdeal.Launch
import Idealize.ShloMosaic.Lib.StableHlo.Run

set_option maxRecDepth 16384

noncomputable section

namespace Cert.KernelIdeal.HostKeep

open Idealize.ShloMosaic Idealize.ShloMosaic.TcCoe Idealize.ShloMosaic.StableHlo Cert.KernelIdeal Cert.KernelIdeal.Gen

variable {F : FTy → Type} [FloatOps F]

/-- The buffers stretch 0 writes. -/
abbrev written0 : List (Ref sig .tc) := [main_v0, main_v1, main_v2, main_v3]

theorem writes0 : (hostOps0 (F := F) : List (HloOp τ sig (Elt F))).Forall fun op => op.writes ⊆ ((written0).map (Proc.devRef (τ := τ) .tc)).toFinset := by
  simp only [hostOps0, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 0 does not write keeps its contents through it. -/
theorem keep0 (W : Valuation τ sig (Elt F)) (r : Ref sig .tc) (h : r ∉ written0) :
    StableHlo.after (hostOps0 (F := F)) W (Proc.devRef .tc r) = W (Proc.devRef .tc r) :=
  after_of_writes_sub (hostOps0 (F := F)) W writes0 h

/-- The buffers stretch 1 writes. -/
abbrev written1 : List (Ref sig .tc) := [main_v5, main_v6, main_v7, main_v8, main_v9, main_v10, main_v11, main_v12, main_v13, main_v14, main_v15, main_v16, main_v17, main_cst, main_v18, main_v19]

theorem writes1 : (hostOps1 (F := F) : List (HloOp τ sig (Elt F))).Forall fun op => op.writes ⊆ ((written1).map (Proc.devRef (τ := τ) .tc)).toFinset := by
  simp only [hostOps1, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 1 does not write keeps its contents through it. -/
theorem keep1 (W : Valuation τ sig (Elt F)) (r : Ref sig .tc) (h : r ∉ written1) :
    StableHlo.after (hostOps1 (F := F)) W (Proc.devRef .tc r) = W (Proc.devRef .tc r) :=
  after_of_writes_sub (hostOps1 (F := F)) W writes1 h

/-- The buffers stretch 2 writes. -/
abbrev written2 : List (Ref sig .tc) := [main_cst_0, main_v21, main_c, main_v22, main_v23, main_c_1, main_v24, main_v25, main_v26, main_v27, main_v28, main_cst_2, main_v29, main_v30, main_v31, main_c_3, main_v32, main_v33, main_c_4, main_v34, main_v35, main_v36, main_v37, main_v38, main_v39, main_c_5, main_v40, main_v41, main_c_6, main_v42, main_v43, main_v44, main_v45, main_v46, main_v47, main_c_7, main_v48, main_v49, main_c_8, main_v50, main_v51, main_v52, main_v53, main_v54, main_v55, main_v56, main_v57, main_cst_9, main_v58, main_c_10, main_v59, main_v60, main_c_11, main_v61, main_v62, main_v63, main_v64, main_v65, main_v66, main_v67, main_v68, main_v69]

theorem writes2 : (hostOps2 (F := F) : List (HloOp τ sig (Elt F))).Forall fun op => op.writes ⊆ ((written2).map (Proc.devRef (τ := τ) .tc)).toFinset := by
  simp only [hostOps2, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 2 does not write keeps its contents through it. -/
theorem keep2 (W : Valuation τ sig (Elt F)) (r : Ref sig .tc) (h : r ∉ written2) :
    StableHlo.after (hostOps2 (F := F)) W (Proc.devRef .tc r) = W (Proc.devRef .tc r) :=
  after_of_writes_sub (hostOps2 (F := F)) W writes2 h

/-- The buffers stretch 4 writes. -/
abbrev written4 : List (Ref sig .tc) := [main_cst_12, main_v72, main_c_13, main_v73, main_v74, main_c_14, main_v75, main_v76, main_v77, main_v78, main_v79, main_cst_15, main_v80, main_v81, main_v82, main_c_16, main_v83, main_v84, main_c_17, main_v85, main_v86, main_v87, main_v88, main_v89, main_v90, main_c_18, main_v91, main_v92, main_c_19, main_v93, main_v94, main_v95, main_v96, main_v97, main_v98, main_c_20, main_v99, main_v100, main_c_21, main_v101, main_v102, main_v103, main_v104, main_v105, main_v106, main_v107, main_v108, main_cst_22, main_v109, main_c_23, main_v110, main_v111, main_c_24, main_v112, main_v113, main_v114, main_v115, main_v116, main_v117, main_v118, main_v119, main_v120]

theorem writes4 : (hostOps4 (F := F) : List (HloOp τ sig (Elt F))).Forall fun op => op.writes ⊆ ((written4).map (Proc.devRef (τ := τ) .tc)).toFinset := by
  simp only [hostOps4, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 4 does not write keeps its contents through it. -/
theorem keep4 (W : Valuation τ sig (Elt F)) (r : Ref sig .tc) (h : r ∉ written4) :
    StableHlo.after (hostOps4 (F := F)) W (Proc.devRef .tc r) = W (Proc.devRef .tc r) :=
  after_of_writes_sub (hostOps4 (F := F)) W writes4 h

/-- The buffers stretch 6 writes. -/
abbrev written6 : List (Ref sig .tc) := [main_cst_25, main_v123, main_c_26, main_v124, main_v125, main_c_27, main_v126, main_v127, main_v128, main_v129, main_v130, main_cst_28, main_v131, main_v132, main_v133, main_c_29, main_v134, main_v135, main_c_30, main_v136, main_v137, main_v138, main_v139, main_v140, main_v141, main_c_31, main_v142, main_v143, main_c_32, main_v144, main_v145, main_v146, main_v147, main_v148, main_v149, main_c_33, main_v150, main_v151, main_c_34, main_v152, main_v153, main_v154, main_v155, main_v156, main_v157, main_v158, main_v159, main_cst_35, main_v160, main_c_36, main_v161, main_v162, main_c_37, main_v163, main_v164, main_v165, main_v166, main_v167, main_v168, main_v169, main_v170, main_v171]

theorem writes6 : (hostOps6 (F := F) : List (HloOp τ sig (Elt F))).Forall fun op => op.writes ⊆ ((written6).map (Proc.devRef (τ := τ) .tc)).toFinset := by
  simp only [hostOps6, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 6 does not write keeps its contents through it. -/
theorem keep6 (W : Valuation τ sig (Elt F)) (r : Ref sig .tc) (h : r ∉ written6) :
    StableHlo.after (hostOps6 (F := F)) W (Proc.devRef .tc r) = W (Proc.devRef .tc r) :=
  after_of_writes_sub (hostOps6 (F := F)) W writes6 h

/-- The buffers stretch 7 writes. -/
abbrev written7 : List (Ref sig .tc) := [main_v173, main_v174, main_v175, main_v176, main_v177, main_v178, main_v179, main_v180, main_v181, main_v182, main_cst_38, main_v183, main_v184]

theorem writes7 : (hostOps7 (F := F) : List (HloOp τ sig (Elt F))).Forall fun op => op.writes ⊆ ((written7).map (Proc.devRef (τ := τ) .tc)).toFinset := by
  simp only [hostOps7, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 7 does not write keeps its contents through it. -/
theorem keep7 (W : Valuation τ sig (Elt F)) (r : Ref sig .tc) (h : r ∉ written7) :
    StableHlo.after (hostOps7 (F := F)) W (Proc.devRef .tc r) = W (Proc.devRef .tc r) :=
  after_of_writes_sub (hostOps7 (F := F)) W writes7 h

/-- The buffers stretch 8 writes. -/
abbrev written8 : List (Ref sig .tc) := [main_cst_39, main_v186, main_c_40, main_v187, main_v188, main_c_41, main_v189, main_v190, main_v191, main_v192, main_v193, main_cst_42, main_v194, main_v195, main_v196, main_c_43, main_v197, main_v198, main_c_44, main_v199, main_v200, main_v201, main_v202, main_v203, main_v204, main_c_45, main_v205, main_v206, main_c_46, main_v207, main_v208, main_v209, main_v210, main_v211, main_v212, main_c_47, main_v213, main_v214, main_c_48, main_v215, main_v216, main_v217, main_v218, main_v219, main_v220, main_v221, main_v222, main_cst_49, main_v223, main_c_50, main_v224, main_v225, main_c_51, main_v226, main_v227, main_v228, main_v229, main_v230, main_v231, main_v232, main_v233, main_v234]

theorem writes8 : (hostOps8 (F := F) : List (HloOp τ sig (Elt F))).Forall fun op => op.writes ⊆ ((written8).map (Proc.devRef (τ := τ) .tc)).toFinset := by
  simp only [hostOps8, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 8 does not write keeps its contents through it. -/
theorem keep8 (W : Valuation τ sig (Elt F)) (r : Ref sig .tc) (h : r ∉ written8) :
    StableHlo.after (hostOps8 (F := F)) W (Proc.devRef .tc r) = W (Proc.devRef .tc r) :=
  after_of_writes_sub (hostOps8 (F := F)) W writes8 h

/-- The buffers stretch 10 writes. -/
abbrev written10 : List (Ref sig .tc) := [main_cst_52, main_v237, main_c_53, main_v238, main_v239, main_c_54, main_v240, main_v241, main_v242, main_v243, main_v244, main_cst_55, main_v245, main_v246, main_v247, main_c_56, main_v248, main_v249, main_c_57, main_v250, main_v251, main_v252, main_v253, main_v254, main_v255, main_c_58, main_v256, main_v257, main_c_59, main_v258, main_v259, main_v260, main_v261, main_v262, main_v263, main_c_60, main_v264, main_v265, main_c_61, main_v266, main_v267, main_v268, main_v269, main_v270, main_v271, main_v272, main_v273, main_cst_62, main_v274, main_c_63, main_v275, main_v276, main_c_64, main_v277, main_v278, main_v279, main_v280, main_v281, main_v282, main_v283, main_v284, main_v285]

theorem writes10 : (hostOps10 (F := F) : List (HloOp τ sig (Elt F))).Forall fun op => op.writes ⊆ ((written10).map (Proc.devRef (τ := τ) .tc)).toFinset := by
  simp only [hostOps10, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 10 does not write keeps its contents through it. -/
theorem keep10 (W : Valuation τ sig (Elt F)) (r : Ref sig .tc) (h : r ∉ written10) :
    StableHlo.after (hostOps10 (F := F)) W (Proc.devRef .tc r) = W (Proc.devRef .tc r) :=
  after_of_writes_sub (hostOps10 (F := F)) W writes10 h

/-- The buffers stretch 12 writes. -/
abbrev written12 : List (Ref sig .tc) := [main_cst_65, main_v288, main_c_66, main_v289, main_v290, main_c_67, main_v291, main_v292, main_v293, main_v294, main_v295, main_cst_68, main_v296, main_v297, main_v298, main_c_69, main_v299, main_v300, main_c_70, main_v301, main_v302, main_v303, main_v304, main_v305, main_v306, main_c_71, main_v307, main_v308, main_c_72, main_v309, main_v310, main_v311, main_v312, main_v313, main_v314, main_c_73, main_v315, main_v316, main_c_74, main_v317, main_v318, main_v319, main_v320, main_v321, main_v322, main_v323, main_v324, main_cst_75, main_v325, main_c_76, main_v326, main_v327, main_c_77, main_v328, main_v329, main_v330, main_v331, main_v332, main_v333, main_v334, main_v335, main_v336]

theorem writes12 : (hostOps12 (F := F) : List (HloOp τ sig (Elt F))).Forall fun op => op.writes ⊆ ((written12).map (Proc.devRef (τ := τ) .tc)).toFinset := by
  simp only [hostOps12, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 12 does not write keeps its contents through it. -/
theorem keep12 (W : Valuation τ sig (Elt F)) (r : Ref sig .tc) (h : r ∉ written12) :
    StableHlo.after (hostOps12 (F := F)) W (Proc.devRef .tc r) = W (Proc.devRef .tc r) :=
  after_of_writes_sub (hostOps12 (F := F)) W writes12 h

/-- The buffers stretch 13 writes. -/
abbrev written13 : List (Ref sig .tc) := [main_v338, main_v339, main_v340, main_v341, main_v342, main_v343, main_v344, main_v345, main_v346, main_v347, main_cst_78, main_v348, main_v349]

theorem writes13 : (hostOps13 (F := F) : List (HloOp τ sig (Elt F))).Forall fun op => op.writes ⊆ ((written13).map (Proc.devRef (τ := τ) .tc)).toFinset := by
  simp only [hostOps13, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 13 does not write keeps its contents through it. -/
theorem keep13 (W : Valuation τ sig (Elt F)) (r : Ref sig .tc) (h : r ∉ written13) :
    StableHlo.after (hostOps13 (F := F)) W (Proc.devRef .tc r) = W (Proc.devRef .tc r) :=
  after_of_writes_sub (hostOps13 (F := F)) W writes13 h

/-- The buffers stretch 14 writes. -/
abbrev written14 : List (Ref sig .tc) := [main_cst_79, main_v351, main_c_80, main_v352, main_v353, main_c_81, main_v354, main_v355, main_v356, main_v357, main_v358, main_cst_82, main_v359, main_v360, main_v361, main_c_83, main_v362, main_v363, main_c_84, main_v364, main_v365, main_v366, main_v367, main_v368, main_v369, main_c_85, main_v370, main_v371, main_c_86, main_v372, main_v373, main_v374, main_v375, main_v376, main_v377, main_c_87, main_v378, main_v379, main_c_88, main_v380, main_v381, main_v382, main_v383, main_v384, main_v385, main_v386, main_v387, main_cst_89, main_v388, main_c_90, main_v389, main_v390, main_c_91, main_v391, main_v392, main_v393, main_v394, main_v395, main_v396, main_v397, main_v398, main_v399]

theorem writes14 : (hostOps14 (F := F) : List (HloOp τ sig (Elt F))).Forall fun op => op.writes ⊆ ((written14).map (Proc.devRef (τ := τ) .tc)).toFinset := by
  simp only [hostOps14, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 14 does not write keeps its contents through it. -/
theorem keep14 (W : Valuation τ sig (Elt F)) (r : Ref sig .tc) (h : r ∉ written14) :
    StableHlo.after (hostOps14 (F := F)) W (Proc.devRef .tc r) = W (Proc.devRef .tc r) :=
  after_of_writes_sub (hostOps14 (F := F)) W writes14 h

/-- The buffers stretch 16 writes. -/
abbrev written16 : List (Ref sig .tc) := [main_cst_92, main_v402, main_c_93, main_v403, main_v404, main_c_94, main_v405, main_v406, main_v407, main_v408, main_v409, main_cst_95, main_v410, main_v411, main_v412, main_c_96, main_v413, main_v414, main_c_97, main_v415, main_v416, main_v417, main_v418, main_v419, main_v420, main_c_98, main_v421, main_v422, main_c_99, main_v423, main_v424, main_v425, main_v426, main_v427, main_v428, main_c_100, main_v429, main_v430, main_c_101, main_v431, main_v432, main_v433, main_v434, main_v435, main_v436, main_v437, main_v438, main_cst_102, main_v439, main_c_103, main_v440, main_v441, main_c_104, main_v442, main_v443, main_v444, main_v445, main_v446, main_v447, main_v448, main_v449, main_v450]

theorem writes16 : (hostOps16 (F := F) : List (HloOp τ sig (Elt F))).Forall fun op => op.writes ⊆ ((written16).map (Proc.devRef (τ := τ) .tc)).toFinset := by
  simp only [hostOps16, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 16 does not write keeps its contents through it. -/
theorem keep16 (W : Valuation τ sig (Elt F)) (r : Ref sig .tc) (h : r ∉ written16) :
    StableHlo.after (hostOps16 (F := F)) W (Proc.devRef .tc r) = W (Proc.devRef .tc r) :=
  after_of_writes_sub (hostOps16 (F := F)) W writes16 h

/-- The buffers stretch 18 writes. -/
abbrev written18 : List (Ref sig .tc) := [main_cst_105, main_v453, main_c_106, main_v454, main_v455, main_c_107, main_v456, main_v457, main_v458, main_v459, main_v460, main_cst_108, main_v461, main_v462, main_v463, main_c_109, main_v464, main_v465, main_c_110, main_v466, main_v467, main_v468, main_v469, main_v470, main_v471, main_c_111, main_v472, main_v473, main_c_112, main_v474, main_v475, main_v476, main_v477, main_v478, main_v479, main_c_113, main_v480, main_v481, main_c_114, main_v482, main_v483, main_v484, main_v485, main_v486, main_v487, main_v488, main_v489, main_cst_115, main_v490, main_c_116, main_v491, main_v492, main_c_117, main_v493, main_v494, main_v495, main_v496, main_v497, main_v498, main_v499, main_v500, main_v501]

theorem writes18 : (hostOps18 (F := F) : List (HloOp τ sig (Elt F))).Forall fun op => op.writes ⊆ ((written18).map (Proc.devRef (τ := τ) .tc)).toFinset := by
  simp only [hostOps18, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 18 does not write keeps its contents through it. -/
theorem keep18 (W : Valuation τ sig (Elt F)) (r : Ref sig .tc) (h : r ∉ written18) :
    StableHlo.after (hostOps18 (F := F)) W (Proc.devRef .tc r) = W (Proc.devRef .tc r) :=
  after_of_writes_sub (hostOps18 (F := F)) W writes18 h

/-- The buffers stretch 19 writes. -/
abbrev written19 : List (Ref sig .tc) := [main_cst_118, main_v503, main_c_119, main_v504, main_v505, main_c_120, main_v506, main_v507, main_v508, main_v509, main_cst_121, main_v510, main_v511, main_cst_122, main_v512, main_c_123, main_v513, main_v514, main_c_124, main_v515, main_v516, main_v517, main_v518, main_v519, main_cst_125, main_v520, main_v521, main_v522, main_v523, main_v524, main_cst_126, main_v525, main_c_127, main_v526, main_v527, main_c_128, main_v528, main_v529, main_v530, main_v531, main_cst_129, main_v532, main_v533, main_cst_130, main_v534, main_c_131, main_v535, main_v536, main_c_132, main_v537, main_v538, main_v539, main_v540, main_v541, main_cst_133, main_v542, main_v543, main_v544, main_v545, main_v546]

theorem writes19 : (hostOps19 (F := F) : List (HloOp τ sig (Elt F))).Forall fun op => op.writes ⊆ ((written19).map (Proc.devRef (τ := τ) .tc)).toFinset := by
  simp only [hostOps19, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 19 does not write keeps its contents through it. -/
theorem keep19 (W : Valuation τ sig (Elt F)) (r : Ref sig .tc) (h : r ∉ written19) :
    StableHlo.after (hostOps19 (F := F)) W (Proc.devRef .tc r) = W (Proc.devRef .tc r) :=
  after_of_writes_sub (hostOps19 (F := F)) W writes19 h

/-- The buffers stretch 20 writes. -/
abbrev written20 : List (Ref sig .tc) := [main_v548, main_v549, main_v550]

theorem writes20 : (hostOps20 (F := F) : List (HloOp τ sig (Elt F))).Forall fun op => op.writes ⊆ ((written20).map (Proc.devRef (τ := τ) .tc)).toFinset := by
  simp only [hostOps20, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- A buffer stretch 20 does not write keeps its contents through it. -/
theorem keep20 (W : Valuation τ sig (Elt F)) (r : Ref sig .tc) (h : r ∉ written20) :
    StableHlo.after (hostOps20 (F := F)) W (Proc.devRef .tc r) = W (Proc.devRef .tc r) :=
  after_of_writes_sub (hostOps20 (F := F)) W writes20 h

end Cert.KernelIdeal.HostKeep

end
-- ==== Proof.KernelIdealFrameArgs.lean ====
/-
  Each argument array of @main holds at the last segment boundary what it held at launch: no host stretch writes it (it is
  not in the stretch's list of written buffers), a region that reads it leaves an input window's array as it found it, and
  every other region leaves every buffer that is not one of its windows' arrays alone. These are the 23 facts the frame's
  last step reads the arguments back with; they carry the names that step cites.
-/
import proofs.«418542_j22608707846200_1_alg».proof.Proof.KernelIdealFrameBoundaries
import proofs.«418542_j22608707846200_1_alg».proof.Proof.KernelIdealHostKeep

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem W36_main_arg0 (c : Dev nD) : W36 m ρ c (Proc.devRef .tc main_arg0) = m ((c : Thread nD τ).loc main_arg0) :=
  (W36_of_ne m ρ c main_arg0 (by decide)).trans ((Cert.KernelIdeal.HostKeep.keep20 (W34 m ρ c) main_arg0 (by decide)).trans ((W34_of_ne m ρ c main_arg0 (by decide)).trans ((Cert.KernelIdeal.HostKeep.keep19 (W32 m ρ c) main_arg0 (by decide)).trans ((W32_of_ne m ρ c main_arg0 (by decide)).trans ((Cert.KernelIdeal.HostKeep.keep18 (W30 m ρ c) main_arg0 (by decide)).trans ((W30_of_ne m ρ c main_arg0 (by decide)).trans ((W29_of_ne m ρ c main_arg0 (by decide)).trans ((Cert.KernelIdeal.HostKeep.keep16 (W27 m ρ c) main_arg0 (by decide)).trans ((W27_of_ne m ρ c main_arg0 (by decide)).trans ((W26_of_ne m ρ c main_arg0 (by decide)).trans ((Cert.KernelIdeal.HostKeep.keep14 (W24 m ρ c) main_arg0 (by decide)).trans ((W24_of_ne m ρ c main_arg0 (by decide)).trans ((Cert.KernelIdeal.HostKeep.keep13 (W22 m ρ c) main_arg0 (by decide)).trans ((W22_of_ne m ρ c main_arg0 (by decide)).trans ((Cert.KernelIdeal.HostKeep.keep12 (W20 m ρ c) main_arg0 (by decide)).trans ((W20_of_ne m ρ c main_arg0 (by decide)).trans ((W19_of_ne m ρ c main_arg0 (by decide)).trans ((Cert.KernelIdeal.HostKeep.keep10 (W17 m ρ c) main_arg0 (by decide)).trans ((W17_of_ne m ρ c main_arg0 (by decide)).trans ((W16_of_ne m ρ c main_arg0 (by decide)).trans ((Cert.KernelIdeal.HostKeep.keep8 (W14 m ρ c) main_arg0 (by decide)).trans ((W14_of_ne m ρ c main_arg0 (by decide)).trans ((Cert.KernelIdeal.HostKeep.keep7 (W12 m ρ c) main_arg0 (by decide)).trans ((W12_of_ne m ρ c main_arg0 (by decide)).trans ((Cert.KernelIdeal.HostKeep.keep6 (W10 m ρ c) main_arg0 (by decide)).trans ((W10_of_ne m ρ c main_arg0 (by decide)).trans ((W9_of_ne m ρ c main_arg0 (by decide)).trans ((Cert.KernelIdeal.HostKeep.keep4 (W7 m ρ c) main_arg0 (by decide)).trans ((W7_of_ne m ρ c main_arg0 (by decide)).trans ((W6_of_ne m ρ c main_arg0 (by decide)).trans ((Cert.KernelIdeal.HostKeep.keep2 (W4 m ρ c) main_arg0 (by decide)).trans ((W4_of_ne m ρ c main_arg0 (by decide)).trans ((Cert.KernelIdeal.HostKeep.keep1 (W2 m ρ c) main_arg0 (by decide)).trans ((W2_of_ne m ρ c main_arg0 (by decide)).trans ((Cert.KernelIdeal.HostKeep.keep0 (W0 m ρ c) main_arg0 (by decide)).trans (rfl))))))))))))))))))))))))))))))))))))
theorem W36_main_arg1 (c : Dev nD) : W36 m ρ c (Proc.devRef .tc main_arg1) = m ((c : Thread nD τ).loc main_arg1) :=
  (W36_of_ne m ρ c main_arg1 (by decide)).trans ((Cert.KernelIdeal.HostKeep.keep20 (W34 m ρ c) main_arg1 (by decide)).trans ((W34_of_ne m ρ c main_arg1 (by decide)).trans ((Cert.KernelIdeal.HostKeep.keep19 (W32 m ρ c) main_arg1 (by decide)).trans ((W32_of_ne m ρ c main_arg1 (by decide)).trans ((Cert.KernelIdeal.HostKeep.keep18 (W30 m ρ c) main_arg1 (by decide)).trans ((W30_of_ne m ρ c main_arg1 (by decide)).trans ((W29_of_ne m ρ c main_arg1 (by decide)).trans ((Cert.KernelIdeal.HostKeep.keep16 (W27 m ρ c) main_arg1 (by decide)).trans ((W27_of_ne m ρ c main_arg1 (by decide)).trans ((W26_of_ne m ρ c main_arg1 (by decide)).trans ((Cert.KernelIdeal.HostKeep.keep14 (W24 m ρ c) main_arg1 (by decide)).trans ((W24_of_ne m ρ c main_arg1 (by decide)).trans ((Cert.KernelIdeal.HostKeep.keep13 (W22 m ρ c) main_arg1 (by decide)).trans ((W22_of_ne m ρ c main_arg1 (by decide)).trans ((Cert.KernelIdeal.HostKeep.keep12 (W20 m ρ c) main_arg1 (by decide)).trans ((W20_of_ne m ρ c main_arg1 (by decide)).trans ((W19_of_ne m ρ c main_arg1 (by decide)).trans ((Cert.KernelIdeal.HostKeep.keep10 (W17 m ρ c) main_arg1 (by decide)).trans ((W17_of_ne m ρ c main_arg1 (by decide)).trans ((W16_of_ne m ρ c main_arg1 (by decide)).trans ((Cert.KernelIdeal.HostKeep.keep8 (W14 m ρ c) main_arg1 (by decide)).trans ((W14_of_ne m ρ c main_arg1 (by decide)).trans ((Cert.KernelIdeal.HostKeep.keep7 (W12 m ρ c) main_arg1 (by decide)).trans ((W12_of_ne m ρ c main_arg1 (by decide)).trans ((Cert.KernelIdeal.HostKeep.keep6 (W10 m ρ c) main_arg1 (by decide)).trans ((W10_of_ne m ρ c main_arg1 (by decide)).trans ((W9_of_ne m ρ c main_arg1 (by decide)).trans ((Cert.KernelIdeal.HostKeep.keep4 (W7 m ρ c) main_arg1 (by decide)).trans ((W7_of_ne m ρ c main_arg1 (by decide)).trans ((W6_of_ne m ρ c main_arg1 (by decide)).trans ((Cert.KernelIdeal.HostKeep.keep2 (W4 m ρ c) main_arg1 (by decide)).trans ((W4_of_ne m ρ c main_arg1 (by decide)).trans ((Cert.KernelIdeal.HostKeep.keep1 (W2 m ρ c) main_arg1 (by decide)).trans ((W2_of_ne m ρ c main_arg1 (by decide)).trans ((Cert.KernelIdeal.HostKeep.keep0 (W0 m ρ c) main_arg1 (by decide)).trans (rfl))))))))))))))))))))))))))))))))))))
theorem W36_main_arg2 (c : Dev nD) : W36 m ρ c (Proc.devRef .tc main_arg2) = m ((c : Thread nD τ).loc main_arg2) :=
  (W36_of_ne m ρ c main_arg2 (by decide)).trans ((Cert.KernelIdeal.HostKeep.keep20 (W34 m ρ c) main_arg2 (by decide)).trans ((W34_of_ne m ρ c main_arg2 (by decide)).trans ((Cert.KernelIdeal.HostKeep.keep19 (W32 m ρ c) main_arg2 (by decide)).trans ((W32_of_ne m ρ c main_arg2 (by decide)).trans ((Cert.KernelIdeal.HostKeep.keep18 (W30 m ρ c) main_arg2 (by decide)).trans ((W30_of_ne m ρ c main_arg2 (by decide)).trans ((W29_of_ne m ρ c main_arg2 (by decide)).trans ((Cert.KernelIdeal.HostKeep.keep16 (W27 m ρ c) main_arg2 (by decide)).trans ((W27_of_ne m ρ c main_arg2 (by decide)).trans ((W26_of_ne m ρ c main_arg2 (by decide)).trans ((Cert.KernelIdeal.HostKeep.keep14 (W24 m ρ c) main_arg2 (by decide)).trans ((W24_of_ne m ρ c main_arg2 (by decide)).trans ((Cert.KernelIdeal.HostKeep.keep13 (W22 m ρ c) main_arg2 (by decide)).trans ((W22_of_ne m ρ c main_arg2 (by decide)).trans ((Cert.KernelIdeal.HostKeep.keep12 (W20 m ρ c) main_arg2 (by decide)).trans ((W20_of_ne m ρ c main_arg2 (by decide)).trans ((W19_of_ne m ρ c main_arg2 (by decide)).trans ((Cert.KernelIdeal.HostKeep.keep10 (W17 m ρ c) main_arg2 (by decide)).trans ((W17_of_ne m ρ c main_arg2 (by decide)).trans ((W16_of_ne m ρ c main_arg2 (by decide)).trans ((Cert.KernelIdeal.HostKeep.keep8 (W14 m ρ c) main_arg2 (by decide)).trans ((W14_of_ne m ρ c main_arg2 (by decide)).trans ((Cert.KernelIdeal.HostKeep.keep7 (W12 m ρ c) main_arg2 (by decide)).trans ((W12_of_ne m ρ c main_arg2 (by decide)).trans ((Cert.KernelIdeal.HostKeep.keep6 (W10 m ρ c) main_arg2 (by decide)).trans ((W10_of_ne m ρ c main_arg2 (by decide)).trans ((W9_of_ne m ρ c main_arg2 (by decide)).trans ((Cert.KernelIdeal.HostKeep.keep4 (W7 m ρ c) main_arg2 (by decide)).trans ((W7_of_ne m ρ c main_arg2 (by decide)).trans ((W6_of_ne m ρ c main_arg2 (by decide)).trans ((Cert.KernelIdeal.HostKeep.keep2 (W4 m ρ c) main_arg2 (by decide)).trans ((W4_of_ne m ρ c main_arg2 (by decide)).trans ((Cert.KernelIdeal.HostKeep.keep1 (W2 m ρ c) main_arg2 (by decide)).trans ((W2_of_ne m ρ c main_arg2 (by decide)).trans ((Cert.KernelIdeal.HostKeep.keep0 (W0 m ρ c) main_arg2 (by decide)).trans (rfl))))))))))))))))))))))))))))))))))))
theorem W36_main_arg3 (c : Dev nD) : W36 m ρ c (Proc.devRef .tc main_arg3) = m ((c : Thread nD τ).loc main_arg3) :=
  (W36_of_ne m ρ c main_arg3 (by decide)).trans ((Cert.KernelIdeal.HostKeep.keep20 (W34 m ρ c) main_arg3 (by decide)).trans ((W34_of_ne m ρ c main_arg3 (by decide)).trans ((Cert.KernelIdeal.HostKeep.keep19 (W32 m ρ c) main_arg3 (by decide)).trans ((W32_of_ne m ρ c main_arg3 (by decide)).trans ((Cert.KernelIdeal.HostKeep.keep18 (W30 m ρ c) main_arg3 (by decide)).trans ((W30_of_ne m ρ c main_arg3 (by decide)).trans ((W29_of_ne m ρ c main_arg3 (by decide)).trans ((Cert.KernelIdeal.HostKeep.keep16 (W27 m ρ c) main_arg3 (by decide)).trans ((W27_of_ne m ρ c main_arg3 (by decide)).trans ((W26_of_ne m ρ c main_arg3 (by decide)).trans ((Cert.KernelIdeal.HostKeep.keep14 (W24 m ρ c) main_arg3 (by decide)).trans ((W24_of_ne m ρ c main_arg3 (by decide)).trans ((Cert.KernelIdeal.HostKeep.keep13 (W22 m ρ c) main_arg3 (by decide)).trans ((W22_of_ne m ρ c main_arg3 (by decide)).trans ((Cert.KernelIdeal.HostKeep.keep12 (W20 m ρ c) main_arg3 (by decide)).trans ((W20_of_ne m ρ c main_arg3 (by decide)).trans ((W19_of_ne m ρ c main_arg3 (by decide)).trans ((Cert.KernelIdeal.HostKeep.keep10 (W17 m ρ c) main_arg3 (by decide)).trans ((W17_of_ne m ρ c main_arg3 (by decide)).trans ((W16_of_ne m ρ c main_arg3 (by decide)).trans ((Cert.KernelIdeal.HostKeep.keep8 (W14 m ρ c) main_arg3 (by decide)).trans ((W14_of_ne m ρ c main_arg3 (by decide)).trans ((Cert.KernelIdeal.HostKeep.keep7 (W12 m ρ c) main_arg3 (by decide)).trans ((W12_of_ne m ρ c main_arg3 (by decide)).trans ((Cert.KernelIdeal.HostKeep.keep6 (W10 m ρ c) main_arg3 (by decide)).trans ((W10_of_ne m ρ c main_arg3 (by decide)).trans ((W9_of_ne m ρ c main_arg3 (by decide)).trans ((Cert.KernelIdeal.HostKeep.keep4 (W7 m ρ c) main_arg3 (by decide)).trans ((W7_of_ne m ρ c main_arg3 (by decide)).trans ((W6_of_ne m ρ c main_arg3 (by decide)).trans ((Cert.KernelIdeal.HostKeep.keep2 (W4 m ρ c) main_arg3 (by decide)).trans ((W4_of_ne m ρ c main_arg3 (by decide)).trans ((Cert.KernelIdeal.HostKeep.keep1 (W2 m ρ c) main_arg3 (by decide)).trans ((W2_of_ne m ρ c main_arg3 (by decide)).trans ((Cert.KernelIdeal.HostKeep.keep0 (W0 m ρ c) main_arg3 (by decide)).trans (rfl))))))))))))))))))))))))))))))))))))
theorem W36_main_arg4 (c : Dev nD) : W36 m ρ c (Proc.devRef .tc main_arg4) = m ((c : Thread nD τ).loc main_arg4) :=
  (W36_of_ne m ρ c main_arg4 (by decide)).trans ((Cert.KernelIdeal.HostKeep.keep20 (W34 m ρ c) main_arg4 (by decide)).trans ((W34_of_ne m ρ c main_arg4 (by decide)).trans ((Cert.KernelIdeal.HostKeep.keep19 (W32 m ρ c) main_arg4 (by decide)).trans ((W32_of_ne m ρ c main_arg4 (by decide)).trans ((Cert.KernelIdeal.HostKeep.keep18 (W30 m ρ c) main_arg4 (by decide)).trans ((W30_of_ne m ρ c main_arg4 (by decide)).trans ((W29_of_ne m ρ c main_arg4 (by decide)).trans ((Cert.KernelIdeal.HostKeep.keep16 (W27 m ρ c) main_arg4 (by decide)).trans ((W27_of_ne m ρ c main_arg4 (by decide)).trans ((W26_of_ne m ρ c main_arg4 (by decide)).trans ((Cert.KernelIdeal.HostKeep.keep14 (W24 m ρ c) main_arg4 (by decide)).trans ((W24_of_ne m ρ c main_arg4 (by decide)).trans ((Cert.KernelIdeal.HostKeep.keep13 (W22 m ρ c) main_arg4 (by decide)).trans ((W22_of_ne m ρ c main_arg4 (by decide)).trans ((Cert.KernelIdeal.HostKeep.keep12 (W20 m ρ c) main_arg4 (by decide)).trans ((W20_of_ne m ρ c main_arg4 (by decide)).trans ((W19_of_ne m ρ c main_arg4 (by decide)).trans ((Cert.KernelIdeal.HostKeep.keep10 (W17 m ρ c) main_arg4 (by decide)).trans ((W17_of_ne m ρ c main_arg4 (by decide)).trans ((W16_of_ne m ρ c main_arg4 (by decide)).trans ((Cert.KernelIdeal.HostKeep.keep8 (W14 m ρ c) main_arg4 (by decide)).trans ((W14_of_ne m ρ c main_arg4 (by decide)).trans ((Cert.KernelIdeal.HostKeep.keep7 (W12 m ρ c) main_arg4 (by decide)).trans ((W12_of_ne m ρ c main_arg4 (by decide)).trans ((Cert.KernelIdeal.HostKeep.keep6 (W10 m ρ c) main_arg4 (by decide)).trans ((W10_of_ne m ρ c main_arg4 (by decide)).trans ((W9_of_ne m ρ c main_arg4 (by decide)).trans ((Cert.KernelIdeal.HostKeep.keep4 (W7 m ρ c) main_arg4 (by decide)).trans ((W7_of_ne m ρ c main_arg4 (by decide)).trans ((W6_of_ne m ρ c main_arg4 (by decide)).trans ((Cert.KernelIdeal.HostKeep.keep2 (W4 m ρ c) main_arg4 (by decide)).trans ((W4_of_ne m ρ c main_arg4 (by decide)).trans ((Cert.KernelIdeal.HostKeep.keep1 (W2 m ρ c) main_arg4 (by decide)).trans ((W2_of_ne m ρ c main_arg4 (by decide)).trans ((Cert.KernelIdeal.HostKeep.keep0 (W0 m ρ c) main_arg4 (by decide)).trans (rfl))))))))))))))))))))))))))))))))))))
theorem W36_main_arg5 (c : Dev nD) : W36 m ρ c (Proc.devRef .tc main_arg5) = m ((c : Thread nD τ).loc main_arg5) :=
  (W36_of_ne m ρ c main_arg5 (by decide)).trans ((Cert.KernelIdeal.HostKeep.keep20 (W34 m ρ c) main_arg5 (by decide)).trans ((W34_of_ne m ρ c main_arg5 (by decide)).trans ((Cert.KernelIdeal.HostKeep.keep19 (W32 m ρ c) main_arg5 (by decide)).trans ((W32_of_ne m ρ c main_arg5 (by decide)).trans ((Cert.KernelIdeal.HostKeep.keep18 (W30 m ρ c) main_arg5 (by decide)).trans ((W30_of_ne m ρ c main_arg5 (by decide)).trans ((W29_of_ne m ρ c main_arg5 (by decide)).trans ((Cert.KernelIdeal.HostKeep.keep16 (W27 m ρ c) main_arg5 (by decide)).trans ((W27_of_ne m ρ c main_arg5 (by decide)).trans ((W26_of_ne m ρ c main_arg5 (by decide)).trans ((Cert.KernelIdeal.HostKeep.keep14 (W24 m ρ c) main_arg5 (by decide)).trans ((W24_of_ne m ρ c main_arg5 (by decide)).trans ((Cert.KernelIdeal.HostKeep.keep13 (W22 m ρ c) main_arg5 (by decide)).trans ((W22_of_ne m ρ c main_arg5 (by decide)).trans ((Cert.KernelIdeal.HostKeep.keep12 (W20 m ρ c) main_arg5 (by decide)).trans ((W20_of_ne m ρ c main_arg5 (by decide)).trans ((W19_of_ne m ρ c main_arg5 (by decide)).trans ((Cert.KernelIdeal.HostKeep.keep10 (W17 m ρ c) main_arg5 (by decide)).trans ((W17_of_ne m ρ c main_arg5 (by decide)).trans ((W16_of_ne m ρ c main_arg5 (by decide)).trans ((Cert.KernelIdeal.HostKeep.keep8 (W14 m ρ c) main_arg5 (by decide)).trans ((W14_of_ne m ρ c main_arg5 (by decide)).trans ((Cert.KernelIdeal.HostKeep.keep7 (W12 m ρ c) main_arg5 (by decide)).trans ((W12_of_ne m ρ c main_arg5 (by decide)).trans ((Cert.KernelIdeal.HostKeep.keep6 (W10 m ρ c) main_arg5 (by decide)).trans ((W10_of_ne m ρ c main_arg5 (by decide)).trans ((W9_of_ne m ρ c main_arg5 (by decide)).trans ((Cert.KernelIdeal.HostKeep.keep4 (W7 m ρ c) main_arg5 (by decide)).trans ((W7_of_ne m ρ c main_arg5 (by decide)).trans ((W6_of_ne m ρ c main_arg5 (by decide)).trans ((Cert.KernelIdeal.HostKeep.keep2 (W4 m ρ c) main_arg5 (by decide)).trans ((W4_of_ne m ρ c main_arg5 (by decide)).trans ((Cert.KernelIdeal.HostKeep.keep1 (W2 m ρ c) main_arg5 (by decide)).trans ((W2_of_ne m ρ c main_arg5 (by decide)).trans ((Cert.KernelIdeal.HostKeep.keep0 (W0 m ρ c) main_arg5 (by decide)).trans (rfl))))))))))))))))))))))))))))))))))))
theorem W36_main_arg6 (c : Dev nD) : W36 m ρ c (Proc.devRef .tc main_arg6) = m ((c : Thread nD τ).loc main_arg6) :=
  (W36_of_ne m ρ c main_arg6 (by decide)).trans ((Cert.KernelIdeal.HostKeep.keep20 (W34 m ρ c) main_arg6 (by decide)).trans ((W34_of_ne m ρ c main_arg6 (by decide)).trans ((Cert.KernelIdeal.HostKeep.keep19 (W32 m ρ c) main_arg6 (by decide)).trans ((W32_of_ne m ρ c main_arg6 (by decide)).trans ((Cert.KernelIdeal.HostKeep.keep18 (W30 m ρ c) main_arg6 (by decide)).trans ((W30_of_ne m ρ c main_arg6 (by decide)).trans ((W29_of_ne m ρ c main_arg6 (by decide)).trans ((Cert.KernelIdeal.HostKeep.keep16 (W27 m ρ c) main_arg6 (by decide)).trans ((W27_of_ne m ρ c main_arg6 (by decide)).trans ((W26_of_ne m ρ c main_arg6 (by decide)).trans ((Cert.KernelIdeal.HostKeep.keep14 (W24 m ρ c) main_arg6 (by decide)).trans ((W24_of_ne m ρ c main_arg6 (by decide)).trans ((Cert.KernelIdeal.HostKeep.keep13 (W22 m ρ c) main_arg6 (by decide)).trans ((W22_of_ne m ρ c main_arg6 (by decide)).trans ((Cert.KernelIdeal.HostKeep.keep12 (W20 m ρ c) main_arg6 (by decide)).trans ((W20_of_ne m ρ c main_arg6 (by decide)).trans ((W19_of_ne m ρ c main_arg6 (by decide)).trans ((Cert.KernelIdeal.HostKeep.keep10 (W17 m ρ c) main_arg6 (by decide)).trans ((W17_of_ne m ρ c main_arg6 (by decide)).trans ((W16_of_ne m ρ c main_arg6 (by decide)).trans ((Cert.KernelIdeal.HostKeep.keep8 (W14 m ρ c) main_arg6 (by decide)).trans ((W14_of_ne m ρ c main_arg6 (by decide)).trans ((Cert.KernelIdeal.HostKeep.keep7 (W12 m ρ c) main_arg6 (by decide)).trans ((W12_of_ne m ρ c main_arg6 (by decide)).trans ((Cert.KernelIdeal.HostKeep.keep6 (W10 m ρ c) main_arg6 (by decide)).trans ((W10_of_ne m ρ c main_arg6 (by decide)).trans ((W9_of_ne m ρ c main_arg6 (by decide)).trans ((Cert.KernelIdeal.HostKeep.keep4 (W7 m ρ c) main_arg6 (by decide)).trans ((W7_of_ne m ρ c main_arg6 (by decide)).trans ((W6_of_ne m ρ c main_arg6 (by decide)).trans ((Cert.KernelIdeal.HostKeep.keep2 (W4 m ρ c) main_arg6 (by decide)).trans ((W4_of_ne m ρ c main_arg6 (by decide)).trans ((Cert.KernelIdeal.HostKeep.keep1 (W2 m ρ c) main_arg6 (by decide)).trans ((W2_of_ne m ρ c main_arg6 (by decide)).trans ((Cert.KernelIdeal.HostKeep.keep0 (W0 m ρ c) main_arg6 (by decide)).trans (rfl))))))))))))))))))))))))))))))))))))
theorem W36_main_arg7 (c : Dev nD) : W36 m ρ c (Proc.devRef .tc main_arg7) = m ((c : Thread nD τ).loc main_arg7) :=
  (W36_of_ne m ρ c main_arg7 (by decide)).trans ((Cert.KernelIdeal.HostKeep.keep20 (W34 m ρ c) main_arg7 (by decide)).trans ((W34_of_ne m ρ c main_arg7 (by decide)).trans ((Cert.KernelIdeal.HostKeep.keep19 (W32 m ρ c) main_arg7 (by decide)).trans ((W32_of_ne m ρ c main_arg7 (by decide)).trans ((Cert.KernelIdeal.HostKeep.keep18 (W30 m ρ c) main_arg7 (by decide)).trans ((W30_of_ne m ρ c main_arg7 (by decide)).trans ((W29_of_ne m ρ c main_arg7 (by decide)).trans ((Cert.KernelIdeal.HostKeep.keep16 (W27 m ρ c) main_arg7 (by decide)).trans ((W27_of_ne m ρ c main_arg7 (by decide)).trans ((W26_of_ne m ρ c main_arg7 (by decide)).trans ((Cert.KernelIdeal.HostKeep.keep14 (W24 m ρ c) main_arg7 (by decide)).trans ((W24_of_ne m ρ c main_arg7 (by decide)).trans ((Cert.KernelIdeal.HostKeep.keep13 (W22 m ρ c) main_arg7 (by decide)).trans ((W22_of_ne m ρ c main_arg7 (by decide)).trans ((Cert.KernelIdeal.HostKeep.keep12 (W20 m ρ c) main_arg7 (by decide)).trans ((W20_of_ne m ρ c main_arg7 (by decide)).trans ((W19_of_ne m ρ c main_arg7 (by decide)).trans ((Cert.KernelIdeal.HostKeep.keep10 (W17 m ρ c) main_arg7 (by decide)).trans ((W17_of_ne m ρ c main_arg7 (by decide)).trans ((W16_of_ne m ρ c main_arg7 (by decide)).trans ((Cert.KernelIdeal.HostKeep.keep8 (W14 m ρ c) main_arg7 (by decide)).trans ((W14_of_ne m ρ c main_arg7 (by decide)).trans ((Cert.KernelIdeal.HostKeep.keep7 (W12 m ρ c) main_arg7 (by decide)).trans ((W12_of_ne m ρ c main_arg7 (by decide)).trans ((Cert.KernelIdeal.HostKeep.keep6 (W10 m ρ c) main_arg7 (by decide)).trans ((W10_of_ne m ρ c main_arg7 (by decide)).trans ((W9_of_ne m ρ c main_arg7 (by decide)).trans ((Cert.KernelIdeal.HostKeep.keep4 (W7 m ρ c) main_arg7 (by decide)).trans ((W7_of_ne m ρ c main_arg7 (by decide)).trans ((W6_of_ne m ρ c main_arg7 (by decide)).trans ((Cert.KernelIdeal.HostKeep.keep2 (W4 m ρ c) main_arg7 (by decide)).trans ((W4_of_ne m ρ c main_arg7 (by decide)).trans ((Cert.KernelIdeal.HostKeep.keep1 (W2 m ρ c) main_arg7 (by decide)).trans ((W2_of_ne m ρ c main_arg7 (by decide)).trans ((Cert.KernelIdeal.HostKeep.keep0 (W0 m ρ c) main_arg7 (by decide)).trans (rfl))))))))))))))))))))))))))))))))))))
theorem W36_main_arg8 (c : Dev nD) : W36 m ρ c (Proc.devRef .tc main_arg8) = m ((c : Thread nD τ).loc main_arg8) :=
  (W36_of_ne m ρ c main_arg8 (by decide)).trans ((Cert.KernelIdeal.HostKeep.keep20 (W34 m ρ c) main_arg8 (by decide)).trans ((W34_of_ne m ρ c main_arg8 (by decide)).trans ((Cert.KernelIdeal.HostKeep.keep19 (W32 m ρ c) main_arg8 (by decide)).trans ((W32_of_ne m ρ c main_arg8 (by decide)).trans ((Cert.KernelIdeal.HostKeep.keep18 (W30 m ρ c) main_arg8 (by decide)).trans ((W30_of_ne m ρ c main_arg8 (by decide)).trans ((W29_of_ne m ρ c main_arg8 (by decide)).trans ((Cert.KernelIdeal.HostKeep.keep16 (W27 m ρ c) main_arg8 (by decide)).trans ((W27_of_ne m ρ c main_arg8 (by decide)).trans ((W26_of_ne m ρ c main_arg8 (by decide)).trans ((Cert.KernelIdeal.HostKeep.keep14 (W24 m ρ c) main_arg8 (by decide)).trans ((W24_of_ne m ρ c main_arg8 (by decide)).trans ((Cert.KernelIdeal.HostKeep.keep13 (W22 m ρ c) main_arg8 (by decide)).trans ((W22_of_ne m ρ c main_arg8 (by decide)).trans ((Cert.KernelIdeal.HostKeep.keep12 (W20 m ρ c) main_arg8 (by decide)).trans ((W20_of_ne m ρ c main_arg8 (by decide)).trans ((W19_of_ne m ρ c main_arg8 (by decide)).trans ((Cert.KernelIdeal.HostKeep.keep10 (W17 m ρ c) main_arg8 (by decide)).trans ((W17_of_ne m ρ c main_arg8 (by decide)).trans ((W16_of_ne m ρ c main_arg8 (by decide)).trans ((Cert.KernelIdeal.HostKeep.keep8 (W14 m ρ c) main_arg8 (by decide)).trans ((W14_of_ne m ρ c main_arg8 (by decide)).trans ((Cert.KernelIdeal.HostKeep.keep7 (W12 m ρ c) main_arg8 (by decide)).trans ((W12_of_ne m ρ c main_arg8 (by decide)).trans ((Cert.KernelIdeal.HostKeep.keep6 (W10 m ρ c) main_arg8 (by decide)).trans ((W10_of_ne m ρ c main_arg8 (by decide)).trans ((W9_of_ne m ρ c main_arg8 (by decide)).trans ((Cert.KernelIdeal.HostKeep.keep4 (W7 m ρ c) main_arg8 (by decide)).trans ((W7_of_ne m ρ c main_arg8 (by decide)).trans ((W6_of_ne m ρ c main_arg8 (by decide)).trans ((Cert.KernelIdeal.HostKeep.keep2 (W4 m ρ c) main_arg8 (by decide)).trans ((W4_of_ne m ρ c main_arg8 (by decide)).trans ((Cert.KernelIdeal.HostKeep.keep1 (W2 m ρ c) main_arg8 (by decide)).trans ((W2_of_ne m ρ c main_arg8 (by decide)).trans ((Cert.KernelIdeal.HostKeep.keep0 (W0 m ρ c) main_arg8 (by decide)).trans (rfl))))))))))))))))))))))))))))))))))))
theorem W36_main_arg9 (c : Dev nD) : W36 m ρ c (Proc.devRef .tc main_arg9) = m ((c : Thread nD τ).loc main_arg9) :=
  (W36_of_ne m ρ c main_arg9 (by decide)).trans ((Cert.KernelIdeal.HostKeep.keep20 (W34 m ρ c) main_arg9 (by decide)).trans ((W34_of_ne m ρ c main_arg9 (by decide)).trans ((Cert.KernelIdeal.HostKeep.keep19 (W32 m ρ c) main_arg9 (by decide)).trans ((W32_of_ne m ρ c main_arg9 (by decide)).trans ((Cert.KernelIdeal.HostKeep.keep18 (W30 m ρ c) main_arg9 (by decide)).trans ((W30_of_ne m ρ c main_arg9 (by decide)).trans ((W29_of_ne m ρ c main_arg9 (by decide)).trans ((Cert.KernelIdeal.HostKeep.keep16 (W27 m ρ c) main_arg9 (by decide)).trans ((W27_of_ne m ρ c main_arg9 (by decide)).trans ((W26_of_ne m ρ c main_arg9 (by decide)).trans ((Cert.KernelIdeal.HostKeep.keep14 (W24 m ρ c) main_arg9 (by decide)).trans ((W24_of_ne m ρ c main_arg9 (by decide)).trans ((Cert.KernelIdeal.HostKeep.keep13 (W22 m ρ c) main_arg9 (by decide)).trans ((W22_of_ne m ρ c main_arg9 (by decide)).trans ((Cert.KernelIdeal.HostKeep.keep12 (W20 m ρ c) main_arg9 (by decide)).trans ((W20_of_ne m ρ c main_arg9 (by decide)).trans ((W19_of_ne m ρ c main_arg9 (by decide)).trans ((Cert.KernelIdeal.HostKeep.keep10 (W17 m ρ c) main_arg9 (by decide)).trans ((W17_of_ne m ρ c main_arg9 (by decide)).trans ((W16_of_ne m ρ c main_arg9 (by decide)).trans ((Cert.KernelIdeal.HostKeep.keep8 (W14 m ρ c) main_arg9 (by decide)).trans ((W14_of_ne m ρ c main_arg9 (by decide)).trans ((Cert.KernelIdeal.HostKeep.keep7 (W12 m ρ c) main_arg9 (by decide)).trans ((W12_of_ne m ρ c main_arg9 (by decide)).trans ((Cert.KernelIdeal.HostKeep.keep6 (W10 m ρ c) main_arg9 (by decide)).trans ((W10_of_ne m ρ c main_arg9 (by decide)).trans ((W9_of_ne m ρ c main_arg9 (by decide)).trans ((Cert.KernelIdeal.HostKeep.keep4 (W7 m ρ c) main_arg9 (by decide)).trans ((W7_of_ne m ρ c main_arg9 (by decide)).trans ((W6_of_ne m ρ c main_arg9 (by decide)).trans ((Cert.KernelIdeal.HostKeep.keep2 (W4 m ρ c) main_arg9 (by decide)).trans ((W4_of_ne m ρ c main_arg9 (by decide)).trans ((Cert.KernelIdeal.HostKeep.keep1 (W2 m ρ c) main_arg9 (by decide)).trans ((W2_of_ne m ρ c main_arg9 (by decide)).trans ((Cert.KernelIdeal.HostKeep.keep0 (W0 m ρ c) main_arg9 (by decide)).trans (rfl))))))))))))))))))))))))))))))))))))
theorem W36_main_arg10 (c : Dev nD) : W36 m ρ c (Proc.devRef .tc main_arg10) = m ((c : Thread nD τ).loc main_arg10) :=
  (W36_of_ne m ρ c main_arg10 (by decide)).trans ((Cert.KernelIdeal.HostKeep.keep20 (W34 m ρ c) main_arg10 (by decide)).trans ((W34_of_ne m ρ c main_arg10 (by decide)).trans ((Cert.KernelIdeal.HostKeep.keep19 (W32 m ρ c) main_arg10 (by decide)).trans ((W32_of_ne m ρ c main_arg10 (by decide)).trans ((Cert.KernelIdeal.HostKeep.keep18 (W30 m ρ c) main_arg10 (by decide)).trans ((W30_of_ne m ρ c main_arg10 (by decide)).trans ((W29_of_ne m ρ c main_arg10 (by decide)).trans ((Cert.KernelIdeal.HostKeep.keep16 (W27 m ρ c) main_arg10 (by decide)).trans ((W27_of_ne m ρ c main_arg10 (by decide)).trans ((W26_of_ne m ρ c main_arg10 (by decide)).trans ((Cert.KernelIdeal.HostKeep.keep14 (W24 m ρ c) main_arg10 (by decide)).trans ((W24_of_ne m ρ c main_arg10 (by decide)).trans ((Cert.KernelIdeal.HostKeep.keep13 (W22 m ρ c) main_arg10 (by decide)).trans ((W22_of_ne m ρ c main_arg10 (by decide)).trans ((Cert.KernelIdeal.HostKeep.keep12 (W20 m ρ c) main_arg10 (by decide)).trans ((W20_of_ne m ρ c main_arg10 (by decide)).trans ((W19_of_ne m ρ c main_arg10 (by decide)).trans ((Cert.KernelIdeal.HostKeep.keep10 (W17 m ρ c) main_arg10 (by decide)).trans ((W17_of_ne m ρ c main_arg10 (by decide)).trans ((W16_of_ne m ρ c main_arg10 (by decide)).trans ((Cert.KernelIdeal.HostKeep.keep8 (W14 m ρ c) main_arg10 (by decide)).trans ((W14_of_ne m ρ c main_arg10 (by decide)).trans ((Cert.KernelIdeal.HostKeep.keep7 (W12 m ρ c) main_arg10 (by decide)).trans ((W12_of_ne m ρ c main_arg10 (by decide)).trans ((Cert.KernelIdeal.HostKeep.keep6 (W10 m ρ c) main_arg10 (by decide)).trans ((W10_of_ne m ρ c main_arg10 (by decide)).trans ((W9_of_ne m ρ c main_arg10 (by decide)).trans ((Cert.KernelIdeal.HostKeep.keep4 (W7 m ρ c) main_arg10 (by decide)).trans ((W7_of_ne m ρ c main_arg10 (by decide)).trans ((W6_of_ne m ρ c main_arg10 (by decide)).trans ((Cert.KernelIdeal.HostKeep.keep2 (W4 m ρ c) main_arg10 (by decide)).trans ((W4_of_ne m ρ c main_arg10 (by decide)).trans ((Cert.KernelIdeal.HostKeep.keep1 (W2 m ρ c) main_arg10 (by decide)).trans (((W2_arr m ρ c 1).trans (((dat0 (V1 m ρ) c).arrAt_in 1 rfl _).trans (A_eq0 (V1 m ρ) c 1))).trans ((Cert.KernelIdeal.HostKeep.keep0 (W0 m ρ c) main_arg10 (by decide)).trans (rfl))))))))))))))))))))))))))))))))))))
theorem W36_main_arg11 (c : Dev nD) : W36 m ρ c (Proc.devRef .tc main_arg11) = m ((c : Thread nD τ).loc main_arg11) :=
  (W36_of_ne m ρ c main_arg11 (by decide)).trans ((Cert.KernelIdeal.HostKeep.keep20 (W34 m ρ c) main_arg11 (by decide)).trans ((W34_of_ne m ρ c main_arg11 (by decide)).trans ((Cert.KernelIdeal.HostKeep.keep19 (W32 m ρ c) main_arg11 (by decide)).trans ((W32_of_ne m ρ c main_arg11 (by decide)).trans ((Cert.KernelIdeal.HostKeep.keep18 (W30 m ρ c) main_arg11 (by decide)).trans ((W30_of_ne m ρ c main_arg11 (by decide)).trans ((W29_of_ne m ρ c main_arg11 (by decide)).trans ((Cert.KernelIdeal.HostKeep.keep16 (W27 m ρ c) main_arg11 (by decide)).trans ((W27_of_ne m ρ c main_arg11 (by decide)).trans ((W26_of_ne m ρ c main_arg11 (by decide)).trans ((Cert.KernelIdeal.HostKeep.keep14 (W24 m ρ c) main_arg11 (by decide)).trans ((W24_of_ne m ρ c main_arg11 (by decide)).trans ((Cert.KernelIdeal.HostKeep.keep13 (W22 m ρ c) main_arg11 (by decide)).trans ((W22_of_ne m ρ c main_arg11 (by decide)).trans ((Cert.KernelIdeal.HostKeep.keep12 (W20 m ρ c) main_arg11 (by decide)).trans ((W20_of_ne m ρ c main_arg11 (by decide)).trans ((W19_of_ne m ρ c main_arg11 (by decide)).trans ((Cert.KernelIdeal.HostKeep.keep10 (W17 m ρ c) main_arg11 (by decide)).trans ((W17_of_ne m ρ c main_arg11 (by decide)).trans ((W16_of_ne m ρ c main_arg11 (by decide)).trans ((Cert.KernelIdeal.HostKeep.keep8 (W14 m ρ c) main_arg11 (by decide)).trans ((W14_of_ne m ρ c main_arg11 (by decide)).trans ((Cert.KernelIdeal.HostKeep.keep7 (W12 m ρ c) main_arg11 (by decide)).trans ((W12_of_ne m ρ c main_arg11 (by decide)).trans ((Cert.KernelIdeal.HostKeep.keep6 (W10 m ρ c) main_arg11 (by decide)).trans ((W10_of_ne m ρ c main_arg11 (by decide)).trans ((W9_of_ne m ρ c main_arg11 (by decide)).trans ((Cert.KernelIdeal.HostKeep.keep4 (W7 m ρ c) main_arg11 (by decide)).trans ((W7_of_ne m ρ c main_arg11 (by decide)).trans ((W6_of_ne m ρ c main_arg11 (by decide)).trans ((Cert.KernelIdeal.HostKeep.keep2 (W4 m ρ c) main_arg11 (by decide)).trans ((W4_of_ne m ρ c main_arg11 (by decide)).trans ((Cert.KernelIdeal.HostKeep.keep1 (W2 m ρ c) main_arg11 (by decide)).trans ((W2_of_ne m ρ c main_arg11 (by decide)).trans ((Cert.KernelIdeal.HostKeep.keep0 (W0 m ρ c) main_arg11 (by decide)).trans (rfl))))))))))))))))))))))))))))))))))))
theorem W36_main_arg12 (c : Dev nD) : W36 m ρ c (Proc.devRef .tc main_arg12) = m ((c : Thread nD τ).loc main_arg12) :=
  (W36_of_ne m ρ c main_arg12 (by decide)).trans ((Cert.KernelIdeal.HostKeep.keep20 (W34 m ρ c) main_arg12 (by decide)).trans ((W34_of_ne m ρ c main_arg12 (by decide)).trans ((Cert.KernelIdeal.HostKeep.keep19 (W32 m ρ c) main_arg12 (by decide)).trans ((W32_of_ne m ρ c main_arg12 (by decide)).trans ((Cert.KernelIdeal.HostKeep.keep18 (W30 m ρ c) main_arg12 (by decide)).trans ((W30_of_ne m ρ c main_arg12 (by decide)).trans ((W29_of_ne m ρ c main_arg12 (by decide)).trans ((Cert.KernelIdeal.HostKeep.keep16 (W27 m ρ c) main_arg12 (by decide)).trans ((W27_of_ne m ρ c main_arg12 (by decide)).trans ((W26_of_ne m ρ c main_arg12 (by decide)).trans ((Cert.KernelIdeal.HostKeep.keep14 (W24 m ρ c) main_arg12 (by decide)).trans ((W24_of_ne m ρ c main_arg12 (by decide)).trans ((Cert.KernelIdeal.HostKeep.keep13 (W22 m ρ c) main_arg12 (by decide)).trans ((W22_of_ne m ρ c main_arg12 (by decide)).trans ((Cert.KernelIdeal.HostKeep.keep12 (W20 m ρ c) main_arg12 (by decide)).trans ((W20_of_ne m ρ c main_arg12 (by decide)).trans ((W19_of_ne m ρ c main_arg12 (by decide)).trans ((Cert.KernelIdeal.HostKeep.keep10 (W17 m ρ c) main_arg12 (by decide)).trans ((W17_of_ne m ρ c main_arg12 (by decide)).trans ((W16_of_ne m ρ c main_arg12 (by decide)).trans ((Cert.KernelIdeal.HostKeep.keep8 (W14 m ρ c) main_arg12 (by decide)).trans ((W14_of_ne m ρ c main_arg12 (by decide)).trans ((Cert.KernelIdeal.HostKeep.keep7 (W12 m ρ c) main_arg12 (by decide)).trans ((W12_of_ne m ρ c main_arg12 (by decide)).trans ((Cert.KernelIdeal.HostKeep.keep6 (W10 m ρ c) main_arg12 (by decide)).trans ((W10_of_ne m ρ c main_arg12 (by decide)).trans ((W9_of_ne m ρ c main_arg12 (by decide)).trans ((Cert.KernelIdeal.HostKeep.keep4 (W7 m ρ c) main_arg12 (by decide)).trans ((W7_of_ne m ρ c main_arg12 (by decide)).trans ((W6_of_ne m ρ c main_arg12 (by decide)).trans ((Cert.KernelIdeal.HostKeep.keep2 (W4 m ρ c) main_arg12 (by decide)).trans ((W4_of_ne m ρ c main_arg12 (by decide)).trans ((Cert.KernelIdeal.HostKeep.keep1 (W2 m ρ c) main_arg12 (by decide)).trans (((W2_arr m ρ c 3).trans (((dat0 (V1 m ρ) c).arrAt_in 3 rfl _).trans (A_eq0 (V1 m ρ) c 3))).trans ((Cert.KernelIdeal.HostKeep.keep0 (W0 m ρ c) main_arg12 (by decide)).trans (rfl))))))))))))))))))))))))))))))))))))
theorem W36_main_arg13 (c : Dev nD) : W36 m ρ c (Proc.devRef .tc main_arg13) = m ((c : Thread nD τ).loc main_arg13) :=
  (W36_of_ne m ρ c main_arg13 (by decide)).trans ((Cert.KernelIdeal.HostKeep.keep20 (W34 m ρ c) main_arg13 (by decide)).trans ((W34_of_ne m ρ c main_arg13 (by decide)).trans ((Cert.KernelIdeal.HostKeep.keep19 (W32 m ρ c) main_arg13 (by decide)).trans ((W32_of_ne m ρ c main_arg13 (by decide)).trans ((Cert.KernelIdeal.HostKeep.keep18 (W30 m ρ c) main_arg13 (by decide)).trans ((W30_of_ne m ρ c main_arg13 (by decide)).trans ((W29_of_ne m ρ c main_arg13 (by decide)).trans ((Cert.KernelIdeal.HostKeep.keep16 (W27 m ρ c) main_arg13 (by decide)).trans ((W27_of_ne m ρ c main_arg13 (by decide)).trans ((W26_of_ne m ρ c main_arg13 (by decide)).trans ((Cert.KernelIdeal.HostKeep.keep14 (W24 m ρ c) main_arg13 (by decide)).trans ((W24_of_ne m ρ c main_arg13 (by decide)).trans ((Cert.KernelIdeal.HostKeep.keep13 (W22 m ρ c) main_arg13 (by decide)).trans ((W22_of_ne m ρ c main_arg13 (by decide)).trans ((Cert.KernelIdeal.HostKeep.keep12 (W20 m ρ c) main_arg13 (by decide)).trans ((W20_of_ne m ρ c main_arg13 (by decide)).trans ((W19_of_ne m ρ c main_arg13 (by decide)).trans ((Cert.KernelIdeal.HostKeep.keep10 (W17 m ρ c) main_arg13 (by decide)).trans ((W17_of_ne m ρ c main_arg13 (by decide)).trans ((W16_of_ne m ρ c main_arg13 (by decide)).trans ((Cert.KernelIdeal.HostKeep.keep8 (W14 m ρ c) main_arg13 (by decide)).trans ((W14_of_ne m ρ c main_arg13 (by decide)).trans ((Cert.KernelIdeal.HostKeep.keep7 (W12 m ρ c) main_arg13 (by decide)).trans ((W12_of_ne m ρ c main_arg13 (by decide)).trans ((Cert.KernelIdeal.HostKeep.keep6 (W10 m ρ c) main_arg13 (by decide)).trans ((W10_of_ne m ρ c main_arg13 (by decide)).trans ((W9_of_ne m ρ c main_arg13 (by decide)).trans ((Cert.KernelIdeal.HostKeep.keep4 (W7 m ρ c) main_arg13 (by decide)).trans ((W7_of_ne m ρ c main_arg13 (by decide)).trans ((W6_of_ne m ρ c main_arg13 (by decide)).trans ((Cert.KernelIdeal.HostKeep.keep2 (W4 m ρ c) main_arg13 (by decide)).trans ((W4_of_ne m ρ c main_arg13 (by decide)).trans ((Cert.KernelIdeal.HostKeep.keep1 (W2 m ρ c) main_arg13 (by decide)).trans ((W2_of_ne m ρ c main_arg13 (by decide)).trans ((Cert.KernelIdeal.HostKeep.keep0 (W0 m ρ c) main_arg13 (by decide)).trans (rfl))))))))))))))))))))))))))))))))))))
theorem W36_main_arg14 (c : Dev nD) : W36 m ρ c (Proc.devRef .tc main_arg14) = m ((c : Thread nD τ).loc main_arg14) :=
  (W36_of_ne m ρ c main_arg14 (by decide)).trans ((Cert.KernelIdeal.HostKeep.keep20 (W34 m ρ c) main_arg14 (by decide)).trans ((W34_of_ne m ρ c main_arg14 (by decide)).trans ((Cert.KernelIdeal.HostKeep.keep19 (W32 m ρ c) main_arg14 (by decide)).trans ((W32_of_ne m ρ c main_arg14 (by decide)).trans ((Cert.KernelIdeal.HostKeep.keep18 (W30 m ρ c) main_arg14 (by decide)).trans ((W30_of_ne m ρ c main_arg14 (by decide)).trans ((W29_of_ne m ρ c main_arg14 (by decide)).trans ((Cert.KernelIdeal.HostKeep.keep16 (W27 m ρ c) main_arg14 (by decide)).trans ((W27_of_ne m ρ c main_arg14 (by decide)).trans ((W26_of_ne m ρ c main_arg14 (by decide)).trans ((Cert.KernelIdeal.HostKeep.keep14 (W24 m ρ c) main_arg14 (by decide)).trans ((W24_of_ne m ρ c main_arg14 (by decide)).trans ((Cert.KernelIdeal.HostKeep.keep13 (W22 m ρ c) main_arg14 (by decide)).trans ((W22_of_ne m ρ c main_arg14 (by decide)).trans ((Cert.KernelIdeal.HostKeep.keep12 (W20 m ρ c) main_arg14 (by decide)).trans ((W20_of_ne m ρ c main_arg14 (by decide)).trans ((W19_of_ne m ρ c main_arg14 (by decide)).trans ((Cert.KernelIdeal.HostKeep.keep10 (W17 m ρ c) main_arg14 (by decide)).trans ((W17_of_ne m ρ c main_arg14 (by decide)).trans ((W16_of_ne m ρ c main_arg14 (by decide)).trans ((Cert.KernelIdeal.HostKeep.keep8 (W14 m ρ c) main_arg14 (by decide)).trans ((W14_of_ne m ρ c main_arg14 (by decide)).trans ((Cert.KernelIdeal.HostKeep.keep7 (W12 m ρ c) main_arg14 (by decide)).trans ((W12_of_ne m ρ c main_arg14 (by decide)).trans ((Cert.KernelIdeal.HostKeep.keep6 (W10 m ρ c) main_arg14 (by decide)).trans ((W10_of_ne m ρ c main_arg14 (by decide)).trans ((W9_of_ne m ρ c main_arg14 (by decide)).trans ((Cert.KernelIdeal.HostKeep.keep4 (W7 m ρ c) main_arg14 (by decide)).trans ((W7_of_ne m ρ c main_arg14 (by decide)).trans ((W6_of_ne m ρ c main_arg14 (by decide)).trans ((Cert.KernelIdeal.HostKeep.keep2 (W4 m ρ c) main_arg14 (by decide)).trans ((W4_of_ne m ρ c main_arg14 (by decide)).trans ((Cert.KernelIdeal.HostKeep.keep1 (W2 m ρ c) main_arg14 (by decide)).trans ((W2_of_ne m ρ c main_arg14 (by decide)).trans ((Cert.KernelIdeal.HostKeep.keep0 (W0 m ρ c) main_arg14 (by decide)).trans (rfl))))))))))))))))))))))))))))))))))))
theorem W36_main_arg15 (c : Dev nD) : W36 m ρ c (Proc.devRef .tc main_arg15) = m ((c : Thread nD τ).loc main_arg15) :=
  (W36_of_ne m ρ c main_arg15 (by decide)).trans ((Cert.KernelIdeal.HostKeep.keep20 (W34 m ρ c) main_arg15 (by decide)).trans ((W34_of_ne m ρ c main_arg15 (by decide)).trans ((Cert.KernelIdeal.HostKeep.keep19 (W32 m ρ c) main_arg15 (by decide)).trans ((W32_of_ne m ρ c main_arg15 (by decide)).trans ((Cert.KernelIdeal.HostKeep.keep18 (W30 m ρ c) main_arg15 (by decide)).trans ((W30_of_ne m ρ c main_arg15 (by decide)).trans ((W29_of_ne m ρ c main_arg15 (by decide)).trans ((Cert.KernelIdeal.HostKeep.keep16 (W27 m ρ c) main_arg15 (by decide)).trans ((W27_of_ne m ρ c main_arg15 (by decide)).trans ((W26_of_ne m ρ c main_arg15 (by decide)).trans ((Cert.KernelIdeal.HostKeep.keep14 (W24 m ρ c) main_arg15 (by decide)).trans ((W24_of_ne m ρ c main_arg15 (by decide)).trans ((Cert.KernelIdeal.HostKeep.keep13 (W22 m ρ c) main_arg15 (by decide)).trans ((W22_of_ne m ρ c main_arg15 (by decide)).trans ((Cert.KernelIdeal.HostKeep.keep12 (W20 m ρ c) main_arg15 (by decide)).trans ((W20_of_ne m ρ c main_arg15 (by decide)).trans ((W19_of_ne m ρ c main_arg15 (by decide)).trans ((Cert.KernelIdeal.HostKeep.keep10 (W17 m ρ c) main_arg15 (by decide)).trans ((W17_of_ne m ρ c main_arg15 (by decide)).trans ((W16_of_ne m ρ c main_arg15 (by decide)).trans ((Cert.KernelIdeal.HostKeep.keep8 (W14 m ρ c) main_arg15 (by decide)).trans ((W14_of_ne m ρ c main_arg15 (by decide)).trans ((Cert.KernelIdeal.HostKeep.keep7 (W12 m ρ c) main_arg15 (by decide)).trans ((W12_of_ne m ρ c main_arg15 (by decide)).trans ((Cert.KernelIdeal.HostKeep.keep6 (W10 m ρ c) main_arg15 (by decide)).trans ((W10_of_ne m ρ c main_arg15 (by decide)).trans ((W9_of_ne m ρ c main_arg15 (by decide)).trans ((Cert.KernelIdeal.HostKeep.keep4 (W7 m ρ c) main_arg15 (by decide)).trans ((W7_of_ne m ρ c main_arg15 (by decide)).trans ((W6_of_ne m ρ c main_arg15 (by decide)).trans ((Cert.KernelIdeal.HostKeep.keep2 (W4 m ρ c) main_arg15 (by decide)).trans ((W4_of_ne m ρ c main_arg15 (by decide)).trans ((Cert.KernelIdeal.HostKeep.keep1 (W2 m ρ c) main_arg15 (by decide)).trans ((W2_of_ne m ρ c main_arg15 (by decide)).trans ((Cert.KernelIdeal.HostKeep.keep0 (W0 m ρ c) main_arg15 (by decide)).trans (rfl))))))))))))))))))))))))))))))))))))
theorem W36_main_arg16 (c : Dev nD) : W36 m ρ c (Proc.devRef .tc main_arg16) = m ((c : Thread nD τ).loc main_arg16) :=
  (W36_of_ne m ρ c main_arg16 (by decide)).trans ((Cert.KernelIdeal.HostKeep.keep20 (W34 m ρ c) main_arg16 (by decide)).trans ((W34_of_ne m ρ c main_arg16 (by decide)).trans ((Cert.KernelIdeal.HostKeep.keep19 (W32 m ρ c) main_arg16 (by decide)).trans ((W32_of_ne m ρ c main_arg16 (by decide)).trans ((Cert.KernelIdeal.HostKeep.keep18 (W30 m ρ c) main_arg16 (by decide)).trans ((W30_of_ne m ρ c main_arg16 (by decide)).trans ((W29_of_ne m ρ c main_arg16 (by decide)).trans ((Cert.KernelIdeal.HostKeep.keep16 (W27 m ρ c) main_arg16 (by decide)).trans ((W27_of_ne m ρ c main_arg16 (by decide)).trans ((W26_of_ne m ρ c main_arg16 (by decide)).trans ((Cert.KernelIdeal.HostKeep.keep14 (W24 m ρ c) main_arg16 (by decide)).trans ((W24_of_ne m ρ c main_arg16 (by decide)).trans ((Cert.KernelIdeal.HostKeep.keep13 (W22 m ρ c) main_arg16 (by decide)).trans ((W22_of_ne m ρ c main_arg16 (by decide)).trans ((Cert.KernelIdeal.HostKeep.keep12 (W20 m ρ c) main_arg16 (by decide)).trans ((W20_of_ne m ρ c main_arg16 (by decide)).trans ((W19_of_ne m ρ c main_arg16 (by decide)).trans ((Cert.KernelIdeal.HostKeep.keep10 (W17 m ρ c) main_arg16 (by decide)).trans ((W17_of_ne m ρ c main_arg16 (by decide)).trans ((W16_of_ne m ρ c main_arg16 (by decide)).trans ((Cert.KernelIdeal.HostKeep.keep8 (W14 m ρ c) main_arg16 (by decide)).trans ((W14_of_ne m ρ c main_arg16 (by decide)).trans ((Cert.KernelIdeal.HostKeep.keep7 (W12 m ρ c) main_arg16 (by decide)).trans ((W12_of_ne m ρ c main_arg16 (by decide)).trans ((Cert.KernelIdeal.HostKeep.keep6 (W10 m ρ c) main_arg16 (by decide)).trans ((W10_of_ne m ρ c main_arg16 (by decide)).trans ((W9_of_ne m ρ c main_arg16 (by decide)).trans ((Cert.KernelIdeal.HostKeep.keep4 (W7 m ρ c) main_arg16 (by decide)).trans ((W7_of_ne m ρ c main_arg16 (by decide)).trans ((W6_of_ne m ρ c main_arg16 (by decide)).trans ((Cert.KernelIdeal.HostKeep.keep2 (W4 m ρ c) main_arg16 (by decide)).trans ((W4_of_ne m ρ c main_arg16 (by decide)).trans ((Cert.KernelIdeal.HostKeep.keep1 (W2 m ρ c) main_arg16 (by decide)).trans ((W2_of_ne m ρ c main_arg16 (by decide)).trans ((Cert.KernelIdeal.HostKeep.keep0 (W0 m ρ c) main_arg16 (by decide)).trans (rfl))))))))))))))))))))))))))))))))))))
theorem W36_main_arg17 (c : Dev nD) : W36 m ρ c (Proc.devRef .tc main_arg17) = m ((c : Thread nD τ).loc main_arg17) :=
  (W36_of_ne m ρ c main_arg17 (by decide)).trans ((Cert.KernelIdeal.HostKeep.keep20 (W34 m ρ c) main_arg17 (by decide)).trans ((W34_of_ne m ρ c main_arg17 (by decide)).trans ((Cert.KernelIdeal.HostKeep.keep19 (W32 m ρ c) main_arg17 (by decide)).trans ((W32_of_ne m ρ c main_arg17 (by decide)).trans ((Cert.KernelIdeal.HostKeep.keep18 (W30 m ρ c) main_arg17 (by decide)).trans ((W30_of_ne m ρ c main_arg17 (by decide)).trans ((W29_of_ne m ρ c main_arg17 (by decide)).trans ((Cert.KernelIdeal.HostKeep.keep16 (W27 m ρ c) main_arg17 (by decide)).trans ((W27_of_ne m ρ c main_arg17 (by decide)).trans ((W26_of_ne m ρ c main_arg17 (by decide)).trans ((Cert.KernelIdeal.HostKeep.keep14 (W24 m ρ c) main_arg17 (by decide)).trans ((W24_of_ne m ρ c main_arg17 (by decide)).trans ((Cert.KernelIdeal.HostKeep.keep13 (W22 m ρ c) main_arg17 (by decide)).trans ((W22_of_ne m ρ c main_arg17 (by decide)).trans ((Cert.KernelIdeal.HostKeep.keep12 (W20 m ρ c) main_arg17 (by decide)).trans ((W20_of_ne m ρ c main_arg17 (by decide)).trans ((W19_of_ne m ρ c main_arg17 (by decide)).trans ((Cert.KernelIdeal.HostKeep.keep10 (W17 m ρ c) main_arg17 (by decide)).trans ((W17_of_ne m ρ c main_arg17 (by decide)).trans ((W16_of_ne m ρ c main_arg17 (by decide)).trans ((Cert.KernelIdeal.HostKeep.keep8 (W14 m ρ c) main_arg17 (by decide)).trans ((W14_of_ne m ρ c main_arg17 (by decide)).trans ((Cert.KernelIdeal.HostKeep.keep7 (W12 m ρ c) main_arg17 (by decide)).trans ((W12_of_ne m ρ c main_arg17 (by decide)).trans ((Cert.KernelIdeal.HostKeep.keep6 (W10 m ρ c) main_arg17 (by decide)).trans ((W10_of_ne m ρ c main_arg17 (by decide)).trans ((W9_of_ne m ρ c main_arg17 (by decide)).trans ((Cert.KernelIdeal.HostKeep.keep4 (W7 m ρ c) main_arg17 (by decide)).trans ((W7_of_ne m ρ c main_arg17 (by decide)).trans ((W6_of_ne m ρ c main_arg17 (by decide)).trans ((Cert.KernelIdeal.HostKeep.keep2 (W4 m ρ c) main_arg17 (by decide)).trans ((W4_of_ne m ρ c main_arg17 (by decide)).trans ((Cert.KernelIdeal.HostKeep.keep1 (W2 m ρ c) main_arg17 (by decide)).trans ((W2_of_ne m ρ c main_arg17 (by decide)).trans ((Cert.KernelIdeal.HostKeep.keep0 (W0 m ρ c) main_arg17 (by decide)).trans (rfl))))))))))))))))))))))))))))))))))))
theorem W36_main_arg18 (c : Dev nD) : W36 m ρ c (Proc.devRef .tc main_arg18) = m ((c : Thread nD τ).loc main_arg18) :=
  ((W36_arr m ρ c 1).trans (((dat20 (V35 m ρ) c).arrAt_in 1 rfl _).trans (A_eq20 (V35 m ρ) c 1))).trans ((Cert.KernelIdeal.HostKeep.keep20 (W34 m ρ c) main_arg18 (by decide)).trans ((W34_of_ne m ρ c main_arg18 (by decide)).trans ((Cert.KernelIdeal.HostKeep.keep19 (W32 m ρ c) main_arg18 (by decide)).trans ((W32_of_ne m ρ c main_arg18 (by decide)).trans ((Cert.KernelIdeal.HostKeep.keep18 (W30 m ρ c) main_arg18 (by decide)).trans ((W30_of_ne m ρ c main_arg18 (by decide)).trans ((W29_of_ne m ρ c main_arg18 (by decide)).trans ((Cert.KernelIdeal.HostKeep.keep16 (W27 m ρ c) main_arg18 (by decide)).trans ((W27_of_ne m ρ c main_arg18 (by decide)).trans ((W26_of_ne m ρ c main_arg18 (by decide)).trans ((Cert.KernelIdeal.HostKeep.keep14 (W24 m ρ c) main_arg18 (by decide)).trans ((W24_of_ne m ρ c main_arg18 (by decide)).trans ((Cert.KernelIdeal.HostKeep.keep13 (W22 m ρ c) main_arg18 (by decide)).trans ((W22_of_ne m ρ c main_arg18 (by decide)).trans ((Cert.KernelIdeal.HostKeep.keep12 (W20 m ρ c) main_arg18 (by decide)).trans ((W20_of_ne m ρ c main_arg18 (by decide)).trans ((W19_of_ne m ρ c main_arg18 (by decide)).trans ((Cert.KernelIdeal.HostKeep.keep10 (W17 m ρ c) main_arg18 (by decide)).trans ((W17_of_ne m ρ c main_arg18 (by decide)).trans ((W16_of_ne m ρ c main_arg18 (by decide)).trans ((Cert.KernelIdeal.HostKeep.keep8 (W14 m ρ c) main_arg18 (by decide)).trans ((W14_of_ne m ρ c main_arg18 (by decide)).trans ((Cert.KernelIdeal.HostKeep.keep7 (W12 m ρ c) main_arg18 (by decide)).trans ((W12_of_ne m ρ c main_arg18 (by decide)).trans ((Cert.KernelIdeal.HostKeep.keep6 (W10 m ρ c) main_arg18 (by decide)).trans ((W10_of_ne m ρ c main_arg18 (by decide)).trans ((W9_of_ne m ρ c main_arg18 (by decide)).trans ((Cert.KernelIdeal.HostKeep.keep4 (W7 m ρ c) main_arg18 (by decide)).trans ((W7_of_ne m ρ c main_arg18 (by decide)).trans ((W6_of_ne m ρ c main_arg18 (by decide)).trans ((Cert.KernelIdeal.HostKeep.keep2 (W4 m ρ c) main_arg18 (by decide)).trans ((W4_of_ne m ρ c main_arg18 (by decide)).trans ((Cert.KernelIdeal.HostKeep.keep1 (W2 m ρ c) main_arg18 (by decide)).trans ((W2_of_ne m ρ c main_arg18 (by decide)).trans ((Cert.KernelIdeal.HostKeep.keep0 (W0 m ρ c) main_arg18 (by decide)).trans (rfl))))))))))))))))))))))))))))))))))))
theorem W36_main_arg19 (c : Dev nD) : W36 m ρ c (Proc.devRef .tc main_arg19) = m ((c : Thread nD τ).loc main_arg19) :=
  (W36_of_ne m ρ c main_arg19 (by decide)).trans ((Cert.KernelIdeal.HostKeep.keep20 (W34 m ρ c) main_arg19 (by decide)).trans ((W34_of_ne m ρ c main_arg19 (by decide)).trans ((Cert.KernelIdeal.HostKeep.keep19 (W32 m ρ c) main_arg19 (by decide)).trans ((W32_of_ne m ρ c main_arg19 (by decide)).trans ((Cert.KernelIdeal.HostKeep.keep18 (W30 m ρ c) main_arg19 (by decide)).trans ((W30_of_ne m ρ c main_arg19 (by decide)).trans ((W29_of_ne m ρ c main_arg19 (by decide)).trans ((Cert.KernelIdeal.HostKeep.keep16 (W27 m ρ c) main_arg19 (by decide)).trans ((W27_of_ne m ρ c main_arg19 (by decide)).trans ((W26_of_ne m ρ c main_arg19 (by decide)).trans ((Cert.KernelIdeal.HostKeep.keep14 (W24 m ρ c) main_arg19 (by decide)).trans ((W24_of_ne m ρ c main_arg19 (by decide)).trans ((Cert.KernelIdeal.HostKeep.keep13 (W22 m ρ c) main_arg19 (by decide)).trans ((W22_of_ne m ρ c main_arg19 (by decide)).trans ((Cert.KernelIdeal.HostKeep.keep12 (W20 m ρ c) main_arg19 (by decide)).trans ((W20_of_ne m ρ c main_arg19 (by decide)).trans ((W19_of_ne m ρ c main_arg19 (by decide)).trans ((Cert.KernelIdeal.HostKeep.keep10 (W17 m ρ c) main_arg19 (by decide)).trans ((W17_of_ne m ρ c main_arg19 (by decide)).trans ((W16_of_ne m ρ c main_arg19 (by decide)).trans ((Cert.KernelIdeal.HostKeep.keep8 (W14 m ρ c) main_arg19 (by decide)).trans ((W14_of_ne m ρ c main_arg19 (by decide)).trans ((Cert.KernelIdeal.HostKeep.keep7 (W12 m ρ c) main_arg19 (by decide)).trans ((W12_of_ne m ρ c main_arg19 (by decide)).trans ((Cert.KernelIdeal.HostKeep.keep6 (W10 m ρ c) main_arg19 (by decide)).trans ((W10_of_ne m ρ c main_arg19 (by decide)).trans ((W9_of_ne m ρ c main_arg19 (by decide)).trans ((Cert.KernelIdeal.HostKeep.keep4 (W7 m ρ c) main_arg19 (by decide)).trans ((W7_of_ne m ρ c main_arg19 (by decide)).trans ((W6_of_ne m ρ c main_arg19 (by decide)).trans ((Cert.KernelIdeal.HostKeep.keep2 (W4 m ρ c) main_arg19 (by decide)).trans ((W4_of_ne m ρ c main_arg19 (by decide)).trans ((Cert.KernelIdeal.HostKeep.keep1 (W2 m ρ c) main_arg19 (by decide)).trans ((W2_of_ne m ρ c main_arg19 (by decide)).trans ((Cert.KernelIdeal.HostKeep.keep0 (W0 m ρ c) main_arg19 (by decide)).trans (rfl))))))))))))))))))))))))))))))))))))
theorem W36_main_arg20 (c : Dev nD) : W36 m ρ c (Proc.devRef .tc main_arg20) = m ((c : Thread nD τ).loc main_arg20) :=
  ((W36_arr m ρ c 3).trans (((dat20 (V35 m ρ) c).arrAt_in 3 rfl _).trans (A_eq20 (V35 m ρ) c 3))).trans ((Cert.KernelIdeal.HostKeep.keep20 (W34 m ρ c) main_arg20 (by decide)).trans ((W34_of_ne m ρ c main_arg20 (by decide)).trans ((Cert.KernelIdeal.HostKeep.keep19 (W32 m ρ c) main_arg20 (by decide)).trans ((W32_of_ne m ρ c main_arg20 (by decide)).trans ((Cert.KernelIdeal.HostKeep.keep18 (W30 m ρ c) main_arg20 (by decide)).trans ((W30_of_ne m ρ c main_arg20 (by decide)).trans ((W29_of_ne m ρ c main_arg20 (by decide)).trans ((Cert.KernelIdeal.HostKeep.keep16 (W27 m ρ c) main_arg20 (by decide)).trans ((W27_of_ne m ρ c main_arg20 (by decide)).trans ((W26_of_ne m ρ c main_arg20 (by decide)).trans ((Cert.KernelIdeal.HostKeep.keep14 (W24 m ρ c) main_arg20 (by decide)).trans ((W24_of_ne m ρ c main_arg20 (by decide)).trans ((Cert.KernelIdeal.HostKeep.keep13 (W22 m ρ c) main_arg20 (by decide)).trans ((W22_of_ne m ρ c main_arg20 (by decide)).trans ((Cert.KernelIdeal.HostKeep.keep12 (W20 m ρ c) main_arg20 (by decide)).trans ((W20_of_ne m ρ c main_arg20 (by decide)).trans ((W19_of_ne m ρ c main_arg20 (by decide)).trans ((Cert.KernelIdeal.HostKeep.keep10 (W17 m ρ c) main_arg20 (by decide)).trans ((W17_of_ne m ρ c main_arg20 (by decide)).trans ((W16_of_ne m ρ c main_arg20 (by decide)).trans ((Cert.KernelIdeal.HostKeep.keep8 (W14 m ρ c) main_arg20 (by decide)).trans ((W14_of_ne m ρ c main_arg20 (by decide)).trans ((Cert.KernelIdeal.HostKeep.keep7 (W12 m ρ c) main_arg20 (by decide)).trans ((W12_of_ne m ρ c main_arg20 (by decide)).trans ((Cert.KernelIdeal.HostKeep.keep6 (W10 m ρ c) main_arg20 (by decide)).trans ((W10_of_ne m ρ c main_arg20 (by decide)).trans ((W9_of_ne m ρ c main_arg20 (by decide)).trans ((Cert.KernelIdeal.HostKeep.keep4 (W7 m ρ c) main_arg20 (by decide)).trans ((W7_of_ne m ρ c main_arg20 (by decide)).trans ((W6_of_ne m ρ c main_arg20 (by decide)).trans ((Cert.KernelIdeal.HostKeep.keep2 (W4 m ρ c) main_arg20 (by decide)).trans ((W4_of_ne m ρ c main_arg20 (by decide)).trans ((Cert.KernelIdeal.HostKeep.keep1 (W2 m ρ c) main_arg20 (by decide)).trans ((W2_of_ne m ρ c main_arg20 (by decide)).trans ((Cert.KernelIdeal.HostKeep.keep0 (W0 m ρ c) main_arg20 (by decide)).trans (rfl))))))))))))))))))))))))))))))))))))
theorem W36_main_arg21 (c : Dev nD) : W36 m ρ c (Proc.devRef .tc main_arg21) = m ((c : Thread nD τ).loc main_arg21) :=
  (W36_of_ne m ρ c main_arg21 (by decide)).trans ((Cert.KernelIdeal.HostKeep.keep20 (W34 m ρ c) main_arg21 (by decide)).trans ((W34_of_ne m ρ c main_arg21 (by decide)).trans ((Cert.KernelIdeal.HostKeep.keep19 (W32 m ρ c) main_arg21 (by decide)).trans ((W32_of_ne m ρ c main_arg21 (by decide)).trans ((Cert.KernelIdeal.HostKeep.keep18 (W30 m ρ c) main_arg21 (by decide)).trans ((W30_of_ne m ρ c main_arg21 (by decide)).trans ((W29_of_ne m ρ c main_arg21 (by decide)).trans ((Cert.KernelIdeal.HostKeep.keep16 (W27 m ρ c) main_arg21 (by decide)).trans ((W27_of_ne m ρ c main_arg21 (by decide)).trans ((W26_of_ne m ρ c main_arg21 (by decide)).trans ((Cert.KernelIdeal.HostKeep.keep14 (W24 m ρ c) main_arg21 (by decide)).trans ((W24_of_ne m ρ c main_arg21 (by decide)).trans ((Cert.KernelIdeal.HostKeep.keep13 (W22 m ρ c) main_arg21 (by decide)).trans ((W22_of_ne m ρ c main_arg21 (by decide)).trans ((Cert.KernelIdeal.HostKeep.keep12 (W20 m ρ c) main_arg21 (by decide)).trans ((W20_of_ne m ρ c main_arg21 (by decide)).trans ((W19_of_ne m ρ c main_arg21 (by decide)).trans ((Cert.KernelIdeal.HostKeep.keep10 (W17 m ρ c) main_arg21 (by decide)).trans ((W17_of_ne m ρ c main_arg21 (by decide)).trans ((W16_of_ne m ρ c main_arg21 (by decide)).trans ((Cert.KernelIdeal.HostKeep.keep8 (W14 m ρ c) main_arg21 (by decide)).trans ((W14_of_ne m ρ c main_arg21 (by decide)).trans ((Cert.KernelIdeal.HostKeep.keep7 (W12 m ρ c) main_arg21 (by decide)).trans ((W12_of_ne m ρ c main_arg21 (by decide)).trans ((Cert.KernelIdeal.HostKeep.keep6 (W10 m ρ c) main_arg21 (by decide)).trans ((W10_of_ne m ρ c main_arg21 (by decide)).trans ((W9_of_ne m ρ c main_arg21 (by decide)).trans ((Cert.KernelIdeal.HostKeep.keep4 (W7 m ρ c) main_arg21 (by decide)).trans ((W7_of_ne m ρ c main_arg21 (by decide)).trans ((W6_of_ne m ρ c main_arg21 (by decide)).trans ((Cert.KernelIdeal.HostKeep.keep2 (W4 m ρ c) main_arg21 (by decide)).trans ((W4_of_ne m ρ c main_arg21 (by decide)).trans ((Cert.KernelIdeal.HostKeep.keep1 (W2 m ρ c) main_arg21 (by decide)).trans ((W2_of_ne m ρ c main_arg21 (by decide)).trans ((Cert.KernelIdeal.HostKeep.keep0 (W0 m ρ c) main_arg21 (by decide)).trans (rfl))))))))))))))))))))))))))))))))))))
theorem W36_main_arg22 (c : Dev nD) : W36 m ρ c (Proc.devRef .tc main_arg22) = m ((c : Thread nD τ).loc main_arg22) :=
  (W36_of_ne m ρ c main_arg22 (by decide)).trans ((Cert.KernelIdeal.HostKeep.keep20 (W34 m ρ c) main_arg22 (by decide)).trans ((W34_of_ne m ρ c main_arg22 (by decide)).trans ((Cert.KernelIdeal.HostKeep.keep19 (W32 m ρ c) main_arg22 (by decide)).trans ((W32_of_ne m ρ c main_arg22 (by decide)).trans ((Cert.KernelIdeal.HostKeep.keep18 (W30 m ρ c) main_arg22 (by decide)).trans ((W30_of_ne m ρ c main_arg22 (by decide)).trans ((W29_of_ne m ρ c main_arg22 (by decide)).trans ((Cert.KernelIdeal.HostKeep.keep16 (W27 m ρ c) main_arg22 (by decide)).trans ((W27_of_ne m ρ c main_arg22 (by decide)).trans ((W26_of_ne m ρ c main_arg22 (by decide)).trans ((Cert.KernelIdeal.HostKeep.keep14 (W24 m ρ c) main_arg22 (by decide)).trans ((W24_of_ne m ρ c main_arg22 (by decide)).trans ((Cert.KernelIdeal.HostKeep.keep13 (W22 m ρ c) main_arg22 (by decide)).trans ((W22_of_ne m ρ c main_arg22 (by decide)).trans ((Cert.KernelIdeal.HostKeep.keep12 (W20 m ρ c) main_arg22 (by decide)).trans ((W20_of_ne m ρ c main_arg22 (by decide)).trans ((W19_of_ne m ρ c main_arg22 (by decide)).trans ((Cert.KernelIdeal.HostKeep.keep10 (W17 m ρ c) main_arg22 (by decide)).trans ((W17_of_ne m ρ c main_arg22 (by decide)).trans ((W16_of_ne m ρ c main_arg22 (by decide)).trans ((Cert.KernelIdeal.HostKeep.keep8 (W14 m ρ c) main_arg22 (by decide)).trans ((W14_of_ne m ρ c main_arg22 (by decide)).trans ((Cert.KernelIdeal.HostKeep.keep7 (W12 m ρ c) main_arg22 (by decide)).trans ((W12_of_ne m ρ c main_arg22 (by decide)).trans ((Cert.KernelIdeal.HostKeep.keep6 (W10 m ρ c) main_arg22 (by decide)).trans ((W10_of_ne m ρ c main_arg22 (by decide)).trans ((W9_of_ne m ρ c main_arg22 (by decide)).trans ((Cert.KernelIdeal.HostKeep.keep4 (W7 m ρ c) main_arg22 (by decide)).trans ((W7_of_ne m ρ c main_arg22 (by decide)).trans ((W6_of_ne m ρ c main_arg22 (by decide)).trans ((Cert.KernelIdeal.HostKeep.keep2 (W4 m ρ c) main_arg22 (by decide)).trans ((W4_of_ne m ρ c main_arg22 (by decide)).trans ((Cert.KernelIdeal.HostKeep.keep1 (W2 m ρ c) main_arg22 (by decide)).trans ((W2_of_ne m ρ c main_arg22 (by decide)).trans ((Cert.KernelIdeal.HostKeep.keep0 (W0 m ρ c) main_arg22 (by decide)).trans (rfl))))))))))))))))))))))))))))))))))))

end Cert.KernelIdeal.Gen

end
-- ==== Proof.GnnOps.lean ====
/-
  The graph network's dense pieces, written once in the host's whole-array operations for any number of rows n.

  A dense layer with a leaky rectifier: z = x w + b (b one row, repeated down the rows), then z where z > 0 and a z
  elsewhere, a a scalar. The graph convolution's closing step for one row-normalised propagation: with s the scattered
  neighbour sum, h the projected features, d one column of inverse square-root degrees and b a bias row,
  t = tanh (s + h (d d) + b), the self loop entering with weight 1/deg = d d; and the running mixture acc + f t for a scalar
  f. Each is the same expression on the kernel's side (a block of rows at a time) and on the reference's (the whole array at
  once), because every entry of the result depends only on its own row of the row-shaped operands.

  The shape witnesses are hypotheses, so that either program's own witnesses can be passed.
-/
import Idealize.ShloMosaic.PureOps.Ideal
import Idealize.ShloMosaic.Lib.ValueIdx

noncomputable section

namespace Cert.Gnn

open Idealize.ShloMosaic

variable {n k m : Nat}

/-- The scalar shape. -/
abbrev Sc : Shape := ⟨0, ![]⟩

/-- z where z > 0, a z elsewhere. -/
def leaky (hs : Sc.BroadcastsInDim ⟨2, ![n, m]⟩ (![] : Fin 0 → Fin 2)) (a : FVec Ideal Sc .f32)
    (z : FVec Ideal ⟨2, ![n, m]⟩ .f32) : FVec Ideal ⟨2, ![n, m]⟩ .f32 :=
  select (cmpf .ogt z (broadcastInDim ⟨2, ![n, m]⟩ (![] : Fin 0 → Fin 2) hs (constant Sc .f32 0x00000000#32))) z
    (mulf (broadcastInDim ⟨2, ![n, m]⟩ (![] : Fin 0 → Fin 2) hs a) z)

/-- x w + b, the bias row b repeated down the rows. -/
def affine (hb : (⟨2, ![1, m]⟩ : Shape).BroadcastsInDim ⟨2, ![n, m]⟩ (![0, 1] : Fin 2 → Fin 2))
    (x : FVec Ideal ⟨2, ![n, k]⟩ .f32) (w : FVec Ideal ⟨2, ![k, m]⟩ .f32) (b : FVec Ideal ⟨2, ![1, m]⟩ .f32) :
    FVec Ideal ⟨2, ![n, m]⟩ .f32 :=
  addf (Host.dotGeneral (DotDims.plain n k m) none x w) (broadcastInDim ⟨2, ![n, m]⟩ (![0, 1] : Fin 2 → Fin 2) hb b)

/-- One dense layer: the leaky rectifier of x w + b. -/
def dense (hb : (⟨2, ![1, m]⟩ : Shape).BroadcastsInDim ⟨2, ![n, m]⟩ (![0, 1] : Fin 2 → Fin 2))
    (hs : Sc.BroadcastsInDim ⟨2, ![n, m]⟩ (![] : Fin 0 → Fin 2))
    (x : FVec Ideal ⟨2, ![n, k]⟩ .f32) (w : FVec Ideal ⟨2, ![k, m]⟩ .f32) (b : FVec Ideal ⟨2, ![1, m]⟩ .f32)
    (a : FVec Ideal Sc .f32) : FVec Ideal ⟨2, ![n, m]⟩ .f32 :=
  leaky hs a (affine hb x w b)

/-- tanh (s + h (d d) + b): one propagation step's features, d a column and b a row. -/
def convOut (hc : (⟨2, ![n, 1]⟩ : Shape).BroadcastsInDim ⟨2, ![n, m]⟩ (![0, 1] : Fin 2 → Fin 2))
    (hb : (⟨2, ![1, m]⟩ : Shape).BroadcastsInDim ⟨2, ![n, m]⟩ (![0, 1] : Fin 2 → Fin 2))
    (s h : FVec Ideal ⟨2, ![n, m]⟩ .f32) (d : FVec Ideal ⟨2, ![n, 1]⟩ .f32) (b : FVec Ideal ⟨2, ![1, m]⟩ .f32) :
    FVec Ideal ⟨2, ![n, m]⟩ .f32 :=
  Host.tanh (addf (addf s (mulf h (broadcastInDim ⟨2, ![n, m]⟩ (![0, 1] : Fin 2 → Fin 2) hc (mulf d d))))
    (broadcastInDim ⟨2, ![n, m]⟩ (![0, 1] : Fin 2 → Fin 2) hb b))

/-- acc + f t, f a scalar. -/
def mix (hs : Sc.BroadcastsInDim ⟨2, ![n, m]⟩ (![] : Fin 0 → Fin 2)) (acc t : FVec Ideal ⟨2, ![n, m]⟩ .f32)
    (f : FVec Ideal Sc .f32) : FVec Ideal ⟨2, ![n, m]⟩ .f32 :=
  addf acc (mulf (broadcastInDim ⟨2, ![n, m]⟩ (![] : Fin 0 → Fin 2) hs f) t)

/-- (a + b) + c. -/
def sum3 (a b c : FVec Ideal ⟨2, ![n, m]⟩ .f32) : FVec Ideal ⟨2, ![n, m]⟩ .f32 := addf (addf a b) c

end Cert.Gnn

end
-- ==== Proof.LibUnitAxis.lean ====
/-
  Adding a unit axis to a vector, two spellings: a reshape of n entries to an n x 1 column (or a 1 x n row) and a
  broadcast of the vector into that shape along its own axis read every entry from the same place, so they are one
  function.
-/
import Idealize.ShloMosaic.Lib.Pipeline.Value
import Idealize.ShloMosaic.Lib.ValueIdx

noncomputable section

namespace Cert.Lib.UnitAxis

open Idealize.ShloMosaic Idealize.ShloMosaic.ValueIdx

variable {α : Type}

/-- A vector reshaped to one column is the vector broadcast into the column shape along axis 0. -/
theorem reshape_col_eq_broadcastInDim {n : Nat} (y : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ y h = broadcastInDim ⟨2, ![n, 1]⟩ ![0] hb y := by
  funext i
  have hi0 : (i 0).val < n := (i 0).isLt
  have hi1 : (i 1).val < 1 := (i 1).isLt
  have e1 := shapeCast_apply y h i (ix1 (⟨(i 0).val, hi0⟩ : Fin n)) (by
    rw [Shape.rowMajor_val_two, Shape.rowMajor_val_one]; show (i 0).val = (i 0).val * 1 + (i 1).val; omega)
  have e2 := broadcastInDim_apply ![0] hb y i (ix1 (⟨(i 0).val, hi0⟩ : Fin n)) (by
    intro a
    match a with
    | ⟨0, _⟩ =>
      show (i 0).val = if n = 1 then 0 else (i 0).val
      split
      · omega
      · rfl)
  exact e1.trans e2.symm

/-- A vector reshaped to one row is the vector broadcast into the row shape along axis 1. -/
theorem reshape_row_eq_broadcastInDim {n : Nat} (y : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ y h = broadcastInDim ⟨2, ![1, n]⟩ ![1] hb y := by
  funext i
  have hi0 : (i 0).val < 1 := (i 0).isLt
  have hi1 : (i 1).val < n := (i 1).isLt
  have e1 := shapeCast_apply y h i (ix1 (⟨(i 1).val, hi1⟩ : Fin n)) (by
    rw [Shape.rowMajor_val_two, Shape.rowMajor_val_one]; show (i 1).val = (i 0).val * n + (i 1).val
    have : (i 0).val = 0 := by omega
    rw [this]; omega)
  have e2 := broadcastInDim_apply ![1] hb y i (ix1 (⟨(i 1).val, hi1⟩ : Fin n)) (by
    intro a
    match a with
    | ⟨0, _⟩ =>
      show (i 1).val = if n = 1 then 0 else (i 1).val
      split
      · omega
      · rfl)
  exact e1.trans e2.symm

end Cert.Lib.UnitAxis

end
-- ==== Proof.GnnBridge.lean ====
/-
  The graph network's dense pieces on reshaped operands, rewritten in the reference's spelling.

  A region receives a bias as a row obtained by reshaping a vector to 1 x m, an inverse square-root degree as a column
  obtained by reshaping a vector to n x 1, and a scalar as a 1 x 1 array obtained by reshaping; the reference broadcasts
  the same vector into the row or column shape along its own axis and uses the scalar as it is. A reshape that only adds a
  unit axis and the broadcast along the vector's own axis read every entry from the same place, a scalar taken through
  1 x 1 and back is itself, and a product of two copies of one broadcast is the broadcast of the product; so each piece on
  the reshaped operands is the same array as the piece spelt with the broadcasts. Last, an entry of a 3 x 3 table reached
  by two chains of slices and reshapes is the same entry.
-/
import proofs.«418542_j22608707846200_1_alg».proof.Proof.GnnOps
import proofs.«418542_j22608707846200_1_alg».proof.Proof.LibUnitAxis
import Idealize.ShloMosaic.Lib.Pipeline.Value
import Idealize.ShloMosaic.Lib.ValueIdx

noncomputable section
namespace Cert.Gnn
open Idealize.ShloMosaic Idealize.ShloMosaic.ValueIdx
variable {n k m : Nat}

/-- The product of a vector broadcast along axes with itself is the broadcast of the vector's product with itself:
    both read the same entry twice. -/
theorem mulf_broadcastInDim_self {s t : Shape} (dims : Fin s.rank → Fin t.rank) (h : s.BroadcastsInDim t dims)
    (d : FVec Ideal s .f32) :
    mulf (broadcastInDim t dims h d) (broadcastInDim t dims h d) = broadcastInDim t dims h (mulf d d) := rfl

/-- The propagation step on a reshaped degree column and a reshaped bias row, in the reference's spelling. -/
theorem convOut_of_reshapes
    (hc : (⟨2, ![n, 1]⟩ : Shape).BroadcastsInDim ⟨2, ![n, m]⟩ (![0, 1] : Fin 2 → Fin 2))
    (hb : (⟨2, ![1, m]⟩ : Shape).BroadcastsInDim ⟨2, ![n, m]⟩ (![0, 1] : Fin 2 → Fin 2))
    (hcol : (⟨1, ![n]⟩ : Shape).BroadcastsInDim ⟨2, ![n, 1]⟩ (![0] : Fin 1 → Fin 2))
    (hrow : (⟨1, ![m]⟩ : Shape).BroadcastsInDim ⟨2, ![1, m]⟩ (![1] : Fin 1 → Fin 2))
    (wcol : (⟨1, ![n]⟩ : Shape).ShapeCasts ⟨2, ![n, 1]⟩) (wrow : (⟨1, ![m]⟩ : Shape).ShapeCasts ⟨2, ![1, m]⟩)
    (s h : FVec Ideal ⟨2, ![n, m]⟩ .f32) (d : FVec Ideal ⟨1, ![n]⟩ .f32) (b : FVec Ideal ⟨1, ![m]⟩ .f32) :
    convOut hc hb s h (shapeCast ⟨2, ![n, 1]⟩ d wcol) (shapeCast ⟨2, ![1, m]⟩ b wrow)
      = Host.tanh (addf (addf s (mulf h (broadcastInDim ⟨2, ![n, m]⟩ (![0, 1] : Fin 2 → Fin 2) hc
            (broadcastInDim ⟨2, ![n, 1]⟩ (![0] : Fin 1 → Fin 2) hcol (mulf d d)))))
          (broadcastInDim ⟨2, ![n, m]⟩ (![0, 1] : Fin 2 → Fin 2) hb (broadcastInDim ⟨2, ![1, m]⟩ (![1] : Fin 1 → Fin 2) hrow b))) := by
  unfold convOut
  rw [Cert.Lib.UnitAxis.reshape_col_eq_broadcastInDim d wcol hcol,
    Cert.Lib.UnitAxis.reshape_row_eq_broadcastInDim b wrow hrow, mulf_broadcastInDim_self]

/-- A scalar reshaped to 1 x 1 and back is the scalar. -/
theorem scalar_roundtrip (a : FVec Ideal Sc .f32) (w1 : Sc.ShapeCasts ⟨2, ![1, 1]⟩) (w2 : (⟨2, ![1, 1]⟩ : Shape).ShapeCasts Sc) :
    shapeCast Sc (shapeCast ⟨2, ![1, 1]⟩ a w1) w2 = a := by
  funext j
  -- the scalar shape has one index, so the two reads are at the same place
  show a _ = a j
  exact congrArg a ((eq_ix0 _).trans (eq_ix0 j).symm)

/-- A dense layer on a reshaped bias row and a scalar slope that went through 1 x 1, in the reference's spelling. -/
theorem dense_of_reshapes
    (hb : (⟨2, ![1, m]⟩ : Shape).BroadcastsInDim ⟨2, ![n, m]⟩ (![0, 1] : Fin 2 → Fin 2))
    (hs : Sc.BroadcastsInDim ⟨2, ![n, m]⟩ (![] : Fin 0 → Fin 2))
    (hrow : (⟨1, ![m]⟩ : Shape).BroadcastsInDim ⟨2, ![1, m]⟩ (![1] : Fin 1 → Fin 2))
    (wrow : (⟨1, ![m]⟩ : Shape).ShapeCasts ⟨2, ![1, m]⟩) (w1 : Sc.ShapeCasts ⟨2, ![1, 1]⟩) (w2 : (⟨2, ![1, 1]⟩ : Shape).ShapeCasts Sc)
    (x : FVec Ideal ⟨2, ![n, k]⟩ .f32) (w : FVec Ideal ⟨2, ![k, m]⟩ .f32) (b : FVec Ideal ⟨1, ![m]⟩ .f32) (a : FVec Ideal Sc .f32) :
    dense hb hs x w (shapeCast ⟨2, ![1, m]⟩ b wrow) (shapeCast Sc (shapeCast ⟨2, ![1, 1]⟩ a w1) w2)
      = select (cmpf .ogt (addf (Host.dotGeneral (DotDims.plain n k m) none x w)
              (broadcastInDim ⟨2, ![n, m]⟩ (![0, 1] : Fin 2 → Fin 2) hb (broadcastInDim ⟨2, ![1, m]⟩ (![1] : Fin 1 → Fin 2) hrow b)))
            (broadcastInDim ⟨2, ![n, m]⟩ (![] : Fin 0 → Fin 2) hs (constant Sc .f32 0x00000000#32)))
          (addf (Host.dotGeneral (DotDims.plain n k m) none x w)
              (broadcastInDim ⟨2, ![n, m]⟩ (![0, 1] : Fin 2 → Fin 2) hb (broadcastInDim ⟨2, ![1, m]⟩ (![1] : Fin 1 → Fin 2) hrow b)))
          (mulf (broadcastInDim ⟨2, ![n, m]⟩ (![] : Fin 0 → Fin 2) hs a)
            (addf (Host.dotGeneral (DotDims.plain n k m) none x w)
              (broadcastInDim ⟨2, ![n, m]⟩ (![0, 1] : Fin 2 → Fin 2) hb (broadcastInDim ⟨2, ![1, m]⟩ (![1] : Fin 1 → Fin 2) hrow b)))) := by
  unfold dense leaky affine
  rw [scalar_roundtrip a w1 w2, Cert.Lib.UnitAxis.reshape_row_eq_broadcastInDim b wrow hrow]

/-- Entry (i, k) of a 3 x 3 table read two ways: row i as a 1 x 3 slice, flattened, entry k sliced out, made a scalar, then
    through 1 x 1 and back; or the 1 x 1 slice at (i, k) made a scalar. -/
theorem coef_eq (a : FVec Ideal ⟨2, ![3, 3]⟩ .f32) (i k : Nat)
    (s1 : (⟨2, ![3, 3]⟩ : Shape).Slices ![i, 0] ⟨2, ![1, 3]⟩) (c1 : (⟨2, ![1, 3]⟩ : Shape).ShapeCasts ⟨1, ![3]⟩)
    (s2 : (⟨1, ![3]⟩ : Shape).Slices ![k] ⟨1, ![1]⟩) (c2 : (⟨1, ![1]⟩ : Shape).ShapeCasts Sc)
    (c3 : Sc.ShapeCasts ⟨2, ![1, 1]⟩) (c4 : (⟨2, ![1, 1]⟩ : Shape).ShapeCasts Sc)
    (s3 : (⟨2, ![3, 3]⟩ : Shape).Slices ![i, k] ⟨2, ![1, 1]⟩) :
    shapeCast Sc (shapeCast ⟨2, ![1, 1]⟩ (shapeCast Sc (extractStridedSlice ⟨1, ![1]⟩ ![k]
        (shapeCast ⟨1, ![3]⟩ (extractStridedSlice ⟨2, ![1, 3]⟩ ![i, 0] a s1) c1) s2) c2) c3) c4
      = shapeCast Sc (extractStridedSlice ⟨2, ![1, 1]⟩ ![i, k] a s3) c4 := by
  rw [scalar_roundtrip]
  funext j
  -- the offsets are in range: i, k < 3
  have hi : i < 3 := by
    have := s3.2 ⟨0, by decide⟩
    change i + 1 ≤ 3 at this
    omega
  have hk : k < 3 := by
    have := s3.2 ⟨1, by decide⟩
    change k + 1 ≤ 3 at this
    omega
  -- the left side, operation by operation, down to a at (i, k)
  have l1 := shapeCast_apply (extractStridedSlice ⟨1, ![1]⟩ ![k]
      (shapeCast ⟨1, ![3]⟩ (extractStridedSlice ⟨2, ![1, 3]⟩ ![i, 0] a s1) c1) s2) c2 j (ix1 (⟨0, Nat.one_pos⟩ : Fin 1)) (by
    rw [Shape.rowMajor_val_one]
    exact (Shape.rowMajorPi_zero _ _).symm)
  have l2 := extractStridedSlice_apply ![k] (shapeCast ⟨1, ![3]⟩ (extractStridedSlice ⟨2, ![1, 3]⟩ ![i, 0] a s1) c1) s2
    (ix1 (⟨0, Nat.one_pos⟩ : Fin 1)) (ix1 (⟨k, hk⟩ : Fin 3)) (by
    intro q
    match q with
    | ⟨0, _⟩ => rfl)
  have l3 := shapeCast_apply (extractStridedSlice ⟨2, ![1, 3]⟩ ![i, 0] a s1) c1 (ix1 (⟨k, hk⟩ : Fin 3))
    (ix2 (⟨0, Nat.one_pos⟩ : Fin 1) (⟨k, hk⟩ : Fin 3)) (by
    rw [Shape.rowMajor_val_two, Shape.rowMajor_val_one]
    show 0 * 3 + k = k
    omega)
  have l4 := extractStridedSlice_apply ![i, 0] a s1 (ix2 (⟨0, Nat.one_pos⟩ : Fin 1) (⟨k, hk⟩ : Fin 3))
    (ix2 (⟨i, hi⟩ : Fin 3) (⟨k, hk⟩ : Fin 3)) (by
    intro q
    match q with
    | ⟨0, _⟩ => rfl
    | ⟨1, _⟩ => show k = 0 + k; omega)
  -- the right side likewise
  have r1 := shapeCast_apply (extractStridedSlice ⟨2, ![1, 1]⟩ ![i, k] a s3) c4 j
    (ix2 (⟨0, Nat.one_pos⟩ : Fin 1) (⟨0, Nat.one_pos⟩ : Fin 1)) (by
    rw [Shape.rowMajor_val_two]
    exact (Shape.rowMajorPi_zero _ _).symm)
  have r2 := extractStridedSlice_apply ![i, k] a s3 (ix2 (⟨0, Nat.one_pos⟩ : Fin 1) (⟨0, Nat.one_pos⟩ : Fin 1))
    (ix2 (⟨i, hi⟩ : Fin 3) (⟨k, hk⟩ : Fin 3)) (by
    intro q
    match q with
    | ⟨0, _⟩ => rfl
    | ⟨1, _⟩ => rfl)
  exact (((l1.trans l2).trans l3).trans l4).trans (r1.trans r2).symm

end Cert.Gnn

end
-- ==== Proof.KHost0.lean ====
/-
  The kernel program's host stretch number 0 (4 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v0 holds after the stretch. -/
theorem value0_main_v0 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a11 : (⟨Cert.ReferenceIdeal.S64, .f32⟩ : BufTy).Contents (Elt F)) (a13 : (⟨Cert.ReferenceIdeal.S64, .f32⟩ : BufTy).Contents (Elt F)) (a14 : (⟨Cert.ReferenceIdeal.S_, .f32⟩ : BufTy).Contents (Elt F))
    (h_main_arg0 : W (Proc.devRef .tc main_arg0) = a0)
    (h_main_arg1 : W (Proc.devRef .tc main_arg1) = a1)
    (h_main_arg11 : W (Proc.devRef .tc main_arg11) = a11)
    (h_main_arg13 : W (Proc.devRef .tc main_arg13) = a13)
    (h_main_arg14 : W (Proc.devRef .tc main_arg14) = a14) :
    StableHlo.after (hostOps0 (F := F)) W (Proc.devRef .tc main_v0) = (Cert.ReferenceIdeal.Stages.val_main_v0 (F := F) a0 a1) := by
  subst_vars
  simp only [hostOps0]
  after_results_simp
  try simp only []
  all_goals rfl

set_option maxHeartbeats 2000000 in
/-- What main_v1 holds after the stretch. -/
theorem value0_main_v1 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a11 : (⟨Cert.ReferenceIdeal.S64, .f32⟩ : BufTy).Contents (Elt F)) (a13 : (⟨Cert.ReferenceIdeal.S64, .f32⟩ : BufTy).Contents (Elt F)) (a14 : (⟨Cert.ReferenceIdeal.S_, .f32⟩ : BufTy).Contents (Elt F))
    (h_main_arg0 : W (Proc.devRef .tc main_arg0) = a0)
    (h_main_arg1 : W (Proc.devRef .tc main_arg1) = a1)
    (h_main_arg11 : W (Proc.devRef .tc main_arg11) = a11)
    (h_main_arg13 : W (Proc.devRef .tc main_arg13) = a13)
    (h_main_arg14 : W (Proc.devRef .tc main_arg14) = a14) :
    StableHlo.after (hostOps0 (F := F)) W (Proc.devRef .tc main_v1) = (shapeCast S1x64 a11 Cert.KernelIdeal.Facts₀.shapeCasts_S64_S1x64) := by
  subst_vars
  simp only [hostOps0]
  after_results_simp
  try simp only []
  all_goals rfl

set_option maxHeartbeats 2000000 in
/-- What main_v2 holds after the stretch. -/
theorem value0_main_v2 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a11 : (⟨Cert.ReferenceIdeal.S64, .f32⟩ : BufTy).Contents (Elt F)) (a13 : (⟨Cert.ReferenceIdeal.S64, .f32⟩ : BufTy).Contents (Elt F)) (a14 : (⟨Cert.ReferenceIdeal.S_, .f32⟩ : BufTy).Contents (Elt F))
    (h_main_arg0 : W (Proc.devRef .tc main_arg0) = a0)
    (h_main_arg1 : W (Proc.devRef .tc main_arg1) = a1)
    (h_main_arg11 : W (Proc.devRef .tc main_arg11) = a11)
    (h_main_arg13 : W (Proc.devRef .tc main_arg13) = a13)
    (h_main_arg14 : W (Proc.devRef .tc main_arg14) = a14) :
    StableHlo.after (hostOps0 (F := F)) W (Proc.devRef .tc main_v2) = (shapeCast S1x64 a13 Cert.KernelIdeal.Facts₀.shapeCasts_S64_S1x64) := by
  subst_vars
  simp only [hostOps0]
  after_results_simp
  try simp only []
  all_goals rfl

set_option maxHeartbeats 2000000 in
/-- What main_v3 holds after the stretch. -/
theorem value0_main_v3 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a11 : (⟨Cert.ReferenceIdeal.S64, .f32⟩ : BufTy).Contents (Elt F)) (a13 : (⟨Cert.ReferenceIdeal.S64, .f32⟩ : BufTy).Contents (Elt F)) (a14 : (⟨Cert.ReferenceIdeal.S_, .f32⟩ : BufTy).Contents (Elt F))
    (h_main_arg0 : W (Proc.devRef .tc main_arg0) = a0)
    (h_main_arg1 : W (Proc.devRef .tc main_arg1) = a1)
    (h_main_arg11 : W (Proc.devRef .tc main_arg11) = a11)
    (h_main_arg13 : W (Proc.devRef .tc main_arg13) = a13)
    (h_main_arg14 : W (Proc.devRef .tc main_arg14) = a14) :
    StableHlo.after (hostOps0 (F := F)) W (Proc.devRef .tc main_v3) = (shapeCast S1x1 a14 Cert.KernelIdeal.Facts₀.shapeCasts_S_S1x1) := by
  subst_vars
  simp only [hostOps0]
  after_results_simp
  try simp only []
  all_goals rfl

end Cert.KernelIdeal.HostValue

end
-- ==== Proof.KHost1.lean ====
/-
  The kernel program's host stretch number 1 (16 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v5 holds after the stretch. -/
theorem value1_main_v5 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v4 : W (Proc.devRef .tc main_v4) = (Cert.ReferenceIdeal.Stages.val_main_v18 (F := F) a0 a1 a10 a11 a12 a13 a14))
    (h_main_arg2 : W (Proc.devRef .tc main_arg2) = a2)
    (h_main_arg15 : W (Proc.devRef .tc main_arg15) = a15)
    (h_main_arg16 : W (Proc.devRef .tc main_arg16) = a16)
    (h_main_arg17 : W (Proc.devRef .tc main_arg17) = a17) :
    StableHlo.after (hostOps1 (F := F)) W (Proc.devRef .tc main_v5) = (Cert.ReferenceIdeal.Stages.val_main_v19 (F := F) a0 a1 a10 a11 a12 a13 a14) := by
  subst_vars
  simp only [hostOps1]
  after_results_simp
  try simp only [h_main_v4]
  all_goals rfl

set_option maxHeartbeats 2000000 in
/-- What main_v6 holds after the stretch. -/
theorem value1_main_v6 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v4 : W (Proc.devRef .tc main_v4) = (Cert.ReferenceIdeal.Stages.val_main_v18 (F := F) a0 a1 a10 a11 a12 a13 a14))
    (h_main_arg2 : W (Proc.devRef .tc main_arg2) = a2)
    (h_main_arg15 : W (Proc.devRef .tc main_arg15) = a15)
    (h_main_arg16 : W (Proc.devRef .tc main_arg16) = a16)
    (h_main_arg17 : W (Proc.devRef .tc main_arg17) = a17) :
    StableHlo.after (hostOps1 (F := F)) W (Proc.devRef .tc main_v6) = (Cert.ReferenceIdeal.Stages.val_main_v20 (F := F) a0 a1 a10 a11 a12 a13 a14) := by
  subst_vars
  simp only [hostOps1]
  after_results_simp
  try simp only [h_main_v4]
  all_goals rfl

set_option maxHeartbeats 2000000 in
/-- What main_v7 holds after the stretch. -/
theorem value1_main_v7 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v4 : W (Proc.devRef .tc main_v4) = (Cert.ReferenceIdeal.Stages.val_main_v18 (F := F) a0 a1 a10 a11 a12 a13 a14))
    (h_main_arg2 : W (Proc.devRef .tc main_arg2) = a2)
    (h_main_arg15 : W (Proc.devRef .tc main_arg15) = a15)
    (h_main_arg16 : W (Proc.devRef .tc main_arg16) = a16)
    (h_main_arg17 : W (Proc.devRef .tc main_arg17) = a17) :
    StableHlo.after (hostOps1 (F := F)) W (Proc.devRef .tc main_v7) = (Cert.ReferenceIdeal.Stages.val_main_v21 (F := F) a0 a1 a10 a11 a12 a13 a14) := by
  subst_vars
  simp only [hostOps1]
  after_results_simp
  try simp only [h_main_v4]
  all_goals rfl

set_option maxHeartbeats 2000000 in
/-- What main_v9 holds after the stretch. -/
theorem value1_main_v9 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v4 : W (Proc.devRef .tc main_v4) = (Cert.ReferenceIdeal.Stages.val_main_v18 (F := F) a0 a1 a10 a11 a12 a13 a14))
    (h_main_arg2 : W (Proc.devRef .tc main_arg2) = a2)
    (h_main_arg15 : W (Proc.devRef .tc main_arg15) = a15)
    (h_main_arg16 : W (Proc.devRef .tc main_arg16) = a16)
    (h_main_arg17 : W (Proc.devRef .tc main_arg17) = a17) :
    StableHlo.after (hostOps1 (F := F)) W (Proc.devRef .tc main_v9) = (Cert.ReferenceIdeal.Stages.val_main_v23 (F := F) a2) := by
  subst_vars
  simp only [hostOps1]
  after_results_simp
  try simp only [h_main_v4]
  all_goals rfl

set_option maxHeartbeats 2000000 in
/-- What main_v11 holds after the stretch. -/
theorem value1_main_v11 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v4 : W (Proc.devRef .tc main_v4) = (Cert.ReferenceIdeal.Stages.val_main_v18 (F := F) a0 a1 a10 a11 a12 a13 a14))
    (h_main_arg2 : W (Proc.devRef .tc main_arg2) = a2)
    (h_main_arg15 : W (Proc.devRef .tc main_arg15) = a15)
    (h_main_arg16 : W (Proc.devRef .tc main_arg16) = a16)
    (h_main_arg17 : W (Proc.devRef .tc main_arg17) = a17) :
    StableHlo.after (hostOps1 (F := F)) W (Proc.devRef .tc main_v11) = (Cert.ReferenceIdeal.Stages.val_main_v25 (F := F) a2) := by
  subst_vars
  simp only [hostOps1]
  after_results_simp
  try simp only [h_main_v4]
  all_goals rfl

set_option maxHeartbeats 2000000 in
/-- What main_v13 holds after the stretch. -/
theorem value1_main_v13 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v4 : W (Proc.devRef .tc main_v4) = (Cert.ReferenceIdeal.Stages.val_main_v18 (F := F) a0 a1 a10 a11 a12 a13 a14))
    (h_main_arg2 : W (Proc.devRef .tc main_arg2) = a2)
    (h_main_arg15 : W (Proc.devRef .tc main_arg15) = a15)
    (h_main_arg16 : W (Proc.devRef .tc main_arg16) = a16)
    (h_main_arg17 : W (Proc.devRef .tc main_arg17) = a17) :
    StableHlo.after (hostOps1 (F := F)) W (Proc.devRef .tc main_v13) = (Cert.ReferenceIdeal.Stages.val_main_v28 (F := F) a15) := by
  subst_vars
  simp only [hostOps1]
  after_results_simp
  try simp only [h_main_v4]
  all_goals rfl

set_option maxHeartbeats 2000000 in
/-- What main_v17 holds after the stretch. -/
theorem value1_main_v17 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v4 : W (Proc.devRef .tc main_v4) = (Cert.ReferenceIdeal.Stages.val_main_v18 (F := F) a0 a1 a10 a11 a12 a13 a14))
    (h_main_arg2 : W (Proc.devRef .tc main_arg2) = a2)
    (h_main_arg15 : W (Proc.devRef .tc main_arg15) = a15)
    (h_main_arg16 : W (Proc.devRef .tc main_arg16) = a16)
    (h_main_arg17 : W (Proc.devRef .tc main_arg17) = a17) :
    StableHlo.after (hostOps1 (F := F)) W (Proc.devRef .tc main_v17) = (shapeCast S3 (extractStridedSlice S1x3 ![0, 0] a17 Cert.KernelIdeal.Facts₀.slices_S3x3_S1x3_0_0) Cert.KernelIdeal.Facts₀.shapeCasts_S1x3_S3) := by
  subst_vars
  simp only [hostOps1]
  after_results_simp
  try simp only [h_main_v4]
  all_goals rfl

set_option maxHeartbeats 2000000 in
/-- What main_v18 holds after the stretch. -/
theorem value1_main_v18 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v4 : W (Proc.devRef .tc main_v4) = (Cert.ReferenceIdeal.Stages.val_main_v18 (F := F) a0 a1 a10 a11 a12 a13 a14))
    (h_main_arg2 : W (Proc.devRef .tc main_arg2) = a2)
    (h_main_arg15 : W (Proc.devRef .tc main_arg15) = a15)
    (h_main_arg16 : W (Proc.devRef .tc main_arg16) = a16)
    (h_main_arg17 : W (Proc.devRef .tc main_arg17) = a17) :
    StableHlo.after (hostOps1 (F := F)) W (Proc.devRef .tc main_v18) = (Cert.ReferenceIdeal.Stages.val_main_v26 (F := F)) := by
  subst_vars
  simp only [hostOps1]
  after_results_simp
  try simp only [h_main_v4]
  all_goals rfl

set_option maxHeartbeats 2000000 in
/-- What main_v19 holds after the stretch. -/
theorem value1_main_v19 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v4 : W (Proc.devRef .tc main_v4) = (Cert.ReferenceIdeal.Stages.val_main_v18 (F := F) a0 a1 a10 a11 a12 a13 a14))
    (h_main_arg2 : W (Proc.devRef .tc main_arg2) = a2)
    (h_main_arg15 : W (Proc.devRef .tc main_arg15) = a15)
    (h_main_arg16 : W (Proc.devRef .tc main_arg16) = a16)
    (h_main_arg17 : W (Proc.devRef .tc main_arg17) = a17) :
    StableHlo.after (hostOps1 (F := F)) W (Proc.devRef .tc main_v19) = (shapeCast S1x64 (Cert.ReferenceIdeal.Stages.val_main_v30 (F := F) a16) Cert.KernelIdeal.Facts₀.shapeCasts_S64_S1x64) := by
  subst_vars
  simp only [hostOps1]
  after_results_simp
  try simp only [h_main_v4]
  all_goals rfl

end Cert.KernelIdeal.HostValue

end
-- ==== Proof.KHost2.lean ====
/-
  The kernel program's host stretch number 2 (62 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v65 holds after the stretch. -/
theorem value2_main_v65 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a3 : (⟨Cert.ReferenceIdeal.S1600000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a17 : (⟨Cert.ReferenceIdeal.S3x3, .f32⟩ : BufTy).Contents (Elt F))
    (h_main_v11 : W (Proc.devRef .tc main_v11) = (Cert.ReferenceIdeal.Stages.val_main_v25 (F := F) a2))
    (h_main_arg3 : W (Proc.devRef .tc main_arg3) = a3)
    (h_main_v9 : W (Proc.devRef .tc main_v9) = (Cert.ReferenceIdeal.Stages.val_main_v23 (F := F) a2))
    (h_main_v20 : W (Proc.devRef .tc main_v20) = (Cert.ReferenceIdeal.Stages.val_main_v31 (F := F) a0 a1 a10 a11 a12 a13 a14 a15))
    (h_main_v17 : W (Proc.devRef .tc main_v17) = (shapeCast S3 (extractStridedSlice S1x3 ![0, 0] a17 Cert.KernelIdeal.Facts₀.slices_S3x3_S1x3_0_0) Cert.KernelIdeal.Facts₀.shapeCasts_S1x3_S3)) :
    StableHlo.after (hostOps2 (F := F)) W (Proc.devRef .tc main_v65) = (Cert.ReferenceIdeal.Stages.val_main_v76 (F := F) a0 a1 a2 a3 a10 a11 a12 a13 a14 a15) := by
  subst_vars
  simp only [hostOps2]
  after_results_simp
  try simp only [h_main_v11, h_main_v9, h_main_v20, h_main_v17]
  all_goals rfl

set_option maxHeartbeats 2000000 in
/-- What main_v68 holds after the stretch. -/
theorem value2_main_v68 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a3 : (⟨Cert.ReferenceIdeal.S1600000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a17 : (⟨Cert.ReferenceIdeal.S3x3, .f32⟩ : BufTy).Contents (Elt F))
    (h_main_v11 : W (Proc.devRef .tc main_v11) = (Cert.ReferenceIdeal.Stages.val_main_v25 (F := F) a2))
    (h_main_arg3 : W (Proc.devRef .tc main_arg3) = a3)
    (h_main_v9 : W (Proc.devRef .tc main_v9) = (Cert.ReferenceIdeal.Stages.val_main_v23 (F := F) a2))
    (h_main_v20 : W (Proc.devRef .tc main_v20) = (Cert.ReferenceIdeal.Stages.val_main_v31 (F := F) a0 a1 a10 a11 a12 a13 a14 a15))
    (h_main_v17 : W (Proc.devRef .tc main_v17) = (shapeCast S3 (extractStridedSlice S1x3 ![0, 0] a17 Cert.KernelIdeal.Facts₀.slices_S3x3_S1x3_0_0) Cert.KernelIdeal.Facts₀.shapeCasts_S1x3_S3)) :
    StableHlo.after (hostOps2 (F := F)) W (Proc.devRef .tc main_v68) = (shapeCast S1x1 (shapeCast S_ (extractStridedSlice S1 ![0] (shapeCast S3 (extractStridedSlice S1x3 ![0, 0] a17 Cert.KernelIdeal.Facts₀.slices_S3x3_S1x3_0_0) Cert.KernelIdeal.Facts₀.shapeCasts_S1x3_S3) Cert.KernelIdeal.Facts₀.slices_S3_S1_0) Cert.KernelIdeal.Facts₀.shapeCasts_S1_S_) Cert.KernelIdeal.Facts₀.shapeCasts_S_S1x1) := by
  subst_vars
  simp only [hostOps2]
  after_results_simp
  try simp only [h_main_v11, h_main_v9, h_main_v20, h_main_v17]
  all_goals rfl

set_option maxHeartbeats 2000000 in
/-- What main_v69 holds after the stretch. -/
theorem value2_main_v69 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a3 : (⟨Cert.ReferenceIdeal.S1600000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a17 : (⟨Cert.ReferenceIdeal.S3x3, .f32⟩ : BufTy).Contents (Elt F))
    (h_main_v11 : W (Proc.devRef .tc main_v11) = (Cert.ReferenceIdeal.Stages.val_main_v25 (F := F) a2))
    (h_main_arg3 : W (Proc.devRef .tc main_arg3) = a3)
    (h_main_v9 : W (Proc.devRef .tc main_v9) = (Cert.ReferenceIdeal.Stages.val_main_v23 (F := F) a2))
    (h_main_v20 : W (Proc.devRef .tc main_v20) = (Cert.ReferenceIdeal.Stages.val_main_v31 (F := F) a0 a1 a10 a11 a12 a13 a14 a15))
    (h_main_v17 : W (Proc.devRef .tc main_v17) = (shapeCast S3 (extractStridedSlice S1x3 ![0, 0] a17 Cert.KernelIdeal.Facts₀.slices_S3x3_S1x3_0_0) Cert.KernelIdeal.Facts₀.shapeCasts_S1x3_S3)) :
    StableHlo.after (hostOps2 (F := F)) W (Proc.devRef .tc main_v69) = (shapeCast S400000x1 (Cert.ReferenceIdeal.Stages.val_main_v42 (F := F) a2 a3) Cert.KernelIdeal.Facts₀.shapeCasts_S400000_S400000x1) := by
  subst_vars
  simp only [hostOps2]
  after_results_simp
  try simp only [h_main_v11, h_main_v9, h_main_v20, h_main_v17]
  all_goals rfl

end Cert.KernelIdeal.HostValue

end
-- ==== Proof.KHost4.lean ====
/-
  The kernel program's host stretch number 4 (62 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v116 holds after the stretch. -/
theorem value4_main_v116 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a3 : (⟨Cert.ReferenceIdeal.S1600000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v11 : W (Proc.devRef .tc main_v11) = (Cert.ReferenceIdeal.Stages.val_main_v25 (F := F) a2))
    (h_main_arg3 : W (Proc.devRef .tc main_arg3) = a3)
    (h_main_v9 : W (Proc.devRef .tc main_v9) = (Cert.ReferenceIdeal.Stages.val_main_v23 (F := F) a2))
    (h_main_v71 : W (Proc.devRef .tc main_v71) = (Cert.ReferenceIdeal.Stages.val_main_v95 (F := F) a0 a1 a2 a3 a10 a11 a12 a13 a14 a15 a16))
    (h_main_v17 : W (Proc.devRef .tc main_v17) = (shapeCast S3 (extractStridedSlice S1x3 ![0, 0] a17 Cert.KernelIdeal.Facts₀.slices_S3x3_S1x3_0_0) Cert.KernelIdeal.Facts₀.shapeCasts_S1x3_S3)) :
    StableHlo.after (hostOps4 (F := F)) W (Proc.devRef .tc main_v116) = (Cert.ReferenceIdeal.Stages.val_main_v140 (F := F) a0 a1 a2 a3 a10 a11 a12 a13 a14 a15 a16) := by
  subst_vars
  simp only [hostOps4]
  after_results_simp
  try simp only [h_main_v11, h_main_v9, h_main_v71, h_main_v17]
  all_goals rfl

set_option maxHeartbeats 2000000 in
/-- What main_v119 holds after the stretch. -/
theorem value4_main_v119 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a3 : (⟨Cert.ReferenceIdeal.S1600000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v11 : W (Proc.devRef .tc main_v11) = (Cert.ReferenceIdeal.Stages.val_main_v25 (F := F) a2))
    (h_main_arg3 : W (Proc.devRef .tc main_arg3) = a3)
    (h_main_v9 : W (Proc.devRef .tc main_v9) = (Cert.ReferenceIdeal.Stages.val_main_v23 (F := F) a2))
    (h_main_v71 : W (Proc.devRef .tc main_v71) = (Cert.ReferenceIdeal.Stages.val_main_v95 (F := F) a0 a1 a2 a3 a10 a11 a12 a13 a14 a15 a16))
    (h_main_v17 : W (Proc.devRef .tc main_v17) = (shapeCast S3 (extractStridedSlice S1x3 ![0, 0] a17 Cert.KernelIdeal.Facts₀.slices_S3x3_S1x3_0_0) Cert.KernelIdeal.Facts₀.shapeCasts_S1x3_S3)) :
    StableHlo.after (hostOps4 (F := F)) W (Proc.devRef .tc main_v119) = (shapeCast S1x1 (shapeCast S_ (extractStridedSlice S1 ![1] (shapeCast S3 (extractStridedSlice S1x3 ![0, 0] a17 Cert.KernelIdeal.Facts₀.slices_S3x3_S1x3_0_0) Cert.KernelIdeal.Facts₀.shapeCasts_S1x3_S3) Cert.KernelIdeal.Facts₀.slices_S3_S1_1) Cert.KernelIdeal.Facts₀.shapeCasts_S1_S_) Cert.KernelIdeal.Facts₀.shapeCasts_S_S1x1) := by
  subst_vars
  simp only [hostOps4]
  after_results_simp
  try simp only [h_main_v11, h_main_v9, h_main_v71, h_main_v17]
  all_goals rfl

set_option maxHeartbeats 2000000 in
/-- What main_v120 holds after the stretch. -/
theorem value4_main_v120 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a3 : (⟨Cert.ReferenceIdeal.S1600000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v11 : W (Proc.devRef .tc main_v11) = (Cert.ReferenceIdeal.Stages.val_main_v25 (F := F) a2))
    (h_main_arg3 : W (Proc.devRef .tc main_arg3) = a3)
    (h_main_v9 : W (Proc.devRef .tc main_v9) = (Cert.ReferenceIdeal.Stages.val_main_v23 (F := F) a2))
    (h_main_v71 : W (Proc.devRef .tc main_v71) = (Cert.ReferenceIdeal.Stages.val_main_v95 (F := F) a0 a1 a2 a3 a10 a11 a12 a13 a14 a15 a16))
    (h_main_v17 : W (Proc.devRef .tc main_v17) = (shapeCast S3 (extractStridedSlice S1x3 ![0, 0] a17 Cert.KernelIdeal.Facts₀.slices_S3x3_S1x3_0_0) Cert.KernelIdeal.Facts₀.shapeCasts_S1x3_S3)) :
    StableHlo.after (hostOps4 (F := F)) W (Proc.devRef .tc main_v120) = (shapeCast S400000x1 (Cert.ReferenceIdeal.Stages.val_main_v42 (F := F) a2 a3) Cert.KernelIdeal.Facts₀.shapeCasts_S400000_S400000x1) := by
  subst_vars
  simp only [hostOps4]
  after_results_simp
  try simp only [h_main_v11, h_main_v9, h_main_v71, h_main_v17]
  all_goals rfl

end Cert.KernelIdeal.HostValue

end
-- ==== Proof.KHost6.lean ====
/-
  The kernel program's host stretch number 6 (62 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v167 holds after the stretch. -/
theorem value6_main_v167 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a3 : (⟨Cert.ReferenceIdeal.S1600000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v11 : W (Proc.devRef .tc main_v11) = (Cert.ReferenceIdeal.Stages.val_main_v25 (F := F) a2))
    (h_main_arg3 : W (Proc.devRef .tc main_arg3) = a3)
    (h_main_v9 : W (Proc.devRef .tc main_v9) = (Cert.ReferenceIdeal.Stages.val_main_v23 (F := F) a2))
    (h_main_v122 : W (Proc.devRef .tc main_v122) = (Cert.ReferenceIdeal.Stages.val_main_v159 (F := F) a0 a1 a2 a3 a10 a11 a12 a13 a14 a15 a16))
    (h_main_v17 : W (Proc.devRef .tc main_v17) = (shapeCast S3 (extractStridedSlice S1x3 ![0, 0] a17 Cert.KernelIdeal.Facts₀.slices_S3x3_S1x3_0_0) Cert.KernelIdeal.Facts₀.shapeCasts_S1x3_S3)) :
    StableHlo.after (hostOps6 (F := F)) W (Proc.devRef .tc main_v167) = (Cert.ReferenceIdeal.Stages.val_main_v204 (F := F) a0 a1 a2 a3 a10 a11 a12 a13 a14 a15 a16) := by
  subst_vars
  simp only [hostOps6]
  after_results_simp
  try simp only [h_main_v11, h_main_v9, h_main_v122, h_main_v17]
  all_goals rfl

set_option maxHeartbeats 2000000 in
/-- What main_v170 holds after the stretch. -/
theorem value6_main_v170 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a3 : (⟨Cert.ReferenceIdeal.S1600000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v11 : W (Proc.devRef .tc main_v11) = (Cert.ReferenceIdeal.Stages.val_main_v25 (F := F) a2))
    (h_main_arg3 : W (Proc.devRef .tc main_arg3) = a3)
    (h_main_v9 : W (Proc.devRef .tc main_v9) = (Cert.ReferenceIdeal.Stages.val_main_v23 (F := F) a2))
    (h_main_v122 : W (Proc.devRef .tc main_v122) = (Cert.ReferenceIdeal.Stages.val_main_v159 (F := F) a0 a1 a2 a3 a10 a11 a12 a13 a14 a15 a16))
    (h_main_v17 : W (Proc.devRef .tc main_v17) = (shapeCast S3 (extractStridedSlice S1x3 ![0, 0] a17 Cert.KernelIdeal.Facts₀.slices_S3x3_S1x3_0_0) Cert.KernelIdeal.Facts₀.shapeCasts_S1x3_S3)) :
    StableHlo.after (hostOps6 (F := F)) W (Proc.devRef .tc main_v170) = (shapeCast S1x1 (shapeCast S_ (extractStridedSlice S1 ![2] (shapeCast S3 (extractStridedSlice S1x3 ![0, 0] a17 Cert.KernelIdeal.Facts₀.slices_S3x3_S1x3_0_0) Cert.KernelIdeal.Facts₀.shapeCasts_S1x3_S3) Cert.KernelIdeal.Facts₀.slices_S3_S1_2) Cert.KernelIdeal.Facts₀.shapeCasts_S1_S_) Cert.KernelIdeal.Facts₀.shapeCasts_S_S1x1) := by
  subst_vars
  simp only [hostOps6]
  after_results_simp
  try simp only [h_main_v11, h_main_v9, h_main_v122, h_main_v17]
  all_goals rfl

set_option maxHeartbeats 2000000 in
/-- What main_v171 holds after the stretch. -/
theorem value6_main_v171 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a2 : (⟨Cert.ReferenceIdeal.S2x1600000, .i32⟩ : BufTy).Contents (Elt F)) (a3 : (⟨Cert.ReferenceIdeal.S1600000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v11 : W (Proc.devRef .tc main_v11) = (Cert.ReferenceIdeal.Stages.val_main_v25 (F := F) a2))
    (h_main_arg3 : W (Proc.devRef .tc main_arg3) = a3)
    (h_main_v9 : W (Proc.devRef .tc main_v9) = (Cert.ReferenceIdeal.Stages.val_main_v23 (F := F) a2))
    (h_main_v122 : W (Proc.devRef .tc main_v122) = (Cert.ReferenceIdeal.Stages.val_main_v159 (F := F) a0 a1 a2 a3 a10 a11 a12 a13 a14 a15 a16))
    (h_main_v17 : W (Proc.devRef .tc main_v17) = (shapeCast S3 (extractStridedSlice S1x3 ![0, 0] a17 Cert.KernelIdeal.Facts₀.slices_S3x3_S1x3_0_0) Cert.KernelIdeal.Facts₀.shapeCasts_S1x3_S3)) :
    StableHlo.after (hostOps6 (F := F)) W (Proc.devRef .tc main_v171) = (shapeCast S400000x1 (Cert.ReferenceIdeal.Stages.val_main_v42 (F := F) a2 a3) Cert.KernelIdeal.Facts₀.shapeCasts_S400000_S400000x1) := by
  subst_vars
  simp only [hostOps6]
  after_results_simp
  try simp only [h_main_v11, h_main_v9, h_main_v122, h_main_v17]
  all_goals rfl

end Cert.KernelIdeal.HostValue

end
-- ==== Proof.KHost7.lean ====
/-
  The kernel program's host stretch number 7 (13 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v174 holds after the stretch. -/
theorem value7_main_v174 {F : FTy → Type} [FloatOps F] (W : Valuation τ sig (Elt F)) (a4 : (⟨Cert.ReferenceIdeal.S2x400000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg4 : W (Proc.devRef .tc main_arg4) = a4)
    (h_main_arg15 : W (Proc.devRef .tc main_arg15) = a15)
    (h_main_arg16 : W (Proc.devRef .tc main_arg16) = a16)
    (h_main_arg17 : W (Proc.devRef .tc main_arg17) = a17) :
    StableHlo.after (hostOps7 (F := F)) W (Proc.devRef .tc main_v174) = (Cert.ReferenceIdeal.Stages.val_main_v220 (F := F) a4) := by
  subst_vars
  simp only [hostOps7]
  after_results_simp
  try simp only []
  all_goals rfl

set_option maxHeartbeats 2000000 in
/-- What main_v176 holds after the stretch. -/
theorem value7_main_v176 {F : FTy → Type} [FloatOps F] (W : Valuation τ sig (Elt F)) (a4 : (⟨Cert.ReferenceIdeal.S2x400000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg4 : W (Proc.devRef .tc main_arg4) = a4)
    (h_main_arg15 : W (Proc.devRef .tc main_arg15) = a15)
    (h_main_arg16 : W (Proc.devRef .tc main_arg16) = a16)
    (h_main_arg17 : W (Proc.devRef .tc main_arg17) = a17) :
    StableHlo.after (hostOps7 (F := F)) W (Proc.devRef .tc main_v176) = (Cert.ReferenceIdeal.Stages.val_main_v222 (F := F) a4) := by
  subst_vars
  simp only [hostOps7]
  after_results_simp
  try simp only []
  all_goals rfl

set_option maxHeartbeats 2000000 in
/-- What main_v178 holds after the stretch. -/
theorem value7_main_v178 {F : FTy → Type} [FloatOps F] (W : Valuation τ sig (Elt F)) (a4 : (⟨Cert.ReferenceIdeal.S2x400000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg4 : W (Proc.devRef .tc main_arg4) = a4)
    (h_main_arg15 : W (Proc.devRef .tc main_arg15) = a15)
    (h_main_arg16 : W (Proc.devRef .tc main_arg16) = a16)
    (h_main_arg17 : W (Proc.devRef .tc main_arg17) = a17) :
    StableHlo.after (hostOps7 (F := F)) W (Proc.devRef .tc main_v178) = (Cert.ReferenceIdeal.Stages.val_main_v225 (F := F) a15) := by
  subst_vars
  simp only [hostOps7]
  after_results_simp
  try simp only []
  all_goals rfl

set_option maxHeartbeats 2000000 in
/-- What main_v182 holds after the stretch. -/
theorem value7_main_v182 {F : FTy → Type} [FloatOps F] (W : Valuation τ sig (Elt F)) (a4 : (⟨Cert.ReferenceIdeal.S2x400000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg4 : W (Proc.devRef .tc main_arg4) = a4)
    (h_main_arg15 : W (Proc.devRef .tc main_arg15) = a15)
    (h_main_arg16 : W (Proc.devRef .tc main_arg16) = a16)
    (h_main_arg17 : W (Proc.devRef .tc main_arg17) = a17) :
    StableHlo.after (hostOps7 (F := F)) W (Proc.devRef .tc main_v182) = (shapeCast S3 (extractStridedSlice S1x3 ![1, 0] a17 Cert.KernelIdeal.Facts₀.slices_S3x3_S1x3_1_0) Cert.KernelIdeal.Facts₀.shapeCasts_S1x3_S3) := by
  subst_vars
  simp only [hostOps7]
  after_results_simp
  try simp only []
  all_goals rfl

set_option maxHeartbeats 2000000 in
/-- What main_v183 holds after the stretch. -/
theorem value7_main_v183 {F : FTy → Type} [FloatOps F] (W : Valuation τ sig (Elt F)) (a4 : (⟨Cert.ReferenceIdeal.S2x400000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg4 : W (Proc.devRef .tc main_arg4) = a4)
    (h_main_arg15 : W (Proc.devRef .tc main_arg15) = a15)
    (h_main_arg16 : W (Proc.devRef .tc main_arg16) = a16)
    (h_main_arg17 : W (Proc.devRef .tc main_arg17) = a17) :
    StableHlo.after (hostOps7 (F := F)) W (Proc.devRef .tc main_v183) = (Cert.ReferenceIdeal.Stages.val_main_v223 (F := F)) := by
  subst_vars
  simp only [hostOps7]
  after_results_simp
  try simp only []
  all_goals rfl

set_option maxHeartbeats 2000000 in
/-- What main_v184 holds after the stretch. -/
theorem value7_main_v184 {F : FTy → Type} [FloatOps F] (W : Valuation τ sig (Elt F)) (a4 : (⟨Cert.ReferenceIdeal.S2x400000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg4 : W (Proc.devRef .tc main_arg4) = a4)
    (h_main_arg15 : W (Proc.devRef .tc main_arg15) = a15)
    (h_main_arg16 : W (Proc.devRef .tc main_arg16) = a16)
    (h_main_arg17 : W (Proc.devRef .tc main_arg17) = a17) :
    StableHlo.after (hostOps7 (F := F)) W (Proc.devRef .tc main_v184) = (shapeCast S1x64 (Cert.ReferenceIdeal.Stages.val_main_v227 (F := F) a16) Cert.KernelIdeal.Facts₀.shapeCasts_S64_S1x64) := by
  subst_vars
  simp only [hostOps7]
  after_results_simp
  try simp only []
  all_goals rfl

end Cert.KernelIdeal.HostValue

end
-- ==== Proof.KHost8.lean ====
/-
  The kernel program's host stretch number 8 (62 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v230 holds after the stretch. -/
theorem value8_main_v230 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a17 : (⟨Cert.ReferenceIdeal.S3x3, .f32⟩ : BufTy).Contents (Elt F))
    (h_main_v176 : W (Proc.devRef .tc main_v176) = (Cert.ReferenceIdeal.Stages.val_main_v222 (F := F) a4))
    (h_main_arg5 : W (Proc.devRef .tc main_arg5) = a5)
    (h_main_v174 : W (Proc.devRef .tc main_v174) = (Cert.ReferenceIdeal.Stages.val_main_v220 (F := F) a4))
    (h_main_v185 : W (Proc.devRef .tc main_v185) = (Cert.ReferenceIdeal.Stages.val_main_v228 (F := F) a0 a1 a10 a11 a12 a13 a14 a15))
    (h_main_v182 : W (Proc.devRef .tc main_v182) = (shapeCast S3 (extractStridedSlice S1x3 ![1, 0] a17 Cert.KernelIdeal.Facts₀.slices_S3x3_S1x3_1_0) Cert.KernelIdeal.Facts₀.shapeCasts_S1x3_S3)) :
    StableHlo.after (hostOps8 (F := F)) W (Proc.devRef .tc main_v230) = (Cert.ReferenceIdeal.Stages.val_main_v273 (F := F) a0 a1 a4 a5 a10 a11 a12 a13 a14 a15) := by
  subst_vars
  simp only [hostOps8]
  after_results_simp
  try simp only [h_main_v176, h_main_v174, h_main_v185, h_main_v182]
  all_goals rfl

set_option maxHeartbeats 2000000 in
/-- What main_v233 holds after the stretch. -/
theorem value8_main_v233 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a17 : (⟨Cert.ReferenceIdeal.S3x3, .f32⟩ : BufTy).Contents (Elt F))
    (h_main_v176 : W (Proc.devRef .tc main_v176) = (Cert.ReferenceIdeal.Stages.val_main_v222 (F := F) a4))
    (h_main_arg5 : W (Proc.devRef .tc main_arg5) = a5)
    (h_main_v174 : W (Proc.devRef .tc main_v174) = (Cert.ReferenceIdeal.Stages.val_main_v220 (F := F) a4))
    (h_main_v185 : W (Proc.devRef .tc main_v185) = (Cert.ReferenceIdeal.Stages.val_main_v228 (F := F) a0 a1 a10 a11 a12 a13 a14 a15))
    (h_main_v182 : W (Proc.devRef .tc main_v182) = (shapeCast S3 (extractStridedSlice S1x3 ![1, 0] a17 Cert.KernelIdeal.Facts₀.slices_S3x3_S1x3_1_0) Cert.KernelIdeal.Facts₀.shapeCasts_S1x3_S3)) :
    StableHlo.after (hostOps8 (F := F)) W (Proc.devRef .tc main_v233) = (shapeCast S1x1 (shapeCast S_ (extractStridedSlice S1 ![0] (shapeCast S3 (extractStridedSlice S1x3 ![1, 0] a17 Cert.KernelIdeal.Facts₀.slices_S3x3_S1x3_1_0) Cert.KernelIdeal.Facts₀.shapeCasts_S1x3_S3) Cert.KernelIdeal.Facts₀.slices_S3_S1_0) Cert.KernelIdeal.Facts₀.shapeCasts_S1_S_) Cert.KernelIdeal.Facts₀.shapeCasts_S_S1x1) := by
  subst_vars
  simp only [hostOps8]
  after_results_simp
  try simp only [h_main_v176, h_main_v174, h_main_v185, h_main_v182]
  all_goals rfl

set_option maxHeartbeats 2000000 in
/-- What main_v234 holds after the stretch. -/
theorem value8_main_v234 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a17 : (⟨Cert.ReferenceIdeal.S3x3, .f32⟩ : BufTy).Contents (Elt F))
    (h_main_v176 : W (Proc.devRef .tc main_v176) = (Cert.ReferenceIdeal.Stages.val_main_v222 (F := F) a4))
    (h_main_arg5 : W (Proc.devRef .tc main_arg5) = a5)
    (h_main_v174 : W (Proc.devRef .tc main_v174) = (Cert.ReferenceIdeal.Stages.val_main_v220 (F := F) a4))
    (h_main_v185 : W (Proc.devRef .tc main_v185) = (Cert.ReferenceIdeal.Stages.val_main_v228 (F := F) a0 a1 a10 a11 a12 a13 a14 a15))
    (h_main_v182 : W (Proc.devRef .tc main_v182) = (shapeCast S3 (extractStridedSlice S1x3 ![1, 0] a17 Cert.KernelIdeal.Facts₀.slices_S3x3_S1x3_1_0) Cert.KernelIdeal.Facts₀.shapeCasts_S1x3_S3)) :
    StableHlo.after (hostOps8 (F := F)) W (Proc.devRef .tc main_v234) = (shapeCast S100000x1 (Cert.ReferenceIdeal.Stages.val_main_v239 (F := F) a4 a5) Cert.KernelIdeal.Facts₀.shapeCasts_S100000_S100000x1) := by
  subst_vars
  simp only [hostOps8]
  after_results_simp
  try simp only [h_main_v176, h_main_v174, h_main_v185, h_main_v182]
  all_goals rfl

end Cert.KernelIdeal.HostValue

end
-- ==== Proof.KHost10.lean ====
/-
  The kernel program's host stretch number 10 (62 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v281 holds after the stretch. -/
theorem value10_main_v281 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v176 : W (Proc.devRef .tc main_v176) = (Cert.ReferenceIdeal.Stages.val_main_v222 (F := F) a4))
    (h_main_arg5 : W (Proc.devRef .tc main_arg5) = a5)
    (h_main_v174 : W (Proc.devRef .tc main_v174) = (Cert.ReferenceIdeal.Stages.val_main_v220 (F := F) a4))
    (h_main_v236 : W (Proc.devRef .tc main_v236) = (Cert.ReferenceIdeal.Stages.val_main_v292 (F := F) a0 a1 a4 a5 a10 a11 a12 a13 a14 a15 a16))
    (h_main_v182 : W (Proc.devRef .tc main_v182) = (shapeCast S3 (extractStridedSlice S1x3 ![1, 0] a17 Cert.KernelIdeal.Facts₀.slices_S3x3_S1x3_1_0) Cert.KernelIdeal.Facts₀.shapeCasts_S1x3_S3)) :
    StableHlo.after (hostOps10 (F := F)) W (Proc.devRef .tc main_v281) = (Cert.ReferenceIdeal.Stages.val_main_v337 (F := F) a0 a1 a4 a5 a10 a11 a12 a13 a14 a15 a16) := by
  subst_vars
  simp only [hostOps10]
  after_results_simp
  try simp only [h_main_v176, h_main_v174, h_main_v236, h_main_v182]
  all_goals rfl

set_option maxHeartbeats 2000000 in
/-- What main_v284 holds after the stretch. -/
theorem value10_main_v284 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v176 : W (Proc.devRef .tc main_v176) = (Cert.ReferenceIdeal.Stages.val_main_v222 (F := F) a4))
    (h_main_arg5 : W (Proc.devRef .tc main_arg5) = a5)
    (h_main_v174 : W (Proc.devRef .tc main_v174) = (Cert.ReferenceIdeal.Stages.val_main_v220 (F := F) a4))
    (h_main_v236 : W (Proc.devRef .tc main_v236) = (Cert.ReferenceIdeal.Stages.val_main_v292 (F := F) a0 a1 a4 a5 a10 a11 a12 a13 a14 a15 a16))
    (h_main_v182 : W (Proc.devRef .tc main_v182) = (shapeCast S3 (extractStridedSlice S1x3 ![1, 0] a17 Cert.KernelIdeal.Facts₀.slices_S3x3_S1x3_1_0) Cert.KernelIdeal.Facts₀.shapeCasts_S1x3_S3)) :
    StableHlo.after (hostOps10 (F := F)) W (Proc.devRef .tc main_v284) = (shapeCast S1x1 (shapeCast S_ (extractStridedSlice S1 ![1] (shapeCast S3 (extractStridedSlice S1x3 ![1, 0] a17 Cert.KernelIdeal.Facts₀.slices_S3x3_S1x3_1_0) Cert.KernelIdeal.Facts₀.shapeCasts_S1x3_S3) Cert.KernelIdeal.Facts₀.slices_S3_S1_1) Cert.KernelIdeal.Facts₀.shapeCasts_S1_S_) Cert.KernelIdeal.Facts₀.shapeCasts_S_S1x1) := by
  subst_vars
  simp only [hostOps10]
  after_results_simp
  try simp only [h_main_v176, h_main_v174, h_main_v236, h_main_v182]
  all_goals rfl

set_option maxHeartbeats 2000000 in
/-- What main_v285 holds after the stretch. -/
theorem value10_main_v285 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v176 : W (Proc.devRef .tc main_v176) = (Cert.ReferenceIdeal.Stages.val_main_v222 (F := F) a4))
    (h_main_arg5 : W (Proc.devRef .tc main_arg5) = a5)
    (h_main_v174 : W (Proc.devRef .tc main_v174) = (Cert.ReferenceIdeal.Stages.val_main_v220 (F := F) a4))
    (h_main_v236 : W (Proc.devRef .tc main_v236) = (Cert.ReferenceIdeal.Stages.val_main_v292 (F := F) a0 a1 a4 a5 a10 a11 a12 a13 a14 a15 a16))
    (h_main_v182 : W (Proc.devRef .tc main_v182) = (shapeCast S3 (extractStridedSlice S1x3 ![1, 0] a17 Cert.KernelIdeal.Facts₀.slices_S3x3_S1x3_1_0) Cert.KernelIdeal.Facts₀.shapeCasts_S1x3_S3)) :
    StableHlo.after (hostOps10 (F := F)) W (Proc.devRef .tc main_v285) = (shapeCast S100000x1 (Cert.ReferenceIdeal.Stages.val_main_v239 (F := F) a4 a5) Cert.KernelIdeal.Facts₀.shapeCasts_S100000_S100000x1) := by
  subst_vars
  simp only [hostOps10]
  after_results_simp
  try simp only [h_main_v176, h_main_v174, h_main_v236, h_main_v182]
  all_goals rfl

end Cert.KernelIdeal.HostValue

end
-- ==== Proof.KHost12.lean ====
/-
  The kernel program's host stretch number 12 (62 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v332 holds after the stretch. -/
theorem value12_main_v332 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v176 : W (Proc.devRef .tc main_v176) = (Cert.ReferenceIdeal.Stages.val_main_v222 (F := F) a4))
    (h_main_arg5 : W (Proc.devRef .tc main_arg5) = a5)
    (h_main_v174 : W (Proc.devRef .tc main_v174) = (Cert.ReferenceIdeal.Stages.val_main_v220 (F := F) a4))
    (h_main_v287 : W (Proc.devRef .tc main_v287) = (Cert.ReferenceIdeal.Stages.val_main_v356 (F := F) a0 a1 a4 a5 a10 a11 a12 a13 a14 a15 a16))
    (h_main_v182 : W (Proc.devRef .tc main_v182) = (shapeCast S3 (extractStridedSlice S1x3 ![1, 0] a17 Cert.KernelIdeal.Facts₀.slices_S3x3_S1x3_1_0) Cert.KernelIdeal.Facts₀.shapeCasts_S1x3_S3)) :
    StableHlo.after (hostOps12 (F := F)) W (Proc.devRef .tc main_v332) = (Cert.ReferenceIdeal.Stages.val_main_v401 (F := F) a0 a1 a4 a5 a10 a11 a12 a13 a14 a15 a16) := by
  subst_vars
  simp only [hostOps12]
  after_results_simp
  try simp only [h_main_v176, h_main_v174, h_main_v287, h_main_v182]
  all_goals rfl

set_option maxHeartbeats 2000000 in
/-- What main_v335 holds after the stretch. -/
theorem value12_main_v335 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v176 : W (Proc.devRef .tc main_v176) = (Cert.ReferenceIdeal.Stages.val_main_v222 (F := F) a4))
    (h_main_arg5 : W (Proc.devRef .tc main_arg5) = a5)
    (h_main_v174 : W (Proc.devRef .tc main_v174) = (Cert.ReferenceIdeal.Stages.val_main_v220 (F := F) a4))
    (h_main_v287 : W (Proc.devRef .tc main_v287) = (Cert.ReferenceIdeal.Stages.val_main_v356 (F := F) a0 a1 a4 a5 a10 a11 a12 a13 a14 a15 a16))
    (h_main_v182 : W (Proc.devRef .tc main_v182) = (shapeCast S3 (extractStridedSlice S1x3 ![1, 0] a17 Cert.KernelIdeal.Facts₀.slices_S3x3_S1x3_1_0) Cert.KernelIdeal.Facts₀.shapeCasts_S1x3_S3)) :
    StableHlo.after (hostOps12 (F := F)) W (Proc.devRef .tc main_v335) = (shapeCast S1x1 (shapeCast S_ (extractStridedSlice S1 ![2] (shapeCast S3 (extractStridedSlice S1x3 ![1, 0] a17 Cert.KernelIdeal.Facts₀.slices_S3x3_S1x3_1_0) Cert.KernelIdeal.Facts₀.shapeCasts_S1x3_S3) Cert.KernelIdeal.Facts₀.slices_S3_S1_2) Cert.KernelIdeal.Facts₀.shapeCasts_S1_S_) Cert.KernelIdeal.Facts₀.shapeCasts_S_S1x1) := by
  subst_vars
  simp only [hostOps12]
  after_results_simp
  try simp only [h_main_v176, h_main_v174, h_main_v287, h_main_v182]
  all_goals rfl

set_option maxHeartbeats 2000000 in
/-- What main_v336 holds after the stretch. -/
theorem value12_main_v336 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v176 : W (Proc.devRef .tc main_v176) = (Cert.ReferenceIdeal.Stages.val_main_v222 (F := F) a4))
    (h_main_arg5 : W (Proc.devRef .tc main_arg5) = a5)
    (h_main_v174 : W (Proc.devRef .tc main_v174) = (Cert.ReferenceIdeal.Stages.val_main_v220 (F := F) a4))
    (h_main_v287 : W (Proc.devRef .tc main_v287) = (Cert.ReferenceIdeal.Stages.val_main_v356 (F := F) a0 a1 a4 a5 a10 a11 a12 a13 a14 a15 a16))
    (h_main_v182 : W (Proc.devRef .tc main_v182) = (shapeCast S3 (extractStridedSlice S1x3 ![1, 0] a17 Cert.KernelIdeal.Facts₀.slices_S3x3_S1x3_1_0) Cert.KernelIdeal.Facts₀.shapeCasts_S1x3_S3)) :
    StableHlo.after (hostOps12 (F := F)) W (Proc.devRef .tc main_v336) = (shapeCast S100000x1 (Cert.ReferenceIdeal.Stages.val_main_v239 (F := F) a4 a5) Cert.KernelIdeal.Facts₀.shapeCasts_S100000_S100000x1) := by
  subst_vars
  simp only [hostOps12]
  after_results_simp
  try simp only [h_main_v176, h_main_v174, h_main_v287, h_main_v182]
  all_goals rfl

end Cert.KernelIdeal.HostValue

end
-- ==== Proof.KHost13.lean ====
/-
  The kernel program's host stretch number 13 (13 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v339 holds after the stretch. -/
theorem value13_main_v339 {F : FTy → Type} [FloatOps F] (W : Valuation τ sig (Elt F)) (a6 : (⟨Cert.ReferenceIdeal.S2x100000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg6 : W (Proc.devRef .tc main_arg6) = a6)
    (h_main_arg15 : W (Proc.devRef .tc main_arg15) = a15)
    (h_main_arg16 : W (Proc.devRef .tc main_arg16) = a16)
    (h_main_arg17 : W (Proc.devRef .tc main_arg17) = a17) :
    StableHlo.after (hostOps13 (F := F)) W (Proc.devRef .tc main_v339) = (Cert.ReferenceIdeal.Stages.val_main_v417 (F := F) a6) := by
  subst_vars
  simp only [hostOps13]
  after_results_simp
  try simp only []
  all_goals rfl

set_option maxHeartbeats 2000000 in
/-- What main_v341 holds after the stretch. -/
theorem value13_main_v341 {F : FTy → Type} [FloatOps F] (W : Valuation τ sig (Elt F)) (a6 : (⟨Cert.ReferenceIdeal.S2x100000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg6 : W (Proc.devRef .tc main_arg6) = a6)
    (h_main_arg15 : W (Proc.devRef .tc main_arg15) = a15)
    (h_main_arg16 : W (Proc.devRef .tc main_arg16) = a16)
    (h_main_arg17 : W (Proc.devRef .tc main_arg17) = a17) :
    StableHlo.after (hostOps13 (F := F)) W (Proc.devRef .tc main_v341) = (Cert.ReferenceIdeal.Stages.val_main_v419 (F := F) a6) := by
  subst_vars
  simp only [hostOps13]
  after_results_simp
  try simp only []
  all_goals rfl

set_option maxHeartbeats 2000000 in
/-- What main_v343 holds after the stretch. -/
theorem value13_main_v343 {F : FTy → Type} [FloatOps F] (W : Valuation τ sig (Elt F)) (a6 : (⟨Cert.ReferenceIdeal.S2x100000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg6 : W (Proc.devRef .tc main_arg6) = a6)
    (h_main_arg15 : W (Proc.devRef .tc main_arg15) = a15)
    (h_main_arg16 : W (Proc.devRef .tc main_arg16) = a16)
    (h_main_arg17 : W (Proc.devRef .tc main_arg17) = a17) :
    StableHlo.after (hostOps13 (F := F)) W (Proc.devRef .tc main_v343) = (Cert.ReferenceIdeal.Stages.val_main_v422 (F := F) a15) := by
  subst_vars
  simp only [hostOps13]
  after_results_simp
  try simp only []
  all_goals rfl

set_option maxHeartbeats 2000000 in
/-- What main_v347 holds after the stretch. -/
theorem value13_main_v347 {F : FTy → Type} [FloatOps F] (W : Valuation τ sig (Elt F)) (a6 : (⟨Cert.ReferenceIdeal.S2x100000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg6 : W (Proc.devRef .tc main_arg6) = a6)
    (h_main_arg15 : W (Proc.devRef .tc main_arg15) = a15)
    (h_main_arg16 : W (Proc.devRef .tc main_arg16) = a16)
    (h_main_arg17 : W (Proc.devRef .tc main_arg17) = a17) :
    StableHlo.after (hostOps13 (F := F)) W (Proc.devRef .tc main_v347) = (shapeCast S3 (extractStridedSlice S1x3 ![2, 0] a17 Cert.KernelIdeal.Facts₀.slices_S3x3_S1x3_2_0) Cert.KernelIdeal.Facts₀.shapeCasts_S1x3_S3) := by
  subst_vars
  simp only [hostOps13]
  after_results_simp
  try simp only []
  all_goals rfl

set_option maxHeartbeats 2000000 in
/-- What main_v348 holds after the stretch. -/
theorem value13_main_v348 {F : FTy → Type} [FloatOps F] (W : Valuation τ sig (Elt F)) (a6 : (⟨Cert.ReferenceIdeal.S2x100000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg6 : W (Proc.devRef .tc main_arg6) = a6)
    (h_main_arg15 : W (Proc.devRef .tc main_arg15) = a15)
    (h_main_arg16 : W (Proc.devRef .tc main_arg16) = a16)
    (h_main_arg17 : W (Proc.devRef .tc main_arg17) = a17) :
    StableHlo.after (hostOps13 (F := F)) W (Proc.devRef .tc main_v348) = (Cert.ReferenceIdeal.Stages.val_main_v420 (F := F)) := by
  subst_vars
  simp only [hostOps13]
  after_results_simp
  try simp only []
  all_goals rfl

set_option maxHeartbeats 2000000 in
/-- What main_v349 holds after the stretch. -/
theorem value13_main_v349 {F : FTy → Type} [FloatOps F] (W : Valuation τ sig (Elt F)) (a6 : (⟨Cert.ReferenceIdeal.S2x100000, .i32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg6 : W (Proc.devRef .tc main_arg6) = a6)
    (h_main_arg15 : W (Proc.devRef .tc main_arg15) = a15)
    (h_main_arg16 : W (Proc.devRef .tc main_arg16) = a16)
    (h_main_arg17 : W (Proc.devRef .tc main_arg17) = a17) :
    StableHlo.after (hostOps13 (F := F)) W (Proc.devRef .tc main_v349) = (shapeCast S1x64 (Cert.ReferenceIdeal.Stages.val_main_v424 (F := F) a16) Cert.KernelIdeal.Facts₀.shapeCasts_S64_S1x64) := by
  subst_vars
  simp only [hostOps13]
  after_results_simp
  try simp only []
  all_goals rfl

end Cert.KernelIdeal.HostValue

end
-- ==== Proof.KHost14.lean ====
/-
  The kernel program's host stretch number 14 (62 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v395 holds after the stretch. -/
theorem value14_main_v395 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a17 : (⟨Cert.ReferenceIdeal.S3x3, .f32⟩ : BufTy).Contents (Elt F))
    (h_main_v341 : W (Proc.devRef .tc main_v341) = (Cert.ReferenceIdeal.Stages.val_main_v419 (F := F) a6))
    (h_main_arg7 : W (Proc.devRef .tc main_arg7) = a7)
    (h_main_v339 : W (Proc.devRef .tc main_v339) = (Cert.ReferenceIdeal.Stages.val_main_v417 (F := F) a6))
    (h_main_v350 : W (Proc.devRef .tc main_v350) = (Cert.ReferenceIdeal.Stages.val_main_v425 (F := F) a0 a1 a10 a11 a12 a13 a14 a15))
    (h_main_v347 : W (Proc.devRef .tc main_v347) = (shapeCast S3 (extractStridedSlice S1x3 ![2, 0] a17 Cert.KernelIdeal.Facts₀.slices_S3x3_S1x3_2_0) Cert.KernelIdeal.Facts₀.shapeCasts_S1x3_S3)) :
    StableHlo.after (hostOps14 (F := F)) W (Proc.devRef .tc main_v395) = (Cert.ReferenceIdeal.Stages.val_main_v470 (F := F) a0 a1 a6 a7 a10 a11 a12 a13 a14 a15) := by
  subst_vars
  simp only [hostOps14]
  after_results_simp
  try simp only [h_main_v341, h_main_v339, h_main_v350, h_main_v347]
  all_goals rfl

set_option maxHeartbeats 2000000 in
/-- What main_v398 holds after the stretch. -/
theorem value14_main_v398 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a17 : (⟨Cert.ReferenceIdeal.S3x3, .f32⟩ : BufTy).Contents (Elt F))
    (h_main_v341 : W (Proc.devRef .tc main_v341) = (Cert.ReferenceIdeal.Stages.val_main_v419 (F := F) a6))
    (h_main_arg7 : W (Proc.devRef .tc main_arg7) = a7)
    (h_main_v339 : W (Proc.devRef .tc main_v339) = (Cert.ReferenceIdeal.Stages.val_main_v417 (F := F) a6))
    (h_main_v350 : W (Proc.devRef .tc main_v350) = (Cert.ReferenceIdeal.Stages.val_main_v425 (F := F) a0 a1 a10 a11 a12 a13 a14 a15))
    (h_main_v347 : W (Proc.devRef .tc main_v347) = (shapeCast S3 (extractStridedSlice S1x3 ![2, 0] a17 Cert.KernelIdeal.Facts₀.slices_S3x3_S1x3_2_0) Cert.KernelIdeal.Facts₀.shapeCasts_S1x3_S3)) :
    StableHlo.after (hostOps14 (F := F)) W (Proc.devRef .tc main_v398) = (shapeCast S1x1 (shapeCast S_ (extractStridedSlice S1 ![0] (shapeCast S3 (extractStridedSlice S1x3 ![2, 0] a17 Cert.KernelIdeal.Facts₀.slices_S3x3_S1x3_2_0) Cert.KernelIdeal.Facts₀.shapeCasts_S1x3_S3) Cert.KernelIdeal.Facts₀.slices_S3_S1_0) Cert.KernelIdeal.Facts₀.shapeCasts_S1_S_) Cert.KernelIdeal.Facts₀.shapeCasts_S_S1x1) := by
  subst_vars
  simp only [hostOps14]
  after_results_simp
  try simp only [h_main_v341, h_main_v339, h_main_v350, h_main_v347]
  all_goals rfl

set_option maxHeartbeats 2000000 in
/-- What main_v399 holds after the stretch. -/
theorem value14_main_v399 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a17 : (⟨Cert.ReferenceIdeal.S3x3, .f32⟩ : BufTy).Contents (Elt F))
    (h_main_v341 : W (Proc.devRef .tc main_v341) = (Cert.ReferenceIdeal.Stages.val_main_v419 (F := F) a6))
    (h_main_arg7 : W (Proc.devRef .tc main_arg7) = a7)
    (h_main_v339 : W (Proc.devRef .tc main_v339) = (Cert.ReferenceIdeal.Stages.val_main_v417 (F := F) a6))
    (h_main_v350 : W (Proc.devRef .tc main_v350) = (Cert.ReferenceIdeal.Stages.val_main_v425 (F := F) a0 a1 a10 a11 a12 a13 a14 a15))
    (h_main_v347 : W (Proc.devRef .tc main_v347) = (shapeCast S3 (extractStridedSlice S1x3 ![2, 0] a17 Cert.KernelIdeal.Facts₀.slices_S3x3_S1x3_2_0) Cert.KernelIdeal.Facts₀.shapeCasts_S1x3_S3)) :
    StableHlo.after (hostOps14 (F := F)) W (Proc.devRef .tc main_v399) = (shapeCast S25000x1 (Cert.ReferenceIdeal.Stages.val_main_v436 (F := F) a6 a7) Cert.KernelIdeal.Facts₀.shapeCasts_S25000_S25000x1) := by
  subst_vars
  simp only [hostOps14]
  after_results_simp
  try simp only [h_main_v341, h_main_v339, h_main_v350, h_main_v347]
  all_goals rfl

end Cert.KernelIdeal.HostValue

end
-- ==== Proof.KHost16.lean ====
/-
  The kernel program's host stretch number 16 (62 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v446 holds after the stretch. -/
theorem value16_main_v446 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v341 : W (Proc.devRef .tc main_v341) = (Cert.ReferenceIdeal.Stages.val_main_v419 (F := F) a6))
    (h_main_arg7 : W (Proc.devRef .tc main_arg7) = a7)
    (h_main_v339 : W (Proc.devRef .tc main_v339) = (Cert.ReferenceIdeal.Stages.val_main_v417 (F := F) a6))
    (h_main_v401 : W (Proc.devRef .tc main_v401) = (Cert.ReferenceIdeal.Stages.val_main_v489 (F := F) a0 a1 a6 a7 a10 a11 a12 a13 a14 a15 a16))
    (h_main_v347 : W (Proc.devRef .tc main_v347) = (shapeCast S3 (extractStridedSlice S1x3 ![2, 0] a17 Cert.KernelIdeal.Facts₀.slices_S3x3_S1x3_2_0) Cert.KernelIdeal.Facts₀.shapeCasts_S1x3_S3)) :
    StableHlo.after (hostOps16 (F := F)) W (Proc.devRef .tc main_v446) = (Cert.ReferenceIdeal.Stages.val_main_v534 (F := F) a0 a1 a6 a7 a10 a11 a12 a13 a14 a15 a16) := by
  subst_vars
  simp only [hostOps16]
  after_results_simp
  try simp only [h_main_v341, h_main_v339, h_main_v401, h_main_v347]
  all_goals rfl

set_option maxHeartbeats 2000000 in
/-- What main_v449 holds after the stretch. -/
theorem value16_main_v449 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v341 : W (Proc.devRef .tc main_v341) = (Cert.ReferenceIdeal.Stages.val_main_v419 (F := F) a6))
    (h_main_arg7 : W (Proc.devRef .tc main_arg7) = a7)
    (h_main_v339 : W (Proc.devRef .tc main_v339) = (Cert.ReferenceIdeal.Stages.val_main_v417 (F := F) a6))
    (h_main_v401 : W (Proc.devRef .tc main_v401) = (Cert.ReferenceIdeal.Stages.val_main_v489 (F := F) a0 a1 a6 a7 a10 a11 a12 a13 a14 a15 a16))
    (h_main_v347 : W (Proc.devRef .tc main_v347) = (shapeCast S3 (extractStridedSlice S1x3 ![2, 0] a17 Cert.KernelIdeal.Facts₀.slices_S3x3_S1x3_2_0) Cert.KernelIdeal.Facts₀.shapeCasts_S1x3_S3)) :
    StableHlo.after (hostOps16 (F := F)) W (Proc.devRef .tc main_v449) = (shapeCast S1x1 (shapeCast S_ (extractStridedSlice S1 ![1] (shapeCast S3 (extractStridedSlice S1x3 ![2, 0] a17 Cert.KernelIdeal.Facts₀.slices_S3x3_S1x3_2_0) Cert.KernelIdeal.Facts₀.shapeCasts_S1x3_S3) Cert.KernelIdeal.Facts₀.slices_S3_S1_1) Cert.KernelIdeal.Facts₀.shapeCasts_S1_S_) Cert.KernelIdeal.Facts₀.shapeCasts_S_S1x1) := by
  subst_vars
  simp only [hostOps16]
  after_results_simp
  try simp only [h_main_v341, h_main_v339, h_main_v401, h_main_v347]
  all_goals rfl

set_option maxHeartbeats 2000000 in
/-- What main_v450 holds after the stretch. -/
theorem value16_main_v450 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v341 : W (Proc.devRef .tc main_v341) = (Cert.ReferenceIdeal.Stages.val_main_v419 (F := F) a6))
    (h_main_arg7 : W (Proc.devRef .tc main_arg7) = a7)
    (h_main_v339 : W (Proc.devRef .tc main_v339) = (Cert.ReferenceIdeal.Stages.val_main_v417 (F := F) a6))
    (h_main_v401 : W (Proc.devRef .tc main_v401) = (Cert.ReferenceIdeal.Stages.val_main_v489 (F := F) a0 a1 a6 a7 a10 a11 a12 a13 a14 a15 a16))
    (h_main_v347 : W (Proc.devRef .tc main_v347) = (shapeCast S3 (extractStridedSlice S1x3 ![2, 0] a17 Cert.KernelIdeal.Facts₀.slices_S3x3_S1x3_2_0) Cert.KernelIdeal.Facts₀.shapeCasts_S1x3_S3)) :
    StableHlo.after (hostOps16 (F := F)) W (Proc.devRef .tc main_v450) = (shapeCast S25000x1 (Cert.ReferenceIdeal.Stages.val_main_v436 (F := F) a6 a7) Cert.KernelIdeal.Facts₀.shapeCasts_S25000_S25000x1) := by
  subst_vars
  simp only [hostOps16]
  after_results_simp
  try simp only [h_main_v341, h_main_v339, h_main_v401, h_main_v347]
  all_goals rfl

end Cert.KernelIdeal.HostValue

end
-- ==== Proof.KHost18.lean ====
/-
  The kernel program's host stretch number 18 (62 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v497 holds after the stretch. -/
theorem value18_main_v497 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v341 : W (Proc.devRef .tc main_v341) = (Cert.ReferenceIdeal.Stages.val_main_v419 (F := F) a6))
    (h_main_arg7 : W (Proc.devRef .tc main_arg7) = a7)
    (h_main_v339 : W (Proc.devRef .tc main_v339) = (Cert.ReferenceIdeal.Stages.val_main_v417 (F := F) a6))
    (h_main_v452 : W (Proc.devRef .tc main_v452) = (Cert.ReferenceIdeal.Stages.val_main_v553 (F := F) a0 a1 a6 a7 a10 a11 a12 a13 a14 a15 a16))
    (h_main_v347 : W (Proc.devRef .tc main_v347) = (shapeCast S3 (extractStridedSlice S1x3 ![2, 0] a17 Cert.KernelIdeal.Facts₀.slices_S3x3_S1x3_2_0) Cert.KernelIdeal.Facts₀.shapeCasts_S1x3_S3)) :
    StableHlo.after (hostOps18 (F := F)) W (Proc.devRef .tc main_v497) = (Cert.ReferenceIdeal.Stages.val_main_v598 (F := F) a0 a1 a6 a7 a10 a11 a12 a13 a14 a15 a16) := by
  subst_vars
  simp only [hostOps18]
  after_results_simp
  try simp only [h_main_v341, h_main_v339, h_main_v452, h_main_v347]
  all_goals rfl

set_option maxHeartbeats 2000000 in
/-- What main_v500 holds after the stretch. -/
theorem value18_main_v500 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v341 : W (Proc.devRef .tc main_v341) = (Cert.ReferenceIdeal.Stages.val_main_v419 (F := F) a6))
    (h_main_arg7 : W (Proc.devRef .tc main_arg7) = a7)
    (h_main_v339 : W (Proc.devRef .tc main_v339) = (Cert.ReferenceIdeal.Stages.val_main_v417 (F := F) a6))
    (h_main_v452 : W (Proc.devRef .tc main_v452) = (Cert.ReferenceIdeal.Stages.val_main_v553 (F := F) a0 a1 a6 a7 a10 a11 a12 a13 a14 a15 a16))
    (h_main_v347 : W (Proc.devRef .tc main_v347) = (shapeCast S3 (extractStridedSlice S1x3 ![2, 0] a17 Cert.KernelIdeal.Facts₀.slices_S3x3_S1x3_2_0) Cert.KernelIdeal.Facts₀.shapeCasts_S1x3_S3)) :
    StableHlo.after (hostOps18 (F := F)) W (Proc.devRef .tc main_v500) = (shapeCast S1x1 (shapeCast S_ (extractStridedSlice S1 ![2] (shapeCast S3 (extractStridedSlice S1x3 ![2, 0] a17 Cert.KernelIdeal.Facts₀.slices_S3x3_S1x3_2_0) Cert.KernelIdeal.Facts₀.shapeCasts_S1x3_S3) Cert.KernelIdeal.Facts₀.slices_S3_S1_2) Cert.KernelIdeal.Facts₀.shapeCasts_S1_S_) Cert.KernelIdeal.Facts₀.shapeCasts_S_S1x1) := by
  subst_vars
  simp only [hostOps18]
  after_results_simp
  try simp only [h_main_v341, h_main_v339, h_main_v452, h_main_v347]
  all_goals rfl

set_option maxHeartbeats 2000000 in
/-- What main_v501 holds after the stretch. -/
theorem value18_main_v501 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_v341 : W (Proc.devRef .tc main_v341) = (Cert.ReferenceIdeal.Stages.val_main_v419 (F := F) a6))
    (h_main_arg7 : W (Proc.devRef .tc main_arg7) = a7)
    (h_main_v339 : W (Proc.devRef .tc main_v339) = (Cert.ReferenceIdeal.Stages.val_main_v417 (F := F) a6))
    (h_main_v452 : W (Proc.devRef .tc main_v452) = (Cert.ReferenceIdeal.Stages.val_main_v553 (F := F) a0 a1 a6 a7 a10 a11 a12 a13 a14 a15 a16))
    (h_main_v347 : W (Proc.devRef .tc main_v347) = (shapeCast S3 (extractStridedSlice S1x3 ![2, 0] a17 Cert.KernelIdeal.Facts₀.slices_S3x3_S1x3_2_0) Cert.KernelIdeal.Facts₀.shapeCasts_S1x3_S3)) :
    StableHlo.after (hostOps18 (F := F)) W (Proc.devRef .tc main_v501) = (shapeCast S25000x1 (Cert.ReferenceIdeal.Stages.val_main_v436 (F := F) a6 a7) Cert.KernelIdeal.Facts₀.shapeCasts_S25000_S25000x1) := by
  subst_vars
  simp only [hostOps18]
  after_results_simp
  try simp only [h_main_v341, h_main_v339, h_main_v452, h_main_v347]
  all_goals rfl

end Cert.KernelIdeal.HostValue

end
-- ==== Proof.KHost19.lean ====
/-
  The kernel program's host stretch number 19 (60 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v524 holds after the stretch. -/
theorem value19_main_v524 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a8 : (⟨Cert.ReferenceIdeal.S100000, .i32⟩ : BufTy).Contents (Elt F)) (a9 : (⟨Cert.ReferenceIdeal.S25000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg8 : W (Proc.devRef .tc main_arg8) = a8)
    (h_main_v337_1 : W (Proc.devRef .tc main_v337_1) = (Cert.ReferenceIdeal.Stages.val_main_v415 (F := F) a0 a1 a4 a5 a10 a11 a12 a13 a14 a15 a16 a17))
    (h_main_arg9 : W (Proc.devRef .tc main_arg9) = a9)
    (h_main_v502_1 : W (Proc.devRef .tc main_v502_1) = (Cert.ReferenceIdeal.Stages.val_main_v612 (F := F) a0 a1 a6 a7 a10 a11 a12 a13 a14 a15 a16 a17)) :
    StableHlo.after (hostOps19 (F := F)) W (Proc.devRef .tc main_v524) = (Cert.ReferenceIdeal.Stages.val_main_v634 (F := F) a0 a1 a4 a5 a8 a10 a11 a12 a13 a14 a15 a16 a17) := by
  subst_vars
  simp only [hostOps19]
  after_results_simp
  try simp only [h_main_v337_1, h_main_v502_1]
  all_goals rfl

set_option maxHeartbeats 2000000 in
/-- What main_v546 holds after the stretch. -/
theorem value19_main_v546 {F : FTy → Type} [FloatOps F] (W : Valuation τ sig (Elt F)) (a0 : (⟨Cert.ReferenceIdeal.S525000x6, .f32⟩ : BufTy).Contents (Elt F)) (a1 : (⟨Cert.ReferenceIdeal.S525000x10, .f32⟩ : BufTy).Contents (Elt F)) (a4 : (⟨Cert.ReferenceIdeal.S2x400000, .i32⟩ : BufTy).Contents (Elt F)) (a5 : (⟨Cert.ReferenceIdeal.S400000, .f32⟩ : BufTy).Contents (Elt F)) (a6 : (⟨Cert.ReferenceIdeal.S2x100000, .i32⟩ : BufTy).Contents (Elt F)) (a7 : (⟨Cert.ReferenceIdeal.S100000, .f32⟩ : BufTy).Contents (Elt F)) (a8 : (⟨Cert.ReferenceIdeal.S100000, .i32⟩ : BufTy).Contents (Elt F)) (a9 : (⟨Cert.ReferenceIdeal.S25000, .i32⟩ : BufTy).Contents (Elt F)) (a10 : (⟨Cert.ReferenceIdeal.S16x64, .f32⟩ : BufTy).Contents (Elt F)) (a11 : (⟨Cert.ReferenceIdeal.S64, .f32⟩ : BufTy).Contents (Elt F)) (a12 : (⟨Cert.ReferenceIdeal.S64x64, .f32⟩ : BufTy).Contents (Elt F)) (a13 : (⟨Cert.ReferenceIdeal.S64, .f32⟩ : BufTy).Contents (Elt F)) (a14 : (⟨Cert.ReferenceIdeal.S_, .f32⟩ : BufTy).Contents (Elt F)) (a15 : (⟨Cert.ReferenceIdeal.S3x64x64, .f32⟩ : BufTy).Contents (Elt F)) (a16 : (⟨Cert.ReferenceIdeal.S3x64, .f32⟩ : BufTy).Contents (Elt F)) (a17 : (⟨Cert.ReferenceIdeal.S3x3, .f32⟩ : BufTy).Contents (Elt F))
    (h_main_arg8 : W (Proc.devRef .tc main_arg8) = a8)
    (h_main_v337_1 : W (Proc.devRef .tc main_v337_1) = (Cert.ReferenceIdeal.Stages.val_main_v415 (F := F) a0 a1 a4 a5 a10 a11 a12 a13 a14 a15 a16 a17))
    (h_main_arg9 : W (Proc.devRef .tc main_arg9) = a9)
    (h_main_v502_1 : W (Proc.devRef .tc main_v502_1) = (Cert.ReferenceIdeal.Stages.val_main_v612 (F := F) a0 a1 a6 a7 a10 a11 a12 a13 a14 a15 a16 a17)) :
    StableHlo.after (hostOps19 (F := F)) W (Proc.devRef .tc main_v546) = (Cert.ReferenceIdeal.Stages.val_main_v657 (F := F) a0 a1 a6 a7 a9 a10 a11 a12 a13 a14 a15 a16 a17) := by
  subst_vars
  simp only [hostOps19]
  after_results_simp
  try simp only [h_main_v337_1, h_main_v502_1]
  all_goals rfl

end Cert.KernelIdeal.HostValue

end
-- ==== Proof.KHost20.lean ====
/-
  The kernel program's host stretch number 20 (3 operations between two regions), read as values: for each
  buffer of the stretch that a later segment reads, what it holds after the stretch, given what the stretch's inputs hold
  before it. The inputs are named by the reference's stage values of the same arguments (the two programs apply the same
  host operations to them), a reshaped operand by the reshape of one; the output is then the reference's stage value of
  the aligned operation, because that stage is defined as the same operation of the same operands.
-/
import proofs.«418542_j22608707846200_1_alg».proof.Proof.Gen.KernelIdeal.Launch
import proofs.«418542_j22608707846200_1_alg».proof.Proof.RefStages
import Idealize.ShloMosaic.Lib.StableHlo.Run

set_option maxRecDepth 16384

noncomputable section

namespace Cert.KernelIdeal.HostValue

open Idealize.ShloMosaic Idealize.ShloMosaic.TcCoe Idealize.ShloMosaic.StableHlo Cert.KernelIdeal Cert.KernelIdeal.Gen

set_option maxHeartbeats 2000000 in
/-- What main_v548 holds after the stretch. -/
theorem value20_main_v548 {F : FTy → Type} [FloatOps F] (W : Valuation τ sig (Elt F)) (a19 : (⟨Cert.ReferenceIdeal.S64, .f32⟩ : BufTy).Contents (Elt F)) (a21 : (⟨Cert.ReferenceIdeal.S2, .f32⟩ : BufTy).Contents (Elt F)) (a22 : (⟨Cert.ReferenceIdeal.S_, .f32⟩ : BufTy).Contents (Elt F))
    (h_main_arg19 : W (Proc.devRef .tc main_arg19) = a19)
    (h_main_arg21 : W (Proc.devRef .tc main_arg21) = a21)
    (h_main_arg22 : W (Proc.devRef .tc main_arg22) = a22) :
    StableHlo.after (hostOps20 (F := F)) W (Proc.devRef .tc main_v548) = (shapeCast S1x64 a19 Cert.KernelIdeal.Facts₀.shapeCasts_S64_S1x64) := by
  subst_vars
  simp only [hostOps20]
  after_results_simp
  try simp only []
  all_goals rfl

set_option maxHeartbeats 2000000 in
/-- What main_v549 holds after the stretch. -/
theorem value20_main_v549 {F : FTy → Type} [FloatOps F] (W : Valuation τ sig (Elt F)) (a19 : (⟨Cert.ReferenceIdeal.S64, .f32⟩ : BufTy).Contents (Elt F)) (a21 : (⟨Cert.ReferenceIdeal.S2, .f32⟩ : BufTy).Contents (Elt F)) (a22 : (⟨Cert.ReferenceIdeal.S_, .f32⟩ : BufTy).Contents (Elt F))
    (h_main_arg19 : W (Proc.devRef .tc main_arg19) = a19)
    (h_main_arg21 : W (Proc.devRef .tc main_arg21) = a21)
    (h_main_arg22 : W (Proc.devRef .tc main_arg22) = a22) :
    StableHlo.after (hostOps20 (F := F)) W (Proc.devRef .tc main_v549) = (shapeCast S1x2 a21 Cert.KernelIdeal.Facts₀.shapeCasts_S2_S1x2) := by
  subst_vars
  simp only [hostOps20]
  after_results_simp
  try simp only []
  all_goals rfl

set_option maxHeartbeats 2000000 in
/-- What main_v550 holds after the stretch. -/
theorem value20_main_v550 {F : FTy → Type} [FloatOps F] (W : Valuation τ sig (Elt F)) (a19 : (⟨Cert.ReferenceIdeal.S64, .f32⟩ : BufTy).Contents (Elt F)) (a21 : (⟨Cert.ReferenceIdeal.S2, .f32⟩ : BufTy).Contents (Elt F)) (a22 : (⟨Cert.ReferenceIdeal.S_, .f32⟩ : BufTy).Contents (Elt F))
    (h_main_arg19 : W (Proc.devRef .tc main_arg19) = a19)
    (h_main_arg21 : W (Proc.devRef .tc main_arg21) = a21)
    (h_main_arg22 : W (Proc.devRef .tc main_arg22) = a22) :
    StableHlo.after (hostOps20 (F := F)) W (Proc.devRef .tc main_v550) = (shapeCast S1x1 a22 Cert.KernelIdeal.Facts₀.shapeCasts_S_S1x1) := by
  subst_vars
  simp only [hostOps20]
  after_results_simp
  try simp only []
  all_goals rfl

end Cert.KernelIdeal.HostValue

end
-- ==== Proof.LibMatProduct.lean ====
/-
  The row-by-column product of two matrices over the extended reals, as one function of the two arrays index by index,
  and the three places it is met: the host's dot_general at the plain dimension numbers (rows by contraction, times
  contraction by columns); a matrix unit's product accumulated into a zero splat; and a product of two BLOCKS (a band of
  rows of the left matrix, a band of columns of the right one), which is the corresponding block of the whole product
  because the contracted axis is not cut. Also: multiplying by a transposed matrix is contracting with its columns.
-/
import Idealize.ShloMosaic.Lib.StackMember
import Idealize.ShloMosaic.Lib.ValueLayout

noncomputable section

namespace Cert.Lib.MatProduct

open Idealize.ShloMosaic Idealize.ShloMosaic.ValueIdx

variable {M K N : Nat}

/-- (l r)[a, b] is the sum over k of l[a, k] r[k, b]. -/
def matProd (l : (⟨2, ![M, K]⟩ : Shape).Idx → EReal) (r : (⟨2, ![K, N]⟩ : Shape).Idx → EReal) :
    (⟨2, ![M, N]⟩ : Shape).Idx → EReal :=
  fun i => ∑ k : Fin K, l (ix2 ⟨(i 0).val, idx2_lt0 i⟩ k) * r (ix2 k ⟨(i 1).val, idx2_lt1 i⟩)

theorem matProd_ix2 (l : (⟨2, ![M, K]⟩ : Shape).Idx → EReal) (r : (⟨2, ![K, N]⟩ : Shape).Idx → EReal) (a : Fin M) (b : Fin N) :
    matProd l r (ix2 a b) = ∑ k : Fin K, l (ix2 a k) * r (ix2 k b) := rfl

/-- The host's plain dot_general, at the ideal values, is the product. -/
theorem dotGeneral_plain_eq {φ₁ φ₂ : FTy} (prec : Option ContractPrecision) (A : FVec Ideal ⟨2, ![M, K]⟩ φ₁)
    (B : FVec Ideal ⟨2, ![K, N]⟩ φ₂) : Host.dotGeneral (DotDims.plain M K N) prec A B = matProd A B := by
  funext i
  obtain ⟨a, b, rfl⟩ : ∃ (a : Fin M) (b : Fin N), i = ix2 a b := ⟨i 0, i 1, eq_ix2 i⟩
  rw [StackMember.dotGeneral_plain_apply, matProd_ix2]

/-- A matrix unit's plain product into the zero splat, at the ideal values, is the product. -/
theorem matmul_plain_zero_eq {φ₁ φ₂ : FTy} (prec : Option ContractPrecision) (A : FVec Ideal ⟨2, ![M, K]⟩ φ₁)
    (B : FVec Ideal ⟨2, ![K, N]⟩ φ₂) :
    matmul (DotDims.plain M K N) prec A B (constant ⟨2, ![M, N]⟩ .f32 0x00000000#32) = matProd A B := by
  rw [matmul_zero_eq_dotGeneral, dotGeneral_plain_eq]

/-- A band of rows times a band of columns is the block of the whole product: if the left block's row p is row a of l and
    the right block's column q is column b of r, entry (p, q) of the blocks' product is entry (a, b) of l r. -/
theorem matProd_block {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (p : Fin M') (q : Fin N') (a : Fin M) (b : Fin N)
    (hl : ∀ k : Fin K, l' (ix2 p k) = l (ix2 a k)) (hr : ∀ k : Fin K, r' (ix2 k q) = r (ix2 k b)) :
    matProd l' r' (ix2 p q) = matProd l r (ix2 a b) := by
  rw [matProd_ix2, matProd_ix2]
  exact Finset.sum_congr rfl fun k _ => by rw [hl k, hr k]

/-- The same at any two indices: the blocks' product at j is the whole product at i as soon as row (j 0) of the left
    block is row (i 0) of l and column (j 1) of the right block is column (i 1) of r. -/
theorem matProd_block_idx {M' N' : Nat} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j : (⟨2, ![M', N']⟩ : Shape).Idx) (i : (⟨2, ![M, N]⟩ : Shape).Idx)
    (hl : ∀ k : Fin K, l' (ix2 ⟨(j 0).val, idx2_lt0 j⟩ k) = l (ix2 ⟨(i 0).val, idx2_lt0 i⟩ k))
    (hr : ∀ k : Fin K, r' (ix2 k ⟨(j 1).val, idx2_lt1 j⟩) = r (ix2 k ⟨(i 1).val, idx2_lt1 i⟩)) :
    matProd l' r' j = matProd l r i := by
  unfold matProd
  exact Finset.sum_congr rfl fun k _ => by rw [hl k, hr k]

/-- Two right factors that are each other's transposes entry by entry give the same product. -/
theorem matProd_congr_right (l : (⟨2, ![M, K]⟩ : Shape).Idx → EReal) (r r' : (⟨2, ![K, N]⟩ : Shape).Idx → EReal)
    (h : ∀ (k : Fin K) (b : Fin N), r (ix2 k b) = r' (ix2 k b)) : matProd l r = matProd l r' := by
  funext i
  obtain ⟨a, b, rfl⟩ : ∃ (a : Fin M) (b : Fin N), i = ix2 a b := ⟨i 0, i 1, eq_ix2 i⟩
  rw [matProd_ix2, matProd_ix2]
  exact Finset.sum_congr rfl fun k _ => by rw [h k b]

end Cert.Lib.MatProduct

end
-- ==== Proof.EncoderRegion.lean ====
/-
  Two dense layers with a leaky rectifier, computed a band of 5000 rows at a time, against the same two layers of the
  whole array.

  A dense layer sends a matrix x to the rectifier of x w + b, the bias row b repeated down the rows and the rectifier
  z where z > 0, a z elsewhere, with one slope a for the whole array. Entry (r, q) of the layer depends on row r of x
  only: it is the rectifier of the sum over the contracted axis of x[r, k] w[k, q], plus b[q]. So the layer of a band
  of rows is the band of the layer, and the same again for a second layer fed with the first one's output: row p of the
  band's first layer is row 5000 t + p of the whole array's first layer, which is all the second layer asks of its input.

  First the layer on a band and on the whole array, entry by entry, for any sizes; then the region: at grid point t the
  body reads band t of the input and the whole weight, bias and slope operands and writes band t of the output; the
  bands tile the rows (row r lies in band r / 5000), so after the last point the output array holds the two layers of
  the whole input.
-/
import proofs.«418542_j22608707846200_1_alg».proof.Proof.KernelIdealFrameRegions0
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws
import Idealize.ShloMosaic.Lib.KernelVsHost
import Idealize.ShloMosaic.Lib.ValueLayout

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

namespace DenseBand

/-! ## One dense layer on a band of rows, entry by entry -/

/-- The leaky rectifier on one value: z where z > 0, a z elsewhere. -/
def leakyAt (a z : Ideal .f32) : Ideal .f32 :=
  Scalar.select (FloatOps.cmpf .ogt z (Ideal.ofBits .f32 0x00000000#32)) z (a * z)

/-- One dense layer as the body computes it on a band of M rows: the band times the weights accumulated into a zero
    splat, plus the bias row repeated down the band, then the leaky rectifier with the slope a splat. -/
def bandLayer {M k m : Nat} (hbt : (⟨2, ![1, m]⟩ : Shape).Broadcasts ⟨2, ![M, m]⟩) (a : Ideal .f32)
    (x : FVec Ideal ⟨2, ![M, k]⟩ .f32) (w : FVec Ideal ⟨2, ![k, m]⟩ .f32) (b : FVec Ideal ⟨2, ![1, m]⟩ .f32) :
    FVec Ideal ⟨2, ![M, m]⟩ .f32 :=
  select (cmpf .ogt
      (addf (matmul (DotDims.plain M k m) none x w (constant ⟨2, ![M, m]⟩ .f32 0x00000000#32)) (broadcastTo ⟨2, ![M, m]⟩ b hbt))
      (broadcast ⟨2, ![M, m]⟩ (Scalar.ofBits .f32 0x00000000#32)))
    (addf (matmul (DotDims.plain M k m) none x w (constant ⟨2, ![M, m]⟩ .f32 0x00000000#32)) (broadcastTo ⟨2, ![M, m]⟩ b hbt))
    (mulf (broadcast ⟨2, ![M, m]⟩ a)
      (addf (matmul (DotDims.plain M k m) none x w (constant ⟨2, ![M, m]⟩ .f32 0x00000000#32)) (broadcastTo ⟨2, ![M, m]⟩ b hbt)))

/-- Entry (p, q) of the band's layer: the rectifier of row p of the band against column q of the weights, plus
    entry q of the bias row. -/
theorem bandLayer_apply {M k m : Nat} (hbt : (⟨2, ![1, m]⟩ : Shape).Broadcasts ⟨2, ![M, m]⟩) (a : Ideal .f32)
    (x : FVec Ideal ⟨2, ![M, k]⟩ .f32) (w : FVec Ideal ⟨2, ![k, m]⟩ .f32) (b : FVec Ideal ⟨2, ![1, m]⟩ .f32)
    (p : Fin M) (q : Fin m) :
    bandLayer hbt a x w b (ix2 p q) = leakyAt a (matProd x w (ix2 p q) + b (ix2 (0 : Fin 1) q)) := by
  unfold bandLayer
  rw [select_apply, cmpf_apply, mulf_apply, addf_apply, broadcast_apply, broadcast_apply, matmul_plain_zero_eq,
    broadcastTo_1b_ab_apply]
  rfl

/-- Entry (r, q) of the whole array's layer: the same expression of row r of the array. -/
theorem dense_apply {n k m : Nat}
    (hb : (⟨2, ![1, m]⟩ : Shape).BroadcastsInDim ⟨2, ![n, m]⟩ (![0, 1] : Fin 2 → Fin 2))
    (hs : Cert.Gnn.Sc.BroadcastsInDim ⟨2, ![n, m]⟩ (![] : Fin 0 → Fin 2))
    (x : FVec Ideal ⟨2, ![n, k]⟩ .f32) (w : FVec Ideal ⟨2, ![k, m]⟩ .f32) (b : FVec Ideal ⟨2, ![1, m]⟩ .f32)
    (a : FVec Ideal Cert.Gnn.Sc .f32) (r : Fin n) (q : Fin m) :
    Cert.Gnn.dense hb hs x w b a (ix2 r q) = leakyAt (a ix0) (matProd x w (ix2 r q) + b (ix2 (0 : Fin 1) q)) := by
  unfold Cert.Gnn.dense Cert.Gnn.leaky Cert.Gnn.affine
  rw [select_apply, cmpf_apply, mulf_apply, addf_apply, dotGeneral_plain_eq, broadcastInDim_oneRow_apply,
    broadcastInDim_apply (![] : Fin 0 → Fin 2) hs a (ix2 r q) ix0 (fun e => e.elim0),
    broadcastInDim_apply (![] : Fin 0 → Fin 2) hs (constant Cert.Gnn.Sc .f32 0x00000000#32) (ix2 r q) ix0 (fun e => e.elim0)]
  rfl

/-- A band's layer is the band of the whole array's layer: if row p of the band is row r of the array, entry (p, q)
    of the one is entry (r, q) of the other, the weights, the bias row and the slope being the same. -/
theorem bandLayer_eq_dense {n k m M : Nat}
    (hb : (⟨2, ![1, m]⟩ : Shape).BroadcastsInDim ⟨2, ![n, m]⟩ (![0, 1] : Fin 2 → Fin 2))
    (hs : Cert.Gnn.Sc.BroadcastsInDim ⟨2, ![n, m]⟩ (![] : Fin 0 → Fin 2))
    (hbt : (⟨2, ![1, m]⟩ : Shape).Broadcasts ⟨2, ![M, m]⟩)
    (xb : FVec Ideal ⟨2, ![M, k]⟩ .f32) (x : FVec Ideal ⟨2, ![n, k]⟩ .f32) (w : FVec Ideal ⟨2, ![k, m]⟩ .f32)
    (b : FVec Ideal ⟨2, ![1, m]⟩ .f32) (a : FVec Ideal Cert.Gnn.Sc .f32) (p : Fin M) (r : Fin n) (q : Fin m)
    (hrow : ∀ κ : Fin k, xb (ix2 p κ) = x (ix2 r κ)) :
    bandLayer hbt (a ix0) xb w b (ix2 p q) = Cert.Gnn.dense hb hs x w b a (ix2 r q) := by
  rw [bandLayer_apply, dense_apply, matProd_block x w xb w p q r q hrow (fun _ => rfl)]

/-- Two layers in a row: the second layer eats the first layer's band, whose row p is row r of the whole array's
    first layer by the line above. -/
theorem twoBandLayers_eq_dense {n k m l M : Nat}
    (hb1 : (⟨2, ![1, m]⟩ : Shape).BroadcastsInDim ⟨2, ![n, m]⟩ (![0, 1] : Fin 2 → Fin 2))
    (hs1 : Cert.Gnn.Sc.BroadcastsInDim ⟨2, ![n, m]⟩ (![] : Fin 0 → Fin 2))
    (hb2 : (⟨2, ![1, l]⟩ : Shape).BroadcastsInDim ⟨2, ![n, l]⟩ (![0, 1] : Fin 2 → Fin 2))
    (hs2 : Cert.Gnn.Sc.BroadcastsInDim ⟨2, ![n, l]⟩ (![] : Fin 0 → Fin 2))
    (hbt1 : (⟨2, ![1, m]⟩ : Shape).Broadcasts ⟨2, ![M, m]⟩) (hbt2 : (⟨2, ![1, l]⟩ : Shape).Broadcasts ⟨2, ![M, l]⟩)
    (xb : FVec Ideal ⟨2, ![M, k]⟩ .f32) (x : FVec Ideal ⟨2, ![n, k]⟩ .f32)
    (w1 : FVec Ideal ⟨2, ![k, m]⟩ .f32) (b1 : FVec Ideal ⟨2, ![1, m]⟩ .f32)
    (w2 : FVec Ideal ⟨2, ![m, l]⟩ .f32) (b2 : FVec Ideal ⟨2, ![1, l]⟩ .f32)
    (a : FVec Ideal Cert.Gnn.Sc .f32) (p : Fin M) (r : Fin n) (q : Fin l)
    (hrow : ∀ κ : Fin k, xb (ix2 p κ) = x (ix2 r κ)) :
    bandLayer hbt2 (a ix0) (bandLayer hbt1 (a ix0) xb w1 b1) w2 b2 (ix2 p q)
      = Cert.Gnn.dense hb2 hs2 (Cert.Gnn.dense hb1 hs1 x w1 b1 a) w2 b2 a (ix2 r q) :=
  bandLayer_eq_dense hb2 hs2 hbt2 _ _ w2 b2 a p r q fun κ =>
    bandLayer_eq_dense hb1 hs1 hbt1 xb x w1 b1 a p r κ hrow

/-- A 1 x 1 array has one index. -/
theorem unitIdx_eq (k k' : (⟨2, ![1, 1]⟩ : Shape).Idx) : k = k' := by
  have e0 : k 0 = k' 0 := Fin.ext (by have := idx2_lt0 k; have := idx2_lt0 k'; omega)
  have e1 : k 1 = k' 1 := Fin.ext (by have := idx2_lt1 k; have := idx2_lt1 k'; omega)
  rw [eq_ix2 k, eq_ix2 k', e0, e1]

/-- The slope the body extracts from the 1 x 1 operand is the operand cast to a scalar: both are its one entry. -/
theorem slope_extract_eq_cast (s : FVec Ideal ⟨2, ![1, 1]⟩ .f32)
    (hpos : ∀ e, (![0, 0] : Fin 2 → Nat) e < (⟨2, ![1, 1]⟩ : Shape).size e)
    (h11 : (⟨2, ![1, 1]⟩ : Shape).ShapeCasts Cert.Gnn.Sc) :
    extractAt ![0, 0] s hpos = shapeCast Cert.Gnn.Sc s h11 ix0 := by
  unfold extractAt shapeCast
  exact congrArg s (unitIdx_eq _ _)

end DenseBand

open DenseBand

/-! ## Region 0: the encoder's two layers, 525000 rows in 105 bands of 5000 -/

/-- The store's and the loads' offsets inside a block are zero on both axes. -/
theorem enc_zero_offsets : (![0, 0] : Fin 2 → Nat) = fun _ => 0 := funext fun a => by fin_cases a <;> rfl

/-- The body's value on a band is the second layer of the first layer of the band, the slope extracted from the
    1 x 1 operand (the casts of an operand to its own shape change nothing; the printed contraction records are the
    plain rows-by-columns ones). -/
theorem enc_payload (s : FVec Ideal S1x1 .f32) (xb : FVec Ideal S5000x16 .f32) (w1 : FVec Ideal S16x64 .f32)
    (b1 : FVec Ideal S1x64 .f32) (w2 : FVec Ideal S64x64 .f32) (b2 : FVec Ideal S1x64 .f32) :
    k0_pay1 s xb w1 b1 w2 b2
      = bandLayer broadcasts_S1x64_S5000x64 (extractAt ![0, 0] s inpos_S1x1_p0_0)
          (bandLayer broadcasts_S1x64_S5000x64 (extractAt ![0, 0] s inpos_S1x1_p0_0) xb w1 b1) w2 b2 := by
  unfold k0_pay1 bandLayer
  simp only [shapeCast_self]
  rfl

/-- Entry (p, q) of the body's value on a band whose row p is row r of the input array, the small operands being
    the whole weight, bias and slope arrays: entry (r, q) of the two layers of the whole input. -/
theorem enc_point
    (sB sW : FVec Ideal S1x1 .f32) (xb : FVec Ideal S5000x16 .f32) (x : FVec Ideal S525000x16 .f32)
    (w1B w1 : FVec Ideal S16x64 .f32) (b1B b1 : FVec Ideal S1x64 .f32)
    (w2B w2 : FVec Ideal S64x64 .f32) (b2B b2 : FVec Ideal S1x64 .f32)
    (es : sB = sW) (e1 : w1B = w1) (eb1 : b1B = b1) (e2 : w2B = w2) (eb2 : b2B = b2)
    (hb1 : S1x64.BroadcastsInDim S525000x64 (![0, 1] : Fin 2 → Fin 2)) (hs1 : S_.BroadcastsInDim S525000x64 (![] : Fin 0 → Fin 2))
    (hb2 : S1x64.BroadcastsInDim S525000x64 (![0, 1] : Fin 2 → Fin 2)) (hs2 : S_.BroadcastsInDim S525000x64 (![] : Fin 0 → Fin 2))
    (h11 : S1x1.ShapeCasts S_)
    (p : Fin 5000) (q : Fin 64) (r : Fin 525000) (hrow : ∀ κ : Fin 16, xb (ix2 p κ) = x (ix2 r κ)) :
    k0_pay1 sB xb w1B b1B w2B b2B (ix2 p q)
      = Cert.Gnn.dense hb2 hs2 (Cert.Gnn.dense hb1 hs1 x w1 b1 (shapeCast S_ sW h11)) w2 b2 (shapeCast S_ sW h11) (ix2 r q) := by
  subst es e1 eb1 e2 eb2
  rw [enc_payload, slope_extract_eq_cast sB inpos_S1x1_p0_0 h11]
  exact twoBandLayers_eq_dense hb1 hs1 hb2 hs2 broadcasts_S1x64_S5000x64 broadcasts_S1x64_S5000x64 xb x w1B b1B w2B b2B
    (shapeCast S_ sB h11) p r q hrow

/-- At every grid point the input's and the output's windows sit on band t of the rows, and every small operand's
    window on its one block. -/
theorem enc_bands : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is band t of the two layers of the whole input array. -/
theorem enc_band_written (c : Dev nD)
    (hb1 : S1x64.BroadcastsInDim S525000x64 (![0, 1] : Fin 2 → Fin 2)) (hs1 : S_.BroadcastsInDim S525000x64 (![] : Fin 0 → Fin 2))
    (hb2 : S1x64.BroadcastsInDim S525000x64 (![0, 1] : Fin 2 → Fin 2)) (hs2 : S_.BroadcastsInDim S525000x64 (![] : Fin 0 → Fin 2))
    (h11 : S1x1.ShapeCasts S_) (t : Fin cfg0.N) :
    (dat0 V c).flushed 6 t = ((cfg0.win 6).blk t).view.read (Elt Ideal)
      (Cert.Gnn.dense hb2 hs2 (Cert.Gnn.dense hb1 hs1 (V c main_v0) (V c main_arg10) (V c main_v1) (shapeCast S_ (V c main_v3) h11))
        (V c main_arg12) (V c main_v2) (shapeCast S_ (V c main_v3) h11)) := by
  show (cfg0.win 6).cut (grid0.coords t) ((dat0 V c).after 6 t) = _
  rw [after0_6]
  unfold out0_6
  rw [View.canon_unit_zero enc_zero_offsets]
  simp only [View.ld_unit_zero (S := S1x1) enc_zero_offsets,
    View.ld_unit_zero (S := S5000x16) enc_zero_offsets,
    View.ld_unit_zero (S := S16x64) enc_zero_offsets,
    View.ld_unit_zero (S := S1x64) enc_zero_offsets,
    View.ld_unit_zero (S := S64x64) enc_zero_offsets]
  obtain ⟨x0, x1, w10, w11, c10, c11, w20, w21, c20, c21, s0, s1, o0, o1⟩ := enc_bands t
  have hN : grid0.N = 105 := N_0
  have htlt : t.val < 105 := by have h : t.val < grid0.N := t.isLt; omega
  -- a small operand's one block is the whole operand
  have es : iblk0 V c 5 t = V c main_v3 := by
    funext y
    show V c main_v3 (((cfg0.win 5).blk t).view.emb y) = V c main_v3 y
    refine congrArg (V c main_v3) (funext fun a => Fin.ext ?_)
    match a with
    | ⟨0, _⟩ => show win0_5.index t (0 : Fin 2) * 1 + 1 * (y 0).val = (y 0).val; omega
    | ⟨1, _⟩ => show win0_5.index t (1 : Fin 2) * 1 + 1 * (y 1).val = (y 1).val; omega
  have e1 : iblk0 V c 1 t = V c main_arg10 := by
    funext y
    show V c main_arg10 (((cfg0.win 1).blk t).view.emb y) = V c main_arg10 y
    refine congrArg (V c main_arg10) (funext fun a => Fin.ext ?_)
    match a with
    | ⟨0, _⟩ => show win0_1.index t (0 : Fin 2) * 16 + 1 * (y 0).val = (y 0).val; omega
    | ⟨1, _⟩ => show win0_1.index t (1 : Fin 2) * 64 + 1 * (y 1).val = (y 1).val; omega
  have eb1 : iblk0 V c 2 t = V c main_v1 := by
    funext y
    show V c main_v1 (((cfg0.win 2).blk t).view.emb y) = V c main_v1 y
    refine congrArg (V c main_v1) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  have e2 : iblk0 V c 3 t = V c main_arg12 := by
    funext y
    show V c main_arg12 (((cfg0.win 3).blk t).view.emb y) = V c main_arg12 y
    refine congrArg (V c main_arg12) (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  have eb2 : iblk0 V c 4 t = V c main_v2 := by
    funext y
    show V c main_v2 (((cfg0.win 4).blk t).view.emb y) = V c main_v2 y
    refine congrArg (V c main_v2) (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  funext j
  have hp : (j 0).val < 5000 := idx2_lt0 j
  have hr : t.val * 5000 + (j 0).val < 525000 := by omega
  -- where entry j of the output's band sits in the output array
  have hout : ((cfg0.win 6).blk t).view.emb j = ix2 (⟨t.val * 5000 + (j 0).val, hr⟩ : Fin 525000) (j 1 : Fin 64) := by
    funext a; apply Fin.ext
    match a with
    | ⟨0, _⟩ => show win0_6.index t (0 : Fin 2) * 5000 + 1 * (j 0).val = t.val * 5000 + (j 0).val; omega
    | ⟨1, _⟩ => show win0_6.index t (1 : Fin 2) * 64 + 1 * (j 1).val = (j 1).val; omega
  -- row (j 0) of the input's band is row 5000 t + (j 0) of the input array
  have hrow : ∀ κ : Fin 16, iblk0 V c 0 t (ix2 (j 0 : Fin 5000) κ) = V c main_v0 (ix2 (⟨t.val * 5000 + (j 0).val, hr⟩ : Fin 525000) κ) := by
    intro κ
    show V c main_v0 (((cfg0.win 0).blk t).view.emb (ix2 (j 0 : Fin 5000) κ)) = _
    refine congrArg (V c main_v0) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 16 + 1 * κ.val = κ.val; omega
  show k0_pay1 (iblk0 V c 5 t) (iblk0 V c 0 t) (iblk0 V c 1 t) (iblk0 V c 2 t) (iblk0 V c 3 t) (iblk0 V c 4 t) j
    = Cert.Gnn.dense hb2 hs2 (Cert.Gnn.dense hb1 hs1 (V c main_v0) (V c main_arg10) (V c main_v1) (shapeCast S_ (V c main_v3) h11))
        (V c main_arg12) (V c main_v2) (shapeCast S_ (V c main_v3) h11) (((cfg0.win 6).blk t).view.emb j)
  rw [hout]
  exact (congrArg (k0_pay1 (iblk0 V c 5 t) (iblk0 V c 0 t) (iblk0 V c 1 t) (iblk0 V c 2 t) (iblk0 V c 3 t) (iblk0 V c 4 t)) (eq_ix2 j)).trans
    (enc_point (iblk0 V c 5 t) (V c main_v3) (iblk0 V c 0 t) (V c main_v0) (iblk0 V c 1 t) (V c main_arg10) (iblk0 V c 2 t) (V c main_v1)
      (iblk0 V c 3 t) (V c main_arg12) (iblk0 V c 4 t) (V c main_v2) es e1 eb1 e2 eb2 hb1 hs1 hb2 hs2 h11
      (j 0) (j 1) ⟨t.val * 5000 + (j 0).val, hr⟩ hrow)

/-- An entry of the output array lies in point t's band iff each of its coordinates lies in the band's range. -/
theorem enc_mem_band (t : Fin cfg0.N) (i : S525000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v4).slice (win0_6.rect t)).set ↔ _
  rw [View.set_slice_whole, Rect.mem_set_unit]
  exact Iff.rfl

/-- The bands tile the array: the entry in row r is written at point r / 5000. -/
theorem enc_bands_cover (i : S525000x64.Idx) :
    ∃ t : Fin cfg0.N, (cfg0.win 6).flush t = true ∧ i ∈ ((cfg0.win 6).blk t).view.set := by
  have hi0 : (i 0).val < 525000 := (i 0).isLt
  have hi1 : (i 1).val < 64 := (i 1).isLt
  have hN : grid0.N = 105 := N_0
  have ht : (i 0).val / 5000 < grid0.N := by rw [hN]; omega
  obtain ⟨-, -, -, -, -, -, -, -, -, -, -, -, o0, o1⟩ := enc_bands ⟨(i 0).val / 5000, ht⟩
  have o0' : win0_6.index ⟨(i 0).val / 5000, ht⟩ (0 : Fin 2) = (i 0).val / 5000 := o0
  refine ⟨⟨(i 0).val / 5000, ht⟩, flush0_6 _, ?_⟩
  rw [enc_mem_band]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [o0']; omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    rw [o1]; omega

/-- After the region the output array holds the two layers of the whole input array. -/
theorem twoDense0 (c : Dev nD)
    (hb1 : S1x64.BroadcastsInDim S525000x64 (![0, 1] : Fin 2 → Fin 2)) (hs1 : S_.BroadcastsInDim S525000x64 (![] : Fin 0 → Fin 2))
    (hb2 : S1x64.BroadcastsInDim S525000x64 (![0, 1] : Fin 2 → Fin 2)) (hs2 : S_.BroadcastsInDim S525000x64 (![] : Fin 0 → Fin 2)) (h11 : S1x1.ShapeCasts S_) :
    (dat0 V c).arrAt 6 cfg0.N =
      Cert.Gnn.dense hb2 hs2 (Cert.Gnn.dense hb1 hs1 (V c main_v0) (V c main_arg10) (V c main_v1) (shapeCast S_ (V c main_v3) h11)) (V c main_arg12) (V c main_v2) (shapeCast S_ (V c main_v3) h11) :=
  (dat0 V c).arrAt_eq_of_cover 6 _ (fun t _ => enc_band_written V c hb1 hs1 hb2 hs2 h11 t) enc_bands_cover

end Cert.KernelIdeal.RegionValue

end
-- ==== Proof.LinearRegion1.lean ====
/-
  A linear layer without bias over 400000 rows: y = x w, with x of 400000 rows by 64 features and w a 64 by 64 weight.

  The region walks the rows in 80 bands of 5000. At band t it reads rows 5000 t to 5000 t + 4999 of x and the whole of w,
  multiplies the band by w, and writes the 5000 by 64 result to the same rows of y. Entry (r, q) of a product is the sum
  over k of x[r, k] w[k, q]: it reads row r of the left factor only, so the product of a band of rows with w is that same
  band of rows of x w. The 80 bands hold every row between them, so once the region is through, y is x w.
-/
import proofs.«418542_j22608707846200_1_alg».proof.Proof.KernelIdealFrameRegions0
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

/-- The body reads and writes each of its blocks whole: from offset 0 on both axes. -/
theorem linear1_zero_offsets : (![0, 0] : Fin 2 → Nat) = fun _ => 0 := funext fun a => by fin_cases a <;> rfl

/-- What the body computes from a band x0 of 5000 rows and the weight x1: the product x0 x1. Its two reshapes are to the
    shape their operand already has, and the accumulator the product is added to is zero everywhere. -/
theorem linear1_band_product (x0 : Vec Ideal S5000x64 .f32) (x1 : Vec Ideal S64x64 .f32) :
    k1_pay1 x0 x1 = matProd (M := 5000) (K := 64) (N := 64) x0 x1 := by
  unfold k1_pay1
  simp only [shapeCast_self]
  exact matmul_plain_zero_eq (M := 5000) (K := 64) (N := 64) (φ₁ := .f32) (φ₂ := .f32) none x0 x1

/-- Where the blocks sit, band by band (decided over the 80 bands): at band t the blocks of x and of y are block t down
    the rows and block 0 across the columns, and the block of w is block (0, 0), the whole of w. -/
theorem linear1_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What band t writes back is band t of x w: row p of the band of x is row 5000 t + p of x, the block of w is w, and a
    row of a product reads that row of the left factor only. -/
theorem linear1_band_written (c : Dev nD) (t : Fin cfg1.N) :
    (dat1 V c).flushed 2 t = ((cfg1.win 2).blk t).view.read (Elt Ideal)
      (matProd (M := 400000) (K := 64) (N := 64) (V c main_v5) (V c main_v13)) := by
  show (cfg1.win 2).cut (grid1.coords t) ((dat1 V c).after 2 t) = _
  rw [after1_2]
  unfold out1_2
  rw [View.canon_unit_zero linear1_zero_offsets]
  simp only [View.ld_unit_zero (S := S5000x64) linear1_zero_offsets, View.ld_unit_zero (S := S64x64) linear1_zero_offsets]
  rw [linear1_band_product]
  obtain ⟨e0, e1, e2, e3, e4, e5⟩ := linear1_index_maps t
  funext y
  have hy0 : (y 0).val < 5000 := (y 0).isLt
  have hy1 : (y 1).val < 64 := (y 1).isLt
  show matProd (M := 5000) (K := 64) (N := 64) (iblk1 V c 0 t) (iblk1 V c 1 t) ((cfg1.win 2).xinj (grid1.coords t) y)
    = matProd (M := 400000) (K := 64) (N := 64) (V c main_v5) (V c main_v13) (((cfg1.win 2).blk t).view.emb y)
  refine matProd_block_idx _ _ _ _ _ _ (fun k => ?_) (fun k => ?_)
  · -- row (y 0) of the band of x, at column k, is row 5000 t + (y 0) of x at column k
    show V c main_v5 (((cfg1.win 0).blk t).view.emb (ix2 ⟨(y 0).val, hy0⟩ k)) = V c main_v5 _
    refine congrArg (V c main_v5) (funext fun a => Fin.ext ?_)
    match a with
    | ⟨0, _⟩ =>
      show win1_0.index t (0 : Fin 2) * 5000 + 1 * (y 0).val = win1_2.index t (0 : Fin 2) * 5000 + 1 * (y 0).val
      omega
    | ⟨1, _⟩ =>
      show win1_0.index t (1 : Fin 2) * 64 + 1 * k.val = k.val
      omega
  · -- row k of the block of w, at column (y 1), is row k of w at column (y 1)
    show V c main_v13 (((cfg1.win 1).blk t).view.emb (ix2 k ⟨(y 1).val, hy1⟩)) = V c main_v13 _
    refine congrArg (V c main_v13) (funext fun a => Fin.ext ?_)
    match a with
    | ⟨0, _⟩ =>
      show win1_1.index t (0 : Fin 2) * 64 + 1 * k.val = k.val
      omega
    | ⟨1, _⟩ =>
      show win1_1.index t (1 : Fin 2) * 64 + 1 * (y 1).val = win1_2.index t (1 : Fin 2) * 64 + 1 * (y 1).val
      omega

/-- An index of y is in band t's block exactly when each of its coordinates is in the block's range on that axis. -/
theorem linear1_mem_band (t : Fin cfg1.N) (i : S400000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v20).slice (win1_2.rect t)).set ↔ _
  rw [View.set_slice_whole, Rect.mem_set_unit]
  exact Iff.rfl

/-- Every index of y is in some band's block: row r is in band r / 5000, and every band spans all 64 columns. -/
theorem linear1_rows_covered (i : S400000x64.Idx) :
    ∃ t : Fin cfg1.N, (cfg1.win 2).flush t = true ∧ i ∈ ((cfg1.win 2).blk t).view.set := by
  have hi0 : (i 0).val < 400000 := (i 0).isLt
  have hi1 : (i 1).val < 64 := (i 1).isLt
  have hlt : (i 0).val / 5000 < grid1.N := by rw [N_1]; omega
  obtain ⟨t, ht⟩ : ∃ t : Fin cfg1.N, t.val = (i 0).val / 5000 := ⟨⟨(i 0).val / 5000, hlt⟩, rfl⟩
  obtain ⟨e0, e1, e2, e3, e4, e5⟩ := linear1_index_maps t
  refine ⟨t, flush1_2 t, ?_⟩
  rw [linear1_mem_band]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- After the region, y is x w: each band writes its band of x w, and the bands hold every index of y. -/
theorem linear1 (c : Dev nD) :
    (dat1 V c).arrAt 2 cfg1.N
      = Host.dotGeneral (F := Ideal) (φ₁ := .f32) (φ₂ := .f32) (DotDims.plain 400000 64 64) none (V c main_v5) (V c main_v13) := by
  refine ((dat1 V c).arrAt_eq_of_cover 2 (matProd (M := 400000) (K := 64) (N := 64) (V c main_v5) (V c main_v13))
    (fun t _ => linear1_band_written V c t) linear1_rows_covered).trans ?_
  exact (dotGeneral_plain_eq (M := 400000) (K := 64) (N := 64) (φ₁ := .f32) (φ₂ := .f32) none (V c main_v5) (V c main_v13)).symm

end Cert.KernelIdeal.RegionValue

end
-- ==== Proof.FinalizeOps.lean ====
/-
  The graph convolution's closing step and the running mixture, read entry by entry.

  Cert.Gnn.convOut and Cert.Gnn.mix are written in the host's whole-array operations. Read at row p, column q they are
      convOut s h d b (p, q) = tanh (s (p, q) + h (p, q) (d (p, 0) d (p, 0)) + b (0, q)),
      mix acc t f (p, q)     = acc (p, q) + f t (p, q),
  because a column placed into an n x m array is read in its own row, a row in its own column, and a scalar everywhere.
  The same readings for a kernel's vector operations (a column or a row broadcast to a block, the one entry of a 1 x 1
  array) are here too, and the reading of a 1 x 1 array as a scalar.
-/
import proofs.«418542_j22608707846200_1_alg».proof.Proof.GnnOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FinalizeOps

open Idealize.ShloMosaic Idealize.ShloMosaic.ValueIdx

variable {α : Type}

/-- An n x 1 column broadcast along the columns to n x b reads, at (p, c), the column's entry of row p. -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one entry of a 1 x 1 array, taken out at position (0, 0). -/
theorem extractAt_origin (x : (⟨2, ![1, 1]⟩ : Shape).Idx → α)
    (h : ∀ a, (![0, 0] : Fin 2 → Nat) a < (⟨2, ![1, 1]⟩ : Shape).size a) :
    extractAt ![0, 0] x h = x (ix2 (0 : Fin 1) (0 : Fin 1)) := by
  unfold extractAt
  refine congrArg x (funext fun a => ?_)
  match a with
  | ⟨0, _⟩ => rfl
  | ⟨1, _⟩ => rfl

/-- An n x 1 column placed into n x m along both axes reads, at (p, q), the column's entry of row p. -/
theorem broadcastInDim_col_apply {n m : ℕ}
    (hc : (⟨2, ![n, 1]⟩ : Shape).BroadcastsInDim ⟨2, ![n, m]⟩ (![0, 1] : Fin 2 → Fin 2))
    (v : (⟨2, ![n, 1]⟩ : Shape).Idx → α) (p : Fin n) (q : Fin m) :
    broadcastInDim ⟨2, ![n, m]⟩ (![0, 1] : Fin 2 → Fin 2) hc v (ix2 p q) = v (ix2 p (0 : Fin 1)) := by
  refine broadcastInDim_apply _ hc v (ix2 p q) (ix2 p (0 : Fin 1)) fun ax => ?_
  match ax with
  | ⟨0, _⟩ =>
    show p.val = if n = 1 then 0 else p.val
    split
    · have := p.isLt; omega
    · rfl
  | ⟨1, _⟩ => rfl

/-- A 1 x m row placed into n x m along both axes reads, at (p, q), the row's entry of column q. -/
theorem broadcastInDim_row_apply {n m : ℕ}
    (hb : (⟨2, ![1, m]⟩ : Shape).BroadcastsInDim ⟨2, ![n, m]⟩ (![0, 1] : Fin 2 → Fin 2))
    (v : (⟨2, ![1, m]⟩ : Shape).Idx → α) (p : Fin n) (q : Fin m) :
    broadcastInDim ⟨2, ![n, m]⟩ (![0, 1] : Fin 2 → Fin 2) hb v (ix2 p q) = v (ix2 (0 : Fin 1) q) := by
  refine broadcastInDim_apply _ hb v (ix2 p q) (ix2 (0 : Fin 1) q) fun ax => ?_
  match ax with
  | ⟨0, _⟩ => rfl
  | ⟨1, _⟩ =>
    show q.val = if m = 1 then 0 else q.val
    split
    · have := q.isLt; omega
    · rfl

/-- A scalar placed into any shape reads the scalar everywhere. -/
theorem broadcastInDim_scalar_apply {t : Shape} (hs : (⟨0, ![]⟩ : Shape).BroadcastsInDim t (![] : Fin 0 → Fin t.rank))
    (f : (⟨0, ![]⟩ : Shape).Idx → α) (j : t.Idx) :
    broadcastInDim t (![] : Fin 0 → Fin t.rank) hs f j = f ix0 :=
  broadcastInDim_apply _ hs f j ix0 fun a => a.elim0

/-- A 1 x 1 array read as a scalar is its one entry. -/
theorem shapeCast_unit_scalar_apply (x : (⟨2, ![1, 1]⟩ : Shape).Idx → α)
    (h : (⟨2, ![1, 1]⟩ : Shape).ShapeCasts ⟨0, ![]⟩) (j : (⟨0, ![]⟩ : Shape).Idx) :
    shapeCast ⟨0, ![]⟩ x h j = x (ix2 (0 : Fin 1) (0 : Fin 1)) := by
  refine shapeCast_apply x h j (ix2 (0 : Fin 1) (0 : Fin 1)) ?_
  rw [Shape.rowMajor_val_two]
  show 0 * 1 + 0 = (Shape.rowMajorPi _ j).val
  rw [Shape.rowMajorPi_zero]

/-- The convolution's closing step at row p, column q: tanh (s + h (d d) + b) with d read in row p and b in column q. -/
theorem convOut_ix2 {n m : ℕ}
    (hc : (⟨2, ![n, 1]⟩ : Shape).BroadcastsInDim ⟨2, ![n, m]⟩ (![0, 1] : Fin 2 → Fin 2))
    (hb : (⟨2, ![1, m]⟩ : Shape).BroadcastsInDim ⟨2, ![n, m]⟩ (![0, 1] : Fin 2 → Fin 2))
    (s h : FVec Ideal ⟨2, ![n, m]⟩ .f32) (d : FVec Ideal ⟨2, ![n, 1]⟩ .f32) (b : FVec Ideal ⟨2, ![1, m]⟩ .f32)
    (p : Fin n) (q : Fin m) :
    Cert.Gnn.convOut hc hb s h d b (ix2 p q)
      = Ideal.tanh (s (ix2 p q) + h (ix2 p q) * (d (ix2 p (0 : Fin 1)) * d (ix2 p (0 : Fin 1))) + b (ix2 (0 : Fin 1) q)) := by
  unfold Cert.Gnn.convOut Host.tanh
  simp only [addf_apply, mulf_apply, Ideal.hostUnary_tanh_def]
  rw [broadcastInDim_col_apply hc _ p q, broadcastInDim_row_apply hb _ p q, mulf_apply]

/-- The running mixture at row p, column q: acc + f t with f the one scalar. -/
theorem mix_ix2 {n m : ℕ} (hs : Cert.Gnn.Sc.BroadcastsInDim ⟨2, ![n, m]⟩ (![] : Fin 0 → Fin 2))
    (acc t : FVec Ideal ⟨2, ![n, m]⟩ .f32) (f : FVec Ideal Cert.Gnn.Sc .f32) (p : Fin n) (q : Fin m) :
    Cert.Gnn.mix hs acc t f (ix2 p q) = acc (ix2 p q) + f ix0 * t (ix2 p q) := by
  unfold Cert.Gnn.mix
  simp only [addf_apply, mulf_apply]
  rw [broadcastInDim_scalar_apply hs f (ix2 p q)]

end Cert.KernelIdeal.FinalizeOps

end
-- ==== Proof.FinalizeRegion2.lean ====
/-
  The finalize region of the graph network on 400000 rows, launch 2, as one function of the arrays it reads.

  The region walks the rows in 80 bands of 5000. At band t it reads rows [5000 t, 5000 t + 5000) of the scattered
  neighbour sums s, of the projected features h, of the degree column d and of the running mixture acc, and the whole
  bias row b and the one coefficient f; it writes the same rows of two results,
      u   = tanh (s + h (d d) + b)          (entry (r, q) reads d in row r and b in column q)
      acc' = acc + f u.
  Every entry of a result depends on its own row only, so band t of either result is band t of the same expression
  taken over the whole arrays; the 80 bands tile the 400000 rows (row r lies in band r / 5000), hence after the region
  the two result arrays are the whole-array expressions Cert.Gnn.convOut and Cert.Gnn.mix.
-/
import proofs.«418542_j22608707846200_1_alg».proof.Proof.KernelIdealFrameRegions0
import proofs.«418542_j22608707846200_1_alg».proof.Proof.GnnOps
import proofs.«418542_j22608707846200_1_alg».proof.Proof.FinalizeOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.KernelIdeal.FinalizeOps

variable (V : (c : Dev nD) → (b : Ref sig .tc) → Buf (Elt Ideal) ((c : Thread nD τ).loc b))

namespace Finalize2

/-! ## One band: the body's two results entry by entry -/

/-- The first result of a band at (p, q): tanh (s + h (d d) + b), d read in the band's row p, b in column q. -/
theorem convBand_apply (x0 x1 : Vec Ideal S5000x64 .f32) (x2 : Vec Ideal S5000x1 .f32) (x3 : Vec Ideal S1x64 .f32)
    (p : Fin 5000) (q : Fin 64) :
    k2_pay1 x2 x0 x1 x3 (ix2 p q)
      = Ideal.tanh (x0 (ix2 p q) + x1 (ix2 p q) * (x2 (ix2 p (0 : Fin 1)) * x2 (ix2 p (0 : Fin 1))) + x3 (ix2 (0 : Fin 1) q)) := by
  unfold k2_pay1 Idealize.ShloMosaic.tanh
  simp only [shapeCast_self, addf_apply, mulf_apply, Ideal.tanh_def]
  rw [broadcastTo_col_apply _ _ p q, broadcastTo_1b_ab_apply _ _ p q, mulf_apply]

/-- The second result of a band at (p, q): acc + f u, f the one entry of the 1 x 1 coefficient, u the first result. -/
theorem mixBand_apply (x0 x1 : Vec Ideal S5000x64 .f32) (x2 : Vec Ideal S5000x1 .f32) (x3 : Vec Ideal S1x64 .f32)
    (x5 : Vec Ideal S5000x64 .f32) (x4 : Vec Ideal S1x1 .f32) (p : Fin 5000) (q : Fin 64) :
    k2_pay2 x2 x0 x1 x3 x5 x4 (ix2 p q)
      = x5 (ix2 p q) + x4 (ix2 (0 : Fin 1) (0 : Fin 1)) * k2_pay1 x2 x0 x1 x3 (ix2 p q) := by
  unfold k2_pay2
  simp only [shapeCast_self, addf_apply, mulf_apply, broadcast_apply]
  rw [extractAt_origin]

/-- A band's first result at (p, q) is the whole-array expression at (r, q), once the band's operands are the
    whole arrays' entries of row r (the bias row read whole). -/
theorem convBand_eq (hc : S400000x1.BroadcastsInDim S400000x64 (![0, 1] : Fin 2 → Fin 2))
    (hb : S1x64.BroadcastsInDim S400000x64 (![0, 1] : Fin 2 → Fin 2))
    (s h : FVec Ideal S400000x64 .f32) (d : FVec Ideal S400000x1 .f32) (b : FVec Ideal S1x64 .f32)
    (x0 x1 : Vec Ideal S5000x64 .f32) (x2 : Vec Ideal S5000x1 .f32) (x3 : Vec Ideal S1x64 .f32)
    (p : Fin 5000) (q : Fin 64) (r : Fin 400000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k2_pay1 x2 x0 x1 x3 (ix2 p q) = Cert.Gnn.convOut hc hb s h d b (ix2 r q) := by
  rw [convBand_apply, convOut_ix2, h0, h1, h2, h3]

/-- A band's second result at (p, q) is the whole-array mixture at (r, q), under the same reading of the operands. -/
theorem mixBand_eq (hc : S400000x1.BroadcastsInDim S400000x64 (![0, 1] : Fin 2 → Fin 2))
    (hb : S1x64.BroadcastsInDim S400000x64 (![0, 1] : Fin 2 → Fin 2))
    (hs : S_.BroadcastsInDim S400000x64 (![] : Fin 0 → Fin 2)) (h11 : S1x1.ShapeCasts S_)
    (s h : FVec Ideal S400000x64 .f32) (d : FVec Ideal S400000x1 .f32) (b : FVec Ideal S1x64 .f32)
    (f : FVec Ideal S1x1 .f32) (acc : FVec Ideal S400000x64 .f32)
    (x0 x1 : Vec Ideal S5000x64 .f32) (x2 : Vec Ideal S5000x1 .f32) (x3 : Vec Ideal S1x64 .f32)
    (x4 : Vec Ideal S1x1 .f32) (x5 : Vec Ideal S5000x64 .f32)
    (p : Fin 5000) (q : Fin 64) (r : Fin 400000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q))
    (h4 : x4 (ix2 (0 : Fin 1) (0 : Fin 1)) = f (ix2 (0 : Fin 1) (0 : Fin 1))) (h5 : x5 (ix2 p q) = acc (ix2 r q)) :
    k2_pay2 x2 x0 x1 x3 x5 x4 (ix2 p q)
      = Cert.Gnn.mix hs acc (Cert.Gnn.convOut hc hb s h d b) (shapeCast S_ f h11) (ix2 r q) := by
  rw [mixBand_apply, mix_ix2, shapeCast_unit_scalar_apply, convBand_eq hc hb s h d b x0 x1 x2 x3 p q r h0 h1 h2 h3, h4, h5]

/-! ## Where band t sits in each array -/

theorem zeroOffsets : (![0, 0] : Fin 2 → Nat) = fun _ => 0 := funext fun a => by fin_cases a <;> rfl

/-- The windows' index maps over the 80 bands: every row-shaped window is at row block t, column block 0; the bias row
    and the coefficient stay at block (0, 0). -/
theorem bandIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem band_lt (t : Fin cfg2.N) : t.val < 80 := lt_of_lt_of_eq t.isLt N_2

/-- Row p of band t is row 5000 t + p of the array. -/
abbrev row (t : Fin cfg2.N) (p : Fin 5000) : Fin 400000 := ⟨t.val * 5000 + p.val, by have := band_lt t; have := p.isLt; omega⟩

theorem emb_s (t : Fin cfg2.N) (p : Fin 5000) (q : Fin 64) :
    ((cfg2.win 0).blk t).view.emb (ix2 p q) = ix2 (row t p) q := by
  obtain ⟨e0, e1, -⟩ := bandIndex t
  funext a; apply Fin.ext
  match a with
  | ⟨0, _⟩ => show win2_0.index t (0 : Fin 2) * 5000 + 1 * p.val = t.val * 5000 + p.val; omega
  | ⟨1, _⟩ => show win2_0.index t (1 : Fin 2) * 64 + 1 * q.val = q.val; omega

theorem emb_h (t : Fin cfg2.N) (p : Fin 5000) (q : Fin 64) :
    ((cfg2.win 1).blk t).view.emb (ix2 p q) = ix2 (row t p) q := by
  obtain ⟨-, -, e0, e1, -⟩ := bandIndex t
  funext a; apply Fin.ext
  match a with
  | ⟨0, _⟩ => show win2_1.index t (0 : Fin 2) * 5000 + 1 * p.val = t.val * 5000 + p.val; omega
  | ⟨1, _⟩ => show win2_1.index t (1 : Fin 2) * 64 + 1 * q.val = q.val; omega

theorem emb_d (t : Fin cfg2.N) (p : Fin 5000) :
    ((cfg2.win 2).blk t).view.emb (ix2 p (0 : Fin 1)) = ix2 (row t p) (0 : Fin 1) := by
  obtain ⟨-, -, -, -, e0, e1, -⟩ := bandIndex t
  funext a; apply Fin.ext
  match a with
  | ⟨0, _⟩ => show win2_2.index t (0 : Fin 2) * 5000 + 1 * p.val = t.val * 5000 + p.val; omega
  | ⟨1, _⟩ => show win2_2.index t (1 : Fin 2) * 1 + 1 * 0 = 0; omega

theorem emb_b (t : Fin cfg2.N) (q : Fin 64) :
    ((cfg2.win 3).blk t).view.emb (ix2 (0 : Fin 1) q) = ix2 (0 : Fin 1) q := by
  obtain ⟨-, -, -, -, -, -, e0, e1, -⟩ := bandIndex t
  funext a; apply Fin.ext
  match a with
  | ⟨0, _⟩ => show win2_3.index t (0 : Fin 2) * 1 + 1 * 0 = 0; omega
  | ⟨1, _⟩ => show win2_3.index t (1 : Fin 2) * 64 + 1 * q.val = q.val; omega

theorem emb_f (t : Fin cfg2.N) :
    ((cfg2.win 4).blk t).view.emb (ix2 (0 : Fin 1) (0 : Fin 1)) = ix2 (0 : Fin 1) (0 : Fin 1) := by
  obtain ⟨-, -, -, -, -, -, -, -, e0, e1, -⟩ := bandIndex t
  funext a; apply Fin.ext
  match a with
  | ⟨0, _⟩ => show win2_4.index t (0 : Fin 2) * 1 + 1 * 0 = 0; omega
  | ⟨1, _⟩ => show win2_4.index t (1 : Fin 2) * 1 + 1 * 0 = 0; omega

theorem emb_acc (t : Fin cfg2.N) (p : Fin 5000) (q : Fin 64) :
    ((cfg2.win 5).blk t).view.emb (ix2 p q) = ix2 (row t p) q := by
  obtain ⟨-, -, -, -, -, -, -, -, -, -, e0, e1, -⟩ := bandIndex t
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

theorem emb_u (t : Fin cfg2.N) (p : Fin 5000) (q : Fin 64) :
    ((cfg2.win 6).blk t).view.emb (ix2 p q) = ix2 (row t p) q := by
  obtain ⟨-, -, -, -, -, -, -, -, -, -, -, -, e0, e1, -⟩ := bandIndex t
  funext a; apply Fin.ext
  match a with
  | ⟨0, _⟩ => show win2_6.index t (0 : Fin 2) * 5000 + 1 * p.val = t.val * 5000 + p.val; omega
  | ⟨1, _⟩ => show win2_6.index t (1 : Fin 2) * 64 + 1 * q.val = q.val; omega

theorem emb_acc' (t : Fin cfg2.N) (p : Fin 5000) (q : Fin 64) :
    ((cfg2.win 7).blk t).view.emb (ix2 p q) = ix2 (row t p) q := by
  obtain ⟨-, -, -, -, -, -, -, -, -, -, -, -, -, -, e0, e1⟩ := bandIndex t
  funext a; apply Fin.ext
  match a with
  | ⟨0, _⟩ => show win2_7.index t (0 : Fin 2) * 5000 + 1 * p.val = t.val * 5000 + p.val; omega
  | ⟨1, _⟩ => show win2_7.index t (1 : Fin 2) * 64 + 1 * q.val = q.val; omega

/-! ## What band t writes back is band t of the whole-array expressions -/

theorem flushed_u (c : Dev nD) (t : Fin cfg2.N)
    (hc : S400000x1.BroadcastsInDim S400000x64 (![0, 1] : Fin 2 → Fin 2))
    (hb : S1x64.BroadcastsInDim S400000x64 (![0, 1] : Fin 2 → Fin 2)) :
    (dat2 V c).flushed 6 t = ((cfg2.win 6).blk t).view.read (Elt Ideal)
      (Cert.Gnn.convOut hc hb (V c main_v65) (V c main_v20) (V c main_v69) (V c main_v19)) := by
  show (cfg2.win 6).cut (grid2.coords t) ((dat2 V c).after 6 t) = _
  rw [after2_6]
  unfold out2_6
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k2_pay1 (iblk2 V c 2 t) (iblk2 V c 0 t) (iblk2 V c 1 t) (iblk2 V c 3 t) (ix2 p q)
    = Cert.Gnn.convOut hc hb (V c main_v65) (V c main_v20) (V c main_v69) (V c main_v19) (((cfg2.win 6).blk t).view.emb (ix2 p q))
  rw [emb_u t p q]
  exact convBand_eq hc hb (V c main_v65) (V c main_v20) (V c main_v69) (V c main_v19)
    (iblk2 V c 0 t) (iblk2 V c 1 t) (iblk2 V c 2 t) (iblk2 V c 3 t) p q (row t p)
    (congrArg (V c main_v65) (emb_s t p q)) (congrArg (V c main_v20) (emb_h t p q))
    (congrArg (V c main_v69) (emb_d t p)) (congrArg (V c main_v19) (emb_b t q))

theorem flushed_acc (c : Dev nD) (t : Fin cfg2.N)
    (hc : S400000x1.BroadcastsInDim S400000x64 (![0, 1] : Fin 2 → Fin 2))
    (hb : S1x64.BroadcastsInDim S400000x64 (![0, 1] : Fin 2 → Fin 2))
    (hs : S_.BroadcastsInDim S400000x64 (![] : Fin 0 → Fin 2)) (h11 : S1x1.ShapeCasts S_) :
    (dat2 V c).flushed 7 t = ((cfg2.win 7).blk t).view.read (Elt Ideal)
      (Cert.Gnn.mix hs (V c main_v18)
        (Cert.Gnn.convOut hc hb (V c main_v65) (V c main_v20) (V c main_v69) (V c main_v19))
        (shapeCast S_ (V c main_v68) h11)) := by
  show (cfg2.win 7).cut (grid2.coords t) ((dat2 V c).after 7 t) = _
  rw [after2_7]
  unfold out2_7
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S1x1) zeroOffsets]
  funext j
  obtain ⟨p, q, rfl⟩ : ∃ (p : Fin 5000) (q : Fin 64), j = ix2 p q := ⟨j 0, j 1, eq_ix2 j⟩
  show k2_pay2 (iblk2 V c 2 t) (iblk2 V c 0 t) (iblk2 V c 1 t) (iblk2 V c 3 t) (iblk2 V c 5 t) (iblk2 V c 4 t) (ix2 p q)
    = Cert.Gnn.mix hs (V c main_v18)
        (Cert.Gnn.convOut hc hb (V c main_v65) (V c main_v20) (V c main_v69) (V c main_v19))
        (shapeCast S_ (V c main_v68) h11) (((cfg2.win 7).blk t).view.emb (ix2 p q))
  rw [emb_acc' t p q]
  exact mixBand_eq hc hb hs h11 (V c main_v65) (V c main_v20) (V c main_v69) (V c main_v19) (V c main_v68) (V c main_v18)
    (iblk2 V c 0 t) (iblk2 V c 1 t) (iblk2 V c 2 t) (iblk2 V c 3 t) (iblk2 V c 4 t) (iblk2 V c 5 t) p q (row t p)
    (congrArg (V c main_v65) (emb_s t p q)) (congrArg (V c main_v20) (emb_h t p q))
    (congrArg (V c main_v69) (emb_d t p)) (congrArg (V c main_v19) (emb_b t q))
    (congrArg (V c main_v68) (emb_f t)) (congrArg (V c main_v18) (emb_acc t p q))

/-! ## The 80 bands tile the rows -/

/-- The band of a row: r / 5000. -/
abbrev bandOf (i : S400000x64.Idx) : Fin cfg2.N :=
  ⟨(i 0).val / 5000, by rw [show cfg2.N = 80 from N_2]; have : (i 0).val < 400000 := (i 0).isLt; omega⟩

/-- An index of the first result's array is in band t's block iff each coordinate is in the block's range. -/
theorem mem_band_u (t : Fin cfg2.N) (i : S400000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v70_0).slice (win2_6.rect t)).set ↔ _
  rw [View.set_slice_whole, Rect.mem_set_unit]
  exact Iff.rfl

theorem mem_band_acc (t : Fin cfg2.N) (i : S400000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v70_1).slice (win2_7.rect t)).set ↔ _
  rw [View.set_slice_whole, Rect.mem_set_unit]
  exact Iff.rfl

/-- Every entry of the first result's array lies in the block of its row's band. -/
theorem cover_u (i : S400000x64.Idx) :
    ∃ t : Fin cfg2.N, (cfg2.win 6).flush t = true ∧ i ∈ ((cfg2.win 6).blk t).view.set := by
  have hi0 : (i 0).val < 400000 := (i 0).isLt
  have hi1 : (i 1).val < 64 := (i 1).isLt
  obtain ⟨-, -, -, -, -, -, -, -, -, -, -, -, e0, e1, -⟩ := bandIndex (bandOf i)
  have hv : (bandOf i).val = (i 0).val / 5000 := rfl
  refine ⟨bandOf i, flush2_6 _, ?_⟩
  rw [mem_band_u]
  intro a
  match a with
  | ⟨0, _⟩ => show win2_6.index (bandOf i) (0 : Fin 2) * 5000 ≤ (i 0).val ∧ (i 0).val < win2_6.index (bandOf i) (0 : Fin 2) * 5000 + 5000; omega
  | ⟨1, _⟩ => show win2_6.index (bandOf i) (1 : Fin 2) * 64 ≤ (i 1).val ∧ (i 1).val < win2_6.index (bandOf i) (1 : Fin 2) * 64 + 64; omega

/-- Every entry of the second result's array lies in the block of its row's band. -/
theorem cover_acc (i : S400000x64.Idx) :
    ∃ t : Fin cfg2.N, (cfg2.win 7).flush t = true ∧ i ∈ ((cfg2.win 7).blk t).view.set := by
  have hi0 : (i 0).val < 400000 := (i 0).isLt
  have hi1 : (i 1).val < 64 := (i 1).isLt
  obtain ⟨-, -, -, -, -, -, -, -, -, -, -, -, -, -, e0, e1⟩ := bandIndex (bandOf i)
  have hv : (bandOf i).val = (i 0).val / 5000 := rfl
  refine ⟨bandOf i, flush2_7 _, ?_⟩
  rw [mem_band_acc]
  intro a
  match a with
  | ⟨0, _⟩ => show win2_7.index (bandOf i) (0 : Fin 2) * 5000 ≤ (i 0).val ∧ (i 0).val < win2_7.index (bandOf i) (0 : Fin 2) * 5000 + 5000; omega
  | ⟨1, _⟩ => show win2_7.index (bandOf i) (1 : Fin 2) * 64 ≤ (i 1).val ∧ (i 1).val < win2_7.index (bandOf i) (1 : Fin 2) * 64 + 64; omega

end Finalize2

/-! ## The two result arrays after the region -/

/-- After the region the first result's array is tanh (s + h (d d) + b) of the whole arrays. -/
theorem finalize2_h (c : Dev nD)
    (hc : S400000x1.BroadcastsInDim S400000x64 (![0, 1] : Fin 2 → Fin 2)) (hb : S1x64.BroadcastsInDim S400000x64 (![0, 1] : Fin 2 → Fin 2)) :
    (dat2 V c).arrAt 6 cfg2.N = Cert.Gnn.convOut hc hb (V c main_v65) (V c main_v20) (V c main_v69) (V c main_v19) :=
  (dat2 V c).arrAt_eq_of_cover 6 _ (fun t _ => Finalize2.flushed_u V c t hc hb) Finalize2.cover_u

/-- After the region the second result's array is acc + f u of the whole arrays, u the first result. -/
theorem finalize2_acc (c : Dev nD)
    (hc : S400000x1.BroadcastsInDim S400000x64 (![0, 1] : Fin 2 → Fin 2)) (hb : S1x64.BroadcastsInDim S400000x64 (![0, 1] : Fin 2 → Fin 2))
    (hs : S_.BroadcastsInDim S400000x64 (![] : Fin 0 → Fin 2)) (h11 : S1x1.ShapeCasts S_) :
    (dat2 V c).arrAt 7 cfg2.N = Cert.Gnn.mix hs (V c main_v18) (Cert.Gnn.convOut hc hb (V c main_v65) (V c main_v20) (V c main_v69) (V c main_v19)) (shapeCast S_ (V c main_v68) h11) :=
  (dat2 V c).arrAt_eq_of_cover 7 _ (fun t _ => Finalize2.flushed_acc V c t hc hb hs h11) Finalize2.cover_acc

end Cert.KernelIdeal.RegionValue

end
-- ==== Proof.LinearRegion3.lean ====
/-
  A linear layer without bias over 400000 rows: y = x w, with x of 400000 rows by 64 features and w a 64 by 64 weight.

  The region walks the rows in 80 bands of 5000. At band t it reads rows 5000 t to 5000 t + 4999 of x and the whole of w,
  multiplies the band by w, and writes the 5000 by 64 result to the same rows of y. Entry (r, q) of a product is the sum
  over k of x[r, k] w[k, q]: it reads row r of the left factor only, so the product of a band of rows with w is that same
  band of rows of x w. The 80 bands hold every row between them, so once the region is through, y is x w.
-/
import proofs.«418542_j22608707846200_1_alg».proof.Proof.KernelIdealFrameRegions0
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

/-- The body reads and writes each of its blocks whole: from offset 0 on both axes. -/
theorem linear3_zero_offsets : (![0, 0] : Fin 2 → Nat) = fun _ => 0 := funext fun a => by fin_cases a <;> rfl

/-- What the body computes from a band x0 of 5000 rows and the weight x1: the product x0 x1. Its two reshapes are to the
    shape their operand already has, and the accumulator the product is added to is zero everywhere. -/
theorem linear3_band_product (x0 : Vec Ideal S5000x64 .f32) (x1 : Vec Ideal S64x64 .f32) :
    k3_pay1 x0 x1 = matProd (M := 5000) (K := 64) (N := 64) x0 x1 := by
  unfold k3_pay1
  simp only [shapeCast_self]
  exact matmul_plain_zero_eq (M := 5000) (K := 64) (N := 64) (φ₁ := .f32) (φ₂ := .f32) none x0 x1

/-- Where the blocks sit, band by band (decided over the 80 bands): at band t the blocks of x and of y are block t down
    the rows and block 0 across the columns, and the block of w is block (0, 0), the whole of w. -/
theorem linear3_index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What band t writes back is band t of x w: row p of the band of x is row 5000 t + p of x, the block of w is w, and a
    row of a product reads that row of the left factor only. -/
theorem linear3_band_written (c : Dev nD) (t : Fin cfg3.N) :
    (dat3 V c).flushed 2 t = ((cfg3.win 2).blk t).view.read (Elt Ideal)
      (matProd (M := 400000) (K := 64) (N := 64) (V c main_v70_0) (V c main_v13)) := by
  show (cfg3.win 2).cut (grid3.coords t) ((dat3 V c).after 2 t) = _
  rw [after3_2]
  unfold out3_2
  rw [View.canon_unit_zero linear3_zero_offsets]
  simp only [View.ld_unit_zero (S := S5000x64) linear3_zero_offsets, View.ld_unit_zero (S := S64x64) linear3_zero_offsets]
  rw [linear3_band_product]
  obtain ⟨e0, e1, e2, e3, e4, e5⟩ := linear3_index_maps t
  funext y
  have hy0 : (y 0).val < 5000 := (y 0).isLt
  have hy1 : (y 1).val < 64 := (y 1).isLt
  show matProd (M := 5000) (K := 64) (N := 64) (iblk3 V c 0 t) (iblk3 V c 1 t) ((cfg3.win 2).xinj (grid3.coords t) y)
    = matProd (M := 400000) (K := 64) (N := 64) (V c main_v70_0) (V c main_v13) (((cfg3.win 2).blk t).view.emb y)
  refine matProd_block_idx _ _ _ _ _ _ (fun k => ?_) (fun k => ?_)
  · -- row (y 0) of the band of x, at column k, is row 5000 t + (y 0) of x at column k
    show V c main_v70_0 (((cfg3.win 0).blk t).view.emb (ix2 ⟨(y 0).val, hy0⟩ k)) = V c main_v70_0 _
    refine congrArg (V c main_v70_0) (funext fun a => Fin.ext ?_)
    match a with
    | ⟨0, _⟩ =>
      show win3_0.index t (0 : Fin 2) * 5000 + 1 * (y 0).val = win3_2.index t (0 : Fin 2) * 5000 + 1 * (y 0).val
      omega
    | ⟨1, _⟩ =>
      show win3_0.index t (1 : Fin 2) * 64 + 1 * k.val = k.val
      omega
  · -- row k of the block of w, at column (y 1), is row k of w at column (y 1)
    show V c main_v13 (((cfg3.win 1).blk t).view.emb (ix2 k ⟨(y 1).val, hy1⟩)) = V c main_v13 _
    refine congrArg (V c main_v13) (funext fun a => Fin.ext ?_)
    match a with
    | ⟨0, _⟩ =>
      show win3_1.index t (0 : Fin 2) * 64 + 1 * k.val = k.val
      omega
    | ⟨1, _⟩ =>
      show win3_1.index t (1 : Fin 2) * 64 + 1 * (y 1).val = win3_2.index t (1 : Fin 2) * 64 + 1 * (y 1).val
      omega

/-- An index of y is in band t's block exactly when each of its coordinates is in the block's range on that axis. -/
theorem linear3_mem_band (t : Fin cfg3.N) (i : S400000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v71).slice (win3_2.rect t)).set ↔ _
  rw [View.set_slice_whole, Rect.mem_set_unit]
  exact Iff.rfl

/-- Every index of y is in some band's block: row r is in band r / 5000, and every band spans all 64 columns. -/
theorem linear3_rows_covered (i : S400000x64.Idx) :
    ∃ t : Fin cfg3.N, (cfg3.win 2).flush t = true ∧ i ∈ ((cfg3.win 2).blk t).view.set := by
  have hi0 : (i 0).val < 400000 := (i 0).isLt
  have hi1 : (i 1).val < 64 := (i 1).isLt
  have hlt : (i 0).val / 5000 < grid3.N := by rw [N_3]; omega
  obtain ⟨t, ht⟩ : ∃ t : Fin cfg3.N, t.val = (i 0).val / 5000 := ⟨⟨(i 0).val / 5000, hlt⟩, rfl⟩
  obtain ⟨e0, e1, e2, e3, e4, e5⟩ := linear3_index_maps t
  refine ⟨t, flush3_2 t, ?_⟩
  rw [linear3_mem_band]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- After the region, y is x w: each band writes its band of x w, and the bands hold every index of y. -/
theorem linear3 (c : Dev nD) :
    (dat3 V c).arrAt 2 cfg3.N
      = Host.dotGeneral (F := Ideal) (φ₁ := .f32) (φ₂ := .f32) (DotDims.plain 400000 64 64) none (V c main_v70_0) (V c main_v13) := by
  refine ((dat3 V c).arrAt_eq_of_cover 2 (matProd (M := 400000) (K := 64) (N := 64) (V c main_v70_0) (V c main_v13))
    (fun t _ => linear3_band_written V c t) linear3_rows_covered).trans ?_
  exact (dotGeneral_plain_eq (M := 400000) (K := 64) (N := 64) (φ₁ := .f32) (φ₂ := .f32) none (V c main_v70_0) (V c main_v13)).symm

end Cert.KernelIdeal.RegionValue

end
-- ==== Proof.FinalizeRegion4.lean ====
/-
  The finalize region of the graph network on 400000 rows, launch 4, as one function of the arrays it reads.

  The region walks the rows in 80 bands of 5000. At band t it reads rows [5000 t, 5000 t + 5000) of the scattered
  neighbour sums s, of the projected features h, of the degree column d and of the running mixture acc, and the whole
  bias row b and the one coefficient f; it writes the same rows of two results,
      u   = tanh (s + h (d d) + b)          (entry (r, q) reads d in row r and b in column q)
      acc' = acc + f u.
  Every entry of a result depends on its own row only, so band t of either result is band t of the same expression
  taken over the whole arrays; the 80 bands tile the 400000 rows (row r lies in band r / 5000), hence after the region
  the two result arrays are the whole-array expressions Cert.Gnn.convOut and Cert.Gnn.mix.
-/
import proofs.«418542_j22608707846200_1_alg».proof.Proof.KernelIdealFrameRegions0
import proofs.«418542_j22608707846200_1_alg».proof.Proof.GnnOps
import proofs.«418542_j22608707846200_1_alg».proof.Proof.FinalizeOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.KernelIdeal.FinalizeOps

variable (V : (c : Dev nD) → (b : Ref sig .tc) → Buf (Elt Ideal) ((c : Thread nD τ).loc b))

namespace Finalize4

/-! ## One band: the body's two results entry by entry -/

/-- The first result of a band at (p, q): tanh (s + h (d d) + b), d read in the band's row p, b in column q. -/
theorem convBand_apply (x0 x1 : Vec Ideal S5000x64 .f32) (x2 : Vec Ideal S5000x1 .f32) (x3 : Vec Ideal S1x64 .f32)
    (p : Fin 5000) (q : Fin 64) :
    k4_pay1 x2 x0 x1 x3 (ix2 p q)
      = Ideal.tanh (x0 (ix2 p q) + x1 (ix2 p q) * (x2 (ix2 p (0 : Fin 1)) * x2 (ix2 p (0 : Fin 1))) + x3 (ix2 (0 : Fin 1) q)) := by
  unfold k4_pay1 Idealize.ShloMosaic.tanh
  simp only [shapeCast_self, addf_apply, mulf_apply, Ideal.tanh_def]
  rw [broadcastTo_col_apply _ _ p q, broadcastTo_1b_ab_apply _ _ p q, mulf_apply]

/-- The second result of a band at (p, q): acc + f u, f the one entry of the 1 x 1 coefficient, u the first result. -/
theorem mixBand_apply (x0 x1 : Vec Ideal S5000x64 .f32) (x2 : Vec Ideal S5000x1 .f32) (x3 : Vec Ideal S1x64 .f32)
    (x5 : Vec Ideal S5000x64 .f32) (x4 : Vec Ideal S1x1 .f32) (p : Fin 5000) (q : Fin 64) :
    k4_pay2 x2 x0 x1 x3 x5 x4 (ix2 p q)
      = x5 (ix2 p q) + x4 (ix2 (0 : Fin 1) (0 : Fin 1)) * k4_pay1 x2 x0 x1 x3 (ix2 p q) := by
  unfold k4_pay2
  simp only [shapeCast_self, addf_apply, mulf_apply, broadcast_apply]
  rw [extractAt_origin]

/-- A band's first result at (p, q) is the whole-array expression at (r, q), once the band's operands are the
    whole arrays' entries of row r (the bias row read whole). -/
theorem convBand_eq (hc : S400000x1.BroadcastsInDim S400000x64 (![0, 1] : Fin 2 → Fin 2))
    (hb : S1x64.BroadcastsInDim S400000x64 (![0, 1] : Fin 2 → Fin 2))
    (s h : FVec Ideal S400000x64 .f32) (d : FVec Ideal S400000x1 .f32) (b : FVec Ideal S1x64 .f32)
    (x0 x1 : Vec Ideal S5000x64 .f32) (x2 : Vec Ideal S5000x1 .f32) (x3 : Vec Ideal S1x64 .f32)
    (p : Fin 5000) (q : Fin 64) (r : Fin 400000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k4_pay1 x2 x0 x1 x3 (ix2 p q) = Cert.Gnn.convOut hc hb s h d b (ix2 r q) := by
  rw [convBand_apply, convOut_ix2, h0, h1, h2, h3]

/-- A band's second result at (p, q) is the whole-array mixture at (r, q), under the same reading of the operands. -/
theorem mixBand_eq (hc : S400000x1.BroadcastsInDim S400000x64 (![0, 1] : Fin 2 → Fin 2))
    (hb : S1x64.BroadcastsInDim S400000x64 (![0, 1] : Fin 2 → Fin 2))
    (hs : S_.BroadcastsInDim S400000x64 (![] : Fin 0 → Fin 2)) (h11 : S1x1.ShapeCasts S_)
    (s h : FVec Ideal S400000x64 .f32) (d : FVec Ideal S400000x1 .f32) (b : FVec Ideal S1x64 .f32)
    (f : FVec Ideal S1x1 .f32) (acc : FVec Ideal S400000x64 .f32)
    (x0 x1 : Vec Ideal S5000x64 .f32) (x2 : Vec Ideal S5000x1 .f32) (x3 : Vec Ideal S1x64 .f32)
    (x4 : Vec Ideal S1x1 .f32) (x5 : Vec Ideal S5000x64 .f32)
    (p : Fin 5000) (q : Fin 64) (r : Fin 400000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q))
    (h4 : x4 (ix2 (0 : Fin 1) (0 : Fin 1)) = f (ix2 (0 : Fin 1) (0 : Fin 1))) (h5 : x5 (ix2 p q) = acc (ix2 r q)) :
    k4_pay2 x2 x0 x1 x3 x5 x4 (ix2 p q)
      = Cert.Gnn.mix hs acc (Cert.Gnn.convOut hc hb s h d b) (shapeCast S_ f h11) (ix2 r q) := by
  rw [mixBand_apply, mix_ix2, shapeCast_unit_scalar_apply, convBand_eq hc hb s h d b x0 x1 x2 x3 p q r h0 h1 h2 h3, h4, h5]

/-! ## Where band t sits in each array -/

theorem zeroOffsets : (![0, 0] : Fin 2 → Nat) = fun _ => 0 := funext fun a => by fin_cases a <;> rfl

/-- The windows' index maps over the 80 bands: every row-shaped window is at row block t, column block 0; the bias row
    and the coefficient stay at block (0, 0). -/
theorem bandIndex : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

theorem band_lt (t : Fin cfg4.N) : t.val < 80 := lt_of_lt_of_eq t.isLt N_4

/-- Row p of band t is row 5000 t + p of the array. -/
abbrev row (t : Fin cfg4.N) (p : Fin 5000) : Fin 400000 := ⟨t.val * 5000 + p.val, by have := band_lt t; have := p.isLt; omega⟩

theorem emb_s (t : Fin cfg4.N) (p : Fin 5000) (q : Fin 64) :
    ((cfg4.win 0).blk t).view.emb (ix2 p q) = ix2 (row t p) q := by
  obtain ⟨e0, e1, -⟩ := bandIndex t
  funext a; apply Fin.ext
  match a with
  | ⟨0, _⟩ => show win4_0.index t (0 : Fin 2) * 5000 + 1 * p.val = t.val * 5000 + p.val; omega
  | ⟨1, _⟩ => show win4_0.index t (1 : Fin 2) * 64 + 1 * q.val = q.val; omega

theorem emb_h (t : Fin cfg4.N) (p : Fin 5000) (q : Fin 64) :
    ((cfg4.win 1).blk t).view.emb (ix2 p q) = ix2 (row t p) q := by
  obtain ⟨-, -, e0, e1, -⟩ := bandIndex t
  funext a; apply Fin.ext
  match a with
  | ⟨0, _⟩ => show win4_1.index t (0 : Fin 2) * 5000 + 1 * p.val = t.val * 5000 + p.val; omega
  | ⟨1, _⟩ => show win4_1.index t (1 : Fin 2) * 64 + 1 * q.val = q.val; omega

theorem emb_d (t : Fin cfg4.N) (p : Fin 5000) :
    ((cfg4.win 2).blk t).view.emb (ix2 p (0 : Fin 1)) = ix2 (row t p) (0 : Fin 1) := by
  obtain ⟨-, -, -, -, e0, e1, -⟩ := bandIndex t
  funext a; apply Fin.ext
  match a with
  | ⟨0, _⟩ => show win4_2.index t (0 : Fin 2) * 5000 + 1 * p.val = t.val * 5000 + p.val; omega
  | ⟨1, _⟩ => show win4_2.index t (1 : Fin 2) * 1 + 1 * 0 = 0; omega

theorem emb_b (t : Fin cfg4.N) (q : Fin 64) :
    ((cfg4.win 3).blk t).view.emb (ix2 (0 : Fin 1) q) = ix2 (0 : Fin 1) q := by
  obtain ⟨-, -, -, -, -, -, e0, e1, -⟩ := bandIndex t
  funext a; apply Fin.ext
  match a with
  | ⟨0, _⟩ => show win4_3.index t (0 : Fin 2) * 1 + 1 * 0 = 0; omega
  | ⟨1, _⟩ => show win4_3.index t (1 : Fin 2) * 64 + 1 * q.val = q.val; omega

theorem emb_f (t : Fin cfg4.N) :
    ((cfg4.win 4).blk t).view.emb (ix2 (0 : Fin 1) (0 : Fin 1)) = ix2 (0 : Fin 1) (0 : Fin 1) := by
  obtain ⟨-, -, -, -, -, -, -, -, e0, e1, -⟩ := bandIndex t
  funext a; apply Fin.ext
  match a with
  | ⟨0, _⟩ => show win4_4.index t (0 : Fin 2) * 1 + 1 * 0 = 0; omega
  | ⟨1, _⟩ => show win4_4.index t (1 : Fin 2) * 1 + 1 * 0 = 0; omega

theorem emb_acc (t : Fin cfg4.N) (p : Fin 5000) (q : Fin 64) :
    ((cfg4.win 5).blk t).view.emb (ix2 p q) = ix2 (row t p) q := by
  obtain ⟨-, -, -, -, -, -, -, -, -, -, e0, e1, -⟩ := bandIndex t
  funext a; apply Fin.ext
  match a with
  | ⟨0, _⟩ => show win4_5.index t (0 : Fin 2) * 5000 + 1 * p.val = t.val * 5000 + p.val; omega
  | ⟨1, _⟩ => show win4_5.index t (1 : Fin 2) * 64 + 1 * q.val = q.val; omega

theorem emb_u (t : Fin cfg4.N) (p : Fin 5000) (q : Fin 64) :
    ((cfg4.win 6).blk t).view.emb (ix2 p q) = ix2 (row t p) q := by
  obtain ⟨-, -, -, -, -, -, -, -, -, -, -, -, e0, e1, -⟩ := bandIndex t
  funext a; apply Fin.ext
  match a with
  | ⟨0, _⟩ => show win4_6.index t (0 : Fin 2) * 5000 + 1 * p.val = t.val * 5000 + p.val; omega
  | ⟨1, _⟩ => show win4_6.index t (1 : Fin 2) * 64 + 1 * q.val = q.val; omega

theorem emb_acc' (t : Fin cfg4.N) (p : Fin 5000) (q : Fin 64) :
    ((cfg4.win 7).blk t).view.emb (ix2 p q) = ix2 (row t p) q := by
  obtain ⟨-, -, -, -, -, -, -, -, -, -, -, -, -, -, e0, e1⟩ := bandIndex t
  funext a; apply Fin.ext
  match a with
  | ⟨0, _⟩ => show win4_7.index t (0 : Fin 2) * 5000 + 1 * p.val = t.val * 5000 + p.val; omega
  | ⟨1, _⟩ => show win4_7.index t (1 : Fin 2) * 64 + 1 * q.val = q.val; omega

/-! ## What band t writes back is band t of the whole-array expressions -/

theorem flushed_u (c : Dev nD) (t : Fin cfg4.N)
    (hc : S400000x1.BroadcastsInDim S400000x64 (![0, 1] : Fin 2 → Fin 2))
    (hb : S1x64.BroadcastsInDim S400000x64 (![0, 1] : Fin 2 → Fin 2)) :
    (dat4 V c).flushed 6 t = ((cfg4.win 6).blk t).view.read (Elt Ideal)
      (Cert.Gnn.convOut hc hb (V c main_v116) (V c main_v71) (V c main_v120) (V c main_v19)) := by
  show (cfg4.win 6).cut (grid4.coords t) ((dat4 V c).after 6 t) = _
  rw [after4_6]
  unfold out4_6
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k4_pay1 (iblk4 V c 2 t) (iblk4 V c 0 t) (iblk4 V c 1 t) (iblk4 V c 3 t) (ix2 p q)
    = Cert.Gnn.convOut hc hb (V c main_v116) (V c main_v71) (V c main_v120) (V c main_v19) (((cfg4.win 6).blk t).view.emb (ix2 p q))
  rw [emb_u t p q]
  exact convBand_eq hc hb (V c main_v116) (V c main_v71) (V c main_v120) (V c main_v19)
    (iblk4 V c 0 t) (iblk4 V c 1 t) (iblk4 V c 2 t) (iblk4 V c 3 t) p q (row t p)
    (congrArg (V c main_v116) (emb_s t p q)) (congrArg (V c main_v71) (emb_h t p q))
    (congrArg (V c main_v120) (emb_d t p)) (congrArg (V c main_v19) (emb_b t q))

theorem flushed_acc (c : Dev nD) (t : Fin cfg4.N)
    (hc : S400000x1.BroadcastsInDim S400000x64 (![0, 1] : Fin 2 → Fin 2))
    (hb : S1x64.BroadcastsInDim S400000x64 (![0, 1] : Fin 2 → Fin 2))
    (hs : S_.BroadcastsInDim S400000x64 (![] : Fin 0 → Fin 2)) (h11 : S1x1.ShapeCasts S_) :
    (dat4 V c).flushed 7 t = ((cfg4.win 7).blk t).view.read (Elt Ideal)
      (Cert.Gnn.mix hs (V c main_v70_1)
        (Cert.Gnn.convOut hc hb (V c main_v116) (V c main_v71) (V c main_v120) (V c main_v19))
        (shapeCast S_ (V c main_v119) h11)) := by
  show (cfg4.win 7).cut (grid4.coords t) ((dat4 V c).after 7 t) = _
  rw [after4_7]
  unfold out4_7
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S1x1) zeroOffsets]
  funext j
  obtain ⟨p, q, rfl⟩ : ∃ (p : Fin 5000) (q : Fin 64), j = ix2 p q := ⟨j 0, j 1, eq_ix2 j⟩
  show k4_pay2 (iblk4 V c 2 t) (iblk4 V c 0 t) (iblk4 V c 1 t) (iblk4 V c 3 t) (iblk4 V c 5 t) (iblk4 V c 4 t) (ix2 p q)
    = Cert.Gnn.mix hs (V c main_v70_1)
        (Cert.Gnn.convOut hc hb (V c main_v116) (V c main_v71) (V c main_v120) (V c main_v19))
        (shapeCast S_ (V c main_v119) h11) (((cfg4.win 7).blk t).view.emb (ix2 p q))
  rw [emb_acc' t p q]
  exact mixBand_eq hc hb hs h11 (V c main_v116) (V c main_v71) (V c main_v120) (V c main_v19) (V c main_v119) (V c main_v70_1)
    (iblk4 V c 0 t) (iblk4 V c 1 t) (iblk4 V c 2 t) (iblk4 V c 3 t) (iblk4 V c 4 t) (iblk4 V c 5 t) p q (row t p)
    (congrArg (V c main_v116) (emb_s t p q)) (congrArg (V c main_v71) (emb_h t p q))
    (congrArg (V c main_v120) (emb_d t p)) (congrArg (V c main_v19) (emb_b t q))
    (congrArg (V c main_v119) (emb_f t)) (congrArg (V c main_v70_1) (emb_acc t p q))

/-! ## The 80 bands tile the rows -/

/-- The band of a row: r / 5000. -/
abbrev bandOf (i : S400000x64.Idx) : Fin cfg4.N :=
  ⟨(i 0).val / 5000, by rw [show cfg4.N = 80 from N_4]; have : (i 0).val < 400000 := (i 0).isLt; omega⟩

/-- An index of the first result's array is in band t's block iff each coordinate is in the block's range. -/
theorem mem_band_u (t : Fin cfg4.N) (i : S400000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v121_0).slice (win4_6.rect t)).set ↔ _
  rw [View.set_slice_whole, Rect.mem_set_unit]
  exact Iff.rfl

theorem mem_band_acc (t : Fin cfg4.N) (i : S400000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v121_1).slice (win4_7.rect t)).set ↔ _
  rw [View.set_slice_whole, Rect.mem_set_unit]
  exact Iff.rfl

/-- Every entry of the first result's array lies in the block of its row's band. -/
theorem cover_u (i : S400000x64.Idx) :
    ∃ t : Fin cfg4.N, (cfg4.win 6).flush t = true ∧ i ∈ ((cfg4.win 6).blk t).view.set := by
  have hi0 : (i 0).val < 400000 := (i 0).isLt
  have hi1 : (i 1).val < 64 := (i 1).isLt
  obtain ⟨-, -, -, -, -, -, -, -, -, -, -, -, e0, e1, -⟩ := bandIndex (bandOf i)
  have hv : (bandOf i).val = (i 0).val / 5000 := rfl
  refine ⟨bandOf i, flush4_6 _, ?_⟩
  rw [mem_band_u]
  intro a
  match a with
  | ⟨0, _⟩ => show win4_6.index (bandOf i) (0 : Fin 2) * 5000 ≤ (i 0).val ∧ (i 0).val < win4_6.index (bandOf i) (0 : Fin 2) * 5000 + 5000; omega
  | ⟨1, _⟩ => show win4_6.index (bandOf i) (1 : Fin 2) * 64 ≤ (i 1).val ∧ (i 1).val < win4_6.index (bandOf i) (1 : Fin 2) * 64 + 64; omega

/-- Every entry of the second result's array lies in the block of its row's band. -/
theorem cover_acc (i : S400000x64.Idx) :
    ∃ t : Fin cfg4.N, (cfg4.win 7).flush t = true ∧ i ∈ ((cfg4.win 7).blk t).view.set := by
  have hi0 : (i 0).val < 400000 := (i 0).isLt
  have hi1 : (i 1).val < 64 := (i 1).isLt
  obtain ⟨-, -, -, -, -, -, -, -, -, -, -, -, -, -, e0, e1⟩ := bandIndex (bandOf i)
  have hv : (bandOf i).val = (i 0).val / 5000 := rfl
  refine ⟨bandOf i, flush4_7 _, ?_⟩
  rw [mem_band_acc]
  intro a
  match a with
  | ⟨0, _⟩ => show win4_7.index (bandOf i) (0 : Fin 2) * 5000 ≤ (i 0).val ∧ (i 0).val < win4_7.index (bandOf i) (0 : Fin 2) * 5000 + 5000; omega
  | ⟨1, _⟩ => show win4_7.index (bandOf i) (1 : Fin 2) * 64 ≤ (i 1).val ∧ (i 1).val < win4_7.index (bandOf i) (1 : Fin 2) * 64 + 64; omega

end Finalize4

/-! ## The two result arrays after the region -/

/-- After the region the first result's array is tanh (s + h (d d) + b) of the whole arrays. -/
theorem finalize4_h (c : Dev nD)
    (hc : S400000x1.BroadcastsInDim S400000x64 (![0, 1] : Fin 2 → Fin 2)) (hb : S1x64.BroadcastsInDim S400000x64 (![0, 1] : Fin 2 → Fin 2)) :
    (dat4 V c).arrAt 6 cfg4.N = Cert.Gnn.convOut hc hb (V c main_v116) (V c main_v71) (V c main_v120) (V c main_v19) :=
  (dat4 V c).arrAt_eq_of_cover 6 _ (fun t _ => Finalize4.flushed_u V c t hc hb) Finalize4.cover_u

/-- After the region the second result's array is acc + f u of the whole arrays, u the first result. -/
theorem finalize4_acc (c : Dev nD)
    (hc : S400000x1.BroadcastsInDim S400000x64 (![0, 1] : Fin 2 → Fin 2)) (hb : S1x64.BroadcastsInDim S400000x64 (![0, 1] : Fin 2 → Fin 2))
    (hs : S_.BroadcastsInDim S400000x64 (![] : Fin 0 → Fin 2)) (h11 : S1x1.ShapeCasts S_) :
    (dat4 V c).arrAt 7 cfg4.N = Cert.Gnn.mix hs (V c main_v70_1) (Cert.Gnn.convOut hc hb (V c main_v116) (V c main_v71) (V c main_v120) (V c main_v19)) (shapeCast S_ (V c main_v119) h11) :=
  (dat4 V c).arrAt_eq_of_cover 7 _ (fun t _ => Finalize4.flushed_acc V c t hc hb hs h11) Finalize4.cover_acc

end Cert.KernelIdeal.RegionValue

end
-- ==== Proof.LinearRegion5.lean ====
/-
  A linear layer without bias over 400000 rows: y = x w, with x of 400000 rows by 64 features and w a 64 by 64 weight.

  The region walks the rows in 80 bands of 5000. At band t it reads rows 5000 t to 5000 t + 4999 of x and the whole of w,
  multiplies the band by w, and writes the 5000 by 64 result to the same rows of y. Entry (r, q) of a product is the sum
  over k of x[r, k] w[k, q]: it reads row r of the left factor only, so the product of a band of rows with w is that same
  band of rows of x w. The 80 bands hold every row between them, so once the region is through, y is x w.
-/
import proofs.«418542_j22608707846200_1_alg».proof.Proof.KernelIdealFrameRegions0
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

/-- The body reads and writes each of its blocks whole: from offset 0 on both axes. -/
theorem linear5_zero_offsets : (![0, 0] : Fin 2 → Nat) = fun _ => 0 := funext fun a => by fin_cases a <;> rfl

/-- What the body computes from a band x0 of 5000 rows and the weight x1: the product x0 x1. Its two reshapes are to the
    shape their operand already has, and the accumulator the product is added to is zero everywhere. -/
theorem linear5_band_product (x0 : Vec Ideal S5000x64 .f32) (x1 : Vec Ideal S64x64 .f32) :
    k5_pay1 x0 x1 = matProd (M := 5000) (K := 64) (N := 64) x0 x1 := by
  unfold k5_pay1
  simp only [shapeCast_self]
  exact matmul_plain_zero_eq (M := 5000) (K := 64) (N := 64) (φ₁ := .f32) (φ₂ := .f32) none x0 x1

/-- Where the blocks sit, band by band (decided over the 80 bands): at band t the blocks of x and of y are block t down
    the rows and block 0 across the columns, and the block of w is block (0, 0), the whole of w. -/
theorem linear5_index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What band t writes back is band t of x w: row p of the band of x is row 5000 t + p of x, the block of w is w, and a
    row of a product reads that row of the left factor only. -/
theorem linear5_band_written (c : Dev nD) (t : Fin cfg5.N) :
    (dat5 V c).flushed 2 t = ((cfg5.win 2).blk t).view.read (Elt Ideal)
      (matProd (M := 400000) (K := 64) (N := 64) (V c main_v121_0) (V c main_v13)) := by
  show (cfg5.win 2).cut (grid5.coords t) ((dat5 V c).after 2 t) = _
  rw [after5_2]
  unfold out5_2
  rw [View.canon_unit_zero linear5_zero_offsets]
  simp only [View.ld_unit_zero (S := S5000x64) linear5_zero_offsets, View.ld_unit_zero (S := S64x64) linear5_zero_offsets]
  rw [linear5_band_product]
  obtain ⟨e0, e1, e2, e3, e4, e5⟩ := linear5_index_maps t
  funext y
  have hy0 : (y 0).val < 5000 := (y 0).isLt
  have hy1 : (y 1).val < 64 := (y 1).isLt
  show matProd (M := 5000) (K := 64) (N := 64) (iblk5 V c 0 t) (iblk5 V c 1 t) ((cfg5.win 2).xinj (grid5.coords t) y)
    = matProd (M := 400000) (K := 64) (N := 64) (V c main_v121_0) (V c main_v13) (((cfg5.win 2).blk t).view.emb y)
  refine matProd_block_idx _ _ _ _ _ _ (fun k => ?_) (fun k => ?_)
  · -- row (y 0) of the band of x, at column k, is row 5000 t + (y 0) of x at column k
    show V c main_v121_0 (((cfg5.win 0).blk t).view.emb (ix2 ⟨(y 0).val, hy0⟩ k)) = V c main_v121_0 _
    refine congrArg (V c main_v121_0) (funext fun a => Fin.ext ?_)
    match a with
    | ⟨0, _⟩ =>
      show win5_0.index t (0 : Fin 2) * 5000 + 1 * (y 0).val = win5_2.index t (0 : Fin 2) * 5000 + 1 * (y 0).val
      omega
    | ⟨1, _⟩ =>
      show win5_0.index t (1 : Fin 2) * 64 + 1 * k.val = k.val
      omega
  · -- row k of the block of w, at column (y 1), is row k of w at column (y 1)
    show V c main_v13 (((cfg5.win 1).blk t).view.emb (ix2 k ⟨(y 1).val, hy1⟩)) = V c main_v13 _
    refine congrArg (V c main_v13) (funext fun a => Fin.ext ?_)
    match a with
    | ⟨0, _⟩ =>
      show win5_1.index t (0 : Fin 2) * 64 + 1 * k.val = k.val
      omega
    | ⟨1, _⟩ =>
      show win5_1.index t (1 : Fin 2) * 64 + 1 * (y 1).val = win5_2.index t (1 : Fin 2) * 64 + 1 * (y 1).val
      omega

/-- An index of y is in band t's block exactly when each of its coordinates is in the block's range on that axis. -/
theorem linear5_mem_band (t : Fin cfg5.N) (i : S400000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v122).slice (win5_2.rect t)).set ↔ _
  rw [View.set_slice_whole, Rect.mem_set_unit]
  exact Iff.rfl

/-- Every index of y is in some band's block: row r is in band r / 5000, and every band spans all 64 columns. -/
theorem linear5_rows_covered (i : S400000x64.Idx) :
    ∃ t : Fin cfg5.N, (cfg5.win 2).flush t = true ∧ i ∈ ((cfg5.win 2).blk t).view.set := by
  have hi0 : (i 0).val < 400000 := (i 0).isLt
  have hi1 : (i 1).val < 64 := (i 1).isLt
  have hlt : (i 0).val / 5000 < grid5.N := by rw [N_5]; omega
  obtain ⟨t, ht⟩ : ∃ t : Fin cfg5.N, t.val = (i 0).val / 5000 := ⟨⟨(i 0).val / 5000, hlt⟩, rfl⟩
  obtain ⟨e0, e1, e2, e3, e4, e5⟩ := linear5_index_maps t
  refine ⟨t, flush5_2 t, ?_⟩
  rw [linear5_mem_band]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 64 ≤ (i 1).val ∧ (i 1).val < win5_2.index t (1 : Fin 2) * 64 + 64
    omega

/-- After the region, y is x w: each band writes its band of x w, and the bands hold every index of y. -/
theorem linear5 (c : Dev nD) :
    (dat5 V c).arrAt 2 cfg5.N
      = Host.dotGeneral (F := Ideal) (φ₁ := .f32) (φ₂ := .f32) (DotDims.plain 400000 64 64) none (V c main_v121_0) (V c main_v13) := by
  refine ((dat5 V c).arrAt_eq_of_cover 2 (matProd (M := 400000) (K := 64) (N := 64) (V c main_v121_0) (V c main_v13))
    (fun t _ => linear5_band_written V c t) linear5_rows_covered).trans ?_
  exact (dotGeneral_plain_eq (M := 400000) (K := 64) (N := 64) (φ₁ := .f32) (φ₂ := .f32) none (V c main_v121_0) (V c main_v13)).symm

end Cert.KernelIdeal.RegionValue

end
-- ==== Proof.FinalizeRegion6.lean ====
/-
  The finalize region of the graph network on 400000 rows, launch 6, as one function of the arrays it reads.

  The region walks the rows in 80 bands of 5000. At band t it reads rows [5000 t, 5000 t + 5000) of the scattered
  neighbour sums s, of the projected features h, of the degree column d and of the running mixture acc, and the whole
  bias row b and the one coefficient f; it writes the same rows of two results,
      u   = tanh (s + h (d d) + b)          (entry (r, q) reads d in row r and b in column q)
      acc' = acc + f u.
  Every entry of a result depends on its own row only, so band t of either result is band t of the same expression
  taken over the whole arrays; the 80 bands tile the 400000 rows (row r lies in band r / 5000), hence after the region
  the two result arrays are the whole-array expressions Cert.Gnn.convOut and Cert.Gnn.mix.
-/
import proofs.«418542_j22608707846200_1_alg».proof.Proof.KernelIdealFrameRegions0
import proofs.«418542_j22608707846200_1_alg».proof.Proof.GnnOps
import proofs.«418542_j22608707846200_1_alg».proof.Proof.FinalizeOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.KernelIdeal.FinalizeOps

variable (V : (c : Dev nD) → (b : Ref sig .tc) → Buf (Elt Ideal) ((c : Thread nD τ).loc b))

namespace Finalize6

/-! ## One band: the body's two results entry by entry -/

/-- The first result of a band at (p, q): tanh (s + h (d d) + b), d read in the band's row p, b in column q. -/
theorem convBand_apply (x0 x1 : Vec Ideal S5000x64 .f32) (x2 : Vec Ideal S5000x1 .f32) (x3 : Vec Ideal S1x64 .f32)
    (p : Fin 5000) (q : Fin 64) :
    k6_pay1 x2 x0 x1 x3 (ix2 p q)
      = Ideal.tanh (x0 (ix2 p q) + x1 (ix2 p q) * (x2 (ix2 p (0 : Fin 1)) * x2 (ix2 p (0 : Fin 1))) + x3 (ix2 (0 : Fin 1) q)) := by
  unfold k6_pay1 Idealize.ShloMosaic.tanh
  simp only [shapeCast_self, addf_apply, mulf_apply, Ideal.tanh_def]
  rw [broadcastTo_col_apply _ _ p q, broadcastTo_1b_ab_apply _ _ p q, mulf_apply]

/-- The second result of a band at (p, q): acc + f u, f the one entry of the 1 x 1 coefficient, u the first result. -/
theorem mixBand_apply (x0 x1 : Vec Ideal S5000x64 .f32) (x2 : Vec Ideal S5000x1 .f32) (x3 : Vec Ideal S1x64 .f32)
    (x5 : Vec Ideal S5000x64 .f32) (x4 : Vec Ideal S1x1 .f32) (p : Fin 5000) (q : Fin 64) :
    k6_pay2 x2 x0 x1 x3 x5 x4 (ix2 p q)
      = x5 (ix2 p q) + x4 (ix2 (0 : Fin 1) (0 : Fin 1)) * k6_pay1 x2 x0 x1 x3 (ix2 p q) := by
  unfold k6_pay2
  simp only [shapeCast_self, addf_apply, mulf_apply, broadcast_apply]
  rw [extractAt_origin]

/-- A band's first result at (p, q) is the whole-array expression at (r, q), once the band's operands are the
    whole arrays' entries of row r (the bias row read whole). -/
theorem convBand_eq (hc : S400000x1.BroadcastsInDim S400000x64 (![0, 1] : Fin 2 → Fin 2))
    (hb : S1x64.BroadcastsInDim S400000x64 (![0, 1] : Fin 2 → Fin 2))
    (s h : FVec Ideal S400000x64 .f32) (d : FVec Ideal S400000x1 .f32) (b : FVec Ideal S1x64 .f32)
    (x0 x1 : Vec Ideal S5000x64 .f32) (x2 : Vec Ideal S5000x1 .f32) (x3 : Vec Ideal S1x64 .f32)
    (p : Fin 5000) (q : Fin 64) (r : Fin 400000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k6_pay1 x2 x0 x1 x3 (ix2 p q) = Cert.Gnn.convOut hc hb s h d b (ix2 r q) := by
  rw [convBand_apply, convOut_ix2, h0, h1, h2, h3]

/-- A band's second result at (p, q) is the whole-array mixture at (r, q), under the same reading of the operands. -/
theorem mixBand_eq (hc : S400000x1.BroadcastsInDim S400000x64 (![0, 1] : Fin 2 → Fin 2))
    (hb : S1x64.BroadcastsInDim S400000x64 (![0, 1] : Fin 2 → Fin 2))
    (hs : S_.BroadcastsInDim S400000x64 (![] : Fin 0 → Fin 2)) (h11 : S1x1.ShapeCasts S_)
    (s h : FVec Ideal S400000x64 .f32) (d : FVec Ideal S400000x1 .f32) (b : FVec Ideal S1x64 .f32)
    (f : FVec Ideal S1x1 .f32) (acc : FVec Ideal S400000x64 .f32)
    (x0 x1 : Vec Ideal S5000x64 .f32) (x2 : Vec Ideal S5000x1 .f32) (x3 : Vec Ideal S1x64 .f32)
    (x4 : Vec Ideal S1x1 .f32) (x5 : Vec Ideal S5000x64 .f32)
    (p : Fin 5000) (q : Fin 64) (r : Fin 400000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q))
    (h4 : x4 (ix2 (0 : Fin 1) (0 : Fin 1)) = f (ix2 (0 : Fin 1) (0 : Fin 1))) (h5 : x5 (ix2 p q) = acc (ix2 r q)) :
    k6_pay2 x2 x0 x1 x3 x5 x4 (ix2 p q)
      = Cert.Gnn.mix hs acc (Cert.Gnn.convOut hc hb s h d b) (shapeCast S_ f h11) (ix2 r q) := by
  rw [mixBand_apply, mix_ix2, shapeCast_unit_scalar_apply, convBand_eq hc hb s h d b x0 x1 x2 x3 p q r h0 h1 h2 h3, h4, h5]

/-! ## Where band t sits in each array -/

theorem zeroOffsets : (![0, 0] : Fin 2 → Nat) = fun _ => 0 := funext fun a => by fin_cases a <;> rfl

/-- The windows' index maps over the 80 bands: every row-shaped window is at row block t, column block 0; the bias row
    and the coefficient stay at block (0, 0). -/
theorem bandIndex : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

theorem band_lt (t : Fin cfg6.N) : t.val < 80 := lt_of_lt_of_eq t.isLt N_6

/-- Row p of band t is row 5000 t + p of the array. -/
abbrev row (t : Fin cfg6.N) (p : Fin 5000) : Fin 400000 := ⟨t.val * 5000 + p.val, by have := band_lt t; have := p.isLt; omega⟩

theorem emb_s (t : Fin cfg6.N) (p : Fin 5000) (q : Fin 64) :
    ((cfg6.win 0).blk t).view.emb (ix2 p q) = ix2 (row t p) q := by
  obtain ⟨e0, e1, -⟩ := bandIndex t
  funext a; apply Fin.ext
  match a with
  | ⟨0, _⟩ => show win6_0.index t (0 : Fin 2) * 5000 + 1 * p.val = t.val * 5000 + p.val; omega
  | ⟨1, _⟩ => show win6_0.index t (1 : Fin 2) * 64 + 1 * q.val = q.val; omega

theorem emb_h (t : Fin cfg6.N) (p : Fin 5000) (q : Fin 64) :
    ((cfg6.win 1).blk t).view.emb (ix2 p q) = ix2 (row t p) q := by
  obtain ⟨-, -, e0, e1, -⟩ := bandIndex t
  funext a; apply Fin.ext
  match a with
  | ⟨0, _⟩ => show win6_1.index t (0 : Fin 2) * 5000 + 1 * p.val = t.val * 5000 + p.val; omega
  | ⟨1, _⟩ => show win6_1.index t (1 : Fin 2) * 64 + 1 * q.val = q.val; omega

theorem emb_d (t : Fin cfg6.N) (p : Fin 5000) :
    ((cfg6.win 2).blk t).view.emb (ix2 p (0 : Fin 1)) = ix2 (row t p) (0 : Fin 1) := by
  obtain ⟨-, -, -, -, e0, e1, -⟩ := bandIndex t
  funext a; apply Fin.ext
  match a with
  | ⟨0, _⟩ => show win6_2.index t (0 : Fin 2) * 5000 + 1 * p.val = t.val * 5000 + p.val; omega
  | ⟨1, _⟩ => show win6_2.index t (1 : Fin 2) * 1 + 1 * 0 = 0; omega

theorem emb_b (t : Fin cfg6.N) (q : Fin 64) :
    ((cfg6.win 3).blk t).view.emb (ix2 (0 : Fin 1) q) = ix2 (0 : Fin 1) q := by
  obtain ⟨-, -, -, -, -, -, e0, e1, -⟩ := bandIndex t
  funext a; apply Fin.ext
  match a with
  | ⟨0, _⟩ => show win6_3.index t (0 : Fin 2) * 1 + 1 * 0 = 0; omega
  | ⟨1, _⟩ => show win6_3.index t (1 : Fin 2) * 64 + 1 * q.val = q.val; omega

theorem emb_f (t : Fin cfg6.N) :
    ((cfg6.win 4).blk t).view.emb (ix2 (0 : Fin 1) (0 : Fin 1)) = ix2 (0 : Fin 1) (0 : Fin 1) := by
  obtain ⟨-, -, -, -, -, -, -, -, e0, e1, -⟩ := bandIndex t
  funext a; apply Fin.ext
  match a with
  | ⟨0, _⟩ => show win6_4.index t (0 : Fin 2) * 1 + 1 * 0 = 0; omega
  | ⟨1, _⟩ => show win6_4.index t (1 : Fin 2) * 1 + 1 * 0 = 0; omega

theorem emb_acc (t : Fin cfg6.N) (p : Fin 5000) (q : Fin 64) :
    ((cfg6.win 5).blk t).view.emb (ix2 p q) = ix2 (row t p) q := by
  obtain ⟨-, -, -, -, -, -, -, -, -, -, e0, e1, -⟩ := bandIndex t
  funext a; apply Fin.ext
  match a with
  | ⟨0, _⟩ => show win6_5.index t (0 : Fin 2) * 5000 + 1 * p.val = t.val * 5000 + p.val; omega
  | ⟨1, _⟩ => show win6_5.index t (1 : Fin 2) * 64 + 1 * q.val = q.val; omega

theorem emb_u (t : Fin cfg6.N) (p : Fin 5000) (q : Fin 64) :
    ((cfg6.win 6).blk t).view.emb (ix2 p q) = ix2 (row t p) q := by
  obtain ⟨-, -, -, -, -, -, -, -, -, -, -, -, e0, e1, -⟩ := bandIndex t
  funext a; apply Fin.ext
  match a with
  | ⟨0, _⟩ => show win6_6.index t (0 : Fin 2) * 5000 + 1 * p.val = t.val * 5000 + p.val; omega
  | ⟨1, _⟩ => show win6_6.index t (1 : Fin 2) * 64 + 1 * q.val = q.val; omega

theorem emb_acc' (t : Fin cfg6.N) (p : Fin 5000) (q : Fin 64) :
    ((cfg6.win 7).blk t).view.emb (ix2 p q) = ix2 (row t p) q := by
  obtain ⟨-, -, -, -, -, -, -, -, -, -, -, -, -, -, e0, e1⟩ := bandIndex t
  funext a; apply Fin.ext
  match a with
  | ⟨0, _⟩ => show win6_7.index t (0 : Fin 2) * 5000 + 1 * p.val = t.val * 5000 + p.val; omega
  | ⟨1, _⟩ => show win6_7.index t (1 : Fin 2) * 64 + 1 * q.val = q.val; omega

/-! ## What band t writes back is band t of the whole-array expressions -/

theorem flushed_u (c : Dev nD) (t : Fin cfg6.N)
    (hc : S400000x1.BroadcastsInDim S400000x64 (![0, 1] : Fin 2 → Fin 2))
    (hb : S1x64.BroadcastsInDim S400000x64 (![0, 1] : Fin 2 → Fin 2)) :
    (dat6 V c).flushed 6 t = ((cfg6.win 6).blk t).view.read (Elt Ideal)
      (Cert.Gnn.convOut hc hb (V c main_v167) (V c main_v122) (V c main_v171) (V c main_v19)) := by
  show (cfg6.win 6).cut (grid6.coords t) ((dat6 V c).after 6 t) = _
  rw [after6_6]
  unfold out6_6
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k6_pay1 (iblk6 V c 2 t) (iblk6 V c 0 t) (iblk6 V c 1 t) (iblk6 V c 3 t) (ix2 p q)
    = Cert.Gnn.convOut hc hb (V c main_v167) (V c main_v122) (V c main_v171) (V c main_v19) (((cfg6.win 6).blk t).view.emb (ix2 p q))
  rw [emb_u t p q]
  exact convBand_eq hc hb (V c main_v167) (V c main_v122) (V c main_v171) (V c main_v19)
    (iblk6 V c 0 t) (iblk6 V c 1 t) (iblk6 V c 2 t) (iblk6 V c 3 t) p q (row t p)
    (congrArg (V c main_v167) (emb_s t p q)) (congrArg (V c main_v122) (emb_h t p q))
    (congrArg (V c main_v171) (emb_d t p)) (congrArg (V c main_v19) (emb_b t q))

theorem flushed_acc (c : Dev nD) (t : Fin cfg6.N)
    (hc : S400000x1.BroadcastsInDim S400000x64 (![0, 1] : Fin 2 → Fin 2))
    (hb : S1x64.BroadcastsInDim S400000x64 (![0, 1] : Fin 2 → Fin 2))
    (hs : S_.BroadcastsInDim S400000x64 (![] : Fin 0 → Fin 2)) (h11 : S1x1.ShapeCasts S_) :
    (dat6 V c).flushed 7 t = ((cfg6.win 7).blk t).view.read (Elt Ideal)
      (Cert.Gnn.mix hs (V c main_v121_1)
        (Cert.Gnn.convOut hc hb (V c main_v167) (V c main_v122) (V c main_v171) (V c main_v19))
        (shapeCast S_ (V c main_v170) h11)) := by
  show (cfg6.win 7).cut (grid6.coords t) ((dat6 V c).after 7 t) = _
  rw [after6_7]
  unfold out6_7
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S1x1) zeroOffsets]
  funext j
  obtain ⟨p, q, rfl⟩ : ∃ (p : Fin 5000) (q : Fin 64), j = ix2 p q := ⟨j 0, j 1, eq_ix2 j⟩
  show k6_pay2 (iblk6 V c 2 t) (iblk6 V c 0 t) (iblk6 V c 1 t) (iblk6 V c 3 t) (iblk6 V c 5 t) (iblk6 V c 4 t) (ix2 p q)
    = Cert.Gnn.mix hs (V c main_v121_1)
        (Cert.Gnn.convOut hc hb (V c main_v167) (V c main_v122) (V c main_v171) (V c main_v19))
        (shapeCast S_ (V c main_v170) h11) (((cfg6.win 7).blk t).view.emb (ix2 p q))
  rw [emb_acc' t p q]
  exact mixBand_eq hc hb hs h11 (V c main_v167) (V c main_v122) (V c main_v171) (V c main_v19) (V c main_v170) (V c main_v121_1)
    (iblk6 V c 0 t) (iblk6 V c 1 t) (iblk6 V c 2 t) (iblk6 V c 3 t) (iblk6 V c 4 t) (iblk6 V c 5 t) p q (row t p)
    (congrArg (V c main_v167) (emb_s t p q)) (congrArg (V c main_v122) (emb_h t p q))
    (congrArg (V c main_v171) (emb_d t p)) (congrArg (V c main_v19) (emb_b t q))
    (congrArg (V c main_v170) (emb_f t)) (congrArg (V c main_v121_1) (emb_acc t p q))

/-! ## The 80 bands tile the rows -/

/-- The band of a row: r / 5000. -/
abbrev bandOf (i : S400000x64.Idx) : Fin cfg6.N :=
  ⟨(i 0).val / 5000, by rw [show cfg6.N = 80 from N_6]; have : (i 0).val < 400000 := (i 0).isLt; omega⟩

/-- An index of the first result's array is in band t's block iff each coordinate is in the block's range. -/
theorem mem_band_u (t : Fin cfg6.N) (i : S400000x64.Idx) :
    i ∈ ((cfg6.win 6).blk t).view.set ↔ ∀ a : Fin 2, win6_6.index t a * S5000x64.size a ≤ (i a).val ∧ (i a).val < win6_6.index t a * S5000x64.size a + S5000x64.size a := by
  show i ∈ ((View.whole main_v172_0).slice (win6_6.rect t)).set ↔ _
  rw [View.set_slice_whole, Rect.mem_set_unit]
  exact Iff.rfl

theorem mem_band_acc (t : Fin cfg6.N) (i : S400000x64.Idx) :
    i ∈ ((cfg6.win 7).blk t).view.set ↔ ∀ a : Fin 2, win6_7.index t a * S5000x64.size a ≤ (i a).val ∧ (i a).val < win6_7.index t a * S5000x64.size a + S5000x64.size a := by
  show i ∈ ((View.whole main_v172_1).slice (win6_7.rect t)).set ↔ _
  rw [View.set_slice_whole, Rect.mem_set_unit]
  exact Iff.rfl

/-- Every entry of the first result's array lies in the block of its row's band. -/
theorem cover_u (i : S400000x64.Idx) :
    ∃ t : Fin cfg6.N, (cfg6.win 6).flush t = true ∧ i ∈ ((cfg6.win 6).blk t).view.set := by
  have hi0 : (i 0).val < 400000 := (i 0).isLt
  have hi1 : (i 1).val < 64 := (i 1).isLt
  obtain ⟨-, -, -, -, -, -, -, -, -, -, -, -, e0, e1, -⟩ := bandIndex (bandOf i)
  have hv : (bandOf i).val = (i 0).val / 5000 := rfl
  refine ⟨bandOf i, flush6_6 _, ?_⟩
  rw [mem_band_u]
  intro a
  match a with
  | ⟨0, _⟩ => show win6_6.index (bandOf i) (0 : Fin 2) * 5000 ≤ (i 0).val ∧ (i 0).val < win6_6.index (bandOf i) (0 : Fin 2) * 5000 + 5000; omega
  | ⟨1, _⟩ => show win6_6.index (bandOf i) (1 : Fin 2) * 64 ≤ (i 1).val ∧ (i 1).val < win6_6.index (bandOf i) (1 : Fin 2) * 64 + 64; omega

/-- Every entry of the second result's array lies in the block of its row's band. -/
theorem cover_acc (i : S400000x64.Idx) :
    ∃ t : Fin cfg6.N, (cfg6.win 7).flush t = true ∧ i ∈ ((cfg6.win 7).blk t).view.set := by
  have hi0 : (i 0).val < 400000 := (i 0).isLt
  have hi1 : (i 1).val < 64 := (i 1).isLt
  obtain ⟨-, -, -, -, -, -, -, -, -, -, -, -, -, -, e0, e1⟩ := bandIndex (bandOf i)
  have hv : (bandOf i).val = (i 0).val / 5000 := rfl
  refine ⟨bandOf i, flush6_7 _, ?_⟩
  rw [mem_band_acc]
  intro a
  match a with
  | ⟨0, _⟩ => show win6_7.index (bandOf i) (0 : Fin 2) * 5000 ≤ (i 0).val ∧ (i 0).val < win6_7.index (bandOf i) (0 : Fin 2) * 5000 + 5000; omega
  | ⟨1, _⟩ => show win6_7.index (bandOf i) (1 : Fin 2) * 64 ≤ (i 1).val ∧ (i 1).val < win6_7.index (bandOf i) (1 : Fin 2) * 64 + 64; omega

end Finalize6

/-! ## The two result arrays after the region -/

/-- After the region the first result's array is tanh (s + h (d d) + b) of the whole arrays. -/
theorem finalize6_h (c : Dev nD)
    (hc : S400000x1.BroadcastsInDim S400000x64 (![0, 1] : Fin 2 → Fin 2)) (hb : S1x64.BroadcastsInDim S400000x64 (![0, 1] : Fin 2 → Fin 2)) :
    (dat6 V c).arrAt 6 cfg6.N = Cert.Gnn.convOut hc hb (V c main_v167) (V c main_v122) (V c main_v171) (V c main_v19) :=
  (dat6 V c).arrAt_eq_of_cover 6 _ (fun t _ => Finalize6.flushed_u V c t hc hb) Finalize6.cover_u

/-- After the region the second result's array is acc + f u of the whole arrays, u the first result. -/
theorem finalize6_acc (c : Dev nD)
    (hc : S400000x1.BroadcastsInDim S400000x64 (![0, 1] : Fin 2 → Fin 2)) (hb : S1x64.BroadcastsInDim S400000x64 (![0, 1] : Fin 2 → Fin 2))
    (hs : S_.BroadcastsInDim S400000x64 (![] : Fin 0 → Fin 2)) (h11 : S1x1.ShapeCasts S_) :
    (dat6 V c).arrAt 7 cfg6.N = Cert.Gnn.mix hs (V c main_v121_1) (Cert.Gnn.convOut hc hb (V c main_v167) (V c main_v122) (V c main_v171) (V c main_v19)) (shapeCast S_ (V c main_v170) h11) :=
  (dat6 V c).arrAt_eq_of_cover 7 _ (fun t _ => Finalize6.flushed_acc V c t hc hb hs h11) Finalize6.cover_acc

end Cert.KernelIdeal.RegionValue

end
-- ==== Proof.LinearRegion7.lean ====
/-
  A linear layer without bias over 100000 rows: y = x w, with x of 100000 rows by 64 features and w a 64 by 64 weight.

  The region walks the rows in 20 bands of 5000. At band t it reads rows 5000 t to 5000 t + 4999 of x and the whole of w,
  multiplies the band by w, and writes the 5000 by 64 result to the same rows of y. Entry (r, q) of a product is the sum
  over k of x[r, k] w[k, q]: it reads row r of the left factor only, so the product of a band of rows with w is that same
  band of rows of x w. The 20 bands hold every row between them, so once the region is through, y is x w.
-/
import proofs.«418542_j22608707846200_1_alg».proof.Proof.KernelIdealFrameRegions1
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

/-- The body reads and writes each of its blocks whole: from offset 0 on both axes. -/
theorem linear7_zero_offsets : (![0, 0] : Fin 2 → Nat) = fun _ => 0 := funext fun a => by fin_cases a <;> rfl

/-- What the body computes from a band x0 of 5000 rows and the weight x1: the product x0 x1. Its two reshapes are to the
    shape their operand already has, and the accumulator the product is added to is zero everywhere. -/
theorem linear7_band_product (x0 : Vec Ideal S5000x64 .f32) (x1 : Vec Ideal S64x64 .f32) :
    k7_pay1 x0 x1 = matProd (M := 5000) (K := 64) (N := 64) x0 x1 := by
  unfold k7_pay1
  simp only [shapeCast_self]
  exact matmul_plain_zero_eq (M := 5000) (K := 64) (N := 64) (φ₁ := .f32) (φ₂ := .f32) none x0 x1

/-- Where the blocks sit, band by band (decided over the 20 bands): at band t the blocks of x and of y are block t down
    the rows and block 0 across the columns, and the block of w is block (0, 0), the whole of w. -/
theorem linear7_index_maps : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What band t writes back is band t of x w: row p of the band of x is row 5000 t + p of x, the block of w is w, and a
    row of a product reads that row of the left factor only. -/
theorem linear7_band_written (c : Dev nD) (t : Fin cfg7.N) :
    (dat7 V c).flushed 2 t = ((cfg7.win 2).blk t).view.read (Elt Ideal)
      (matProd (M := 100000) (K := 64) (N := 64) (V c main_v6) (V c main_v178)) := by
  show (cfg7.win 2).cut (grid7.coords t) ((dat7 V c).after 2 t) = _
  rw [after7_2]
  unfold out7_2
  rw [View.canon_unit_zero linear7_zero_offsets]
  simp only [View.ld_unit_zero (S := S5000x64) linear7_zero_offsets, View.ld_unit_zero (S := S64x64) linear7_zero_offsets]
  rw [linear7_band_product]
  obtain ⟨e0, e1, e2, e3, e4, e5⟩ := linear7_index_maps t
  funext y
  have hy0 : (y 0).val < 5000 := (y 0).isLt
  have hy1 : (y 1).val < 64 := (y 1).isLt
  show matProd (M := 5000) (K := 64) (N := 64) (iblk7 V c 0 t) (iblk7 V c 1 t) ((cfg7.win 2).xinj (grid7.coords t) y)
    = matProd (M := 100000) (K := 64) (N := 64) (V c main_v6) (V c main_v178) (((cfg7.win 2).blk t).view.emb y)
  refine matProd_block_idx _ _ _ _ _ _ (fun k => ?_) (fun k => ?_)
  · -- row (y 0) of the band of x, at column k, is row 5000 t + (y 0) of x at column k
    show V c main_v6 (((cfg7.win 0).blk t).view.emb (ix2 ⟨(y 0).val, hy0⟩ k)) = V c main_v6 _
    refine congrArg (V c main_v6) (funext fun a => Fin.ext ?_)
    match a with
    | ⟨0, _⟩ =>
      show win7_0.index t (0 : Fin 2) * 5000 + 1 * (y 0).val = win7_2.index t (0 : Fin 2) * 5000 + 1 * (y 0).val
      omega
    | ⟨1, _⟩ =>
      show win7_0.index t (1 : Fin 2) * 64 + 1 * k.val = k.val
      omega
  · -- row k of the block of w, at column (y 1), is row k of w at column (y 1)
    show V c main_v178 (((cfg7.win 1).blk t).view.emb (ix2 k ⟨(y 1).val, hy1⟩)) = V c main_v178 _
    refine congrArg (V c main_v178) (funext fun a => Fin.ext ?_)
    match a with
    | ⟨0, _⟩ =>
      show win7_1.index t (0 : Fin 2) * 64 + 1 * k.val = k.val
      omega
    | ⟨1, _⟩ =>
      show win7_1.index t (1 : Fin 2) * 64 + 1 * (y 1).val = win7_2.index t (1 : Fin 2) * 64 + 1 * (y 1).val
      omega

/-- An index of y is in band t's block exactly when each of its coordinates is in the block's range on that axis. -/
theorem linear7_mem_band (t : Fin cfg7.N) (i : S100000x64.Idx) :
    i ∈ ((cfg7.win 2).blk t).view.set ↔ ∀ a : Fin 2, win7_2.index t a * S5000x64.size a ≤ (i a).val
      ∧ (i a).val < win7_2.index t a * S5000x64.size a + S5000x64.size a := by
  show i ∈ ((View.whole main_v185).slice (win7_2.rect t)).set ↔ _
  rw [View.set_slice_whole, Rect.mem_set_unit]
  exact Iff.rfl

/-- Every index of y is in some band's block: row r is in band r / 5000, and every band spans all 64 columns. -/
theorem linear7_rows_covered (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hlt : (i 0).val / 5000 < grid7.N := by rw [N_7]; omega
  obtain ⟨t, ht⟩ : ∃ t : Fin cfg7.N, t.val = (i 0).val / 5000 := ⟨⟨(i 0).val / 5000, hlt⟩, rfl⟩
  obtain ⟨e0, e1, e2, e3, e4, e5⟩ := linear7_index_maps t
  refine ⟨t, flush7_2 t, ?_⟩
  rw [linear7_mem_band]
  intro a
  match a with
  | ⟨0, _⟩ =>
    show win7_2.index t (0 : Fin 2) * 5000 ≤ (i 0).val ∧ (i 0).val < win7_2.index t (0 : Fin 2) * 5000 + 5000
    omega
  | ⟨1, _⟩ =>
    show win7_2.index t (1 : Fin 2) * 64 ≤ (i 1).val ∧ (i 1).val < win7_2.index t (1 : Fin 2) * 64 + 64
    omega

/-- After the region, y is x w: each band writes its band of x w, and the bands hold every index of y. -/
theorem linear7 (c : Dev nD) :
    (dat7 V c).arrAt 2 cfg7.N
      = Host.dotGeneral (F := Ideal) (φ₁ := .f32) (φ₂ := .f32) (DotDims.plain 100000 64 64) none (V c main_v6) (V c main_v178) := by
  refine ((dat7 V c).arrAt_eq_of_cover 2 (matProd (M := 100000) (K := 64) (N := 64) (V c main_v6) (V c main_v178))
    (fun t _ => linear7_band_written V c t) linear7_rows_covered).trans ?_
  exact (dotGeneral_plain_eq (M := 100000) (K := 64) (N := 64) (φ₁ := .f32) (φ₂ := .f32) none (V c main_v6) (V c main_v178)).symm

end Cert.KernelIdeal.RegionValue

end
-- ==== Proof.FinalizeRegion8.lean ====
/-
  The finalize region of the graph network on 100000 rows, launch 8, as one function of the arrays it reads.

  The region walks the rows in 20 bands of 5000. At band t it reads rows [5000 t, 5000 t + 5000) of the scattered
  neighbour sums s, of the projected features h, of the degree column d and of the running mixture acc, and the whole
  bias row b and the one coefficient f; it writes the same rows of two results,
      u   = tanh (s + h (d d) + b)          (entry (r, q) reads d in row r and b in column q)
      acc' = acc + f u.
  Every entry of a result depends on its own row only, so band t of either result is band t of the same expression
  taken over the whole arrays; the 20 bands tile the 100000 rows (row r lies in band r / 5000), hence after the region
  the two result arrays are the whole-array expressions Cert.Gnn.convOut and Cert.Gnn.mix.
-/
import proofs.«418542_j22608707846200_1_alg».proof.Proof.KernelIdealFrameRegions1
import proofs.«418542_j22608707846200_1_alg».proof.Proof.GnnOps
import proofs.«418542_j22608707846200_1_alg».proof.Proof.FinalizeOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.KernelIdeal.FinalizeOps

variable (V : (c : Dev nD) → (b : Ref sig .tc) → Buf (Elt Ideal) ((c : Thread nD τ).loc b))

namespace Finalize8

/-! ## One band: the body's two results entry by entry -/

/-- The first result of a band at (p, q): tanh (s + h (d d) + b), d read in the band's row p, b in column q. -/
theorem convBand_apply (x0 x1 : Vec Ideal S5000x64 .f32) (x2 : Vec Ideal S5000x1 .f32) (x3 : Vec Ideal S1x64 .f32)
    (p : Fin 5000) (q : Fin 64) :
    k8_pay1 x2 x0 x1 x3 (ix2 p q)
      = Ideal.tanh (x0 (ix2 p q) + x1 (ix2 p q) * (x2 (ix2 p (0 : Fin 1)) * x2 (ix2 p (0 : Fin 1))) + x3 (ix2 (0 : Fin 1) q)) := by
  unfold k8_pay1 Idealize.ShloMosaic.tanh
  simp only [shapeCast_self, addf_apply, mulf_apply, Ideal.tanh_def]
  rw [broadcastTo_col_apply _ _ p q, broadcastTo_1b_ab_apply _ _ p q, mulf_apply]

/-- The second result of a band at (p, q): acc + f u, f the one entry of the 1 x 1 coefficient, u the first result. -/
theorem mixBand_apply (x0 x1 : Vec Ideal S5000x64 .f32) (x2 : Vec Ideal S5000x1 .f32) (x3 : Vec Ideal S1x64 .f32)
    (x5 : Vec Ideal S5000x64 .f32) (x4 : Vec Ideal S1x1 .f32) (p : Fin 5000) (q : Fin 64) :
    k8_pay2 x2 x0 x1 x3 x5 x4 (ix2 p q)
      = x5 (ix2 p q) + x4 (ix2 (0 : Fin 1) (0 : Fin 1)) * k8_pay1 x2 x0 x1 x3 (ix2 p q) := by
  unfold k8_pay2
  simp only [shapeCast_self, addf_apply, mulf_apply, broadcast_apply]
  rw [extractAt_origin]

/-- A band's first result at (p, q) is the whole-array expression at (r, q), once the band's operands are the
    whole arrays' entries of row r (the bias row read whole). -/
theorem convBand_eq (hc : S100000x1.BroadcastsInDim S100000x64 (![0, 1] : Fin 2 → Fin 2))
    (hb : S1x64.BroadcastsInDim S100000x64 (![0, 1] : Fin 2 → Fin 2))
    (s h : FVec Ideal S100000x64 .f32) (d : FVec Ideal S100000x1 .f32) (b : FVec Ideal S1x64 .f32)
    (x0 x1 : Vec Ideal S5000x64 .f32) (x2 : Vec Ideal S5000x1 .f32) (x3 : Vec Ideal S1x64 .f32)
    (p : Fin 5000) (q : Fin 64) (r : Fin 100000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k8_pay1 x2 x0 x1 x3 (ix2 p q) = Cert.Gnn.convOut hc hb s h d b (ix2 r q) := by
  rw [convBand_apply, convOut_ix2, h0, h1, h2, h3]

/-- A band's second result at (p, q) is the whole-array mixture at (r, q), under the same reading of the operands. -/
theorem mixBand_eq (hc : S100000x1.BroadcastsInDim S100000x64 (![0, 1] : Fin 2 → Fin 2))
    (hb : S1x64.BroadcastsInDim S100000x64 (![0, 1] : Fin 2 → Fin 2))
    (hs : S_.BroadcastsInDim S100000x64 (![] : Fin 0 → Fin 2)) (h11 : S1x1.ShapeCasts S_)
    (s h : FVec Ideal S100000x64 .f32) (d : FVec Ideal S100000x1 .f32) (b : FVec Ideal S1x64 .f32)
    (f : FVec Ideal S1x1 .f32) (acc : FVec Ideal S100000x64 .f32)
    (x0 x1 : Vec Ideal S5000x64 .f32) (x2 : Vec Ideal S5000x1 .f32) (x3 : Vec Ideal S1x64 .f32)
    (x4 : Vec Ideal S1x1 .f32) (x5 : Vec Ideal S5000x64 .f32)
    (p : Fin 5000) (q : Fin 64) (r : Fin 100000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q))
    (h4 : x4 (ix2 (0 : Fin 1) (0 : Fin 1)) = f (ix2 (0 : Fin 1) (0 : Fin 1))) (h5 : x5 (ix2 p q) = acc (ix2 r q)) :
    k8_pay2 x2 x0 x1 x3 x5 x4 (ix2 p q)
      = Cert.Gnn.mix hs acc (Cert.Gnn.convOut hc hb s h d b) (shapeCast S_ f h11) (ix2 r q) := by
  rw [mixBand_apply, mix_ix2, shapeCast_unit_scalar_apply, convBand_eq hc hb s h d b x0 x1 x2 x3 p q r h0 h1 h2 h3, h4, h5]

/-! ## Where band t sits in each array -/

theorem zeroOffsets : (![0, 0] : Fin 2 → Nat) = fun _ => 0 := funext fun a => by fin_cases a <;> rfl

/-- The windows' index maps over the 20 bands: every row-shaped window is at row block t, column block 0; the bias row
    and the coefficient stay at block (0, 0). -/
theorem bandIndex : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0
    ∧ win8_7.index t (0 : Fin 2) = t.val ∧ win8_7.index t (1 : Fin 2) = 0 :=
  (by decide +kernel : ∀ t : Fin grid8.N, _)

theorem band_lt (t : Fin cfg8.N) : t.val < 20 := lt_of_lt_of_eq t.isLt N_8

/-- Row p of band t is row 5000 t + p of the array. -/
abbrev row (t : Fin cfg8.N) (p : Fin 5000) : Fin 100000 := ⟨t.val * 5000 + p.val, by have := band_lt t; have := p.isLt; omega⟩

theorem emb_s (t : Fin cfg8.N) (p : Fin 5000) (q : Fin 64) :
    ((cfg8.win 0).blk t).view.emb (ix2 p q) = ix2 (row t p) q := by
  obtain ⟨e0, e1, -⟩ := bandIndex t
  funext a; apply Fin.ext
  match a with
  | ⟨0, _⟩ => show win8_0.index t (0 : Fin 2) * 5000 + 1 * p.val = t.val * 5000 + p.val; omega
  | ⟨1, _⟩ => show win8_0.index t (1 : Fin 2) * 64 + 1 * q.val = q.val; omega

theorem emb_h (t : Fin cfg8.N) (p : Fin 5000) (q : Fin 64) :
    ((cfg8.win 1).blk t).view.emb (ix2 p q) = ix2 (row t p) q := by
  obtain ⟨-, -, e0, e1, -⟩ := bandIndex t
  funext a; apply Fin.ext
  match a with
  | ⟨0, _⟩ => show win8_1.index t (0 : Fin 2) * 5000 + 1 * p.val = t.val * 5000 + p.val; omega
  | ⟨1, _⟩ => show win8_1.index t (1 : Fin 2) * 64 + 1 * q.val = q.val; omega

theorem emb_d (t : Fin cfg8.N) (p : Fin 5000) :
    ((cfg8.win 2).blk t).view.emb (ix2 p (0 : Fin 1)) = ix2 (row t p) (0 : Fin 1) := by
  obtain ⟨-, -, -, -, e0, e1, -⟩ := bandIndex t
  funext a; apply Fin.ext
  match a with
  | ⟨0, _⟩ => show win8_2.index t (0 : Fin 2) * 5000 + 1 * p.val = t.val * 5000 + p.val; omega
  | ⟨1, _⟩ => show win8_2.index t (1 : Fin 2) * 1 + 1 * 0 = 0; omega

theorem emb_b (t : Fin cfg8.N) (q : Fin 64) :
    ((cfg8.win 3).blk t).view.emb (ix2 (0 : Fin 1) q) = ix2 (0 : Fin 1) q := by
  obtain ⟨-, -, -, -, -, -, e0, e1, -⟩ := bandIndex t
  funext a; apply Fin.ext
  match a with
  | ⟨0, _⟩ => show win8_3.index t (0 : Fin 2) * 1 + 1 * 0 = 0; omega
  | ⟨1, _⟩ => show win8_3.index t (1 : Fin 2) * 64 + 1 * q.val = q.val; omega

theorem emb_f (t : Fin cfg8.N) :
    ((cfg8.win 4).blk t).view.emb (ix2 (0 : Fin 1) (0 : Fin 1)) = ix2 (0 : Fin 1) (0 : Fin 1) := by
  obtain ⟨-, -, -, -, -, -, -, -, e0, e1, -⟩ := bandIndex t
  funext a; apply Fin.ext
  match a with
  | ⟨0, _⟩ => show win8_4.index t (0 : Fin 2) * 1 + 1 * 0 = 0; omega
  | ⟨1, _⟩ => show win8_4.index t (1 : Fin 2) * 1 + 1 * 0 = 0; omega

theorem emb_acc (t : Fin cfg8.N) (p : Fin 5000) (q : Fin 64) :
    ((cfg8.win 5).blk t).view.emb (ix2 p q) = ix2 (row t p) q := by
  obtain ⟨-, -, -, -, -, -, -, -, -, -, e0, e1, -⟩ := bandIndex t
  funext a; apply Fin.ext
  match a with
  | ⟨0, _⟩ => show win8_5.index t (0 : Fin 2) * 5000 + 1 * p.val = t.val * 5000 + p.val; omega
  | ⟨1, _⟩ => show win8_5.index t (1 : Fin 2) * 64 + 1 * q.val = q.val; omega

theorem emb_u (t : Fin cfg8.N) (p : Fin 5000) (q : Fin 64) :
    ((cfg8.win 6).blk t).view.emb (ix2 p q) = ix2 (row t p) q := by
  obtain ⟨-, -, -, -, -, -, -, -, -, -, -, -, e0, e1, -⟩ := bandIndex t
  funext a; apply Fin.ext
  match a with
  | ⟨0, _⟩ => show win8_6.index t (0 : Fin 2) * 5000 + 1 * p.val = t.val * 5000 + p.val; omega
  | ⟨1, _⟩ => show win8_6.index t (1 : Fin 2) * 64 + 1 * q.val = q.val; omega

theorem emb_acc' (t : Fin cfg8.N) (p : Fin 5000) (q : Fin 64) :
    ((cfg8.win 7).blk t).view.emb (ix2 p q) = ix2 (row t p) q := by
  obtain ⟨-, -, -, -, -, -, -, -, -, -, -, -, -, -, e0, e1⟩ := bandIndex t
  funext a; apply Fin.ext
  match a with
  | ⟨0, _⟩ => show win8_7.index t (0 : Fin 2) * 5000 + 1 * p.val = t.val * 5000 + p.val; omega
  | ⟨1, _⟩ => show win8_7.index t (1 : Fin 2) * 64 + 1 * q.val = q.val; omega

/-! ## What band t writes back is band t of the whole-array expressions -/

theorem flushed_u (c : Dev nD) (t : Fin cfg8.N)
    (hc : S100000x1.BroadcastsInDim S100000x64 (![0, 1] : Fin 2 → Fin 2))
    (hb : S1x64.BroadcastsInDim S100000x64 (![0, 1] : Fin 2 → Fin 2)) :
    (dat8 V c).flushed 6 t = ((cfg8.win 6).blk t).view.read (Elt Ideal)
      (Cert.Gnn.convOut hc hb (V c main_v230) (V c main_v185) (V c main_v234) (V c main_v184)) := by
  show (cfg8.win 6).cut (grid8.coords t) ((dat8 V c).after 6 t) = _
  rw [after8_6]
  unfold out8_6
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k8_pay1 (iblk8 V c 2 t) (iblk8 V c 0 t) (iblk8 V c 1 t) (iblk8 V c 3 t) (ix2 p q)
    = Cert.Gnn.convOut hc hb (V c main_v230) (V c main_v185) (V c main_v234) (V c main_v184) (((cfg8.win 6).blk t).view.emb (ix2 p q))
  rw [emb_u t p q]
  exact convBand_eq hc hb (V c main_v230) (V c main_v185) (V c main_v234) (V c main_v184)
    (iblk8 V c 0 t) (iblk8 V c 1 t) (iblk8 V c 2 t) (iblk8 V c 3 t) p q (row t p)
    (congrArg (V c main_v230) (emb_s t p q)) (congrArg (V c main_v185) (emb_h t p q))
    (congrArg (V c main_v234) (emb_d t p)) (congrArg (V c main_v184) (emb_b t q))

theorem flushed_acc (c : Dev nD) (t : Fin cfg8.N)
    (hc : S100000x1.BroadcastsInDim S100000x64 (![0, 1] : Fin 2 → Fin 2))
    (hb : S1x64.BroadcastsInDim S100000x64 (![0, 1] : Fin 2 → Fin 2))
    (hs : S_.BroadcastsInDim S100000x64 (![] : Fin 0 → Fin 2)) (h11 : S1x1.ShapeCasts S_) :
    (dat8 V c).flushed 7 t = ((cfg8.win 7).blk t).view.read (Elt Ideal)
      (Cert.Gnn.mix hs (V c main_v183)
        (Cert.Gnn.convOut hc hb (V c main_v230) (V c main_v185) (V c main_v234) (V c main_v184))
        (shapeCast S_ (V c main_v233) h11)) := by
  show (cfg8.win 7).cut (grid8.coords t) ((dat8 V c).after 7 t) = _
  rw [after8_7]
  unfold out8_7
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S1x1) zeroOffsets]
  funext j
  obtain ⟨p, q, rfl⟩ : ∃ (p : Fin 5000) (q : Fin 64), j = ix2 p q := ⟨j 0, j 1, eq_ix2 j⟩
  show k8_pay2 (iblk8 V c 2 t) (iblk8 V c 0 t) (iblk8 V c 1 t) (iblk8 V c 3 t) (iblk8 V c 5 t) (iblk8 V c 4 t) (ix2 p q)
    = Cert.Gnn.mix hs (V c main_v183)
        (Cert.Gnn.convOut hc hb (V c main_v230) (V c main_v185) (V c main_v234) (V c main_v184))
        (shapeCast S_ (V c main_v233) h11) (((cfg8.win 7).blk t).view.emb (ix2 p q))
  rw [emb_acc' t p q]
  exact mixBand_eq hc hb hs h11 (V c main_v230) (V c main_v185) (V c main_v234) (V c main_v184) (V c main_v233) (V c main_v183)
    (iblk8 V c 0 t) (iblk8 V c 1 t) (iblk8 V c 2 t) (iblk8 V c 3 t) (iblk8 V c 4 t) (iblk8 V c 5 t) p q (row t p)
    (congrArg (V c main_v230) (emb_s t p q)) (congrArg (V c main_v185) (emb_h t p q))
    (congrArg (V c main_v234) (emb_d t p)) (congrArg (V c main_v184) (emb_b t q))
    (congrArg (V c main_v233) (emb_f t)) (congrArg (V c main_v183) (emb_acc t p q))

/-! ## The 20 bands tile the rows -/

/-- The band of a row: r / 5000. -/
abbrev bandOf (i : S100000x64.Idx) : Fin cfg8.N :=
  ⟨(i 0).val / 5000, by rw [show cfg8.N = 20 from N_8]; have : (i 0).val < 100000 := (i 0).isLt; omega⟩

/-- An index of the first result's array is in band t's block iff each coordinate is in the block's range. -/
theorem mem_band_u (t : Fin cfg8.N) (i : S100000x64.Idx) :
    i ∈ ((cfg8.win 6).blk t).view.set ↔ ∀ a : Fin 2, win8_6.index t a * S5000x64.size a ≤ (i a).val ∧ (i a).val < win8_6.index t a * S5000x64.size a + S5000x64.size a := by
  show i ∈ ((View.whole main_v235_0).slice (win8_6.rect t)).set ↔ _
  rw [View.set_slice_whole, Rect.mem_set_unit]
  exact Iff.rfl

theorem mem_band_acc (t : Fin cfg8.N) (i : S100000x64.Idx) :
    i ∈ ((cfg8.win 7).blk t).view.set ↔ ∀ a : Fin 2, win8_7.index t a * S5000x64.size a ≤ (i a).val ∧ (i a).val < win8_7.index t a * S5000x64.size a + S5000x64.size a := by
  show i ∈ ((View.whole main_v235_1).slice (win8_7.rect t)).set ↔ _
  rw [View.set_slice_whole, Rect.mem_set_unit]
  exact Iff.rfl

/-- Every entry of the first result's array lies in the block of its row's band. -/
theorem cover_u (i : S100000x64.Idx) :
    ∃ t : Fin cfg8.N, (cfg8.win 6).flush t = true ∧ i ∈ ((cfg8.win 6).blk t).view.set := by
  have hi0 : (i 0).val < 100000 := (i 0).isLt
  have hi1 : (i 1).val < 64 := (i 1).isLt
  obtain ⟨-, -, -, -, -, -, -, -, -, -, -, -, e0, e1, -⟩ := bandIndex (bandOf i)
  have hv : (bandOf i).val = (i 0).val / 5000 := rfl
  refine ⟨bandOf i, flush8_6 _, ?_⟩
  rw [mem_band_u]
  intro a
  match a with
  | ⟨0, _⟩ => show win8_6.index (bandOf i) (0 : Fin 2) * 5000 ≤ (i 0).val ∧ (i 0).val < win8_6.index (bandOf i) (0 : Fin 2) * 5000 + 5000; omega
  | ⟨1, _⟩ => show win8_6.index (bandOf i) (1 : Fin 2) * 64 ≤ (i 1).val ∧ (i 1).val < win8_6.index (bandOf i) (1 : Fin 2) * 64 + 64; omega

/-- Every entry of the second result's array lies in the block of its row's band. -/
theorem cover_acc (i : S100000x64.Idx) :
    ∃ t : Fin cfg8.N, (cfg8.win 7).flush t = true ∧ i ∈ ((cfg8.win 7).blk t).view.set := by
  have hi0 : (i 0).val < 100000 := (i 0).isLt
  have hi1 : (i 1).val < 64 := (i 1).isLt
  obtain ⟨-, -, -, -, -, -, -, -, -, -, -, -, -, -, e0, e1⟩ := bandIndex (bandOf i)
  have hv : (bandOf i).val = (i 0).val / 5000 := rfl
  refine ⟨bandOf i, flush8_7 _, ?_⟩
  rw [mem_band_acc]
  intro a
  match a with
  | ⟨0, _⟩ => show win8_7.index (bandOf i) (0 : Fin 2) * 5000 ≤ (i 0).val ∧ (i 0).val < win8_7.index (bandOf i) (0 : Fin 2) * 5000 + 5000; omega
  | ⟨1, _⟩ => show win8_7.index (bandOf i) (1 : Fin 2) * 64 ≤ (i 1).val ∧ (i 1).val < win8_7.index (bandOf i) (1 : Fin 2) * 64 + 64; omega

end Finalize8

/-! ## The two result arrays after the region -/

/-- After the region the first result's array is tanh (s + h (d d) + b) of the whole arrays. -/
theorem finalize8_h (c : Dev nD)
    (hc : S100000x1.BroadcastsInDim S100000x64 (![0, 1] : Fin 2 → Fin 2)) (hb : S1x64.BroadcastsInDim S100000x64 (![0, 1] : Fin 2 → Fin 2)) :
    (dat8 V c).arrAt 6 cfg8.N = Cert.Gnn.convOut hc hb (V c main_v230) (V c main_v185) (V c main_v234) (V c main_v184) :=
  (dat8 V c).arrAt_eq_of_cover 6 _ (fun t _ => Finalize8.flushed_u V c t hc hb) Finalize8.cover_u

/-- After the region the second result's array is acc + f u of the whole arrays, u the first result. -/
theorem finalize8_acc (c : Dev nD)
    (hc : S100000x1.BroadcastsInDim S100000x64 (![0, 1] : Fin 2 → Fin 2)) (hb : S1x64.BroadcastsInDim S100000x64 (![0, 1] : Fin 2 → Fin 2))
    (hs : S_.BroadcastsInDim S100000x64 (![] : Fin 0 → Fin 2)) (h11 : S1x1.ShapeCasts S_) :
    (dat8 V c).arrAt 7 cfg8.N = Cert.Gnn.mix hs (V c main_v183) (Cert.Gnn.convOut hc hb (V c main_v230) (V c main_v185) (V c main_v234) (V c main_v184)) (shapeCast S_ (V c main_v233) h11) :=
  (dat8 V c).arrAt_eq_of_cover 7 _ (fun t _ => Finalize8.flushed_acc V c t hc hb hs h11) Finalize8.cover_acc

end Cert.KernelIdeal.RegionValue

end
-- ==== Proof.LinearRegion9.lean ====
/-
  A linear layer without bias over 100000 rows: y = x w, with x of 100000 rows by 64 features and w a 64 by 64 weight.

  The region walks the rows in 20 bands of 5000. At band t it reads rows 5000 t to 5000 t + 4999 of x and the whole of w,
  multiplies the band by w, and writes the 5000 by 64 result to the same rows of y. Entry (r, q) of a product is the sum
  over k of x[r, k] w[k, q]: it reads row r of the left factor only, so the product of a band of rows with w is that same
  band of rows of x w. The 20 bands hold every row between them, so once the region is through, y is x w.
-/
import proofs.«418542_j22608707846200_1_alg».proof.Proof.KernelIdealFrameRegions1
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

/-- The body reads and writes each of its blocks whole: from offset 0 on both axes. -/
theorem linear9_zero_offsets : (![0, 0] : Fin 2 → Nat) = fun _ => 0 := funext fun a => by fin_cases a <;> rfl

/-- What the body computes from a band x0 of 5000 rows and the weight x1: the product x0 x1. Its two reshapes are to the
    shape their operand already has, and the accumulator the product is added to is zero everywhere. -/
theorem linear9_band_product (x0 : Vec Ideal S5000x64 .f32) (x1 : Vec Ideal S64x64 .f32) :
    k9_pay1 x0 x1 = matProd (M := 5000) (K := 64) (N := 64) x0 x1 := by
  unfold k9_pay1
  simp only [shapeCast_self]
  exact matmul_plain_zero_eq (M := 5000) (K := 64) (N := 64) (φ₁ := .f32) (φ₂ := .f32) none x0 x1

/-- Where the blocks sit, band by band (decided over the 20 bands): at band t the blocks of x and of y are block t down
    the rows and block 0 across the columns, and the block of w is block (0, 0), the whole of w. -/
theorem linear9_index_maps : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- What band t writes back is band t of x w: row p of the band of x is row 5000 t + p of x, the block of w is w, and a
    row of a product reads that row of the left factor only. -/
theorem linear9_band_written (c : Dev nD) (t : Fin cfg9.N) :
    (dat9 V c).flushed 2 t = ((cfg9.win 2).blk t).view.read (Elt Ideal)
      (matProd (M := 100000) (K := 64) (N := 64) (V c main_v235_0) (V c main_v178)) := by
  show (cfg9.win 2).cut (grid9.coords t) ((dat9 V c).after 2 t) = _
  rw [after9_2]
  unfold out9_2
  rw [View.canon_unit_zero linear9_zero_offsets]
  simp only [View.ld_unit_zero (S := S5000x64) linear9_zero_offsets, View.ld_unit_zero (S := S64x64) linear9_zero_offsets]
  rw [linear9_band_product]
  obtain ⟨e0, e1, e2, e3, e4, e5⟩ := linear9_index_maps t
  funext y
  have hy0 : (y 0).val < 5000 := (y 0).isLt
  have hy1 : (y 1).val < 64 := (y 1).isLt
  show matProd (M := 5000) (K := 64) (N := 64) (iblk9 V c 0 t) (iblk9 V c 1 t) ((cfg9.win 2).xinj (grid9.coords t) y)
    = matProd (M := 100000) (K := 64) (N := 64) (V c main_v235_0) (V c main_v178) (((cfg9.win 2).blk t).view.emb y)
  refine matProd_block_idx _ _ _ _ _ _ (fun k => ?_) (fun k => ?_)
  · -- row (y 0) of the band of x, at column k, is row 5000 t + (y 0) of x at column k
    show V c main_v235_0 (((cfg9.win 0).blk t).view.emb (ix2 ⟨(y 0).val, hy0⟩ k)) = V c main_v235_0 _
    refine congrArg (V c main_v235_0) (funext fun a => Fin.ext ?_)
    match a with
    | ⟨0, _⟩ =>
      show win9_0.index t (0 : Fin 2) * 5000 + 1 * (y 0).val = win9_2.index t (0 : Fin 2) * 5000 + 1 * (y 0).val
      omega
    | ⟨1, _⟩ =>
      show win9_0.index t (1 : Fin 2) * 64 + 1 * k.val = k.val
      omega
  · -- row k of the block of w, at column (y 1), is row k of w at column (y 1)
    show V c main_v178 (((cfg9.win 1).blk t).view.emb (ix2 k ⟨(y 1).val, hy1⟩)) = V c main_v178 _
    refine congrArg (V c main_v178) (funext fun a => Fin.ext ?_)
    match a with
    | ⟨0, _⟩ =>
      show win9_1.index t (0 : Fin 2) * 64 + 1 * k.val = k.val
      omega
    | ⟨1, _⟩ =>
      show win9_1.index t (1 : Fin 2) * 64 + 1 * (y 1).val = win9_2.index t (1 : Fin 2) * 64 + 1 * (y 1).val
      omega

/-- An index of y is in band t's block exactly when each of its coordinates is in the block's range on that axis. -/
theorem linear9_mem_band (t : Fin cfg9.N) (i : S100000x64.Idx) :
    i ∈ ((cfg9.win 2).blk t).view.set ↔ ∀ a : Fin 2, win9_2.index t a * S5000x64.size a ≤ (i a).val
      ∧ (i a).val < win9_2.index t a * S5000x64.size a + S5000x64.size a := by
  show i ∈ ((View.whole main_v236).slice (win9_2.rect t)).set ↔ _
  rw [View.set_slice_whole, Rect.mem_set_unit]
  exact Iff.rfl

/-- Every index of y is in some band's block: row r is in band r / 5000, and every band spans all 64 columns. -/
theorem linear9_rows_covered (i : S100000x64.Idx) :
    ∃ t : Fin cfg9.N, (cfg9.win 2).flush t = true ∧ i ∈ ((cfg9.win 2).blk t).view.set := by
  have hi0 : (i 0).val < 100000 := (i 0).isLt
  have hi1 : (i 1).val < 64 := (i 1).isLt
  have hlt : (i 0).val / 5000 < grid9.N := by rw [N_9]; omega
  obtain ⟨t, ht⟩ : ∃ t : Fin cfg9.N, t.val = (i 0).val / 5000 := ⟨⟨(i 0).val / 5000, hlt⟩, rfl⟩
  obtain ⟨e0, e1, e2, e3, e4, e5⟩ := linear9_index_maps t
  refine ⟨t, flush9_2 t, ?_⟩
  rw [linear9_mem_band]
  intro a
  match a with
  | ⟨0, _⟩ =>
    show win9_2.index t (0 : Fin 2) * 5000 ≤ (i 0).val ∧ (i 0).val < win9_2.index t (0 : Fin 2) * 5000 + 5000
    omega
  | ⟨1, _⟩ =>
    show win9_2.index t (1 : Fin 2) * 64 ≤ (i 1).val ∧ (i 1).val < win9_2.index t (1 : Fin 2) * 64 + 64
    omega

/-- After the region, y is x w: each band writes its band of x w, and the bands hold every index of y. -/
theorem linear9 (c : Dev nD) :
    (dat9 V c).arrAt 2 cfg9.N
      = Host.dotGeneral (F := Ideal) (φ₁ := .f32) (φ₂ := .f32) (DotDims.plain 100000 64 64) none (V c main_v235_0) (V c main_v178) := by
  refine ((dat9 V c).arrAt_eq_of_cover 2 (matProd (M := 100000) (K := 64) (N := 64) (V c main_v235_0) (V c main_v178))
    (fun t _ => linear9_band_written V c t) linear9_rows_covered).trans ?_
  exact (dotGeneral_plain_eq (M := 100000) (K := 64) (N := 64) (φ₁ := .f32) (φ₂ := .f32) none (V c main_v235_0) (V c main_v178)).symm

end Cert.KernelIdeal.RegionValue

end
-- ==== Proof.FinalizeRegion10.lean ====
/-
  The finalize region of the graph network on 100000 rows, launch 10, as one function of the arrays it reads.

  The region walks the rows in 20 bands of 5000. At band t it reads rows [5000 t, 5000 t + 5000) of the scattered
  neighbour sums s, of the projected features h, of the degree column d and of the running mixture acc, and the whole
  bias row b and the one coefficient f; it writes the same rows of two results,
      u   = tanh (s + h (d d) + b)          (entry (r, q) reads d in row r and b in column q)
      acc' = acc + f u.
  Every entry of a result depends on its own row only, so band t of either result is band t of the same expression
  taken over the whole arrays; the 20 bands tile the 100000 rows (row r lies in band r / 5000), hence after the region
  the two result arrays are the whole-array expressions Cert.Gnn.convOut and Cert.Gnn.mix.
-/
import proofs.«418542_j22608707846200_1_alg».proof.Proof.KernelIdealFrameRegions1
import proofs.«418542_j22608707846200_1_alg».proof.Proof.GnnOps
import proofs.«418542_j22608707846200_1_alg».proof.Proof.FinalizeOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.KernelIdeal.FinalizeOps

variable (V : (c : Dev nD) → (b : Ref sig .tc) → Buf (Elt Ideal) ((c : Thread nD τ).loc b))

namespace Finalize10

/-! ## One band: the body's two results entry by entry -/

/-- The first result of a band at (p, q): tanh (s + h (d d) + b), d read in the band's row p, b in column q. -/
theorem convBand_apply (x0 x1 : Vec Ideal S5000x64 .f32) (x2 : Vec Ideal S5000x1 .f32) (x3 : Vec Ideal S1x64 .f32)
    (p : Fin 5000) (q : Fin 64) :
    k10_pay1 x2 x0 x1 x3 (ix2 p q)
      = Ideal.tanh (x0 (ix2 p q) + x1 (ix2 p q) * (x2 (ix2 p (0 : Fin 1)) * x2 (ix2 p (0 : Fin 1))) + x3 (ix2 (0 : Fin 1) q)) := by
  unfold k10_pay1 Idealize.ShloMosaic.tanh
  simp only [shapeCast_self, addf_apply, mulf_apply, Ideal.tanh_def]
  rw [broadcastTo_col_apply _ _ p q, broadcastTo_1b_ab_apply _ _ p q, mulf_apply]

/-- The second result of a band at (p, q): acc + f u, f the one entry of the 1 x 1 coefficient, u the first result. -/
theorem mixBand_apply (x0 x1 : Vec Ideal S5000x64 .f32) (x2 : Vec Ideal S5000x1 .f32) (x3 : Vec Ideal S1x64 .f32)
    (x5 : Vec Ideal S5000x64 .f32) (x4 : Vec Ideal S1x1 .f32) (p : Fin 5000) (q : Fin 64) :
    k10_pay2 x2 x0 x1 x3 x5 x4 (ix2 p q)
      = x5 (ix2 p q) + x4 (ix2 (0 : Fin 1) (0 : Fin 1)) * k10_pay1 x2 x0 x1 x3 (ix2 p q) := by
  unfold k10_pay2
  simp only [shapeCast_self, addf_apply, mulf_apply, broadcast_apply]
  rw [extractAt_origin]

/-- A band's first result at (p, q) is the whole-array expression at (r, q), once the band's operands are the
    whole arrays' entries of row r (the bias row read whole). -/
theorem convBand_eq (hc : S100000x1.BroadcastsInDim S100000x64 (![0, 1] : Fin 2 → Fin 2))
    (hb : S1x64.BroadcastsInDim S100000x64 (![0, 1] : Fin 2 → Fin 2))
    (s h : FVec Ideal S100000x64 .f32) (d : FVec Ideal S100000x1 .f32) (b : FVec Ideal S1x64 .f32)
    (x0 x1 : Vec Ideal S5000x64 .f32) (x2 : Vec Ideal S5000x1 .f32) (x3 : Vec Ideal S1x64 .f32)
    (p : Fin 5000) (q : Fin 64) (r : Fin 100000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k10_pay1 x2 x0 x1 x3 (ix2 p q) = Cert.Gnn.convOut hc hb s h d b (ix2 r q) := by
  rw [convBand_apply, convOut_ix2, h0, h1, h2, h3]

/-- A band's second result at (p, q) is the whole-array mixture at (r, q), under the same reading of the operands. -/
theorem mixBand_eq (hc : S100000x1.BroadcastsInDim S100000x64 (![0, 1] : Fin 2 → Fin 2))
    (hb : S1x64.BroadcastsInDim S100000x64 (![0, 1] : Fin 2 → Fin 2))
    (hs : S_.BroadcastsInDim S100000x64 (![] : Fin 0 → Fin 2)) (h11 : S1x1.ShapeCasts S_)
    (s h : FVec Ideal S100000x64 .f32) (d : FVec Ideal S100000x1 .f32) (b : FVec Ideal S1x64 .f32)
    (f : FVec Ideal S1x1 .f32) (acc : FVec Ideal S100000x64 .f32)
    (x0 x1 : Vec Ideal S5000x64 .f32) (x2 : Vec Ideal S5000x1 .f32) (x3 : Vec Ideal S1x64 .f32)
    (x4 : Vec Ideal S1x1 .f32) (x5 : Vec Ideal S5000x64 .f32)
    (p : Fin 5000) (q : Fin 64) (r : Fin 100000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q))
    (h4 : x4 (ix2 (0 : Fin 1) (0 : Fin 1)) = f (ix2 (0 : Fin 1) (0 : Fin 1))) (h5 : x5 (ix2 p q) = acc (ix2 r q)) :
    k10_pay2 x2 x0 x1 x3 x5 x4 (ix2 p q)
      = Cert.Gnn.mix hs acc (Cert.Gnn.convOut hc hb s h d b) (shapeCast S_ f h11) (ix2 r q) := by
  rw [mixBand_apply, mix_ix2, shapeCast_unit_scalar_apply, convBand_eq hc hb s h d b x0 x1 x2 x3 p q r h0 h1 h2 h3, h4, h5]

/-! ## Where band t sits in each array -/

theorem zeroOffsets : (![0, 0] : Fin 2 → Nat) = fun _ => 0 := funext fun a => by fin_cases a <;> rfl

/-- The windows' index maps over the 20 bands: every row-shaped window is at row block t, column block 0; the bias row
    and the coefficient stay at block (0, 0). -/
theorem bandIndex : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0
    ∧ win10_6.index t (0 : Fin 2) = t.val ∧ win10_6.index t (1 : Fin 2) = 0
    ∧ win10_7.index t (0 : Fin 2) = t.val ∧ win10_7.index t (1 : Fin 2) = 0 :=
  (by decide +kernel : ∀ t : Fin grid10.N, _)

theorem band_lt (t : Fin cfg10.N) : t.val < 20 := lt_of_lt_of_eq t.isLt N_10

/-- Row p of band t is row 5000 t + p of the array. -/
abbrev row (t : Fin cfg10.N) (p : Fin 5000) : Fin 100000 := ⟨t.val * 5000 + p.val, by have := band_lt t; have := p.isLt; omega⟩

theorem emb_s (t : Fin cfg10.N) (p : Fin 5000) (q : Fin 64) :
    ((cfg10.win 0).blk t).view.emb (ix2 p q) = ix2 (row t p) q := by
  obtain ⟨e0, e1, -⟩ := bandIndex t
  funext a; apply Fin.ext
  match a with
  | ⟨0, _⟩ => show win10_0.index t (0 : Fin 2) * 5000 + 1 * p.val = t.val * 5000 + p.val; omega
  | ⟨1, _⟩ => show win10_0.index t (1 : Fin 2) * 64 + 1 * q.val = q.val; omega

theorem emb_h (t : Fin cfg10.N) (p : Fin 5000) (q : Fin 64) :
    ((cfg10.win 1).blk t).view.emb (ix2 p q) = ix2 (row t p) q := by
  obtain ⟨-, -, e0, e1, -⟩ := bandIndex t
  funext a; apply Fin.ext
  match a with
  | ⟨0, _⟩ => show win10_1.index t (0 : Fin 2) * 5000 + 1 * p.val = t.val * 5000 + p.val; omega
  | ⟨1, _⟩ => show win10_1.index t (1 : Fin 2) * 64 + 1 * q.val = q.val; omega

theorem emb_d (t : Fin cfg10.N) (p : Fin 5000) :
    ((cfg10.win 2).blk t).view.emb (ix2 p (0 : Fin 1)) = ix2 (row t p) (0 : Fin 1) := by
  obtain ⟨-, -, -, -, e0, e1, -⟩ := bandIndex t
  funext a; apply Fin.ext
  match a with
  | ⟨0, _⟩ => show win10_2.index t (0 : Fin 2) * 5000 + 1 * p.val = t.val * 5000 + p.val; omega
  | ⟨1, _⟩ => show win10_2.index t (1 : Fin 2) * 1 + 1 * 0 = 0; omega

theorem emb_b (t : Fin cfg10.N) (q : Fin 64) :
    ((cfg10.win 3).blk t).view.emb (ix2 (0 : Fin 1) q) = ix2 (0 : Fin 1) q := by
  obtain ⟨-, -, -, -, -, -, e0, e1, -⟩ := bandIndex t
  funext a; apply Fin.ext
  match a with
  | ⟨0, _⟩ => show win10_3.index t (0 : Fin 2) * 1 + 1 * 0 = 0; omega
  | ⟨1, _⟩ => show win10_3.index t (1 : Fin 2) * 64 + 1 * q.val = q.val; omega

theorem emb_f (t : Fin cfg10.N) :
    ((cfg10.win 4).blk t).view.emb (ix2 (0 : Fin 1) (0 : Fin 1)) = ix2 (0 : Fin 1) (0 : Fin 1) := by
  obtain ⟨-, -, -, -, -, -, -, -, e0, e1, -⟩ := bandIndex t
  funext a; apply Fin.ext
  match a with
  | ⟨0, _⟩ => show win10_4.index t (0 : Fin 2) * 1 + 1 * 0 = 0; omega
  | ⟨1, _⟩ => show win10_4.index t (1 : Fin 2) * 1 + 1 * 0 = 0; omega

theorem emb_acc (t : Fin cfg10.N) (p : Fin 5000) (q : Fin 64) :
    ((cfg10.win 5).blk t).view.emb (ix2 p q) = ix2 (row t p) q := by
  obtain ⟨-, -, -, -, -, -, -, -, -, -, e0, e1, -⟩ := bandIndex t
  funext a; apply Fin.ext
  match a with
  | ⟨0, _⟩ => show win10_5.index t (0 : Fin 2) * 5000 + 1 * p.val = t.val * 5000 + p.val; omega
  | ⟨1, _⟩ => show win10_5.index t (1 : Fin 2) * 64 + 1 * q.val = q.val; omega

theorem emb_u (t : Fin cfg10.N) (p : Fin 5000) (q : Fin 64) :
    ((cfg10.win 6).blk t).view.emb (ix2 p q) = ix2 (row t p) q := by
  obtain ⟨-, -, -, -, -, -, -, -, -, -, -, -, e0, e1, -⟩ := bandIndex t
  funext a; apply Fin.ext
  match a with
  | ⟨0, _⟩ => show win10_6.index t (0 : Fin 2) * 5000 + 1 * p.val = t.val * 5000 + p.val; omega
  | ⟨1, _⟩ => show win10_6.index t (1 : Fin 2) * 64 + 1 * q.val = q.val; omega

theorem emb_acc' (t : Fin cfg10.N) (p : Fin 5000) (q : Fin 64) :
    ((cfg10.win 7).blk t).view.emb (ix2 p q) = ix2 (row t p) q := by
  obtain ⟨-, -, -, -, -, -, -, -, -, -, -, -, -, -, e0, e1⟩ := bandIndex t
  funext a; apply Fin.ext
  match a with
  | ⟨0, _⟩ => show win10_7.index t (0 : Fin 2) * 5000 + 1 * p.val = t.val * 5000 + p.val; omega
  | ⟨1, _⟩ => show win10_7.index t (1 : Fin 2) * 64 + 1 * q.val = q.val; omega

/-! ## What band t writes back is band t of the whole-array expressions -/

theorem flushed_u (c : Dev nD) (t : Fin cfg10.N)
    (hc : S100000x1.BroadcastsInDim S100000x64 (![0, 1] : Fin 2 → Fin 2))
    (hb : S1x64.BroadcastsInDim S100000x64 (![0, 1] : Fin 2 → Fin 2)) :
    (dat10 V c).flushed 6 t = ((cfg10.win 6).blk t).view.read (Elt Ideal)
      (Cert.Gnn.convOut hc hb (V c main_v281) (V c main_v236) (V c main_v285) (V c main_v184)) := by
  show (cfg10.win 6).cut (grid10.coords t) ((dat10 V c).after 6 t) = _
  rw [after10_6]
  unfold out10_6
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k10_pay1 (iblk10 V c 2 t) (iblk10 V c 0 t) (iblk10 V c 1 t) (iblk10 V c 3 t) (ix2 p q)
    = Cert.Gnn.convOut hc hb (V c main_v281) (V c main_v236) (V c main_v285) (V c main_v184) (((cfg10.win 6).blk t).view.emb (ix2 p q))
  rw [emb_u t p q]
  exact convBand_eq hc hb (V c main_v281) (V c main_v236) (V c main_v285) (V c main_v184)
    (iblk10 V c 0 t) (iblk10 V c 1 t) (iblk10 V c 2 t) (iblk10 V c 3 t) p q (row t p)
    (congrArg (V c main_v281) (emb_s t p q)) (congrArg (V c main_v236) (emb_h t p q))
    (congrArg (V c main_v285) (emb_d t p)) (congrArg (V c main_v184) (emb_b t q))

theorem flushed_acc (c : Dev nD) (t : Fin cfg10.N)
    (hc : S100000x1.BroadcastsInDim S100000x64 (![0, 1] : Fin 2 → Fin 2))
    (hb : S1x64.BroadcastsInDim S100000x64 (![0, 1] : Fin 2 → Fin 2))
    (hs : S_.BroadcastsInDim S100000x64 (![] : Fin 0 → Fin 2)) (h11 : S1x1.ShapeCasts S_) :
    (dat10 V c).flushed 7 t = ((cfg10.win 7).blk t).view.read (Elt Ideal)
      (Cert.Gnn.mix hs (V c main_v235_1)
        (Cert.Gnn.convOut hc hb (V c main_v281) (V c main_v236) (V c main_v285) (V c main_v184))
        (shapeCast S_ (V c main_v284) h11)) := by
  show (cfg10.win 7).cut (grid10.coords t) ((dat10 V c).after 7 t) = _
  rw [after10_7]
  unfold out10_7
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S1x1) zeroOffsets]
  funext j
  obtain ⟨p, q, rfl⟩ : ∃ (p : Fin 5000) (q : Fin 64), j = ix2 p q := ⟨j 0, j 1, eq_ix2 j⟩
  show k10_pay2 (iblk10 V c 2 t) (iblk10 V c 0 t) (iblk10 V c 1 t) (iblk10 V c 3 t) (iblk10 V c 5 t) (iblk10 V c 4 t) (ix2 p q)
    = Cert.Gnn.mix hs (V c main_v235_1)
        (Cert.Gnn.convOut hc hb (V c main_v281) (V c main_v236) (V c main_v285) (V c main_v184))
        (shapeCast S_ (V c main_v284) h11) (((cfg10.win 7).blk t).view.emb (ix2 p q))
  rw [emb_acc' t p q]
  exact mixBand_eq hc hb hs h11 (V c main_v281) (V c main_v236) (V c main_v285) (V c main_v184) (V c main_v284) (V c main_v235_1)
    (iblk10 V c 0 t) (iblk10 V c 1 t) (iblk10 V c 2 t) (iblk10 V c 3 t) (iblk10 V c 4 t) (iblk10 V c 5 t) p q (row t p)
    (congrArg (V c main_v281) (emb_s t p q)) (congrArg (V c main_v236) (emb_h t p q))
    (congrArg (V c main_v285) (emb_d t p)) (congrArg (V c main_v184) (emb_b t q))
    (congrArg (V c main_v284) (emb_f t)) (congrArg (V c main_v235_1) (emb_acc t p q))

/-! ## The 20 bands tile the rows -/

/-- The band of a row: r / 5000. -/
abbrev bandOf (i : S100000x64.Idx) : Fin cfg10.N :=
  ⟨(i 0).val / 5000, by rw [show cfg10.N = 20 from N_10]; have : (i 0).val < 100000 := (i 0).isLt; omega⟩

/-- An index of the first result's array is in band t's block iff each coordinate is in the block's range. -/
theorem mem_band_u (t : Fin cfg10.N) (i : S100000x64.Idx) :
    i ∈ ((cfg10.win 6).blk t).view.set ↔ ∀ a : Fin 2, win10_6.index t a * S5000x64.size a ≤ (i a).val ∧ (i a).val < win10_6.index t a * S5000x64.size a + S5000x64.size a := by
  show i ∈ ((View.whole main_v286_0).slice (win10_6.rect t)).set ↔ _
  rw [View.set_slice_whole, Rect.mem_set_unit]
  exact Iff.rfl

theorem mem_band_acc (t : Fin cfg10.N) (i : S100000x64.Idx) :
    i ∈ ((cfg10.win 7).blk t).view.set ↔ ∀ a : Fin 2, win10_7.index t a * S5000x64.size a ≤ (i a).val ∧ (i a).val < win10_7.index t a * S5000x64.size a + S5000x64.size a := by
  show i ∈ ((View.whole main_v286_1).slice (win10_7.rect t)).set ↔ _
  rw [View.set_slice_whole, Rect.mem_set_unit]
  exact Iff.rfl

/-- Every entry of the first result's array lies in the block of its row's band. -/
theorem cover_u (i : S100000x64.Idx) :
    ∃ t : Fin cfg10.N, (cfg10.win 6).flush t = true ∧ i ∈ ((cfg10.win 6).blk t).view.set := by
  have hi0 : (i 0).val < 100000 := (i 0).isLt
  have hi1 : (i 1).val < 64 := (i 1).isLt
  obtain ⟨-, -, -, -, -, -, -, -, -, -, -, -, e0, e1, -⟩ := bandIndex (bandOf i)
  have hv : (bandOf i).val = (i 0).val / 5000 := rfl
  refine ⟨bandOf i, flush10_6 _, ?_⟩
  rw [mem_band_u]
  intro a
  match a with
  | ⟨0, _⟩ => show win10_6.index (bandOf i) (0 : Fin 2) * 5000 ≤ (i 0).val ∧ (i 0).val < win10_6.index (bandOf i) (0 : Fin 2) * 5000 + 5000; omega
  | ⟨1, _⟩ => show win10_6.index (bandOf i) (1 : Fin 2) * 64 ≤ (i 1).val ∧ (i 1).val < win10_6.index (bandOf i) (1 : Fin 2) * 64 + 64; omega

/-- Every entry of the second result's array lies in the block of its row's band. -/
theorem cover_acc (i : S100000x64.Idx) :
    ∃ t : Fin cfg10.N, (cfg10.win 7).flush t = true ∧ i ∈ ((cfg10.win 7).blk t).view.set := by
  have hi0 : (i 0).val < 100000 := (i 0).isLt
  have hi1 : (i 1).val < 64 := (i 1).isLt
  obtain ⟨-, -, -, -, -, -, -, -, -, -, -, -, -, -, e0, e1⟩ := bandIndex (bandOf i)
  have hv : (bandOf i).val = (i 0).val / 5000 := rfl
  refine ⟨bandOf i, flush10_7 _, ?_⟩
  rw [mem_band_acc]
  intro a
  match a with
  | ⟨0, _⟩ => show win10_7.index (bandOf i) (0 : Fin 2) * 5000 ≤ (i 0).val ∧ (i 0).val < win10_7.index (bandOf i) (0 : Fin 2) * 5000 + 5000; omega
  | ⟨1, _⟩ => show win10_7.index (bandOf i) (1 : Fin 2) * 64 ≤ (i 1).val ∧ (i 1).val < win10_7.index (bandOf i) (1 : Fin 2) * 64 + 64; omega

end Finalize10

/-! ## The two result arrays after the region -/

/-- After the region the first result's array is tanh (s + h (d d) + b) of the whole arrays. -/
theorem finalize10_h (c : Dev nD)
    (hc : S100000x1.BroadcastsInDim S100000x64 (![0, 1] : Fin 2 → Fin 2)) (hb : S1x64.BroadcastsInDim S100000x64 (![0, 1] : Fin 2 → Fin 2)) :
    (dat10 V c).arrAt 6 cfg10.N = Cert.Gnn.convOut hc hb (V c main_v281) (V c main_v236) (V c main_v285) (V c main_v184) :=
  (dat10 V c).arrAt_eq_of_cover 6 _ (fun t _ => Finalize10.flushed_u V c t hc hb) Finalize10.cover_u

/-- After the region the second result's array is acc + f u of the whole arrays, u the first result. -/
theorem finalize10_acc (c : Dev nD)
    (hc : S100000x1.BroadcastsInDim S100000x64 (![0, 1] : Fin 2 → Fin 2)) (hb : S1x64.BroadcastsInDim S100000x64 (![0, 1] : Fin 2 → Fin 2))
    (hs : S_.BroadcastsInDim S100000x64 (![] : Fin 0 → Fin 2)) (h11 : S1x1.ShapeCasts S_) :
    (dat10 V c).arrAt 7 cfg10.N = Cert.Gnn.mix hs (V c main_v235_1) (Cert.Gnn.convOut hc hb (V c main_v281) (V c main_v236) (V c main_v285) (V c main_v184)) (shapeCast S_ (V c main_v284) h11) :=
  (dat10 V c).arrAt_eq_of_cover 7 _ (fun t _ => Finalize10.flushed_acc V c t hc hb hs h11) Finalize10.cover_acc

end Cert.KernelIdeal.RegionValue

end
-- ==== Proof.LinearRegion11.lean ====
/-
  A linear layer without bias over 100000 rows: y = x w, with x of 100000 rows by 64 features and w a 64 by 64 weight.

  The region walks the rows in 20 bands of 5000. At band t it reads rows 5000 t to 5000 t + 4999 of x and the whole of w,
  multiplies the band by w, and writes the 5000 by 64 result to the same rows of y. Entry (r, q) of a product is the sum
  over k of x[r, k] w[k, q]: it reads row r of the left factor only, so the product of a band of rows with w is that same
  band of rows of x w. The 20 bands hold every row between them, so once the region is through, y is x w.
-/
import proofs.«418542_j22608707846200_1_alg».proof.Proof.KernelIdealFrameRegions1
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

/-- The body reads and writes each of its blocks whole: from offset 0 on both axes. -/
theorem linear11_zero_offsets : (![0, 0] : Fin 2 → Nat) = fun _ => 0 := funext fun a => by fin_cases a <;> rfl

/-- What the body computes from a band x0 of 5000 rows and the weight x1: the product x0 x1. Its two reshapes are to the
    shape their operand already has, and the accumulator the product is added to is zero everywhere. -/
theorem linear11_band_product (x0 : Vec Ideal S5000x64 .f32) (x1 : Vec Ideal S64x64 .f32) :
    k11_pay1 x0 x1 = matProd (M := 5000) (K := 64) (N := 64) x0 x1 := by
  unfold k11_pay1
  simp only [shapeCast_self]
  exact matmul_plain_zero_eq (M := 5000) (K := 64) (N := 64) (φ₁ := .f32) (φ₂ := .f32) none x0 x1

/-- Where the blocks sit, band by band (decided over the 20 bands): at band t the blocks of x and of y are block t down
    the rows and block 0 across the columns, and the block of w is block (0, 0), the whole of w. -/
theorem linear11_index_maps : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0 :=
  (by decide +kernel : ∀ t : Fin grid11.N, _)

/-- What band t writes back is band t of x w: row p of the band of x is row 5000 t + p of x, the block of w is w, and a
    row of a product reads that row of the left factor only. -/
theorem linear11_band_written (c : Dev nD) (t : Fin cfg11.N) :
    (dat11 V c).flushed 2 t = ((cfg11.win 2).blk t).view.read (Elt Ideal)
      (matProd (M := 100000) (K := 64) (N := 64) (V c main_v286_0) (V c main_v178)) := by
  show (cfg11.win 2).cut (grid11.coords t) ((dat11 V c).after 2 t) = _
  rw [after11_2]
  unfold out11_2
  rw [View.canon_unit_zero linear11_zero_offsets]
  simp only [View.ld_unit_zero (S := S5000x64) linear11_zero_offsets, View.ld_unit_zero (S := S64x64) linear11_zero_offsets]
  rw [linear11_band_product]
  obtain ⟨e0, e1, e2, e3, e4, e5⟩ := linear11_index_maps t
  funext y
  have hy0 : (y 0).val < 5000 := (y 0).isLt
  have hy1 : (y 1).val < 64 := (y 1).isLt
  show matProd (M := 5000) (K := 64) (N := 64) (iblk11 V c 0 t) (iblk11 V c 1 t) ((cfg11.win 2).xinj (grid11.coords t) y)
    = matProd (M := 100000) (K := 64) (N := 64) (V c main_v286_0) (V c main_v178) (((cfg11.win 2).blk t).view.emb y)
  refine matProd_block_idx _ _ _ _ _ _ (fun k => ?_) (fun k => ?_)
  · -- row (y 0) of the band of x, at column k, is row 5000 t + (y 0) of x at column k
    show V c main_v286_0 (((cfg11.win 0).blk t).view.emb (ix2 ⟨(y 0).val, hy0⟩ k)) = V c main_v286_0 _
    refine congrArg (V c main_v286_0) (funext fun a => Fin.ext ?_)
    match a with
    | ⟨0, _⟩ =>
      show win11_0.index t (0 : Fin 2) * 5000 + 1 * (y 0).val = win11_2.index t (0 : Fin 2) * 5000 + 1 * (y 0).val
      omega
    | ⟨1, _⟩ =>
      show win11_0.index t (1 : Fin 2) * 64 + 1 * k.val = k.val
      omega
  · -- row k of the block of w, at column (y 1), is row k of w at column (y 1)
    show V c main_v178 (((cfg11.win 1).blk t).view.emb (ix2 k ⟨(y 1).val, hy1⟩)) = V c main_v178 _
    refine congrArg (V c main_v178) (funext fun a => Fin.ext ?_)
    match a with
    | ⟨0, _⟩ =>
      show win11_1.index t (0 : Fin 2) * 64 + 1 * k.val = k.val
      omega
    | ⟨1, _⟩ =>
      show win11_1.index t (1 : Fin 2) * 64 + 1 * (y 1).val = win11_2.index t (1 : Fin 2) * 64 + 1 * (y 1).val
      omega

/-- An index of y is in band t's block exactly when each of its coordinates is in the block's range on that axis. -/
theorem linear11_mem_band (t : Fin cfg11.N) (i : S100000x64.Idx) :
    i ∈ ((cfg11.win 2).blk t).view.set ↔ ∀ a : Fin 2, win11_2.index t a * S5000x64.size a ≤ (i a).val
      ∧ (i a).val < win11_2.index t a * S5000x64.size a + S5000x64.size a := by
  show i ∈ ((View.whole main_v287).slice (win11_2.rect t)).set ↔ _
  rw [View.set_slice_whole, Rect.mem_set_unit]
  exact Iff.rfl

/-- Every index of y is in some band's block: row r is in band r / 5000, and every band spans all 64 columns. -/
theorem linear11_rows_covered (i : S100000x64.Idx) :
    ∃ t : Fin cfg11.N, (cfg11.win 2).flush t = true ∧ i ∈ ((cfg11.win 2).blk t).view.set := by
  have hi0 : (i 0).val < 100000 := (i 0).isLt
  have hi1 : (i 1).val < 64 := (i 1).isLt
  have hlt : (i 0).val / 5000 < grid11.N := by rw [N_11]; omega
  obtain ⟨t, ht⟩ : ∃ t : Fin cfg11.N, t.val = (i 0).val / 5000 := ⟨⟨(i 0).val / 5000, hlt⟩, rfl⟩
  obtain ⟨e0, e1, e2, e3, e4, e5⟩ := linear11_index_maps t
  refine ⟨t, flush11_2 t, ?_⟩
  rw [linear11_mem_band]
  intro a
  match a with
  | ⟨0, _⟩ =>
    show win11_2.index t (0 : Fin 2) * 5000 ≤ (i 0).val ∧ (i 0).val < win11_2.index t (0 : Fin 2) * 5000 + 5000
    omega
  | ⟨1, _⟩ =>
    show win11_2.index t (1 : Fin 2) * 64 ≤ (i 1).val ∧ (i 1).val < win11_2.index t (1 : Fin 2) * 64 + 64
    omega

/-- After the region, y is x w: each band writes its band of x w, and the bands hold every index of y. -/
theorem linear11 (c : Dev nD) :
    (dat11 V c).arrAt 2 cfg11.N
      = Host.dotGeneral (F := Ideal) (φ₁ := .f32) (φ₂ := .f32) (DotDims.plain 100000 64 64) none (V c main_v286_0) (V c main_v178) := by
  refine ((dat11 V c).arrAt_eq_of_cover 2 (matProd (M := 100000) (K := 64) (N := 64) (V c main_v286_0) (V c main_v178))
    (fun t _ => linear11_band_written V c t) linear11_rows_covered).trans ?_
  exact (dotGeneral_plain_eq (M := 100000) (K := 64) (N := 64) (φ₁ := .f32) (φ₂ := .f32) none (V c main_v286_0) (V c main_v178)).symm

end Cert.KernelIdeal.RegionValue

end
-- ==== Proof.FinalizeRegion12.lean ====
/-
  The finalize region of the graph network on 100000 rows, launch 12, as one function of the arrays it reads.

  The region walks the rows in 20 bands of 5000. At band t it reads rows [5000 t, 5000 t + 5000) of the scattered
  neighbour sums s, of the projected features h, of the degree column d and of the running mixture acc, and the whole
  bias row b and the one coefficient f; it writes the same rows of two results,
      u   = tanh (s + h (d d) + b)          (entry (r, q) reads d in row r and b in column q)
      acc' = acc + f u.
  Every entry of a result depends on its own row only, so band t of either result is band t of the same expression
  taken over the whole arrays; the 20 bands tile the 100000 rows (row r lies in band r / 5000), hence after the region
  the two result arrays are the whole-array expressions Cert.Gnn.convOut and Cert.Gnn.mix.
-/
import proofs.«418542_j22608707846200_1_alg».proof.Proof.KernelIdealFrameRegions1
import proofs.«418542_j22608707846200_1_alg».proof.Proof.GnnOps
import proofs.«418542_j22608707846200_1_alg».proof.Proof.FinalizeOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.KernelIdeal.FinalizeOps

variable (V : (c : Dev nD) → (b : Ref sig .tc) → Buf (Elt Ideal) ((c : Thread nD τ).loc b))

namespace Finalize12

/-! ## One band: the body's two results entry by entry -/

/-- The first result of a band at (p, q): tanh (s + h (d d) + b), d read in the band's row p, b in column q. -/
theorem convBand_apply (x0 x1 : Vec Ideal S5000x64 .f32) (x2 : Vec Ideal S5000x1 .f32) (x3 : Vec Ideal S1x64 .f32)
    (p : Fin 5000) (q : Fin 64) :
    k12_pay1 x2 x0 x1 x3 (ix2 p q)
      = Ideal.tanh (x0 (ix2 p q) + x1 (ix2 p q) * (x2 (ix2 p (0 : Fin 1)) * x2 (ix2 p (0 : Fin 1))) + x3 (ix2 (0 : Fin 1) q)) := by
  unfold k12_pay1 Idealize.ShloMosaic.tanh
  simp only [shapeCast_self, addf_apply, mulf_apply, Ideal.tanh_def]
  rw [broadcastTo_col_apply _ _ p q, broadcastTo_1b_ab_apply _ _ p q, mulf_apply]

/-- The second result of a band at (p, q): acc + f u, f the one entry of the 1 x 1 coefficient, u the first result. -/
theorem mixBand_apply (x0 x1 : Vec Ideal S5000x64 .f32) (x2 : Vec Ideal S5000x1 .f32) (x3 : Vec Ideal S1x64 .f32)
    (x5 : Vec Ideal S5000x64 .f32) (x4 : Vec Ideal S1x1 .f32) (p : Fin 5000) (q : Fin 64) :
    k12_pay2 x2 x0 x1 x3 x5 x4 (ix2 p q)
      = x5 (ix2 p q) + x4 (ix2 (0 : Fin 1) (0 : Fin 1)) * k12_pay1 x2 x0 x1 x3 (ix2 p q) := by
  unfold k12_pay2
  simp only [shapeCast_self, addf_apply, mulf_apply, broadcast_apply]
  rw [extractAt_origin]

/-- A band's first result at (p, q) is the whole-array expression at (r, q), once the band's operands are the
    whole arrays' entries of row r (the bias row read whole). -/
theorem convBand_eq (hc : S100000x1.BroadcastsInDim S100000x64 (![0, 1] : Fin 2 → Fin 2))
    (hb : S1x64.BroadcastsInDim S100000x64 (![0, 1] : Fin 2 → Fin 2))
    (s h : FVec Ideal S100000x64 .f32) (d : FVec Ideal S100000x1 .f32) (b : FVec Ideal S1x64 .f32)
    (x0 x1 : Vec Ideal S5000x64 .f32) (x2 : Vec Ideal S5000x1 .f32) (x3 : Vec Ideal S1x64 .f32)
    (p : Fin 5000) (q : Fin 64) (r : Fin 100000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k12_pay1 x2 x0 x1 x3 (ix2 p q) = Cert.Gnn.convOut hc hb s h d b (ix2 r q) := by
  rw [convBand_apply, convOut_ix2, h0, h1, h2, h3]

/-- A band's second result at (p, q) is the whole-array mixture at (r, q), under the same reading of the operands. -/
theorem mixBand_eq (hc : S100000x1.BroadcastsInDim S100000x64 (![0, 1] : Fin 2 → Fin 2))
    (hb : S1x64.BroadcastsInDim S100000x64 (![0, 1] : Fin 2 → Fin 2))
    (hs : S_.BroadcastsInDim S100000x64 (![] : Fin 0 → Fin 2)) (h11 : S1x1.ShapeCasts S_)
    (s h : FVec Ideal S100000x64 .f32) (d : FVec Ideal S100000x1 .f32) (b : FVec Ideal S1x64 .f32)
    (f : FVec Ideal S1x1 .f32) (acc : FVec Ideal S100000x64 .f32)
    (x0 x1 : Vec Ideal S5000x64 .f32) (x2 : Vec Ideal S5000x1 .f32) (x3 : Vec Ideal S1x64 .f32)
    (x4 : Vec Ideal S1x1 .f32) (x5 : Vec Ideal S5000x64 .f32)
    (p : Fin 5000) (q : Fin 64) (r : Fin 100000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q))
    (h4 : x4 (ix2 (0 : Fin 1) (0 : Fin 1)) = f (ix2 (0 : Fin 1) (0 : Fin 1))) (h5 : x5 (ix2 p q) = acc (ix2 r q)) :
    k12_pay2 x2 x0 x1 x3 x5 x4 (ix2 p q)
      = Cert.Gnn.mix hs acc (Cert.Gnn.convOut hc hb s h d b) (shapeCast S_ f h11) (ix2 r q) := by
  rw [mixBand_apply, mix_ix2, shapeCast_unit_scalar_apply, convBand_eq hc hb s h d b x0 x1 x2 x3 p q r h0 h1 h2 h3, h4, h5]

/-! ## Where band t sits in each array -/

theorem zeroOffsets : (![0, 0] : Fin 2 → Nat) = fun _ => 0 := funext fun a => by fin_cases a <;> rfl

/-- The windows' index maps over the 20 bands: every row-shaped window is at row block t, column block 0; the bias row
    and the coefficient stay at block (0, 0). -/
theorem bandIndex : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0
    ∧ win12_6.index t (0 : Fin 2) = t.val ∧ win12_6.index t (1 : Fin 2) = 0
    ∧ win12_7.index t (0 : Fin 2) = t.val ∧ win12_7.index t (1 : Fin 2) = 0 :=
  (by decide +kernel : ∀ t : Fin grid12.N, _)

theorem band_lt (t : Fin cfg12.N) : t.val < 20 := lt_of_lt_of_eq t.isLt N_12

/-- Row p of band t is row 5000 t + p of the array. -/
abbrev row (t : Fin cfg12.N) (p : Fin 5000) : Fin 100000 := ⟨t.val * 5000 + p.val, by have := band_lt t; have := p.isLt; omega⟩

theorem emb_s (t : Fin cfg12.N) (p : Fin 5000) (q : Fin 64) :
    ((cfg12.win 0).blk t).view.emb (ix2 p q) = ix2 (row t p) q := by
  obtain ⟨e0, e1, -⟩ := bandIndex t
  funext a; apply Fin.ext
  match a with
  | ⟨0, _⟩ => show win12_0.index t (0 : Fin 2) * 5000 + 1 * p.val = t.val * 5000 + p.val; omega
  | ⟨1, _⟩ => show win12_0.index t (1 : Fin 2) * 64 + 1 * q.val = q.val; omega

theorem emb_h (t : Fin cfg12.N) (p : Fin 5000) (q : Fin 64) :
    ((cfg12.win 1).blk t).view.emb (ix2 p q) = ix2 (row t p) q := by
  obtain ⟨-, -, e0, e1, -⟩ := bandIndex t
  funext a; apply Fin.ext
  match a with
  | ⟨0, _⟩ => show win12_1.index t (0 : Fin 2) * 5000 + 1 * p.val = t.val * 5000 + p.val; omega
  | ⟨1, _⟩ => show win12_1.index t (1 : Fin 2) * 64 + 1 * q.val = q.val; omega

theorem emb_d (t : Fin cfg12.N) (p : Fin 5000) :
    ((cfg12.win 2).blk t).view.emb (ix2 p (0 : Fin 1)) = ix2 (row t p) (0 : Fin 1) := by
  obtain ⟨-, -, -, -, e0, e1, -⟩ := bandIndex t
  funext a; apply Fin.ext
  match a with
  | ⟨0, _⟩ => show win12_2.index t (0 : Fin 2) * 5000 + 1 * p.val = t.val * 5000 + p.val; omega
  | ⟨1, _⟩ => show win12_2.index t (1 : Fin 2) * 1 + 1 * 0 = 0; omega

theorem emb_b (t : Fin cfg12.N) (q : Fin 64) :
    ((cfg12.win 3).blk t).view.emb (ix2 (0 : Fin 1) q) = ix2 (0 : Fin 1) q := by
  obtain ⟨-, -, -, -, -, -, e0, e1, -⟩ := bandIndex t
  funext a; apply Fin.ext
  match a with
  | ⟨0, _⟩ => show win12_3.index t (0 : Fin 2) * 1 + 1 * 0 = 0; omega
  | ⟨1, _⟩ => show win12_3.index t (1 : Fin 2) * 64 + 1 * q.val = q.val; omega

theorem emb_f (t : Fin cfg12.N) :
    ((cfg12.win 4).blk t).view.emb (ix2 (0 : Fin 1) (0 : Fin 1)) = ix2 (0 : Fin 1) (0 : Fin 1) := by
  obtain ⟨-, -, -, -, -, -, -, -, e0, e1, -⟩ := bandIndex t
  funext a; apply Fin.ext
  match a with
  | ⟨0, _⟩ => show win12_4.index t (0 : Fin 2) * 1 + 1 * 0 = 0; omega
  | ⟨1, _⟩ => show win12_4.index t (1 : Fin 2) * 1 + 1 * 0 = 0; omega

theorem emb_acc (t : Fin cfg12.N) (p : Fin 5000) (q : Fin 64) :
    ((cfg12.win 5).blk t).view.emb (ix2 p q) = ix2 (row t p) q := by
  obtain ⟨-, -, -, -, -, -, -, -, -, -, e0, e1, -⟩ := bandIndex t
  funext a; apply Fin.ext
  match a with
  | ⟨0, _⟩ => show win12_5.index t (0 : Fin 2) * 5000 + 1 * p.val = t.val * 5000 + p.val; omega
  | ⟨1, _⟩ => show win12_5.index t (1 : Fin 2) * 64 + 1 * q.val = q.val; omega

theorem emb_u (t : Fin cfg12.N) (p : Fin 5000) (q : Fin 64) :
    ((cfg12.win 6).blk t).view.emb (ix2 p q) = ix2 (row t p) q := by
  obtain ⟨-, -, -, -, -, -, -, -, -, -, -, -, e0, e1, -⟩ := bandIndex t
  funext a; apply Fin.ext
  match a with
  | ⟨0, _⟩ => show win12_6.index t (0 : Fin 2) * 5000 + 1 * p.val = t.val * 5000 + p.val; omega
  | ⟨1, _⟩ => show win12_6.index t (1 : Fin 2) * 64 + 1 * q.val = q.val; omega

theorem emb_acc' (t : Fin cfg12.N) (p : Fin 5000) (q : Fin 64) :
    ((cfg12.win 7).blk t).view.emb (ix2 p q) = ix2 (row t p) q := by
  obtain ⟨-, -, -, -, -, -, -, -, -, -, -, -, -, -, e0, e1⟩ := bandIndex t
  funext a; apply Fin.ext
  match a with
  | ⟨0, _⟩ => show win12_7.index t (0 : Fin 2) * 5000 + 1 * p.val = t.val * 5000 + p.val; omega
  | ⟨1, _⟩ => show win12_7.index t (1 : Fin 2) * 64 + 1 * q.val = q.val; omega

/-! ## What band t writes back is band t of the whole-array expressions -/

theorem flushed_u (c : Dev nD) (t : Fin cfg12.N)
    (hc : S100000x1.BroadcastsInDim S100000x64 (![0, 1] : Fin 2 → Fin 2))
    (hb : S1x64.BroadcastsInDim S100000x64 (![0, 1] : Fin 2 → Fin 2)) :
    (dat12 V c).flushed 6 t = ((cfg12.win 6).blk t).view.read (Elt Ideal)
      (Cert.Gnn.convOut hc hb (V c main_v332) (V c main_v287) (V c main_v336) (V c main_v184)) := by
  show (cfg12.win 6).cut (grid12.coords t) ((dat12 V c).after 6 t) = _
  rw [after12_6]
  unfold out12_6
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k12_pay1 (iblk12 V c 2 t) (iblk12 V c 0 t) (iblk12 V c 1 t) (iblk12 V c 3 t) (ix2 p q)
    = Cert.Gnn.convOut hc hb (V c main_v332) (V c main_v287) (V c main_v336) (V c main_v184) (((cfg12.win 6).blk t).view.emb (ix2 p q))
  rw [emb_u t p q]
  exact convBand_eq hc hb (V c main_v332) (V c main_v287) (V c main_v336) (V c main_v184)
    (iblk12 V c 0 t) (iblk12 V c 1 t) (iblk12 V c 2 t) (iblk12 V c 3 t) p q (row t p)
    (congrArg (V c main_v332) (emb_s t p q)) (congrArg (V c main_v287) (emb_h t p q))
    (congrArg (V c main_v336) (emb_d t p)) (congrArg (V c main_v184) (emb_b t q))

theorem flushed_acc (c : Dev nD) (t : Fin cfg12.N)
    (hc : S100000x1.BroadcastsInDim S100000x64 (![0, 1] : Fin 2 → Fin 2))
    (hb : S1x64.BroadcastsInDim S100000x64 (![0, 1] : Fin 2 → Fin 2))
    (hs : S_.BroadcastsInDim S100000x64 (![] : Fin 0 → Fin 2)) (h11 : S1x1.ShapeCasts S_) :
    (dat12 V c).flushed 7 t = ((cfg12.win 7).blk t).view.read (Elt Ideal)
      (Cert.Gnn.mix hs (V c main_v286_1)
        (Cert.Gnn.convOut hc hb (V c main_v332) (V c main_v287) (V c main_v336) (V c main_v184))
        (shapeCast S_ (V c main_v335) h11)) := by
  show (cfg12.win 7).cut (grid12.coords t) ((dat12 V c).after 7 t) = _
  rw [after12_7]
  unfold out12_7
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S1x1) zeroOffsets]
  funext j
  obtain ⟨p, q, rfl⟩ : ∃ (p : Fin 5000) (q : Fin 64), j = ix2 p q := ⟨j 0, j 1, eq_ix2 j⟩
  show k12_pay2 (iblk12 V c 2 t) (iblk12 V c 0 t) (iblk12 V c 1 t) (iblk12 V c 3 t) (iblk12 V c 5 t) (iblk12 V c 4 t) (ix2 p q)
    = Cert.Gnn.mix hs (V c main_v286_1)
        (Cert.Gnn.convOut hc hb (V c main_v332) (V c main_v287) (V c main_v336) (V c main_v184))
        (shapeCast S_ (V c main_v335) h11) (((cfg12.win 7).blk t).view.emb (ix2 p q))
  rw [emb_acc' t p q]
  exact mixBand_eq hc hb hs h11 (V c main_v332) (V c main_v287) (V c main_v336) (V c main_v184) (V c main_v335) (V c main_v286_1)
    (iblk12 V c 0 t) (iblk12 V c 1 t) (iblk12 V c 2 t) (iblk12 V c 3 t) (iblk12 V c 4 t) (iblk12 V c 5 t) p q (row t p)
    (congrArg (V c main_v332) (emb_s t p q)) (congrArg (V c main_v287) (emb_h t p q))
    (congrArg (V c main_v336) (emb_d t p)) (congrArg (V c main_v184) (emb_b t q))
    (congrArg (V c main_v335) (emb_f t)) (congrArg (V c main_v286_1) (emb_acc t p q))

/-! ## The 20 bands tile the rows -/

/-- The band of a row: r / 5000. -/
abbrev bandOf (i : S100000x64.Idx) : Fin cfg12.N :=
  ⟨(i 0).val / 5000, by rw [show cfg12.N = 20 from N_12]; have : (i 0).val < 100000 := (i 0).isLt; omega⟩

/-- An index of the first result's array is in band t's block iff each coordinate is in the block's range. -/
theorem mem_band_u (t : Fin cfg12.N) (i : S100000x64.Idx) :
    i ∈ ((cfg12.win 6).blk t).view.set ↔ ∀ a : Fin 2, win12_6.index t a * S5000x64.size a ≤ (i a).val ∧ (i a).val < win12_6.index t a * S5000x64.size a + S5000x64.size a := by
  show i ∈ ((View.whole main_v337_0).slice (win12_6.rect t)).set ↔ _
  rw [View.set_slice_whole, Rect.mem_set_unit]
  exact Iff.rfl

theorem mem_band_acc (t : Fin cfg12.N) (i : S100000x64.Idx) :
    i ∈ ((cfg12.win 7).blk t).view.set ↔ ∀ a : Fin 2, win12_7.index t a * S5000x64.size a ≤ (i a).val ∧ (i a).val < win12_7.index t a * S5000x64.size a + S5000x64.size a := by
  show i ∈ ((View.whole main_v337_1).slice (win12_7.rect t)).set ↔ _
  rw [View.set_slice_whole, Rect.mem_set_unit]
  exact Iff.rfl

/-- Every entry of the first result's array lies in the block of its row's band. -/
theorem cover_u (i : S100000x64.Idx) :
    ∃ t : Fin cfg12.N, (cfg12.win 6).flush t = true ∧ i ∈ ((cfg12.win 6).blk t).view.set := by
  have hi0 : (i 0).val < 100000 := (i 0).isLt
  have hi1 : (i 1).val < 64 := (i 1).isLt
  obtain ⟨-, -, -, -, -, -, -, -, -, -, -, -, e0, e1, -⟩ := bandIndex (bandOf i)
  have hv : (bandOf i).val = (i 0).val / 5000 := rfl
  refine ⟨bandOf i, flush12_6 _, ?_⟩
  rw [mem_band_u]
  intro a
  match a with
  | ⟨0, _⟩ => show win12_6.index (bandOf i) (0 : Fin 2) * 5000 ≤ (i 0).val ∧ (i 0).val < win12_6.index (bandOf i) (0 : Fin 2) * 5000 + 5000; omega
  | ⟨1, _⟩ => show win12_6.index (bandOf i) (1 : Fin 2) * 64 ≤ (i 1).val ∧ (i 1).val < win12_6.index (bandOf i) (1 : Fin 2) * 64 + 64; omega

/-- Every entry of the second result's array lies in the block of its row's band. -/
theorem cover_acc (i : S100000x64.Idx) :
    ∃ t : Fin cfg12.N, (cfg12.win 7).flush t = true ∧ i ∈ ((cfg12.win 7).blk t).view.set := by
  have hi0 : (i 0).val < 100000 := (i 0).isLt
  have hi1 : (i 1).val < 64 := (i 1).isLt
  obtain ⟨-, -, -, -, -, -, -, -, -, -, -, -, -, -, e0, e1⟩ := bandIndex (bandOf i)
  have hv : (bandOf i).val = (i 0).val / 5000 := rfl
  refine ⟨bandOf i, flush12_7 _, ?_⟩
  rw [mem_band_acc]
  intro a
  match a with
  | ⟨0, _⟩ => show win12_7.index (bandOf i) (0 : Fin 2) * 5000 ≤ (i 0).val ∧ (i 0).val < win12_7.index (bandOf i) (0 : Fin 2) * 5000 + 5000; omega
  | ⟨1, _⟩ => show win12_7.index (bandOf i) (1 : Fin 2) * 64 ≤ (i 1).val ∧ (i 1).val < win12_7.index (bandOf i) (1 : Fin 2) * 64 + 64; omega

end Finalize12

/-! ## The two result arrays after the region -/

/-- After the region the first result's array is tanh (s + h (d d) + b) of the whole arrays. -/
theorem finalize12_h (c : Dev nD)
    (hc : S100000x1.BroadcastsInDim S100000x64 (![0, 1] : Fin 2 → Fin 2)) (hb : S1x64.BroadcastsInDim S100000x64 (![0, 1] : Fin 2 → Fin 2)) :
    (dat12 V c).arrAt 6 cfg12.N = Cert.Gnn.convOut hc hb (V c main_v332) (V c main_v287) (V c main_v336) (V c main_v184) :=
  (dat12 V c).arrAt_eq_of_cover 6 _ (fun t _ => Finalize12.flushed_u V c t hc hb) Finalize12.cover_u

/-- After the region the second result's array is acc + f u of the whole arrays, u the first result. -/
theorem finalize12_acc (c : Dev nD)
    (hc : S100000x1.BroadcastsInDim S100000x64 (![0, 1] : Fin 2 → Fin 2)) (hb : S1x64.BroadcastsInDim S100000x64 (![0, 1] : Fin 2 → Fin 2))
    (hs : S_.BroadcastsInDim S100000x64 (![] : Fin 0 → Fin 2)) (h11 : S1x1.ShapeCasts S_) :
    (dat12 V c).arrAt 7 cfg12.N = Cert.Gnn.mix hs (V c main_v286_1) (Cert.Gnn.convOut hc hb (V c main_v332) (V c main_v287) (V c main_v336) (V c main_v184)) (shapeCast S_ (V c main_v335) h11) :=
  (dat12 V c).arrAt_eq_of_cover 7 _ (fun t _ => Finalize12.flushed_acc V c t hc hb hs h11) Finalize12.cover_acc

end Cert.KernelIdeal.RegionValue

end
-- ==== Proof.LinearRegion13.lean ====
/-
  A linear layer without bias over 25000 rows: y = x w, with x of 25000 rows by 64 features and w a 64 by 64 weight.

  The region walks the rows in 5 bands of 5000. At band t it reads rows 5000 t to 5000 t + 4999 of x and the whole of w,
  multiplies the band by w, and writes the 5000 by 64 result to the same rows of y. Entry (r, q) of a product is the sum
  over k of x[r, k] w[k, q]: it reads row r of the left factor only, so the product of a band of rows with w is that same
  band of rows of x w. The 5 bands hold every row between them, so once the region is through, y is x w.
-/
import proofs.«418542_j22608707846200_1_alg».proof.Proof.KernelIdealFrameRegions1
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

/-- The body reads and writes each of its blocks whole: from offset 0 on both axes. -/
theorem linear13_zero_offsets : (![0, 0] : Fin 2 → Nat) = fun _ => 0 := funext fun a => by fin_cases a <;> rfl

/-- What the body computes from a band x0 of 5000 rows and the weight x1: the product x0 x1. Its two reshapes are to the
    shape their operand already has, and the accumulator the product is added to is zero everywhere. -/
theorem linear13_band_product (x0 : Vec Ideal S5000x64 .f32) (x1 : Vec Ideal S64x64 .f32) :
    k13_pay1 x0 x1 = matProd (M := 5000) (K := 64) (N := 64) x0 x1 := by
  unfold k13_pay1
  simp only [shapeCast_self]
  exact matmul_plain_zero_eq (M := 5000) (K := 64) (N := 64) (φ₁ := .f32) (φ₂ := .f32) none x0 x1

/-- Where the blocks sit, band by band (decided over the 5 bands): at band t the blocks of x and of y are block t down
    the rows and block 0 across the columns, and the block of w is block (0, 0), the whole of w. -/
theorem linear13_index_maps : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

/-- What band t writes back is band t of x w: row p of the band of x is row 5000 t + p of x, the block of w is w, and a
    row of a product reads that row of the left factor only. -/
theorem linear13_band_written (c : Dev nD) (t : Fin cfg13.N) :
    (dat13 V c).flushed 2 t = ((cfg13.win 2).blk t).view.read (Elt Ideal)
      (matProd (M := 25000) (K := 64) (N := 64) (V c main_v7) (V c main_v343)) := by
  show (cfg13.win 2).cut (grid13.coords t) ((dat13 V c).after 2 t) = _
  rw [after13_2]
  unfold out13_2
  rw [View.canon_unit_zero linear13_zero_offsets]
  simp only [View.ld_unit_zero (S := S5000x64) linear13_zero_offsets, View.ld_unit_zero (S := S64x64) linear13_zero_offsets]
  rw [linear13_band_product]
  obtain ⟨e0, e1, e2, e3, e4, e5⟩ := linear13_index_maps t
  funext y
  have hy0 : (y 0).val < 5000 := (y 0).isLt
  have hy1 : (y 1).val < 64 := (y 1).isLt
  show matProd (M := 5000) (K := 64) (N := 64) (iblk13 V c 0 t) (iblk13 V c 1 t) ((cfg13.win 2).xinj (grid13.coords t) y)
    = matProd (M := 25000) (K := 64) (N := 64) (V c main_v7) (V c main_v343) (((cfg13.win 2).blk t).view.emb y)
  refine matProd_block_idx _ _ _ _ _ _ (fun k => ?_) (fun k => ?_)
  · -- row (y 0) of the band of x, at column k, is row 5000 t + (y 0) of x at column k
    show V c main_v7 (((cfg13.win 0).blk t).view.emb (ix2 ⟨(y 0).val, hy0⟩ k)) = V c main_v7 _
    refine congrArg (V c main_v7) (funext fun a => Fin.ext ?_)
    match a with
    | ⟨0, _⟩ =>
      show win13_0.index t (0 : Fin 2) * 5000 + 1 * (y 0).val = win13_2.index t (0 : Fin 2) * 5000 + 1 * (y 0).val
      omega
    | ⟨1, _⟩ =>
      show win13_0.index t (1 : Fin 2) * 64 + 1 * k.val = k.val
      omega
  · -- row k of the block of w, at column (y 1), is row k of w at column (y 1)
    show V c main_v343 (((cfg13.win 1).blk t).view.emb (ix2 k ⟨(y 1).val, hy1⟩)) = V c main_v343 _
    refine congrArg (V c main_v343) (funext fun a => Fin.ext ?_)
    match a with
    | ⟨0, _⟩ =>
      show win13_1.index t (0 : Fin 2) * 64 + 1 * k.val = k.val
      omega
    | ⟨1, _⟩ =>
      show win13_1.index t (1 : Fin 2) * 64 + 1 * (y 1).val = win13_2.index t (1 : Fin 2) * 64 + 1 * (y 1).val
      omega

/-- An index of y is in band t's block exactly when each of its coordinates is in the block's range on that axis. -/
theorem linear13_mem_band (t : Fin cfg13.N) (i : S25000x64.Idx) :
    i ∈ ((cfg13.win 2).blk t).view.set ↔ ∀ a : Fin 2, win13_2.index t a * S5000x64.size a ≤ (i a).val
      ∧ (i a).val < win13_2.index t a * S5000x64.size a + S5000x64.size a := by
  show i ∈ ((View.whole main_v350).slice (win13_2.rect t)).set ↔ _
  rw [View.set_slice_whole, Rect.mem_set_unit]
  exact Iff.rfl

/-- Every index of y is in some band's block: row r is in band r / 5000, and every band spans all 64 columns. -/
theorem linear13_rows_covered (i : S25000x64.Idx) :
    ∃ t : Fin cfg13.N, (cfg13.win 2).flush t = true ∧ i ∈ ((cfg13.win 2).blk t).view.set := by
  have hi0 : (i 0).val < 25000 := (i 0).isLt
  have hi1 : (i 1).val < 64 := (i 1).isLt
  have hlt : (i 0).val / 5000 < grid13.N := by rw [N_13]; omega
  obtain ⟨t, ht⟩ : ∃ t : Fin cfg13.N, t.val = (i 0).val / 5000 := ⟨⟨(i 0).val / 5000, hlt⟩, rfl⟩
  obtain ⟨e0, e1, e2, e3, e4, e5⟩ := linear13_index_maps t
  refine ⟨t, flush13_2 t, ?_⟩
  rw [linear13_mem_band]
  intro a
  match a with
  | ⟨0, _⟩ =>
    show win13_2.index t (0 : Fin 2) * 5000 ≤ (i 0).val ∧ (i 0).val < win13_2.index t (0 : Fin 2) * 5000 + 5000
    omega
  | ⟨1, _⟩ =>
    show win13_2.index t (1 : Fin 2) * 64 ≤ (i 1).val ∧ (i 1).val < win13_2.index t (1 : Fin 2) * 64 + 64
    omega

/-- After the region, y is x w: each band writes its band of x w, and the bands hold every index of y. -/
theorem linear13 (c : Dev nD) :
    (dat13 V c).arrAt 2 cfg13.N
      = Host.dotGeneral (F := Ideal) (φ₁ := .f32) (φ₂ := .f32) (DotDims.plain 25000 64 64) none (V c main_v7) (V c main_v343) := by
  refine ((dat13 V c).arrAt_eq_of_cover 2 (matProd (M := 25000) (K := 64) (N := 64) (V c main_v7) (V c main_v343))
    (fun t _ => linear13_band_written V c t) linear13_rows_covered).trans ?_
  exact (dotGeneral_plain_eq (M := 25000) (K := 64) (N := 64) (φ₁ := .f32) (φ₂ := .f32) none (V c main_v7) (V c main_v343)).symm

end Cert.KernelIdeal.RegionValue

end
-- ==== Proof.FinalizeRegion14.lean ====
/-
  The finalize region of the graph network on 25000 rows, launch 14, as one function of the arrays it reads.

  The region walks the rows in 5 bands of 5000. At band t it reads rows [5000 t, 5000 t + 5000) of the scattered
  neighbour sums s, of the projected features h, of the degree column d and of the running mixture acc, and the whole
  bias row b and the one coefficient f; it writes the same rows of two results,
      u   = tanh (s + h (d d) + b)          (entry (r, q) reads d in row r and b in column q)
      acc' = acc + f u.
  Every entry of a result depends on its own row only, so band t of either result is band t of the same expression
  taken over the whole arrays; the 5 bands tile the 25000 rows (row r lies in band r / 5000), hence after the region
  the two result arrays are the whole-array expressions Cert.Gnn.convOut and Cert.Gnn.mix.
-/
import proofs.«418542_j22608707846200_1_alg».proof.Proof.KernelIdealFrameRegions2
import proofs.«418542_j22608707846200_1_alg».proof.Proof.GnnOps
import proofs.«418542_j22608707846200_1_alg».proof.Proof.FinalizeOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.KernelIdeal.FinalizeOps

variable (V : (c : Dev nD) → (b : Ref sig .tc) → Buf (Elt Ideal) ((c : Thread nD τ).loc b))

namespace Finalize14

/-! ## One band: the body's two results entry by entry -/

/-- The first result of a band at (p, q): tanh (s + h (d d) + b), d read in the band's row p, b in column q. -/
theorem convBand_apply (x0 x1 : Vec Ideal S5000x64 .f32) (x2 : Vec Ideal S5000x1 .f32) (x3 : Vec Ideal S1x64 .f32)
    (p : Fin 5000) (q : Fin 64) :
    k14_pay1 x2 x0 x1 x3 (ix2 p q)
      = Ideal.tanh (x0 (ix2 p q) + x1 (ix2 p q) * (x2 (ix2 p (0 : Fin 1)) * x2 (ix2 p (0 : Fin 1))) + x3 (ix2 (0 : Fin 1) q)) := by
  unfold k14_pay1 Idealize.ShloMosaic.tanh
  simp only [shapeCast_self, addf_apply, mulf_apply, Ideal.tanh_def]
  rw [broadcastTo_col_apply _ _ p q, broadcastTo_1b_ab_apply _ _ p q, mulf_apply]

/-- The second result of a band at (p, q): acc + f u, f the one entry of the 1 x 1 coefficient, u the first result. -/
theorem mixBand_apply (x0 x1 : Vec Ideal S5000x64 .f32) (x2 : Vec Ideal S5000x1 .f32) (x3 : Vec Ideal S1x64 .f32)
    (x5 : Vec Ideal S5000x64 .f32) (x4 : Vec Ideal S1x1 .f32) (p : Fin 5000) (q : Fin 64) :
    k14_pay2 x2 x0 x1 x3 x5 x4 (ix2 p q)
      = x5 (ix2 p q) + x4 (ix2 (0 : Fin 1) (0 : Fin 1)) * k14_pay1 x2 x0 x1 x3 (ix2 p q) := by
  unfold k14_pay2
  simp only [shapeCast_self, addf_apply, mulf_apply, broadcast_apply]
  rw [extractAt_origin]

/-- A band's first result at (p, q) is the whole-array expression at (r, q), once the band's operands are the
    whole arrays' entries of row r (the bias row read whole). -/
theorem convBand_eq (hc : S25000x1.BroadcastsInDim S25000x64 (![0, 1] : Fin 2 → Fin 2))
    (hb : S1x64.BroadcastsInDim S25000x64 (![0, 1] : Fin 2 → Fin 2))
    (s h : FVec Ideal S25000x64 .f32) (d : FVec Ideal S25000x1 .f32) (b : FVec Ideal S1x64 .f32)
    (x0 x1 : Vec Ideal S5000x64 .f32) (x2 : Vec Ideal S5000x1 .f32) (x3 : Vec Ideal S1x64 .f32)
    (p : Fin 5000) (q : Fin 64) (r : Fin 25000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k14_pay1 x2 x0 x1 x3 (ix2 p q) = Cert.Gnn.convOut hc hb s h d b (ix2 r q) := by
  rw [convBand_apply, convOut_ix2, h0, h1, h2, h3]

/-- A band's second result at (p, q) is the whole-array mixture at (r, q), under the same reading of the operands. -/
theorem mixBand_eq (hc : S25000x1.BroadcastsInDim S25000x64 (![0, 1] : Fin 2 → Fin 2))
    (hb : S1x64.BroadcastsInDim S25000x64 (![0, 1] : Fin 2 → Fin 2))
    (hs : S_.BroadcastsInDim S25000x64 (![] : Fin 0 → Fin 2)) (h11 : S1x1.ShapeCasts S_)
    (s h : FVec Ideal S25000x64 .f32) (d : FVec Ideal S25000x1 .f32) (b : FVec Ideal S1x64 .f32)
    (f : FVec Ideal S1x1 .f32) (acc : FVec Ideal S25000x64 .f32)
    (x0 x1 : Vec Ideal S5000x64 .f32) (x2 : Vec Ideal S5000x1 .f32) (x3 : Vec Ideal S1x64 .f32)
    (x4 : Vec Ideal S1x1 .f32) (x5 : Vec Ideal S5000x64 .f32)
    (p : Fin 5000) (q : Fin 64) (r : Fin 25000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q))
    (h4 : x4 (ix2 (0 : Fin 1) (0 : Fin 1)) = f (ix2 (0 : Fin 1) (0 : Fin 1))) (h5 : x5 (ix2 p q) = acc (ix2 r q)) :
    k14_pay2 x2 x0 x1 x3 x5 x4 (ix2 p q)
      = Cert.Gnn.mix hs acc (Cert.Gnn.convOut hc hb s h d b) (shapeCast S_ f h11) (ix2 r q) := by
  rw [mixBand_apply, mix_ix2, shapeCast_unit_scalar_apply, convBand_eq hc hb s h d b x0 x1 x2 x3 p q r h0 h1 h2 h3, h4, h5]

/-! ## Where band t sits in each array -/

theorem zeroOffsets : (![0, 0] : Fin 2 → Nat) = fun _ => 0 := funext fun a => by fin_cases a <;> rfl

/-- The windows' index maps over the 5 bands: every row-shaped window is at row block t, column block 0; the bias row
    and the coefficient stay at block (0, 0). -/
theorem bandIndex : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0
    ∧ win14_6.index t (0 : Fin 2) = t.val ∧ win14_6.index t (1 : Fin 2) = 0
    ∧ win14_7.index t (0 : Fin 2) = t.val ∧ win14_7.index t (1 : Fin 2) = 0 :=
  (by decide +kernel : ∀ t : Fin grid14.N, _)

theorem band_lt (t : Fin cfg14.N) : t.val < 5 := lt_of_lt_of_eq t.isLt N_14

/-- Row p of band t is row 5000 t + p of the array. -/
abbrev row (t : Fin cfg14.N) (p : Fin 5000) : Fin 25000 := ⟨t.val * 5000 + p.val, by have := band_lt t; have := p.isLt; omega⟩

theorem emb_s (t : Fin cfg14.N) (p : Fin 5000) (q : Fin 64) :
    ((cfg14.win 0).blk t).view.emb (ix2 p q) = ix2 (row t p) q := by
  obtain ⟨e0, e1, -⟩ := bandIndex t
  funext a; apply Fin.ext
  match a with
  | ⟨0, _⟩ => show win14_0.index t (0 : Fin 2) * 5000 + 1 * p.val = t.val * 5000 + p.val; omega
  | ⟨1, _⟩ => show win14_0.index t (1 : Fin 2) * 64 + 1 * q.val = q.val; omega

theorem emb_h (t : Fin cfg14.N) (p : Fin 5000) (q : Fin 64) :
    ((cfg14.win 1).blk t).view.emb (ix2 p q) = ix2 (row t p) q := by
  obtain ⟨-, -, e0, e1, -⟩ := bandIndex t
  funext a; apply Fin.ext
  match a with
  | ⟨0, _⟩ => show win14_1.index t (0 : Fin 2) * 5000 + 1 * p.val = t.val * 5000 + p.val; omega
  | ⟨1, _⟩ => show win14_1.index t (1 : Fin 2) * 64 + 1 * q.val = q.val; omega

theorem emb_d (t : Fin cfg14.N) (p : Fin 5000) :
    ((cfg14.win 2).blk t).view.emb (ix2 p (0 : Fin 1)) = ix2 (row t p) (0 : Fin 1) := by
  obtain ⟨-, -, -, -, e0, e1, -⟩ := bandIndex t
  funext a; apply Fin.ext
  match a with
  | ⟨0, _⟩ => show win14_2.index t (0 : Fin 2) * 5000 + 1 * p.val = t.val * 5000 + p.val; omega
  | ⟨1, _⟩ => show win14_2.index t (1 : Fin 2) * 1 + 1 * 0 = 0; omega

theorem emb_b (t : Fin cfg14.N) (q : Fin 64) :
    ((cfg14.win 3).blk t).view.emb (ix2 (0 : Fin 1) q) = ix2 (0 : Fin 1) q := by
  obtain ⟨-, -, -, -, -, -, e0, e1, -⟩ := bandIndex t
  funext a; apply Fin.ext
  match a with
  | ⟨0, _⟩ => show win14_3.index t (0 : Fin 2) * 1 + 1 * 0 = 0; omega
  | ⟨1, _⟩ => show win14_3.index t (1 : Fin 2) * 64 + 1 * q.val = q.val; omega

theorem emb_f (t : Fin cfg14.N) :
    ((cfg14.win 4).blk t).view.emb (ix2 (0 : Fin 1) (0 : Fin 1)) = ix2 (0 : Fin 1) (0 : Fin 1) := by
  obtain ⟨-, -, -, -, -, -, -, -, e0, e1, -⟩ := bandIndex t
  funext a; apply Fin.ext
  match a with
  | ⟨0, _⟩ => show win14_4.index t (0 : Fin 2) * 1 + 1 * 0 = 0; omega
  | ⟨1, _⟩ => show win14_4.index t (1 : Fin 2) * 1 + 1 * 0 = 0; omega

theorem emb_acc (t : Fin cfg14.N) (p : Fin 5000) (q : Fin 64) :
    ((cfg14.win 5).blk t).view.emb (ix2 p q) = ix2 (row t p) q := by
  obtain ⟨-, -, -, -, -, -, -, -, -, -, e0, e1, -⟩ := bandIndex t
  funext a; apply Fin.ext
  match a with
  | ⟨0, _⟩ => show win14_5.index t (0 : Fin 2) * 5000 + 1 * p.val = t.val * 5000 + p.val; omega
  | ⟨1, _⟩ => show win14_5.index t (1 : Fin 2) * 64 + 1 * q.val = q.val; omega

theorem emb_u (t : Fin cfg14.N) (p : Fin 5000) (q : Fin 64) :
    ((cfg14.win 6).blk t).view.emb (ix2 p q) = ix2 (row t p) q := by
  obtain ⟨-, -, -, -, -, -, -, -, -, -, -, -, e0, e1, -⟩ := bandIndex t
  funext a; apply Fin.ext
  match a with
  | ⟨0, _⟩ => show win14_6.index t (0 : Fin 2) * 5000 + 1 * p.val = t.val * 5000 + p.val; omega
  | ⟨1, _⟩ => show win14_6.index t (1 : Fin 2) * 64 + 1 * q.val = q.val; omega

theorem emb_acc' (t : Fin cfg14.N) (p : Fin 5000) (q : Fin 64) :
    ((cfg14.win 7).blk t).view.emb (ix2 p q) = ix2 (row t p) q := by
  obtain ⟨-, -, -, -, -, -, -, -, -, -, -, -, -, -, e0, e1⟩ := bandIndex t
  funext a; apply Fin.ext
  match a with
  | ⟨0, _⟩ => show win14_7.index t (0 : Fin 2) * 5000 + 1 * p.val = t.val * 5000 + p.val; omega
  | ⟨1, _⟩ => show win14_7.index t (1 : Fin 2) * 64 + 1 * q.val = q.val; omega

/-! ## What band t writes back is band t of the whole-array expressions -/

theorem flushed_u (c : Dev nD) (t : Fin cfg14.N)
    (hc : S25000x1.BroadcastsInDim S25000x64 (![0, 1] : Fin 2 → Fin 2))
    (hb : S1x64.BroadcastsInDim S25000x64 (![0, 1] : Fin 2 → Fin 2)) :
    (dat14 V c).flushed 6 t = ((cfg14.win 6).blk t).view.read (Elt Ideal)
      (Cert.Gnn.convOut hc hb (V c main_v395) (V c main_v350) (V c main_v399) (V c main_v349)) := by
  show (cfg14.win 6).cut (grid14.coords t) ((dat14 V c).after 6 t) = _
  rw [after14_6]
  unfold out14_6
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k14_pay1 (iblk14 V c 2 t) (iblk14 V c 0 t) (iblk14 V c 1 t) (iblk14 V c 3 t) (ix2 p q)
    = Cert.Gnn.convOut hc hb (V c main_v395) (V c main_v350) (V c main_v399) (V c main_v349) (((cfg14.win 6).blk t).view.emb (ix2 p q))
  rw [emb_u t p q]
  exact convBand_eq hc hb (V c main_v395) (V c main_v350) (V c main_v399) (V c main_v349)
    (iblk14 V c 0 t) (iblk14 V c 1 t) (iblk14 V c 2 t) (iblk14 V c 3 t) p q (row t p)
    (congrArg (V c main_v395) (emb_s t p q)) (congrArg (V c main_v350) (emb_h t p q))
    (congrArg (V c main_v399) (emb_d t p)) (congrArg (V c main_v349) (emb_b t q))

theorem flushed_acc (c : Dev nD) (t : Fin cfg14.N)
    (hc : S25000x1.BroadcastsInDim S25000x64 (![0, 1] : Fin 2 → Fin 2))
    (hb : S1x64.BroadcastsInDim S25000x64 (![0, 1] : Fin 2 → Fin 2))
    (hs : S_.BroadcastsInDim S25000x64 (![] : Fin 0 → Fin 2)) (h11 : S1x1.ShapeCasts S_) :
    (dat14 V c).flushed 7 t = ((cfg14.win 7).blk t).view.read (Elt Ideal)
      (Cert.Gnn.mix hs (V c main_v348)
        (Cert.Gnn.convOut hc hb (V c main_v395) (V c main_v350) (V c main_v399) (V c main_v349))
        (shapeCast S_ (V c main_v398) h11)) := by
  show (cfg14.win 7).cut (grid14.coords t) ((dat14 V c).after 7 t) = _
  rw [after14_7]
  unfold out14_7
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S1x1) zeroOffsets]
  funext j
  obtain ⟨p, q, rfl⟩ : ∃ (p : Fin 5000) (q : Fin 64), j = ix2 p q := ⟨j 0, j 1, eq_ix2 j⟩
  show k14_pay2 (iblk14 V c 2 t) (iblk14 V c 0 t) (iblk14 V c 1 t) (iblk14 V c 3 t) (iblk14 V c 5 t) (iblk14 V c 4 t) (ix2 p q)
    = Cert.Gnn.mix hs (V c main_v348)
        (Cert.Gnn.convOut hc hb (V c main_v395) (V c main_v350) (V c main_v399) (V c main_v349))
        (shapeCast S_ (V c main_v398) h11) (((cfg14.win 7).blk t).view.emb (ix2 p q))
  rw [emb_acc' t p q]
  exact mixBand_eq hc hb hs h11 (V c main_v395) (V c main_v350) (V c main_v399) (V c main_v349) (V c main_v398) (V c main_v348)
    (iblk14 V c 0 t) (iblk14 V c 1 t) (iblk14 V c 2 t) (iblk14 V c 3 t) (iblk14 V c 4 t) (iblk14 V c 5 t) p q (row t p)
    (congrArg (V c main_v395) (emb_s t p q)) (congrArg (V c main_v350) (emb_h t p q))
    (congrArg (V c main_v399) (emb_d t p)) (congrArg (V c main_v349) (emb_b t q))
    (congrArg (V c main_v398) (emb_f t)) (congrArg (V c main_v348) (emb_acc t p q))

/-! ## The 5 bands tile the rows -/

/-- The band of a row: r / 5000. -/
abbrev bandOf (i : S25000x64.Idx) : Fin cfg14.N :=
  ⟨(i 0).val / 5000, by rw [show cfg14.N = 5 from N_14]; have : (i 0).val < 25000 := (i 0).isLt; omega⟩

/-- An index of the first result's array is in band t's block iff each coordinate is in the block's range. -/
theorem mem_band_u (t : Fin cfg14.N) (i : S25000x64.Idx) :
    i ∈ ((cfg14.win 6).blk t).view.set ↔ ∀ a : Fin 2, win14_6.index t a * S5000x64.size a ≤ (i a).val ∧ (i a).val < win14_6.index t a * S5000x64.size a + S5000x64.size a := by
  show i ∈ ((View.whole main_v400_0).slice (win14_6.rect t)).set ↔ _
  rw [View.set_slice_whole, Rect.mem_set_unit]
  exact Iff.rfl

theorem mem_band_acc (t : Fin cfg14.N) (i : S25000x64.Idx) :
    i ∈ ((cfg14.win 7).blk t).view.set ↔ ∀ a : Fin 2, win14_7.index t a * S5000x64.size a ≤ (i a).val ∧ (i a).val < win14_7.index t a * S5000x64.size a + S5000x64.size a := by
  show i ∈ ((View.whole main_v400_1).slice (win14_7.rect t)).set ↔ _
  rw [View.set_slice_whole, Rect.mem_set_unit]
  exact Iff.rfl

/-- Every entry of the first result's array lies in the block of its row's band. -/
theorem cover_u (i : S25000x64.Idx) :
    ∃ t : Fin cfg14.N, (cfg14.win 6).flush t = true ∧ i ∈ ((cfg14.win 6).blk t).view.set := by
  have hi0 : (i 0).val < 25000 := (i 0).isLt
  have hi1 : (i 1).val < 64 := (i 1).isLt
  obtain ⟨-, -, -, -, -, -, -, -, -, -, -, -, e0, e1, -⟩ := bandIndex (bandOf i)
  have hv : (bandOf i).val = (i 0).val / 5000 := rfl
  refine ⟨bandOf i, flush14_6 _, ?_⟩
  rw [mem_band_u]
  intro a
  match a with
  | ⟨0, _⟩ => show win14_6.index (bandOf i) (0 : Fin 2) * 5000 ≤ (i 0).val ∧ (i 0).val < win14_6.index (bandOf i) (0 : Fin 2) * 5000 + 5000; omega
  | ⟨1, _⟩ => show win14_6.index (bandOf i) (1 : Fin 2) * 64 ≤ (i 1).val ∧ (i 1).val < win14_6.index (bandOf i) (1 : Fin 2) * 64 + 64; omega

/-- Every entry of the second result's array lies in the block of its row's band. -/
theorem cover_acc (i : S25000x64.Idx) :
    ∃ t : Fin cfg14.N, (cfg14.win 7).flush t = true ∧ i ∈ ((cfg14.win 7).blk t).view.set := by
  have hi0 : (i 0).val < 25000 := (i 0).isLt
  have hi1 : (i 1).val < 64 := (i 1).isLt
  obtain ⟨-, -, -, -, -, -, -, -, -, -, -, -, -, -, e0, e1⟩ := bandIndex (bandOf i)
  have hv : (bandOf i).val = (i 0).val / 5000 := rfl
  refine ⟨bandOf i, flush14_7 _, ?_⟩
  rw [mem_band_acc]
  intro a
  match a with
  | ⟨0, _⟩ => show win14_7.index (bandOf i) (0 : Fin 2) * 5000 ≤ (i 0).val ∧ (i 0).val < win14_7.index (bandOf i) (0 : Fin 2) * 5000 + 5000; omega
  | ⟨1, _⟩ => show win14_7.index (bandOf i) (1 : Fin 2) * 64 ≤ (i 1).val ∧ (i 1).val < win14_7.index (bandOf i) (1 : Fin 2) * 64 + 64; omega

end Finalize14

/-! ## The two result arrays after the region -/

/-- After the region the first result's array is tanh (s + h (d d) + b) of the whole arrays. -/
theorem finalize14_h (c : Dev nD)
    (hc : S25000x1.BroadcastsInDim S25000x64 (![0, 1] : Fin 2 → Fin 2)) (hb : S1x64.BroadcastsInDim S25000x64 (![0, 1] : Fin 2 → Fin 2)) :
    (dat14 V c).arrAt 6 cfg14.N = Cert.Gnn.convOut hc hb (V c main_v395) (V c main_v350) (V c main_v399) (V c main_v349) :=
  (dat14 V c).arrAt_eq_of_cover 6 _ (fun t _ => Finalize14.flushed_u V c t hc hb) Finalize14.cover_u

/-- After the region the second result's array is acc + f u of the whole arrays, u the first result. -/
theorem finalize14_acc (c : Dev nD)
    (hc : S25000x1.BroadcastsInDim S25000x64 (![0, 1] : Fin 2 → Fin 2)) (hb : S1x64.BroadcastsInDim S25000x64 (![0, 1] : Fin 2 → Fin 2))
    (hs : S_.BroadcastsInDim S25000x64 (![] : Fin 0 → Fin 2)) (h11 : S1x1.ShapeCasts S_) :
    (dat14 V c).arrAt 7 cfg14.N = Cert.Gnn.mix hs (V c main_v348) (Cert.Gnn.convOut hc hb (V c main_v395) (V c main_v350) (V c main_v399) (V c main_v349)) (shapeCast S_ (V c main_v398) h11) :=
  (dat14 V c).arrAt_eq_of_cover 7 _ (fun t _ => Finalize14.flushed_acc V c t hc hb hs h11) Finalize14.cover_acc

end Cert.KernelIdeal.RegionValue

end
-- ==== Proof.LinearRegion15.lean ====
/-
  A linear layer without bias over 25000 rows: y = x w, with x of 25000 rows by 64 features and w a 64 by 64 weight.

  The region walks the rows in 5 bands of 5000. At band t it reads rows 5000 t to 5000 t + 4999 of x and the whole of w,
  multiplies the band by w, and writes the 5000 by 64 result to the same rows of y. Entry (r, q) of a product is the sum
  over k of x[r, k] w[k, q]: it reads row r of the left factor only, so the product of a band of rows with w is that same
  band of rows of x w. The 5 bands hold every row between them, so once the region is through, y is x w.
-/
import proofs.«418542_j22608707846200_1_alg».proof.Proof.KernelIdealFrameRegions2
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

/-- The body reads and writes each of its blocks whole: from offset 0 on both axes. -/
theorem linear15_zero_offsets : (![0, 0] : Fin 2 → Nat) = fun _ => 0 := funext fun a => by fin_cases a <;> rfl

/-- What the body computes from a band x0 of 5000 rows and the weight x1: the product x0 x1. Its two reshapes are to the
    shape their operand already has, and the accumulator the product is added to is zero everywhere. -/
theorem linear15_band_product (x0 : Vec Ideal S5000x64 .f32) (x1 : Vec Ideal S64x64 .f32) :
    k15_pay1 x0 x1 = matProd (M := 5000) (K := 64) (N := 64) x0 x1 := by
  unfold k15_pay1
  simp only [shapeCast_self]
  exact matmul_plain_zero_eq (M := 5000) (K := 64) (N := 64) (φ₁ := .f32) (φ₂ := .f32) none x0 x1

/-- Where the blocks sit, band by band (decided over the 5 bands): at band t the blocks of x and of y are block t down
    the rows and block 0 across the columns, and the block of w is block (0, 0), the whole of w. -/
theorem linear15_index_maps : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

/-- What band t writes back is band t of x w: row p of the band of x is row 5000 t + p of x, the block of w is w, and a
    row of a product reads that row of the left factor only. -/
theorem linear15_band_written (c : Dev nD) (t : Fin cfg15.N) :
    (dat15 V c).flushed 2 t = ((cfg15.win 2).blk t).view.read (Elt Ideal)
      (matProd (M := 25000) (K := 64) (N := 64) (V c main_v400_0) (V c main_v343)) := by
  show (cfg15.win 2).cut (grid15.coords t) ((dat15 V c).after 2 t) = _
  rw [after15_2]
  unfold out15_2
  rw [View.canon_unit_zero linear15_zero_offsets]
  simp only [View.ld_unit_zero (S := S5000x64) linear15_zero_offsets, View.ld_unit_zero (S := S64x64) linear15_zero_offsets]
  rw [linear15_band_product]
  obtain ⟨e0, e1, e2, e3, e4, e5⟩ := linear15_index_maps t
  funext y
  have hy0 : (y 0).val < 5000 := (y 0).isLt
  have hy1 : (y 1).val < 64 := (y 1).isLt
  show matProd (M := 5000) (K := 64) (N := 64) (iblk15 V c 0 t) (iblk15 V c 1 t) ((cfg15.win 2).xinj (grid15.coords t) y)
    = matProd (M := 25000) (K := 64) (N := 64) (V c main_v400_0) (V c main_v343) (((cfg15.win 2).blk t).view.emb y)
  refine matProd_block_idx _ _ _ _ _ _ (fun k => ?_) (fun k => ?_)
  · -- row (y 0) of the band of x, at column k, is row 5000 t + (y 0) of x at column k
    show V c main_v400_0 (((cfg15.win 0).blk t).view.emb (ix2 ⟨(y 0).val, hy0⟩ k)) = V c main_v400_0 _
    refine congrArg (V c main_v400_0) (funext fun a => Fin.ext ?_)
    match a with
    | ⟨0, _⟩ =>
      show win15_0.index t (0 : Fin 2) * 5000 + 1 * (y 0).val = win15_2.index t (0 : Fin 2) * 5000 + 1 * (y 0).val
      omega
    | ⟨1, _⟩ =>
      show win15_0.index t (1 : Fin 2) * 64 + 1 * k.val = k.val
      omega
  · -- row k of the block of w, at column (y 1), is row k of w at column (y 1)
    show V c main_v343 (((cfg15.win 1).blk t).view.emb (ix2 k ⟨(y 1).val, hy1⟩)) = V c main_v343 _
    refine congrArg (V c main_v343) (funext fun a => Fin.ext ?_)
    match a with
    | ⟨0, _⟩ =>
      show win15_1.index t (0 : Fin 2) * 64 + 1 * k.val = k.val
      omega
    | ⟨1, _⟩ =>
      show win15_1.index t (1 : Fin 2) * 64 + 1 * (y 1).val = win15_2.index t (1 : Fin 2) * 64 + 1 * (y 1).val
      omega

/-- An index of y is in band t's block exactly when each of its coordinates is in the block's range on that axis. -/
theorem linear15_mem_band (t : Fin cfg15.N) (i : S25000x64.Idx) :
    i ∈ ((cfg15.win 2).blk t).view.set ↔ ∀ a : Fin 2, win15_2.index t a * S5000x64.size a ≤ (i a).val
      ∧ (i a).val < win15_2.index t a * S5000x64.size a + S5000x64.size a := by
  show i ∈ ((View.whole main_v401).slice (win15_2.rect t)).set ↔ _
  rw [View.set_slice_whole, Rect.mem_set_unit]
  exact Iff.rfl

/-- Every index of y is in some band's block: row r is in band r / 5000, and every band spans all 64 columns. -/
theorem linear15_rows_covered (i : S25000x64.Idx) :
    ∃ t : Fin cfg15.N, (cfg15.win 2).flush t = true ∧ i ∈ ((cfg15.win 2).blk t).view.set := by
  have hi0 : (i 0).val < 25000 := (i 0).isLt
  have hi1 : (i 1).val < 64 := (i 1).isLt
  have hlt : (i 0).val / 5000 < grid15.N := by rw [N_15]; omega
  obtain ⟨t, ht⟩ : ∃ t : Fin cfg15.N, t.val = (i 0).val / 5000 := ⟨⟨(i 0).val / 5000, hlt⟩, rfl⟩
  obtain ⟨e0, e1, e2, e3, e4, e5⟩ := linear15_index_maps t
  refine ⟨t, flush15_2 t, ?_⟩
  rw [linear15_mem_band]
  intro a
  match a with
  | ⟨0, _⟩ =>
    show win15_2.index t (0 : Fin 2) * 5000 ≤ (i 0).val ∧ (i 0).val < win15_2.index t (0 : Fin 2) * 5000 + 5000
    omega
  | ⟨1, _⟩ =>
    show win15_2.index t (1 : Fin 2) * 64 ≤ (i 1).val ∧ (i 1).val < win15_2.index t (1 : Fin 2) * 64 + 64
    omega

/-- After the region, y is x w: each band writes its band of x w, and the bands hold every index of y. -/
theorem linear15 (c : Dev nD) :
    (dat15 V c).arrAt 2 cfg15.N
      = Host.dotGeneral (F := Ideal) (φ₁ := .f32) (φ₂ := .f32) (DotDims.plain 25000 64 64) none (V c main_v400_0) (V c main_v343) := by
  refine ((dat15 V c).arrAt_eq_of_cover 2 (matProd (M := 25000) (K := 64) (N := 64) (V c main_v400_0) (V c main_v343))
    (fun t _ => linear15_band_written V c t) linear15_rows_covered).trans ?_
  exact (dotGeneral_plain_eq (M := 25000) (K := 64) (N := 64) (φ₁ := .f32) (φ₂ := .f32) none (V c main_v400_0) (V c main_v343)).symm

end Cert.KernelIdeal.RegionValue

end
-- ==== Proof.FinalizeRegion16.lean ====
/-
  The finalize region of the graph network on 25000 rows, launch 16, as one function of the arrays it reads.

  The region walks the rows in 5 bands of 5000. At band t it reads rows [5000 t, 5000 t + 5000) of the scattered
  neighbour sums s, of the projected features h, of the degree column d and of the running mixture acc, and the whole
  bias row b and the one coefficient f; it writes the same rows of two results,
      u   = tanh (s + h (d d) + b)          (entry (r, q) reads d in row r and b in column q)
      acc' = acc + f u.
  Every entry of a result depends on its own row only, so band t of either result is band t of the same expression
  taken over the whole arrays; the 5 bands tile the 25000 rows (row r lies in band r / 5000), hence after the region
  the two result arrays are the whole-array expressions Cert.Gnn.convOut and Cert.Gnn.mix.
-/
import proofs.«418542_j22608707846200_1_alg».proof.Proof.KernelIdealFrameRegions2
import proofs.«418542_j22608707846200_1_alg».proof.Proof.GnnOps
import proofs.«418542_j22608707846200_1_alg».proof.Proof.FinalizeOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.KernelIdeal.FinalizeOps

variable (V : (c : Dev nD) → (b : Ref sig .tc) → Buf (Elt Ideal) ((c : Thread nD τ).loc b))

namespace Finalize16

/-! ## One band: the body's two results entry by entry -/

/-- The first result of a band at (p, q): tanh (s + h (d d) + b), d read in the band's row p, b in column q. -/
theorem convBand_apply (x0 x1 : Vec Ideal S5000x64 .f32) (x2 : Vec Ideal S5000x1 .f32) (x3 : Vec Ideal S1x64 .f32)
    (p : Fin 5000) (q : Fin 64) :
    k16_pay1 x2 x0 x1 x3 (ix2 p q)
      = Ideal.tanh (x0 (ix2 p q) + x1 (ix2 p q) * (x2 (ix2 p (0 : Fin 1)) * x2 (ix2 p (0 : Fin 1))) + x3 (ix2 (0 : Fin 1) q)) := by
  unfold k16_pay1 Idealize.ShloMosaic.tanh
  simp only [shapeCast_self, addf_apply, mulf_apply, Ideal.tanh_def]
  rw [broadcastTo_col_apply _ _ p q, broadcastTo_1b_ab_apply _ _ p q, mulf_apply]

/-- The second result of a band at (p, q): acc + f u, f the one entry of the 1 x 1 coefficient, u the first result. -/
theorem mixBand_apply (x0 x1 : Vec Ideal S5000x64 .f32) (x2 : Vec Ideal S5000x1 .f32) (x3 : Vec Ideal S1x64 .f32)
    (x5 : Vec Ideal S5000x64 .f32) (x4 : Vec Ideal S1x1 .f32) (p : Fin 5000) (q : Fin 64) :
    k16_pay2 x2 x0 x1 x3 x5 x4 (ix2 p q)
      = x5 (ix2 p q) + x4 (ix2 (0 : Fin 1) (0 : Fin 1)) * k16_pay1 x2 x0 x1 x3 (ix2 p q) := by
  unfold k16_pay2
  simp only [shapeCast_self, addf_apply, mulf_apply, broadcast_apply]
  rw [extractAt_origin]

/-- A band's first result at (p, q) is the whole-array expression at (r, q), once the band's operands are the
    whole arrays' entries of row r (the bias row read whole). -/
theorem convBand_eq (hc : S25000x1.BroadcastsInDim S25000x64 (![0, 1] : Fin 2 → Fin 2))
    (hb : S1x64.BroadcastsInDim S25000x64 (![0, 1] : Fin 2 → Fin 2))
    (s h : FVec Ideal S25000x64 .f32) (d : FVec Ideal S25000x1 .f32) (b : FVec Ideal S1x64 .f32)
    (x0 x1 : Vec Ideal S5000x64 .f32) (x2 : Vec Ideal S5000x1 .f32) (x3 : Vec Ideal S1x64 .f32)
    (p : Fin 5000) (q : Fin 64) (r : Fin 25000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k16_pay1 x2 x0 x1 x3 (ix2 p q) = Cert.Gnn.convOut hc hb s h d b (ix2 r q) := by
  rw [convBand_apply, convOut_ix2, h0, h1, h2, h3]

/-- A band's second result at (p, q) is the whole-array mixture at (r, q), under the same reading of the operands. -/
theorem mixBand_eq (hc : S25000x1.BroadcastsInDim S25000x64 (![0, 1] : Fin 2 → Fin 2))
    (hb : S1x64.BroadcastsInDim S25000x64 (![0, 1] : Fin 2 → Fin 2))
    (hs : S_.BroadcastsInDim S25000x64 (![] : Fin 0 → Fin 2)) (h11 : S1x1.ShapeCasts S_)
    (s h : FVec Ideal S25000x64 .f32) (d : FVec Ideal S25000x1 .f32) (b : FVec Ideal S1x64 .f32)
    (f : FVec Ideal S1x1 .f32) (acc : FVec Ideal S25000x64 .f32)
    (x0 x1 : Vec Ideal S5000x64 .f32) (x2 : Vec Ideal S5000x1 .f32) (x3 : Vec Ideal S1x64 .f32)
    (x4 : Vec Ideal S1x1 .f32) (x5 : Vec Ideal S5000x64 .f32)
    (p : Fin 5000) (q : Fin 64) (r : Fin 25000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q))
    (h4 : x4 (ix2 (0 : Fin 1) (0 : Fin 1)) = f (ix2 (0 : Fin 1) (0 : Fin 1))) (h5 : x5 (ix2 p q) = acc (ix2 r q)) :
    k16_pay2 x2 x0 x1 x3 x5 x4 (ix2 p q)
      = Cert.Gnn.mix hs acc (Cert.Gnn.convOut hc hb s h d b) (shapeCast S_ f h11) (ix2 r q) := by
  rw [mixBand_apply, mix_ix2, shapeCast_unit_scalar_apply, convBand_eq hc hb s h d b x0 x1 x2 x3 p q r h0 h1 h2 h3, h4, h5]

/-! ## Where band t sits in each array -/

theorem zeroOffsets : (![0, 0] : Fin 2 → Nat) = fun _ => 0 := funext fun a => by fin_cases a <;> rfl

/-- The windows' index maps over the 5 bands: every row-shaped window is at row block t, column block 0; the bias row
    and the coefficient stay at block (0, 0). -/
theorem bandIndex : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = t.val ∧ win16_5.index t (1 : Fin 2) = 0
    ∧ win16_6.index t (0 : Fin 2) = t.val ∧ win16_6.index t (1 : Fin 2) = 0
    ∧ win16_7.index t (0 : Fin 2) = t.val ∧ win16_7.index t (1 : Fin 2) = 0 :=
  (by decide +kernel : ∀ t : Fin grid16.N, _)

theorem band_lt (t : Fin cfg16.N) : t.val < 5 := lt_of_lt_of_eq t.isLt N_16

/-- Row p of band t is row 5000 t + p of the array. -/
abbrev row (t : Fin cfg16.N) (p : Fin 5000) : Fin 25000 := ⟨t.val * 5000 + p.val, by have := band_lt t; have := p.isLt; omega⟩

theorem emb_s (t : Fin cfg16.N) (p : Fin 5000) (q : Fin 64) :
    ((cfg16.win 0).blk t).view.emb (ix2 p q) = ix2 (row t p) q := by
  obtain ⟨e0, e1, -⟩ := bandIndex t
  funext a; apply Fin.ext
  match a with
  | ⟨0, _⟩ => show win16_0.index t (0 : Fin 2) * 5000 + 1 * p.val = t.val * 5000 + p.val; omega
  | ⟨1, _⟩ => show win16_0.index t (1 : Fin 2) * 64 + 1 * q.val = q.val; omega

theorem emb_h (t : Fin cfg16.N) (p : Fin 5000) (q : Fin 64) :
    ((cfg16.win 1).blk t).view.emb (ix2 p q) = ix2 (row t p) q := by
  obtain ⟨-, -, e0, e1, -⟩ := bandIndex t
  funext a; apply Fin.ext
  match a with
  | ⟨0, _⟩ => show win16_1.index t (0 : Fin 2) * 5000 + 1 * p.val = t.val * 5000 + p.val; omega
  | ⟨1, _⟩ => show win16_1.index t (1 : Fin 2) * 64 + 1 * q.val = q.val; omega

theorem emb_d (t : Fin cfg16.N) (p : Fin 5000) :
    ((cfg16.win 2).blk t).view.emb (ix2 p (0 : Fin 1)) = ix2 (row t p) (0 : Fin 1) := by
  obtain ⟨-, -, -, -, e0, e1, -⟩ := bandIndex t
  funext a; apply Fin.ext
  match a with
  | ⟨0, _⟩ => show win16_2.index t (0 : Fin 2) * 5000 + 1 * p.val = t.val * 5000 + p.val; omega
  | ⟨1, _⟩ => show win16_2.index t (1 : Fin 2) * 1 + 1 * 0 = 0; omega

theorem emb_b (t : Fin cfg16.N) (q : Fin 64) :
    ((cfg16.win 3).blk t).view.emb (ix2 (0 : Fin 1) q) = ix2 (0 : Fin 1) q := by
  obtain ⟨-, -, -, -, -, -, e0, e1, -⟩ := bandIndex t
  funext a; apply Fin.ext
  match a with
  | ⟨0, _⟩ => show win16_3.index t (0 : Fin 2) * 1 + 1 * 0 = 0; omega
  | ⟨1, _⟩ => show win16_3.index t (1 : Fin 2) * 64 + 1 * q.val = q.val; omega

theorem emb_f (t : Fin cfg16.N) :
    ((cfg16.win 4).blk t).view.emb (ix2 (0 : Fin 1) (0 : Fin 1)) = ix2 (0 : Fin 1) (0 : Fin 1) := by
  obtain ⟨-, -, -, -, -, -, -, -, e0, e1, -⟩ := bandIndex t
  funext a; apply Fin.ext
  match a with
  | ⟨0, _⟩ => show win16_4.index t (0 : Fin 2) * 1 + 1 * 0 = 0; omega
  | ⟨1, _⟩ => show win16_4.index t (1 : Fin 2) * 1 + 1 * 0 = 0; omega

theorem emb_acc (t : Fin cfg16.N) (p : Fin 5000) (q : Fin 64) :
    ((cfg16.win 5).blk t).view.emb (ix2 p q) = ix2 (row t p) q := by
  obtain ⟨-, -, -, -, -, -, -, -, -, -, e0, e1, -⟩ := bandIndex t
  funext a; apply Fin.ext
  match a with
  | ⟨0, _⟩ => show win16_5.index t (0 : Fin 2) * 5000 + 1 * p.val = t.val * 5000 + p.val; omega
  | ⟨1, _⟩ => show win16_5.index t (1 : Fin 2) * 64 + 1 * q.val = q.val; omega

theorem emb_u (t : Fin cfg16.N) (p : Fin 5000) (q : Fin 64) :
    ((cfg16.win 6).blk t).view.emb (ix2 p q) = ix2 (row t p) q := by
  obtain ⟨-, -, -, -, -, -, -, -, -, -, -, -, e0, e1, -⟩ := bandIndex t
  funext a; apply Fin.ext
  match a with
  | ⟨0, _⟩ => show win16_6.index t (0 : Fin 2) * 5000 + 1 * p.val = t.val * 5000 + p.val; omega
  | ⟨1, _⟩ => show win16_6.index t (1 : Fin 2) * 64 + 1 * q.val = q.val; omega

theorem emb_acc' (t : Fin cfg16.N) (p : Fin 5000) (q : Fin 64) :
    ((cfg16.win 7).blk t).view.emb (ix2 p q) = ix2 (row t p) q := by
  obtain ⟨-, -, -, -, -, -, -, -, -, -, -, -, -, -, e0, e1⟩ := bandIndex t
  funext a; apply Fin.ext
  match a with
  | ⟨0, _⟩ => show win16_7.index t (0 : Fin 2) * 5000 + 1 * p.val = t.val * 5000 + p.val; omega
  | ⟨1, _⟩ => show win16_7.index t (1 : Fin 2) * 64 + 1 * q.val = q.val; omega

/-! ## What band t writes back is band t of the whole-array expressions -/

theorem flushed_u (c : Dev nD) (t : Fin cfg16.N)
    (hc : S25000x1.BroadcastsInDim S25000x64 (![0, 1] : Fin 2 → Fin 2))
    (hb : S1x64.BroadcastsInDim S25000x64 (![0, 1] : Fin 2 → Fin 2)) :
    (dat16 V c).flushed 6 t = ((cfg16.win 6).blk t).view.read (Elt Ideal)
      (Cert.Gnn.convOut hc hb (V c main_v446) (V c main_v401) (V c main_v450) (V c main_v349)) := by
  show (cfg16.win 6).cut (grid16.coords t) ((dat16 V c).after 6 t) = _
  rw [after16_6]
  unfold out16_6
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k16_pay1 (iblk16 V c 2 t) (iblk16 V c 0 t) (iblk16 V c 1 t) (iblk16 V c 3 t) (ix2 p q)
    = Cert.Gnn.convOut hc hb (V c main_v446) (V c main_v401) (V c main_v450) (V c main_v349) (((cfg16.win 6).blk t).view.emb (ix2 p q))
  rw [emb_u t p q]
  exact convBand_eq hc hb (V c main_v446) (V c main_v401) (V c main_v450) (V c main_v349)
    (iblk16 V c 0 t) (iblk16 V c 1 t) (iblk16 V c 2 t) (iblk16 V c 3 t) p q (row t p)
    (congrArg (V c main_v446) (emb_s t p q)) (congrArg (V c main_v401) (emb_h t p q))
    (congrArg (V c main_v450) (emb_d t p)) (congrArg (V c main_v349) (emb_b t q))

theorem flushed_acc (c : Dev nD) (t : Fin cfg16.N)
    (hc : S25000x1.BroadcastsInDim S25000x64 (![0, 1] : Fin 2 → Fin 2))
    (hb : S1x64.BroadcastsInDim S25000x64 (![0, 1] : Fin 2 → Fin 2))
    (hs : S_.BroadcastsInDim S25000x64 (![] : Fin 0 → Fin 2)) (h11 : S1x1.ShapeCasts S_) :
    (dat16 V c).flushed 7 t = ((cfg16.win 7).blk t).view.read (Elt Ideal)
      (Cert.Gnn.mix hs (V c main_v400_1)
        (Cert.Gnn.convOut hc hb (V c main_v446) (V c main_v401) (V c main_v450) (V c main_v349))
        (shapeCast S_ (V c main_v449) h11)) := by
  show (cfg16.win 7).cut (grid16.coords t) ((dat16 V c).after 7 t) = _
  rw [after16_7]
  unfold out16_7
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S1x1) zeroOffsets]
  funext j
  obtain ⟨p, q, rfl⟩ : ∃ (p : Fin 5000) (q : Fin 64), j = ix2 p q := ⟨j 0, j 1, eq_ix2 j⟩
  show k16_pay2 (iblk16 V c 2 t) (iblk16 V c 0 t) (iblk16 V c 1 t) (iblk16 V c 3 t) (iblk16 V c 5 t) (iblk16 V c 4 t) (ix2 p q)
    = Cert.Gnn.mix hs (V c main_v400_1)
        (Cert.Gnn.convOut hc hb (V c main_v446) (V c main_v401) (V c main_v450) (V c main_v349))
        (shapeCast S_ (V c main_v449) h11) (((cfg16.win 7).blk t).view.emb (ix2 p q))
  rw [emb_acc' t p q]
  exact mixBand_eq hc hb hs h11 (V c main_v446) (V c main_v401) (V c main_v450) (V c main_v349) (V c main_v449) (V c main_v400_1)
    (iblk16 V c 0 t) (iblk16 V c 1 t) (iblk16 V c 2 t) (iblk16 V c 3 t) (iblk16 V c 4 t) (iblk16 V c 5 t) p q (row t p)
    (congrArg (V c main_v446) (emb_s t p q)) (congrArg (V c main_v401) (emb_h t p q))
    (congrArg (V c main_v450) (emb_d t p)) (congrArg (V c main_v349) (emb_b t q))
    (congrArg (V c main_v449) (emb_f t)) (congrArg (V c main_v400_1) (emb_acc t p q))

/-! ## The 5 bands tile the rows -/

/-- The band of a row: r / 5000. -/
abbrev bandOf (i : S25000x64.Idx) : Fin cfg16.N :=
  ⟨(i 0).val / 5000, by rw [show cfg16.N = 5 from N_16]; have : (i 0).val < 25000 := (i 0).isLt; omega⟩

/-- An index of the first result's array is in band t's block iff each coordinate is in the block's range. -/
theorem mem_band_u (t : Fin cfg16.N) (i : S25000x64.Idx) :
    i ∈ ((cfg16.win 6).blk t).view.set ↔ ∀ a : Fin 2, win16_6.index t a * S5000x64.size a ≤ (i a).val ∧ (i a).val < win16_6.index t a * S5000x64.size a + S5000x64.size a := by
  show i ∈ ((View.whole main_v451_0).slice (win16_6.rect t)).set ↔ _
  rw [View.set_slice_whole, Rect.mem_set_unit]
  exact Iff.rfl

theorem mem_band_acc (t : Fin cfg16.N) (i : S25000x64.Idx) :
    i ∈ ((cfg16.win 7).blk t).view.set ↔ ∀ a : Fin 2, win16_7.index t a * S5000x64.size a ≤ (i a).val ∧ (i a).val < win16_7.index t a * S5000x64.size a + S5000x64.size a := by
  show i ∈ ((View.whole main_v451_1).slice (win16_7.rect t)).set ↔ _
  rw [View.set_slice_whole, Rect.mem_set_unit]
  exact Iff.rfl

/-- Every entry of the first result's array lies in the block of its row's band. -/
theorem cover_u (i : S25000x64.Idx) :
    ∃ t : Fin cfg16.N, (cfg16.win 6).flush t = true ∧ i ∈ ((cfg16.win 6).blk t).view.set := by
  have hi0 : (i 0).val < 25000 := (i 0).isLt
  have hi1 : (i 1).val < 64 := (i 1).isLt
  obtain ⟨-, -, -, -, -, -, -, -, -, -, -, -, e0, e1, -⟩ := bandIndex (bandOf i)
  have hv : (bandOf i).val = (i 0).val / 5000 := rfl
  refine ⟨bandOf i, flush16_6 _, ?_⟩
  rw [mem_band_u]
  intro a
  match a with
  | ⟨0, _⟩ => show win16_6.index (bandOf i) (0 : Fin 2) * 5000 ≤ (i 0).val ∧ (i 0).val < win16_6.index (bandOf i) (0 : Fin 2) * 5000 + 5000; omega
  | ⟨1, _⟩ => show win16_6.index (bandOf i) (1 : Fin 2) * 64 ≤ (i 1).val ∧ (i 1).val < win16_6.index (bandOf i) (1 : Fin 2) * 64 + 64; omega

/-- Every entry of the second result's array lies in the block of its row's band. -/
theorem cover_acc (i : S25000x64.Idx) :
    ∃ t : Fin cfg16.N, (cfg16.win 7).flush t = true ∧ i ∈ ((cfg16.win 7).blk t).view.set := by
  have hi0 : (i 0).val < 25000 := (i 0).isLt
  have hi1 : (i 1).val < 64 := (i 1).isLt
  obtain ⟨-, -, -, -, -, -, -, -, -, -, -, -, -, -, e0, e1⟩ := bandIndex (bandOf i)
  have hv : (bandOf i).val = (i 0).val / 5000 := rfl
  refine ⟨bandOf i, flush16_7 _, ?_⟩
  rw [mem_band_acc]
  intro a
  match a with
  | ⟨0, _⟩ => show win16_7.index (bandOf i) (0 : Fin 2) * 5000 ≤ (i 0).val ∧ (i 0).val < win16_7.index (bandOf i) (0 : Fin 2) * 5000 + 5000; omega
  | ⟨1, _⟩ => show win16_7.index (bandOf i) (1 : Fin 2) * 64 ≤ (i 1).val ∧ (i 1).val < win16_7.index (bandOf i) (1 : Fin 2) * 64 + 64; omega

end Finalize16

/-! ## The two result arrays after the region -/

/-- After the region the first result's array is tanh (s + h (d d) + b) of the whole arrays. -/
theorem finalize16_h (c : Dev nD)
    (hc : S25000x1.BroadcastsInDim S25000x64 (![0, 1] : Fin 2 → Fin 2)) (hb : S1x64.BroadcastsInDim S25000x64 (![0, 1] : Fin 2 → Fin 2)) :
    (dat16 V c).arrAt 6 cfg16.N = Cert.Gnn.convOut hc hb (V c main_v446) (V c main_v401) (V c main_v450) (V c main_v349) :=
  (dat16 V c).arrAt_eq_of_cover 6 _ (fun t _ => Finalize16.flushed_u V c t hc hb) Finalize16.cover_u

/-- After the region the second result's array is acc + f u of the whole arrays, u the first result. -/
theorem finalize16_acc (c : Dev nD)
    (hc : S25000x1.BroadcastsInDim S25000x64 (![0, 1] : Fin 2 → Fin 2)) (hb : S1x64.BroadcastsInDim S25000x64 (![0, 1] : Fin 2 → Fin 2))
    (hs : S_.BroadcastsInDim S25000x64 (![] : Fin 0 → Fin 2)) (h11 : S1x1.ShapeCasts S_) :
    (dat16 V c).arrAt 7 cfg16.N = Cert.Gnn.mix hs (V c main_v400_1) (Cert.Gnn.convOut hc hb (V c main_v446) (V c main_v401) (V c main_v450) (V c main_v349)) (shapeCast S_ (V c main_v449) h11) :=
  (dat16 V c).arrAt_eq_of_cover 7 _ (fun t _ => Finalize16.flushed_acc V c t hc hb hs h11) Finalize16.cover_acc

end Cert.KernelIdeal.RegionValue

end
-- ==== Proof.LinearRegion17.lean ====
/-
  A linear layer without bias over 25000 rows: y = x w, with x of 25000 rows by 64 features and w a 64 by 64 weight.

  The region walks the rows in 5 bands of 5000. At band t it reads rows 5000 t to 5000 t + 4999 of x and the whole of w,
  multiplies the band by w, and writes the 5000 by 64 result to the same rows of y. Entry (r, q) of a product is the sum
  over k of x[r, k] w[k, q]: it reads row r of the left factor only, so the product of a band of rows with w is that same
  band of rows of x w. The 5 bands hold every row between them, so once the region is through, y is x w.
-/
import proofs.«418542_j22608707846200_1_alg».proof.Proof.KernelIdealFrameRegions2
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct

variable (V : (c : Dev nD) → (b : Ref sig .tc) → Buf (Elt Ideal) ((c : Thread nD τ).loc b))

/-- The body reads and writes each of its blocks whole: from offset 0 on both axes. -/
theorem linear17_zero_offsets : (![0, 0] : Fin 2 → Nat) = fun _ => 0 := funext fun a => by fin_cases a <;> rfl

/-- What the body computes from a band x0 of 5000 rows and the weight x1: the product x0 x1. Its two reshapes are to the
    shape their operand already has, and the accumulator the product is added to is zero everywhere. -/
theorem linear17_band_product (x0 : Vec Ideal S5000x64 .f32) (x1 : Vec Ideal S64x64 .f32) :
    k17_pay1 x0 x1 = matProd (M := 5000) (K := 64) (N := 64) x0 x1 := by
  unfold k17_pay1
  simp only [shapeCast_self]
  exact matmul_plain_zero_eq (M := 5000) (K := 64) (N := 64) (φ₁ := .f32) (φ₂ := .f32) none x0 x1

/-- Where the blocks sit, band by band (decided over the 5 bands): at band t the blocks of x and of y are block t down
    the rows and block 0 across the columns, and the block of w is block (0, 0), the whole of w. -/
theorem linear17_index_maps : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

/-- What band t writes back is band t of x w: row p of the band of x is row 5000 t + p of x, the block of w is w, and a
    row of a product reads that row of the left factor only. -/
theorem linear17_band_written (c : Dev nD) (t : Fin cfg17.N) :
    (dat17 V c).flushed 2 t = ((cfg17.win 2).blk t).view.read (Elt Ideal)
      (matProd (M := 25000) (K := 64) (N := 64) (V c main_v451_0) (V c main_v343)) := by
  show (cfg17.win 2).cut (grid17.coords t) ((dat17 V c).after 2 t) = _
  rw [after17_2]
  unfold out17_2
  rw [View.canon_unit_zero linear17_zero_offsets]
  simp only [View.ld_unit_zero (S := S5000x64) linear17_zero_offsets, View.ld_unit_zero (S := S64x64) linear17_zero_offsets]
  rw [linear17_band_product]
  obtain ⟨e0, e1, e2, e3, e4, e5⟩ := linear17_index_maps t
  funext y
  have hy0 : (y 0).val < 5000 := (y 0).isLt
  have hy1 : (y 1).val < 64 := (y 1).isLt
  show matProd (M := 5000) (K := 64) (N := 64) (iblk17 V c 0 t) (iblk17 V c 1 t) ((cfg17.win 2).xinj (grid17.coords t) y)
    = matProd (M := 25000) (K := 64) (N := 64) (V c main_v451_0) (V c main_v343) (((cfg17.win 2).blk t).view.emb y)
  refine matProd_block_idx _ _ _ _ _ _ (fun k => ?_) (fun k => ?_)
  · -- row (y 0) of the band of x, at column k, is row 5000 t + (y 0) of x at column k
    show V c main_v451_0 (((cfg17.win 0).blk t).view.emb (ix2 ⟨(y 0).val, hy0⟩ k)) = V c main_v451_0 _
    refine congrArg (V c main_v451_0) (funext fun a => Fin.ext ?_)
    match a with
    | ⟨0, _⟩ =>
      show win17_0.index t (0 : Fin 2) * 5000 + 1 * (y 0).val = win17_2.index t (0 : Fin 2) * 5000 + 1 * (y 0).val
      omega
    | ⟨1, _⟩ =>
      show win17_0.index t (1 : Fin 2) * 64 + 1 * k.val = k.val
      omega
  · -- row k of the block of w, at column (y 1), is row k of w at column (y 1)
    show V c main_v343 (((cfg17.win 1).blk t).view.emb (ix2 k ⟨(y 1).val, hy1⟩)) = V c main_v343 _
    refine congrArg (V c main_v343) (funext fun a => Fin.ext ?_)
    match a with
    | ⟨0, _⟩ =>
      show win17_1.index t (0 : Fin 2) * 64 + 1 * k.val = k.val
      omega
    | ⟨1, _⟩ =>
      show win17_1.index t (1 : Fin 2) * 64 + 1 * (y 1).val = win17_2.index t (1 : Fin 2) * 64 + 1 * (y 1).val
      omega

/-- An index of y is in band t's block exactly when each of its coordinates is in the block's range on that axis. -/
theorem linear17_mem_band (t : Fin cfg17.N) (i : S25000x64.Idx) :
    i ∈ ((cfg17.win 2).blk t).view.set ↔ ∀ a : Fin 2, win17_2.index t a * S5000x64.size a ≤ (i a).val
      ∧ (i a).val < win17_2.index t a * S5000x64.size a + S5000x64.size a := by
  show i ∈ ((View.whole main_v452).slice (win17_2.rect t)).set ↔ _
  rw [View.set_slice_whole, Rect.mem_set_unit]
  exact Iff.rfl

/-- Every index of y is in some band's block: row r is in band r / 5000, and every band spans all 64 columns. -/
theorem linear17_rows_covered (i : S25000x64.Idx) :
    ∃ t : Fin cfg17.N, (cfg17.win 2).flush t = true ∧ i ∈ ((cfg17.win 2).blk t).view.set := by
  have hi0 : (i 0).val < 25000 := (i 0).isLt
  have hi1 : (i 1).val < 64 := (i 1).isLt
  have hlt : (i 0).val / 5000 < grid17.N := by rw [N_17]; omega
  obtain ⟨t, ht⟩ : ∃ t : Fin cfg17.N, t.val = (i 0).val / 5000 := ⟨⟨(i 0).val / 5000, hlt⟩, rfl⟩
  obtain ⟨e0, e1, e2, e3, e4, e5⟩ := linear17_index_maps t
  refine ⟨t, flush17_2 t, ?_⟩
  rw [linear17_mem_band]
  intro a
  match a with
  | ⟨0, _⟩ =>
    show win17_2.index t (0 : Fin 2) * 5000 ≤ (i 0).val ∧ (i 0).val < win17_2.index t (0 : Fin 2) * 5000 + 5000
    omega
  | ⟨1, _⟩ =>
    show win17_2.index t (1 : Fin 2) * 64 ≤ (i 1).val ∧ (i 1).val < win17_2.index t (1 : Fin 2) * 64 + 64
    omega

/-- After the region, y is x w: each band writes its band of x w, and the bands hold every index of y. -/
theorem linear17 (c : Dev nD) :
    (dat17 V c).arrAt 2 cfg17.N
      = Host.dotGeneral (F := Ideal) (φ₁ := .f32) (φ₂ := .f32) (DotDims.plain 25000 64 64) none (V c main_v451_0) (V c main_v343) := by
  refine ((dat17 V c).arrAt_eq_of_cover 2 (matProd (M := 25000) (K := 64) (N := 64) (V c main_v451_0) (V c main_v343))
    (fun t _ => linear17_band_written V c t) linear17_rows_covered).trans ?_
  exact (dotGeneral_plain_eq (M := 25000) (K := 64) (N := 64) (φ₁ := .f32) (φ₂ := .f32) none (V c main_v451_0) (V c main_v343)).symm

end Cert.KernelIdeal.RegionValue

end
-- ==== Proof.FinalizeRegion18.lean ====
/-
  The finalize region of the graph network on 25000 rows, launch 18, as one function of the arrays it reads.

  The region walks the rows in 5 bands of 5000. At band t it reads rows [5000 t, 5000 t + 5000) of the scattered
  neighbour sums s, of the projected features h, of the degree column d and of the running mixture acc, and the whole
  bias row b and the one coefficient f; it writes the same rows of two results,
      u   = tanh (s + h (d d) + b)          (entry (r, q) reads d in row r and b in column q)
      acc' = acc + f u.
  Every entry of a result depends on its own row only, so band t of either result is band t of the same expression
  taken over the whole arrays; the 5 bands tile the 25000 rows (row r lies in band r / 5000), hence after the region
  the two result arrays are the whole-array expressions Cert.Gnn.convOut and Cert.Gnn.mix.
-/
import proofs.«418542_j22608707846200_1_alg».proof.Proof.KernelIdealFrameRegions2
import proofs.«418542_j22608707846200_1_alg».proof.Proof.GnnOps
import proofs.«418542_j22608707846200_1_alg».proof.Proof.FinalizeOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.KernelIdeal.FinalizeOps

variable (V : (c : Dev nD) → (b : Ref sig .tc) → Buf (Elt Ideal) ((c : Thread nD τ).loc b))

namespace Finalize18

/-! ## One band: the body's two results entry by entry -/

/-- The first result of a band at (p, q): tanh (s + h (d d) + b), d read in the band's row p, b in column q. -/
theorem convBand_apply (x0 x1 : Vec Ideal S5000x64 .f32) (x2 : Vec Ideal S5000x1 .f32) (x3 : Vec Ideal S1x64 .f32)
    (p : Fin 5000) (q : Fin 64) :
    k18_pay1 x2 x0 x1 x3 (ix2 p q)
      = Ideal.tanh (x0 (ix2 p q) + x1 (ix2 p q) * (x2 (ix2 p (0 : Fin 1)) * x2 (ix2 p (0 : Fin 1))) + x3 (ix2 (0 : Fin 1) q)) := by
  unfold k18_pay1 Idealize.ShloMosaic.tanh
  simp only [shapeCast_self, addf_apply, mulf_apply, Ideal.tanh_def]
  rw [broadcastTo_col_apply _ _ p q, broadcastTo_1b_ab_apply _ _ p q, mulf_apply]

/-- The second result of a band at (p, q): acc + f u, f the one entry of the 1 x 1 coefficient, u the first result. -/
theorem mixBand_apply (x0 x1 : Vec Ideal S5000x64 .f32) (x2 : Vec Ideal S5000x1 .f32) (x3 : Vec Ideal S1x64 .f32)
    (x5 : Vec Ideal S5000x64 .f32) (x4 : Vec Ideal S1x1 .f32) (p : Fin 5000) (q : Fin 64) :
    k18_pay2 x2 x0 x1 x3 x5 x4 (ix2 p q)
      = x5 (ix2 p q) + x4 (ix2 (0 : Fin 1) (0 : Fin 1)) * k18_pay1 x2 x0 x1 x3 (ix2 p q) := by
  unfold k18_pay2
  simp only [shapeCast_self, addf_apply, mulf_apply, broadcast_apply]
  rw [extractAt_origin]

/-- A band's first result at (p, q) is the whole-array expression at (r, q), once the band's operands are the
    whole arrays' entries of row r (the bias row read whole). -/
theorem convBand_eq (hc : S25000x1.BroadcastsInDim S25000x64 (![0, 1] : Fin 2 → Fin 2))
    (hb : S1x64.BroadcastsInDim S25000x64 (![0, 1] : Fin 2 → Fin 2))
    (s h : FVec Ideal S25000x64 .f32) (d : FVec Ideal S25000x1 .f32) (b : FVec Ideal S1x64 .f32)
    (x0 x1 : Vec Ideal S5000x64 .f32) (x2 : Vec Ideal S5000x1 .f32) (x3 : Vec Ideal S1x64 .f32)
    (p : Fin 5000) (q : Fin 64) (r : Fin 25000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q)) :
    k18_pay1 x2 x0 x1 x3 (ix2 p q) = Cert.Gnn.convOut hc hb s h d b (ix2 r q) := by
  rw [convBand_apply, convOut_ix2, h0, h1, h2, h3]

/-- A band's second result at (p, q) is the whole-array mixture at (r, q), under the same reading of the operands. -/
theorem mixBand_eq (hc : S25000x1.BroadcastsInDim S25000x64 (![0, 1] : Fin 2 → Fin 2))
    (hb : S1x64.BroadcastsInDim S25000x64 (![0, 1] : Fin 2 → Fin 2))
    (hs : S_.BroadcastsInDim S25000x64 (![] : Fin 0 → Fin 2)) (h11 : S1x1.ShapeCasts S_)
    (s h : FVec Ideal S25000x64 .f32) (d : FVec Ideal S25000x1 .f32) (b : FVec Ideal S1x64 .f32)
    (f : FVec Ideal S1x1 .f32) (acc : FVec Ideal S25000x64 .f32)
    (x0 x1 : Vec Ideal S5000x64 .f32) (x2 : Vec Ideal S5000x1 .f32) (x3 : Vec Ideal S1x64 .f32)
    (x4 : Vec Ideal S1x1 .f32) (x5 : Vec Ideal S5000x64 .f32)
    (p : Fin 5000) (q : Fin 64) (r : Fin 25000)
    (h0 : x0 (ix2 p q) = s (ix2 r q)) (h1 : x1 (ix2 p q) = h (ix2 r q))
    (h2 : x2 (ix2 p (0 : Fin 1)) = d (ix2 r (0 : Fin 1))) (h3 : x3 (ix2 (0 : Fin 1) q) = b (ix2 (0 : Fin 1) q))
    (h4 : x4 (ix2 (0 : Fin 1) (0 : Fin 1)) = f (ix2 (0 : Fin 1) (0 : Fin 1))) (h5 : x5 (ix2 p q) = acc (ix2 r q)) :
    k18_pay2 x2 x0 x1 x3 x5 x4 (ix2 p q)
      = Cert.Gnn.mix hs acc (Cert.Gnn.convOut hc hb s h d b) (shapeCast S_ f h11) (ix2 r q) := by
  rw [mixBand_apply, mix_ix2, shapeCast_unit_scalar_apply, convBand_eq hc hb s h d b x0 x1 x2 x3 p q r h0 h1 h2 h3, h4, h5]

/-! ## Where band t sits in each array -/

theorem zeroOffsets : (![0, 0] : Fin 2 → Nat) = fun _ => 0 := funext fun a => by fin_cases a <;> rfl

/-- The windows' index maps over the 5 bands: every row-shaped window is at row block t, column block 0; the bias row
    and the coefficient stay at block (0, 0). -/
theorem bandIndex : ∀ t : Fin cfg18.N,
    win18_0.index t (0 : Fin 2) = t.val ∧ win18_0.index t (1 : Fin 2) = 0
    ∧ win18_1.index t (0 : Fin 2) = t.val ∧ win18_1.index t (1 : Fin 2) = 0
    ∧ win18_2.index t (0 : Fin 2) = t.val ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = t.val ∧ win18_5.index t (1 : Fin 2) = 0
    ∧ win18_6.index t (0 : Fin 2) = t.val ∧ win18_6.index t (1 : Fin 2) = 0
    ∧ win18_7.index t (0 : Fin 2) = t.val ∧ win18_7.index t (1 : Fin 2) = 0 :=
  (by decide +kernel : ∀ t : Fin grid18.N, _)

theorem band_lt (t : Fin cfg18.N) : t.val < 5 := lt_of_lt_of_eq t.isLt N_18

/-- Row p of band t is row 5000 t + p of the array. -/
abbrev row (t : Fin cfg18.N) (p : Fin 5000) : Fin 25000 := ⟨t.val * 5000 + p.val, by have := band_lt t; have := p.isLt; omega⟩

theorem emb_s (t : Fin cfg18.N) (p : Fin 5000) (q : Fin 64) :
    ((cfg18.win 0).blk t).view.emb (ix2 p q) = ix2 (row t p) q := by
  obtain ⟨e0, e1, -⟩ := bandIndex t
  funext a; apply Fin.ext
  match a with
  | ⟨0, _⟩ => show win18_0.index t (0 : Fin 2) * 5000 + 1 * p.val = t.val * 5000 + p.val; omega
  | ⟨1, _⟩ => show win18_0.index t (1 : Fin 2) * 64 + 1 * q.val = q.val; omega

theorem emb_h (t : Fin cfg18.N) (p : Fin 5000) (q : Fin 64) :
    ((cfg18.win 1).blk t).view.emb (ix2 p q) = ix2 (row t p) q := by
  obtain ⟨-, -, e0, e1, -⟩ := bandIndex t
  funext a; apply Fin.ext
  match a with
  | ⟨0, _⟩ => show win18_1.index t (0 : Fin 2) * 5000 + 1 * p.val = t.val * 5000 + p.val; omega
  | ⟨1, _⟩ => show win18_1.index t (1 : Fin 2) * 64 + 1 * q.val = q.val; omega

theorem emb_d (t : Fin cfg18.N) (p : Fin 5000) :
    ((cfg18.win 2).blk t).view.emb (ix2 p (0 : Fin 1)) = ix2 (row t p) (0 : Fin 1) := by
  obtain ⟨-, -, -, -, e0, e1, -⟩ := bandIndex t
  funext a; apply Fin.ext
  match a with
  | ⟨0, _⟩ => show win18_2.index t (0 : Fin 2) * 5000 + 1 * p.val = t.val * 5000 + p.val; omega
  | ⟨1, _⟩ => show win18_2.index t (1 : Fin 2) * 1 + 1 * 0 = 0; omega

theorem emb_b (t : Fin cfg18.N) (q : Fin 64) :
    ((cfg18.win 3).blk t).view.emb (ix2 (0 : Fin 1) q) = ix2 (0 : Fin 1) q := by
  obtain ⟨-, -, -, -, -, -, e0, e1, -⟩ := bandIndex t
  funext a; apply Fin.ext
  match a with
  | ⟨0, _⟩ => show win18_3.index t (0 : Fin 2) * 1 + 1 * 0 = 0; omega
  | ⟨1, _⟩ => show win18_3.index t (1 : Fin 2) * 64 + 1 * q.val = q.val; omega

theorem emb_f (t : Fin cfg18.N) :
    ((cfg18.win 4).blk t).view.emb (ix2 (0 : Fin 1) (0 : Fin 1)) = ix2 (0 : Fin 1) (0 : Fin 1) := by
  obtain ⟨-, -, -, -, -, -, -, -, e0, e1, -⟩ := bandIndex t
  funext a; apply Fin.ext
  match a with
  | ⟨0, _⟩ => show win18_4.index t (0 : Fin 2) * 1 + 1 * 0 = 0; omega
  | ⟨1, _⟩ => show win18_4.index t (1 : Fin 2) * 1 + 1 * 0 = 0; omega

theorem emb_acc (t : Fin cfg18.N) (p : Fin 5000) (q : Fin 64) :
    ((cfg18.win 5).blk t).view.emb (ix2 p q) = ix2 (row t p) q := by
  obtain ⟨-, -, -, -, -, -, -, -, -, -, e0, e1, -⟩ := bandIndex t
  funext a; apply Fin.ext
  match a with
  | ⟨0, _⟩ => show win18_5.index t (0 : Fin 2) * 5000 + 1 * p.val = t.val * 5000 + p.val; omega
  | ⟨1, _⟩ => show win18_5.index t (1 : Fin 2) * 64 + 1 * q.val = q.val; omega

theorem emb_u (t : Fin cfg18.N) (p : Fin 5000) (q : Fin 64) :
    ((cfg18.win 6).blk t).view.emb (ix2 p q) = ix2 (row t p) q := by
  obtain ⟨-, -, -, -, -, -, -, -, -, -, -, -, e0, e1, -⟩ := bandIndex t
  funext a; apply Fin.ext
  match a with
  | ⟨0, _⟩ => show win18_6.index t (0 : Fin 2) * 5000 + 1 * p.val = t.val * 5000 + p.val; omega
  | ⟨1, _⟩ => show win18_6.index t (1 : Fin 2) * 64 + 1 * q.val = q.val; omega

theorem emb_acc' (t : Fin cfg18.N) (p : Fin 5000) (q : Fin 64) :
    ((cfg18.win 7).blk t).view.emb (ix2 p q) = ix2 (row t p) q := by
  obtain ⟨-, -, -, -, -, -, -, -, -, -, -, -, -, -, e0, e1⟩ := bandIndex t
  funext a; apply Fin.ext
  match a with
  | ⟨0, _⟩ => show win18_7.index t (0 : Fin 2) * 5000 + 1 * p.val = t.val * 5000 + p.val; omega
  | ⟨1, _⟩ => show win18_7.index t (1 : Fin 2) * 64 + 1 * q.val = q.val; omega

/-! ## What band t writes back is band t of the whole-array expressions -/

theorem flushed_u (c : Dev nD) (t : Fin cfg18.N)
    (hc : S25000x1.BroadcastsInDim S25000x64 (![0, 1] : Fin 2 → Fin 2))
    (hb : S1x64.BroadcastsInDim S25000x64 (![0, 1] : Fin 2 → Fin 2)) :
    (dat18 V c).flushed 6 t = ((cfg18.win 6).blk t).view.read (Elt Ideal)
      (Cert.Gnn.convOut hc hb (V c main_v497) (V c main_v452) (V c main_v501) (V c main_v349)) := by
  show (cfg18.win 6).cut (grid18.coords t) ((dat18 V c).after 6 t) = _
  rw [after18_6]
  unfold out18_6
  rw [View.canon_unit_zero zeroOffsets]
  simp only [View.ld_unit_zero (S := S5000x64) zeroOffsets, View.ld_unit_zero (S := S5000x1) zeroOffsets,
    View.ld_unit_zero (S := S1x64) zeroOffsets]
  funext j
  obtain ⟨p, q, rfl⟩ : ∃ (p : Fin 5000) (q : Fin 64), j = ix2 p q := ⟨j 0, j 1, eq_ix2 j⟩
  show k18_pay1 (iblk18 V c 2 t) (iblk18 V c 0 t) (iblk18 V c 1 t) (iblk18 V c 3 t) (ix2 p q)
    = Cert.Gnn.convOut hc hb (V c main_v497) (V c main_v452) (V c main_v501) (V c main_v349) (((cfg18.win 6).blk t).view.emb (ix2 p q))
  rw [emb_u t p q]
  exact convBand_eq hc hb (V c main_v497) (V c main_v452) (V c main_v501) (V c main_v349)
    (iblk18 V c 0 t) (iblk18 V c 1 t) (iblk18 V c 2 t) (iblk18 V c 3 t) p q (row t p)
    (congrArg (V c main_v497) (emb_s t p q)) (congrArg (V c main_v452) (emb_h t p q))
    (congrArg (V c main_v501) (emb_d t p)) (congrArg (V c main_v349) (emb_b t q))

theorem flushed_acc (c : Dev nD) (t : Fin cfg18.N)
    (hc : S25000x1.BroadcastsInDim S25000x64 (![0, 1] : Fin 2 → Fin 2))
    (hb : S1x64.BroadcastsInDim S25000x64 (![0, 1] : Fin 2 → Fin 2))
    (hs : S_.BroadcastsInDim S25000x64 (![] : Fin 0 → Fin 2)) (h11 : S1x1.ShapeCasts S_) :
    (dat18 V c).flushed 7 t = ((cfg18.win 7).blk t).view.read (Elt Ideal)
      (Cert.Gnn.mix hs (V c main_v451_1)
        (Cert.Gnn.convOut hc hb (V c main_v497) (V c main_v452) (V c main_v501) (V c main_v349))
        (shapeCast S_ (V c main_v500) h11)) := by
  show (cfg18.win 7).cut (grid18.coords t) ((dat18 V c).after 7 t) = _
  rw [after18_7]
  unfold out18_7
  rw [View.canon_unit_zero zeroOffsets]
  simp only [View.ld_unit_zero (S := S5000x64) zeroOffsets, View.ld_unit_zero (S := S5000x1) zeroOffsets,
    View.ld_unit_zero (S := S1x64) zeroOffsets, View.ld_unit_zero (S := S1x1) zeroOffsets]
  funext j
  obtain ⟨p, q, rfl⟩ : ∃ (p : Fin 5000) (q : Fin 64), j = ix2 p q := ⟨j 0, j 1, eq_ix2 j⟩
  show k18_pay2 (iblk18 V c 2 t) (iblk18 V c 0 t) (iblk18 V c 1 t) (iblk18 V c 3 t) (iblk18 V c 5 t) (iblk18 V c 4 t) (ix2 p q)
    = Cert.Gnn.mix hs (V c main_v451_1)
        (Cert.Gnn.convOut hc hb (V c main_v497) (V c main_v452) (V c main_v501) (V c main_v349))
        (shapeCast S_ (V c main_v500) h11) (((cfg18.win 7).blk t).view.emb (ix2 p q))
  rw [emb_acc' t p q]
  exact mixBand_eq hc hb hs h11 (V c main_v497) (V c main_v452) (V c main_v501) (V c main_v349) (V c main_v500) (V c main_v451_1)
    (iblk18 V c 0 t) (iblk18 V c 1 t) (iblk18 V c 2 t) (iblk18 V c 3 t) (iblk18 V c 4 t) (iblk18 V c 5 t) p q (row t p)
    (congrArg (V c main_v497) (emb_s t p q)) (congrArg (V c main_v452) (emb_h t p q))
    (congrArg (V c main_v501) (emb_d t p)) (congrArg (V c main_v349) (emb_b t q))
    (congrArg (V c main_v500) (emb_f t)) (congrArg (V c main_v451_1) (emb_acc t p q))

/-! ## The 5 bands tile the rows -/

/-- The band of a row: r / 5000. -/
abbrev bandOf (i : S25000x64.Idx) : Fin cfg18.N :=
  ⟨(i 0).val / 5000, by rw [show cfg18.N = 5 from N_18]; have : (i 0).val < 25000 := (i 0).isLt; omega⟩

/-- An index of the first result's array is in band t's block iff each coordinate is in the block's range. -/
theorem mem_band_u (t : Fin cfg18.N) (i : S25000x64.Idx) :
    i ∈ ((cfg18.win 6).blk t).view.set ↔ ∀ a : Fin 2, win18_6.index t a * S5000x64.size a ≤ (i a).val ∧ (i a).val < win18_6.index t a * S5000x64.size a + S5000x64.size a := by
  show i ∈ ((View.whole main_v502_0).slice (win18_6.rect t)).set ↔ _
  rw [View.set_slice_whole, Rect.mem_set_unit]
  exact Iff.rfl

theorem mem_band_acc (t : Fin cfg18.N) (i : S25000x64.Idx) :
    i ∈ ((cfg18.win 7).blk t).view.set ↔ ∀ a : Fin 2, win18_7.index t a * S5000x64.size a ≤ (i a).val ∧ (i a).val < win18_7.index t a * S5000x64.size a + S5000x64.size a := by
  show i ∈ ((View.whole main_v502_1).slice (win18_7.rect t)).set ↔ _
  rw [View.set_slice_whole, Rect.mem_set_unit]
  exact Iff.rfl

/-- Every entry of the first result's array lies in the block of its row's band. -/
theorem cover_u (i : S25000x64.Idx) :
    ∃ t : Fin cfg18.N, (cfg18.win 6).flush t = true ∧ i ∈ ((cfg18.win 6).blk t).view.set := by
  have hi0 : (i 0).val < 25000 := (i 0).isLt
  have hi1 : (i 1).val < 64 := (i 1).isLt
  obtain ⟨-, -, -, -, -, -, -, -, -, -, -, -, e0, e1, -⟩ := bandIndex (bandOf i)
  have hv : (bandOf i).val = (i 0).val / 5000 := rfl
  refine ⟨bandOf i, flush18_6 _, ?_⟩
  rw [mem_band_u]
  intro a
  match a with
  | ⟨0, _⟩ => show win18_6.index (bandOf i) (0 : Fin 2) * 5000 ≤ (i 0).val ∧ (i 0).val < win18_6.index (bandOf i) (0 : Fin 2) * 5000 + 5000; omega
  | ⟨1, _⟩ => show win18_6.index (bandOf i) (1 : Fin 2) * 64 ≤ (i 1).val ∧ (i 1).val < win18_6.index (bandOf i) (1 : Fin 2) * 64 + 64; omega

/-- Every entry of the second result's array lies in the block of its row's band. -/
theorem cover_acc (i : S25000x64.Idx) :
    ∃ t : Fin cfg18.N, (cfg18.win 7).flush t = true ∧ i ∈ ((cfg18.win 7).blk t).view.set := by
  have hi0 : (i 0).val < 25000 := (i 0).isLt
  have hi1 : (i 1).val < 64 := (i 1).isLt
  obtain ⟨-, -, -, -, -, -, -, -, -, -, -, -, -, -, e0, e1⟩ := bandIndex (bandOf i)
  have hv : (bandOf i).val = (i 0).val / 5000 := rfl
  refine ⟨bandOf i, flush18_7 _, ?_⟩
  rw [mem_band_acc]
  intro a
  match a with
  | ⟨0, _⟩ => show win18_7.index (bandOf i) (0 : Fin 2) * 5000 ≤ (i 0).val ∧ (i 0).val < win18_7.index (bandOf i) (0 : Fin 2) * 5000 + 5000; omega
  | ⟨1, _⟩ => show win18_7.index (bandOf i) (1 : Fin 2) * 64 ≤ (i 1).val ∧ (i 1).val < win18_7.index (bandOf i) (1 : Fin 2) * 64 + 64; omega

end Finalize18

/-! ## The two result arrays after the region -/

/-- After the region the first result's array is tanh (s + h (d d) + b) of the whole arrays. -/
theorem finalize18_h (c : Dev nD)
    (hc : S25000x1.BroadcastsInDim S25000x64 (![0, 1] : Fin 2 → Fin 2)) (hb : S1x64.BroadcastsInDim S25000x64 (![0, 1] : Fin 2 → Fin 2)) :
    (dat18 V c).arrAt 6 cfg18.N = Cert.Gnn.convOut hc hb (V c main_v497) (V c main_v452) (V c main_v501) (V c main_v349) :=
  (dat18 V c).arrAt_eq_of_cover 6 _ (fun t _ => Finalize18.flushed_u V c t hc hb) Finalize18.cover_u

/-- After the region the second result's array is acc + f u of the whole arrays, u the first result. -/
theorem finalize18_acc (c : Dev nD)
    (hc : S25000x1.BroadcastsInDim S25000x64 (![0, 1] : Fin 2 → Fin 2)) (hb : S1x64.BroadcastsInDim S25000x64 (![0, 1] : Fin 2 → Fin 2))
    (hs : S_.BroadcastsInDim S25000x64 (![] : Fin 0 → Fin 2)) (h11 : S1x1.ShapeCasts S_) :
    (dat18 V c).arrAt 7 cfg18.N = Cert.Gnn.mix hs (V c main_v451_1) (Cert.Gnn.convOut hc hb (V c main_v497) (V c main_v452) (V c main_v501) (V c main_v349)) (shapeCast S_ (V c main_v500) h11) :=
  (dat18 V c).arrAt_eq_of_cover 7 _ (fun t _ => Finalize18.flushed_acc V c t hc hb hs h11) Finalize18.cover_acc

end Cert.KernelIdeal.RegionValue

end
-- ==== Proof.SumRegion.lean ====
/-
  The three-way sum of the network's 400000 x 64 feature arrays, computed a band of 5000 rows at a time.

  At grid point t the body adds rows [5000 t, 5000 t + 5000) of the three operands entry by entry and writes the band
  of the same rows of the result. An entry of the sum depends only on the same entry of the operands, so the band written
  at point t is band t of the whole arrays' sum (a + b) + c; the 80 bands tile the rows (row r lies in band r / 5000), so
  after the last point the result array holds that sum everywhere.
-/
import proofs.«418542_j22608707846200_1_alg».proof.Proof.KernelIdealFrameRegions2
import proofs.«418542_j22608707846200_1_alg».proof.Proof.GnnOps
import proofs.«418542_j22608707846200_1_alg».proof.Proof.LibMatProduct
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The store's and the loads' offsets inside a band are zero on both axes. -/
theorem sum_zero_offsets : (![0, 0] : Fin 2 → Nat) = fun _ => 0 := funext fun a => by fin_cases a <;> rfl

/-- The body's value on three bands: their sum, entry by entry (the casts to the band's own shape change nothing). -/
theorem sum_payload (x0 x1 x2 : FVec Ideal S5000x64 .f32) : k19_pay1 x0 x1 x2 = addf (addf x0 x1) x2 := by
  unfold k19_pay1
  simp only [shapeCast_self]

/-- At every grid point each of the four windows sits on band t of the rows and on the one band of the columns. -/
theorem sum_bands : ∀ t : Fin cfg19.N,
    win19_0.index t (0 : Fin 2) = t.val ∧ win19_0.index t (1 : Fin 2) = 0
    ∧ win19_1.index t (0 : Fin 2) = t.val ∧ win19_1.index t (1 : Fin 2) = 0
    ∧ win19_2.index t (0 : Fin 2) = t.val ∧ win19_2.index t (1 : Fin 2) = 0
    ∧ win19_3.index t (0 : Fin 2) = t.val ∧ win19_3.index t (1 : Fin 2) = 0 :=
  (by decide +kernel : ∀ t : Fin grid19.N, _)

/-- What point t writes back is band t of the whole arrays' sum. -/
theorem sum_band_written (c : Dev nD) (t : Fin cfg19.N) :
    (dat19 V c).flushed 3 t = ((cfg19.win 3).blk t).view.read (Elt Ideal)
      (Cert.Gnn.sum3 (V c main_v172_1) (V c main_v524) (V c main_v546)) := by
  show (cfg19.win 3).cut (grid19.coords t) ((dat19 V c).after 3 t) = _
  rw [after19_3]
  unfold out19_3
  rw [View.canon_unit_zero sum_zero_offsets]
  simp only [View.ld_unit_zero (S := S5000x64) sum_zero_offsets]
  rw [sum_payload]
  obtain ⟨a0, a1, b0, b1, c0, c1, o0, o1⟩ := sum_bands t
  funext j
  show FloatOps.addf (F := Ideal) (φ := .f32) (FloatOps.addf (F := Ideal) (φ := .f32) (V c main_v172_1 (((cfg19.win 0).blk t).view.emb j)) (V c main_v524 (((cfg19.win 1).blk t).view.emb j)))
        (V c main_v546 (((cfg19.win 2).blk t).view.emb j))
     = FloatOps.addf (F := Ideal) (φ := .f32) (FloatOps.addf (F := Ideal) (φ := .f32) (V c main_v172_1 (((cfg19.win 3).blk t).view.emb j)) (V c main_v524 (((cfg19.win 3).blk t).view.emb j)))
        (V c main_v546 (((cfg19.win 3).blk t).view.emb j))
  have h0 : ((cfg19.win 0).blk t).view.emb j = ((cfg19.win 3).blk t).view.emb j := by
    funext a; apply Fin.ext
    match a with
    | ⟨0, _⟩ => show win19_0.index t (0 : Fin 2) * 5000 + 1 * (j 0).val = win19_3.index t (0 : Fin 2) * 5000 + 1 * (j 0).val; omega
    | ⟨1, _⟩ => show win19_0.index t (1 : Fin 2) * 64 + 1 * (j 1).val = win19_3.index t (1 : Fin 2) * 64 + 1 * (j 1).val; omega
  have h1 : ((cfg19.win 1).blk t).view.emb j = ((cfg19.win 3).blk t).view.emb j := by
    funext a; apply Fin.ext
    match a with
    | ⟨0, _⟩ => show win19_1.index t (0 : Fin 2) * 5000 + 1 * (j 0).val = win19_3.index t (0 : Fin 2) * 5000 + 1 * (j 0).val; omega
    | ⟨1, _⟩ => show win19_1.index t (1 : Fin 2) * 64 + 1 * (j 1).val = win19_3.index t (1 : Fin 2) * 64 + 1 * (j 1).val; omega
  have h2 : ((cfg19.win 2).blk t).view.emb j = ((cfg19.win 3).blk t).view.emb j := by
    funext a; apply Fin.ext
    match a with
    | ⟨0, _⟩ => show win19_2.index t (0 : Fin 2) * 5000 + 1 * (j 0).val = win19_3.index t (0 : Fin 2) * 5000 + 1 * (j 0).val; omega
    | ⟨1, _⟩ => show win19_2.index t (1 : Fin 2) * 64 + 1 * (j 1).val = win19_3.index t (1 : Fin 2) * 64 + 1 * (j 1).val; omega
  rw [h0, h1, h2]

/-- An entry of the result array lies in point t's band iff each of its coordinates lies in the band's range. -/
theorem sum_mem_band (t : Fin cfg19.N) (i : S400000x64.Idx) :
    i ∈ ((cfg19.win 3).blk t).view.set ↔ ∀ a : Fin 2, win19_3.index t a * S5000x64.size a ≤ (i a).val ∧ (i a).val < win19_3.index t a * S5000x64.size a + S5000x64.size a := by
  show i ∈ ((View.whole main_v547).slice (win19_3.rect t)).set ↔ _
  rw [View.set_slice_whole, Rect.mem_set_unit]
  exact Iff.rfl

/-- The bands tile the array: the entry in row r is written at point r / 5000. -/
theorem sum_bands_cover (i : S400000x64.Idx) :
    ∃ t : Fin cfg19.N, (cfg19.win 3).flush t = true ∧ i ∈ ((cfg19.win 3).blk t).view.set := by
  have hi0 : (i 0).val < 400000 := (i 0).isLt
  have hi1 : (i 1).val < 64 := (i 1).isLt
  have hN : grid19.N = 80 := N_19
  have ht : (i 0).val / 5000 < grid19.N := by rw [hN]; omega
  obtain ⟨-, -, -, -, -, -, o0, o1⟩ := sum_bands ⟨(i 0).val / 5000, ht⟩
  have o0' : win19_3.index ⟨(i 0).val / 5000, ht⟩ (0 : Fin 2) = (i 0).val / 5000 := o0
  refine ⟨⟨(i 0).val / 5000, ht⟩, flush19_3 _, ?_⟩
  rw [sum_mem_band]
  intro a
  match a with
  | ⟨0, _⟩ =>
    show win19_3.index ⟨(i 0).val / 5000, ht⟩ (0 : Fin 2) * 5000 ≤ (i 0).val ∧ (i 0).val < win19_3.index ⟨(i 0).val / 5000, ht⟩ (0 : Fin 2) * 5000 + 5000
    rw [o0']; omega
  | ⟨1, _⟩ =>
    show win19_3.index ⟨(i 0).val / 5000, ht⟩ (1 : Fin 2) * 64 ≤ (i 1).val ∧ (i 1).val < win19_3.index ⟨(i 0).val / 5000, ht⟩ (1 : Fin 2) * 64 + 64
    rw [o1]; omega

/-- After the region the result array is the sum of the three arrays. -/
theorem sumThree19 (c : Dev nD) :
    (dat19 V c).arrAt 3 cfg19.N = Cert.Gnn.sum3 (V c main_v172_1) (V c main_v524) (V c main_v546) :=
  (dat19 V c).arrAt_eq_of_cover 3 _ (fun t _ => sum_band_written V c t) sum_bands_cover

end Cert.KernelIdeal.RegionValue

end
-- ==== Proof.DecoderRegion.lean ====
/-
  The decoder's two dense layers with a leaky rectifier, computed a band of 5000 rows at a time, against the same two
  layers of the whole array.

  Entry (r, q) of a dense layer depends on row r of its input only (the layer on a band and on the whole array, entry by
  entry, is proved once for any sizes with the encoder's region), so the layers of a band of rows are the band of the
  layers. At grid point t the body reads band t of the 400000 x 64 input and the whole weight, bias and slope operands,
  and writes band t of the 400000 x 2 output; the 80 bands tile the rows (row r lies in band r / 5000), so after the
  last point the output array holds the two layers of the whole input.
-/
import proofs.«418542_j22608707846200_1_alg».proof.Proof.KernelIdealFrameRegions2
import proofs.«418542_j22608707846200_1_alg».proof.Proof.GnnOps
import proofs.«418542_j22608707846200_1_alg».proof.Proof.LibMatProduct
import proofs.«418542_j22608707846200_1_alg».proof.Proof.EncoderRegion
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Idealize.ShloMosaic Idealize.ShloMosaic.ValueIdx Idealize.ShloMosaic.TcCoe Idealize.SL.Sem Cert.KernelIdeal Cert.KernelIdeal.Gen
open Idealize.ShloMosaic.Pipeline (Dat Cfg Window)
open Cert.Lib.MatProduct Cert.KernelIdeal.RegionValue.DenseBand

variable (V : (c : Dev nD) → (b : Ref sig .tc) → Buf (Elt Ideal) ((c : Thread nD τ).loc b))

/-! ## Region 20: the decoder's two layers, 400000 rows in 80 bands of 5000 -/

/-- The store's and the loads' offsets inside a block are zero on both axes. -/
theorem dec_zero_offsets : (![0, 0] : Fin 2 → Nat) = fun _ => 0 := funext fun a => by fin_cases a <;> rfl

/-- The body's value on a band is the second layer of the first layer of the band, the slope extracted from the
    1 x 1 operand (the casts of an operand to its own shape change nothing; the printed contraction records are the
    plain rows-by-columns ones). -/
theorem dec_payload (s : FVec Ideal S1x1 .f32) (xb : FVec Ideal S5000x64 .f32) (w1 : FVec Ideal S64x64 .f32)
    (b1 : FVec Ideal S1x64 .f32) (w2 : FVec Ideal S64x2 .f32) (b2 : FVec Ideal S1x2 .f32) :
    k20_pay1 s xb w1 b1 w2 b2
      = bandLayer broadcasts_S1x2_S5000x2 (extractAt ![0, 0] s inpos_S1x1_p0_0)
          (bandLayer broadcasts_S1x64_S5000x64 (extractAt ![0, 0] s inpos_S1x1_p0_0) xb w1 b1) w2 b2 := by
  unfold k20_pay1 bandLayer
  simp only [shapeCast_self]
  rfl

/-- Entry (p, q) of the body's value on a band whose row p is row r of the input array, the small operands being
    the whole weight, bias and slope arrays: entry (r, q) of the two layers of the whole input. -/
theorem dec_point
    (sB sW : FVec Ideal S1x1 .f32) (xb : FVec Ideal S5000x64 .f32) (x : FVec Ideal S400000x64 .f32)
    (w1B w1 : FVec Ideal S64x64 .f32) (b1B b1 : FVec Ideal S1x64 .f32)
    (w2B w2 : FVec Ideal S64x2 .f32) (b2B b2 : FVec Ideal S1x2 .f32)
    (es : sB = sW) (e1 : w1B = w1) (eb1 : b1B = b1) (e2 : w2B = w2) (eb2 : b2B = b2)
    (hb1 : S1x64.BroadcastsInDim S400000x64 (![0, 1] : Fin 2 → Fin 2)) (hs1 : S_.BroadcastsInDim S400000x64 (![] : Fin 0 → Fin 2))
    (hb2 : S1x2.BroadcastsInDim S400000x2 (![0, 1] : Fin 2 → Fin 2)) (hs2 : S_.BroadcastsInDim S400000x2 (![] : Fin 0 → Fin 2))
    (h11 : S1x1.ShapeCasts S_)
    (p : Fin 5000) (q : Fin 2) (r : Fin 400000) (hrow : ∀ κ : Fin 64, xb (ix2 p κ) = x (ix2 r κ)) :
    k20_pay1 sB xb w1B b1B w2B b2B (ix2 p q)
      = Cert.Gnn.dense hb2 hs2 (Cert.Gnn.dense hb1 hs1 x w1 b1 (shapeCast S_ sW h11)) w2 b2 (shapeCast S_ sW h11) (ix2 r q) := by
  subst es e1 eb1 e2 eb2
  rw [dec_payload, slope_extract_eq_cast sB inpos_S1x1_p0_0 h11]
  exact twoBandLayers_eq_dense hb1 hs1 hb2 hs2 broadcasts_S1x64_S5000x64 broadcasts_S1x2_S5000x2 xb x w1B b1B w2B b2B
    (shapeCast S_ sB h11) p r q hrow

/-- At every grid point the input's and the output's windows sit on band t of the rows, and every small operand's
    window on its one block. -/
theorem dec_bands : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = 0 ∧ win20_2.index t (1 : Fin 2) = 0
    ∧ win20_3.index t (0 : Fin 2) = 0 ∧ win20_3.index t (1 : Fin 2) = 0
    ∧ win20_4.index t (0 : Fin 2) = 0 ∧ win20_4.index t (1 : Fin 2) = 0
    ∧ win20_5.index t (0 : Fin 2) = 0 ∧ win20_5.index t (1 : Fin 2) = 0
    ∧ win20_6.index t (0 : Fin 2) = t.val ∧ win20_6.index t (1 : Fin 2) = 0 :=
  (by decide +kernel : ∀ t : Fin grid20.N, _)

/-- What point t writes back is band t of the two layers of the whole input array. -/
theorem dec_band_written (c : Dev nD)
    (hb1 : S1x64.BroadcastsInDim S400000x64 (![0, 1] : Fin 2 → Fin 2)) (hs1 : S_.BroadcastsInDim S400000x64 (![] : Fin 0 → Fin 2))
    (hb2 : S1x2.BroadcastsInDim S400000x2 (![0, 1] : Fin 2 → Fin 2)) (hs2 : S_.BroadcastsInDim S400000x2 (![] : Fin 0 → Fin 2))
    (h11 : S1x1.ShapeCasts S_) (t : Fin cfg20.N) :
    (dat20 V c).flushed 6 t = ((cfg20.win 6).blk t).view.read (Elt Ideal)
      (Cert.Gnn.dense hb2 hs2 (Cert.Gnn.dense hb1 hs1 (V c main_v547) (V c main_arg18) (V c main_v548) (shapeCast S_ (V c main_v550) h11))
        (V c main_arg20) (V c main_v549) (shapeCast S_ (V c main_v550) h11)) := by
  show (cfg20.win 6).cut (grid20.coords t) ((dat20 V c).after 6 t) = _
  rw [after20_6]
  unfold out20_6
  rw [View.canon_unit_zero dec_zero_offsets]
  simp only [View.ld_unit_zero (S := S1x1) dec_zero_offsets,
    View.ld_unit_zero (S := S5000x64) dec_zero_offsets,
    View.ld_unit_zero (S := S64x64) dec_zero_offsets,
    View.ld_unit_zero (S := S1x64) dec_zero_offsets,
    View.ld_unit_zero (S := S64x2) dec_zero_offsets,
    View.ld_unit_zero (S := S1x2) dec_zero_offsets]
  obtain ⟨x0, x1, w10, w11, c10, c11, w20, w21, c20, c21, s0, s1, o0, o1⟩ := dec_bands t
  have hN : grid20.N = 80 := N_20
  have htlt : t.val < 80 := by have h : t.val < grid20.N := t.isLt; omega
  -- a small operand's one block is the whole operand
  have es : iblk20 V c 5 t = V c main_v550 := by
    funext y
    show V c main_v550 (((cfg20.win 5).blk t).view.emb y) = V c main_v550 y
    refine congrArg (V c main_v550) (funext fun a => Fin.ext ?_)
    match a with
    | ⟨0, _⟩ => show win20_5.index t (0 : Fin 2) * 1 + 1 * (y 0).val = (y 0).val; omega
    | ⟨1, _⟩ => show win20_5.index t (1 : Fin 2) * 1 + 1 * (y 1).val = (y 1).val; omega
  have e1 : iblk20 V c 1 t = V c main_arg18 := by
    funext y
    show V c main_arg18 (((cfg20.win 1).blk t).view.emb y) = V c main_arg18 y
    refine congrArg (V c main_arg18) (funext fun a => Fin.ext ?_)
    match a with
    | ⟨0, _⟩ => show win20_1.index t (0 : Fin 2) * 64 + 1 * (y 0).val = (y 0).val; omega
    | ⟨1, _⟩ => show win20_1.index t (1 : Fin 2) * 64 + 1 * (y 1).val = (y 1).val; omega
  have eb1 : iblk20 V c 2 t = V c main_v548 := by
    funext y
    show V c main_v548 (((cfg20.win 2).blk t).view.emb y) = V c main_v548 y
    refine congrArg (V c main_v548) (funext fun a => Fin.ext ?_)
    match a with
    | ⟨0, _⟩ => show win20_2.index t (0 : Fin 2) * 1 + 1 * (y 0).val = (y 0).val; omega
    | ⟨1, _⟩ => show win20_2.index t (1 : Fin 2) * 64 + 1 * (y 1).val = (y 1).val; omega
  have e2 : iblk20 V c 3 t = V c main_arg20 := by
    funext y
    show V c main_arg20 (((cfg20.win 3).blk t).view.emb y) = V c main_arg20 y
    refine congrArg (V c main_arg20) (funext fun a => Fin.ext ?_)
    match a with
    | ⟨0, _⟩ => show win20_3.index t (0 : Fin 2) * 64 + 1 * (y 0).val = (y 0).val; omega
    | ⟨1, _⟩ => show win20_3.index t (1 : Fin 2) * 2 + 1 * (y 1).val = (y 1).val; omega
  have eb2 : iblk20 V c 4 t = V c main_v549 := by
    funext y
    show V c main_v549 (((cfg20.win 4).blk t).view.emb y) = V c main_v549 y
    refine congrArg (V c main_v549) (funext fun a => Fin.ext ?_)
    match a with
    | ⟨0, _⟩ => show win20_4.index t (0 : Fin 2) * 1 + 1 * (y 0).val = (y 0).val; omega
    | ⟨1, _⟩ => show win20_4.index t (1 : Fin 2) * 2 + 1 * (y 1).val = (y 1).val; omega
  funext j
  have hp : (j 0).val < 5000 := idx2_lt0 j
  have hr : t.val * 5000 + (j 0).val < 400000 := by omega
  -- where entry j of the output's band sits in the output array
  have hout : ((cfg20.win 6).blk t).view.emb j = ix2 (⟨t.val * 5000 + (j 0).val, hr⟩ : Fin 400000) (j 1 : Fin 2) := by
    funext a; apply Fin.ext
    match a with
    | ⟨0, _⟩ => show win20_6.index t (0 : Fin 2) * 5000 + 1 * (j 0).val = t.val * 5000 + (j 0).val; omega
    | ⟨1, _⟩ => show win20_6.index t (1 : Fin 2) * 2 + 1 * (j 1).val = (j 1).val; omega
  -- row (j 0) of the input's band is row 5000 t + (j 0) of the input array
  have hrow : ∀ κ : Fin 64, iblk20 V c 0 t (ix2 (j 0 : Fin 5000) κ) = V c main_v547 (ix2 (⟨t.val * 5000 + (j 0).val, hr⟩ : Fin 400000) κ) := by
    intro κ
    show V c main_v547 (((cfg20.win 0).blk t).view.emb (ix2 (j 0 : Fin 5000) κ)) = _
    refine congrArg (V c main_v547) (funext fun a => Fin.ext ?_)
    match a with
    | ⟨0, _⟩ => show win20_0.index t (0 : Fin 2) * 5000 + 1 * (j 0).val = t.val * 5000 + (j 0).val; omega
    | ⟨1, _⟩ => show win20_0.index t (1 : Fin 2) * 64 + 1 * κ.val = κ.val; omega
  show k20_pay1 (iblk20 V c 5 t) (iblk20 V c 0 t) (iblk20 V c 1 t) (iblk20 V c 2 t) (iblk20 V c 3 t) (iblk20 V c 4 t) j
    = Cert.Gnn.dense hb2 hs2 (Cert.Gnn.dense hb1 hs1 (V c main_v547) (V c main_arg18) (V c main_v548) (shapeCast S_ (V c main_v550) h11))
        (V c main_arg20) (V c main_v549) (shapeCast S_ (V c main_v550) h11) (((cfg20.win 6).blk t).view.emb j)
  rw [hout]
  exact (congrArg (k20_pay1 (iblk20 V c 5 t) (iblk20 V c 0 t) (iblk20 V c 1 t) (iblk20 V c 2 t) (iblk20 V c 3 t) (iblk20 V c 4 t)) (eq_ix2 j)).trans
    (dec_point (iblk20 V c 5 t) (V c main_v550) (iblk20 V c 0 t) (V c main_v547) (iblk20 V c 1 t) (V c main_arg18) (iblk20 V c 2 t) (V c main_v548)
      (iblk20 V c 3 t) (V c main_arg20) (iblk20 V c 4 t) (V c main_v549) es e1 eb1 e2 eb2 hb1 hs1 hb2 hs2 h11
      (j 0) (j 1) ⟨t.val * 5000 + (j 0).val, hr⟩ hrow)

/-- An entry of the output array lies in point t's band iff each of its coordinates lies in the band's range. -/
theorem dec_mem_band (t : Fin cfg20.N) (i : S400000x2.Idx) :
    i ∈ ((cfg20.win 6).blk t).view.set ↔ ∀ a : Fin 2, win20_6.index t a * S5000x2.size a ≤ (i a).val ∧ (i a).val < win20_6.index t a * S5000x2.size a + S5000x2.size a := by
  show i ∈ ((View.whole main_v551).slice (win20_6.rect t)).set ↔ _
  rw [View.set_slice_whole, Rect.mem_set_unit]
  exact Iff.rfl

/-- The bands tile the array: the entry in row r is written at point r / 5000. -/
theorem dec_bands_cover (i : S400000x2.Idx) :
    ∃ t : Fin cfg20.N, (cfg20.win 6).flush t = true ∧ i ∈ ((cfg20.win 6).blk t).view.set := by
  have hi0 : (i 0).val < 400000 := (i 0).isLt
  have hi1 : (i 1).val < 2 := (i 1).isLt
  have hN : grid20.N = 80 := N_20
  have ht : (i 0).val / 5000 < grid20.N := by rw [hN]; omega
  obtain ⟨-, -, -, -, -, -, -, -, -, -, -, -, o0, o1⟩ := dec_bands ⟨(i 0).val / 5000, ht⟩
  have o0' : win20_6.index ⟨(i 0).val / 5000, ht⟩ (0 : Fin 2) = (i 0).val / 5000 := o0
  refine ⟨⟨(i 0).val / 5000, ht⟩, flush20_6 _, ?_⟩
  rw [dec_mem_band]
  intro a
  match a with
  | ⟨0, _⟩ =>
    show win20_6.index ⟨(i 0).val / 5000, ht⟩ (0 : Fin 2) * 5000 ≤ (i 0).val ∧ (i 0).val < win20_6.index ⟨(i 0).val / 5000, ht⟩ (0 : Fin 2) * 5000 + 5000
    rw [o0']; omega
  | ⟨1, _⟩ =>
    show win20_6.index ⟨(i 0).val / 5000, ht⟩ (1 : Fin 2) * 2 ≤ (i 1).val ∧ (i 1).val < win20_6.index ⟨(i 0).val / 5000, ht⟩ (1 : Fin 2) * 2 + 2
    rw [o1]; omega

/-- After the region the output array holds the two layers of the whole input array. -/
theorem twoDense20 (c : Dev nD)
    (hb1 : S1x64.BroadcastsInDim S400000x64 (![0, 1] : Fin 2 → Fin 2)) (hs1 : S_.BroadcastsInDim S400000x64 (![] : Fin 0 → Fin 2))
    (hb2 : S1x2.BroadcastsInDim S400000x2 (![0, 1] : Fin 2 → Fin 2)) (hs2 : S_.BroadcastsInDim S400000x2 (![] : Fin 0 → Fin 2)) (h11 : S1x1.ShapeCasts S_) :
    (dat20 V c).arrAt 6 cfg20.N =
      Cert.Gnn.dense hb2 hs2 (Cert.Gnn.dense hb1 hs1 (V c main_v547) (V c main_arg18) (V c main_v548) (shapeCast S_ (V c main_v550) h11)) (V c main_arg20) (V c main_v549) (shapeCast S_ (V c main_v550) h11) :=
  (dat20 V c).arrAt_eq_of_cover 6 _ (fun t _ => dec_band_written V c hb1 hs1 hb2 hs2 h11 t) dec_bands_cover

end Cert.KernelIdeal.RegionValue

end
-- ==== Proof.KChain.lean ====
/-
  The kernel program's buffer contents at its segment boundaries, as values. The generated frame names core c's buffers
  at the k-th boundary of @main W<k> m ρ c: a fold of host stretches and regions from the launch memory. Read here, buffer by
  buffer and boundary by boundary, as the reference's stage value of the aligned operation at the launch arguments: a host
  stretch by its own lemma (the same operations on the same operands), a region by its whole-array value (a dense layer, a
  matrix product, a propagation step, a sum of three) rewritten in the reference's spelling, and a buffer no segment in
  between writes by carrying it along. The last line is the result buffer at the last boundary.
-/
import proofs.«418542_j22608707846200_1_alg».proof.Proof.KernelIdealFrameBoundaries
import proofs.«418542_j22608707846200_1_alg».proof.Proof.KernelIdealHostKeep
import proofs.«418542_j22608707846200_1_alg».proof.Proof.RefStages
import proofs.«418542_j22608707846200_1_alg».proof.Proof.GnnOps
import proofs.«418542_j22608707846200_1_alg».proof.Proof.GnnBridge
import proofs.«418542_j22608707846200_1_alg».proof.Proof.KHost0
import proofs.«418542_j22608707846200_1_alg».proof.Proof.KHost1
import proofs.«418542_j22608707846200_1_alg».proof.Proof.KHost2
import proofs.«418542_j22608707846200_1_alg».proof.Proof.KHost4
import proofs.«418542_j22608707846200_1_alg».proof.Proof.KHost6
import proofs.«418542_j22608707846200_1_alg».proof.Proof.KHost7
import proofs.«418542_j22608707846200_1_alg».proof.Proof.KHost8
import proofs.«418542_j22608707846200_1_alg».proof.Proof.KHost10
import proofs.«418542_j22608707846200_1_alg».proof.Proof.KHost12
import proofs.«418542_j22608707846200_1_alg».proof.Proof.KHost13
import proofs.«418542_j22608707846200_1_alg».proof.Proof.KHost14
import proofs.«418542_j22608707846200_1_alg».proof.Proof.KHost16
import proofs.«418542_j22608707846200_1_alg».proof.Proof.KHost18
import proofs.«418542_j22608707846200_1_alg».proof.Proof.KHost19
import proofs.«418542_j22608707846200_1_alg».proof.Proof.KHost20
import proofs.«418542_j22608707846200_1_alg».proof.Proof.EncoderRegion
import proofs.«418542_j22608707846200_1_alg».proof.Proof.LinearRegion1
import proofs.«418542_j22608707846200_1_alg».proof.Proof.FinalizeRegion2
import proofs.«418542_j22608707846200_1_alg».proof.Proof.LinearRegion3
import proofs.«418542_j22608707846200_1_alg».proof.Proof.FinalizeRegion4
import proofs.«418542_j22608707846200_1_alg».proof.Proof.LinearRegion5
import proofs.«418542_j22608707846200_1_alg».proof.Proof.FinalizeRegion6
import proofs.«418542_j22608707846200_1_alg».proof.Proof.LinearRegion7
import proofs.«418542_j22608707846200_1_alg».proof.Proof.FinalizeRegion8
import proofs.«418542_j22608707846200_1_alg».proof.Proof.LinearRegion9
import proofs.«418542_j22608707846200_1_alg».proof.Proof.FinalizeRegion10
import proofs.«418542_j22608707846200_1_alg».proof.Proof.LinearRegion11
import proofs.«418542_j22608707846200_1_alg».proof.Proof.FinalizeRegion12
import proofs.«418542_j22608707846200_1_alg».proof.Proof.LinearRegion13
import proofs.«418542_j22608707846200_1_alg».proof.Proof.FinalizeRegion14
import proofs.«418542_j22608707846200_1_alg».proof.Proof.LinearRegion15
import proofs.«418542_j22608707846200_1_alg».proof.Proof.FinalizeRegion16
import proofs.«418542_j22608707846200_1_alg».proof.Proof.LinearRegion17
import proofs.«418542_j22608707846200_1_alg».proof.Proof.FinalizeRegion18
import proofs.«418542_j22608707846200_1_alg».proof.Proof.SumRegion
import proofs.«418542_j22608707846200_1_alg».proof.Proof.DecoderRegion

set_option maxRecDepth 16384

noncomputable section

namespace Cert.KernelIdeal.Chain

open Idealize.ShloMosaic Idealize.ShloMosaic.TcCoe Idealize.ShloMosaic.StableHlo Idealize.SL.Sem Cert.KernelIdeal Cert.KernelIdeal.Gen
open Idealize.ShloMosaic.Pipeline (Dat)

variable (m : (ℓ : Loc nD τ sig) → Buf (Elt Ideal) ℓ) (ρ : Dev nD → PrngReg)

/-- Core c's launch contents of argument 0. -/
abbrev arg0 (c : Dev nD) : Buf (Elt Ideal) ((c : Thread nD τ).loc main_arg0) := m ((c : Thread nD τ).loc main_arg0)
/-- Core c's launch contents of argument 1. -/
abbrev arg1 (c : Dev nD) : Buf (Elt Ideal) ((c : Thread nD τ).loc main_arg1) := m ((c : Thread nD τ).loc main_arg1)
/-- Core c's launch contents of argument 2. -/
abbrev arg2 (c : Dev nD) : Buf (Elt Ideal) ((c : Thread nD τ).loc main_arg2) := m ((c : Thread nD τ).loc main_arg2)
/-- Core c's launch contents of argument 3. -/
abbrev arg3 (c : Dev nD) : Buf (Elt Ideal) ((c : Thread nD τ).loc main_arg3) := m ((c : Thread nD τ).loc main_arg3)
/-- Core c's launch contents of argument 4. -/
abbrev arg4 (c : Dev nD) : Buf (Elt Ideal) ((c : Thread nD τ).loc main_arg4) := m ((c : Thread nD τ).loc main_arg4)
/-- Core c's launch contents of argument 5. -/
abbrev arg5 (c : Dev nD) : Buf (Elt Ideal) ((c : Thread nD τ).loc main_arg5) := m ((c : Thread nD τ).loc main_arg5)
/-- Core c's launch contents of argument 6. -/
abbrev arg6 (c : Dev nD) : Buf (Elt Ideal) ((c : Thread nD τ).loc main_arg6) := m ((c : Thread nD τ).loc main_arg6)
/-- Core c's launch contents of argument 7. -/
abbrev arg7 (c : Dev nD) : Buf (Elt Ideal) ((c : Thread nD τ).loc main_arg7) := m ((c : Thread nD τ).loc main_arg7)
/-- Core c's launch contents of argument 8. -/
abbrev arg8 (c : Dev nD) : Buf (Elt Ideal) ((c : Thread nD τ).loc main_arg8) := m ((c : Thread nD τ).loc main_arg8)
/-- Core c's launch contents of argument 9. -/
abbrev arg9 (c : Dev nD) : Buf (Elt Ideal) ((c : Thread nD τ).loc main_arg9) := m ((c : Thread nD τ).loc main_arg9)
/-- Core c's launch contents of argument 10. -/
abbrev arg10 (c : Dev nD) : Buf (Elt Ideal) ((c : Thread nD τ).loc main_arg10) := m ((c : Thread nD τ).loc main_arg10)
/-- Core c's launch contents of argument 11. -/
abbrev arg11 (c : Dev nD) : Buf (Elt Ideal) ((c : Thread nD τ).loc main_arg11) := m ((c : Thread nD τ).loc main_arg11)
/-- Core c's launch contents of argument 12. -/
abbrev arg12 (c : Dev nD) : Buf (Elt Ideal) ((c : Thread nD τ).loc main_arg12) := m ((c : Thread nD τ).loc main_arg12)
/-- Core c's launch contents of argument 13. -/
abbrev arg13 (c : Dev nD) : Buf (Elt Ideal) ((c : Thread nD τ).loc main_arg13) := m ((c : Thread nD τ).loc main_arg13)
/-- Core c's launch contents of argument 14. -/
abbrev arg14 (c : Dev nD) : Buf (Elt Ideal) ((c : Thread nD τ).loc main_arg14) := m ((c : Thread nD τ).loc main_arg14)
/-- Core c's launch contents of argument 15. -/
abbrev arg15 (c : Dev nD) : Buf (Elt Ideal) ((c : Thread nD τ).loc main_arg15) := m ((c : Thread nD τ).loc main_arg15)
/-- Core c's launch contents of argument 16. -/
abbrev arg16 (c : Dev nD) : Buf (Elt Ideal) ((c : Thread nD τ).loc main_arg16) := m ((c : Thread nD τ).loc main_arg16)
/-- Core c's launch contents of argument 17. -/
abbrev arg17 (c : Dev nD) : Buf (Elt Ideal) ((c : Thread nD τ).loc main_arg17) := m ((c : Thread nD τ).loc main_arg17)
/-- Core c's launch contents of argument 18. -/
abbrev arg18 (c : Dev nD) : Buf (Elt Ideal) ((c : Thread nD τ).loc main_arg18) := m ((c : Thread nD τ).loc main_arg18)
/-- Core c's launch contents of argument 19. -/
abbrev arg19 (c : Dev nD) : Buf (Elt Ideal) ((c : Thread nD τ).loc main_arg19) := m ((c : Thread nD τ).loc main_arg19)
/-- Core c's launch contents of argument 20. -/
abbrev arg20 (c : Dev nD) : Buf (Elt Ideal) ((c : Thread nD τ).loc main_arg20) := m ((c : Thread nD τ).loc main_arg20)
/-- Core c's launch contents of argument 21. -/
abbrev arg21 (c : Dev nD) : Buf (Elt Ideal) ((c : Thread nD τ).loc main_arg21) := m ((c : Thread nD τ).loc main_arg21)
/-- Core c's launch contents of argument 22. -/
abbrev arg22 (c : Dev nD) : Buf (Elt Ideal) ((c : Thread nD τ).loc main_arg22) := m ((c : Thread nD τ).loc main_arg22)

theorem at0_main_arg0 (c : Dev nD) : W0 m ρ c (Proc.devRef .tc main_arg0) = (arg0 m c) := rfl
theorem at0_main_arg1 (c : Dev nD) : W0 m ρ c (Proc.devRef .tc main_arg1) = (arg1 m c) := rfl
theorem at0_main_arg2 (c : Dev nD) : W0 m ρ c (Proc.devRef .tc main_arg2) = (arg2 m c) := rfl
theorem at0_main_arg3 (c : Dev nD) : W0 m ρ c (Proc.devRef .tc main_arg3) = (arg3 m c) := rfl
theorem at0_main_arg4 (c : Dev nD) : W0 m ρ c (Proc.devRef .tc main_arg4) = (arg4 m c) := rfl
theorem at0_main_arg5 (c : Dev nD) : W0 m ρ c (Proc.devRef .tc main_arg5) = (arg5 m c) := rfl
theorem at0_main_arg6 (c : Dev nD) : W0 m ρ c (Proc.devRef .tc main_arg6) = (arg6 m c) := rfl
theorem at0_main_arg7 (c : Dev nD) : W0 m ρ c (Proc.devRef .tc main_arg7) = (arg7 m c) := rfl
theorem at0_main_arg8 (c : Dev nD) : W0 m ρ c (Proc.devRef .tc main_arg8) = (arg8 m c) := rfl
theorem at0_main_arg9 (c : Dev nD) : W0 m ρ c (Proc.devRef .tc main_arg9) = (arg9 m c) := rfl
theorem at0_main_arg10 (c : Dev nD) : W0 m ρ c (Proc.devRef .tc main_arg10) = (arg10 m c) := rfl
theorem at0_main_arg11 (c : Dev nD) : W0 m ρ c (Proc.devRef .tc main_arg11) = (arg11 m c) := rfl
theorem at0_main_arg12 (c : Dev nD) : W0 m ρ c (Proc.devRef .tc main_arg12) = (arg12 m c) := rfl
theorem at0_main_arg13 (c : Dev nD) : W0 m ρ c (Proc.devRef .tc main_arg13) = (arg13 m c) := rfl
theorem at0_main_arg14 (c : Dev nD) : W0 m ρ c (Proc.devRef .tc main_arg14) = (arg14 m c) := rfl
theorem at0_main_arg15 (c : Dev nD) : W0 m ρ c (Proc.devRef .tc main_arg15) = (arg15 m c) := rfl
theorem at0_main_arg16 (c : Dev nD) : W0 m ρ c (Proc.devRef .tc main_arg16) = (arg16 m c) := rfl
theorem at0_main_arg17 (c : Dev nD) : W0 m ρ c (Proc.devRef .tc main_arg17) = (arg17 m c) := rfl
theorem at0_main_arg18 (c : Dev nD) : W0 m ρ c (Proc.devRef .tc main_arg18) = (arg18 m c) := rfl
theorem at0_main_arg19 (c : Dev nD) : W0 m ρ c (Proc.devRef .tc main_arg19) = (arg19 m c) := rfl
theorem at0_main_arg20 (c : Dev nD) : W0 m ρ c (Proc.devRef .tc main_arg20) = (arg20 m c) := rfl
theorem at0_main_arg21 (c : Dev nD) : W0 m ρ c (Proc.devRef .tc main_arg21) = (arg21 m c) := rfl
theorem at0_main_arg22 (c : Dev nD) : W0 m ρ c (Proc.devRef .tc main_arg22) = (arg22 m c) := rfl

/-! ## Boundary 1: after host stretch 0 -/

theorem at1_main_v0 (c : Dev nD) : W1 m ρ c (Proc.devRef .tc main_v0) = (Cert.ReferenceIdeal.Stages.val_main_v0 (F := Ideal) (arg0 m c) (arg1 m c)) :=
  Cert.KernelIdeal.HostValue.value0_main_v0 (W0 m ρ c) (arg0 m c) (arg1 m c) (arg11 m c) (arg13 m c) (arg14 m c) (at0_main_arg0 m ρ c) (at0_main_arg1 m ρ c) (at0_main_arg11 m ρ c) (at0_main_arg13 m ρ c) (at0_main_arg14 m ρ c)
theorem at1_main_v1 (c : Dev nD) : W1 m ρ c (Proc.devRef .tc main_v1) = (shapeCast S1x64 (arg11 m c) Cert.KernelIdeal.Facts₀.shapeCasts_S64_S1x64) :=
  Cert.KernelIdeal.HostValue.value0_main_v1 (W0 m ρ c) (arg0 m c) (arg1 m c) (arg11 m c) (arg13 m c) (arg14 m c) (at0_main_arg0 m ρ c) (at0_main_arg1 m ρ c) (at0_main_arg11 m ρ c) (at0_main_arg13 m ρ c) (at0_main_arg14 m ρ c)
theorem at1_main_v2 (c : Dev nD) : W1 m ρ c (Proc.devRef .tc main_v2) = (shapeCast S1x64 (arg13 m c) Cert.KernelIdeal.Facts₀.shapeCasts_S64_S1x64) :=
  Cert.KernelIdeal.HostValue.value0_main_v2 (W0 m ρ c) (arg0 m c) (arg1 m c) (arg11 m c) (arg13 m c) (arg14 m c) (at0_main_arg0 m ρ c) (at0_main_arg1 m ρ c) (at0_main_arg11 m ρ c) (at0_main_arg13 m ρ c) (at0_main_arg14 m ρ c)
theorem at1_main_v3 (c : Dev nD) : W1 m ρ c (Proc.devRef .tc main_v3) = (shapeCast S1x1 (arg14 m c) Cert.KernelIdeal.Facts₀.shapeCasts_S_S1x1) :=
  Cert.KernelIdeal.HostValue.value0_main_v3 (W0 m ρ c) (arg0 m c) (arg1 m c) (arg11 m c) (arg13 m c) (arg14 m c) (at0_main_arg0 m ρ c) (at0_main_arg1 m ρ c) (at0_main_arg11 m ρ c) (at0_main_arg13 m ρ c) (at0_main_arg14 m ρ c)

/-! ## Boundary 2: after region 0 -/

theorem at1_main_arg10 (c : Dev nD) : W1 m ρ c (Proc.devRef .tc main_arg10) = (arg10 m c) :=
  (Cert.KernelIdeal.HostKeep.keep0 (W0 m ρ c) main_arg10 (by decide)).trans (at0_main_arg10 m ρ c)
theorem at1_main_arg12 (c : Dev nD) : W1 m ρ c (Proc.devRef .tc main_arg12) = (arg12 m c) :=
  (Cert.KernelIdeal.HostKeep.keep0 (W0 m ρ c) main_arg12 (by decide)).trans (at0_main_arg12 m ρ c)
theorem at2_main_v4 (c : Dev nD) : W2 m ρ c (Proc.devRef .tc main_v4) = (Cert.ReferenceIdeal.Stages.val_main_v18 (F := Ideal) (arg0 m c) (arg1 m c) (arg10 m c) (arg11 m c) (arg12 m c) (arg13 m c) (arg14 m c)) :=
  (W2_arr m ρ c 6).trans ((Cert.KernelIdeal.RegionValue.twoDense0 (V1 m ρ) c Cert.ReferenceIdeal.Facts₀.bcast_S1x64_S525000x64_0_1 Cert.ReferenceIdeal.Facts₀.bcast_S_S525000x64 Cert.ReferenceIdeal.Facts₀.bcast_S1x64_S525000x64_0_1 Cert.ReferenceIdeal.Facts₀.bcast_S_S525000x64 Cert.ReferenceIdeal.Facts₀.shapeCasts_S1x1_S_).trans (by
    rw [show V1 m ρ c main_v0 = (Cert.ReferenceIdeal.Stages.val_main_v0 (F := Ideal) (arg0 m c) (arg1 m c)) from at1_main_v0 m ρ c,
      show V1 m ρ c main_arg10 = (arg10 m c) from at1_main_arg10 m ρ c,
      show V1 m ρ c main_v1 = (shapeCast S1x64 (arg11 m c) Cert.KernelIdeal.Facts₀.shapeCasts_S64_S1x64) from at1_main_v1 m ρ c,
      show V1 m ρ c main_arg12 = (arg12 m c) from at1_main_arg12 m ρ c,
      show V1 m ρ c main_v2 = (shapeCast S1x64 (arg13 m c) Cert.KernelIdeal.Facts₀.shapeCasts_S64_S1x64) from at1_main_v2 m ρ c,
      show V1 m ρ c main_v3 = (shapeCast S1x1 (arg14 m c) Cert.KernelIdeal.Facts₀.shapeCasts_S_S1x1) from at1_main_v3 m ρ c]
    rw [Cert.Gnn.dense_of_reshapes Cert.ReferenceIdeal.Facts₀.bcast_S1x64_S525000x64_0_1 Cert.ReferenceIdeal.Facts₀.bcast_S_S525000x64 Cert.ReferenceIdeal.Facts₀.bcast_S64_S1x64_1 Cert.KernelIdeal.Facts₀.shapeCasts_S64_S1x64 Cert.KernelIdeal.Facts₀.shapeCasts_S_S1x1 Cert.ReferenceIdeal.Facts₀.shapeCasts_S1x1_S_, Cert.Gnn.dense_of_reshapes Cert.ReferenceIdeal.Facts₀.bcast_S1x64_S525000x64_0_1 Cert.ReferenceIdeal.Facts₀.bcast_S_S525000x64 Cert.ReferenceIdeal.Facts₀.bcast_S64_S1x64_1 Cert.KernelIdeal.Facts₀.shapeCasts_S64_S1x64 Cert.KernelIdeal.Facts₀.shapeCasts_S_S1x1 Cert.ReferenceIdeal.Facts₀.shapeCasts_S1x1_S_]
    rfl))

/-! ## Boundary 3: after host stretch 1 -/

theorem at2_main_arg2 (c : Dev nD) : W2 m ρ c (Proc.devRef .tc main_arg2) = (arg2 m c) :=
  (W2_of_ne m ρ c main_arg2 (by decide)).trans ((Cert.KernelIdeal.HostKeep.keep0 (W0 m ρ c) main_arg2 (by decide)).trans (at0_main_arg2 m ρ c))
theorem at2_main_arg15 (c : Dev nD) : W2 m ρ c (Proc.devRef .tc main_arg15) = (arg15 m c) :=
  (W2_of_ne m ρ c main_arg15 (by decide)).trans ((Cert.KernelIdeal.HostKeep.keep0 (W0 m ρ c) main_arg15 (by decide)).trans (at0_main_arg15 m ρ c))
theorem at2_main_arg16 (c : Dev nD) : W2 m ρ c (Proc.devRef .tc main_arg16) = (arg16 m c) :=
  (W2_of_ne m ρ c main_arg16 (by decide)).trans ((Cert.KernelIdeal.HostKeep.keep0 (W0 m ρ c) main_arg16 (by decide)).trans (at0_main_arg16 m ρ c))
theorem at2_main_arg17 (c : Dev nD) : W2 m ρ c (Proc.devRef .tc main_arg17) = (arg17 m c) :=
  (W2_of_ne m ρ c main_arg17 (by decide)).trans ((Cert.KernelIdeal.HostKeep.keep0 (W0 m ρ c) main_arg17 (by decide)).trans (at0_main_arg17 m ρ c))
theorem at3_main_v5 (c : Dev nD) : W3 m ρ c (Proc.devRef .tc main_v5) = (Cert.ReferenceIdeal.Stages.val_main_v19 (F := Ideal) (arg0 m c) (arg1 m c) (arg10 m c) (arg11 m c) (arg12 m c) (arg13 m c) (arg14 m c)) :=
  Cert.KernelIdeal.HostValue.value1_main_v5 (W2 m ρ c) (arg0 m c) (arg1 m c) (arg2 m c) (arg10 m c) (arg11 m c) (arg12 m c) (arg13 m c) (arg14 m c) (arg15 m c) (arg16 m c) (arg17 m c) (at2_main_v4 m ρ c) (at2_main_arg2 m ρ c) (at2_main_arg15 m ρ c) (at2_main_arg16 m ρ c) (at2_main_arg17 m ρ c)
theorem at3_main_v6 (c : Dev nD) : W3 m ρ c (Proc.devRef .tc main_v6) = (Cert.ReferenceIdeal.Stages.val_main_v20 (F := Ideal) (arg0 m c) (arg1 m c) (arg10 m c) (arg11 m c) (arg12 m c) (arg13 m c) (arg14 m c)) :=
  Cert.KernelIdeal.HostValue.value1_main_v6 (W2 m ρ c) (arg0 m c) (arg1 m c) (arg2 m c) (arg10 m c) (arg11 m c) (arg12 m c) (arg13 m c) (arg14 m c) (arg15 m c) (arg16 m c) (arg17 m c) (at2_main_v4 m ρ c) (at2_main_arg2 m ρ c) (at2_main_arg15 m ρ c) (at2_main_arg16 m ρ c) (at2_main_arg17 m ρ c)
theorem at3_main_v7 (c : Dev nD) : W3 m ρ c (Proc.devRef .tc main_v7) = (Cert.ReferenceIdeal.Stages.val_main_v21 (F := Ideal) (arg0 m c) (arg1 m c) (arg10 m c) (arg11 m c) (arg12 m c) (arg13 m c) (arg14 m c)) :=
  Cert.KernelIdeal.HostValue.value1_main_v7 (W2 m ρ c) (arg0 m c) (arg1 m c) (arg2 m c) (arg10 m c) (arg11 m c) (arg12 m c) (arg13 m c) (arg14 m c) (arg15 m c) (arg16 m c) (arg17 m c) (at2_main_v4 m ρ c) (at2_main_arg2 m ρ c) (at2_main_arg15 m ρ c) (at2_main_arg16 m ρ c) (at2_main_arg17 m ρ c)
theorem at3_main_v9 (c : Dev nD) : W3 m ρ c (Proc.devRef .tc main_v9) = (Cert.ReferenceIdeal.Stages.val_main_v23 (F := Ideal) (arg2 m c)) :=
  Cert.KernelIdeal.HostValue.value1_main_v9 (W2 m ρ c) (arg0 m c) (arg1 m c) (arg2 m c) (arg10 m c) (arg11 m c) (arg12 m c) (arg13 m c) (arg14 m c) (arg15 m c) (arg16 m c) (arg17 m c) (at2_main_v4 m ρ c) (at2_main_arg2 m ρ c) (at2_main_arg15 m ρ c) (at2_main_arg16 m ρ c) (at2_main_arg17 m ρ c)
theorem at3_main_v11 (c : Dev nD) : W3 m ρ c (Proc.devRef .tc main_v11) = (Cert.ReferenceIdeal.Stages.val_main_v25 (F := Ideal) (arg2 m c)) :=
  Cert.KernelIdeal.HostValue.value1_main_v11 (W2 m ρ c) (arg0 m c) (arg1 m c) (arg2 m c) (arg10 m c) (arg11 m c) (arg12 m c) (arg13 m c) (arg14 m c) (arg15 m c) (arg16 m c) (arg17 m c) (at2_main_v4 m ρ c) (at2_main_arg2 m ρ c) (at2_main_arg15 m ρ c) (at2_main_arg16 m ρ c) (at2_main_arg17 m ρ c)
theorem at3_main_v13 (c : Dev nD) : W3 m ρ c (Proc.devRef .tc main_v13) = (Cert.ReferenceIdeal.Stages.val_main_v28 (F := Ideal) (arg15 m c)) :=
  Cert.KernelIdeal.HostValue.value1_main_v13 (W2 m ρ c) (arg0 m c) (arg1 m c) (arg2 m c) (arg10 m c) (arg11 m c) (arg12 m c) (arg13 m c) (arg14 m c) (arg15 m c) (arg16 m c) (arg17 m c) (at2_main_v4 m ρ c) (at2_main_arg2 m ρ c) (at2_main_arg15 m ρ c) (at2_main_arg16 m ρ c) (at2_main_arg17 m ρ c)
theorem at3_main_v17 (c : Dev nD) : W3 m ρ c (Proc.devRef .tc main_v17) = (shapeCast S3 (extractStridedSlice S1x3 ![0, 0] (arg17 m c) Cert.KernelIdeal.Facts₀.slices_S3x3_S1x3_0_0) Cert.KernelIdeal.Facts₀.shapeCasts_S1x3_S3) :=
  Cert.KernelIdeal.HostValue.value1_main_v17 (W2 m ρ c) (arg0 m c) (arg1 m c) (arg2 m c) (arg10 m c) (arg11 m c) (arg12 m c) (arg13 m c) (arg14 m c) (arg15 m c) (arg16 m c) (arg17 m c) (at2_main_v4 m ρ c) (at2_main_arg2 m ρ c) (at2_main_arg15 m ρ c) (at2_main_arg16 m ρ c) (at2_main_arg17 m ρ c)
theorem at3_main_v18 (c : Dev nD) : W3 m ρ c (Proc.devRef .tc main_v18) = (Cert.ReferenceIdeal.Stages.val_main_v26 (F := Ideal)) :=
  Cert.KernelIdeal.HostValue.value1_main_v18 (W2 m ρ c) (arg0 m c) (arg1 m c) (arg2 m c) (arg10 m c) (arg11 m c) (arg12 m c) (arg13 m c) (arg14 m c) (arg15 m c) (arg16 m c) (arg17 m c) (at2_main_v4 m ρ c) (at2_main_arg2 m ρ c) (at2_main_arg15 m ρ c) (at2_main_arg16 m ρ c) (at2_main_arg17 m ρ c)
theorem at3_main_v19 (c : Dev nD) : W3 m ρ c (Proc.devRef .tc main_v19) = (shapeCast S1x64 (Cert.ReferenceIdeal.Stages.val_main_v30 (F := Ideal) (arg16 m c)) Cert.KernelIdeal.Facts₀.shapeCasts_S64_S1x64) :=
  Cert.KernelIdeal.HostValue.value1_main_v19 (W2 m ρ c) (arg0 m c) (arg1 m c) (arg2 m c) (arg10 m c) (arg11 m c) (arg12 m c) (arg13 m c) (arg14 m c) (arg15 m c) (arg16 m c) (arg17 m c) (at2_main_v4 m ρ c) (at2_main_arg2 m ρ c) (at2_main_arg15 m ρ c) (at2_main_arg16 m ρ c) (at2_main_arg17 m ρ c)

/-! ## Boundary 4: after region 1 -/

theorem at4_main_v20 (c : Dev nD) : W4 m ρ c (Proc.devRef .tc main_v20) = (Cert.ReferenceIdeal.Stages.val_main_v31 (F := Ideal) (arg0 m c) (arg1 m c) (arg10 m c) (arg11 m c) (arg12 m c) (arg13 m c) (arg14 m c) (arg15 m c)) :=
  (W4_arr m ρ c 2).trans ((Cert.KernelIdeal.RegionValue.linear1 (V3 m ρ) c).trans (by
    rw [show V3 m ρ c main_v5 = (Cert.ReferenceIdeal.Stages.val_main_v19 (F := Ideal) (arg0 m c) (arg1 m c) (arg10 m c) (arg11 m c) (arg12 m c) (arg13 m c) (arg14 m c)) from at3_main_v5 m ρ c,
      show V3 m ρ c main_v13 = (Cert.ReferenceIdeal.Stages.val_main_v28 (F := Ideal) (arg15 m c)) from at3_main_v13 m ρ c]
    rfl))

/-! ## Boundary 5: after host stretch 2 -/

theorem at4_main_v11 (c : Dev nD) : W4 m ρ c (Proc.devRef .tc main_v11) = (Cert.ReferenceIdeal.Stages.val_main_v25 (F := Ideal) (arg2 m c)) :=
  (W4_of_ne m ρ c main_v11 (by decide)).trans (at3_main_v11 m ρ c)
theorem at4_main_arg3 (c : Dev nD) : W4 m ρ c (Proc.devRef .tc main_arg3) = (arg3 m c) :=
  (W4_of_ne m ρ c main_arg3 (by decide)).trans ((Cert.KernelIdeal.HostKeep.keep1 (W2 m ρ c) main_arg3 (by decide)).trans ((W2_of_ne m ρ c main_arg3 (by decide)).trans ((Cert.KernelIdeal.HostKeep.keep0 (W0 m ρ c) main_arg3 (by decide)).trans (at0_main_arg3 m ρ c))))
theorem at4_main_v9 (c : Dev nD) : W4 m ρ c (Proc.devRef .tc main_v9) = (Cert.ReferenceIdeal.Stages.val_main_v23 (F := Ideal) (arg2 m c)) :=
  (W4_of_ne m ρ c main_v9 (by decide)).trans (at3_main_v9 m ρ c)
theorem at4_main_v17 (c : Dev nD) : W4 m ρ c (Proc.devRef .tc main_v17) = (shapeCast S3 (extractStridedSlice S1x3 ![0, 0] (arg17 m c) Cert.KernelIdeal.Facts₀.slices_S3x3_S1x3_0_0) Cert.KernelIdeal.Facts₀.shapeCasts_S1x3_S3) :=
  (W4_of_ne m ρ c main_v17 (by decide)).trans (at3_main_v17 m ρ c)
theorem at5_main_v65 (c : Dev nD) : W5 m ρ c (Proc.devRef .tc main_v65) = (Cert.ReferenceIdeal.Stages.val_main_v76 (F := Ideal) (arg0 m c) (arg1 m c) (arg2 m c) (arg3 m c) (arg10 m c) (arg11 m c) (arg12 m c) (arg13 m c) (arg14 m c) (arg15 m c)) :=
  Cert.KernelIdeal.HostValue.value2_main_v65 (W4 m ρ c) (arg0 m c) (arg1 m c) (arg2 m c) (arg3 m c) (arg10 m c) (arg11 m c) (arg12 m c) (arg13 m c) (arg14 m c) (arg15 m c) (arg17 m c) (at4_main_v11 m ρ c) (at4_main_arg3 m ρ c) (at4_main_v9 m ρ c) (at4_main_v20 m ρ c) (at4_main_v17 m ρ c)
theorem at5_main_v68 (c : Dev nD) : W5 m ρ c (Proc.devRef .tc main_v68) = (shapeCast S1x1 (shapeCast S_ (extractStridedSlice S1 ![0] (shapeCast S3 (extractStridedSlice S1x3 ![0, 0] (arg17 m c) Cert.KernelIdeal.Facts₀.slices_S3x3_S1x3_0_0) Cert.KernelIdeal.Facts₀.shapeCasts_S1x3_S3) Cert.KernelIdeal.Facts₀.slices_S3_S1_0) Cert.KernelIdeal.Facts₀.shapeCasts_S1_S_) Cert.KernelIdeal.Facts₀.shapeCasts_S_S1x1) :=
  Cert.KernelIdeal.HostValue.value2_main_v68 (W4 m ρ c) (arg0 m c) (arg1 m c) (arg2 m c) (arg3 m c) (arg10 m c) (arg11 m c) (arg12 m c) (arg13 m c) (arg14 m c) (arg15 m c) (arg17 m c) (at4_main_v11 m ρ c) (at4_main_arg3 m ρ c) (at4_main_v9 m ρ c) (at4_main_v20 m ρ c) (at4_main_v17 m ρ c)
theorem at5_main_v69 (c : Dev nD) : W5 m ρ c (Proc.devRef .tc main_v69) = (shapeCast S400000x1 (Cert.ReferenceIdeal.Stages.val_main_v42 (F := Ideal) (arg2 m c) (arg3 m c)) Cert.KernelIdeal.Facts₀.shapeCasts_S400000_S400000x1) :=
  Cert.KernelIdeal.HostValue.value2_main_v69 (W4 m ρ c) (arg0 m c) (arg1 m c) (arg2 m c) (arg3 m c) (arg10 m c) (arg11 m c) (arg12 m c) (arg13 m c) (arg14 m c) (arg15 m c) (arg17 m c) (at4_main_v11 m ρ c) (at4_main_arg3 m ρ c) (at4_main_v9 m ρ c) (at4_main_v20 m ρ c) (at4_main_v17 m ρ c)

/-! ## Boundary 6: after region 2 -/

theorem at5_main_v20 (c : Dev nD) : W5 m ρ c (Proc.devRef .tc main_v20) = (Cert.ReferenceIdeal.Stages.val_main_v31 (F := Ideal) (arg0 m c) (arg1 m c) (arg10 m c) (arg11 m c) (arg12 m c) (arg13 m c) (arg14 m c) (arg15 m c)) :=
  (Cert.KernelIdeal.HostKeep.keep2 (W4 m ρ c) main_v20 (by decide)).trans (at4_main_v20 m ρ c)
theorem at5_main_v19 (c : Dev nD) : W5 m ρ c (Proc.devRef .tc main_v19) = (shapeCast S1x64 (Cert.ReferenceIdeal.Stages.val_main_v30 (F := Ideal) (arg16 m c)) Cert.KernelIdeal.Facts₀.shapeCasts_S64_S1x64) :=
  (Cert.KernelIdeal.HostKeep.keep2 (W4 m ρ c) main_v19 (by decide)).trans ((W4_of_ne m ρ c main_v19 (by decide)).trans (at3_main_v19 m ρ c))
theorem at5_main_v18 (c : Dev nD) : W5 m ρ c (Proc.devRef .tc main_v18) = (Cert.ReferenceIdeal.Stages.val_main_v26 (F := Ideal)) :=
  (Cert.KernelIdeal.HostKeep.keep2 (W4 m ρ c) main_v18 (by decide)).trans ((W4_of_ne m ρ c main_v18 (by decide)).trans (at3_main_v18 m ρ c))
theorem at6_main_v70_0 (c : Dev nD) : W6 m ρ c (Proc.devRef .tc main_v70_0) = (Cert.ReferenceIdeal.Stages.val_main_v85 (F := Ideal) (arg0 m c) (arg1 m c) (arg2 m c) (arg3 m c) (arg10 m c) (arg11 m c) (arg12 m c) (arg13 m c) (arg14 m c) (arg15 m c) (arg16 m c)) :=
  (W6_arr m ρ c 6).trans ((Cert.KernelIdeal.RegionValue.finalize2_h (V5 m ρ) c Cert.ReferenceIdeal.Facts₀.bcast_S400000x1_S400000x64_0_1 Cert.ReferenceIdeal.Facts₀.bcast_S1x64_S400000x64_0_1).trans (by
    rw [show V5 m ρ c main_v65 = (Cert.ReferenceIdeal.Stages.val_main_v76 (F := Ideal) (arg0 m c) (arg1 m c) (arg2 m c) (arg3 m c) (arg10 m c) (arg11 m c) (arg12 m c) (arg13 m c) (arg14 m c) (arg15 m c)) from at5_main_v65 m ρ c,
      show V5 m ρ c main_v20 = (Cert.ReferenceIdeal.Stages.val_main_v31 (F := Ideal) (arg0 m c) (arg1 m c) (arg10 m c) (arg11 m c) (arg12 m c) (arg13 m c) (arg14 m c) (arg15 m c)) from at5_main_v20 m ρ c,
      show V5 m ρ c main_v69 = (shapeCast S400000x1 (Cert.ReferenceIdeal.Stages.val_main_v42 (F := Ideal) (arg2 m c) (arg3 m c)) Cert.KernelIdeal.Facts₀.shapeCasts_S400000_S400000x1) from at5_main_v69 m ρ c,
      show V5 m ρ c main_v19 = (shapeCast S1x64 (Cert.ReferenceIdeal.Stages.val_main_v30 (F := Ideal) (arg16 m c)) Cert.KernelIdeal.Facts₀.shapeCasts_S64_S1x64) from at5_main_v19 m ρ c]
    exact (Cert.Gnn.convOut_of_reshapes Cert.ReferenceIdeal.Facts₀.bcast_S400000x1_S400000x64_0_1 Cert.ReferenceIdeal.Facts₀.bcast_S1x64_S400000x64_0_1 Cert.ReferenceIdeal.Facts₀.bcast_S400000_S400000x1_0 Cert.ReferenceIdeal.Facts₀.bcast_S64_S1x64_1 Cert.KernelIdeal.Facts₀.shapeCasts_S400000_S400000x1 Cert.KernelIdeal.Facts₀.shapeCasts_S64_S1x64 _ _ _ _).trans rfl))
theorem at6_main_v70_1 (c : Dev nD) : W6 m ρ c (Proc.devRef .tc main_v70_1) = (Cert.ReferenceIdeal.Stages.val_main_v90 (F := Ideal) (arg0 m c) (arg1 m c) (arg2 m c) (arg3 m c) (arg10 m c) (arg11 m c) (arg12 m c) (arg13 m c) (arg14 m c) (arg15 m c) (arg16 m c) (arg17 m c)) :=
  (W6_arr m ρ c 7).trans ((Cert.KernelIdeal.RegionValue.finalize2_acc (V5 m ρ) c Cert.ReferenceIdeal.Facts₀.bcast_S400000x1_S400000x64_0_1 Cert.ReferenceIdeal.Facts₀.bcast_S1x64_S400000x64_0_1 Cert.ReferenceIdeal.Facts₀.bcast_S_S400000x64 Cert.ReferenceIdeal.Facts₀.shapeCasts_S1x1_S_).trans (by
    rw [show V5 m ρ c main_v65 = (Cert.ReferenceIdeal.Stages.val_main_v76 (F := Ideal) (arg0 m c) (arg1 m c) (arg2 m c) (arg3 m c) (arg10 m c) (arg11 m c) (arg12 m c) (arg13 m c) (arg14 m c) (arg15 m c)) from at5_main_v65 m ρ c,
      show V5 m ρ c main_v20 = (Cert.ReferenceIdeal.Stages.val_main_v31 (F := Ideal) (arg0 m c) (arg1 m c) (arg10 m c) (arg11 m c) (arg12 m c) (arg13 m c) (arg14 m c) (arg15 m c)) from at5_main_v20 m ρ c,
      show V5 m ρ c main_v69 = (shapeCast S400000x1 (Cert.ReferenceIdeal.Stages.val_main_v42 (F := Ideal) (arg2 m c) (arg3 m c)) Cert.KernelIdeal.Facts₀.shapeCasts_S400000_S400000x1) from at5_main_v69 m ρ c,
      show V5 m ρ c main_v19 = (shapeCast S1x64 (Cert.ReferenceIdeal.Stages.val_main_v30 (F := Ideal) (arg16 m c)) Cert.KernelIdeal.Facts₀.shapeCasts_S64_S1x64) from at5_main_v19 m ρ c,
      show V5 m ρ c main_v68 = (shapeCast S1x1 (shapeCast S_ (extractStridedSlice S1 ![0] (shapeCast S3 (extractStridedSlice S1x3 ![0, 0] (arg17 m c) Cert.KernelIdeal.Facts₀.slices_S3x3_S1x3_0_0) Cert.KernelIdeal.Facts₀.shapeCasts_S1x3_S3) Cert.KernelIdeal.Facts₀.slices_S3_S1_0) Cert.KernelIdeal.Facts₀.shapeCasts_S1_S_) Cert.KernelIdeal.Facts₀.shapeCasts_S_S1x1) from at5_main_v68 m ρ c,
      show V5 m ρ c main_v18 = (Cert.ReferenceIdeal.Stages.val_main_v26 (F := Ideal)) from at5_main_v18 m ρ c]
    rw [Cert.Gnn.convOut_of_reshapes Cert.ReferenceIdeal.Facts₀.bcast_S400000x1_S400000x64_0_1 Cert.ReferenceIdeal.Facts₀.bcast_S1x64_S400000x64_0_1 Cert.ReferenceIdeal.Facts₀.bcast_S400000_S400000x1_0 Cert.ReferenceIdeal.Facts₀.bcast_S64_S1x64_1 Cert.KernelIdeal.Facts₀.shapeCasts_S400000_S400000x1 Cert.KernelIdeal.Facts₀.shapeCasts_S64_S1x64, Cert.Gnn.coef_eq (arg17 m c) 0 0 Cert.KernelIdeal.Facts₀.slices_S3x3_S1x3_0_0 Cert.KernelIdeal.Facts₀.shapeCasts_S1x3_S3 Cert.KernelIdeal.Facts₀.slices_S3_S1_0 Cert.KernelIdeal.Facts₀.shapeCasts_S1_S_ Cert.KernelIdeal.Facts₀.shapeCasts_S_S1x1 Cert.ReferenceIdeal.Facts₀.shapeCasts_S1x1_S_ Cert.ReferenceIdeal.Facts₀.slices_S3x3_S1x1_0_0]
    rfl))

/-! ## Boundary 7: after region 3 -/

theorem at6_main_v13 (c : Dev nD) : W6 m ρ c (Proc.devRef .tc main_v13) = (Cert.ReferenceIdeal.Stages.val_main_v28 (F := Ideal) (arg15 m c)) :=
  (W6_of_ne m ρ c main_v13 (by decide)).trans ((Cert.KernelIdeal.HostKeep.keep2 (W4 m ρ c) main_v13 (by decide)).trans (((W4_arr m ρ c 1).trans (((dat1 (V3 m ρ) c).arrAt_in 1 rfl _).trans (A_eq1 (V3 m ρ) c 1))).trans (at3_main_v13 m ρ c)))
theorem at7_main_v71 (c : Dev nD) : W7 m ρ c (Proc.devRef .tc main_v71) = (Cert.ReferenceIdeal.Stages.val_main_v95 (F := Ideal) (arg0 m c) (arg1 m c) (arg2 m c) (arg3 m c) (arg10 m c) (arg11 m c) (arg12 m c) (arg13 m c) (arg14 m c) (arg15 m c) (arg16 m c)) :=
  (W7_arr m ρ c 2).trans ((Cert.KernelIdeal.RegionValue.linear3 (V6 m ρ) c).trans (by
    rw [show V6 m ρ c main_v70_0 = (Cert.ReferenceIdeal.Stages.val_main_v85 (F := Ideal) (arg0 m c) (arg1 m c) (arg2 m c) (arg3 m c) (arg10 m c) (arg11 m c) (arg12 m c) (arg13 m c) (arg14 m c) (arg15 m c) (arg16 m c)) from at6_main_v70_0 m ρ c,
      show V6 m ρ c main_v13 = (Cert.ReferenceIdeal.Stages.val_main_v28 (F := Ideal) (arg15 m c)) from at6_main_v13 m ρ c]
    rfl))

/-! ## Boundary 8: after host stretch 4 -/

theorem at7_main_v11 (c : Dev nD) : W7 m ρ c (Proc.devRef .tc main_v11) = (Cert.ReferenceIdeal.Stages.val_main_v25 (F := Ideal) (arg2 m c)) :=
  (W7_of_ne m ρ c main_v11 (by decide)).trans ((W6_of_ne m ρ c main_v11 (by decide)).trans ((Cert.KernelIdeal.HostKeep.keep2 (W4 m ρ c) main_v11 (by decide)).trans (at4_main_v11 m ρ c)))
theorem at7_main_arg3 (c : Dev nD) : W7 m ρ c (Proc.devRef .tc main_arg3) = (arg3 m c) :=
  (W7_of_ne m ρ c main_arg3 (by decide)).trans ((W6_of_ne m ρ c main_arg3 (by decide)).trans ((Cert.KernelIdeal.HostKeep.keep2 (W4 m ρ c) main_arg3 (by decide)).trans (at4_main_arg3 m ρ c)))
theorem at7_main_v9 (c : Dev nD) : W7 m ρ c (Proc.devRef .tc main_v9) = (Cert.ReferenceIdeal.Stages.val_main_v23 (F := Ideal) (arg2 m c)) :=
  (W7_of_ne m ρ c main_v9 (by decide)).trans ((W6_of_ne m ρ c main_v9 (by decide)).trans ((Cert.KernelIdeal.HostKeep.keep2 (W4 m ρ c) main_v9 (by decide)).trans (at4_main_v9 m ρ c)))
theorem at7_main_v17 (c : Dev nD) : W7 m ρ c (Proc.devRef .tc main_v17) = (shapeCast S3 (extractStridedSlice S1x3 ![0, 0] (arg17 m c) Cert.KernelIdeal.Facts₀.slices_S3x3_S1x3_0_0) Cert.KernelIdeal.Facts₀.shapeCasts_S1x3_S3) :=
  (W7_of_ne m ρ c main_v17 (by decide)).trans ((W6_of_ne m ρ c main_v17 (by decide)).trans ((Cert.KernelIdeal.HostKeep.keep2 (W4 m ρ c) main_v17 (by decide)).trans (at4_main_v17 m ρ c)))
theorem at8_main_v116 (c : Dev nD) : W8 m ρ c (Proc.devRef .tc main_v116) = (Cert.ReferenceIdeal.Stages.val_main_v140 (F := Ideal) (arg0 m c) (arg1 m c) (arg2 m c) (arg3 m c) (arg10 m c) (arg11 m c) (arg12 m c) (arg13 m c) (arg14 m c) (arg15 m c) (arg16 m c)) :=
  Cert.KernelIdeal.HostValue.value4_main_v116 (W7 m ρ c) (arg0 m c) (arg1 m c) (arg2 m c) (arg3 m c) (arg10 m c) (arg11 m c) (arg12 m c) (arg13 m c) (arg14 m c) (arg15 m c) (arg16 m c) (arg17 m c) (at7_main_v11 m ρ c) (at7_main_arg3 m ρ c) (at7_main_v9 m ρ c) (at7_main_v71 m ρ c) (at7_main_v17 m ρ c)
theorem at8_main_v119 (c : Dev nD) : W8 m ρ c (Proc.devRef .tc main_v119) = (shapeCast S1x1 (shapeCast S_ (extractStridedSlice S1 ![1] (shapeCast S3 (extractStridedSlice S1x3 ![0, 0] (arg17 m c) Cert.KernelIdeal.Facts₀.slices_S3x3_S1x3_0_0) Cert.KernelIdeal.Facts₀.shapeCasts_S1x3_S3) Cert.KernelIdeal.Facts₀.slices_S3_S1_1) Cert.KernelIdeal.Facts₀.shapeCasts_S1_S_) Cert.KernelIdeal.Facts₀.shapeCasts_S_S1x1) :=
  Cert.KernelIdeal.HostValue.value4_main_v119 (W7 m ρ c) (arg0 m c) (arg1 m c) (arg2 m c) (arg3 m c) (arg10 m c) (arg11 m c) (arg12 m c) (arg13 m c) (arg14 m c) (arg15 m c) (arg16 m c) (arg17 m c) (at7_main_v11 m ρ c) (at7_main_arg3 m ρ c) (at7_main_v9 m ρ c) (at7_main_v71 m ρ c) (at7_main_v17 m ρ c)
theorem at8_main_v120 (c : Dev nD) : W8 m ρ c (Proc.devRef .tc main_v120) = (shapeCast S400000x1 (Cert.ReferenceIdeal.Stages.val_main_v42 (F := Ideal) (arg2 m c) (arg3 m c)) Cert.KernelIdeal.Facts₀.shapeCasts_S400000_S400000x1) :=
  Cert.KernelIdeal.HostValue.value4_main_v120 (W7 m ρ c) (arg0 m c) (arg1 m c) (arg2 m c) (arg3 m c) (arg10 m c) (arg11 m c) (arg12 m c) (arg13 m c) (arg14 m c) (arg15 m c) (arg16 m c) (arg17 m c) (at7_main_v11 m ρ c) (at7_main_arg3 m ρ c) (at7_main_v9 m ρ c) (at7_main_v71 m ρ c) (at7_main_v17 m ρ c)

/-! ## Boundary 9: after region 4 -/

theorem at8_main_v71 (c : Dev nD) : W8 m ρ c (Proc.devRef .tc main_v71) = (Cert.ReferenceIdeal.Stages.val_main_v95 (F := Ideal) (arg0 m c) (arg1 m c) (arg2 m c) (arg3 m c) (arg10 m c) (arg11 m c) (arg12 m c) (arg13 m c) (arg14 m c) (arg15 m c) (arg16 m c)) :=
  (Cert.KernelIdeal.HostKeep.keep4 (W7 m ρ c) main_v71 (by decide)).trans (at7_main_v71 m ρ c)
theorem at8_main_v19 (c : Dev nD) : W8 m ρ c (Proc.devRef .tc main_v19) = (shapeCast S1x64 (Cert.ReferenceIdeal.Stages.val_main_v30 (F := Ideal) (arg16 m c)) Cert.KernelIdeal.Facts₀.shapeCasts_S64_S1x64) :=
  (Cert.KernelIdeal.HostKeep.keep4 (W7 m ρ c) main_v19 (by decide)).trans ((W7_of_ne m ρ c main_v19 (by decide)).trans (((W6_arr m ρ c 3).trans (((dat2 (V5 m ρ) c).arrAt_in 3 rfl _).trans (A_eq2 (V5 m ρ) c 3))).trans (at5_main_v19 m ρ c)))
theorem at8_main_v70_1 (c : Dev nD) : W8 m ρ c (Proc.devRef .tc main_v70_1) = (Cert.ReferenceIdeal.Stages.val_main_v90 (F := Ideal) (arg0 m c) (arg1 m c) (arg2 m c) (arg3 m c) (arg10 m c) (arg11 m c) (arg12 m c) (arg13 m c) (arg14 m c) (arg15 m c) (arg16 m c) (arg17 m c)) :=
  (Cert.KernelIdeal.HostKeep.keep4 (W7 m ρ c) main_v70_1 (by decide)).trans ((W7_of_ne m ρ c main_v70_1 (by decide)).trans (at6_main_v70_1 m ρ c))
theorem at9_main_v121_0 (c : Dev nD) : W9 m ρ c (Proc.devRef .tc main_v121_0) = (Cert.ReferenceIdeal.Stages.val_main_v149 (F := Ideal) (arg0 m c) (arg1 m c) (arg2 m c) (arg3 m c) (arg10 m c) (arg11 m c) (arg12 m c) (arg13 m c) (arg14 m c) (arg15 m c) (arg16 m c)) :=
  (W9_arr m ρ c 6).trans ((Cert.KernelIdeal.RegionValue.finalize4_h (V8 m ρ) c Cert.ReferenceIdeal.Facts₀.bcast_S400000x1_S400000x64_0_1 Cert.ReferenceIdeal.Facts₀.bcast_S1x64_S400000x64_0_1).trans (by
    rw [show V8 m ρ c main_v116 = (Cert.ReferenceIdeal.Stages.val_main_v140 (F := Ideal) (arg0 m c) (arg1 m c) (arg2 m c) (arg3 m c) (arg10 m c) (arg11 m c) (arg12 m c) (arg13 m c) (arg14 m c) (arg15 m c) (arg16 m c)) from at8_main_v116 m ρ c,
      show V8 m ρ c main_v71 = (Cert.ReferenceIdeal.Stages.val_main_v95 (F := Ideal) (arg0 m c) (arg1 m c) (arg2 m c) (arg3 m c) (arg10 m c) (arg11 m c) (arg12 m c) (arg13 m c) (arg14 m c) (arg15 m c) (arg16 m c)) from at8_main_v71 m ρ c,
      show V8 m ρ c main_v120 = (shapeCast S400000x1 (Cert.ReferenceIdeal.Stages.val_main_v42 (F := Ideal) (arg2 m c) (arg3 m c)) Cert.KernelIdeal.Facts₀.shapeCasts_S400000_S400000x1) from at8_main_v120 m ρ c,
      show V8 m ρ c main_v19 = (shapeCast S1x64 (Cert.ReferenceIdeal.Stages.val_main_v30 (F := Ideal) (arg16 m c)) Cert.KernelIdeal.Facts₀.shapeCasts_S64_S1x64) from at8_main_v19 m ρ c]
    exact (Cert.Gnn.convOut_of_reshapes Cert.ReferenceIdeal.Facts₀.bcast_S400000x1_S400000x64_0_1 Cert.ReferenceIdeal.Facts₀.bcast_S1x64_S400000x64_0_1 Cert.ReferenceIdeal.Facts₀.bcast_S400000_S400000x1_0 Cert.ReferenceIdeal.Facts₀.bcast_S64_S1x64_1 Cert.KernelIdeal.Facts₀.shapeCasts_S400000_S400000x1 Cert.KernelIdeal.Facts₀.shapeCasts_S64_S1x64 _ _ _ _).trans rfl))
theorem at9_main_v121_1 (c : Dev nD) : W9 m ρ c (Proc.devRef .tc main_v121_1) = (Cert.ReferenceIdeal.Stages.val_main_v154 (F := Ideal) (arg0 m c) (arg1 m c) (arg2 m c) (arg3 m c) (arg10 m c) (arg11 m c) (arg12 m c) (arg13 m c) (arg14 m c) (arg15 m c) (arg16 m c) (arg17 m c)) :=
  (W9_arr m ρ c 7).trans ((Cert.KernelIdeal.RegionValue.finalize4_acc (V8 m ρ) c Cert.ReferenceIdeal.Facts₀.bcast_S400000x1_S400000x64_0_1 Cert.ReferenceIdeal.Facts₀.bcast_S1x64_S400000x64_0_1 Cert.ReferenceIdeal.Facts₀.bcast_S_S400000x64 Cert.ReferenceIdeal.Facts₀.shapeCasts_S1x1_S_).trans (by
    rw [show V8 m ρ c main_v116 = (Cert.ReferenceIdeal.Stages.val_main_v140 (F := Ideal) (arg0 m c) (arg1 m c) (arg2 m c) (arg3 m c) (arg10 m c) (arg11 m c) (arg12 m c) (arg13 m c) (arg14 m c) (arg15 m c) (arg16 m c)) from at8_main_v116 m ρ c,
      show V8 m ρ c main_v71 = (Cert.ReferenceIdeal.Stages.val_main_v95 (F := Ideal) (arg0 m c) (arg1 m c) (arg2 m c) (arg3 m c) (arg10 m c) (arg11 m c) (arg12 m c) (arg13 m c) (arg14 m c) (arg15 m c) (arg16 m c)) from at8_main_v71 m ρ c,
      show V8 m ρ c main_v120 = (shapeCast S400000x1 (Cert.ReferenceIdeal.Stages.val_main_v42 (F := Ideal) (arg2 m c) (arg3 m c)) Cert.KernelIdeal.Facts₀.shapeCasts_S400000_S400000x1) from at8_main_v120 m ρ c,
      show V8 m ρ c main_v19 = (shapeCast S1x64 (Cert.ReferenceIdeal.Stages.val_main_v30 (F := Ideal) (arg16 m c)) Cert.KernelIdeal.Facts₀.shapeCasts_S64_S1x64) from at8_main_v19 m ρ c,
      show V8 m ρ c main_v119 = (shapeCast S1x1 (shapeCast S_ (extractStridedSlice S1 ![1] (shapeCast S3 (extractStridedSlice S1x3 ![0, 0] (arg17 m c) Cert.KernelIdeal.Facts₀.slices_S3x3_S1x3_0_0) Cert.KernelIdeal.Facts₀.shapeCasts_S1x3_S3) Cert.KernelIdeal.Facts₀.slices_S3_S1_1) Cert.KernelIdeal.Facts₀.shapeCasts_S1_S_) Cert.KernelIdeal.Facts₀.shapeCasts_S_S1x1) from at8_main_v119 m ρ c,
      show V8 m ρ c main_v70_1 = (Cert.ReferenceIdeal.Stages.val_main_v90 (F := Ideal) (arg0 m c) (arg1 m c) (arg2 m c) (arg3 m c) (arg10 m c) (arg11 m c) (arg12 m c) (arg13 m c) (arg14 m c) (arg15 m c) (arg16 m c) (arg17 m c)) from at8_main_v70_1 m ρ c]
    rw [Cert.Gnn.convOut_of_reshapes Cert.ReferenceIdeal.Facts₀.bcast_S400000x1_S400000x64_0_1 Cert.ReferenceIdeal.Facts₀.bcast_S1x64_S400000x64_0_1 Cert.ReferenceIdeal.Facts₀.bcast_S400000_S400000x1_0 Cert.ReferenceIdeal.Facts₀.bcast_S64_S1x64_1 Cert.KernelIdeal.Facts₀.shapeCasts_S400000_S400000x1 Cert.KernelIdeal.Facts₀.shapeCasts_S64_S1x64, Cert.Gnn.coef_eq (arg17 m c) 0 1 Cert.KernelIdeal.Facts₀.slices_S3x3_S1x3_0_0 Cert.KernelIdeal.Facts₀.shapeCasts_S1x3_S3 Cert.KernelIdeal.Facts₀.slices_S3_S1_1 Cert.KernelIdeal.Facts₀.shapeCasts_S1_S_ Cert.KernelIdeal.Facts₀.shapeCasts_S_S1x1 Cert.ReferenceIdeal.Facts₀.shapeCasts_S1x1_S_ Cert.ReferenceIdeal.Facts₀.slices_S3x3_S1x1_0_1]
    rfl))

/-! ## Boundary 10: after region 5 -/

theorem at9_main_v13 (c : Dev nD) : W9 m ρ c (Proc.devRef .tc main_v13) = (Cert.ReferenceIdeal.Stages.val_main_v28 (F := Ideal) (arg15 m c)) :=
  (W9_of_ne m ρ c main_v13 (by decide)).trans ((Cert.KernelIdeal.HostKeep.keep4 (W7 m ρ c) main_v13 (by decide)).trans (((W7_arr m ρ c 1).trans (((dat3 (V6 m ρ) c).arrAt_in 1 rfl _).trans (A_eq3 (V6 m ρ) c 1))).trans (at6_main_v13 m ρ c)))
theorem at10_main_v122 (c : Dev nD) : W10 m ρ c (Proc.devRef .tc main_v122) = (Cert.ReferenceIdeal.Stages.val_main_v159 (F := Ideal) (arg0 m c) (arg1 m c) (arg2 m c) (arg3 m c) (arg10 m c) (arg11 m c) (arg12 m c) (arg13 m c) (arg14 m c) (arg15 m c) (arg16 m c)) :=
  (W10_arr m ρ c 2).trans ((Cert.KernelIdeal.RegionValue.linear5 (V9 m ρ) c).trans (by
    rw [show V9 m ρ c main_v121_0 = (Cert.ReferenceIdeal.Stages.val_main_v149 (F := Ideal) (arg0 m c) (arg1 m c) (arg2 m c) (arg3 m c) (arg10 m c) (arg11 m c) (arg12 m c) (arg13 m c) (arg14 m c) (arg15 m c) (arg16 m c)) from at9_main_v121_0 m ρ c,
      show V9 m ρ c main_v13 = (Cert.ReferenceIdeal.Stages.val_main_v28 (F := Ideal) (arg15 m c)) from at9_main_v13 m ρ c]
    rfl))

/-! ## Boundary 11: after host stretch 6 -/

theorem at10_main_v11 (c : Dev nD) : W10 m ρ c (Proc.devRef .tc main_v11) = (Cert.ReferenceIdeal.Stages.val_main_v25 (F := Ideal) (arg2 m c)) :=
  (W10_of_ne m ρ c main_v11 (by decide)).trans ((W9_of_ne m ρ c main_v11 (by decide)).trans ((Cert.KernelIdeal.HostKeep.keep4 (W7 m ρ c) main_v11 (by decide)).trans (at7_main_v11 m ρ c)))
theorem at10_main_arg3 (c : Dev nD) : W10 m ρ c (Proc.devRef .tc main_arg3) = (arg3 m c) :=
  (W10_of_ne m ρ c main_arg3 (by decide)).trans ((W9_of_ne m ρ c main_arg3 (by decide)).trans ((Cert.KernelIdeal.HostKeep.keep4 (W7 m ρ c) main_arg3 (by decide)).trans (at7_main_arg3 m ρ c)))
theorem at10_main_v9 (c : Dev nD) : W10 m ρ c (Proc.devRef .tc main_v9) = (Cert.ReferenceIdeal.Stages.val_main_v23 (F := Ideal) (arg2 m c)) :=
  (W10_of_ne m ρ c main_v9 (by decide)).trans ((W9_of_ne m ρ c main_v9 (by decide)).trans ((Cert.KernelIdeal.HostKeep.keep4 (W7 m ρ c) main_v9 (by decide)).trans (at7_main_v9 m ρ c)))
theorem at10_main_v17 (c : Dev nD) : W10 m ρ c (Proc.devRef .tc main_v17) = (shapeCast S3 (extractStridedSlice S1x3 ![0, 0] (arg17 m c) Cert.KernelIdeal.Facts₀.slices_S3x3_S1x3_0_0) Cert.KernelIdeal.Facts₀.shapeCasts_S1x3_S3) :=
  (W10_of_ne m ρ c main_v17 (by decide)).trans ((W9_of_ne m ρ c main_v17 (by decide)).trans ((Cert.KernelIdeal.HostKeep.keep4 (W7 m ρ c) main_v17 (by decide)).trans (at7_main_v17 m ρ c)))
theorem at11_main_v167 (c : Dev nD) : W11 m ρ c (Proc.devRef .tc main_v167) = (Cert.ReferenceIdeal.Stages.val_main_v204 (F := Ideal) (arg0 m c) (arg1 m c) (arg2 m c) (arg3 m c) (arg10 m c) (arg11 m c) (arg12 m c) (arg13 m c) (arg14 m c) (arg15 m c) (arg16 m c)) :=
  Cert.KernelIdeal.HostValue.value6_main_v167 (W10 m ρ c) (arg0 m c) (arg1 m c) (arg2 m c) (arg3 m c) (arg10 m c) (arg11 m c) (arg12 m c) (arg13 m c) (arg14 m c) (arg15 m c) (arg16 m c) (arg17 m c) (at10_main_v11 m ρ c) (at10_main_arg3 m ρ c) (at10_main_v9 m ρ c) (at10_main_v122 m ρ c) (at10_main_v17 m ρ c)
theorem at11_main_v170 (c : Dev nD) : W11 m ρ c (Proc.devRef .tc main_v170) = (shapeCast S1x1 (shapeCast S_ (extractStridedSlice S1 ![2] (shapeCast S3 (extractStridedSlice S1x3 ![0, 0] (arg17 m c) Cert.KernelIdeal.Facts₀.slices_S3x3_S1x3_0_0) Cert.KernelIdeal.Facts₀.shapeCasts_S1x3_S3) Cert.KernelIdeal.Facts₀.slices_S3_S1_2) Cert.KernelIdeal.Facts₀.shapeCasts_S1_S_) Cert.KernelIdeal.Facts₀.shapeCasts_S_S1x1) :=
  Cert.KernelIdeal.HostValue.value6_main_v170 (W10 m ρ c) (arg0 m c) (arg1 m c) (arg2 m c) (arg3 m c) (arg10 m c) (arg11 m c) (arg12 m c) (arg13 m c) (arg14 m c) (arg15 m c) (arg16 m c) (arg17 m c) (at10_main_v11 m ρ c) (at10_main_arg3 m ρ c) (at10_main_v9 m ρ c) (at10_main_v122 m ρ c) (at10_main_v17 m ρ c)
theorem at11_main_v171 (c : Dev nD) : W11 m ρ c (Proc.devRef .tc main_v171) = (shapeCast S400000x1 (Cert.ReferenceIdeal.Stages.val_main_v42 (F := Ideal) (arg2 m c) (arg3 m c)) Cert.KernelIdeal.Facts₀.shapeCasts_S400000_S400000x1) :=
  Cert.KernelIdeal.HostValue.value6_main_v171 (W10 m ρ c) (arg0 m c) (arg1 m c) (arg2 m c) (arg3 m c) (arg10 m c) (arg11 m c) (arg12 m c) (arg13 m c) (arg14 m c) (arg15 m c) (arg16 m c) (arg17 m c) (at10_main_v11 m ρ c) (at10_main_arg3 m ρ c) (at10_main_v9 m ρ c) (at10_main_v122 m ρ c) (at10_main_v17 m ρ c)

/-! ## Boundary 12: after region 6 -/

theorem at11_main_v122 (c : Dev nD) : W11 m ρ c (Proc.devRef .tc main_v122) = (Cert.ReferenceIdeal.Stages.val_main_v159 (F := Ideal) (arg0 m c) (arg1 m c) (arg2 m c) (arg3 m c) (arg10 m c) (arg11 m c) (arg12 m c) (arg13 m c) (arg14 m c) (arg15 m c) (arg16 m c)) :=
  (Cert.KernelIdeal.HostKeep.keep6 (W10 m ρ c) main_v122 (by decide)).trans (at10_main_v122 m ρ c)
theorem at11_main_v19 (c : Dev nD) : W11 m ρ c (Proc.devRef .tc main_v19) = (shapeCast S1x64 (Cert.ReferenceIdeal.Stages.val_main_v30 (F := Ideal) (arg16 m c)) Cert.KernelIdeal.Facts₀.shapeCasts_S64_S1x64) :=
  (Cert.KernelIdeal.HostKeep.keep6 (W10 m ρ c) main_v19 (by decide)).trans ((W10_of_ne m ρ c main_v19 (by decide)).trans (((W9_arr m ρ c 3).trans (((dat4 (V8 m ρ) c).arrAt_in 3 rfl _).trans (A_eq4 (V8 m ρ) c 3))).trans (at8_main_v19 m ρ c)))
theorem at11_main_v121_1 (c : Dev nD) : W11 m ρ c (Proc.devRef .tc main_v121_1) = (Cert.ReferenceIdeal.Stages.val_main_v154 (F := Ideal) (arg0 m c) (arg1 m c) (arg2 m c) (arg3 m c) (arg10 m c) (arg11 m c) (arg12 m c) (arg13 m c) (arg14 m c) (arg15 m c) (arg16 m c) (arg17 m c)) :=
  (Cert.KernelIdeal.HostKeep.keep6 (W10 m ρ c) main_v121_1 (by decide)).trans ((W10_of_ne m ρ c main_v121_1 (by decide)).trans (at9_main_v121_1 m ρ c))
theorem at12_main_v172_1 (c : Dev nD) : W12 m ρ c (Proc.devRef .tc main_v172_1) = (Cert.ReferenceIdeal.Stages.val_main_v218 (F := Ideal) (arg0 m c) (arg1 m c) (arg2 m c) (arg3 m c) (arg10 m c) (arg11 m c) (arg12 m c) (arg13 m c) (arg14 m c) (arg15 m c) (arg16 m c) (arg17 m c)) :=
  (W12_arr m ρ c 7).trans ((Cert.KernelIdeal.RegionValue.finalize6_acc (V11 m ρ) c Cert.ReferenceIdeal.Facts₀.bcast_S400000x1_S400000x64_0_1 Cert.ReferenceIdeal.Facts₀.bcast_S1x64_S400000x64_0_1 Cert.ReferenceIdeal.Facts₀.bcast_S_S400000x64 Cert.ReferenceIdeal.Facts₀.shapeCasts_S1x1_S_).trans (by
    rw [show V11 m ρ c main_v167 = (Cert.ReferenceIdeal.Stages.val_main_v204 (F := Ideal) (arg0 m c) (arg1 m c) (arg2 m c) (arg3 m c) (arg10 m c) (arg11 m c) (arg12 m c) (arg13 m c) (arg14 m c) (arg15 m c) (arg16 m c)) from at11_main_v167 m ρ c,
      show V11 m ρ c main_v122 = (Cert.ReferenceIdeal.Stages.val_main_v159 (F := Ideal) (arg0 m c) (arg1 m c) (arg2 m c) (arg3 m c) (arg10 m c) (arg11 m c) (arg12 m c) (arg13 m c) (arg14 m c) (arg15 m c) (arg16 m c)) from at11_main_v122 m ρ c,
      show V11 m ρ c main_v171 = (shapeCast S400000x1 (Cert.ReferenceIdeal.Stages.val_main_v42 (F := Ideal) (arg2 m c) (arg3 m c)) Cert.KernelIdeal.Facts₀.shapeCasts_S400000_S400000x1) from at11_main_v171 m ρ c,
      show V11 m ρ c main_v19 = (shapeCast S1x64 (Cert.ReferenceIdeal.Stages.val_main_v30 (F := Ideal) (arg16 m c)) Cert.KernelIdeal.Facts₀.shapeCasts_S64_S1x64) from at11_main_v19 m ρ c,
      show V11 m ρ c main_v170 = (shapeCast S1x1 (shapeCast S_ (extractStridedSlice S1 ![2] (shapeCast S3 (extractStridedSlice S1x3 ![0, 0] (arg17 m c) Cert.KernelIdeal.Facts₀.slices_S3x3_S1x3_0_0) Cert.KernelIdeal.Facts₀.shapeCasts_S1x3_S3) Cert.KernelIdeal.Facts₀.slices_S3_S1_2) Cert.KernelIdeal.Facts₀.shapeCasts_S1_S_) Cert.KernelIdeal.Facts₀.shapeCasts_S_S1x1) from at11_main_v170 m ρ c,
      show V11 m ρ c main_v121_1 = (Cert.ReferenceIdeal.Stages.val_main_v154 (F := Ideal) (arg0 m c) (arg1 m c) (arg2 m c) (arg3 m c) (arg10 m c) (arg11 m c) (arg12 m c) (arg13 m c) (arg14 m c) (arg15 m c) (arg16 m c) (arg17 m c)) from at11_main_v121_1 m ρ c]
    rw [Cert.Gnn.convOut_of_reshapes Cert.ReferenceIdeal.Facts₀.bcast_S400000x1_S400000x64_0_1 Cert.ReferenceIdeal.Facts₀.bcast_S1x64_S400000x64_0_1 Cert.ReferenceIdeal.Facts₀.bcast_S400000_S400000x1_0 Cert.ReferenceIdeal.Facts₀.bcast_S64_S1x64_1 Cert.KernelIdeal.Facts₀.shapeCasts_S400000_S400000x1 Cert.KernelIdeal.Facts₀.shapeCasts_S64_S1x64, Cert.Gnn.coef_eq (arg17 m c) 0 2 Cert.KernelIdeal.Facts₀.slices_S3x3_S1x3_0_0 Cert.KernelIdeal.Facts₀.shapeCasts_S1x3_S3 Cert.KernelIdeal.Facts₀.slices_S3_S1_2 Cert.KernelIdeal.Facts₀.shapeCasts_S1_S_ Cert.KernelIdeal.Facts₀.shapeCasts_S_S1x1 Cert.ReferenceIdeal.Facts₀.shapeCasts_S1x1_S_ Cert.ReferenceIdeal.Facts₀.slices_S3x3_S1x1_0_2]
    rfl))

/-! ## Boundary 13: after host stretch 7 -/

theorem at12_main_arg4 (c : Dev nD) : W12 m ρ c (Proc.devRef .tc main_arg4) = (arg4 m c) :=
  (W12_of_ne m ρ c main_arg4 (by decide)).trans ((Cert.KernelIdeal.HostKeep.keep6 (W10 m ρ c) main_arg4 (by decide)).trans ((W10_of_ne m ρ c main_arg4 (by decide)).trans ((W9_of_ne m ρ c main_arg4 (by decide)).trans ((Cert.KernelIdeal.HostKeep.keep4 (W7 m ρ c) main_arg4 (by decide)).trans ((W7_of_ne m ρ c main_arg4 (by decide)).trans ((W6_of_ne m ρ c main_arg4 (by decide)).trans ((Cert.KernelIdeal.HostKeep.keep2 (W4 m ρ c) main_arg4 (by decide)).trans ((W4_of_ne m ρ c main_arg4 (by decide)).trans ((Cert.KernelIdeal.HostKeep.keep1 (W2 m ρ c) main_arg4 (by decide)).trans ((W2_of_ne m ρ c main_arg4 (by decide)).trans ((Cert.KernelIdeal.HostKeep.keep0 (W0 m ρ c) main_arg4 (by decide)).trans (at0_main_arg4 m ρ c))))))))))))
theorem at12_main_arg15 (c : Dev nD) : W12 m ρ c (Proc.devRef .tc main_arg15) = (arg15 m c) :=
  (W12_of_ne m ρ c main_arg15 (by decide)).trans ((Cert.KernelIdeal.HostKeep.keep6 (W10 m ρ c) main_arg15 (by decide)).trans ((W10_of_ne m ρ c main_arg15 (by decide)).trans ((W9_of_ne m ρ c main_arg15 (by decide)).trans ((Cert.KernelIdeal.HostKeep.keep4 (W7 m ρ c) main_arg15 (by decide)).trans ((W7_of_ne m ρ c main_arg15 (by decide)).trans ((W6_of_ne m ρ c main_arg15 (by decide)).trans ((Cert.KernelIdeal.HostKeep.keep2 (W4 m ρ c) main_arg15 (by decide)).trans ((W4_of_ne m ρ c main_arg15 (by decide)).trans ((Cert.KernelIdeal.HostKeep.keep1 (W2 m ρ c) main_arg15 (by decide)).trans (at2_main_arg15 m ρ c))))))))))
theorem at12_main_arg16 (c : Dev nD) : W12 m ρ c (Proc.devRef .tc main_arg16) = (arg16 m c) :=
  (W12_of_ne m ρ c main_arg16 (by decide)).trans ((Cert.KernelIdeal.HostKeep.keep6 (W10 m ρ c) main_arg16 (by decide)).trans ((W10_of_ne m ρ c main_arg16 (by decide)).trans ((W9_of_ne m ρ c main_arg16 (by decide)).trans ((Cert.KernelIdeal.HostKeep.keep4 (W7 m ρ c) main_arg16 (by decide)).trans ((W7_of_ne m ρ c main_arg16 (by decide)).trans ((W6_of_ne m ρ c main_arg16 (by decide)).trans ((Cert.KernelIdeal.HostKeep.keep2 (W4 m ρ c) main_arg16 (by decide)).trans ((W4_of_ne m ρ c main_arg16 (by decide)).trans ((Cert.KernelIdeal.HostKeep.keep1 (W2 m ρ c) main_arg16 (by decide)).trans (at2_main_arg16 m ρ c))))))))))
theorem at12_main_arg17 (c : Dev nD) : W12 m ρ c (Proc.devRef .tc main_arg17) = (arg17 m c) :=
  (W12_of_ne m ρ c main_arg17 (by decide)).trans ((Cert.KernelIdeal.HostKeep.keep6 (W10 m ρ c) main_arg17 (by decide)).trans ((W10_of_ne m ρ c main_arg17 (by decide)).trans ((W9_of_ne m ρ c main_arg17 (by decide)).trans ((Cert.KernelIdeal.HostKeep.keep4 (W7 m ρ c) main_arg17 (by decide)).trans ((W7_of_ne m ρ c main_arg17 (by decide)).trans ((W6_of_ne m ρ c main_arg17 (by decide)).trans ((Cert.KernelIdeal.HostKeep.keep2 (W4 m ρ c) main_arg17 (by decide)).trans ((W4_of_ne m ρ c main_arg17 (by decide)).trans ((Cert.KernelIdeal.HostKeep.keep1 (W2 m ρ c) main_arg17 (by decide)).trans (at2_main_arg17 m ρ c))))))))))
theorem at13_main_v174 (c : Dev nD) : W13 m ρ c (Proc.devRef .tc main_v174) = (Cert.ReferenceIdeal.Stages.val_main_v220 (F := Ideal) (arg4 m c)) :=
  Cert.KernelIdeal.HostValue.value7_main_v174 (W12 m ρ c) (arg4 m c) (arg15 m c) (arg16 m c) (arg17 m c) (at12_main_arg4 m ρ c) (at12_main_arg15 m ρ c) (at12_main_arg16 m ρ c) (at12_main_arg17 m ρ c)
theorem at13_main_v176 (c : Dev nD) : W13 m ρ c (Proc.devRef .tc main_v176) = (Cert.ReferenceIdeal.Stages.val_main_v222 (F := Ideal) (arg4 m c)) :=
  Cert.KernelIdeal.HostValue.value7_main_v176 (W12 m ρ c) (arg4 m c) (arg15 m c) (arg16 m c) (arg17 m c) (at12_main_arg4 m ρ c) (at12_main_arg15 m ρ c) (at12_main_arg16 m ρ c) (at12_main_arg17 m ρ c)
theorem at13_main_v178 (c : Dev nD) : W13 m ρ c (Proc.devRef .tc main_v178) = (Cert.ReferenceIdeal.Stages.val_main_v225 (F := Ideal) (arg15 m c)) :=
  Cert.KernelIdeal.HostValue.value7_main_v178 (W12 m ρ c) (arg4 m c) (arg15 m c) (arg16 m c) (arg17 m c) (at12_main_arg4 m ρ c) (at12_main_arg15 m ρ c) (at12_main_arg16 m ρ c) (at12_main_arg17 m ρ c)
theorem at13_main_v182 (c : Dev nD) : W13 m ρ c (Proc.devRef .tc main_v182) = (shapeCast S3 (extractStridedSlice S1x3 ![1, 0] (arg17 m c) Cert.KernelIdeal.Facts₀.slices_S3x3_S1x3_1_0) Cert.KernelIdeal.Facts₀.shapeCasts_S1x3_S3) :=
  Cert.KernelIdeal.HostValue.value7_main_v182 (W12 m ρ c) (arg4 m c) (arg15 m c) (arg16 m c) (arg17 m c) (at12_main_arg4 m ρ c) (at12_main_arg15 m ρ c) (at12_main_arg16 m ρ c) (at12_main_arg17 m ρ c)
theorem at13_main_v183 (c : Dev nD) : W13 m ρ c (Proc.devRef .tc main_v183) = (Cert.ReferenceIdeal.Stages.val_main_v223 (F := Ideal)) :=
  Cert.KernelIdeal.HostValue.value7_main_v183 (W12 m ρ c) (arg4 m c) (arg15 m c) (arg16 m c) (arg17 m c) (at12_main_arg4 m ρ c) (at12_main_arg15 m ρ c) (at12_main_arg16 m ρ c) (at12_main_arg17 m ρ c)
theorem at13_main_v184 (c : Dev nD) : W13 m ρ c (Proc.devRef .tc main_v184) = (shapeCast S1x64 (Cert.ReferenceIdeal.Stages.val_main_v227 (F := Ideal) (arg16 m c)) Cert.KernelIdeal.Facts₀.shapeCasts_S64_S1x64) :=
  Cert.KernelIdeal.HostValue.value7_main_v184 (W12 m ρ c) (arg4 m c) (arg15 m c) (arg16 m c) (arg17 m c) (at12_main_arg4 m ρ c) (at12_main_arg15 m ρ c) (at12_main_arg16 m ρ c) (at12_main_arg17 m ρ c)

/-! ## Boundary 14: after region 7 -/

theorem at13_main_v6 (c : Dev nD) : W13 m ρ c (Proc.devRef .tc main_v6) = (Cert.ReferenceIdeal.Stages.val_main_v20 (F := Ideal) (arg0 m c) (arg1 m c) (arg10 m c) (arg11 m c) (arg12 m c) (arg13 m c) (arg14 m c)) :=
  (Cert.KernelIdeal.HostKeep.keep7 (W12 m ρ c) main_v6 (by decide)).trans ((W12_of_ne m ρ c main_v6 (by decide)).trans ((Cert.KernelIdeal.HostKeep.keep6 (W10 m ρ c) main_v6 (by decide)).trans ((W10_of_ne m ρ c main_v6 (by decide)).trans ((W9_of_ne m ρ c main_v6 (by decide)).trans ((Cert.KernelIdeal.HostKeep.keep4 (W7 m ρ c) main_v6 (by decide)).trans ((W7_of_ne m ρ c main_v6 (by decide)).trans ((W6_of_ne m ρ c main_v6 (by decide)).trans ((Cert.KernelIdeal.HostKeep.keep2 (W4 m ρ c) main_v6 (by decide)).trans ((W4_of_ne m ρ c main_v6 (by decide)).trans (at3_main_v6 m ρ c))))))))))
theorem at14_main_v185 (c : Dev nD) : W14 m ρ c (Proc.devRef .tc main_v185) = (Cert.ReferenceIdeal.Stages.val_main_v228 (F := Ideal) (arg0 m c) (arg1 m c) (arg10 m c) (arg11 m c) (arg12 m c) (arg13 m c) (arg14 m c) (arg15 m c)) :=
  (W14_arr m ρ c 2).trans ((Cert.KernelIdeal.RegionValue.linear7 (V13 m ρ) c).trans (by
    rw [show V13 m ρ c main_v6 = (Cert.ReferenceIdeal.Stages.val_main_v20 (F := Ideal) (arg0 m c) (arg1 m c) (arg10 m c) (arg11 m c) (arg12 m c) (arg13 m c) (arg14 m c)) from at13_main_v6 m ρ c,
      show V13 m ρ c main_v178 = (Cert.ReferenceIdeal.Stages.val_main_v225 (F := Ideal) (arg15 m c)) from at13_main_v178 m ρ c]
    rfl))

/-! ## Boundary 15: after host stretch 8 -/

theorem at14_main_v176 (c : Dev nD) : W14 m ρ c (Proc.devRef .tc main_v176) = (Cert.ReferenceIdeal.Stages.val_main_v222 (F := Ideal) (arg4 m c)) :=
  (W14_of_ne m ρ c main_v176 (by decide)).trans (at13_main_v176 m ρ c)
theorem at14_main_arg5 (c : Dev nD) : W14 m ρ c (Proc.devRef .tc main_arg5) = (arg5 m c) :=
  (W14_of_ne m ρ c main_arg5 (by decide)).trans ((Cert.KernelIdeal.HostKeep.keep7 (W12 m ρ c) main_arg5 (by decide)).trans ((W12_of_ne m ρ c main_arg5 (by decide)).trans ((Cert.KernelIdeal.HostKeep.keep6 (W10 m ρ c) main_arg5 (by decide)).trans ((W10_of_ne m ρ c main_arg5 (by decide)).trans ((W9_of_ne m ρ c main_arg5 (by decide)).trans ((Cert.KernelIdeal.HostKeep.keep4 (W7 m ρ c) main_arg5 (by decide)).trans ((W7_of_ne m ρ c main_arg5 (by decide)).trans ((W6_of_ne m ρ c main_arg5 (by decide)).trans ((Cert.KernelIdeal.HostKeep.keep2 (W4 m ρ c) main_arg5 (by decide)).trans ((W4_of_ne m ρ c main_arg5 (by decide)).trans ((Cert.KernelIdeal.HostKeep.keep1 (W2 m ρ c) main_arg5 (by decide)).trans ((W2_of_ne m ρ c main_arg5 (by decide)).trans ((Cert.KernelIdeal.HostKeep.keep0 (W0 m ρ c) main_arg5 (by decide)).trans (at0_main_arg5 m ρ c))))))))))))))
theorem at14_main_v174 (c : Dev nD) : W14 m ρ c (Proc.devRef .tc main_v174) = (Cert.ReferenceIdeal.Stages.val_main_v220 (F := Ideal) (arg4 m c)) :=
  (W14_of_ne m ρ c main_v174 (by decide)).trans (at13_main_v174 m ρ c)
theorem at14_main_v182 (c : Dev nD) : W14 m ρ c (Proc.devRef .tc main_v182) = (shapeCast S3 (extractStridedSlice S1x3 ![1, 0] (arg17 m c) Cert.KernelIdeal.Facts₀.slices_S3x3_S1x3_1_0) Cert.KernelIdeal.Facts₀.shapeCasts_S1x3_S3) :=
  (W14_of_ne m ρ c main_v182 (by decide)).trans (at13_main_v182 m ρ c)
theorem at15_main_v230 (c : Dev nD) : W15 m ρ c (Proc.devRef .tc main_v230) = (Cert.ReferenceIdeal.Stages.val_main_v273 (F := Ideal) (arg0 m c) (arg1 m c) (arg4 m c) (arg5 m c) (arg10 m c) (arg11 m c) (arg12 m c) (arg13 m c) (arg14 m c) (arg15 m c)) :=
  Cert.KernelIdeal.HostValue.value8_main_v230 (W14 m ρ c) (arg0 m c) (arg1 m c) (arg4 m c) (arg5 m c) (arg10 m c) (arg11 m c) (arg12 m c) (arg13 m c) (arg14 m c) (arg15 m c) (arg17 m c) (at14_main_v176 m ρ c) (at14_main_arg5 m ρ c) (at14_main_v174 m ρ c) (at14_main_v185 m ρ c) (at14_main_v182 m ρ c)
theorem at15_main_v233 (c : Dev nD) : W15 m ρ c (Proc.devRef .tc main_v233) = (shapeCast S1x1 (shapeCast S_ (extractStridedSlice S1 ![0] (shapeCast S3 (extractStridedSlice S1x3 ![1, 0] (arg17 m c) Cert.KernelIdeal.Facts₀.slices_S3x3_S1x3_1_0) Cert.KernelIdeal.Facts₀.shapeCasts_S1x3_S3) Cert.KernelIdeal.Facts₀.slices_S3_S1_0) Cert.KernelIdeal.Facts₀.shapeCasts_S1_S_) Cert.KernelIdeal.Facts₀.shapeCasts_S_S1x1) :=
  Cert.KernelIdeal.HostValue.value8_main_v233 (W14 m ρ c) (arg0 m c) (arg1 m c) (arg4 m c) (arg5 m c) (arg10 m c) (arg11 m c) (arg12 m c) (arg13 m c) (arg14 m c) (arg15 m c) (arg17 m c) (at14_main_v176 m ρ c) (at14_main_arg5 m ρ c) (at14_main_v174 m ρ c) (at14_main_v185 m ρ c) (at14_main_v182 m ρ c)
theorem at15_main_v234 (c : Dev nD) : W15 m ρ c (Proc.devRef .tc main_v234) = (shapeCast S100000x1 (Cert.ReferenceIdeal.Stages.val_main_v239 (F := Ideal) (arg4 m c) (arg5 m c)) Cert.KernelIdeal.Facts₀.shapeCasts_S100000_S100000x1) :=
  Cert.KernelIdeal.HostValue.value8_main_v234 (W14 m ρ c) (arg0 m c) (arg1 m c) (arg4 m c) (arg5 m c) (arg10 m c) (arg11 m c) (arg12 m c) (arg13 m c) (arg14 m c) (arg15 m c) (arg17 m c) (at14_main_v176 m ρ c) (at14_main_arg5 m ρ c) (at14_main_v174 m ρ c) (at14_main_v185 m ρ c) (at14_main_v182 m ρ c)

/-! ## Boundary 16: after region 8 -/

theorem at15_main_v185 (c : Dev nD) : W15 m ρ c (Proc.devRef .tc main_v185) = (Cert.ReferenceIdeal.Stages.val_main_v228 (F := Ideal) (arg0 m c) (arg1 m c) (arg10 m c) (arg11 m c) (arg12 m c) (arg13 m c) (arg14 m c) (arg15 m c)) :=
  (Cert.KernelIdeal.HostKeep.keep8 (W14 m ρ c) main_v185 (by decide)).trans (at14_main_v185 m ρ c)
theorem at15_main_v184 (c : Dev nD) : W15 m ρ c (Proc.devRef .tc main_v184) = (shapeCast S1x64 (Cert.ReferenceIdeal.Stages.val_main_v227 (F := Ideal) (arg16 m c)) Cert.KernelIdeal.Facts₀.shapeCasts_S64_S1x64) :=
  (Cert.KernelIdeal.HostKeep.keep8 (W14 m ρ c) main_v184 (by decide)).trans ((W14_of_ne m ρ c main_v184 (by decide)).trans (at13_main_v184 m ρ c))
theorem at15_main_v183 (c : Dev nD) : W15 m ρ c (Proc.devRef .tc main_v183) = (Cert.ReferenceIdeal.Stages.val_main_v223 (F := Ideal)) :=
  (Cert.KernelIdeal.HostKeep.keep8 (W14 m ρ c) main_v183 (by decide)).trans ((W14_of_ne m ρ c main_v183 (by decide)).trans (at13_main_v183 m ρ c))
theorem at16_main_v235_0 (c : Dev nD) : W16 m ρ c (Proc.devRef .tc main_v235_0) = (Cert.ReferenceIdeal.Stages.val_main_v282 (F := Ideal) (arg0 m c) (arg1 m c) (arg4 m c) (arg5 m c) (arg10 m c) (arg11 m c) (arg12 m c) (arg13 m c) (arg14 m c) (arg15 m c) (arg16 m c)) :=
  (W16_arr m ρ c 6).trans ((Cert.KernelIdeal.RegionValue.finalize8_h (V15 m ρ) c Cert.ReferenceIdeal.Facts₀.bcast_S100000x1_S100000x64_0_1 Cert.ReferenceIdeal.Facts₀.bcast_S1x64_S100000x64_0_1).trans (by
    rw [show V15 m ρ c main_v230 = (Cert.ReferenceIdeal.Stages.val_main_v273 (F := Ideal) (arg0 m c) (arg1 m c) (arg4 m c) (arg5 m c) (arg10 m c) (arg11 m c) (arg12 m c) (arg13 m c) (arg14 m c) (arg15 m c)) from at15_main_v230 m ρ c,
      show V15 m ρ c main_v185 = (Cert.ReferenceIdeal.Stages.val_main_v228 (F := Ideal) (arg0 m c) (arg1 m c) (arg10 m c) (arg11 m c) (arg12 m c) (arg13 m c) (arg14 m c) (arg15 m c)) from at15_main_v185 m ρ c,
      show V15 m ρ c main_v234 = (shapeCast S100000x1 (Cert.ReferenceIdeal.Stages.val_main_v239 (F := Ideal) (arg4 m c) (arg5 m c)) Cert.KernelIdeal.Facts₀.shapeCasts_S100000_S100000x1) from at15_main_v234 m ρ c,
      show V15 m ρ c main_v184 = (shapeCast S1x64 (Cert.ReferenceIdeal.Stages.val_main_v227 (F := Ideal) (arg16 m c)) Cert.KernelIdeal.Facts₀.shapeCasts_S64_S1x64) from at15_main_v184 m ρ c]
    exact (Cert.Gnn.convOut_of_reshapes Cert.ReferenceIdeal.Facts₀.bcast_S100000x1_S100000x64_0_1 Cert.ReferenceIdeal.Facts₀.bcast_S1x64_S100000x64_0_1 Cert.ReferenceIdeal.Facts₀.bcast_S100000_S100000x1_0 Cert.ReferenceIdeal.Facts₀.bcast_S64_S1x64_1 Cert.KernelIdeal.Facts₀.shapeCasts_S100000_S100000x1 Cert.KernelIdeal.Facts₀.shapeCasts_S64_S1x64 _ _ _ _).trans rfl))
theorem at16_main_v235_1 (c : Dev nD) : W16 m ρ c (Proc.devRef .tc main_v235_1) = (Cert.ReferenceIdeal.Stages.val_main_v287 (F := Ideal) (arg0 m c) (arg1 m c) (arg4 m c) (arg5 m c) (arg10 m c) (arg11 m c) (arg12 m c) (arg13 m c) (arg14 m c) (arg15 m c) (arg16 m c) (arg17 m c)) :=
  (W16_arr m ρ c 7).trans ((Cert.KernelIdeal.RegionValue.finalize8_acc (V15 m ρ) c Cert.ReferenceIdeal.Facts₀.bcast_S100000x1_S100000x64_0_1 Cert.ReferenceIdeal.Facts₀.bcast_S1x64_S100000x64_0_1 Cert.ReferenceIdeal.Facts₀.bcast_S_S100000x64 Cert.ReferenceIdeal.Facts₀.shapeCasts_S1x1_S_).trans (by
    rw [show V15 m ρ c main_v230 = (Cert.ReferenceIdeal.Stages.val_main_v273 (F := Ideal) (arg0 m c) (arg1 m c) (arg4 m c) (arg5 m c) (arg10 m c) (arg11 m c) (arg12 m c) (arg13 m c) (arg14 m c) (arg15 m c)) from at15_main_v230 m ρ c,
      show V15 m ρ c main_v185 = (Cert.ReferenceIdeal.Stages.val_main_v228 (F := Ideal) (arg0 m c) (arg1 m c) (arg10 m c) (arg11 m c) (arg12 m c) (arg13 m c) (arg14 m c) (arg15 m c)) from at15_main_v185 m ρ c,
      show V15 m ρ c main_v234 = (shapeCast S100000x1 (Cert.ReferenceIdeal.Stages.val_main_v239 (F := Ideal) (arg4 m c) (arg5 m c)) Cert.KernelIdeal.Facts₀.shapeCasts_S100000_S100000x1) from at15_main_v234 m ρ c,
      show V15 m ρ c main_v184 = (shapeCast S1x64 (Cert.ReferenceIdeal.Stages.val_main_v227 (F := Ideal) (arg16 m c)) Cert.KernelIdeal.Facts₀.shapeCasts_S64_S1x64) from at15_main_v184 m ρ c,
      show V15 m ρ c main_v233 = (shapeCast S1x1 (shapeCast S_ (extractStridedSlice S1 ![0] (shapeCast S3 (extractStridedSlice S1x3 ![1, 0] (arg17 m c) Cert.KernelIdeal.Facts₀.slices_S3x3_S1x3_1_0) Cert.KernelIdeal.Facts₀.shapeCasts_S1x3_S3) Cert.KernelIdeal.Facts₀.slices_S3_S1_0) Cert.KernelIdeal.Facts₀.shapeCasts_S1_S_) Cert.KernelIdeal.Facts₀.shapeCasts_S_S1x1) from at15_main_v233 m ρ c,
      show V15 m ρ c main_v183 = (Cert.ReferenceIdeal.Stages.val_main_v223 (F := Ideal)) from at15_main_v183 m ρ c]
    rw [Cert.Gnn.convOut_of_reshapes Cert.ReferenceIdeal.Facts₀.bcast_S100000x1_S100000x64_0_1 Cert.ReferenceIdeal.Facts₀.bcast_S1x64_S100000x64_0_1 Cert.ReferenceIdeal.Facts₀.bcast_S100000_S100000x1_0 Cert.ReferenceIdeal.Facts₀.bcast_S64_S1x64_1 Cert.KernelIdeal.Facts₀.shapeCasts_S100000_S100000x1 Cert.KernelIdeal.Facts₀.shapeCasts_S64_S1x64, Cert.Gnn.coef_eq (arg17 m c) 1 0 Cert.KernelIdeal.Facts₀.slices_S3x3_S1x3_1_0 Cert.KernelIdeal.Facts₀.shapeCasts_S1x3_S3 Cert.KernelIdeal.Facts₀.slices_S3_S1_0 Cert.KernelIdeal.Facts₀.shapeCasts_S1_S_ Cert.KernelIdeal.Facts₀.shapeCasts_S_S1x1 Cert.ReferenceIdeal.Facts₀.shapeCasts_S1x1_S_ Cert.ReferenceIdeal.Facts₀.slices_S3x3_S1x1_1_0]
    rfl))

/-! ## Boundary 17: after region 9 -/

theorem at16_main_v178 (c : Dev nD) : W16 m ρ c (Proc.devRef .tc main_v178) = (Cert.ReferenceIdeal.Stages.val_main_v225 (F := Ideal) (arg15 m c)) :=
  (W16_of_ne m ρ c main_v178 (by decide)).trans ((Cert.KernelIdeal.HostKeep.keep8 (W14 m ρ c) main_v178 (by decide)).trans (((W14_arr m ρ c 1).trans (((dat7 (V13 m ρ) c).arrAt_in 1 rfl _).trans (A_eq7 (V13 m ρ) c 1))).trans (at13_main_v178 m ρ c)))
theorem at17_main_v236 (c : Dev nD) : W17 m ρ c (Proc.devRef .tc main_v236) = (Cert.ReferenceIdeal.Stages.val_main_v292 (F := Ideal) (arg0 m c) (arg1 m c) (arg4 m c) (arg5 m c) (arg10 m c) (arg11 m c) (arg12 m c) (arg13 m c) (arg14 m c) (arg15 m c) (arg16 m c)) :=
  (W17_arr m ρ c 2).trans ((Cert.KernelIdeal.RegionValue.linear9 (V16 m ρ) c).trans (by
    rw [show V16 m ρ c main_v235_0 = (Cert.ReferenceIdeal.Stages.val_main_v282 (F := Ideal) (arg0 m c) (arg1 m c) (arg4 m c) (arg5 m c) (arg10 m c) (arg11 m c) (arg12 m c) (arg13 m c) (arg14 m c) (arg15 m c) (arg16 m c)) from at16_main_v235_0 m ρ c,
      show V16 m ρ c main_v178 = (Cert.ReferenceIdeal.Stages.val_main_v225 (F := Ideal) (arg15 m c)) from at16_main_v178 m ρ c]
    rfl))

/-! ## Boundary 18: after host stretch 10 -/

theorem at17_main_v176 (c : Dev nD) : W17 m ρ c (Proc.devRef .tc main_v176) = (Cert.ReferenceIdeal.Stages.val_main_v222 (F := Ideal) (arg4 m c)) :=
  (W17_of_ne m ρ c main_v176 (by decide)).trans ((W16_of_ne m ρ c main_v176 (by decide)).trans ((Cert.KernelIdeal.HostKeep.keep8 (W14 m ρ c) main_v176 (by decide)).trans (at14_main_v176 m ρ c)))
theorem at17_main_arg5 (c : Dev nD) : W17 m ρ c (Proc.devRef .tc main_arg5) = (arg5 m c) :=
  (W17_of_ne m ρ c main_arg5 (by decide)).trans ((W16_of_ne m ρ c main_arg5 (by decide)).trans ((Cert.KernelIdeal.HostKeep.keep8 (W14 m ρ c) main_arg5 (by decide)).trans (at14_main_arg5 m ρ c)))
theorem at17_main_v174 (c : Dev nD) : W17 m ρ c (Proc.devRef .tc main_v174) = (Cert.ReferenceIdeal.Stages.val_main_v220 (F := Ideal) (arg4 m c)) :=
  (W17_of_ne m ρ c main_v174 (by decide)).trans ((W16_of_ne m ρ c main_v174 (by decide)).trans ((Cert.KernelIdeal.HostKeep.keep8 (W14 m ρ c) main_v174 (by decide)).trans (at14_main_v174 m ρ c)))
theorem at17_main_v182 (c : Dev nD) : W17 m ρ c (Proc.devRef .tc main_v182) = (shapeCast S3 (extractStridedSlice S1x3 ![1, 0] (arg17 m c) Cert.KernelIdeal.Facts₀.slices_S3x3_S1x3_1_0) Cert.KernelIdeal.Facts₀.shapeCasts_S1x3_S3) :=
  (W17_of_ne m ρ c main_v182 (by decide)).trans ((W16_of_ne m ρ c main_v182 (by decide)).trans ((Cert.KernelIdeal.HostKeep.keep8 (W14 m ρ c) main_v182 (by decide)).trans (at14_main_v182 m ρ c)))
theorem at18_main_v281 (c : Dev nD) : W18 m ρ c (Proc.devRef .tc main_v281) = (Cert.ReferenceIdeal.Stages.val_main_v337 (F := Ideal) (arg0 m c) (arg1 m c) (arg4 m c) (arg5 m c) (arg10 m c) (arg11 m c) (arg12 m c) (arg13 m c) (arg14 m c) (arg15 m c) (arg16 m c)) :=
  Cert.KernelIdeal.HostValue.value10_main_v281 (W17 m ρ c) (arg0 m c) (arg1 m c) (arg4 m c) (arg5 m c) (arg10 m c) (arg11 m c) (arg12 m c) (arg13 m c) (arg14 m c) (arg15 m c) (arg16 m c) (arg17 m c) (at17_main_v176 m ρ c) (at17_main_arg5 m ρ c) (at17_main_v174 m ρ c) (at17_main_v236 m ρ c) (at17_main_v182 m ρ c)
theorem at18_main_v284 (c : Dev nD) : W18 m ρ c (Proc.devRef .tc main_v284) = (shapeCast S1x1 (shapeCast S_ (extractStridedSlice S1 ![1] (shapeCast S3 (extractStridedSlice S1x3 ![1, 0] (arg17 m c) Cert.KernelIdeal.Facts₀.slices_S3x3_S1x3_1_0) Cert.KernelIdeal.Facts₀.shapeCasts_S1x3_S3) Cert.KernelIdeal.Facts₀.slices_S3_S1_1) Cert.KernelIdeal.Facts₀.shapeCasts_S1_S_) Cert.KernelIdeal.Facts₀.shapeCasts_S_S1x1) :=
  Cert.KernelIdeal.HostValue.value10_main_v284 (W17 m ρ c) (arg0 m c) (arg1 m c) (arg4 m c) (arg5 m c) (arg10 m c) (arg11 m c) (arg12 m c) (arg13 m c) (arg14 m c) (arg15 m c) (arg16 m c) (arg17 m c) (at17_main_v176 m ρ c) (at17_main_arg5 m ρ c) (at17_main_v174 m ρ c) (at17_main_v236 m ρ c) (at17_main_v182 m ρ c)
theorem at18_main_v285 (c : Dev nD) : W18 m ρ c (Proc.devRef .tc main_v285) = (shapeCast S100000x1 (Cert.ReferenceIdeal.Stages.val_main_v239 (F := Ideal) (arg4 m c) (arg5 m c)) Cert.KernelIdeal.Facts₀.shapeCasts_S100000_S100000x1) :=
  Cert.KernelIdeal.HostValue.value10_main_v285 (W17 m ρ c) (arg0 m c) (arg1 m c) (arg4 m c) (arg5 m c) (arg10 m c) (arg11 m c) (arg12 m c) (arg13 m c) (arg14 m c) (arg15 m c) (arg16 m c) (arg17 m c) (at17_main_v176 m ρ c) (at17_main_arg5 m ρ c) (at17_main_v174 m ρ c) (at17_main_v236 m ρ c) (at17_main_v182 m ρ c)

/-! ## Boundary 19: after region 10 -/

theorem at18_main_v236 (c : Dev nD) : W18 m ρ c (Proc.devRef .tc main_v236) = (Cert.ReferenceIdeal.Stages.val_main_v292 (F := Ideal) (arg0 m c) (arg1 m c) (arg4 m c) (arg5 m c) (arg10 m c) (arg11 m c) (arg12 m c) (arg13 m c) (arg14 m c) (arg15 m c) (arg16 m c)) :=
  (Cert.KernelIdeal.HostKeep.keep10 (W17 m ρ c) main_v236 (by decide)).trans (at17_main_v236 m ρ c)
theorem at18_main_v184 (c : Dev nD) : W18 m ρ c (Proc.devRef .tc main_v184) = (shapeCast S1x64 (Cert.ReferenceIdeal.Stages.val_main_v227 (F := Ideal) (arg16 m c)) Cert.KernelIdeal.Facts₀.shapeCasts_S64_S1x64) :=
  (Cert.KernelIdeal.HostKeep.keep10 (W17 m ρ c) main_v184 (by decide)).trans ((W17_of_ne m ρ c main_v184 (by decide)).trans (((W16_arr m ρ c 3).trans (((dat8 (V15 m ρ) c).arrAt_in 3 rfl _).trans (A_eq8 (V15 m ρ) c 3))).trans (at15_main_v184 m ρ c)))
theorem at18_main_v235_1 (c : Dev nD) : W18 m ρ c (Proc.devRef .tc main_v235_1) = (Cert.ReferenceIdeal.Stages.val_main_v287 (F := Ideal) (arg0 m c) (arg1 m c) (arg4 m c) (arg5 m c) (arg10 m c) (arg11 m c) (arg12 m c) (arg13 m c) (arg14 m c) (arg15 m c) (arg16 m c) (arg17 m c)) :=
  (Cert.KernelIdeal.HostKeep.keep10 (W17 m ρ c) main_v235_1 (by decide)).trans ((W17_of_ne m ρ c main_v235_1 (by decide)).trans (at16_main_v235_1 m ρ c))
theorem at19_main_v286_0 (c : Dev nD) : W19 m ρ c (Proc.devRef .tc main_v286_0) = (Cert.ReferenceIdeal.Stages.val_main_v346 (F := Ideal) (arg0 m c) (arg1 m c) (arg4 m c) (arg5 m c) (arg10 m c) (arg11 m c) (arg12 m c) (arg13 m c) (arg14 m c) (arg15 m c) (arg16 m c)) :=
  (W19_arr m ρ c 6).trans ((Cert.KernelIdeal.RegionValue.finalize10_h (V18 m ρ) c Cert.ReferenceIdeal.Facts₀.bcast_S100000x1_S100000x64_0_1 Cert.ReferenceIdeal.Facts₀.bcast_S1x64_S100000x64_0_1).trans (by
    rw [show V18 m ρ c main_v281 = (Cert.ReferenceIdeal.Stages.val_main_v337 (F := Ideal) (arg0 m c) (arg1 m c) (arg4 m c) (arg5 m c) (arg10 m c) (arg11 m c) (arg12 m c) (arg13 m c) (arg14 m c) (arg15 m c) (arg16 m c)) from at18_main_v281 m ρ c,
      show V18 m ρ c main_v236 = (Cert.ReferenceIdeal.Stages.val_main_v292 (F := Ideal) (arg0 m c) (arg1 m c) (arg4 m c) (arg5 m c) (arg10 m c) (arg11 m c) (arg12 m c) (arg13 m c) (arg14 m c) (arg15 m c) (arg16 m c)) from at18_main_v236 m ρ c,
      show V18 m ρ c main_v285 = (shapeCast S100000x1 (Cert.ReferenceIdeal.Stages.val_main_v239 (F := Ideal) (arg4 m c) (arg5 m c)) Cert.KernelIdeal.Facts₀.shapeCasts_S100000_S100000x1) from at18_main_v285 m ρ c,
      show V18 m ρ c main_v184 = (shapeCast S1x64 (Cert.ReferenceIdeal.Stages.val_main_v227 (F := Ideal) (arg16 m c)) Cert.KernelIdeal.Facts₀.shapeCasts_S64_S1x64) from at18_main_v184 m ρ c]
    exact (Cert.Gnn.convOut_of_reshapes Cert.ReferenceIdeal.Facts₀.bcast_S100000x1_S100000x64_0_1 Cert.ReferenceIdeal.Facts₀.bcast_S1x64_S100000x64_0_1 Cert.ReferenceIdeal.Facts₀.bcast_S100000_S100000x1_0 Cert.ReferenceIdeal.Facts₀.bcast_S64_S1x64_1 Cert.KernelIdeal.Facts₀.shapeCasts_S100000_S100000x1 Cert.KernelIdeal.Facts₀.shapeCasts_S64_S1x64 _ _ _ _).trans rfl))
theorem at19_main_v286_1 (c : Dev nD) : W19 m ρ c (Proc.devRef .tc main_v286_1) = (Cert.ReferenceIdeal.Stages.val_main_v351 (F := Ideal) (arg0 m c) (arg1 m c) (arg4 m c) (arg5 m c) (arg10 m c) (arg11 m c) (arg12 m c) (arg13 m c) (arg14 m c) (arg15 m c) (arg16 m c) (arg17 m c)) :=
  (W19_arr m ρ c 7).trans ((Cert.KernelIdeal.RegionValue.finalize10_acc (V18 m ρ) c Cert.ReferenceIdeal.Facts₀.bcast_S100000x1_S100000x64_0_1 Cert.ReferenceIdeal.Facts₀.bcast_S1x64_S100000x64_0_1 Cert.ReferenceIdeal.Facts₀.bcast_S_S100000x64 Cert.ReferenceIdeal.Facts₀.shapeCasts_S1x1_S_).trans (by
    rw [show V18 m ρ c main_v281 = (Cert.ReferenceIdeal.Stages.val_main_v337 (F := Ideal) (arg0 m c) (arg1 m c) (arg4 m c) (arg5 m c) (arg10 m c) (arg11 m c) (arg12 m c) (arg13 m c) (arg14 m c) (arg15 m c) (arg16 m c)) from at18_main_v281 m ρ c,
      show V18 m ρ c main_v236 = (Cert.ReferenceIdeal.Stages.val_main_v292 (F := Ideal) (arg0 m c) (arg1 m c) (arg4 m c) (arg5 m c) (arg10 m c) (arg11 m c) (arg12 m c) (arg13 m c) (arg14 m c) (arg15 m c) (arg16 m c)) from at18_main_v236 m ρ c,
      show V18 m ρ c main_v285 = (shapeCast S100000x1 (Cert.ReferenceIdeal.Stages.val_main_v239 (F := Ideal) (arg4 m c) (arg5 m c)) Cert.KernelIdeal.Facts₀.shapeCasts_S100000_S100000x1) from at18_main_v285 m ρ c,
      show V18 m ρ c main_v184 = (shapeCast S1x64 (Cert.ReferenceIdeal.Stages.val_main_v227 (F := Ideal) (arg16 m c)) Cert.KernelIdeal.Facts₀.shapeCasts_S64_S1x64) from at18_main_v184 m ρ c,
      show V18 m ρ c main_v284 = (shapeCast S1x1 (shapeCast S_ (extractStridedSlice S1 ![1] (shapeCast S3 (extractStridedSlice S1x3 ![1, 0] (arg17 m c) Cert.KernelIdeal.Facts₀.slices_S3x3_S1x3_1_0) Cert.KernelIdeal.Facts₀.shapeCasts_S1x3_S3) Cert.KernelIdeal.Facts₀.slices_S3_S1_1) Cert.KernelIdeal.Facts₀.shapeCasts_S1_S_) Cert.KernelIdeal.Facts₀.shapeCasts_S_S1x1) from at18_main_v284 m ρ c,
      show V18 m ρ c main_v235_1 = (Cert.ReferenceIdeal.Stages.val_main_v287 (F := Ideal) (arg0 m c) (arg1 m c) (arg4 m c) (arg5 m c) (arg10 m c) (arg11 m c) (arg12 m c) (arg13 m c) (arg14 m c) (arg15 m c) (arg16 m c) (arg17 m c)) from at18_main_v235_1 m ρ c]
    rw [Cert.Gnn.convOut_of_reshapes Cert.ReferenceIdeal.Facts₀.bcast_S100000x1_S100000x64_0_1 Cert.ReferenceIdeal.Facts₀.bcast_S1x64_S100000x64_0_1 Cert.ReferenceIdeal.Facts₀.bcast_S100000_S100000x1_0 Cert.ReferenceIdeal.Facts₀.bcast_S64_S1x64_1 Cert.KernelIdeal.Facts₀.shapeCasts_S100000_S100000x1 Cert.KernelIdeal.Facts₀.shapeCasts_S64_S1x64, Cert.Gnn.coef_eq (arg17 m c) 1 1 Cert.KernelIdeal.Facts₀.slices_S3x3_S1x3_1_0 Cert.KernelIdeal.Facts₀.shapeCasts_S1x3_S3 Cert.KernelIdeal.Facts₀.slices_S3_S1_1 Cert.KernelIdeal.Facts₀.shapeCasts_S1_S_ Cert.KernelIdeal.Facts₀.shapeCasts_S_S1x1 Cert.ReferenceIdeal.Facts₀.shapeCasts_S1x1_S_ Cert.ReferenceIdeal.Facts₀.slices_S3x3_S1x1_1_1]
    rfl))

/-! ## Boundary 20: after region 11 -/

theorem at19_main_v178 (c : Dev nD) : W19 m ρ c (Proc.devRef .tc main_v178) = (Cert.ReferenceIdeal.Stages.val_main_v225 (F := Ideal) (arg15 m c)) :=
  (W19_of_ne m ρ c main_v178 (by decide)).trans ((Cert.KernelIdeal.HostKeep.keep10 (W17 m ρ c) main_v178 (by decide)).trans (((W17_arr m ρ c 1).trans (((dat9 (V16 m ρ) c).arrAt_in 1 rfl _).trans (A_eq9 (V16 m ρ) c 1))).trans (at16_main_v178 m ρ c)))
theorem at20_main_v287 (c : Dev nD) : W20 m ρ c (Proc.devRef .tc main_v287) = (Cert.ReferenceIdeal.Stages.val_main_v356 (F := Ideal) (arg0 m c) (arg1 m c) (arg4 m c) (arg5 m c) (arg10 m c) (arg11 m c) (arg12 m c) (arg13 m c) (arg14 m c) (arg15 m c) (arg16 m c)) :=
  (W20_arr m ρ c 2).trans ((Cert.KernelIdeal.RegionValue.linear11 (V19 m ρ) c).trans (by
    rw [show V19 m ρ c main_v286_0 = (Cert.ReferenceIdeal.Stages.val_main_v346 (F := Ideal) (arg0 m c) (arg1 m c) (arg4 m c) (arg5 m c) (arg10 m c) (arg11 m c) (arg12 m c) (arg13 m c) (arg14 m c) (arg15 m c) (arg16 m c)) from at19_main_v286_0 m ρ c,
      show V19 m ρ c main_v178 = (Cert.ReferenceIdeal.Stages.val_main_v225 (F := Ideal) (arg15 m c)) from at19_main_v178 m ρ c]
    rfl))

/-! ## Boundary 21: after host stretch 12 -/

theorem at20_main_v176 (c : Dev nD) : W20 m ρ c (Proc.devRef .tc main_v176) = (Cert.ReferenceIdeal.Stages.val_main_v222 (F := Ideal) (arg4 m c)) :=
  (W20_of_ne m ρ c main_v176 (by decide)).trans ((W19_of_ne m ρ c main_v176 (by decide)).trans ((Cert.KernelIdeal.HostKeep.keep10 (W17 m ρ c) main_v176 (by decide)).trans (at17_main_v176 m ρ c)))
theorem at20_main_arg5 (c : Dev nD) : W20 m ρ c (Proc.devRef .tc main_arg5) = (arg5 m c) :=
  (W20_of_ne m ρ c main_arg5 (by decide)).trans ((W19_of_ne m ρ c main_arg5 (by decide)).trans ((Cert.KernelIdeal.HostKeep.keep10 (W17 m ρ c) main_arg5 (by decide)).trans (at17_main_arg5 m ρ c)))
theorem at20_main_v174 (c : Dev nD) : W20 m ρ c (Proc.devRef .tc main_v174) = (Cert.ReferenceIdeal.Stages.val_main_v220 (F := Ideal) (arg4 m c)) :=
  (W20_of_ne m ρ c main_v174 (by decide)).trans ((W19_of_ne m ρ c main_v174 (by decide)).trans ((Cert.KernelIdeal.HostKeep.keep10 (W17 m ρ c) main_v174 (by decide)).trans (at17_main_v174 m ρ c)))
theorem at20_main_v182 (c : Dev nD) : W20 m ρ c (Proc.devRef .tc main_v182) = (shapeCast S3 (extractStridedSlice S1x3 ![1, 0] (arg17 m c) Cert.KernelIdeal.Facts₀.slices_S3x3_S1x3_1_0) Cert.KernelIdeal.Facts₀.shapeCasts_S1x3_S3) :=
  (W20_of_ne m ρ c main_v182 (by decide)).trans ((W19_of_ne m ρ c main_v182 (by decide)).trans ((Cert.KernelIdeal.HostKeep.keep10 (W17 m ρ c) main_v182 (by decide)).trans (at17_main_v182 m ρ c)))
theorem at21_main_v332 (c : Dev nD) : W21 m ρ c (Proc.devRef .tc main_v332) = (Cert.ReferenceIdeal.Stages.val_main_v401 (F := Ideal) (arg0 m c) (arg1 m c) (arg4 m c) (arg5 m c) (arg10 m c) (arg11 m c) (arg12 m c) (arg13 m c) (arg14 m c) (arg15 m c) (arg16 m c)) :=
  Cert.KernelIdeal.HostValue.value12_main_v332 (W20 m ρ c) (arg0 m c) (arg1 m c) (arg4 m c) (arg5 m c) (arg10 m c) (arg11 m c) (arg12 m c) (arg13 m c) (arg14 m c) (arg15 m c) (arg16 m c) (arg17 m c) (at20_main_v176 m ρ c) (at20_main_arg5 m ρ c) (at20_main_v174 m ρ c) (at20_main_v287 m ρ c) (at20_main_v182 m ρ c)
theorem at21_main_v335 (c : Dev nD) : W21 m ρ c (Proc.devRef .tc main_v335) = (shapeCast S1x1 (shapeCast S_ (extractStridedSlice S1 ![2] (shapeCast S3 (extractStridedSlice S1x3 ![1, 0] (arg17 m c) Cert.KernelIdeal.Facts₀.slices_S3x3_S1x3_1_0) Cert.KernelIdeal.Facts₀.shapeCasts_S1x3_S3) Cert.KernelIdeal.Facts₀.slices_S3_S1_2) Cert.KernelIdeal.Facts₀.shapeCasts_S1_S_) Cert.KernelIdeal.Facts₀.shapeCasts_S_S1x1) :=
  Cert.KernelIdeal.HostValue.value12_main_v335 (W20 m ρ c) (arg0 m c) (arg1 m c) (arg4 m c) (arg5 m c) (arg10 m c) (arg11 m c) (arg12 m c) (arg13 m c) (arg14 m c) (arg15 m c) (arg16 m c) (arg17 m c) (at20_main_v176 m ρ c) (at20_main_arg5 m ρ c) (at20_main_v174 m ρ c) (at20_main_v287 m ρ c) (at20_main_v182 m ρ c)
theorem at21_main_v336 (c : Dev nD) : W21 m ρ c (Proc.devRef .tc main_v336) = (shapeCast S100000x1 (Cert.ReferenceIdeal.Stages.val_main_v239 (F := Ideal) (arg4 m c) (arg5 m c)) Cert.KernelIdeal.Facts₀.shapeCasts_S100000_S100000x1) :=
  Cert.KernelIdeal.HostValue.value12_main_v336 (W20 m ρ c) (arg0 m c) (arg1 m c) (arg4 m c) (arg5 m c) (arg10 m c) (arg11 m c) (arg12 m c) (arg13 m c) (arg14 m c) (arg15 m c) (arg16 m c) (arg17 m c) (at20_main_v176 m ρ c) (at20_main_arg5 m ρ c) (at20_main_v174 m ρ c) (at20_main_v287 m ρ c) (at20_main_v182 m ρ c)

/-! ## Boundary 22: after region 12 -/

theorem at21_main_v287 (c : Dev nD) : W21 m ρ c (Proc.devRef .tc main_v287) = (Cert.ReferenceIdeal.Stages.val_main_v356 (F := Ideal) (arg0 m c) (arg1 m c) (arg4 m c) (arg5 m c) (arg10 m c) (arg11 m c) (arg12 m c) (arg13 m c) (arg14 m c) (arg15 m c) (arg16 m c)) :=
  (Cert.KernelIdeal.HostKeep.keep12 (W20 m ρ c) main_v287 (by decide)).trans (at20_main_v287 m ρ c)
theorem at21_main_v184 (c : Dev nD) : W21 m ρ c (Proc.devRef .tc main_v184) = (shapeCast S1x64 (Cert.ReferenceIdeal.Stages.val_main_v227 (F := Ideal) (arg16 m c)) Cert.KernelIdeal.Facts₀.shapeCasts_S64_S1x64) :=
  (Cert.KernelIdeal.HostKeep.keep12 (W20 m ρ c) main_v184 (by decide)).trans ((W20_of_ne m ρ c main_v184 (by decide)).trans (((W19_arr m ρ c 3).trans (((dat10 (V18 m ρ) c).arrAt_in 3 rfl _).trans (A_eq10 (V18 m ρ) c 3))).trans (at18_main_v184 m ρ c)))
theorem at21_main_v286_1 (c : Dev nD) : W21 m ρ c (Proc.devRef .tc main_v286_1) = (Cert.ReferenceIdeal.Stages.val_main_v351 (F := Ideal) (arg0 m c) (arg1 m c) (arg4 m c) (arg5 m c) (arg10 m c) (arg11 m c) (arg12 m c) (arg13 m c) (arg14 m c) (arg15 m c) (arg16 m c) (arg17 m c)) :=
  (Cert.KernelIdeal.HostKeep.keep12 (W20 m ρ c) main_v286_1 (by decide)).trans ((W20_of_ne m ρ c main_v286_1 (by decide)).trans (at19_main_v286_1 m ρ c))
theorem at22_main_v337_1 (c : Dev nD) : W22 m ρ c (Proc.devRef .tc main_v337_1) = (Cert.ReferenceIdeal.Stages.val_main_v415 (F := Ideal) (arg0 m c) (arg1 m c) (arg4 m c) (arg5 m c) (arg10 m c) (arg11 m c) (arg12 m c) (arg13 m c) (arg14 m c) (arg15 m c) (arg16 m c) (arg17 m c)) :=
  (W22_arr m ρ c 7).trans ((Cert.KernelIdeal.RegionValue.finalize12_acc (V21 m ρ) c Cert.ReferenceIdeal.Facts₀.bcast_S100000x1_S100000x64_0_1 Cert.ReferenceIdeal.Facts₀.bcast_S1x64_S100000x64_0_1 Cert.ReferenceIdeal.Facts₀.bcast_S_S100000x64 Cert.ReferenceIdeal.Facts₀.shapeCasts_S1x1_S_).trans (by
    rw [show V21 m ρ c main_v332 = (Cert.ReferenceIdeal.Stages.val_main_v401 (F := Ideal) (arg0 m c) (arg1 m c) (arg4 m c) (arg5 m c) (arg10 m c) (arg11 m c) (arg12 m c) (arg13 m c) (arg14 m c) (arg15 m c) (arg16 m c)) from at21_main_v332 m ρ c,
      show V21 m ρ c main_v287 = (Cert.ReferenceIdeal.Stages.val_main_v356 (F := Ideal) (arg0 m c) (arg1 m c) (arg4 m c) (arg5 m c) (arg10 m c) (arg11 m c) (arg12 m c) (arg13 m c) (arg14 m c) (arg15 m c) (arg16 m c)) from at21_main_v287 m ρ c,
      show V21 m ρ c main_v336 = (shapeCast S100000x1 (Cert.ReferenceIdeal.Stages.val_main_v239 (F := Ideal) (arg4 m c) (arg5 m c)) Cert.KernelIdeal.Facts₀.shapeCasts_S100000_S100000x1) from at21_main_v336 m ρ c,
      show V21 m ρ c main_v184 = (shapeCast S1x64 (Cert.ReferenceIdeal.Stages.val_main_v227 (F := Ideal) (arg16 m c)) Cert.KernelIdeal.Facts₀.shapeCasts_S64_S1x64) from at21_main_v184 m ρ c,
      show V21 m ρ c main_v335 = (shapeCast S1x1 (shapeCast S_ (extractStridedSlice S1 ![2] (shapeCast S3 (extractStridedSlice S1x3 ![1, 0] (arg17 m c) Cert.KernelIdeal.Facts₀.slices_S3x3_S1x3_1_0) Cert.KernelIdeal.Facts₀.shapeCasts_S1x3_S3) Cert.KernelIdeal.Facts₀.slices_S3_S1_2) Cert.KernelIdeal.Facts₀.shapeCasts_S1_S_) Cert.KernelIdeal.Facts₀.shapeCasts_S_S1x1) from at21_main_v335 m ρ c,
      show V21 m ρ c main_v286_1 = (Cert.ReferenceIdeal.Stages.val_main_v351 (F := Ideal) (arg0 m c) (arg1 m c) (arg4 m c) (arg5 m c) (arg10 m c) (arg11 m c) (arg12 m c) (arg13 m c) (arg14 m c) (arg15 m c) (arg16 m c) (arg17 m c)) from at21_main_v286_1 m ρ c]
    rw [Cert.Gnn.convOut_of_reshapes Cert.ReferenceIdeal.Facts₀.bcast_S100000x1_S100000x64_0_1 Cert.ReferenceIdeal.Facts₀.bcast_S1x64_S100000x64_0_1 Cert.ReferenceIdeal.Facts₀.bcast_S100000_S100000x1_0 Cert.ReferenceIdeal.Facts₀.bcast_S64_S1x64_1 Cert.KernelIdeal.Facts₀.shapeCasts_S100000_S100000x1 Cert.KernelIdeal.Facts₀.shapeCasts_S64_S1x64, Cert.Gnn.coef_eq (arg17 m c) 1 2 Cert.KernelIdeal.Facts₀.slices_S3x3_S1x3_1_0 Cert.KernelIdeal.Facts₀.shapeCasts_S1x3_S3 Cert.KernelIdeal.Facts₀.slices_S3_S1_2 Cert.KernelIdeal.Facts₀.shapeCasts_S1_S_ Cert.KernelIdeal.Facts₀.shapeCasts_S_S1x1 Cert.ReferenceIdeal.Facts₀.shapeCasts_S1x1_S_ Cert.ReferenceIdeal.Facts₀.slices_S3x3_S1x1_1_2]
    rfl))

/-! ## Boundary 23: after host stretch 13 -/

theorem at22_main_arg6 (c : Dev nD) : W22 m ρ c (Proc.devRef .tc main_arg6) = (arg6 m c) :=
  (W22_of_ne m ρ c main_arg6 (by decide)).trans ((Cert.KernelIdeal.HostKeep.keep12 (W20 m ρ c) main_arg6 (by decide)).trans ((W20_of_ne m ρ c main_arg6 (by decide)).trans ((W19_of_ne m ρ c main_arg6 (by decide)).trans ((Cert.KernelIdeal.HostKeep.keep10 (W17 m ρ c) main_arg6 (by decide)).trans ((W17_of_ne m ρ c main_arg6 (by decide)).trans ((W16_of_ne m ρ c main_arg6 (by decide)).trans ((Cert.KernelIdeal.HostKeep.keep8 (W14 m ρ c) main_arg6 (by decide)).trans ((W14_of_ne m ρ c main_arg6 (by decide)).trans ((Cert.KernelIdeal.HostKeep.keep7 (W12 m ρ c) main_arg6 (by decide)).trans ((W12_of_ne m ρ c main_arg6 (by decide)).trans ((Cert.KernelIdeal.HostKeep.keep6 (W10 m ρ c) main_arg6 (by decide)).trans ((W10_of_ne m ρ c main_arg6 (by decide)).trans ((W9_of_ne m ρ c main_arg6 (by decide)).trans ((Cert.KernelIdeal.HostKeep.keep4 (W7 m ρ c) main_arg6 (by decide)).trans ((W7_of_ne m ρ c main_arg6 (by decide)).trans ((W6_of_ne m ρ c main_arg6 (by decide)).trans ((Cert.KernelIdeal.HostKeep.keep2 (W4 m ρ c) main_arg6 (by decide)).trans ((W4_of_ne m ρ c main_arg6 (by decide)).trans ((Cert.KernelIdeal.HostKeep.keep1 (W2 m ρ c) main_arg6 (by decide)).trans ((W2_of_ne m ρ c main_arg6 (by decide)).trans ((Cert.KernelIdeal.HostKeep.keep0 (W0 m ρ c) main_arg6 (by decide)).trans (at0_main_arg6 m ρ c))))))))))))))))))))))
theorem at22_main_arg15 (c : Dev nD) : W22 m ρ c (Proc.devRef .tc main_arg15) = (arg15 m c) :=
  (W22_of_ne m ρ c main_arg15 (by decide)).trans ((Cert.KernelIdeal.HostKeep.keep12 (W20 m ρ c) main_arg15 (by decide)).trans ((W20_of_ne m ρ c main_arg15 (by decide)).trans ((W19_of_ne m ρ c main_arg15 (by decide)).trans ((Cert.KernelIdeal.HostKeep.keep10 (W17 m ρ c) main_arg15 (by decide)).trans ((W17_of_ne m ρ c main_arg15 (by decide)).trans ((W16_of_ne m ρ c main_arg15 (by decide)).trans ((Cert.KernelIdeal.HostKeep.keep8 (W14 m ρ c) main_arg15 (by decide)).trans ((W14_of_ne m ρ c main_arg15 (by decide)).trans ((Cert.KernelIdeal.HostKeep.keep7 (W12 m ρ c) main_arg15 (by decide)).trans (at12_main_arg15 m ρ c))))))))))
theorem at22_main_arg16 (c : Dev nD) : W22 m ρ c (Proc.devRef .tc main_arg16) = (arg16 m c) :=
  (W22_of_ne m ρ c main_arg16 (by decide)).trans ((Cert.KernelIdeal.HostKeep.keep12 (W20 m ρ c) main_arg16 (by decide)).trans ((W20_of_ne m ρ c main_arg16 (by decide)).trans ((W19_of_ne m ρ c main_arg16 (by decide)).trans ((Cert.KernelIdeal.HostKeep.keep10 (W17 m ρ c) main_arg16 (by decide)).trans ((W17_of_ne m ρ c main_arg16 (by decide)).trans ((W16_of_ne m ρ c main_arg16 (by decide)).trans ((Cert.KernelIdeal.HostKeep.keep8 (W14 m ρ c) main_arg16 (by decide)).trans ((W14_of_ne m ρ c main_arg16 (by decide)).trans ((Cert.KernelIdeal.HostKeep.keep7 (W12 m ρ c) main_arg16 (by decide)).trans (at12_main_arg16 m ρ c))))))))))
theorem at22_main_arg17 (c : Dev nD) : W22 m ρ c (Proc.devRef .tc main_arg17) = (arg17 m c) :=
  (W22_of_ne m ρ c main_arg17 (by decide)).trans ((Cert.KernelIdeal.HostKeep.keep12 (W20 m ρ c) main_arg17 (by decide)).trans ((W20_of_ne m ρ c main_arg17 (by decide)).trans ((W19_of_ne m ρ c main_arg17 (by decide)).trans ((Cert.KernelIdeal.HostKeep.keep10 (W17 m ρ c) main_arg17 (by decide)).trans ((W17_of_ne m ρ c main_arg17 (by decide)).trans ((W16_of_ne m ρ c main_arg17 (by decide)).trans ((Cert.KernelIdeal.HostKeep.keep8 (W14 m ρ c) main_arg17 (by decide)).trans ((W14_of_ne m ρ c main_arg17 (by decide)).trans ((Cert.KernelIdeal.HostKeep.keep7 (W12 m ρ c) main_arg17 (by decide)).trans (at12_main_arg17 m ρ c))))))))))
theorem at23_main_v339 (c : Dev nD) : W23 m ρ c (Proc.devRef .tc main_v339) = (Cert.ReferenceIdeal.Stages.val_main_v417 (F := Ideal) (arg6 m c)) :=
  Cert.KernelIdeal.HostValue.value13_main_v339 (W22 m ρ c) (arg6 m c) (arg15 m c) (arg16 m c) (arg17 m c) (at22_main_arg6 m ρ c) (at22_main_arg15 m ρ c) (at22_main_arg16 m ρ c) (at22_main_arg17 m ρ c)
theorem at23_main_v341 (c : Dev nD) : W23 m ρ c (Proc.devRef .tc main_v341) = (Cert.ReferenceIdeal.Stages.val_main_v419 (F := Ideal) (arg6 m c)) :=
  Cert.KernelIdeal.HostValue.value13_main_v341 (W22 m ρ c) (arg6 m c) (arg15 m c) (arg16 m c) (arg17 m c) (at22_main_arg6 m ρ c) (at22_main_arg15 m ρ c) (at22_main_arg16 m ρ c) (at22_main_arg17 m ρ c)
theorem at23_main_v343 (c : Dev nD) : W23 m ρ c (Proc.devRef .tc main_v343) = (Cert.ReferenceIdeal.Stages.val_main_v422 (F := Ideal) (arg15 m c)) :=
  Cert.KernelIdeal.HostValue.value13_main_v343 (W22 m ρ c) (arg6 m c) (arg15 m c) (arg16 m c) (arg17 m c) (at22_main_arg6 m ρ c) (at22_main_arg15 m ρ c) (at22_main_arg16 m ρ c) (at22_main_arg17 m ρ c)
theorem at23_main_v347 (c : Dev nD) : W23 m ρ c (Proc.devRef .tc main_v347) = (shapeCast S3 (extractStridedSlice S1x3 ![2, 0] (arg17 m c) Cert.KernelIdeal.Facts₀.slices_S3x3_S1x3_2_0) Cert.KernelIdeal.Facts₀.shapeCasts_S1x3_S3) :=
  Cert.KernelIdeal.HostValue.value13_main_v347 (W22 m ρ c) (arg6 m c) (arg15 m c) (arg16 m c) (arg17 m c) (at22_main_arg6 m ρ c) (at22_main_arg15 m ρ c) (at22_main_arg16 m ρ c) (at22_main_arg17 m ρ c)
theorem at23_main_v348 (c : Dev nD) : W23 m ρ c (Proc.devRef .tc main_v348) = (Cert.ReferenceIdeal.Stages.val_main_v420 (F := Ideal)) :=
  Cert.KernelIdeal.HostValue.value13_main_v348 (W22 m ρ c) (arg6 m c) (arg15 m c) (arg16 m c) (arg17 m c) (at22_main_arg6 m ρ c) (at22_main_arg15 m ρ c) (at22_main_arg16 m ρ c) (at22_main_arg17 m ρ c)
theorem at23_main_v349 (c : Dev nD) : W23 m ρ c (Proc.devRef .tc main_v349) = (shapeCast S1x64 (Cert.ReferenceIdeal.Stages.val_main_v424 (F := Ideal) (arg16 m c)) Cert.KernelIdeal.Facts₀.shapeCasts_S64_S1x64) :=
  Cert.KernelIdeal.HostValue.value13_main_v349 (W22 m ρ c) (arg6 m c) (arg15 m c) (arg16 m c) (arg17 m c) (at22_main_arg6 m ρ c) (at22_main_arg15 m ρ c) (at22_main_arg16 m ρ c) (at22_main_arg17 m ρ c)

/-! ## Boundary 24: after region 13 -/

theorem at23_main_v7 (c : Dev nD) : W23 m ρ c (Proc.devRef .tc main_v7) = (Cert.ReferenceIdeal.Stages.val_main_v21 (F := Ideal) (arg0 m c) (arg1 m c) (arg10 m c) (arg11 m c) (arg12 m c) (arg13 m c) (arg14 m c)) :=
  (Cert.KernelIdeal.HostKeep.keep13 (W22 m ρ c) main_v7 (by decide)).trans ((W22_of_ne m ρ c main_v7 (by decide)).trans ((Cert.KernelIdeal.HostKeep.keep12 (W20 m ρ c) main_v7 (by decide)).trans ((W20_of_ne m ρ c main_v7 (by decide)).trans ((W19_of_ne m ρ c main_v7 (by decide)).trans ((Cert.KernelIdeal.HostKeep.keep10 (W17 m ρ c) main_v7 (by decide)).trans ((W17_of_ne m ρ c main_v7 (by decide)).trans ((W16_of_ne m ρ c main_v7 (by decide)).trans ((Cert.KernelIdeal.HostKeep.keep8 (W14 m ρ c) main_v7 (by decide)).trans ((W14_of_ne m ρ c main_v7 (by decide)).trans ((Cert.KernelIdeal.HostKeep.keep7 (W12 m ρ c) main_v7 (by decide)).trans ((W12_of_ne m ρ c main_v7 (by decide)).trans ((Cert.KernelIdeal.HostKeep.keep6 (W10 m ρ c) main_v7 (by decide)).trans ((W10_of_ne m ρ c main_v7 (by decide)).trans ((W9_of_ne m ρ c main_v7 (by decide)).trans ((Cert.KernelIdeal.HostKeep.keep4 (W7 m ρ c) main_v7 (by decide)).trans ((W7_of_ne m ρ c main_v7 (by decide)).trans ((W6_of_ne m ρ c main_v7 (by decide)).trans ((Cert.KernelIdeal.HostKeep.keep2 (W4 m ρ c) main_v7 (by decide)).trans ((W4_of_ne m ρ c main_v7 (by decide)).trans (at3_main_v7 m ρ c))))))))))))))))))))
theorem at24_main_v350 (c : Dev nD) : W24 m ρ c (Proc.devRef .tc main_v350) = (Cert.ReferenceIdeal.Stages.val_main_v425 (F := Ideal) (arg0 m c) (arg1 m c) (arg10 m c) (arg11 m c) (arg12 m c) (arg13 m c) (arg14 m c) (arg15 m c)) :=
  (W24_arr m ρ c 2).trans ((Cert.KernelIdeal.RegionValue.linear13 (V23 m ρ) c).trans (by
    rw [show V23 m ρ c main_v7 = (Cert.ReferenceIdeal.Stages.val_main_v21 (F := Ideal) (arg0 m c) (arg1 m c) (arg10 m c) (arg11 m c) (arg12 m c) (arg13 m c) (arg14 m c)) from at23_main_v7 m ρ c,
      show V23 m ρ c main_v343 = (Cert.ReferenceIdeal.Stages.val_main_v422 (F := Ideal) (arg15 m c)) from at23_main_v343 m ρ c]
    rfl))

/-! ## Boundary 25: after host stretch 14 -/

theorem at24_main_v341 (c : Dev nD) : W24 m ρ c (Proc.devRef .tc main_v341) = (Cert.ReferenceIdeal.Stages.val_main_v419 (F := Ideal) (arg6 m c)) :=
  (W24_of_ne m ρ c main_v341 (by decide)).trans (at23_main_v341 m ρ c)
theorem at24_main_arg7 (c : Dev nD) : W24 m ρ c (Proc.devRef .tc main_arg7) = (arg7 m c) :=
  (W24_of_ne m ρ c main_arg7 (by decide)).trans ((Cert.KernelIdeal.HostKeep.keep13 (W22 m ρ c) main_arg7 (by decide)).trans ((W22_of_ne m ρ c main_arg7 (by decide)).trans ((Cert.KernelIdeal.HostKeep.keep12 (W20 m ρ c) main_arg7 (by decide)).trans ((W20_of_ne m ρ c main_arg7 (by decide)).trans ((W19_of_ne m ρ c main_arg7 (by decide)).trans ((Cert.KernelIdeal.HostKeep.keep10 (W17 m ρ c) main_arg7 (by decide)).trans ((W17_of_ne m ρ c main_arg7 (by decide)).trans ((W16_of_ne m ρ c main_arg7 (by decide)).trans ((Cert.KernelIdeal.HostKeep.keep8 (W14 m ρ c) main_arg7 (by decide)).trans ((W14_of_ne m ρ c main_arg7 (by decide)).trans ((Cert.KernelIdeal.HostKeep.keep7 (W12 m ρ c) main_arg7 (by decide)).trans ((W12_of_ne m ρ c main_arg7 (by decide)).trans ((Cert.KernelIdeal.HostKeep.keep6 (W10 m ρ c) main_arg7 (by decide)).trans ((W10_of_ne m ρ c main_arg7 (by decide)).trans ((W9_of_ne m ρ c main_arg7 (by decide)).trans ((Cert.KernelIdeal.HostKeep.keep4 (W7 m ρ c) main_arg7 (by decide)).trans ((W7_of_ne m ρ c main_arg7 (by decide)).trans ((W6_of_ne m ρ c main_arg7 (by decide)).trans ((Cert.KernelIdeal.HostKeep.keep2 (W4 m ρ c) main_arg7 (by decide)).trans ((W4_of_ne m ρ c main_arg7 (by decide)).trans ((Cert.KernelIdeal.HostKeep.keep1 (W2 m ρ c) main_arg7 (by decide)).trans ((W2_of_ne m ρ c main_arg7 (by decide)).trans ((Cert.KernelIdeal.HostKeep.keep0 (W0 m ρ c) main_arg7 (by decide)).trans (at0_main_arg7 m ρ c))))))))))))))))))))))))
theorem at24_main_v339 (c : Dev nD) : W24 m ρ c (Proc.devRef .tc main_v339) = (Cert.ReferenceIdeal.Stages.val_main_v417 (F := Ideal) (arg6 m c)) :=
  (W24_of_ne m ρ c main_v339 (by decide)).trans (at23_main_v339 m ρ c)
theorem at24_main_v347 (c : Dev nD) : W24 m ρ c (Proc.devRef .tc main_v347) = (shapeCast S3 (extractStridedSlice S1x3 ![2, 0] (arg17 m c) Cert.KernelIdeal.Facts₀.slices_S3x3_S1x3_2_0) Cert.KernelIdeal.Facts₀.shapeCasts_S1x3_S3) :=
  (W24_of_ne m ρ c main_v347 (by decide)).trans (at23_main_v347 m ρ c)
theorem at25_main_v395 (c : Dev nD) : W25 m ρ c (Proc.devRef .tc main_v395) = (Cert.ReferenceIdeal.Stages.val_main_v470 (F := Ideal) (arg0 m c) (arg1 m c) (arg6 m c) (arg7 m c) (arg10 m c) (arg11 m c) (arg12 m c) (arg13 m c) (arg14 m c) (arg15 m c)) :=
  Cert.KernelIdeal.HostValue.value14_main_v395 (W24 m ρ c) (arg0 m c) (arg1 m c) (arg6 m c) (arg7 m c) (arg10 m c) (arg11 m c) (arg12 m c) (arg13 m c) (arg14 m c) (arg15 m c) (arg17 m c) (at24_main_v341 m ρ c) (at24_main_arg7 m ρ c) (at24_main_v339 m ρ c) (at24_main_v350 m ρ c) (at24_main_v347 m ρ c)
theorem at25_main_v398 (c : Dev nD) : W25 m ρ c (Proc.devRef .tc main_v398) = (shapeCast S1x1 (shapeCast S_ (extractStridedSlice S1 ![0] (shapeCast S3 (extractStridedSlice S1x3 ![2, 0] (arg17 m c) Cert.KernelIdeal.Facts₀.slices_S3x3_S1x3_2_0) Cert.KernelIdeal.Facts₀.shapeCasts_S1x3_S3) Cert.KernelIdeal.Facts₀.slices_S3_S1_0) Cert.KernelIdeal.Facts₀.shapeCasts_S1_S_) Cert.KernelIdeal.Facts₀.shapeCasts_S_S1x1) :=
  Cert.KernelIdeal.HostValue.value14_main_v398 (W24 m ρ c) (arg0 m c) (arg1 m c) (arg6 m c) (arg7 m c) (arg10 m c) (arg11 m c) (arg12 m c) (arg13 m c) (arg14 m c) (arg15 m c) (arg17 m c) (at24_main_v341 m ρ c) (at24_main_arg7 m ρ c) (at24_main_v339 m ρ c) (at24_main_v350 m ρ c) (at24_main_v347 m ρ c)
theorem at25_main_v399 (c : Dev nD) : W25 m ρ c (Proc.devRef .tc main_v399) = (shapeCast S25000x1 (Cert.ReferenceIdeal.Stages.val_main_v436 (F := Ideal) (arg6 m c) (arg7 m c)) Cert.KernelIdeal.Facts₀.shapeCasts_S25000_S25000x1) :=
  Cert.KernelIdeal.HostValue.value14_main_v399 (W24 m ρ c) (arg0 m c) (arg1 m c) (arg6 m c) (arg7 m c) (arg10 m c) (arg11 m c) (arg12 m c) (arg13 m c) (arg14 m c) (arg15 m c) (arg17 m c) (at24_main_v341 m ρ c) (at24_main_arg7 m ρ c) (at24_main_v339 m ρ c) (at24_main_v350 m ρ c) (at24_main_v347 m ρ c)

/-! ## Boundary 26: after region 14 -/

theorem at25_main_v350 (c : Dev nD) : W25 m ρ c (Proc.devRef .tc main_v350) = (Cert.ReferenceIdeal.Stages.val_main_v425 (F := Ideal) (arg0 m c) (arg1 m c) (arg10 m c) (arg11 m c) (arg12 m c) (arg13 m c) (arg14 m c) (arg15 m c)) :=
  (Cert.KernelIdeal.HostKeep.keep14 (W24 m ρ c) main_v350 (by decide)).trans (at24_main_v350 m ρ c)
theorem at25_main_v349 (c : Dev nD) : W25 m ρ c (Proc.devRef .tc main_v349) = (shapeCast S1x64 (Cert.ReferenceIdeal.Stages.val_main_v424 (F := Ideal) (arg16 m c)) Cert.KernelIdeal.Facts₀.shapeCasts_S64_S1x64) :=
  (Cert.KernelIdeal.HostKeep.keep14 (W24 m ρ c) main_v349 (by decide)).trans ((W24_of_ne m ρ c main_v349 (by decide)).trans (at23_main_v349 m ρ c))
theorem at25_main_v348 (c : Dev nD) : W25 m ρ c (Proc.devRef .tc main_v348) = (Cert.ReferenceIdeal.Stages.val_main_v420 (F := Ideal)) :=
  (Cert.KernelIdeal.HostKeep.keep14 (W24 m ρ c) main_v348 (by decide)).trans ((W24_of_ne m ρ c main_v348 (by decide)).trans (at23_main_v348 m ρ c))
theorem at26_main_v400_0 (c : Dev nD) : W26 m ρ c (Proc.devRef .tc main_v400_0) = (Cert.ReferenceIdeal.Stages.val_main_v479 (F := Ideal) (arg0 m c) (arg1 m c) (arg6 m c) (arg7 m c) (arg10 m c) (arg11 m c) (arg12 m c) (arg13 m c) (arg14 m c) (arg15 m c) (arg16 m c)) :=
  (W26_arr m ρ c 6).trans ((Cert.KernelIdeal.RegionValue.finalize14_h (V25 m ρ) c Cert.ReferenceIdeal.Facts₀.bcast_S25000x1_S25000x64_0_1 Cert.ReferenceIdeal.Facts₀.bcast_S1x64_S25000x64_0_1).trans (by
    rw [show V25 m ρ c main_v395 = (Cert.ReferenceIdeal.Stages.val_main_v470 (F := Ideal) (arg0 m c) (arg1 m c) (arg6 m c) (arg7 m c) (arg10 m c) (arg11 m c) (arg12 m c) (arg13 m c) (arg14 m c) (arg15 m c)) from at25_main_v395 m ρ c,
      show V25 m ρ c main_v350 = (Cert.ReferenceIdeal.Stages.val_main_v425 (F := Ideal) (arg0 m c) (arg1 m c) (arg10 m c) (arg11 m c) (arg12 m c) (arg13 m c) (arg14 m c) (arg15 m c)) from at25_main_v350 m ρ c,
      show V25 m ρ c main_v399 = (shapeCast S25000x1 (Cert.ReferenceIdeal.Stages.val_main_v436 (F := Ideal) (arg6 m c) (arg7 m c)) Cert.KernelIdeal.Facts₀.shapeCasts_S25000_S25000x1) from at25_main_v399 m ρ c,
      show V25 m ρ c main_v349 = (shapeCast S1x64 (Cert.ReferenceIdeal.Stages.val_main_v424 (F := Ideal) (arg16 m c)) Cert.KernelIdeal.Facts₀.shapeCasts_S64_S1x64) from at25_main_v349 m ρ c]
    exact (Cert.Gnn.convOut_of_reshapes Cert.ReferenceIdeal.Facts₀.bcast_S25000x1_S25000x64_0_1 Cert.ReferenceIdeal.Facts₀.bcast_S1x64_S25000x64_0_1 Cert.ReferenceIdeal.Facts₀.bcast_S25000_S25000x1_0 Cert.ReferenceIdeal.Facts₀.bcast_S64_S1x64_1 Cert.KernelIdeal.Facts₀.shapeCasts_S25000_S25000x1 Cert.KernelIdeal.Facts₀.shapeCasts_S64_S1x64 _ _ _ _).trans rfl))
theorem at26_main_v400_1 (c : Dev nD) : W26 m ρ c (Proc.devRef .tc main_v400_1) = (Cert.ReferenceIdeal.Stages.val_main_v484 (F := Ideal) (arg0 m c) (arg1 m c) (arg6 m c) (arg7 m c) (arg10 m c) (arg11 m c) (arg12 m c) (arg13 m c) (arg14 m c) (arg15 m c) (arg16 m c) (arg17 m c)) :=
  (W26_arr m ρ c 7).trans ((Cert.KernelIdeal.RegionValue.finalize14_acc (V25 m ρ) c Cert.ReferenceIdeal.Facts₀.bcast_S25000x1_S25000x64_0_1 Cert.ReferenceIdeal.Facts₀.bcast_S1x64_S25000x64_0_1 Cert.ReferenceIdeal.Facts₀.bcast_S_S25000x64 Cert.ReferenceIdeal.Facts₀.shapeCasts_S1x1_S_).trans (by
    rw [show V25 m ρ c main_v395 = (Cert.ReferenceIdeal.Stages.val_main_v470 (F := Ideal) (arg0 m c) (arg1 m c) (arg6 m c) (arg7 m c) (arg10 m c) (arg11 m c) (arg12 m c) (arg13 m c) (arg14 m c) (arg15 m c)) from at25_main_v395 m ρ c,
      show V25 m ρ c main_v350 = (Cert.ReferenceIdeal.Stages.val_main_v425 (F := Ideal) (arg0 m c) (arg1 m c) (arg10 m c) (arg11 m c) (arg12 m c) (arg13 m c) (arg14 m c) (arg15 m c)) from at25_main_v350 m ρ c,
      show V25 m ρ c main_v399 = (shapeCast S25000x1 (Cert.ReferenceIdeal.Stages.val_main_v436 (F := Ideal) (arg6 m c) (arg7 m c)) Cert.KernelIdeal.Facts₀.shapeCasts_S25000_S25000x1) from at25_main_v399 m ρ c,
      show V25 m ρ c main_v349 = (shapeCast S1x64 (Cert.ReferenceIdeal.Stages.val_main_v424 (F := Ideal) (arg16 m c)) Cert.KernelIdeal.Facts₀.shapeCasts_S64_S1x64) from at25_main_v349 m ρ c,
      show V25 m ρ c main_v398 = (shapeCast S1x1 (shapeCast S_ (extractStridedSlice S1 ![0] (shapeCast S3 (extractStridedSlice S1x3 ![2, 0] (arg17 m c) Cert.KernelIdeal.Facts₀.slices_S3x3_S1x3_2_0) Cert.KernelIdeal.Facts₀.shapeCasts_S1x3_S3) Cert.KernelIdeal.Facts₀.slices_S3_S1_0) Cert.KernelIdeal.Facts₀.shapeCasts_S1_S_) Cert.KernelIdeal.Facts₀.shapeCasts_S_S1x1) from at25_main_v398 m ρ c,
      show V25 m ρ c main_v348 = (Cert.ReferenceIdeal.Stages.val_main_v420 (F := Ideal)) from at25_main_v348 m ρ c]
    rw [Cert.Gnn.convOut_of_reshapes Cert.ReferenceIdeal.Facts₀.bcast_S25000x1_S25000x64_0_1 Cert.ReferenceIdeal.Facts₀.bcast_S1x64_S25000x64_0_1 Cert.ReferenceIdeal.Facts₀.bcast_S25000_S25000x1_0 Cert.ReferenceIdeal.Facts₀.bcast_S64_S1x64_1 Cert.KernelIdeal.Facts₀.shapeCasts_S25000_S25000x1 Cert.KernelIdeal.Facts₀.shapeCasts_S64_S1x64, Cert.Gnn.coef_eq (arg17 m c) 2 0 Cert.KernelIdeal.Facts₀.slices_S3x3_S1x3_2_0 Cert.KernelIdeal.Facts₀.shapeCasts_S1x3_S3 Cert.KernelIdeal.Facts₀.slices_S3_S1_0 Cert.KernelIdeal.Facts₀.shapeCasts_S1_S_ Cert.KernelIdeal.Facts₀.shapeCasts_S_S1x1 Cert.ReferenceIdeal.Facts₀.shapeCasts_S1x1_S_ Cert.ReferenceIdeal.Facts₀.slices_S3x3_S1x1_2_0]
    rfl))

/-! ## Boundary 27: after region 15 -/

theorem at26_main_v343 (c : Dev nD) : W26 m ρ c (Proc.devRef .tc main_v343) = (Cert.ReferenceIdeal.Stages.val_main_v422 (F := Ideal) (arg15 m c)) :=
  (W26_of_ne m ρ c main_v343 (by decide)).trans ((Cert.KernelIdeal.HostKeep.keep14 (W24 m ρ c) main_v343 (by decide)).trans (((W24_arr m ρ c 1).trans (((dat13 (V23 m ρ) c).arrAt_in 1 rfl _).trans (A_eq13 (V23 m ρ) c 1))).trans (at23_main_v343 m ρ c)))
theorem at27_main_v401 (c : Dev nD) : W27 m ρ c (Proc.devRef .tc main_v401) = (Cert.ReferenceIdeal.Stages.val_main_v489 (F := Ideal) (arg0 m c) (arg1 m c) (arg6 m c) (arg7 m c) (arg10 m c) (arg11 m c) (arg12 m c) (arg13 m c) (arg14 m c) (arg15 m c) (arg16 m c)) :=
  (W27_arr m ρ c 2).trans ((Cert.KernelIdeal.RegionValue.linear15 (V26 m ρ) c).trans (by
    rw [show V26 m ρ c main_v400_0 = (Cert.ReferenceIdeal.Stages.val_main_v479 (F := Ideal) (arg0 m c) (arg1 m c) (arg6 m c) (arg7 m c) (arg10 m c) (arg11 m c) (arg12 m c) (arg13 m c) (arg14 m c) (arg15 m c) (arg16 m c)) from at26_main_v400_0 m ρ c,
      show V26 m ρ c main_v343 = (Cert.ReferenceIdeal.Stages.val_main_v422 (F := Ideal) (arg15 m c)) from at26_main_v343 m ρ c]
    rfl))

/-! ## Boundary 28: after host stretch 16 -/

theorem at27_main_v341 (c : Dev nD) : W27 m ρ c (Proc.devRef .tc main_v341) = (Cert.ReferenceIdeal.Stages.val_main_v419 (F := Ideal) (arg6 m c)) :=
  (W27_of_ne m ρ c main_v341 (by decide)).trans ((W26_of_ne m ρ c main_v341 (by decide)).trans ((Cert.KernelIdeal.HostKeep.keep14 (W24 m ρ c) main_v341 (by decide)).trans (at24_main_v341 m ρ c)))
theorem at27_main_arg7 (c : Dev nD) : W27 m ρ c (Proc.devRef .tc main_arg7) = (arg7 m c) :=
  (W27_of_ne m ρ c main_arg7 (by decide)).trans ((W26_of_ne m ρ c main_arg7 (by decide)).trans ((Cert.KernelIdeal.HostKeep.keep14 (W24 m ρ c) main_arg7 (by decide)).trans (at24_main_arg7 m ρ c)))
theorem at27_main_v339 (c : Dev nD) : W27 m ρ c (Proc.devRef .tc main_v339) = (Cert.ReferenceIdeal.Stages.val_main_v417 (F := Ideal) (arg6 m c)) :=
  (W27_of_ne m ρ c main_v339 (by decide)).trans ((W26_of_ne m ρ c main_v339 (by decide)).trans ((Cert.KernelIdeal.HostKeep.keep14 (W24 m ρ c) main_v339 (by decide)).trans (at24_main_v339 m ρ c)))
theorem at27_main_v347 (c : Dev nD) : W27 m ρ c (Proc.devRef .tc main_v347) = (shapeCast S3 (extractStridedSlice S1x3 ![2, 0] (arg17 m c) Cert.KernelIdeal.Facts₀.slices_S3x3_S1x3_2_0) Cert.KernelIdeal.Facts₀.shapeCasts_S1x3_S3) :=
  (W27_of_ne m ρ c main_v347 (by decide)).trans ((W26_of_ne m ρ c main_v347 (by decide)).trans ((Cert.KernelIdeal.HostKeep.keep14 (W24 m ρ c) main_v347 (by decide)).trans (at24_main_v347 m ρ c)))
theorem at28_main_v446 (c : Dev nD) : W28 m ρ c (Proc.devRef .tc main_v446) = (Cert.ReferenceIdeal.Stages.val_main_v534 (F := Ideal) (arg0 m c) (arg1 m c) (arg6 m c) (arg7 m c) (arg10 m c) (arg11 m c) (arg12 m c) (arg13 m c) (arg14 m c) (arg15 m c) (arg16 m c)) :=
  Cert.KernelIdeal.HostValue.value16_main_v446 (W27 m ρ c) (arg0 m c) (arg1 m c) (arg6 m c) (arg7 m c) (arg10 m c) (arg11 m c) (arg12 m c) (arg13 m c) (arg14 m c) (arg15 m c) (arg16 m c) (arg17 m c) (at27_main_v341 m ρ c) (at27_main_arg7 m ρ c) (at27_main_v339 m ρ c) (at27_main_v401 m ρ c) (at27_main_v347 m ρ c)
theorem at28_main_v449 (c : Dev nD) : W28 m ρ c (Proc.devRef .tc main_v449) = (shapeCast S1x1 (shapeCast S_ (extractStridedSlice S1 ![1] (shapeCast S3 (extractStridedSlice S1x3 ![2, 0] (arg17 m c) Cert.KernelIdeal.Facts₀.slices_S3x3_S1x3_2_0) Cert.KernelIdeal.Facts₀.shapeCasts_S1x3_S3) Cert.KernelIdeal.Facts₀.slices_S3_S1_1) Cert.KernelIdeal.Facts₀.shapeCasts_S1_S_) Cert.KernelIdeal.Facts₀.shapeCasts_S_S1x1) :=
  Cert.KernelIdeal.HostValue.value16_main_v449 (W27 m ρ c) (arg0 m c) (arg1 m c) (arg6 m c) (arg7 m c) (arg10 m c) (arg11 m c) (arg12 m c) (arg13 m c) (arg14 m c) (arg15 m c) (arg16 m c) (arg17 m c) (at27_main_v341 m ρ c) (at27_main_arg7 m ρ c) (at27_main_v339 m ρ c) (at27_main_v401 m ρ c) (at27_main_v347 m ρ c)
theorem at28_main_v450 (c : Dev nD) : W28 m ρ c (Proc.devRef .tc main_v450) = (shapeCast S25000x1 (Cert.ReferenceIdeal.Stages.val_main_v436 (F := Ideal) (arg6 m c) (arg7 m c)) Cert.KernelIdeal.Facts₀.shapeCasts_S25000_S25000x1) :=
  Cert.KernelIdeal.HostValue.value16_main_v450 (W27 m ρ c) (arg0 m c) (arg1 m c) (arg6 m c) (arg7 m c) (arg10 m c) (arg11 m c) (arg12 m c) (arg13 m c) (arg14 m c) (arg15 m c) (arg16 m c) (arg17 m c) (at27_main_v341 m ρ c) (at27_main_arg7 m ρ c) (at27_main_v339 m ρ c) (at27_main_v401 m ρ c) (at27_main_v347 m ρ c)

/-! ## Boundary 29: after region 16 -/

theorem at28_main_v401 (c : Dev nD) : W28 m ρ c (Proc.devRef .tc main_v401) = (Cert.ReferenceIdeal.Stages.val_main_v489 (F := Ideal) (arg0 m c) (arg1 m c) (arg6 m c) (arg7 m c) (arg10 m c) (arg11 m c) (arg12 m c) (arg13 m c) (arg14 m c) (arg15 m c) (arg16 m c)) :=
  (Cert.KernelIdeal.HostKeep.keep16 (W27 m ρ c) main_v401 (by decide)).trans (at27_main_v401 m ρ c)
theorem at28_main_v349 (c : Dev nD) : W28 m ρ c (Proc.devRef .tc main_v349) = (shapeCast S1x64 (Cert.ReferenceIdeal.Stages.val_main_v424 (F := Ideal) (arg16 m c)) Cert.KernelIdeal.Facts₀.shapeCasts_S64_S1x64) :=
  (Cert.KernelIdeal.HostKeep.keep16 (W27 m ρ c) main_v349 (by decide)).trans ((W27_of_ne m ρ c main_v349 (by decide)).trans (((W26_arr m ρ c 3).trans (((dat14 (V25 m ρ) c).arrAt_in 3 rfl _).trans (A_eq14 (V25 m ρ) c 3))).trans (at25_main_v349 m ρ c)))
theorem at28_main_v400_1 (c : Dev nD) : W28 m ρ c (Proc.devRef .tc main_v400_1) = (Cert.ReferenceIdeal.Stages.val_main_v484 (F := Ideal) (arg0 m c) (arg1 m c) (arg6 m c) (arg7 m c) (arg10 m c) (arg11 m c) (arg12 m c) (arg13 m c) (arg14 m c) (arg15 m c) (arg16 m c) (arg17 m c)) :=
  (Cert.KernelIdeal.HostKeep.keep16 (W27 m ρ c) main_v400_1 (by decide)).trans ((W27_of_ne m ρ c main_v400_1 (by decide)).trans (at26_main_v400_1 m ρ c))
theorem at29_main_v451_0 (c : Dev nD) : W29 m ρ c (Proc.devRef .tc main_v451_0) = (Cert.ReferenceIdeal.Stages.val_main_v543 (F := Ideal) (arg0 m c) (arg1 m c) (arg6 m c) (arg7 m c) (arg10 m c) (arg11 m c) (arg12 m c) (arg13 m c) (arg14 m c) (arg15 m c) (arg16 m c)) :=
  (W29_arr m ρ c 6).trans ((Cert.KernelIdeal.RegionValue.finalize16_h (V28 m ρ) c Cert.ReferenceIdeal.Facts₀.bcast_S25000x1_S25000x64_0_1 Cert.ReferenceIdeal.Facts₀.bcast_S1x64_S25000x64_0_1).trans (by
    rw [show V28 m ρ c main_v446 = (Cert.ReferenceIdeal.Stages.val_main_v534 (F := Ideal) (arg0 m c) (arg1 m c) (arg6 m c) (arg7 m c) (arg10 m c) (arg11 m c) (arg12 m c) (arg13 m c) (arg14 m c) (arg15 m c) (arg16 m c)) from at28_main_v446 m ρ c,
      show V28 m ρ c main_v401 = (Cert.ReferenceIdeal.Stages.val_main_v489 (F := Ideal) (arg0 m c) (arg1 m c) (arg6 m c) (arg7 m c) (arg10 m c) (arg11 m c) (arg12 m c) (arg13 m c) (arg14 m c) (arg15 m c) (arg16 m c)) from at28_main_v401 m ρ c,
      show V28 m ρ c main_v450 = (shapeCast S25000x1 (Cert.ReferenceIdeal.Stages.val_main_v436 (F := Ideal) (arg6 m c) (arg7 m c)) Cert.KernelIdeal.Facts₀.shapeCasts_S25000_S25000x1) from at28_main_v450 m ρ c,
      show V28 m ρ c main_v349 = (shapeCast S1x64 (Cert.ReferenceIdeal.Stages.val_main_v424 (F := Ideal) (arg16 m c)) Cert.KernelIdeal.Facts₀.shapeCasts_S64_S1x64) from at28_main_v349 m ρ c]
    exact (Cert.Gnn.convOut_of_reshapes Cert.ReferenceIdeal.Facts₀.bcast_S25000x1_S25000x64_0_1 Cert.ReferenceIdeal.Facts₀.bcast_S1x64_S25000x64_0_1 Cert.ReferenceIdeal.Facts₀.bcast_S25000_S25000x1_0 Cert.ReferenceIdeal.Facts₀.bcast_S64_S1x64_1 Cert.KernelIdeal.Facts₀.shapeCasts_S25000_S25000x1 Cert.KernelIdeal.Facts₀.shapeCasts_S64_S1x64 _ _ _ _).trans rfl))
theorem at29_main_v451_1 (c : Dev nD) : W29 m ρ c (Proc.devRef .tc main_v451_1) = (Cert.ReferenceIdeal.Stages.val_main_v548 (F := Ideal) (arg0 m c) (arg1 m c) (arg6 m c) (arg7 m c) (arg10 m c) (arg11 m c) (arg12 m c) (arg13 m c) (arg14 m c) (arg15 m c) (arg16 m c) (arg17 m c)) :=
  (W29_arr m ρ c 7).trans ((Cert.KernelIdeal.RegionValue.finalize16_acc (V28 m ρ) c Cert.ReferenceIdeal.Facts₀.bcast_S25000x1_S25000x64_0_1 Cert.ReferenceIdeal.Facts₀.bcast_S1x64_S25000x64_0_1 Cert.ReferenceIdeal.Facts₀.bcast_S_S25000x64 Cert.ReferenceIdeal.Facts₀.shapeCasts_S1x1_S_).trans (by
    rw [show V28 m ρ c main_v446 = (Cert.ReferenceIdeal.Stages.val_main_v534 (F := Ideal) (arg0 m c) (arg1 m c) (arg6 m c) (arg7 m c) (arg10 m c) (arg11 m c) (arg12 m c) (arg13 m c) (arg14 m c) (arg15 m c) (arg16 m c)) from at28_main_v446 m ρ c,
      show V28 m ρ c main_v401 = (Cert.ReferenceIdeal.Stages.val_main_v489 (F := Ideal) (arg0 m c) (arg1 m c) (arg6 m c) (arg7 m c) (arg10 m c) (arg11 m c) (arg12 m c) (arg13 m c) (arg14 m c) (arg15 m c) (arg16 m c)) from at28_main_v401 m ρ c,
      show V28 m ρ c main_v450 = (shapeCast S25000x1 (Cert.ReferenceIdeal.Stages.val_main_v436 (F := Ideal) (arg6 m c) (arg7 m c)) Cert.KernelIdeal.Facts₀.shapeCasts_S25000_S25000x1) from at28_main_v450 m ρ c,
      show V28 m ρ c main_v349 = (shapeCast S1x64 (Cert.ReferenceIdeal.Stages.val_main_v424 (F := Ideal) (arg16 m c)) Cert.KernelIdeal.Facts₀.shapeCasts_S64_S1x64) from at28_main_v349 m ρ c,
      show V28 m ρ c main_v449 = (shapeCast S1x1 (shapeCast S_ (extractStridedSlice S1 ![1] (shapeCast S3 (extractStridedSlice S1x3 ![2, 0] (arg17 m c) Cert.KernelIdeal.Facts₀.slices_S3x3_S1x3_2_0) Cert.KernelIdeal.Facts₀.shapeCasts_S1x3_S3) Cert.KernelIdeal.Facts₀.slices_S3_S1_1) Cert.KernelIdeal.Facts₀.shapeCasts_S1_S_) Cert.KernelIdeal.Facts₀.shapeCasts_S_S1x1) from at28_main_v449 m ρ c,
      show V28 m ρ c main_v400_1 = (Cert.ReferenceIdeal.Stages.val_main_v484 (F := Ideal) (arg0 m c) (arg1 m c) (arg6 m c) (arg7 m c) (arg10 m c) (arg11 m c) (arg12 m c) (arg13 m c) (arg14 m c) (arg15 m c) (arg16 m c) (arg17 m c)) from at28_main_v400_1 m ρ c]
    rw [Cert.Gnn.convOut_of_reshapes Cert.ReferenceIdeal.Facts₀.bcast_S25000x1_S25000x64_0_1 Cert.ReferenceIdeal.Facts₀.bcast_S1x64_S25000x64_0_1 Cert.ReferenceIdeal.Facts₀.bcast_S25000_S25000x1_0 Cert.ReferenceIdeal.Facts₀.bcast_S64_S1x64_1 Cert.KernelIdeal.Facts₀.shapeCasts_S25000_S25000x1 Cert.KernelIdeal.Facts₀.shapeCasts_S64_S1x64, Cert.Gnn.coef_eq (arg17 m c) 2 1 Cert.KernelIdeal.Facts₀.slices_S3x3_S1x3_2_0 Cert.KernelIdeal.Facts₀.shapeCasts_S1x3_S3 Cert.KernelIdeal.Facts₀.slices_S3_S1_1 Cert.KernelIdeal.Facts₀.shapeCasts_S1_S_ Cert.KernelIdeal.Facts₀.shapeCasts_S_S1x1 Cert.ReferenceIdeal.Facts₀.shapeCasts_S1x1_S_ Cert.ReferenceIdeal.Facts₀.slices_S3x3_S1x1_2_1]
    rfl))

/-! ## Boundary 30: after region 17 -/

theorem at29_main_v343 (c : Dev nD) : W29 m ρ c (Proc.devRef .tc main_v343) = (Cert.ReferenceIdeal.Stages.val_main_v422 (F := Ideal) (arg15 m c)) :=
  (W29_of_ne m ρ c main_v343 (by decide)).trans ((Cert.KernelIdeal.HostKeep.keep16 (W27 m ρ c) main_v343 (by decide)).trans (((W27_arr m ρ c 1).trans (((dat15 (V26 m ρ) c).arrAt_in 1 rfl _).trans (A_eq15 (V26 m ρ) c 1))).trans (at26_main_v343 m ρ c)))
theorem at30_main_v452 (c : Dev nD) : W30 m ρ c (Proc.devRef .tc main_v452) = (Cert.ReferenceIdeal.Stages.val_main_v553 (F := Ideal) (arg0 m c) (arg1 m c) (arg6 m c) (arg7 m c) (arg10 m c) (arg11 m c) (arg12 m c) (arg13 m c) (arg14 m c) (arg15 m c) (arg16 m c)) :=
  (W30_arr m ρ c 2).trans ((Cert.KernelIdeal.RegionValue.linear17 (V29 m ρ) c).trans (by
    rw [show V29 m ρ c main_v451_0 = (Cert.ReferenceIdeal.Stages.val_main_v543 (F := Ideal) (arg0 m c) (arg1 m c) (arg6 m c) (arg7 m c) (arg10 m c) (arg11 m c) (arg12 m c) (arg13 m c) (arg14 m c) (arg15 m c) (arg16 m c)) from at29_main_v451_0 m ρ c,
      show V29 m ρ c main_v343 = (Cert.ReferenceIdeal.Stages.val_main_v422 (F := Ideal) (arg15 m c)) from at29_main_v343 m ρ c]
    rfl))

/-! ## Boundary 31: after host stretch 18 -/

theorem at30_main_v341 (c : Dev nD) : W30 m ρ c (Proc.devRef .tc main_v341) = (Cert.ReferenceIdeal.Stages.val_main_v419 (F := Ideal) (arg6 m c)) :=
  (W30_of_ne m ρ c main_v341 (by decide)).trans ((W29_of_ne m ρ c main_v341 (by decide)).trans ((Cert.KernelIdeal.HostKeep.keep16 (W27 m ρ c) main_v341 (by decide)).trans (at27_main_v341 m ρ c)))
theorem at30_main_arg7 (c : Dev nD) : W30 m ρ c (Proc.devRef .tc main_arg7) = (arg7 m c) :=
  (W30_of_ne m ρ c main_arg7 (by decide)).trans ((W29_of_ne m ρ c main_arg7 (by decide)).trans ((Cert.KernelIdeal.HostKeep.keep16 (W27 m ρ c) main_arg7 (by decide)).trans (at27_main_arg7 m ρ c)))
theorem at30_main_v339 (c : Dev nD) : W30 m ρ c (Proc.devRef .tc main_v339) = (Cert.ReferenceIdeal.Stages.val_main_v417 (F := Ideal) (arg6 m c)) :=
  (W30_of_ne m ρ c main_v339 (by decide)).trans ((W29_of_ne m ρ c main_v339 (by decide)).trans ((Cert.KernelIdeal.HostKeep.keep16 (W27 m ρ c) main_v339 (by decide)).trans (at27_main_v339 m ρ c)))
theorem at30_main_v347 (c : Dev nD) : W30 m ρ c (Proc.devRef .tc main_v347) = (shapeCast S3 (extractStridedSlice S1x3 ![2, 0] (arg17 m c) Cert.KernelIdeal.Facts₀.slices_S3x3_S1x3_2_0) Cert.KernelIdeal.Facts₀.shapeCasts_S1x3_S3) :=
  (W30_of_ne m ρ c main_v347 (by decide)).trans ((W29_of_ne m ρ c main_v347 (by decide)).trans ((Cert.KernelIdeal.HostKeep.keep16 (W27 m ρ c) main_v347 (by decide)).trans (at27_main_v347 m ρ c)))
theorem at31_main_v497 (c : Dev nD) : W31 m ρ c (Proc.devRef .tc main_v497) = (Cert.ReferenceIdeal.Stages.val_main_v598 (F := Ideal) (arg0 m c) (arg1 m c) (arg6 m c) (arg7 m c) (arg10 m c) (arg11 m c) (arg12 m c) (arg13 m c) (arg14 m c) (arg15 m c) (arg16 m c)) :=
  Cert.KernelIdeal.HostValue.value18_main_v497 (W30 m ρ c) (arg0 m c) (arg1 m c) (arg6 m c) (arg7 m c) (arg10 m c) (arg11 m c) (arg12 m c) (arg13 m c) (arg14 m c) (arg15 m c) (arg16 m c) (arg17 m c) (at30_main_v341 m ρ c) (at30_main_arg7 m ρ c) (at30_main_v339 m ρ c) (at30_main_v452 m ρ c) (at30_main_v347 m ρ c)
theorem at31_main_v500 (c : Dev nD) : W31 m ρ c (Proc.devRef .tc main_v500) = (shapeCast S1x1 (shapeCast S_ (extractStridedSlice S1 ![2] (shapeCast S3 (extractStridedSlice S1x3 ![2, 0] (arg17 m c) Cert.KernelIdeal.Facts₀.slices_S3x3_S1x3_2_0) Cert.KernelIdeal.Facts₀.shapeCasts_S1x3_S3) Cert.KernelIdeal.Facts₀.slices_S3_S1_2) Cert.KernelIdeal.Facts₀.shapeCasts_S1_S_) Cert.KernelIdeal.Facts₀.shapeCasts_S_S1x1) :=
  Cert.KernelIdeal.HostValue.value18_main_v500 (W30 m ρ c) (arg0 m c) (arg1 m c) (arg6 m c) (arg7 m c) (arg10 m c) (arg11 m c) (arg12 m c) (arg13 m c) (arg14 m c) (arg15 m c) (arg16 m c) (arg17 m c) (at30_main_v341 m ρ c) (at30_main_arg7 m ρ c) (at30_main_v339 m ρ c) (at30_main_v452 m ρ c) (at30_main_v347 m ρ c)
theorem at31_main_v501 (c : Dev nD) : W31 m ρ c (Proc.devRef .tc main_v501) = (shapeCast S25000x1 (Cert.ReferenceIdeal.Stages.val_main_v436 (F := Ideal) (arg6 m c) (arg7 m c)) Cert.KernelIdeal.Facts₀.shapeCasts_S25000_S25000x1) :=
  Cert.KernelIdeal.HostValue.value18_main_v501 (W30 m ρ c) (arg0 m c) (arg1 m c) (arg6 m c) (arg7 m c) (arg10 m c) (arg11 m c) (arg12 m c) (arg13 m c) (arg14 m c) (arg15 m c) (arg16 m c) (arg17 m c) (at30_main_v341 m ρ c) (at30_main_arg7 m ρ c) (at30_main_v339 m ρ c) (at30_main_v452 m ρ c) (at30_main_v347 m ρ c)

/-! ## Boundary 32: after region 18 -/

theorem at31_main_v452 (c : Dev nD) : W31 m ρ c (Proc.devRef .tc main_v452) = (Cert.ReferenceIdeal.Stages.val_main_v553 (F := Ideal) (arg0 m c) (arg1 m c) (arg6 m c) (arg7 m c) (arg10 m c) (arg11 m c) (arg12 m c) (arg13 m c) (arg14 m c) (arg15 m c) (arg16 m c)) :=
  (Cert.KernelIdeal.HostKeep.keep18 (W30 m ρ c) main_v452 (by decide)).trans (at30_main_v452 m ρ c)
theorem at31_main_v349 (c : Dev nD) : W31 m ρ c (Proc.devRef .tc main_v349) = (shapeCast S1x64 (Cert.ReferenceIdeal.Stages.val_main_v424 (F := Ideal) (arg16 m c)) Cert.KernelIdeal.Facts₀.shapeCasts_S64_S1x64) :=
  (Cert.KernelIdeal.HostKeep.keep18 (W30 m ρ c) main_v349 (by decide)).trans ((W30_of_ne m ρ c main_v349 (by decide)).trans (((W29_arr m ρ c 3).trans (((dat16 (V28 m ρ) c).arrAt_in 3 rfl _).trans (A_eq16 (V28 m ρ) c 3))).trans (at28_main_v349 m ρ c)))
theorem at31_main_v451_1 (c : Dev nD) : W31 m ρ c (Proc.devRef .tc main_v451_1) = (Cert.ReferenceIdeal.Stages.val_main_v548 (F := Ideal) (arg0 m c) (arg1 m c) (arg6 m c) (arg7 m c) (arg10 m c) (arg11 m c) (arg12 m c) (arg13 m c) (arg14 m c) (arg15 m c) (arg16 m c) (arg17 m c)) :=
  (Cert.KernelIdeal.HostKeep.keep18 (W30 m ρ c) main_v451_1 (by decide)).trans ((W30_of_ne m ρ c main_v451_1 (by decide)).trans (at29_main_v451_1 m ρ c))
theorem at32_main_v502_1 (c : Dev nD) : W32 m ρ c (Proc.devRef .tc main_v502_1) = (Cert.ReferenceIdeal.Stages.val_main_v612 (F := Ideal) (arg0 m c) (arg1 m c) (arg6 m c) (arg7 m c) (arg10 m c) (arg11 m c) (arg12 m c) (arg13 m c) (arg14 m c) (arg15 m c) (arg16 m c) (arg17 m c)) :=
  (W32_arr m ρ c 7).trans ((Cert.KernelIdeal.RegionValue.finalize18_acc (V31 m ρ) c Cert.ReferenceIdeal.Facts₀.bcast_S25000x1_S25000x64_0_1 Cert.ReferenceIdeal.Facts₀.bcast_S1x64_S25000x64_0_1 Cert.ReferenceIdeal.Facts₀.bcast_S_S25000x64 Cert.ReferenceIdeal.Facts₀.shapeCasts_S1x1_S_).trans (by
    rw [show V31 m ρ c main_v497 = (Cert.ReferenceIdeal.Stages.val_main_v598 (F := Ideal) (arg0 m c) (arg1 m c) (arg6 m c) (arg7 m c) (arg10 m c) (arg11 m c) (arg12 m c) (arg13 m c) (arg14 m c) (arg15 m c) (arg16 m c)) from at31_main_v497 m ρ c,
      show V31 m ρ c main_v452 = (Cert.ReferenceIdeal.Stages.val_main_v553 (F := Ideal) (arg0 m c) (arg1 m c) (arg6 m c) (arg7 m c) (arg10 m c) (arg11 m c) (arg12 m c) (arg13 m c) (arg14 m c) (arg15 m c) (arg16 m c)) from at31_main_v452 m ρ c,
      show V31 m ρ c main_v501 = (shapeCast S25000x1 (Cert.ReferenceIdeal.Stages.val_main_v436 (F := Ideal) (arg6 m c) (arg7 m c)) Cert.KernelIdeal.Facts₀.shapeCasts_S25000_S25000x1) from at31_main_v501 m ρ c,
      show V31 m ρ c main_v349 = (shapeCast S1x64 (Cert.ReferenceIdeal.Stages.val_main_v424 (F := Ideal) (arg16 m c)) Cert.KernelIdeal.Facts₀.shapeCasts_S64_S1x64) from at31_main_v349 m ρ c,
      show V31 m ρ c main_v500 = (shapeCast S1x1 (shapeCast S_ (extractStridedSlice S1 ![2] (shapeCast S3 (extractStridedSlice S1x3 ![2, 0] (arg17 m c) Cert.KernelIdeal.Facts₀.slices_S3x3_S1x3_2_0) Cert.KernelIdeal.Facts₀.shapeCasts_S1x3_S3) Cert.KernelIdeal.Facts₀.slices_S3_S1_2) Cert.KernelIdeal.Facts₀.shapeCasts_S1_S_) Cert.KernelIdeal.Facts₀.shapeCasts_S_S1x1) from at31_main_v500 m ρ c,
      show V31 m ρ c main_v451_1 = (Cert.ReferenceIdeal.Stages.val_main_v548 (F := Ideal) (arg0 m c) (arg1 m c) (arg6 m c) (arg7 m c) (arg10 m c) (arg11 m c) (arg12 m c) (arg13 m c) (arg14 m c) (arg15 m c) (arg16 m c) (arg17 m c)) from at31_main_v451_1 m ρ c]
    rw [Cert.Gnn.convOut_of_reshapes Cert.ReferenceIdeal.Facts₀.bcast_S25000x1_S25000x64_0_1 Cert.ReferenceIdeal.Facts₀.bcast_S1x64_S25000x64_0_1 Cert.ReferenceIdeal.Facts₀.bcast_S25000_S25000x1_0 Cert.ReferenceIdeal.Facts₀.bcast_S64_S1x64_1 Cert.KernelIdeal.Facts₀.shapeCasts_S25000_S25000x1 Cert.KernelIdeal.Facts₀.shapeCasts_S64_S1x64, Cert.Gnn.coef_eq (arg17 m c) 2 2 Cert.KernelIdeal.Facts₀.slices_S3x3_S1x3_2_0 Cert.KernelIdeal.Facts₀.shapeCasts_S1x3_S3 Cert.KernelIdeal.Facts₀.slices_S3_S1_2 Cert.KernelIdeal.Facts₀.shapeCasts_S1_S_ Cert.KernelIdeal.Facts₀.shapeCasts_S_S1x1 Cert.ReferenceIdeal.Facts₀.shapeCasts_S1x1_S_ Cert.ReferenceIdeal.Facts₀.slices_S3x3_S1x1_2_2]
    rfl))

/-! ## Boundary 33: after host stretch 19 -/

theorem at32_main_arg8 (c : Dev nD) : W32 m ρ c (Proc.devRef .tc main_arg8) = (arg8 m c) :=
  (W32_of_ne m ρ c main_arg8 (by decide)).trans ((Cert.KernelIdeal.HostKeep.keep18 (W30 m ρ c) main_arg8 (by decide)).trans ((W30_of_ne m ρ c main_arg8 (by decide)).trans ((W29_of_ne m ρ c main_arg8 (by decide)).trans ((Cert.KernelIdeal.HostKeep.keep16 (W27 m ρ c) main_arg8 (by decide)).trans ((W27_of_ne m ρ c main_arg8 (by decide)).trans ((W26_of_ne m ρ c main_arg8 (by decide)).trans ((Cert.KernelIdeal.HostKeep.keep14 (W24 m ρ c) main_arg8 (by decide)).trans ((W24_of_ne m ρ c main_arg8 (by decide)).trans ((Cert.KernelIdeal.HostKeep.keep13 (W22 m ρ c) main_arg8 (by decide)).trans ((W22_of_ne m ρ c main_arg8 (by decide)).trans ((Cert.KernelIdeal.HostKeep.keep12 (W20 m ρ c) main_arg8 (by decide)).trans ((W20_of_ne m ρ c main_arg8 (by decide)).trans ((W19_of_ne m ρ c main_arg8 (by decide)).trans ((Cert.KernelIdeal.HostKeep.keep10 (W17 m ρ c) main_arg8 (by decide)).trans ((W17_of_ne m ρ c main_arg8 (by decide)).trans ((W16_of_ne m ρ c main_arg8 (by decide)).trans ((Cert.KernelIdeal.HostKeep.keep8 (W14 m ρ c) main_arg8 (by decide)).trans ((W14_of_ne m ρ c main_arg8 (by decide)).trans ((Cert.KernelIdeal.HostKeep.keep7 (W12 m ρ c) main_arg8 (by decide)).trans ((W12_of_ne m ρ c main_arg8 (by decide)).trans ((Cert.KernelIdeal.HostKeep.keep6 (W10 m ρ c) main_arg8 (by decide)).trans ((W10_of_ne m ρ c main_arg8 (by decide)).trans ((W9_of_ne m ρ c main_arg8 (by decide)).trans ((Cert.KernelIdeal.HostKeep.keep4 (W7 m ρ c) main_arg8 (by decide)).trans ((W7_of_ne m ρ c main_arg8 (by decide)).trans ((W6_of_ne m ρ c main_arg8 (by decide)).trans ((Cert.KernelIdeal.HostKeep.keep2 (W4 m ρ c) main_arg8 (by decide)).trans ((W4_of_ne m ρ c main_arg8 (by decide)).trans ((Cert.KernelIdeal.HostKeep.keep1 (W2 m ρ c) main_arg8 (by decide)).trans ((W2_of_ne m ρ c main_arg8 (by decide)).trans ((Cert.KernelIdeal.HostKeep.keep0 (W0 m ρ c) main_arg8 (by decide)).trans (at0_main_arg8 m ρ c))))))))))))))))))))))))))))))))
theorem at32_main_v337_1 (c : Dev nD) : W32 m ρ c (Proc.devRef .tc main_v337_1) = (Cert.ReferenceIdeal.Stages.val_main_v415 (F := Ideal) (arg0 m c) (arg1 m c) (arg4 m c) (arg5 m c) (arg10 m c) (arg11 m c) (arg12 m c) (arg13 m c) (arg14 m c) (arg15 m c) (arg16 m c) (arg17 m c)) :=
  (W32_of_ne m ρ c main_v337_1 (by decide)).trans ((Cert.KernelIdeal.HostKeep.keep18 (W30 m ρ c) main_v337_1 (by decide)).trans ((W30_of_ne m ρ c main_v337_1 (by decide)).trans ((W29_of_ne m ρ c main_v337_1 (by decide)).trans ((Cert.KernelIdeal.HostKeep.keep16 (W27 m ρ c) main_v337_1 (by decide)).trans ((W27_of_ne m ρ c main_v337_1 (by decide)).trans ((W26_of_ne m ρ c main_v337_1 (by decide)).trans ((Cert.KernelIdeal.HostKeep.keep14 (W24 m ρ c) main_v337_1 (by decide)).trans ((W24_of_ne m ρ c main_v337_1 (by decide)).trans ((Cert.KernelIdeal.HostKeep.keep13 (W22 m ρ c) main_v337_1 (by decide)).trans (at22_main_v337_1 m ρ c))))))))))
theorem at32_main_arg9 (c : Dev nD) : W32 m ρ c (Proc.devRef .tc main_arg9) = (arg9 m c) :=
  (W32_of_ne m ρ c main_arg9 (by decide)).trans ((Cert.KernelIdeal.HostKeep.keep18 (W30 m ρ c) main_arg9 (by decide)).trans ((W30_of_ne m ρ c main_arg9 (by decide)).trans ((W29_of_ne m ρ c main_arg9 (by decide)).trans ((Cert.KernelIdeal.HostKeep.keep16 (W27 m ρ c) main_arg9 (by decide)).trans ((W27_of_ne m ρ c main_arg9 (by decide)).trans ((W26_of_ne m ρ c main_arg9 (by decide)).trans ((Cert.KernelIdeal.HostKeep.keep14 (W24 m ρ c) main_arg9 (by decide)).trans ((W24_of_ne m ρ c main_arg9 (by decide)).trans ((Cert.KernelIdeal.HostKeep.keep13 (W22 m ρ c) main_arg9 (by decide)).trans ((W22_of_ne m ρ c main_arg9 (by decide)).trans ((Cert.KernelIdeal.HostKeep.keep12 (W20 m ρ c) main_arg9 (by decide)).trans ((W20_of_ne m ρ c main_arg9 (by decide)).trans ((W19_of_ne m ρ c main_arg9 (by decide)).trans ((Cert.KernelIdeal.HostKeep.keep10 (W17 m ρ c) main_arg9 (by decide)).trans ((W17_of_ne m ρ c main_arg9 (by decide)).trans ((W16_of_ne m ρ c main_arg9 (by decide)).trans ((Cert.KernelIdeal.HostKeep.keep8 (W14 m ρ c) main_arg9 (by decide)).trans ((W14_of_ne m ρ c main_arg9 (by decide)).trans ((Cert.KernelIdeal.HostKeep.keep7 (W12 m ρ c) main_arg9 (by decide)).trans ((W12_of_ne m ρ c main_arg9 (by decide)).trans ((Cert.KernelIdeal.HostKeep.keep6 (W10 m ρ c) main_arg9 (by decide)).trans ((W10_of_ne m ρ c main_arg9 (by decide)).trans ((W9_of_ne m ρ c main_arg9 (by decide)).trans ((Cert.KernelIdeal.HostKeep.keep4 (W7 m ρ c) main_arg9 (by decide)).trans ((W7_of_ne m ρ c main_arg9 (by decide)).trans ((W6_of_ne m ρ c main_arg9 (by decide)).trans ((Cert.KernelIdeal.HostKeep.keep2 (W4 m ρ c) main_arg9 (by decide)).trans ((W4_of_ne m ρ c main_arg9 (by decide)).trans ((Cert.KernelIdeal.HostKeep.keep1 (W2 m ρ c) main_arg9 (by decide)).trans ((W2_of_ne m ρ c main_arg9 (by decide)).trans ((Cert.KernelIdeal.HostKeep.keep0 (W0 m ρ c) main_arg9 (by decide)).trans (at0_main_arg9 m ρ c))))))))))))))))))))))))))))))))
theorem at33_main_v524 (c : Dev nD) : W33 m ρ c (Proc.devRef .tc main_v524) = (Cert.ReferenceIdeal.Stages.val_main_v634 (F := Ideal) (arg0 m c) (arg1 m c) (arg4 m c) (arg5 m c) (arg8 m c) (arg10 m c) (arg11 m c) (arg12 m c) (arg13 m c) (arg14 m c) (arg15 m c) (arg16 m c) (arg17 m c)) :=
  Cert.KernelIdeal.HostValue.value19_main_v524 (W32 m ρ c) (arg0 m c) (arg1 m c) (arg4 m c) (arg5 m c) (arg6 m c) (arg7 m c) (arg8 m c) (arg9 m c) (arg10 m c) (arg11 m c) (arg12 m c) (arg13 m c) (arg14 m c) (arg15 m c) (arg16 m c) (arg17 m c) (at32_main_arg8 m ρ c) (at32_main_v337_1 m ρ c) (at32_main_arg9 m ρ c) (at32_main_v502_1 m ρ c)
theorem at33_main_v546 (c : Dev nD) : W33 m ρ c (Proc.devRef .tc main_v546) = (Cert.ReferenceIdeal.Stages.val_main_v657 (F := Ideal) (arg0 m c) (arg1 m c) (arg6 m c) (arg7 m c) (arg9 m c) (arg10 m c) (arg11 m c) (arg12 m c) (arg13 m c) (arg14 m c) (arg15 m c) (arg16 m c) (arg17 m c)) :=
  Cert.KernelIdeal.HostValue.value19_main_v546 (W32 m ρ c) (arg0 m c) (arg1 m c) (arg4 m c) (arg5 m c) (arg6 m c) (arg7 m c) (arg8 m c) (arg9 m c) (arg10 m c) (arg11 m c) (arg12 m c) (arg13 m c) (arg14 m c) (arg15 m c) (arg16 m c) (arg17 m c) (at32_main_arg8 m ρ c) (at32_main_v337_1 m ρ c) (at32_main_arg9 m ρ c) (at32_main_v502_1 m ρ c)

/-! ## Boundary 34: after region 19 -/

theorem at33_main_v172_1 (c : Dev nD) : W33 m ρ c (Proc.devRef .tc main_v172_1) = (Cert.ReferenceIdeal.Stages.val_main_v218 (F := Ideal) (arg0 m c) (arg1 m c) (arg2 m c) (arg3 m c) (arg10 m c) (arg11 m c) (arg12 m c) (arg13 m c) (arg14 m c) (arg15 m c) (arg16 m c) (arg17 m c)) :=
  (Cert.KernelIdeal.HostKeep.keep19 (W32 m ρ c) main_v172_1 (by decide)).trans ((W32_of_ne m ρ c main_v172_1 (by decide)).trans ((Cert.KernelIdeal.HostKeep.keep18 (W30 m ρ c) main_v172_1 (by decide)).trans ((W30_of_ne m ρ c main_v172_1 (by decide)).trans ((W29_of_ne m ρ c main_v172_1 (by decide)).trans ((Cert.KernelIdeal.HostKeep.keep16 (W27 m ρ c) main_v172_1 (by decide)).trans ((W27_of_ne m ρ c main_v172_1 (by decide)).trans ((W26_of_ne m ρ c main_v172_1 (by decide)).trans ((Cert.KernelIdeal.HostKeep.keep14 (W24 m ρ c) main_v172_1 (by decide)).trans ((W24_of_ne m ρ c main_v172_1 (by decide)).trans ((Cert.KernelIdeal.HostKeep.keep13 (W22 m ρ c) main_v172_1 (by decide)).trans ((W22_of_ne m ρ c main_v172_1 (by decide)).trans ((Cert.KernelIdeal.HostKeep.keep12 (W20 m ρ c) main_v172_1 (by decide)).trans ((W20_of_ne m ρ c main_v172_1 (by decide)).trans ((W19_of_ne m ρ c main_v172_1 (by decide)).trans ((Cert.KernelIdeal.HostKeep.keep10 (W17 m ρ c) main_v172_1 (by decide)).trans ((W17_of_ne m ρ c main_v172_1 (by decide)).trans ((W16_of_ne m ρ c main_v172_1 (by decide)).trans ((Cert.KernelIdeal.HostKeep.keep8 (W14 m ρ c) main_v172_1 (by decide)).trans ((W14_of_ne m ρ c main_v172_1 (by decide)).trans ((Cert.KernelIdeal.HostKeep.keep7 (W12 m ρ c) main_v172_1 (by decide)).trans (at12_main_v172_1 m ρ c)))))))))))))))))))))
theorem at34_main_v547 (c : Dev nD) : W34 m ρ c (Proc.devRef .tc main_v547) = (Cert.ReferenceIdeal.Stages.val_main_v658 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c)) :=
  (W34_arr m ρ c 3).trans ((Cert.KernelIdeal.RegionValue.sumThree19 (V33 m ρ) c).trans (by
    rw [show V33 m ρ c main_v172_1 = (Cert.ReferenceIdeal.Stages.val_main_v218 (F := Ideal) (arg0 m c) (arg1 m c) (arg2 m c) (arg3 m c) (arg10 m c) (arg11 m c) (arg12 m c) (arg13 m c) (arg14 m c) (arg15 m c) (arg16 m c) (arg17 m c)) from at33_main_v172_1 m ρ c,
      show V33 m ρ c main_v524 = (Cert.ReferenceIdeal.Stages.val_main_v634 (F := Ideal) (arg0 m c) (arg1 m c) (arg4 m c) (arg5 m c) (arg8 m c) (arg10 m c) (arg11 m c) (arg12 m c) (arg13 m c) (arg14 m c) (arg15 m c) (arg16 m c) (arg17 m c)) from at33_main_v524 m ρ c,
      show V33 m ρ c main_v546 = (Cert.ReferenceIdeal.Stages.val_main_v657 (F := Ideal) (arg0 m c) (arg1 m c) (arg6 m c) (arg7 m c) (arg9 m c) (arg10 m c) (arg11 m c) (arg12 m c) (arg13 m c) (arg14 m c) (arg15 m c) (arg16 m c) (arg17 m c)) from at33_main_v546 m ρ c]
    rfl))

/-! ## Boundary 35: after host stretch 20 -/

theorem at34_main_arg19 (c : Dev nD) : W34 m ρ c (Proc.devRef .tc main_arg19) = (arg19 m c) :=
  (W34_of_ne m ρ c main_arg19 (by decide)).trans ((Cert.KernelIdeal.HostKeep.keep19 (W32 m ρ c) main_arg19 (by decide)).trans ((W32_of_ne m ρ c main_arg19 (by decide)).trans ((Cert.KernelIdeal.HostKeep.keep18 (W30 m ρ c) main_arg19 (by decide)).trans ((W30_of_ne m ρ c main_arg19 (by decide)).trans ((W29_of_ne m ρ c main_arg19 (by decide)).trans ((Cert.KernelIdeal.HostKeep.keep16 (W27 m ρ c) main_arg19 (by decide)).trans ((W27_of_ne m ρ c main_arg19 (by decide)).trans ((W26_of_ne m ρ c main_arg19 (by decide)).trans ((Cert.KernelIdeal.HostKeep.keep14 (W24 m ρ c) main_arg19 (by decide)).trans ((W24_of_ne m ρ c main_arg19 (by decide)).trans ((Cert.KernelIdeal.HostKeep.keep13 (W22 m ρ c) main_arg19 (by decide)).trans ((W22_of_ne m ρ c main_arg19 (by decide)).trans ((Cert.KernelIdeal.HostKeep.keep12 (W20 m ρ c) main_arg19 (by decide)).trans ((W20_of_ne m ρ c main_arg19 (by decide)).trans ((W19_of_ne m ρ c main_arg19 (by decide)).trans ((Cert.KernelIdeal.HostKeep.keep10 (W17 m ρ c) main_arg19 (by decide)).trans ((W17_of_ne m ρ c main_arg19 (by decide)).trans ((W16_of_ne m ρ c main_arg19 (by decide)).trans ((Cert.KernelIdeal.HostKeep.keep8 (W14 m ρ c) main_arg19 (by decide)).trans ((W14_of_ne m ρ c main_arg19 (by decide)).trans ((Cert.KernelIdeal.HostKeep.keep7 (W12 m ρ c) main_arg19 (by decide)).trans ((W12_of_ne m ρ c main_arg19 (by decide)).trans ((Cert.KernelIdeal.HostKeep.keep6 (W10 m ρ c) main_arg19 (by decide)).trans ((W10_of_ne m ρ c main_arg19 (by decide)).trans ((W9_of_ne m ρ c main_arg19 (by decide)).trans ((Cert.KernelIdeal.HostKeep.keep4 (W7 m ρ c) main_arg19 (by decide)).trans ((W7_of_ne m ρ c main_arg19 (by decide)).trans ((W6_of_ne m ρ c main_arg19 (by decide)).trans ((Cert.KernelIdeal.HostKeep.keep2 (W4 m ρ c) main_arg19 (by decide)).trans ((W4_of_ne m ρ c main_arg19 (by decide)).trans ((Cert.KernelIdeal.HostKeep.keep1 (W2 m ρ c) main_arg19 (by decide)).trans ((W2_of_ne m ρ c main_arg19 (by decide)).trans ((Cert.KernelIdeal.HostKeep.keep0 (W0 m ρ c) main_arg19 (by decide)).trans (at0_main_arg19 m ρ c))))))))))))))))))))))))))))))))))
theorem at34_main_arg21 (c : Dev nD) : W34 m ρ c (Proc.devRef .tc main_arg21) = (arg21 m c) :=
  (W34_of_ne m ρ c main_arg21 (by decide)).trans ((Cert.KernelIdeal.HostKeep.keep19 (W32 m ρ c) main_arg21 (by decide)).trans ((W32_of_ne m ρ c main_arg21 (by decide)).trans ((Cert.KernelIdeal.HostKeep.keep18 (W30 m ρ c) main_arg21 (by decide)).trans ((W30_of_ne m ρ c main_arg21 (by decide)).trans ((W29_of_ne m ρ c main_arg21 (by decide)).trans ((Cert.KernelIdeal.HostKeep.keep16 (W27 m ρ c) main_arg21 (by decide)).trans ((W27_of_ne m ρ c main_arg21 (by decide)).trans ((W26_of_ne m ρ c main_arg21 (by decide)).trans ((Cert.KernelIdeal.HostKeep.keep14 (W24 m ρ c) main_arg21 (by decide)).trans ((W24_of_ne m ρ c main_arg21 (by decide)).trans ((Cert.KernelIdeal.HostKeep.keep13 (W22 m ρ c) main_arg21 (by decide)).trans ((W22_of_ne m ρ c main_arg21 (by decide)).trans ((Cert.KernelIdeal.HostKeep.keep12 (W20 m ρ c) main_arg21 (by decide)).trans ((W20_of_ne m ρ c main_arg21 (by decide)).trans ((W19_of_ne m ρ c main_arg21 (by decide)).trans ((Cert.KernelIdeal.HostKeep.keep10 (W17 m ρ c) main_arg21 (by decide)).trans ((W17_of_ne m ρ c main_arg21 (by decide)).trans ((W16_of_ne m ρ c main_arg21 (by decide)).trans ((Cert.KernelIdeal.HostKeep.keep8 (W14 m ρ c) main_arg21 (by decide)).trans ((W14_of_ne m ρ c main_arg21 (by decide)).trans ((Cert.KernelIdeal.HostKeep.keep7 (W12 m ρ c) main_arg21 (by decide)).trans ((W12_of_ne m ρ c main_arg21 (by decide)).trans ((Cert.KernelIdeal.HostKeep.keep6 (W10 m ρ c) main_arg21 (by decide)).trans ((W10_of_ne m ρ c main_arg21 (by decide)).trans ((W9_of_ne m ρ c main_arg21 (by decide)).trans ((Cert.KernelIdeal.HostKeep.keep4 (W7 m ρ c) main_arg21 (by decide)).trans ((W7_of_ne m ρ c main_arg21 (by decide)).trans ((W6_of_ne m ρ c main_arg21 (by decide)).trans ((Cert.KernelIdeal.HostKeep.keep2 (W4 m ρ c) main_arg21 (by decide)).trans ((W4_of_ne m ρ c main_arg21 (by decide)).trans ((Cert.KernelIdeal.HostKeep.keep1 (W2 m ρ c) main_arg21 (by decide)).trans ((W2_of_ne m ρ c main_arg21 (by decide)).trans ((Cert.KernelIdeal.HostKeep.keep0 (W0 m ρ c) main_arg21 (by decide)).trans (at0_main_arg21 m ρ c))))))))))))))))))))))))))))))))))
theorem at34_main_arg22 (c : Dev nD) : W34 m ρ c (Proc.devRef .tc main_arg22) = (arg22 m c) :=
  (W34_of_ne m ρ c main_arg22 (by decide)).trans ((Cert.KernelIdeal.HostKeep.keep19 (W32 m ρ c) main_arg22 (by decide)).trans ((W32_of_ne m ρ c main_arg22 (by decide)).trans ((Cert.KernelIdeal.HostKeep.keep18 (W30 m ρ c) main_arg22 (by decide)).trans ((W30_of_ne m ρ c main_arg22 (by decide)).trans ((W29_of_ne m ρ c main_arg22 (by decide)).trans ((Cert.KernelIdeal.HostKeep.keep16 (W27 m ρ c) main_arg22 (by decide)).trans ((W27_of_ne m ρ c main_arg22 (by decide)).trans ((W26_of_ne m ρ c main_arg22 (by decide)).trans ((Cert.KernelIdeal.HostKeep.keep14 (W24 m ρ c) main_arg22 (by decide)).trans ((W24_of_ne m ρ c main_arg22 (by decide)).trans ((Cert.KernelIdeal.HostKeep.keep13 (W22 m ρ c) main_arg22 (by decide)).trans ((W22_of_ne m ρ c main_arg22 (by decide)).trans ((Cert.KernelIdeal.HostKeep.keep12 (W20 m ρ c) main_arg22 (by decide)).trans ((W20_of_ne m ρ c main_arg22 (by decide)).trans ((W19_of_ne m ρ c main_arg22 (by decide)).trans ((Cert.KernelIdeal.HostKeep.keep10 (W17 m ρ c) main_arg22 (by decide)).trans ((W17_of_ne m ρ c main_arg22 (by decide)).trans ((W16_of_ne m ρ c main_arg22 (by decide)).trans ((Cert.KernelIdeal.HostKeep.keep8 (W14 m ρ c) main_arg22 (by decide)).trans ((W14_of_ne m ρ c main_arg22 (by decide)).trans ((Cert.KernelIdeal.HostKeep.keep7 (W12 m ρ c) main_arg22 (by decide)).trans ((W12_of_ne m ρ c main_arg22 (by decide)).trans ((Cert.KernelIdeal.HostKeep.keep6 (W10 m ρ c) main_arg22 (by decide)).trans ((W10_of_ne m ρ c main_arg22 (by decide)).trans ((W9_of_ne m ρ c main_arg22 (by decide)).trans ((Cert.KernelIdeal.HostKeep.keep4 (W7 m ρ c) main_arg22 (by decide)).trans ((W7_of_ne m ρ c main_arg22 (by decide)).trans ((W6_of_ne m ρ c main_arg22 (by decide)).trans ((Cert.KernelIdeal.HostKeep.keep2 (W4 m ρ c) main_arg22 (by decide)).trans ((W4_of_ne m ρ c main_arg22 (by decide)).trans ((Cert.KernelIdeal.HostKeep.keep1 (W2 m ρ c) main_arg22 (by decide)).trans ((W2_of_ne m ρ c main_arg22 (by decide)).trans ((Cert.KernelIdeal.HostKeep.keep0 (W0 m ρ c) main_arg22 (by decide)).trans (at0_main_arg22 m ρ c))))))))))))))))))))))))))))))))))
theorem at35_main_v548 (c : Dev nD) : W35 m ρ c (Proc.devRef .tc main_v548) = (shapeCast S1x64 (arg19 m c) Cert.KernelIdeal.Facts₀.shapeCasts_S64_S1x64) :=
  Cert.KernelIdeal.HostValue.value20_main_v548 (W34 m ρ c) (arg19 m c) (arg21 m c) (arg22 m c) (at34_main_arg19 m ρ c) (at34_main_arg21 m ρ c) (at34_main_arg22 m ρ c)
theorem at35_main_v549 (c : Dev nD) : W35 m ρ c (Proc.devRef .tc main_v549) = (shapeCast S1x2 (arg21 m c) Cert.KernelIdeal.Facts₀.shapeCasts_S2_S1x2) :=
  Cert.KernelIdeal.HostValue.value20_main_v549 (W34 m ρ c) (arg19 m c) (arg21 m c) (arg22 m c) (at34_main_arg19 m ρ c) (at34_main_arg21 m ρ c) (at34_main_arg22 m ρ c)
theorem at35_main_v550 (c : Dev nD) : W35 m ρ c (Proc.devRef .tc main_v550) = (shapeCast S1x1 (arg22 m c) Cert.KernelIdeal.Facts₀.shapeCasts_S_S1x1) :=
  Cert.KernelIdeal.HostValue.value20_main_v550 (W34 m ρ c) (arg19 m c) (arg21 m c) (arg22 m c) (at34_main_arg19 m ρ c) (at34_main_arg21 m ρ c) (at34_main_arg22 m ρ c)

/-! ## Boundary 36: after region 20 -/

theorem at35_main_v547 (c : Dev nD) : W35 m ρ c (Proc.devRef .tc main_v547) = (Cert.ReferenceIdeal.Stages.val_main_v658 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c)) :=
  (Cert.KernelIdeal.HostKeep.keep20 (W34 m ρ c) main_v547 (by decide)).trans (at34_main_v547 m ρ c)
theorem at35_main_arg18 (c : Dev nD) : W35 m ρ c (Proc.devRef .tc main_arg18) = (arg18 m c) :=
  (Cert.KernelIdeal.HostKeep.keep20 (W34 m ρ c) main_arg18 (by decide)).trans ((W34_of_ne m ρ c main_arg18 (by decide)).trans ((Cert.KernelIdeal.HostKeep.keep19 (W32 m ρ c) main_arg18 (by decide)).trans ((W32_of_ne m ρ c main_arg18 (by decide)).trans ((Cert.KernelIdeal.HostKeep.keep18 (W30 m ρ c) main_arg18 (by decide)).trans ((W30_of_ne m ρ c main_arg18 (by decide)).trans ((W29_of_ne m ρ c main_arg18 (by decide)).trans ((Cert.KernelIdeal.HostKeep.keep16 (W27 m ρ c) main_arg18 (by decide)).trans ((W27_of_ne m ρ c main_arg18 (by decide)).trans ((W26_of_ne m ρ c main_arg18 (by decide)).trans ((Cert.KernelIdeal.HostKeep.keep14 (W24 m ρ c) main_arg18 (by decide)).trans ((W24_of_ne m ρ c main_arg18 (by decide)).trans ((Cert.KernelIdeal.HostKeep.keep13 (W22 m ρ c) main_arg18 (by decide)).trans ((W22_of_ne m ρ c main_arg18 (by decide)).trans ((Cert.KernelIdeal.HostKeep.keep12 (W20 m ρ c) main_arg18 (by decide)).trans ((W20_of_ne m ρ c main_arg18 (by decide)).trans ((W19_of_ne m ρ c main_arg18 (by decide)).trans ((Cert.KernelIdeal.HostKeep.keep10 (W17 m ρ c) main_arg18 (by decide)).trans ((W17_of_ne m ρ c main_arg18 (by decide)).trans ((W16_of_ne m ρ c main_arg18 (by decide)).trans ((Cert.KernelIdeal.HostKeep.keep8 (W14 m ρ c) main_arg18 (by decide)).trans ((W14_of_ne m ρ c main_arg18 (by decide)).trans ((Cert.KernelIdeal.HostKeep.keep7 (W12 m ρ c) main_arg18 (by decide)).trans ((W12_of_ne m ρ c main_arg18 (by decide)).trans ((Cert.KernelIdeal.HostKeep.keep6 (W10 m ρ c) main_arg18 (by decide)).trans ((W10_of_ne m ρ c main_arg18 (by decide)).trans ((W9_of_ne m ρ c main_arg18 (by decide)).trans ((Cert.KernelIdeal.HostKeep.keep4 (W7 m ρ c) main_arg18 (by decide)).trans ((W7_of_ne m ρ c main_arg18 (by decide)).trans ((W6_of_ne m ρ c main_arg18 (by decide)).trans ((Cert.KernelIdeal.HostKeep.keep2 (W4 m ρ c) main_arg18 (by decide)).trans ((W4_of_ne m ρ c main_arg18 (by decide)).trans ((Cert.KernelIdeal.HostKeep.keep1 (W2 m ρ c) main_arg18 (by decide)).trans ((W2_of_ne m ρ c main_arg18 (by decide)).trans ((Cert.KernelIdeal.HostKeep.keep0 (W0 m ρ c) main_arg18 (by decide)).trans (at0_main_arg18 m ρ c)))))))))))))))))))))))))))))))))))
theorem at35_main_arg20 (c : Dev nD) : W35 m ρ c (Proc.devRef .tc main_arg20) = (arg20 m c) :=
  (Cert.KernelIdeal.HostKeep.keep20 (W34 m ρ c) main_arg20 (by decide)).trans ((W34_of_ne m ρ c main_arg20 (by decide)).trans ((Cert.KernelIdeal.HostKeep.keep19 (W32 m ρ c) main_arg20 (by decide)).trans ((W32_of_ne m ρ c main_arg20 (by decide)).trans ((Cert.KernelIdeal.HostKeep.keep18 (W30 m ρ c) main_arg20 (by decide)).trans ((W30_of_ne m ρ c main_arg20 (by decide)).trans ((W29_of_ne m ρ c main_arg20 (by decide)).trans ((Cert.KernelIdeal.HostKeep.keep16 (W27 m ρ c) main_arg20 (by decide)).trans ((W27_of_ne m ρ c main_arg20 (by decide)).trans ((W26_of_ne m ρ c main_arg20 (by decide)).trans ((Cert.KernelIdeal.HostKeep.keep14 (W24 m ρ c) main_arg20 (by decide)).trans ((W24_of_ne m ρ c main_arg20 (by decide)).trans ((Cert.KernelIdeal.HostKeep.keep13 (W22 m ρ c) main_arg20 (by decide)).trans ((W22_of_ne m ρ c main_arg20 (by decide)).trans ((Cert.KernelIdeal.HostKeep.keep12 (W20 m ρ c) main_arg20 (by decide)).trans ((W20_of_ne m ρ c main_arg20 (by decide)).trans ((W19_of_ne m ρ c main_arg20 (by decide)).trans ((Cert.KernelIdeal.HostKeep.keep10 (W17 m ρ c) main_arg20 (by decide)).trans ((W17_of_ne m ρ c main_arg20 (by decide)).trans ((W16_of_ne m ρ c main_arg20 (by decide)).trans ((Cert.KernelIdeal.HostKeep.keep8 (W14 m ρ c) main_arg20 (by decide)).trans ((W14_of_ne m ρ c main_arg20 (by decide)).trans ((Cert.KernelIdeal.HostKeep.keep7 (W12 m ρ c) main_arg20 (by decide)).trans ((W12_of_ne m ρ c main_arg20 (by decide)).trans ((Cert.KernelIdeal.HostKeep.keep6 (W10 m ρ c) main_arg20 (by decide)).trans ((W10_of_ne m ρ c main_arg20 (by decide)).trans ((W9_of_ne m ρ c main_arg20 (by decide)).trans ((Cert.KernelIdeal.HostKeep.keep4 (W7 m ρ c) main_arg20 (by decide)).trans ((W7_of_ne m ρ c main_arg20 (by decide)).trans ((W6_of_ne m ρ c main_arg20 (by decide)).trans ((Cert.KernelIdeal.HostKeep.keep2 (W4 m ρ c) main_arg20 (by decide)).trans ((W4_of_ne m ρ c main_arg20 (by decide)).trans ((Cert.KernelIdeal.HostKeep.keep1 (W2 m ρ c) main_arg20 (by decide)).trans ((W2_of_ne m ρ c main_arg20 (by decide)).trans ((Cert.KernelIdeal.HostKeep.keep0 (W0 m ρ c) main_arg20 (by decide)).trans (at0_main_arg20 m ρ c)))))))))))))))))))))))))))))))))))
theorem at36_main_v551 (c : Dev nD) : W36 m ρ c (Proc.devRef .tc main_v551) = (Cert.ReferenceIdeal.Stages.val_main_v676 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c)) :=
  (W36_arr m ρ c 6).trans ((Cert.KernelIdeal.RegionValue.twoDense20 (V35 m ρ) c Cert.ReferenceIdeal.Facts₀.bcast_S1x64_S400000x64_0_1 Cert.ReferenceIdeal.Facts₀.bcast_S_S400000x64 Cert.ReferenceIdeal.Facts₀.bcast_S1x2_S400000x2_0_1 Cert.ReferenceIdeal.Facts₀.bcast_S_S400000x2 Cert.ReferenceIdeal.Facts₀.shapeCasts_S1x1_S_).trans (by
    rw [show V35 m ρ c main_v547 = (Cert.ReferenceIdeal.Stages.val_main_v658 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c)) from at35_main_v547 m ρ c,
      show V35 m ρ c main_arg18 = (arg18 m c) from at35_main_arg18 m ρ c,
      show V35 m ρ c main_v548 = (shapeCast S1x64 (arg19 m c) Cert.KernelIdeal.Facts₀.shapeCasts_S64_S1x64) from at35_main_v548 m ρ c,
      show V35 m ρ c main_arg20 = (arg20 m c) from at35_main_arg20 m ρ c,
      show V35 m ρ c main_v549 = (shapeCast S1x2 (arg21 m c) Cert.KernelIdeal.Facts₀.shapeCasts_S2_S1x2) from at35_main_v549 m ρ c,
      show V35 m ρ c main_v550 = (shapeCast S1x1 (arg22 m c) Cert.KernelIdeal.Facts₀.shapeCasts_S_S1x1) from at35_main_v550 m ρ c]
    rw [Cert.Gnn.dense_of_reshapes Cert.ReferenceIdeal.Facts₀.bcast_S1x64_S400000x64_0_1 Cert.ReferenceIdeal.Facts₀.bcast_S_S400000x64 Cert.ReferenceIdeal.Facts₀.bcast_S64_S1x64_1 Cert.KernelIdeal.Facts₀.shapeCasts_S64_S1x64 Cert.KernelIdeal.Facts₀.shapeCasts_S_S1x1 Cert.ReferenceIdeal.Facts₀.shapeCasts_S1x1_S_, Cert.Gnn.dense_of_reshapes Cert.ReferenceIdeal.Facts₀.bcast_S1x2_S400000x2_0_1 Cert.ReferenceIdeal.Facts₀.bcast_S_S400000x2 Cert.ReferenceIdeal.Facts₀.bcast_S2_S1x2_1 Cert.KernelIdeal.Facts₀.shapeCasts_S2_S1x2 Cert.KernelIdeal.Facts₀.shapeCasts_S_S1x1 Cert.ReferenceIdeal.Facts₀.shapeCasts_S1x1_S_]
    rfl))

/-- The result buffer at the last boundary is the reference's last stage of the launch arguments. -/
theorem result (c : Dev nD) : W36 m ρ c (Proc.devRef .tc main_v551) = (Cert.ReferenceIdeal.Stages.val_main_v676 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c)) := at36_main_v551 m ρ c

end Cert.KernelIdeal.Chain

end
-- ==== Proof.RWin0.lean ====
/-
  The reference program's window number 0 (operations 1 to 60 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops0 : List (HloOp τ sig (Elt F)) :=
  [ binary main_arg0 main_arg1 main_v0 ((fun a b => concatenate S525000x16 1 [⟨S525000x6, a⟩, ⟨S525000x10, b⟩] concatenates_S525000x6_S525000x10_S525000x16_d1) : (⟨S525000x6, .f32⟩ : BufTy).Contents (Elt F) → (⟨S525000x10, .f32⟩ : BufTy).Contents (Elt F) → (⟨S525000x16, .f32⟩ : BufTy).Contents (Elt F)),
    binary main_v0 main_arg10 main_v1 ((fun l r => Host.dotGeneral dot_S525000x16_S16x64_S525000x64_1_0_0_1_n_n none l r) : (⟨S525000x16, .f32⟩ : BufTy).Contents (Elt F) → (⟨S16x64, .f32⟩ : BufTy).Contents (Elt F) → (⟨S525000x64, .f32⟩ : BufTy).Contents (Elt F)),
    unary main_arg11 main_v2 (broadcastInDim S1x64 ![1] bcast_S64_S1x64_1 : (⟨S64, .f32⟩ : BufTy).Contents (Elt F) → (⟨S1x64, .f32⟩ : BufTy).Contents (Elt F)),
    unary main_v2 main_v3 (broadcastInDim S525000x64 ![0, 1] bcast_S1x64_S525000x64_0_1 : (⟨S1x64, .f32⟩ : BufTy).Contents (Elt F) → (⟨S525000x64, .f32⟩ : BufTy).Contents (Elt F)),
    binary main_v1 main_v3 main_v4 (addf : (⟨S525000x64, .f32⟩ : BufTy).Contents (Elt F) → (⟨S525000x64, .f32⟩ : BufTy).Contents (Elt F) → (⟨S525000x64, .f32⟩ : BufTy).Contents (Elt F)),
    nullary main_cst (constant S_ .f32 0x00000000#32),
    unary main_cst main_v5 (broadcastInDim S525000x64 ![] bcast_S_S525000x64 : (⟨S_, .f32⟩ : BufTy).Contents (Elt F) → (⟨S525000x64, .f32⟩ : BufTy).Contents (Elt F)),
    binary main_v4 main_v5 main_v6 (cmpf .ogt : (⟨S525000x64, .f32⟩ : BufTy).Contents (Elt F) → (⟨S525000x64, .f32⟩ : BufTy).Contents (Elt F) → (⟨S525000x64, .i1⟩ : BufTy).Contents (Elt F)),
    unary main_arg14 main_v7 (broadcastInDim S525000x64 ![] bcast_S_S525000x64 : (⟨S_, .f32⟩ : BufTy).Contents (Elt F) → (⟨S525000x64, .f32⟩ : BufTy).Contents (Elt F)),
    binary main_v7 main_v4 main_v8 (mulf : (⟨S525000x64, .f32⟩ : BufTy).Contents (Elt F) → (⟨S525000x64, .f32⟩ : BufTy).Contents (Elt F) → (⟨S525000x64, .f32⟩ : BufTy).Contents (Elt F)),
    TRef.ternary (TRef.of (T := ⟨S525000x64, .i1⟩) main_v6) (TRef.of (T := ⟨S525000x64, .f32⟩) main_v4) (TRef.of (T := ⟨S525000x64, .f32⟩) main_v8) (TRef.of (T := ⟨S525000x64, .f32⟩) main_v9) select,
    binary main_v9 main_arg12 main_v10 ((fun l r => Host.dotGeneral dot_S525000x64_S64x64_S525000x64_1_0_0_1_n_n none l r) : (⟨S525000x64, .f32⟩ : BufTy).Contents (Elt F) → (⟨S64x64, .f32⟩ : BufTy).Contents (Elt F) → (⟨S525000x64, .f32⟩ : BufTy).Contents (Elt F)),
    unary main_arg13 main_v11 (broadcastInDim S1x64 ![1] bcast_S64_S1x64_1 : (⟨S64, .f32⟩ : BufTy).Contents (Elt F) → (⟨S1x64, .f32⟩ : BufTy).Contents (Elt F)),
    unary main_v11 main_v12 (broadcastInDim S525000x64 ![0, 1] bcast_S1x64_S525000x64_0_1 : (⟨S1x64, .f32⟩ : BufTy).Contents (Elt F) → (⟨S525000x64, .f32⟩ : BufTy).Contents (Elt F)),
    binary main_v10 main_v12 main_v13 (addf : (⟨S525000x64, .f32⟩ : BufTy).Contents (Elt F) → (⟨S525000x64, .f32⟩ : BufTy).Contents (Elt F) → (⟨S525000x64, .f32⟩ : BufTy).Contents (Elt F)),
    nullary main_cst_0 (constant S_ .f32 0x00000000#32),
    unary main_cst_0 main_v14 (broadcastInDim S525000x64 ![] bcast_S_S525000x64 : (⟨S_, .f32⟩ : BufTy).Contents (Elt F) → (⟨S525000x64, .f32⟩ : BufTy).Contents (Elt F)),
    binary main_v13 main_v14 main_v15 (cmpf .ogt : (⟨S525000x64, .f32⟩ : BufTy).Contents (Elt F) → (⟨S525000x64, .f32⟩ : BufTy).Contents (Elt F) → (⟨S525000x64, .i1⟩ : BufTy).Contents (Elt F)),
    unary main_arg14 main_v16 (broadcastInDim S525000x64 ![] bcast_S_S525000x64 : (⟨S_, .f32⟩ : BufTy).Contents (Elt F) → (⟨S525000x64, .f32⟩ : BufTy).Contents (Elt F)),
    binary main_v16 main_v13 main_v17 (mulf : (⟨S525000x64, .f32⟩ : BufTy).Contents (Elt F) → (⟨S525000x64, .f32⟩ : BufTy).Contents (Elt F) → (⟨S525000x64, .f32⟩ : BufTy).Contents (Elt F)),
    TRef.ternary (TRef.of (T := ⟨S525000x64, .i1⟩) main_v15) (TRef.of (T := ⟨S525000x64, .f32⟩) main_v13) (TRef.of (T := ⟨S525000x64, .f32⟩) main_v17) (TRef.of (T := ⟨S525000x64, .f32⟩) main_v18) select,
    unary main_v18 main_v19 ((extractStridedSlice S400000x64 ![0, 0] · slices_S525000x64_S400000x64_0_0) : (⟨S525000x64, .f32⟩ : BufTy).Contents (Elt F) → (⟨S400000x64, .f32⟩ : BufTy).Contents (Elt F)),
    unary main_v18 main_v20 ((extractStridedSlice S100000x64 ![400000, 0] · slices_S525000x64_S100000x64_400000_0) : (⟨S525000x64, .f32⟩ : BufTy).Contents (Elt F) → (⟨S100000x64, .f32⟩ : BufTy).Contents (Elt F)),
    unary main_v18 main_v21 ((extractStridedSlice S25000x64 ![500000, 0] · slices_S525000x64_S25000x64_500000_0) : (⟨S525000x64, .f32⟩ : BufTy).Contents (Elt F) → (⟨S25000x64, .f32⟩ : BufTy).Contents (Elt F)),
    unary main_arg2 main_v22 ((extractStridedSlice S1x1600000 ![0, 0] · slices_S2x1600000_S1x1600000_0_0) : (⟨S2x1600000, .i32⟩ : BufTy).Contents (Elt F) → (⟨S1x1600000, .i32⟩ : BufTy).Contents (Elt F)),
    reshape main_v22 main_v23 rfl shapeCasts_S1x1600000_S1600000,
    unary main_arg2 main_v24 ((extractStridedSlice S1x1600000 ![1, 0] · slices_S2x1600000_S1x1600000_1_0) : (⟨S2x1600000, .i32⟩ : BufTy).Contents (Elt F) → (⟨S1x1600000, .i32⟩ : BufTy).Contents (Elt F)),
    reshape main_v24 main_v25 rfl shapeCasts_S1x1600000_S1600000,
    nullary main_cst_1 (constant S_ .f32 0x00000000#32),
    unary main_cst_1 main_v26 (broadcastInDim S400000x64 ![] bcast_S_S400000x64 : (⟨S_, .f32⟩ : BufTy).Contents (Elt F) → (⟨S400000x64, .f32⟩ : BufTy).Contents (Elt F)),
    unary main_arg15 main_v27 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v27 main_v28 rfl shapeCasts_S1x64x64_S64x64,
    unary main_arg16 main_v29 ((extractStridedSlice S1x64 ![0, 0] · slices_S3x64_S1x64_0_0) : (⟨S3x64, .f32⟩ : BufTy).Contents (Elt F) → (⟨S1x64, .f32⟩ : BufTy).Contents (Elt F)),
    reshape main_v29 main_v30 rfl shapeCasts_S1x64_S64,
    binary main_v19 main_v28 main_v31 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)),
    nullary main_cst_2 (constant S_ .f32 0x00000000#32),
    unary main_cst_2 main_v32 (broadcastInDim S400000 ![] bcast_S_S400000 : (⟨S_, .f32⟩ : BufTy).Contents (Elt F) → (⟨S400000, .f32⟩ : BufTy).Contents (Elt F)),
    nullary main_c (constantI S_ 32 0#32),
    unary main_c main_v33 (broadcastInDim S1600000 ![] bcast_S_S1600000 : (⟨S_, .i32⟩ : BufTy).Contents (Elt F) → (⟨S1600000, .i32⟩ : BufTy).Contents (Elt F)),
    binary main_v25 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 400000#32),
    unary main_c_3 main_v35 (broadcastInDim S1600000 ![] bcast_S_S1600000 : (⟨S_, .i32⟩ : BufTy).Contents (Elt F) → (⟨S1600000, .i32⟩ : BufTy).Contents (Elt F)),
    binary main_v25 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v25 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    ternary main_v32 main_v38 main_arg3 main_v39 ((fun x i u => Host.scatterAdd scatter_S400000_S1600000x1_S1600000_n_0_0_1 x i u) : (⟨S400000, .f32⟩ : BufTy).Contents (Elt F) → (⟨S1600000x1, .i32⟩ : BufTy).Contents (Elt F) → (⟨S1600000, .f32⟩ : BufTy).Contents (Elt F) → (⟨S400000, .f32⟩ : BufTy).Contents (Elt F)),
    nullary main_cst_4 (constant S_ .f32 0x3F800000#32),
    unary main_cst_4 main_v40 (broadcastInDim S400000 ![] bcast_S_S400000 : (⟨S_, .f32⟩ : BufTy).Contents (Elt F) → (⟨S400000, .f32⟩ : BufTy).Contents (Elt F)),
    binary main_v39 main_v40 main_v41 (addf : (⟨S400000, .f32⟩ : BufTy).Contents (Elt F) → (⟨S400000, .f32⟩ : BufTy).Contents (Elt F) → (⟨S400000, .f32⟩ : BufTy).Contents (Elt F)),
    unary main_v41 main_v42 (Host.rsqrt : (⟨S400000, .f32⟩ : BufTy).Contents (Elt F) → (⟨S400000, .f32⟩ : BufTy).Contents (Elt F)),
    nullary main_c_5 (constantI S_ 32 0#32),
    unary main_c_5 main_v43 (broadcastInDim S1600000 ![] bcast_S_S1600000 : (⟨S_, .i32⟩ : BufTy).Contents (Elt F) → (⟨S1600000, .i32⟩ : BufTy).Contents (Elt F)),
    binary main_v23 main_v43 main_v44 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 400000#32),
    unary main_c_6 main_v45 (broadcastInDim S1600000 ![] bcast_S_S1600000 : (⟨S_, .i32⟩ : BufTy).Contents (Elt F) → (⟨S1600000, .i32⟩ : BufTy).Contents (Elt F)),
    binary main_v23 main_v45 main_v46 (addi : (⟨S1600000, .i32⟩ : BufTy).Contents (Elt F) → (⟨S1600000, .i32⟩ : BufTy).Contents (Elt F) → (⟨S1600000, .i32⟩ : BufTy).Contents (Elt F)),
    ternary main_v44 main_v46 main_v23 main_v47 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v47 main_v48 (broadcastInDim S1600000x1 ![0] bcast_S1600000_S1600000x1_0 : (⟨S1600000, .i32⟩ : BufTy).Contents (Elt F) → (⟨S1600000x1, .i32⟩ : BufTy).Contents (Elt F)),
    binary main_v42 main_v48 main_v49 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),
    binary main_v49 main_arg3 main_v50 (mulf : (⟨S1600000, .f32⟩ : BufTy).Contents (Elt F) → (⟨S1600000, .f32⟩ : BufTy).Contents (Elt F) → (⟨S1600000, .f32⟩ : BufTy).Contents (Elt F)) ]

theorem part0_eq (c : Dev nD) : main_part0 (F := F) c = seq ops0 := rfl

theorem ops0_sub : (ops0 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., unary_bufs_sub .., binary_bufs_sub .., ternary_bufs_sub .., binary_bufs_sub .., unary_bufs_sub .., unary_bufs_sub .., binary_bufs_sub .., nullary_bufs_sub .., unary_bufs_sub .., binary_bufs_sub .., unary_bufs_sub .., binary_bufs_sub .., ternary_bufs_sub .., unary_bufs_sub .., unary_bufs_sub .., unary_bufs_sub .., unary_bufs_sub .., reshape_bufs_sub .., unary_bufs_sub .., reshape_bufs_sub .., nullary_bufs_sub .., unary_bufs_sub .., unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem ops0_fresh : (ops0 : List (HloOp τ sig (Elt F))).Forall fun op => op.fresh = ∅ := by
  simp only [List.Forall]; repeat' constructor

/-- The buffers the window writes. -/
abbrev written0 : List (Ref sig .tc) := [main_v0, main_v1, main_v2, main_v3, main_v4, main_cst, main_v5, main_v6, main_v7, main_v8, main_v9, main_v10, main_v11, main_v12, main_v13, main_cst_0, main_v14, main_v15, main_v16, main_v17, main_v18, main_v19, main_v20, main_v21, main_v22, main_v23, main_v24, main_v25, main_cst_1, main_v26, main_v27, main_v28, main_v29, main_v30, main_v31, main_cst_2, main_v32, main_c, main_v33, main_v34, main_c_3, main_v35, main_v36, main_v37, main_v38, main_v39, main_cst_4, main_v40, main_v41, main_v42, main_c_5, main_v43, main_v44, main_c_6, main_v45, main_v46, main_v47, main_v48, main_v49, main_v50]

theorem writes0 : (ops0 : List (HloOp τ sig (Elt F))).Forall fun op => op.writes ⊆ ((written0).map (Proc.devRef (τ := τ) .tc)).toFinset := by
  simp only [ops0, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep0 (V : Valuation τ sig (Elt F)) (r : Ref sig .tc) (h : r ∉ written0) :
    after (ops0 (F := F)) V (Proc.devRef .tc r) = V (Proc.devRef .tc r) :=
  after_of_writes_sub (ops0 (F := F)) V writes0 h

set_option maxHeartbeats 2000000 in
/-- What main_v20 holds after the window. -/
theorem value0_main_v20 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg0 : V (Proc.devRef .tc main_arg0) = a0)
    (h_main_arg1 : V (Proc.devRef .tc main_arg1) = a1)
    (h_main_arg10 : V (Proc.devRef .tc main_arg10) = a10)
    (h_main_arg11 : V (Proc.devRef .tc main_arg11) = a11)
    (h_main_arg14 : V (Proc.devRef .tc main_arg14) = a14)
    (h_main_arg12 : V (Proc.devRef .tc main_arg12) = a12)
    (h_main_arg13 : V (Proc.devRef .tc main_arg13) = a13)
    (h_main_arg2 : V (Proc.devRef .tc main_arg2) = a2)
    (h_main_arg15 : V (Proc.devRef .tc main_arg15) = a15)
    (h_main_arg16 : V (Proc.devRef .tc main_arg16) = a16)
    (h_main_arg3 : V (Proc.devRef .tc main_arg3) = a3) :
    after (ops0 (F := F)) V (Proc.devRef .tc main_v20) = (Cert.ReferenceIdeal.Stages.val_main_v20 (F := F) a0 a1 a10 a11 a12 a13 a14) := by
  subst_vars
  simp only [ops0]
  after_results_simp
  try simp only [TRef.ofBuf, TRef.toBuf, cast_eq]
  try simp only []
  all_goals rfl

set_option maxHeartbeats 2000000 in
/-- What main_v21 holds after the window. -/
theorem value0_main_v21 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg0 : V (Proc.devRef .tc main_arg0) = a0)
    (h_main_arg1 : V (Proc.devRef .tc main_arg1) = a1)
    (h_main_arg10 : V (Proc.devRef .tc main_arg10) = a10)
    (h_main_arg11 : V (Proc.devRef .tc main_arg11) = a11)
    (h_main_arg14 : V (Proc.devRef .tc main_arg14) = a14)
    (h_main_arg12 : V (Proc.devRef .tc main_arg12) = a12)
    (h_main_arg13 : V (Proc.devRef .tc main_arg13) = a13)
    (h_main_arg2 : V (Proc.devRef .tc main_arg2) = a2)
    (h_main_arg15 : V (Proc.devRef .tc main_arg15) = a15)
    (h_main_arg16 : V (Proc.devRef .tc main_arg16) = a16)
    (h_main_arg3 : V (Proc.devRef .tc main_arg3) = a3) :
    after (ops0 (F := F)) V (Proc.devRef .tc main_v21) = (Cert.ReferenceIdeal.Stages.val_main_v21 (F := F) a0 a1 a10 a11 a12 a13 a14) := by
  subst_vars
  simp only [ops0]
  after_results_simp
  try simp only [TRef.ofBuf, TRef.toBuf, cast_eq]
  try simp only []
  all_goals rfl

set_option maxHeartbeats 2000000 in
/-- What main_v23 holds after the window. -/
theorem value0_main_v23 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg0 : V (Proc.devRef .tc main_arg0) = a0)
    (h_main_arg1 : V (Proc.devRef .tc main_arg1) = a1)
    (h_main_arg10 : V (Proc.devRef .tc main_arg10) = a10)
    (h_main_arg11 : V (Proc.devRef .tc main_arg11) = a11)
    (h_main_arg14 : V (Proc.devRef .tc main_arg14) = a14)
    (h_main_arg12 : V (Proc.devRef .tc main_arg12) = a12)
    (h_main_arg13 : V (Proc.devRef .tc main_arg13) = a13)
    (h_main_arg2 : V (Proc.devRef .tc main_arg2) = a2)
    (h_main_arg15 : V (Proc.devRef .tc main_arg15) = a15)
    (h_main_arg16 : V (Proc.devRef .tc main_arg16) = a16)
    (h_main_arg3 : V (Proc.devRef .tc main_arg3) = a3) :
    after (ops0 (F := F)) V (Proc.devRef .tc main_v23) = (Cert.ReferenceIdeal.Stages.val_main_v23 (F := F) a2) := by
  subst_vars
  simp only [ops0]
  after_results_simp
  try simp only [TRef.ofBuf, TRef.toBuf, cast_eq]
  try simp only []
  all_goals rfl

set_option maxHeartbeats 2000000 in
/-- What main_v25 holds after the window. -/
theorem value0_main_v25 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg0 : V (Proc.devRef .tc main_arg0) = a0)
    (h_main_arg1 : V (Proc.devRef .tc main_arg1) = a1)
    (h_main_arg10 : V (Proc.devRef .tc main_arg10) = a10)
    (h_main_arg11 : V (Proc.devRef .tc main_arg11) = a11)
    (h_main_arg14 : V (Proc.devRef .tc main_arg14) = a14)
    (h_main_arg12 : V (Proc.devRef .tc main_arg12) = a12)
    (h_main_arg13 : V (Proc.devRef .tc main_arg13) = a13)
    (h_main_arg2 : V (Proc.devRef .tc main_arg2) = a2)
    (h_main_arg15 : V (Proc.devRef .tc main_arg15) = a15)
    (h_main_arg16 : V (Proc.devRef .tc main_arg16) = a16)
    (h_main_arg3 : V (Proc.devRef .tc main_arg3) = a3) :
    after (ops0 (F := F)) V (Proc.devRef .tc main_v25) = (Cert.ReferenceIdeal.Stages.val_main_v25 (F := F) a2) := by
  subst_vars
  simp only [ops0]
  after_results_simp
  try simp only [TRef.ofBuf, TRef.toBuf, cast_eq]
  try simp only []
  all_goals rfl

set_option maxHeartbeats 2000000 in
/-- What main_v26 holds after the window. -/
theorem value0_main_v26 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg0 : V (Proc.devRef .tc main_arg0) = a0)
    (h_main_arg1 : V (Proc.devRef .tc main_arg1) = a1)
    (h_main_arg10 : V (Proc.devRef .tc main_arg10) = a10)
    (h_main_arg11 : V (Proc.devRef .tc main_arg11) = a11)
    (h_main_arg14 : V (Proc.devRef .tc main_arg14) = a14)
    (h_main_arg12 : V (Proc.devRef .tc main_arg12) = a12)
    (h_main_arg13 : V (Proc.devRef .tc main_arg13) = a13)
    (h_main_arg2 : V (Proc.devRef .tc main_arg2) = a2)
    (h_main_arg15 : V (Proc.devRef .tc main_arg15) = a15)
    (h_main_arg16 : V (Proc.devRef .tc main_arg16) = a16)
    (h_main_arg3 : V (Proc.devRef .tc main_arg3) = a3) :
    after (ops0 (F := F)) V (Proc.devRef .tc main_v26) = (Cert.ReferenceIdeal.Stages.val_main_v26 (F := F)) := by
  subst_vars
  simp only [ops0]
  after_results_simp
  try simp only [TRef.ofBuf, TRef.toBuf, cast_eq]
  try simp only []
  all_goals rfl

set_option maxHeartbeats 2000000 in
/-- What main_v30 holds after the window. -/
theorem value0_main_v30 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg0 : V (Proc.devRef .tc main_arg0) = a0)
    (h_main_arg1 : V (Proc.devRef .tc main_arg1) = a1)
    (h_main_arg10 : V (Proc.devRef .tc main_arg10) = a10)
    (h_main_arg11 : V (Proc.devRef .tc main_arg11) = a11)
    (h_main_arg14 : V (Proc.devRef .tc main_arg14) = a14)
    (h_main_arg12 : V (Proc.devRef .tc main_arg12) = a12)
    (h_main_arg13 : V (Proc.devRef .tc main_arg13) = a13)
    (h_main_arg2 : V (Proc.devRef .tc main_arg2) = a2)
    (h_main_arg15 : V (Proc.devRef .tc main_arg15) = a15)
    (h_main_arg16 : V (Proc.devRef .tc main_arg16) = a16)
    (h_main_arg3 : V (Proc.devRef .tc main_arg3) = a3) :
    after (ops0 (F := F)) V (Proc.devRef .tc main_v30) = (Cert.ReferenceIdeal.Stages.val_main_v30 (F := F) a16) := by
  subst_vars
  simp only [ops0]
  after_results_simp
  try simp only [TRef.ofBuf, TRef.toBuf, cast_eq]
  try simp only []
  all_goals rfl

set_option maxHeartbeats 2000000 in
/-- What main_v31 holds after the window. -/
theorem value0_main_v31 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg0 : V (Proc.devRef .tc main_arg0) = a0)
    (h_main_arg1 : V (Proc.devRef .tc main_arg1) = a1)
    (h_main_arg10 : V (Proc.devRef .tc main_arg10) = a10)
    (h_main_arg11 : V (Proc.devRef .tc main_arg11) = a11)
    (h_main_arg14 : V (Proc.devRef .tc main_arg14) = a14)
    (h_main_arg12 : V (Proc.devRef .tc main_arg12) = a12)
    (h_main_arg13 : V (Proc.devRef .tc main_arg13) = a13)
    (h_main_arg2 : V (Proc.devRef .tc main_arg2) = a2)
    (h_main_arg15 : V (Proc.devRef .tc main_arg15) = a15)
    (h_main_arg16 : V (Proc.devRef .tc main_arg16) = a16)
    (h_main_arg3 : V (Proc.devRef .tc main_arg3) = a3) :
    after (ops0 (F := F)) V (Proc.devRef .tc main_v31) = (Cert.ReferenceIdeal.Stages.val_main_v31 (F := F) a0 a1 a10 a11 a12 a13 a14 a15) := by
  subst_vars
  simp only [ops0]
  after_results_simp
  try simp only [TRef.ofBuf, TRef.toBuf, cast_eq]
  try simp only []
  all_goals rfl

set_option maxHeartbeats 2000000 in
/-- What main_v42 holds after the window. -/
theorem value0_main_v42 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg0 : V (Proc.devRef .tc main_arg0) = a0)
    (h_main_arg1 : V (Proc.devRef .tc main_arg1) = a1)
    (h_main_arg10 : V (Proc.devRef .tc main_arg10) = a10)
    (h_main_arg11 : V (Proc.devRef .tc main_arg11) = a11)
    (h_main_arg14 : V (Proc.devRef .tc main_arg14) = a14)
    (h_main_arg12 : V (Proc.devRef .tc main_arg12) = a12)
    (h_main_arg13 : V (Proc.devRef .tc main_arg13) = a13)
    (h_main_arg2 : V (Proc.devRef .tc main_arg2) = a2)
    (h_main_arg15 : V (Proc.devRef .tc main_arg15) = a15)
    (h_main_arg16 : V (Proc.devRef .tc main_arg16) = a16)
    (h_main_arg3 : V (Proc.devRef .tc main_arg3) = a3) :
    after (ops0 (F := F)) V (Proc.devRef .tc main_v42) = (Cert.ReferenceIdeal.Stages.val_main_v42 (F := F) a2 a3) := by
  subst_vars
  simp only [ops0]
  after_results_simp
  try simp only [TRef.ofBuf, TRef.toBuf, cast_eq]
  try simp only []
  all_goals rfl

set_option maxHeartbeats 2000000 in
/-- What main_v50 holds after the window. -/
theorem value0_main_v50 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg0 : V (Proc.devRef .tc main_arg0) = a0)
    (h_main_arg1 : V (Proc.devRef .tc main_arg1) = a1)
    (h_main_arg10 : V (Proc.devRef .tc main_arg10) = a10)
    (h_main_arg11 : V (Proc.devRef .tc main_arg11) = a11)
    (h_main_arg14 : V (Proc.devRef .tc main_arg14) = a14)
    (h_main_arg12 : V (Proc.devRef .tc main_arg12) = a12)
    (h_main_arg13 : V (Proc.devRef .tc main_arg13) = a13)
    (h_main_arg2 : V (Proc.devRef .tc main_arg2) = a2)
    (h_main_arg15 : V (Proc.devRef .tc main_arg15) = a15)
    (h_main_arg16 : V (Proc.devRef .tc main_arg16) = a16)
    (h_main_arg3 : V (Proc.devRef .tc main_arg3) = a3) :
    after (ops0 (F := F)) V (Proc.devRef .tc main_v50) = (Cert.ReferenceIdeal.Stages.val_main_v50 (F := F) a2 a3) := by
  subst_vars
  simp only [ops0]
  after_results_simp
  try simp only [TRef.ofBuf, TRef.toBuf, cast_eq]
  try simp only []
  all_goals rfl

end Cert.ReferenceIdeal.Window

end
-- ==== Proof.RWin1.lean ====
/-
  The reference program's window number 1 (operations 61 to 120 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops1 : List (HloOp τ sig (Elt F)) :=
  [ nullary main_c_7 (constantI S_ 32 0#32),
    unary main_c_7 main_v51 (broadcastInDim S1600000 ![] bcast_S_S1600000 : (⟨S_, .i32⟩ : BufTy).Contents (Elt F) → (⟨S1600000, .i32⟩ : BufTy).Contents (Elt F)),
    binary main_v25 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 400000#32),
    unary main_c_8 main_v53 (broadcastInDim S1600000 ![] bcast_S_S1600000 : (⟨S_, .i32⟩ : BufTy).Contents (Elt F) → (⟨S1600000, .i32⟩ : BufTy).Contents (Elt F)),
    binary main_v25 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_v25 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v42 main_v56 main_v57 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),
    binary main_v50 main_v57 main_v58 (mulf : (⟨S1600000, .f32⟩ : BufTy).Contents (Elt F) → (⟨S1600000, .f32⟩ : BufTy).Contents (Elt F) → (⟨S1600000, .f32⟩ : BufTy).Contents (Elt F)),
    nullary main_cst_9 (constant S_ .f32 0x00000000#32),
    unary main_cst_9 main_v59 (broadcastInDim S400000x64 ![] bcast_S_S400000x64 : (⟨S_, .f32⟩ : BufTy).Contents (Elt F) → (⟨S400000x64, .f32⟩ : BufTy).Contents (Elt F)),
    unary main_v58 main_v60 (broadcastInDim S1600000x1 ![0] bcast_S1600000_S1600000x1_0 : (⟨S1600000, .f32⟩ : BufTy).Contents (Elt F) → (⟨S1600000x1, .f32⟩ : BufTy).Contents (Elt F)),
    nullary main_c_10 (constantI S_ 32 0#32),
    unary main_c_10 main_v61 (broadcastInDim S1600000 ![] bcast_S_S1600000 : (⟨S_, .i32⟩ : BufTy).Contents (Elt F) → (⟨S1600000, .i32⟩ : BufTy).Contents (Elt F)),
    binary main_v23 main_v61 main_v62 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 400000#32),
    unary main_c_11 main_v63 (broadcastInDim S1600000 ![] bcast_S_S1600000 : (⟨S_, .i32⟩ : BufTy).Contents (Elt F) → (⟨S1600000, .i32⟩ : BufTy).Contents (Elt F)),
    binary main_v23 main_v63 main_v64 (addi : (⟨S1600000, .i32⟩ : BufTy).Contents (Elt F) → (⟨S1600000, .i32⟩ : BufTy).Contents (Elt F) → (⟨S1600000, .i32⟩ : BufTy).Contents (Elt F)),
    ternary main_v62 main_v64 main_v23 main_v65 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v65 main_v66 (broadcastInDim S1600000x1 ![0] bcast_S1600000_S1600000x1_0 : (⟨S1600000, .i32⟩ : BufTy).Contents (Elt F) → (⟨S1600000x1, .i32⟩ : BufTy).Contents (Elt F)),
    binary main_v31 main_v66 main_v67 ((fun x i => Host.gather gather_S400000x64_S1600000x1_S1600000x64_1_0_n_n_0_1_164 x i) : (⟨S400000x64, .f32⟩ : BufTy).Contents (Elt F) → (⟨S1600000x1, .i32⟩ : BufTy).Contents (Elt F) → (⟨S1600000x64, .f32⟩ : BufTy).Contents (Elt F)),
    unary main_v60 main_v68 (broadcastInDim S1600000x64 ![0, 1] bcast_S1600000x1_S1600000x64_0_1 : (⟨S1600000x1, .f32⟩ : BufTy).Contents (Elt F) → (⟨S1600000x64, .f32⟩ : BufTy).Contents (Elt F)),
    binary main_v68 main_v67 main_v69 (mulf : (⟨S1600000x64, .f32⟩ : BufTy).Contents (Elt F) → (⟨S1600000x64, .f32⟩ : BufTy).Contents (Elt F) → (⟨S1600000x64, .f32⟩ : BufTy).Contents (Elt F)),
    nullary main_c_12 (constantI S_ 32 0#32),
    unary main_c_12 main_v70 (broadcastInDim S1600000 ![] bcast_S_S1600000 : (⟨S_, .i32⟩ : BufTy).Contents (Elt F) → (⟨S1600000, .i32⟩ : BufTy).Contents (Elt F)),
    binary main_v25 main_v70 main_v71 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 400000#32),
    unary main_c_13 main_v72 (broadcastInDim S1600000 ![] bcast_S_S1600000 : (⟨S_, .i32⟩ : BufTy).Contents (Elt F) → (⟨S1600000, .i32⟩ : BufTy).Contents (Elt F)),
    binary main_v25 main_v72 main_v73 (addi : (⟨S1600000, .i32⟩ : BufTy).Contents (Elt F) → (⟨S1600000, .i32⟩ : BufTy).Contents (Elt F) → (⟨S1600000, .i32⟩ : BufTy).Contents (Elt F)),
    ternary main_v71 main_v73 main_v25 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v74 main_v75 (broadcastInDim S1600000x1 ![0] bcast_S1600000_S1600000x1_0 : (⟨S1600000, .i32⟩ : BufTy).Contents (Elt F) → (⟨S1600000x1, .i32⟩ : BufTy).Contents (Elt F)),
    ternary main_v59 main_v75 main_v69 main_v76 ((fun x i u => Host.scatterAdd scatter_S400000x64_S1600000x1_S1600000x64_1_0_0_1 x i u) : (⟨S400000x64, .f32⟩ : BufTy).Contents (Elt F) → (⟨S1600000x1, .i32⟩ : BufTy).Contents (Elt F) → (⟨S1600000x64, .f32⟩ : BufTy).Contents (Elt F) → (⟨S400000x64, .f32⟩ : BufTy).Contents (Elt F)),
    binary main_v42 main_v42 main_v77 (mulf : (⟨S400000, .f32⟩ : BufTy).Contents (Elt F) → (⟨S400000, .f32⟩ : BufTy).Contents (Elt F) → (⟨S400000, .f32⟩ : BufTy).Contents (Elt F)),
    unary main_v77 main_v78 (broadcastInDim S400000x1 ![0] bcast_S400000_S400000x1_0 : (⟨S400000, .f32⟩ : BufTy).Contents (Elt F) → (⟨S400000x1, .f32⟩ : BufTy).Contents (Elt F)),
    unary main_v78 main_v79 (broadcastInDim S400000x64 ![0, 1] bcast_S400000x1_S400000x64_0_1 : (⟨S400000x1, .f32⟩ : BufTy).Contents (Elt F) → (⟨S400000x64, .f32⟩ : BufTy).Contents (Elt F)),
    binary main_v31 main_v79 main_v80 (mulf : (⟨S400000x64, .f32⟩ : BufTy).Contents (Elt F) → (⟨S400000x64, .f32⟩ : BufTy).Contents (Elt F) → (⟨S400000x64, .f32⟩ : BufTy).Contents (Elt F)),
    binary main_v76 main_v80 main_v81 (addf : (⟨S400000x64, .f32⟩ : BufTy).Contents (Elt F) → (⟨S400000x64, .f32⟩ : BufTy).Contents (Elt F) → (⟨S400000x64, .f32⟩ : BufTy).Contents (Elt F)),
    unary main_v30 main_v82 (broadcastInDim S1x64 ![1] bcast_S64_S1x64_1 : (⟨S64, .f32⟩ : BufTy).Contents (Elt F) → (⟨S1x64, .f32⟩ : BufTy).Contents (Elt F)),
    unary main_v82 main_v83 (broadcastInDim S400000x64 ![0, 1] bcast_S1x64_S400000x64_0_1 : (⟨S1x64, .f32⟩ : BufTy).Contents (Elt F) → (⟨S400000x64, .f32⟩ : BufTy).Contents (Elt F)),
    binary main_v81 main_v83 main_v84 (addf : (⟨S400000x64, .f32⟩ : BufTy).Contents (Elt F) → (⟨S400000x64, .f32⟩ : BufTy).Contents (Elt F) → (⟨S400000x64, .f32⟩ : BufTy).Contents (Elt F)),
    unary main_v84 main_v85 (Host.tanh : (⟨S400000x64, .f32⟩ : BufTy).Contents (Elt F) → (⟨S400000x64, .f32⟩ : BufTy).Contents (Elt F)),
    unary main_arg17 main_v86 ((extractStridedSlice S1x1 ![0, 0] · slices_S3x3_S1x1_0_0) : (⟨S3x3, .f32⟩ : BufTy).Contents (Elt F) → (⟨S1x1, .f32⟩ : BufTy).Contents (Elt F)),
    reshape main_v86 main_v87 rfl shapeCasts_S1x1_S_,
    unary main_v87 main_v88 (broadcastInDim S400000x64 ![] bcast_S_S400000x64 : (⟨S_, .f32⟩ : BufTy).Contents (Elt F) → (⟨S400000x64, .f32⟩ : BufTy).Contents (Elt F)),
    binary main_v88 main_v85 main_v89 (mulf : (⟨S400000x64, .f32⟩ : BufTy).Contents (Elt F) → (⟨S400000x64, .f32⟩ : BufTy).Contents (Elt F) → (⟨S400000x64, .f32⟩ : BufTy).Contents (Elt F)),
    binary main_v26 main_v89 main_v90 (addf : (⟨S400000x64, .f32⟩ : BufTy).Contents (Elt F) → (⟨S400000x64, .f32⟩ : BufTy).Contents (Elt F) → (⟨S400000x64, .f32⟩ : BufTy).Contents (Elt F)),
    unary main_arg15 main_v91 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v91 main_v92 rfl shapeCasts_S1x64x64_S64x64,
    unary main_arg16 main_v93 ((extractStridedSlice S1x64 ![0, 0] · slices_S3x64_S1x64_0_0) : (⟨S3x64, .f32⟩ : BufTy).Contents (Elt F) → (⟨S1x64, .f32⟩ : BufTy).Contents (Elt F)),
    reshape main_v93 main_v94 rfl shapeCasts_S1x64_S64,
    binary main_v85 main_v92 main_v95 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)),
    nullary main_cst_14 (constant S_ .f32 0x00000000#32),
    unary main_cst_14 main_v96 (broadcastInDim S400000 ![] bcast_S_S400000 : (⟨S_, .f32⟩ : BufTy).Contents (Elt F) → (⟨S400000, .f32⟩ : BufTy).Contents (Elt F)),
    nullary main_c_15 (constantI S_ 32 0#32),
    unary main_c_15 main_v97 (broadcastInDim S1600000 ![] bcast_S_S1600000 : (⟨S_, .i32⟩ : BufTy).Contents (Elt F) → (⟨S1600000, .i32⟩ : BufTy).Contents (Elt F)),
    binary main_v25 main_v97 main_v98 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 400000#32),
    unary main_c_16 main_v99 (broadcastInDim S1600000 ![] bcast_S_S1600000 : (⟨S_, .i32⟩ : BufTy).Contents (Elt F) → (⟨S1600000, .i32⟩ : BufTy).Contents (Elt F)),
    binary main_v25 main_v99 main_v100 (addi : (⟨S1600000, .i32⟩ : BufTy).Contents (Elt F) → (⟨S1600000, .i32⟩ : BufTy).Contents (Elt F) → (⟨S1600000, .i32⟩ : BufTy).Contents (Elt F)) ]

theorem part1_eq (c : Dev nD) : main_part1 (F := F) c = seq ops1 := rfl

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., unary_bufs_sub .., reshape_bufs_sub .., unary_bufs_sub .., binary_bufs_sub .., binary_bufs_sub .., unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub ..⟩

theorem ops1_fresh : (ops1 : List (HloOp τ sig (Elt F))).Forall fun op => op.fresh = ∅ := by
  simp only [List.Forall]; repeat' constructor

/-- The buffers the window writes. -/
abbrev written1 : List (Ref sig .tc) := [main_c_7, main_v51, main_v52, main_c_8, main_v53, main_v54, main_v55, main_v56, main_v57, main_v58, main_cst_9, main_v59, main_v60, main_c_10, main_v61, main_v62, main_c_11, main_v63, main_v64, main_v65, main_v66, main_v67, main_v68, main_v69, main_c_12, main_v70, main_v71, main_c_13, main_v72, main_v73, main_v74, main_v75, main_v76, main_v77, main_v78, main_v79, main_v80, main_v81, main_v82, main_v83, main_v84, main_v85, main_v86, main_v87, main_v88, main_v89, main_v90, main_v91, main_v92, main_v93, main_v94, main_v95, main_cst_14, main_v96, main_c_15, main_v97, main_v98, main_c_16, main_v99, main_v100]

theorem writes1 : (ops1 : List (HloOp τ sig (Elt F))).Forall fun op => op.writes ⊆ ((written1).map (Proc.devRef (τ := τ) .tc)).toFinset := by
  simp only [ops1, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep1 (V : Valuation τ sig (Elt F)) (r : Ref sig .tc) (h : r ∉ written1) :
    after (ops1 (F := F)) V (Proc.devRef .tc r) = V (Proc.devRef .tc r) :=
  after_of_writes_sub (ops1 (F := F)) V writes1 h

set_option maxHeartbeats 2000000 in
/-- What main_v90 holds after the window. -/
theorem value1_main_v90 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v42 : V (Proc.devRef .tc main_v42) = (Cert.ReferenceIdeal.Stages.val_main_v42 (F := F) a2 a3))
    (h_main_v50 : V (Proc.devRef .tc main_v50) = (Cert.ReferenceIdeal.Stages.val_main_v50 (F := F) a2 a3))
    (h_main_v23 : V (Proc.devRef .tc main_v23) = (Cert.ReferenceIdeal.Stages.val_main_v23 (F := F) a2))
    (h_main_v31 : V (Proc.devRef .tc main_v31) = (Cert.ReferenceIdeal.Stages.val_main_v31 (F := F) a0 a1 a10 a11 a12 a13 a14 a15))
    (h_main_v30 : V (Proc.devRef .tc main_v30) = (Cert.ReferenceIdeal.Stages.val_main_v30 (F := F) a16))
    (h_main_arg17 : V (Proc.devRef .tc main_arg17) = a17)
    (h_main_v26 : V (Proc.devRef .tc main_v26) = (Cert.ReferenceIdeal.Stages.val_main_v26 (F := F)))
    (h_main_arg15 : V (Proc.devRef .tc main_arg15) = a15)
    (h_main_arg16 : V (Proc.devRef .tc main_arg16) = a16) :
    after (ops1 (F := F)) V (Proc.devRef .tc main_v90) = (Cert.ReferenceIdeal.Stages.val_main_v90 (F := F) a0 a1 a2 a3 a10 a11 a12 a13 a14 a15 a16 a17) := by
  subst_vars
  simp only [ops1]
  after_results_simp
  try simp only [TRef.ofBuf, TRef.toBuf, cast_eq]
  try simp only [h_main_v25, h_main_v42, h_main_v50, h_main_v23, h_main_v31, h_main_v30, h_main_v26]
  all_goals rfl

set_option maxHeartbeats 2000000 in
/-- What main_v94 holds after the window. -/
theorem value1_main_v94 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v42 : V (Proc.devRef .tc main_v42) = (Cert.ReferenceIdeal.Stages.val_main_v42 (F := F) a2 a3))
    (h_main_v50 : V (Proc.devRef .tc main_v50) = (Cert.ReferenceIdeal.Stages.val_main_v50 (F := F) a2 a3))
    (h_main_v23 : V (Proc.devRef .tc main_v23) = (Cert.ReferenceIdeal.Stages.val_main_v23 (F := F) a2))
    (h_main_v31 : V (Proc.devRef .tc main_v31) = (Cert.ReferenceIdeal.Stages.val_main_v31 (F := F) a0 a1 a10 a11 a12 a13 a14 a15))
    (h_main_v30 : V (Proc.devRef .tc main_v30) = (Cert.ReferenceIdeal.Stages.val_main_v30 (F := F) a16))
    (h_main_arg17 : V (Proc.devRef .tc main_arg17) = a17)
    (h_main_v26 : V (Proc.devRef .tc main_v26) = (Cert.ReferenceIdeal.Stages.val_main_v26 (F := F)))
    (h_main_arg15 : V (Proc.devRef .tc main_arg15) = a15)
    (h_main_arg16 : V (Proc.devRef .tc main_arg16) = a16) :
    after (ops1 (F := F)) V (Proc.devRef .tc main_v94) = (Cert.ReferenceIdeal.Stages.val_main_v94 (F := F) a16) := by
  subst_vars
  simp only [ops1]
  after_results_simp
  try simp only [TRef.ofBuf, TRef.toBuf, cast_eq]
  try simp only [h_main_v25, h_main_v42, h_main_v50, h_main_v23, h_main_v31, h_main_v30, h_main_v26]
  all_goals rfl

set_option maxHeartbeats 2000000 in
/-- What main_v95 holds after the window. -/
theorem value1_main_v95 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v42 : V (Proc.devRef .tc main_v42) = (Cert.ReferenceIdeal.Stages.val_main_v42 (F := F) a2 a3))
    (h_main_v50 : V (Proc.devRef .tc main_v50) = (Cert.ReferenceIdeal.Stages.val_main_v50 (F := F) a2 a3))
    (h_main_v23 : V (Proc.devRef .tc main_v23) = (Cert.ReferenceIdeal.Stages.val_main_v23 (F := F) a2))
    (h_main_v31 : V (Proc.devRef .tc main_v31) = (Cert.ReferenceIdeal.Stages.val_main_v31 (F := F) a0 a1 a10 a11 a12 a13 a14 a15))
    (h_main_v30 : V (Proc.devRef .tc main_v30) = (Cert.ReferenceIdeal.Stages.val_main_v30 (F := F) a16))
    (h_main_arg17 : V (Proc.devRef .tc main_arg17) = a17)
    (h_main_v26 : V (Proc.devRef .tc main_v26) = (Cert.ReferenceIdeal.Stages.val_main_v26 (F := F)))
    (h_main_arg15 : V (Proc.devRef .tc main_arg15) = a15)
    (h_main_arg16 : V (Proc.devRef .tc main_arg16) = a16) :
    after (ops1 (F := F)) V (Proc.devRef .tc main_v95) = (Cert.ReferenceIdeal.Stages.val_main_v95 (F := F) a0 a1 a2 a3 a10 a11 a12 a13 a14 a15 a16) := by
  subst_vars
  simp only [ops1]
  after_results_simp
  try simp only [TRef.ofBuf, TRef.toBuf, cast_eq]
  try simp only [h_main_v25, h_main_v42, h_main_v50, h_main_v23, h_main_v31, h_main_v30, h_main_v26]
  all_goals rfl

set_option maxHeartbeats 2000000 in
/-- What main_v96 holds after the window. -/
theorem value1_main_v96 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v42 : V (Proc.devRef .tc main_v42) = (Cert.ReferenceIdeal.Stages.val_main_v42 (F := F) a2 a3))
    (h_main_v50 : V (Proc.devRef .tc main_v50) = (Cert.ReferenceIdeal.Stages.val_main_v50 (F := F) a2 a3))
    (h_main_v23 : V (Proc.devRef .tc main_v23) = (Cert.ReferenceIdeal.Stages.val_main_v23 (F := F) a2))
    (h_main_v31 : V (Proc.devRef .tc main_v31) = (Cert.ReferenceIdeal.Stages.val_main_v31 (F := F) a0 a1 a10 a11 a12 a13 a14 a15))
    (h_main_v30 : V (Proc.devRef .tc main_v30) = (Cert.ReferenceIdeal.Stages.val_main_v30 (F := F) a16))
    (h_main_arg17 : V (Proc.devRef .tc main_arg17) = a17)
    (h_main_v26 : V (Proc.devRef .tc main_v26) = (Cert.ReferenceIdeal.Stages.val_main_v26 (F := F)))
    (h_main_arg15 : V (Proc.devRef .tc main_arg15) = a15)
    (h_main_arg16 : V (Proc.devRef .tc main_arg16) = a16) :
    after (ops1 (F := F)) V (Proc.devRef .tc main_v96) = (Cert.ReferenceIdeal.Stages.val_main_v96 (F := F)) := by
  subst_vars
  simp only [ops1]
  after_results_simp
  try simp only [TRef.ofBuf, TRef.toBuf, cast_eq]
  try simp only [h_main_v25, h_main_v42, h_main_v50, h_main_v23, h_main_v31, h_main_v30, h_main_v26]
  all_goals rfl

set_option maxHeartbeats 2000000 in
/-- What main_v98 holds after the window. -/
theorem value1_main_v98 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v42 : V (Proc.devRef .tc main_v42) = (Cert.ReferenceIdeal.Stages.val_main_v42 (F := F) a2 a3))
    (h_main_v50 : V (Proc.devRef .tc main_v50) = (Cert.ReferenceIdeal.Stages.val_main_v50 (F := F) a2 a3))
    (h_main_v23 : V (Proc.devRef .tc main_v23) = (Cert.ReferenceIdeal.Stages.val_main_v23 (F := F) a2))
    (h_main_v31 : V (Proc.devRef .tc main_v31) = (Cert.ReferenceIdeal.Stages.val_main_v31 (F := F) a0 a1 a10 a11 a12 a13 a14 a15))
    (h_main_v30 : V (Proc.devRef .tc main_v30) = (Cert.ReferenceIdeal.Stages.val_main_v30 (F := F) a16))
    (h_main_arg17 : V (Proc.devRef .tc main_arg17) = a17)
    (h_main_v26 : V (Proc.devRef .tc main_v26) = (Cert.ReferenceIdeal.Stages.val_main_v26 (F := F)))
    (h_main_arg15 : V (Proc.devRef .tc main_arg15) = a15)
    (h_main_arg16 : V (Proc.devRef .tc main_arg16) = a16) :
    after (ops1 (F := F)) V (Proc.devRef .tc main_v98) = (Cert.ReferenceIdeal.Stages.val_main_v98 (F := F) a2) := by
  subst_vars
  simp only [ops1]
  after_results_simp
  try simp only [TRef.ofBuf, TRef.toBuf, cast_eq]
  try simp only [h_main_v25, h_main_v42, h_main_v50, h_main_v23, h_main_v31, h_main_v30, h_main_v26]
  all_goals rfl

set_option maxHeartbeats 2000000 in
/-- What main_v100 holds after the window. -/
theorem value1_main_v100 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v42 : V (Proc.devRef .tc main_v42) = (Cert.ReferenceIdeal.Stages.val_main_v42 (F := F) a2 a3))
    (h_main_v50 : V (Proc.devRef .tc main_v50) = (Cert.ReferenceIdeal.Stages.val_main_v50 (F := F) a2 a3))
    (h_main_v23 : V (Proc.devRef .tc main_v23) = (Cert.ReferenceIdeal.Stages.val_main_v23 (F := F) a2))
    (h_main_v31 : V (Proc.devRef .tc main_v31) = (Cert.ReferenceIdeal.Stages.val_main_v31 (F := F) a0 a1 a10 a11 a12 a13 a14 a15))
    (h_main_v30 : V (Proc.devRef .tc main_v30) = (Cert.ReferenceIdeal.Stages.val_main_v30 (F := F) a16))
    (h_main_arg17 : V (Proc.devRef .tc main_arg17) = a17)
    (h_main_v26 : V (Proc.devRef .tc main_v26) = (Cert.ReferenceIdeal.Stages.val_main_v26 (F := F)))
    (h_main_arg15 : V (Proc.devRef .tc main_arg15) = a15)
    (h_main_arg16 : V (Proc.devRef .tc main_arg16) = a16) :
    after (ops1 (F := F)) V (Proc.devRef .tc main_v100) = (Cert.ReferenceIdeal.Stages.val_main_v100 (F := F) a2) := by
  subst_vars
  simp only [ops1]
  after_results_simp
  try simp only [TRef.ofBuf, TRef.toBuf, cast_eq]
  try simp only [h_main_v25, h_main_v42, h_main_v50, h_main_v23, h_main_v31, h_main_v30, h_main_v26]
  all_goals rfl

end Cert.ReferenceIdeal.Window

end
-- ==== Proof.RWin2.lean ====
/-
  The reference program's window number 2 (operations 121 to 180 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops2 : List (HloOp τ sig (Elt F)) :=
  [ ternary main_v98 main_v100 main_v25 main_v101 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v101 main_v102 (broadcastInDim S1600000x1 ![0] bcast_S1600000_S1600000x1_0 : (⟨S1600000, .i32⟩ : BufTy).Contents (Elt F) → (⟨S1600000x1, .i32⟩ : BufTy).Contents (Elt F)),
    ternary main_v96 main_v102 main_arg3 main_v103 ((fun x i u => Host.scatterAdd scatter_S400000_S1600000x1_S1600000_n_0_0_1 x i u) : (⟨S400000, .f32⟩ : BufTy).Contents (Elt F) → (⟨S1600000x1, .i32⟩ : BufTy).Contents (Elt F) → (⟨S1600000, .f32⟩ : BufTy).Contents (Elt F) → (⟨S400000, .f32⟩ : BufTy).Contents (Elt F)),
    nullary main_cst_17 (constant S_ .f32 0x3F800000#32),
    unary main_cst_17 main_v104 (broadcastInDim S400000 ![] bcast_S_S400000 : (⟨S_, .f32⟩ : BufTy).Contents (Elt F) → (⟨S400000, .f32⟩ : BufTy).Contents (Elt F)),
    binary main_v103 main_v104 main_v105 (addf : (⟨S400000, .f32⟩ : BufTy).Contents (Elt F) → (⟨S400000, .f32⟩ : BufTy).Contents (Elt F) → (⟨S400000, .f32⟩ : BufTy).Contents (Elt F)),
    unary main_v105 main_v106 (Host.rsqrt : (⟨S400000, .f32⟩ : BufTy).Contents (Elt F) → (⟨S400000, .f32⟩ : BufTy).Contents (Elt F)),
    nullary main_c_18 (constantI S_ 32 0#32),
    unary main_c_18 main_v107 (broadcastInDim S1600000 ![] bcast_S_S1600000 : (⟨S_, .i32⟩ : BufTy).Contents (Elt F) → (⟨S1600000, .i32⟩ : BufTy).Contents (Elt F)),
    binary main_v23 main_v107 main_v108 (cmpi .slt : (⟨S1600000, .i32⟩ : BufTy).Contents (Elt F) → (⟨S1600000, .i32⟩ : BufTy).Contents (Elt F) → (⟨S1600000, .i1⟩ : BufTy).Contents (Elt F)),
    nullary main_c_19 (constantI S_ 32 400000#32),
    unary main_c_19 main_v109 (broadcastInDim S1600000 ![] bcast_S_S1600000 : (⟨S_, .i32⟩ : BufTy).Contents (Elt F) → (⟨S1600000, .i32⟩ : BufTy).Contents (Elt F)),
    binary main_v23 main_v109 main_v110 (addi : (⟨S1600000, .i32⟩ : BufTy).Contents (Elt F) → (⟨S1600000, .i32⟩ : BufTy).Contents (Elt F) → (⟨S1600000, .i32⟩ : BufTy).Contents (Elt F)),
    ternary main_v108 main_v110 main_v23 main_v111 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v111 main_v112 (broadcastInDim S1600000x1 ![0] bcast_S1600000_S1600000x1_0 : (⟨S1600000, .i32⟩ : BufTy).Contents (Elt F) → (⟨S1600000x1, .i32⟩ : BufTy).Contents (Elt F)),
    binary main_v106 main_v112 main_v113 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),
    binary main_v113 main_arg3 main_v114 (mulf : (⟨S1600000, .f32⟩ : BufTy).Contents (Elt F) → (⟨S1600000, .f32⟩ : BufTy).Contents (Elt F) → (⟨S1600000, .f32⟩ : BufTy).Contents (Elt F)),
    nullary main_c_20 (constantI S_ 32 0#32),
    unary main_c_20 main_v115 (broadcastInDim S1600000 ![] bcast_S_S1600000 : (⟨S_, .i32⟩ : BufTy).Contents (Elt F) → (⟨S1600000, .i32⟩ : BufTy).Contents (Elt F)),
    binary main_v25 main_v115 main_v116 (cmpi .slt : (⟨S1600000, .i32⟩ : BufTy).Contents (Elt F) → (⟨S1600000, .i32⟩ : BufTy).Contents (Elt F) → (⟨S1600000, .i1⟩ : BufTy).Contents (Elt F)),
    nullary main_c_21 (constantI S_ 32 400000#32),
    unary main_c_21 main_v117 (broadcastInDim S1600000 ![] bcast_S_S1600000 : (⟨S_, .i32⟩ : BufTy).Contents (Elt F) → (⟨S1600000, .i32⟩ : BufTy).Contents (Elt F)),
    binary main_v25 main_v117 main_v118 (addi : (⟨S1600000, .i32⟩ : BufTy).Contents (Elt F) → (⟨S1600000, .i32⟩ : BufTy).Contents (Elt F) → (⟨S1600000, .i32⟩ : BufTy).Contents (Elt F)),
    ternary main_v116 main_v118 main_v25 main_v119 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v119 main_v120 (broadcastInDim S1600000x1 ![0] bcast_S1600000_S1600000x1_0 : (⟨S1600000, .i32⟩ : BufTy).Contents (Elt F) → (⟨S1600000x1, .i32⟩ : BufTy).Contents (Elt F)),
    binary main_v106 main_v120 main_v121 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),
    binary main_v114 main_v121 main_v122 (mulf : (⟨S1600000, .f32⟩ : BufTy).Contents (Elt F) → (⟨S1600000, .f32⟩ : BufTy).Contents (Elt F) → (⟨S1600000, .f32⟩ : BufTy).Contents (Elt F)),
    nullary main_cst_22 (constant S_ .f32 0x00000000#32),
    unary main_cst_22 main_v123 (broadcastInDim S400000x64 ![] bcast_S_S400000x64 : (⟨S_, .f32⟩ : BufTy).Contents (Elt F) → (⟨S400000x64, .f32⟩ : BufTy).Contents (Elt F)),
    unary main_v122 main_v124 (broadcastInDim S1600000x1 ![0] bcast_S1600000_S1600000x1_0 : (⟨S1600000, .f32⟩ : BufTy).Contents (Elt F) → (⟨S1600000x1, .f32⟩ : BufTy).Contents (Elt F)),
    nullary main_c_23 (constantI S_ 32 0#32),
    unary main_c_23 main_v125 (broadcastInDim S1600000 ![] bcast_S_S1600000 : (⟨S_, .i32⟩ : BufTy).Contents (Elt F) → (⟨S1600000, .i32⟩ : BufTy).Contents (Elt F)),
    binary main_v23 main_v125 main_v126 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 400000#32),
    unary main_c_24 main_v127 (broadcastInDim S1600000 ![] bcast_S_S1600000 : (⟨S_, .i32⟩ : BufTy).Contents (Elt F) → (⟨S1600000, .i32⟩ : BufTy).Contents (Elt F)),
    binary main_v23 main_v127 main_v128 (addi : (⟨S1600000, .i32⟩ : BufTy).Contents (Elt F) → (⟨S1600000, .i32⟩ : BufTy).Contents (Elt F) → (⟨S1600000, .i32⟩ : BufTy).Contents (Elt F)),
    ternary main_v126 main_v128 main_v23 main_v129 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v129 main_v130 (broadcastInDim S1600000x1 ![0] bcast_S1600000_S1600000x1_0 : (⟨S1600000, .i32⟩ : BufTy).Contents (Elt F) → (⟨S1600000x1, .i32⟩ : BufTy).Contents (Elt F)),
    binary main_v95 main_v130 main_v131 ((fun x i => Host.gather gather_S400000x64_S1600000x1_S1600000x64_1_0_n_n_0_1_164 x i) : (⟨S400000x64, .f32⟩ : BufTy).Contents (Elt F) → (⟨S1600000x1, .i32⟩ : BufTy).Contents (Elt F) → (⟨S1600000x64, .f32⟩ : BufTy).Contents (Elt F)),
    unary main_v124 main_v132 (broadcastInDim S1600000x64 ![0, 1] bcast_S1600000x1_S1600000x64_0_1 : (⟨S1600000x1, .f32⟩ : BufTy).Contents (Elt F) → (⟨S1600000x64, .f32⟩ : BufTy).Contents (Elt F)),
    binary main_v132 main_v131 main_v133 (mulf : (⟨S1600000x64, .f32⟩ : BufTy).Contents (Elt F) → (⟨S1600000x64, .f32⟩ : BufTy).Contents (Elt F) → (⟨S1600000x64, .f32⟩ : BufTy).Contents (Elt F)),
    nullary main_c_25 (constantI S_ 32 0#32),
    unary main_c_25 main_v134 (broadcastInDim S1600000 ![] bcast_S_S1600000 : (⟨S_, .i32⟩ : BufTy).Contents (Elt F) → (⟨S1600000, .i32⟩ : BufTy).Contents (Elt F)),
    binary main_v25 main_v134 main_v135 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 400000#32),
    unary main_c_26 main_v136 (broadcastInDim S1600000 ![] bcast_S_S1600000 : (⟨S_, .i32⟩ : BufTy).Contents (Elt F) → (⟨S1600000, .i32⟩ : BufTy).Contents (Elt F)),
    binary main_v25 main_v136 main_v137 (addi : (⟨S1600000, .i32⟩ : BufTy).Contents (Elt F) → (⟨S1600000, .i32⟩ : BufTy).Contents (Elt F) → (⟨S1600000, .i32⟩ : BufTy).Contents (Elt F)),
    ternary main_v135 main_v137 main_v25 main_v138 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v138 main_v139 (broadcastInDim S1600000x1 ![0] bcast_S1600000_S1600000x1_0 : (⟨S1600000, .i32⟩ : BufTy).Contents (Elt F) → (⟨S1600000x1, .i32⟩ : BufTy).Contents (Elt F)),
    ternary main_v123 main_v139 main_v133 main_v140 ((fun x i u => Host.scatterAdd scatter_S400000x64_S1600000x1_S1600000x64_1_0_0_1 x i u) : (⟨S400000x64, .f32⟩ : BufTy).Contents (Elt F) → (⟨S1600000x1, .i32⟩ : BufTy).Contents (Elt F) → (⟨S1600000x64, .f32⟩ : BufTy).Contents (Elt F) → (⟨S400000x64, .f32⟩ : BufTy).Contents (Elt F)),
    binary main_v106 main_v106 main_v141 (mulf : (⟨S400000, .f32⟩ : BufTy).Contents (Elt F) → (⟨S400000, .f32⟩ : BufTy).Contents (Elt F) → (⟨S400000, .f32⟩ : BufTy).Contents (Elt F)),
    unary main_v141 main_v142 (broadcastInDim S400000x1 ![0] bcast_S400000_S400000x1_0 : (⟨S400000, .f32⟩ : BufTy).Contents (Elt F) → (⟨S400000x1, .f32⟩ : BufTy).Contents (Elt F)),
    unary main_v142 main_v143 (broadcastInDim S400000x64 ![0, 1] bcast_S400000x1_S400000x64_0_1 : (⟨S400000x1, .f32⟩ : BufTy).Contents (Elt F) → (⟨S400000x64, .f32⟩ : BufTy).Contents (Elt F)),
    binary main_v95 main_v143 main_v144 (mulf : (⟨S400000x64, .f32⟩ : BufTy).Contents (Elt F) → (⟨S400000x64, .f32⟩ : BufTy).Contents (Elt F) → (⟨S400000x64, .f32⟩ : BufTy).Contents (Elt F)),
    binary main_v140 main_v144 main_v145 (addf : (⟨S400000x64, .f32⟩ : BufTy).Contents (Elt F) → (⟨S400000x64, .f32⟩ : BufTy).Contents (Elt F) → (⟨S400000x64, .f32⟩ : BufTy).Contents (Elt F)),
    unary main_v94 main_v146 (broadcastInDim S1x64 ![1] bcast_S64_S1x64_1 : (⟨S64, .f32⟩ : BufTy).Contents (Elt F) → (⟨S1x64, .f32⟩ : BufTy).Contents (Elt F)),
    unary main_v146 main_v147 (broadcastInDim S400000x64 ![0, 1] bcast_S1x64_S400000x64_0_1 : (⟨S1x64, .f32⟩ : BufTy).Contents (Elt F) → (⟨S400000x64, .f32⟩ : BufTy).Contents (Elt F)),
    binary main_v145 main_v147 main_v148 (addf : (⟨S400000x64, .f32⟩ : BufTy).Contents (Elt F) → (⟨S400000x64, .f32⟩ : BufTy).Contents (Elt F) → (⟨S400000x64, .f32⟩ : BufTy).Contents (Elt F)),
    unary main_v148 main_v149 (Host.tanh : (⟨S400000x64, .f32⟩ : BufTy).Contents (Elt F) → (⟨S400000x64, .f32⟩ : BufTy).Contents (Elt F)),
    unary main_arg17 main_v150 ((extractStridedSlice S1x1 ![0, 1] · slices_S3x3_S1x1_0_1) : (⟨S3x3, .f32⟩ : BufTy).Contents (Elt F) → (⟨S1x1, .f32⟩ : BufTy).Contents (Elt F)) ]

theorem part2_eq (c : Dev nD) : main_part2 (F := F) c = seq ops2 := rfl

theorem ops2_sub : (ops2 : List (HloOp τ sig (Elt F))).Forall fun op => op.bufs ⊆ tcRefs τ sig :=
  ⟨ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., unary_bufs_sub ..⟩

theorem ops2_fresh : (ops2 : List (HloOp τ sig (Elt F))).Forall fun op => op.fresh = ∅ := by
  simp only [List.Forall]; repeat' constructor

/-- The buffers the window writes. -/
abbrev written2 : List (Ref sig .tc) := [main_v101, main_v102, main_v103, main_cst_17, main_v104, main_v105, main_v106, main_c_18, main_v107, main_v108, main_c_19, main_v109, main_v110, main_v111, main_v112, main_v113, main_v114, main_c_20, main_v115, main_v116, main_c_21, main_v117, main_v118, main_v119, main_v120, main_v121, main_v122, main_cst_22, main_v123, main_v124, main_c_23, main_v125, main_v126, main_c_24, main_v127, main_v128, main_v129, main_v130, main_v131, main_v132, main_v133, main_c_25, main_v134, main_v135, main_c_26, main_v136, main_v137, main_v138, main_v139, main_v140, main_v141, main_v142, main_v143, main_v144, main_v145, main_v146, main_v147, main_v148, main_v149, main_v150]

theorem writes2 : (ops2 : List (HloOp τ sig (Elt F))).Forall fun op => op.writes ⊆ ((written2).map (Proc.devRef (τ := τ) .tc)).toFinset := by
  simp only [ops2, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep2 (V : Valuation τ sig (Elt F)) (r : Ref sig .tc) (h : r ∉ written2) :
    after (ops2 (F := F)) V (Proc.devRef .tc r) = V (Proc.devRef .tc r) :=
  after_of_writes_sub (ops2 (F := F)) V writes2 h

set_option maxHeartbeats 2000000 in
/-- What main_v149 holds after the window. -/
theorem value2_main_v149 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v98 : V (Proc.devRef .tc main_v98) = (Cert.ReferenceIdeal.Stages.val_main_v98 (F := F) a2))
    (h_main_v100 : V (Proc.devRef .tc main_v100) = (Cert.ReferenceIdeal.Stages.val_main_v100 (F := F) a2))
    (h_main_v25 : V (Proc.devRef .tc main_v25) = (Cert.ReferenceIdeal.Stages.val_main_v25 (F := F) a2))
    (h_main_v96 : V (Proc.devRef .tc main_v96) = (Cert.ReferenceIdeal.Stages.val_main_v96 (F := F)))
    (h_main_arg3 : V (Proc.devRef .tc main_arg3) = a3)
    (h_main_v23 : V (Proc.devRef .tc main_v23) = (Cert.ReferenceIdeal.Stages.val_main_v23 (F := F) a2))
    (h_main_v95 : V (Proc.devRef .tc main_v95) = (Cert.ReferenceIdeal.Stages.val_main_v95 (F := F) a0 a1 a2 a3 a10 a11 a12 a13 a14 a15 a16))
    (h_main_v94 : V (Proc.devRef .tc main_v94) = (Cert.ReferenceIdeal.Stages.val_main_v94 (F := F) a16))
    (h_main_arg17 : V (Proc.devRef .tc main_arg17) = a17) :
    after (ops2 (F := F)) V (Proc.devRef .tc main_v149) = (Cert.ReferenceIdeal.Stages.val_main_v149 (F := F) a0 a1 a2 a3 a10 a11 a12 a13 a14 a15 a16) := by
  subst_vars
  simp only [ops2]
  after_results_simp
  try simp only [TRef.ofBuf, TRef.toBuf, cast_eq]
  try simp only [h_main_v98, h_main_v100, h_main_v25, h_main_v96, h_main_v23, h_main_v95, h_main_v94]
  all_goals rfl

set_option maxHeartbeats 2000000 in
/-- What main_v150 holds after the window. -/
theorem value2_main_v150 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v98 : V (Proc.devRef .tc main_v98) = (Cert.ReferenceIdeal.Stages.val_main_v98 (F := F) a2))
    (h_main_v100 : V (Proc.devRef .tc main_v100) = (Cert.ReferenceIdeal.Stages.val_main_v100 (F := F) a2))
    (h_main_v25 : V (Proc.devRef .tc main_v25) = (Cert.ReferenceIdeal.Stages.val_main_v25 (F := F) a2))
    (h_main_v96 : V (Proc.devRef .tc main_v96) = (Cert.ReferenceIdeal.Stages.val_main_v96 (F := F)))
    (h_main_arg3 : V (Proc.devRef .tc main_arg3) = a3)
    (h_main_v23 : V (Proc.devRef .tc main_v23) = (Cert.ReferenceIdeal.Stages.val_main_v23 (F := F) a2))
    (h_main_v95 : V (Proc.devRef .tc main_v95) = (Cert.ReferenceIdeal.Stages.val_main_v95 (F := F) a0 a1 a2 a3 a10 a11 a12 a13 a14 a15 a16))
    (h_main_v94 : V (Proc.devRef .tc main_v94) = (Cert.ReferenceIdeal.Stages.val_main_v94 (F := F) a16))
    (h_main_arg17 : V (Proc.devRef .tc main_arg17) = a17) :
    after (ops2 (F := F)) V (Proc.devRef .tc main_v150) = (Cert.ReferenceIdeal.Stages.val_main_v150 (F := F) a17) := by
  subst_vars
  simp only [ops2]
  after_results_simp
  try simp only [TRef.ofBuf, TRef.toBuf, cast_eq]
  try simp only [h_main_v98, h_main_v100, h_main_v25, h_main_v96, h_main_v23, h_main_v95, h_main_v94]
  all_goals rfl

end Cert.ReferenceIdeal.Window

end
-- ==== Proof.RWin3.lean ====
/-
  The reference program's window number 3 (operations 181 to 240 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops3 : List (HloOp τ sig (Elt F)) :=
  [ reshape main_v150 main_v151 rfl shapeCasts_S1x1_S_,
    unary main_v151 main_v152 (broadcastInDim S400000x64 ![] bcast_S_S400000x64 : (⟨S_, .f32⟩ : BufTy).Contents (Elt F) → (⟨S400000x64, .f32⟩ : BufTy).Contents (Elt F)),
    binary main_v152 main_v149 main_v153 (mulf : (⟨S400000x64, .f32⟩ : BufTy).Contents (Elt F) → (⟨S400000x64, .f32⟩ : BufTy).Contents (Elt F) → (⟨S400000x64, .f32⟩ : BufTy).Contents (Elt F)),
    binary main_v90 main_v153 main_v154 (addf : (⟨S400000x64, .f32⟩ : BufTy).Contents (Elt F) → (⟨S400000x64, .f32⟩ : BufTy).Contents (Elt F) → (⟨S400000x64, .f32⟩ : BufTy).Contents (Elt F)),
    unary main_arg15 main_v155 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v155 main_v156 rfl shapeCasts_S1x64x64_S64x64,
    unary main_arg16 main_v157 ((extractStridedSlice S1x64 ![0, 0] · slices_S3x64_S1x64_0_0) : (⟨S3x64, .f32⟩ : BufTy).Contents (Elt F) → (⟨S1x64, .f32⟩ : BufTy).Contents (Elt F)),
    reshape main_v157 main_v158 rfl shapeCasts_S1x64_S64,
    binary main_v149 main_v156 main_v159 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)),
    nullary main_cst_27 (constant S_ .f32 0x00000000#32),
    unary main_cst_27 main_v160 (broadcastInDim S400000 ![] bcast_S_S400000 : (⟨S_, .f32⟩ : BufTy).Contents (Elt F) → (⟨S400000, .f32⟩ : BufTy).Contents (Elt F)),
    nullary main_c_28 (constantI S_ 32 0#32),
    unary main_c_28 main_v161 (broadcastInDim S1600000 ![] bcast_S_S1600000 : (⟨S_, .i32⟩ : BufTy).Contents (Elt F) → (⟨S1600000, .i32⟩ : BufTy).Contents (Elt F)),
    binary main_v25 main_v161 main_v162 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 400000#32),
    unary main_c_29 main_v163 (broadcastInDim S1600000 ![] bcast_S_S1600000 : (⟨S_, .i32⟩ : BufTy).Contents (Elt F) → (⟨S1600000, .i32⟩ : BufTy).Contents (Elt F)),
    binary main_v25 main_v163 main_v164 (addi : (⟨S1600000, .i32⟩ : BufTy).Contents (Elt F) → (⟨S1600000, .i32⟩ : BufTy).Contents (Elt F) → (⟨S1600000, .i32⟩ : BufTy).Contents (Elt F)),
    ternary main_v162 main_v164 main_v25 main_v165 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v165 main_v166 (broadcastInDim S1600000x1 ![0] bcast_S1600000_S1600000x1_0 : (⟨S1600000, .i32⟩ : BufTy).Contents (Elt F) → (⟨S1600000x1, .i32⟩ : BufTy).Contents (Elt F)),
    ternary main_v160 main_v166 main_arg3 main_v167 ((fun x i u => Host.scatterAdd scatter_S400000_S1600000x1_S1600000_n_0_0_1 x i u) : (⟨S400000, .f32⟩ : BufTy).Contents (Elt F) → (⟨S1600000x1, .i32⟩ : BufTy).Contents (Elt F) → (⟨S1600000, .f32⟩ : BufTy).Contents (Elt F) → (⟨S400000, .f32⟩ : BufTy).Contents (Elt F)),
    nullary main_cst_30 (constant S_ .f32 0x3F800000#32),
    unary main_cst_30 main_v168 (broadcastInDim S400000 ![] bcast_S_S400000 : (⟨S_, .f32⟩ : BufTy).Contents (Elt F) → (⟨S400000, .f32⟩ : BufTy).Contents (Elt F)),
    binary main_v167 main_v168 main_v169 (addf : (⟨S400000, .f32⟩ : BufTy).Contents (Elt F) → (⟨S400000, .f32⟩ : BufTy).Contents (Elt F) → (⟨S400000, .f32⟩ : BufTy).Contents (Elt F)),
    unary main_v169 main_v170 (Host.rsqrt : (⟨S400000, .f32⟩ : BufTy).Contents (Elt F) → (⟨S400000, .f32⟩ : BufTy).Contents (Elt F)),
    nullary main_c_31 (constantI S_ 32 0#32),
    unary main_c_31 main_v171 (broadcastInDim S1600000 ![] bcast_S_S1600000 : (⟨S_, .i32⟩ : BufTy).Contents (Elt F) → (⟨S1600000, .i32⟩ : BufTy).Contents (Elt F)),
    binary main_v23 main_v171 main_v172 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 400000#32),
    unary main_c_32 main_v173 (broadcastInDim S1600000 ![] bcast_S_S1600000 : (⟨S_, .i32⟩ : BufTy).Contents (Elt F) → (⟨S1600000, .i32⟩ : BufTy).Contents (Elt F)),
    binary main_v23 main_v173 main_v174 (addi : (⟨S1600000, .i32⟩ : BufTy).Contents (Elt F) → (⟨S1600000, .i32⟩ : BufTy).Contents (Elt F) → (⟨S1600000, .i32⟩ : BufTy).Contents (Elt F)),
    ternary main_v172 main_v174 main_v23 main_v175 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v175 main_v176 (broadcastInDim S1600000x1 ![0] bcast_S1600000_S1600000x1_0 : (⟨S1600000, .i32⟩ : BufTy).Contents (Elt F) → (⟨S1600000x1, .i32⟩ : BufTy).Contents (Elt F)),
    binary main_v170 main_v176 main_v177 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),
    binary main_v177 main_arg3 main_v178 (mulf : (⟨S1600000, .f32⟩ : BufTy).Contents (Elt F) → (⟨S1600000, .f32⟩ : BufTy).Contents (Elt F) → (⟨S1600000, .f32⟩ : BufTy).Contents (Elt F)),
    nullary main_c_33 (constantI S_ 32 0#32),
    unary main_c_33 main_v179 (broadcastInDim S1600000 ![] bcast_S_S1600000 : (⟨S_, .i32⟩ : BufTy).Contents (Elt F) → (⟨S1600000, .i32⟩ : BufTy).Contents (Elt F)),
    binary main_v25 main_v179 main_v180 (cmpi .slt : (⟨S1600000, .i32⟩ : BufTy).Contents (Elt F) → (⟨S1600000, .i32⟩ : BufTy).Contents (Elt F) → (⟨S1600000, .i1⟩ : BufTy).Contents (Elt F)),
    nullary main_c_34 (constantI S_ 32 400000#32),
    unary main_c_34 main_v181 (broadcastInDim S1600000 ![] bcast_S_S1600000 : (⟨S_, .i32⟩ : BufTy).Contents (Elt F) → (⟨S1600000, .i32⟩ : BufTy).Contents (Elt F)),
    binary main_v25 main_v181 main_v182 (addi : (⟨S1600000, .i32⟩ : BufTy).Contents (Elt F) → (⟨S1600000, .i32⟩ : BufTy).Contents (Elt F) → (⟨S1600000, .i32⟩ : BufTy).Contents (Elt F)),
    ternary main_v180 main_v182 main_v25 main_v183 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v183 main_v184 (broadcastInDim S1600000x1 ![0] bcast_S1600000_S1600000x1_0 : (⟨S1600000, .i32⟩ : BufTy).Contents (Elt F) → (⟨S1600000x1, .i32⟩ : BufTy).Contents (Elt F)),
    binary main_v170 main_v184 main_v185 ((fun x i => Host.gather gather_S400000_S1600000x1_S1600000_n_0_n_n_0_1_1 x i) : (⟨S400000, .f32⟩ : BufTy).Contents (Elt F) → (⟨S1600000x1, .i32⟩ : BufTy).Contents (Elt F) → (⟨S1600000, .f32⟩ : BufTy).Contents (Elt F)),
    binary main_v178 main_v185 main_v186 (mulf : (⟨S1600000, .f32⟩ : BufTy).Contents (Elt F) → (⟨S1600000, .f32⟩ : BufTy).Contents (Elt F) → (⟨S1600000, .f32⟩ : BufTy).Contents (Elt F)),
    nullary main_cst_35 (constant S_ .f32 0x00000000#32),
    unary main_cst_35 main_v187 (broadcastInDim S400000x64 ![] bcast_S_S400000x64 : (⟨S_, .f32⟩ : BufTy).Contents (Elt F) → (⟨S400000x64, .f32⟩ : BufTy).Contents (Elt F)),
    unary main_v186 main_v188 (broadcastInDim S1600000x1 ![0] bcast_S1600000_S1600000x1_0 : (⟨S1600000, .f32⟩ : BufTy).Contents (Elt F) → (⟨S1600000x1, .f32⟩ : BufTy).Contents (Elt F)),
    nullary main_c_36 (constantI S_ 32 0#32),
    unary main_c_36 main_v189 (broadcastInDim S1600000 ![] bcast_S_S1600000 : (⟨S_, .i32⟩ : BufTy).Contents (Elt F) → (⟨S1600000, .i32⟩ : BufTy).Contents (Elt F)),
    binary main_v23 main_v189 main_v190 (cmpi .slt : (⟨S1600000, .i32⟩ : BufTy).Contents (Elt F) → (⟨S1600000, .i32⟩ : BufTy).Contents (Elt F) → (⟨S1600000, .i1⟩ : BufTy).Contents (Elt F)),
    nullary main_c_37 (constantI S_ 32 400000#32),
    unary main_c_37 main_v191 (broadcastInDim S1600000 ![] bcast_S_S1600000 : (⟨S_, .i32⟩ : BufTy).Contents (Elt F) → (⟨S1600000, .i32⟩ : BufTy).Contents (Elt F)),
    binary main_v23 main_v191 main_v192 (addi : (⟨S1600000, .i32⟩ : BufTy).Contents (Elt F) → (⟨S1600000, .i32⟩ : BufTy).Contents (Elt F) → (⟨S1600000, .i32⟩ : BufTy).Contents (Elt F)),
    ternary main_v190 main_v192 main_v23 main_v193 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v193 main_v194 (broadcastInDim S1600000x1 ![0] bcast_S1600000_S1600000x1_0 : (⟨S1600000, .i32⟩ : BufTy).Contents (Elt F) → (⟨S1600000x1, .i32⟩ : BufTy).Contents (Elt F)),
    binary main_v159 main_v194 main_v195 ((fun x i => Host.gather gather_S400000x64_S1600000x1_S1600000x64_1_0_n_n_0_1_164 x i) : (⟨S400000x64, .f32⟩ : BufTy).Contents (Elt F) → (⟨S1600000x1, .i32⟩ : BufTy).Contents (Elt F) → (⟨S1600000x64, .f32⟩ : BufTy).Contents (Elt F)),
    unary main_v188 main_v196 (broadcastInDim S1600000x64 ![0, 1] bcast_S1600000x1_S1600000x64_0_1 : (⟨S1600000x1, .f32⟩ : BufTy).Contents (Elt F) → (⟨S1600000x64, .f32⟩ : BufTy).Contents (Elt F)),
    binary main_v196 main_v195 main_v197 (mulf : (⟨S1600000x64, .f32⟩ : BufTy).Contents (Elt F) → (⟨S1600000x64, .f32⟩ : BufTy).Contents (Elt F) → (⟨S1600000x64, .f32⟩ : BufTy).Contents (Elt F)),
    nullary main_c_38 (constantI S_ 32 0#32),
    unary main_c_38 main_v198 (broadcastInDim S1600000 ![] bcast_S_S1600000 : (⟨S_, .i32⟩ : BufTy).Contents (Elt F) → (⟨S1600000, .i32⟩ : BufTy).Contents (Elt F)) ]

theorem part3_eq (c : Dev nD) : main_part3 (F := F) c = seq ops3 := rfl

theorem ops3_sub : (ops3 : List (HloOp τ sig (Elt F))).Forall fun op => op.bufs ⊆ tcRefs τ sig :=
  ⟨reshape_bufs_sub .., unary_bufs_sub .., binary_bufs_sub .., binary_bufs_sub .., unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub ..⟩

theorem ops3_fresh : (ops3 : List (HloOp τ sig (Elt F))).Forall fun op => op.fresh = ∅ := by
  simp only [List.Forall]; repeat' constructor

/-- The buffers the window writes. -/
abbrev written3 : List (Ref sig .tc) := [main_v151, main_v152, main_v153, main_v154, main_v155, main_v156, main_v157, main_v158, main_v159, main_cst_27, main_v160, main_c_28, main_v161, main_v162, main_c_29, main_v163, main_v164, main_v165, main_v166, main_v167, main_cst_30, main_v168, main_v169, main_v170, main_c_31, main_v171, main_v172, main_c_32, main_v173, main_v174, main_v175, main_v176, main_v177, main_v178, main_c_33, main_v179, main_v180, main_c_34, main_v181, main_v182, main_v183, main_v184, main_v185, main_v186, main_cst_35, main_v187, main_v188, main_c_36, main_v189, main_v190, main_c_37, main_v191, main_v192, main_v193, main_v194, main_v195, main_v196, main_v197, main_c_38, main_v198]

theorem writes3 : (ops3 : List (HloOp τ sig (Elt F))).Forall fun op => op.writes ⊆ ((written3).map (Proc.devRef (τ := τ) .tc)).toFinset := by
  simp only [ops3, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep3 (V : Valuation τ sig (Elt F)) (r : Ref sig .tc) (h : r ∉ written3) :
    after (ops3 (F := F)) V (Proc.devRef .tc r) = V (Proc.devRef .tc r) :=
  after_of_writes_sub (ops3 (F := F)) V writes3 h

set_option maxHeartbeats 2000000 in
/-- What main_v154 holds after the window. -/
theorem value3_main_v154 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v150 : V (Proc.devRef .tc main_v150) = (Cert.ReferenceIdeal.Stages.val_main_v150 (F := F) a17))
    (h_main_v149 : V (Proc.devRef .tc main_v149) = (Cert.ReferenceIdeal.Stages.val_main_v149 (F := F) a0 a1 a2 a3 a10 a11 a12 a13 a14 a15 a16))
    (h_main_v90 : V (Proc.devRef .tc main_v90) = (Cert.ReferenceIdeal.Stages.val_main_v90 (F := F) a0 a1 a2 a3 a10 a11 a12 a13 a14 a15 a16 a17))
    (h_main_arg15 : V (Proc.devRef .tc main_arg15) = a15)
    (h_main_arg16 : V (Proc.devRef .tc main_arg16) = a16)
    (h_main_v25 : V (Proc.devRef .tc main_v25) = (Cert.ReferenceIdeal.Stages.val_main_v25 (F := F) a2))
    (h_main_arg3 : V (Proc.devRef .tc main_arg3) = a3)
    (h_main_v23 : V (Proc.devRef .tc main_v23) = (Cert.ReferenceIdeal.Stages.val_main_v23 (F := F) a2)) :
    after (ops3 (F := F)) V (Proc.devRef .tc main_v154) = (Cert.ReferenceIdeal.Stages.val_main_v154 (F := F) a0 a1 a2 a3 a10 a11 a12 a13 a14 a15 a16 a17) := by
  subst_vars
  simp only [ops3]
  after_results_simp
  try simp only [TRef.ofBuf, TRef.toBuf, cast_eq]
  try simp only [h_main_v150, h_main_v149, h_main_v90, h_main_v25, h_main_v23]
  all_goals rfl

set_option maxHeartbeats 2000000 in
/-- What main_v158 holds after the window. -/
theorem value3_main_v158 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v150 : V (Proc.devRef .tc main_v150) = (Cert.ReferenceIdeal.Stages.val_main_v150 (F := F) a17))
    (h_main_v149 : V (Proc.devRef .tc main_v149) = (Cert.ReferenceIdeal.Stages.val_main_v149 (F := F) a0 a1 a2 a3 a10 a11 a12 a13 a14 a15 a16))
    (h_main_v90 : V (Proc.devRef .tc main_v90) = (Cert.ReferenceIdeal.Stages.val_main_v90 (F := F) a0 a1 a2 a3 a10 a11 a12 a13 a14 a15 a16 a17))
    (h_main_arg15 : V (Proc.devRef .tc main_arg15) = a15)
    (h_main_arg16 : V (Proc.devRef .tc main_arg16) = a16)
    (h_main_v25 : V (Proc.devRef .tc main_v25) = (Cert.ReferenceIdeal.Stages.val_main_v25 (F := F) a2))
    (h_main_arg3 : V (Proc.devRef .tc main_arg3) = a3)
    (h_main_v23 : V (Proc.devRef .tc main_v23) = (Cert.ReferenceIdeal.Stages.val_main_v23 (F := F) a2)) :
    after (ops3 (F := F)) V (Proc.devRef .tc main_v158) = (Cert.ReferenceIdeal.Stages.val_main_v158 (F := F) a16) := by
  subst_vars
  simp only [ops3]
  after_results_simp
  try simp only [TRef.ofBuf, TRef.toBuf, cast_eq]
  try simp only [h_main_v150, h_main_v149, h_main_v90, h_main_v25, h_main_v23]
  all_goals rfl

set_option maxHeartbeats 2000000 in
/-- What main_v159 holds after the window. -/
theorem value3_main_v159 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v150 : V (Proc.devRef .tc main_v150) = (Cert.ReferenceIdeal.Stages.val_main_v150 (F := F) a17))
    (h_main_v149 : V (Proc.devRef .tc main_v149) = (Cert.ReferenceIdeal.Stages.val_main_v149 (F := F) a0 a1 a2 a3 a10 a11 a12 a13 a14 a15 a16))
    (h_main_v90 : V (Proc.devRef .tc main_v90) = (Cert.ReferenceIdeal.Stages.val_main_v90 (F := F) a0 a1 a2 a3 a10 a11 a12 a13 a14 a15 a16 a17))
    (h_main_arg15 : V (Proc.devRef .tc main_arg15) = a15)
    (h_main_arg16 : V (Proc.devRef .tc main_arg16) = a16)
    (h_main_v25 : V (Proc.devRef .tc main_v25) = (Cert.ReferenceIdeal.Stages.val_main_v25 (F := F) a2))
    (h_main_arg3 : V (Proc.devRef .tc main_arg3) = a3)
    (h_main_v23 : V (Proc.devRef .tc main_v23) = (Cert.ReferenceIdeal.Stages.val_main_v23 (F := F) a2)) :
    after (ops3 (F := F)) V (Proc.devRef .tc main_v159) = (Cert.ReferenceIdeal.Stages.val_main_v159 (F := F) a0 a1 a2 a3 a10 a11 a12 a13 a14 a15 a16) := by
  subst_vars
  simp only [ops3]
  after_results_simp
  try simp only [TRef.ofBuf, TRef.toBuf, cast_eq]
  try simp only [h_main_v150, h_main_v149, h_main_v90, h_main_v25, h_main_v23]
  all_goals rfl

set_option maxHeartbeats 2000000 in
/-- What main_v170 holds after the window. -/
theorem value3_main_v170 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v150 : V (Proc.devRef .tc main_v150) = (Cert.ReferenceIdeal.Stages.val_main_v150 (F := F) a17))
    (h_main_v149 : V (Proc.devRef .tc main_v149) = (Cert.ReferenceIdeal.Stages.val_main_v149 (F := F) a0 a1 a2 a3 a10 a11 a12 a13 a14 a15 a16))
    (h_main_v90 : V (Proc.devRef .tc main_v90) = (Cert.ReferenceIdeal.Stages.val_main_v90 (F := F) a0 a1 a2 a3 a10 a11 a12 a13 a14 a15 a16 a17))
    (h_main_arg15 : V (Proc.devRef .tc main_arg15) = a15)
    (h_main_arg16 : V (Proc.devRef .tc main_arg16) = a16)
    (h_main_v25 : V (Proc.devRef .tc main_v25) = (Cert.ReferenceIdeal.Stages.val_main_v25 (F := F) a2))
    (h_main_arg3 : V (Proc.devRef .tc main_arg3) = a3)
    (h_main_v23 : V (Proc.devRef .tc main_v23) = (Cert.ReferenceIdeal.Stages.val_main_v23 (F := F) a2)) :
    after (ops3 (F := F)) V (Proc.devRef .tc main_v170) = (Cert.ReferenceIdeal.Stages.val_main_v170 (F := F) a2 a3) := by
  subst_vars
  simp only [ops3]
  after_results_simp
  try simp only [TRef.ofBuf, TRef.toBuf, cast_eq]
  try simp only [h_main_v150, h_main_v149, h_main_v90, h_main_v25, h_main_v23]
  all_goals rfl

set_option maxHeartbeats 2000000 in
/-- What main_v187 holds after the window. -/
theorem value3_main_v187 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v150 : V (Proc.devRef .tc main_v150) = (Cert.ReferenceIdeal.Stages.val_main_v150 (F := F) a17))
    (h_main_v149 : V (Proc.devRef .tc main_v149) = (Cert.ReferenceIdeal.Stages.val_main_v149 (F := F) a0 a1 a2 a3 a10 a11 a12 a13 a14 a15 a16))
    (h_main_v90 : V (Proc.devRef .tc main_v90) = (Cert.ReferenceIdeal.Stages.val_main_v90 (F := F) a0 a1 a2 a3 a10 a11 a12 a13 a14 a15 a16 a17))
    (h_main_arg15 : V (Proc.devRef .tc main_arg15) = a15)
    (h_main_arg16 : V (Proc.devRef .tc main_arg16) = a16)
    (h_main_v25 : V (Proc.devRef .tc main_v25) = (Cert.ReferenceIdeal.Stages.val_main_v25 (F := F) a2))
    (h_main_arg3 : V (Proc.devRef .tc main_arg3) = a3)
    (h_main_v23 : V (Proc.devRef .tc main_v23) = (Cert.ReferenceIdeal.Stages.val_main_v23 (F := F) a2)) :
    after (ops3 (F := F)) V (Proc.devRef .tc main_v187) = (Cert.ReferenceIdeal.Stages.val_main_v187 (F := F)) := by
  subst_vars
  simp only [ops3]
  after_results_simp
  try simp only [TRef.ofBuf, TRef.toBuf, cast_eq]
  try simp only [h_main_v150, h_main_v149, h_main_v90, h_main_v25, h_main_v23]
  all_goals rfl

set_option maxHeartbeats 2000000 in
/-- What main_v197 holds after the window. -/
theorem value3_main_v197 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v150 : V (Proc.devRef .tc main_v150) = (Cert.ReferenceIdeal.Stages.val_main_v150 (F := F) a17))
    (h_main_v149 : V (Proc.devRef .tc main_v149) = (Cert.ReferenceIdeal.Stages.val_main_v149 (F := F) a0 a1 a2 a3 a10 a11 a12 a13 a14 a15 a16))
    (h_main_v90 : V (Proc.devRef .tc main_v90) = (Cert.ReferenceIdeal.Stages.val_main_v90 (F := F) a0 a1 a2 a3 a10 a11 a12 a13 a14 a15 a16 a17))
    (h_main_arg15 : V (Proc.devRef .tc main_arg15) = a15)
    (h_main_arg16 : V (Proc.devRef .tc main_arg16) = a16)
    (h_main_v25 : V (Proc.devRef .tc main_v25) = (Cert.ReferenceIdeal.Stages.val_main_v25 (F := F) a2))
    (h_main_arg3 : V (Proc.devRef .tc main_arg3) = a3)
    (h_main_v23 : V (Proc.devRef .tc main_v23) = (Cert.ReferenceIdeal.Stages.val_main_v23 (F := F) a2)) :
    after (ops3 (F := F)) V (Proc.devRef .tc main_v197) = (Cert.ReferenceIdeal.Stages.val_main_v197 (F := F) a0 a1 a2 a3 a10 a11 a12 a13 a14 a15 a16) := by
  subst_vars
  simp only [ops3]
  after_results_simp
  try simp only [TRef.ofBuf, TRef.toBuf, cast_eq]
  try simp only [h_main_v150, h_main_v149, h_main_v90, h_main_v25, h_main_v23]
  all_goals rfl

set_option maxHeartbeats 2000000 in
/-- What main_v198 holds after the window. -/
theorem value3_main_v198 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v150 : V (Proc.devRef .tc main_v150) = (Cert.ReferenceIdeal.Stages.val_main_v150 (F := F) a17))
    (h_main_v149 : V (Proc.devRef .tc main_v149) = (Cert.ReferenceIdeal.Stages.val_main_v149 (F := F) a0 a1 a2 a3 a10 a11 a12 a13 a14 a15 a16))
    (h_main_v90 : V (Proc.devRef .tc main_v90) = (Cert.ReferenceIdeal.Stages.val_main_v90 (F := F) a0 a1 a2 a3 a10 a11 a12 a13 a14 a15 a16 a17))
    (h_main_arg15 : V (Proc.devRef .tc main_arg15) = a15)
    (h_main_arg16 : V (Proc.devRef .tc main_arg16) = a16)
    (h_main_v25 : V (Proc.devRef .tc main_v25) = (Cert.ReferenceIdeal.Stages.val_main_v25 (F := F) a2))
    (h_main_arg3 : V (Proc.devRef .tc main_arg3) = a3)
    (h_main_v23 : V (Proc.devRef .tc main_v23) = (Cert.ReferenceIdeal.Stages.val_main_v23 (F := F) a2)) :
    after (ops3 (F := F)) V (Proc.devRef .tc main_v198) = (Cert.ReferenceIdeal.Stages.val_main_v198 (F := F)) := by
  subst_vars
  simp only [ops3]
  after_results_simp
  try simp only [TRef.ofBuf, TRef.toBuf, cast_eq]
  try simp only [h_main_v150, h_main_v149, h_main_v90, h_main_v25, h_main_v23]
  all_goals rfl

end Cert.ReferenceIdeal.Window

end
-- ==== Proof.RWin4.lean ====
/-
  The reference program's window number 4 (operations 241 to 300 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops4 : List (HloOp τ sig (Elt F)) :=
  [ binary main_v25 main_v198 main_v199 (cmpi .slt : (⟨S1600000, .i32⟩ : BufTy).Contents (Elt F) → (⟨S1600000, .i32⟩ : BufTy).Contents (Elt F) → (⟨S1600000, .i1⟩ : BufTy).Contents (Elt F)),
    nullary main_c_39 (constantI S_ 32 400000#32),
    unary main_c_39 main_v200 (broadcastInDim S1600000 ![] bcast_S_S1600000 : (⟨S_, .i32⟩ : BufTy).Contents (Elt F) → (⟨S1600000, .i32⟩ : BufTy).Contents (Elt F)),
    binary main_v25 main_v200 main_v201 (addi : (⟨S1600000, .i32⟩ : BufTy).Contents (Elt F) → (⟨S1600000, .i32⟩ : BufTy).Contents (Elt F) → (⟨S1600000, .i32⟩ : BufTy).Contents (Elt F)),
    ternary main_v199 main_v201 main_v25 main_v202 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v202 main_v203 (broadcastInDim S1600000x1 ![0] bcast_S1600000_S1600000x1_0 : (⟨S1600000, .i32⟩ : BufTy).Contents (Elt F) → (⟨S1600000x1, .i32⟩ : BufTy).Contents (Elt F)),
    ternary main_v187 main_v203 main_v197 main_v204 ((fun x i u => Host.scatterAdd scatter_S400000x64_S1600000x1_S1600000x64_1_0_0_1 x i u) : (⟨S400000x64, .f32⟩ : BufTy).Contents (Elt F) → (⟨S1600000x1, .i32⟩ : BufTy).Contents (Elt F) → (⟨S1600000x64, .f32⟩ : BufTy).Contents (Elt F) → (⟨S400000x64, .f32⟩ : BufTy).Contents (Elt F)),
    binary main_v170 main_v170 main_v205 (mulf : (⟨S400000, .f32⟩ : BufTy).Contents (Elt F) → (⟨S400000, .f32⟩ : BufTy).Contents (Elt F) → (⟨S400000, .f32⟩ : BufTy).Contents (Elt F)),
    unary main_v205 main_v206 (broadcastInDim S400000x1 ![0] bcast_S400000_S400000x1_0 : (⟨S400000, .f32⟩ : BufTy).Contents (Elt F) → (⟨S400000x1, .f32⟩ : BufTy).Contents (Elt F)),
    unary main_v206 main_v207 (broadcastInDim S400000x64 ![0, 1] bcast_S400000x1_S400000x64_0_1 : (⟨S400000x1, .f32⟩ : BufTy).Contents (Elt F) → (⟨S400000x64, .f32⟩ : BufTy).Contents (Elt F)),
    binary main_v159 main_v207 main_v208 (mulf : (⟨S400000x64, .f32⟩ : BufTy).Contents (Elt F) → (⟨S400000x64, .f32⟩ : BufTy).Contents (Elt F) → (⟨S400000x64, .f32⟩ : BufTy).Contents (Elt F)),
    binary main_v204 main_v208 main_v209 (addf : (⟨S400000x64, .f32⟩ : BufTy).Contents (Elt F) → (⟨S400000x64, .f32⟩ : BufTy).Contents (Elt F) → (⟨S400000x64, .f32⟩ : BufTy).Contents (Elt F)),
    unary main_v158 main_v210 (broadcastInDim S1x64 ![1] bcast_S64_S1x64_1 : (⟨S64, .f32⟩ : BufTy).Contents (Elt F) → (⟨S1x64, .f32⟩ : BufTy).Contents (Elt F)),
    unary main_v210 main_v211 (broadcastInDim S400000x64 ![0, 1] bcast_S1x64_S400000x64_0_1 : (⟨S1x64, .f32⟩ : BufTy).Contents (Elt F) → (⟨S400000x64, .f32⟩ : BufTy).Contents (Elt F)),
    binary main_v209 main_v211 main_v212 (addf : (⟨S400000x64, .f32⟩ : BufTy).Contents (Elt F) → (⟨S400000x64, .f32⟩ : BufTy).Contents (Elt F) → (⟨S400000x64, .f32⟩ : BufTy).Contents (Elt F)),
    unary main_v212 main_v213 (Host.tanh : (⟨S400000x64, .f32⟩ : BufTy).Contents (Elt F) → (⟨S400000x64, .f32⟩ : BufTy).Contents (Elt F)),
    unary main_arg17 main_v214 ((extractStridedSlice S1x1 ![0, 2] · slices_S3x3_S1x1_0_2) : (⟨S3x3, .f32⟩ : BufTy).Contents (Elt F) → (⟨S1x1, .f32⟩ : BufTy).Contents (Elt F)),
    reshape main_v214 main_v215 rfl shapeCasts_S1x1_S_,
    unary main_v215 main_v216 (broadcastInDim S400000x64 ![] bcast_S_S400000x64 : (⟨S_, .f32⟩ : BufTy).Contents (Elt F) → (⟨S400000x64, .f32⟩ : BufTy).Contents (Elt F)),
    binary main_v216 main_v213 main_v217 (mulf : (⟨S400000x64, .f32⟩ : BufTy).Contents (Elt F) → (⟨S400000x64, .f32⟩ : BufTy).Contents (Elt F) → (⟨S400000x64, .f32⟩ : BufTy).Contents (Elt F)),
    binary main_v154 main_v217 main_v218 (addf : (⟨S400000x64, .f32⟩ : BufTy).Contents (Elt F) → (⟨S400000x64, .f32⟩ : BufTy).Contents (Elt F) → (⟨S400000x64, .f32⟩ : BufTy).Contents (Elt F)),
    unary main_arg4 main_v219 ((extractStridedSlice S1x400000 ![0, 0] · slices_S2x400000_S1x400000_0_0) : (⟨S2x400000, .i32⟩ : BufTy).Contents (Elt F) → (⟨S1x400000, .i32⟩ : BufTy).Contents (Elt F)),
    reshape main_v219 main_v220 rfl shapeCasts_S1x400000_S400000,
    unary main_arg4 main_v221 ((extractStridedSlice S1x400000 ![1, 0] · slices_S2x400000_S1x400000_1_0) : (⟨S2x400000, .i32⟩ : BufTy).Contents (Elt F) → (⟨S1x400000, .i32⟩ : BufTy).Contents (Elt F)),
    reshape main_v221 main_v222 rfl shapeCasts_S1x400000_S400000,
    nullary main_cst_40 (constant S_ .f32 0x00000000#32),
    unary main_cst_40 main_v223 (broadcastInDim S100000x64 ![] bcast_S_S100000x64 : (⟨S_, .f32⟩ : BufTy).Contents (Elt F) → (⟨S100000x64, .f32⟩ : BufTy).Contents (Elt F)),
    unary main_arg15 main_v224 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v224 main_v225 rfl shapeCasts_S1x64x64_S64x64,
    unary main_arg16 main_v226 ((extractStridedSlice S1x64 ![1, 0] · slices_S3x64_S1x64_1_0) : (⟨S3x64, .f32⟩ : BufTy).Contents (Elt F) → (⟨S1x64, .f32⟩ : BufTy).Contents (Elt F)),
    reshape main_v226 main_v227 rfl shapeCasts_S1x64_S64,
    binary main_v20 main_v225 main_v228 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_41 (constant S_ .f32 0x00000000#32),
    unary main_cst_41 main_v229 (broadcastInDim S100000 ![] bcast_S_S100000 : (⟨S_, .f32⟩ : BufTy).Contents (Elt F) → (⟨S100000, .f32⟩ : BufTy).Contents (Elt F)),
    nullary main_c_42 (constantI S_ 32 0#32),
    unary main_c_42 main_v230 (broadcastInDim S400000 ![] bcast_S_S400000 : (⟨S_, .i32⟩ : BufTy).Contents (Elt F) → (⟨S400000, .i32⟩ : BufTy).Contents (Elt F)),
    binary main_v222 main_v230 main_v231 (cmpi .slt : (⟨S400000, .i32⟩ : BufTy).Contents (Elt F) → (⟨S400000, .i32⟩ : BufTy).Contents (Elt F) → (⟨S400000, .i1⟩ : BufTy).Contents (Elt F)),
    nullary main_c_43 (constantI S_ 32 100000#32),
    unary main_c_43 main_v232 (broadcastInDim S400000 ![] bcast_S_S400000 : (⟨S_, .i32⟩ : BufTy).Contents (Elt F) → (⟨S400000, .i32⟩ : BufTy).Contents (Elt F)),
    binary main_v222 main_v232 main_v233 (addi : (⟨S400000, .i32⟩ : BufTy).Contents (Elt F) → (⟨S400000, .i32⟩ : BufTy).Contents (Elt F) → (⟨S400000, .i32⟩ : BufTy).Contents (Elt F)),
    ternary main_v231 main_v233 main_v222 main_v234 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v234 main_v235 (broadcastInDim S400000x1 ![0] bcast_S400000_S400000x1_0 : (⟨S400000, .i32⟩ : BufTy).Contents (Elt F) → (⟨S400000x1, .i32⟩ : BufTy).Contents (Elt F)),
    ternary main_v229 main_v235 main_arg5 main_v236 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_44 (constant S_ .f32 0x3F800000#32),
    unary main_cst_44 main_v237 (broadcastInDim S100000 ![] bcast_S_S100000 : (⟨S_, .f32⟩ : BufTy).Contents (Elt F) → (⟨S100000, .f32⟩ : BufTy).Contents (Elt F)),
    binary main_v236 main_v237 main_v238 (addf : (⟨S100000, .f32⟩ : BufTy).Contents (Elt F) → (⟨S100000, .f32⟩ : BufTy).Contents (Elt F) → (⟨S100000, .f32⟩ : BufTy).Contents (Elt F)),
    unary main_v238 main_v239 (Host.rsqrt : (⟨S100000, .f32⟩ : BufTy).Contents (Elt F) → (⟨S100000, .f32⟩ : BufTy).Contents (Elt F)),
    nullary main_c_45 (constantI S_ 32 0#32),
    unary main_c_45 main_v240 (broadcastInDim S400000 ![] bcast_S_S400000 : (⟨S_, .i32⟩ : BufTy).Contents (Elt F) → (⟨S400000, .i32⟩ : BufTy).Contents (Elt F)),
    binary main_v220 main_v240 main_v241 (cmpi .slt : (⟨S400000, .i32⟩ : BufTy).Contents (Elt F) → (⟨S400000, .i32⟩ : BufTy).Contents (Elt F) → (⟨S400000, .i1⟩ : BufTy).Contents (Elt F)),
    nullary main_c_46 (constantI S_ 32 100000#32),
    unary main_c_46 main_v242 (broadcastInDim S400000 ![] bcast_S_S400000 : (⟨S_, .i32⟩ : BufTy).Contents (Elt F) → (⟨S400000, .i32⟩ : BufTy).Contents (Elt F)),
    binary main_v220 main_v242 main_v243 (addi : (⟨S400000, .i32⟩ : BufTy).Contents (Elt F) → (⟨S400000, .i32⟩ : BufTy).Contents (Elt F) → (⟨S400000, .i32⟩ : BufTy).Contents (Elt F)),
    ternary main_v241 main_v243 main_v220 main_v244 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v244 main_v245 (broadcastInDim S400000x1 ![0] bcast_S400000_S400000x1_0 : (⟨S400000, .i32⟩ : BufTy).Contents (Elt F) → (⟨S400000x1, .i32⟩ : BufTy).Contents (Elt F)),
    binary main_v239 main_v245 main_v246 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    binary main_v246 main_arg5 main_v247 (mulf : (⟨S400000, .f32⟩ : BufTy).Contents (Elt F) → (⟨S400000, .f32⟩ : BufTy).Contents (Elt F) → (⟨S400000, .f32⟩ : BufTy).Contents (Elt F)),
    nullary main_c_47 (constantI S_ 32 0#32),
    unary main_c_47 main_v248 (broadcastInDim S400000 ![] bcast_S_S400000 : (⟨S_, .i32⟩ : BufTy).Contents (Elt F) → (⟨S400000, .i32⟩ : BufTy).Contents (Elt F)),
    binary main_v222 main_v248 main_v249 (cmpi .slt : (⟨S400000, .i32⟩ : BufTy).Contents (Elt F) → (⟨S400000, .i32⟩ : BufTy).Contents (Elt F) → (⟨S400000, .i1⟩ : BufTy).Contents (Elt F)) ]

theorem part4_eq (c : Dev nD) : main_part4 (F := F) c = seq ops4 := rfl

theorem ops4_sub : (ops4 : List (HloOp τ sig (Elt F))).Forall fun op => op.bufs ⊆ tcRefs τ sig :=
  ⟨binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., unary_bufs_sub .., reshape_bufs_sub .., unary_bufs_sub .., binary_bufs_sub .., binary_bufs_sub .., unary_bufs_sub .., reshape_bufs_sub .., unary_bufs_sub .., reshape_bufs_sub .., nullary_bufs_sub .., unary_bufs_sub .., unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩

theorem ops4_fresh : (ops4 : List (HloOp τ sig (Elt F))).Forall fun op => op.fresh = ∅ := by
  simp only [List.Forall]; repeat' constructor

/-- The buffers the window writes. -/
abbrev written4 : List (Ref sig .tc) := [main_v199, main_c_39, main_v200, main_v201, main_v202, main_v203, main_v204, main_v205, main_v206, main_v207, main_v208, main_v209, main_v210, main_v211, main_v212, main_v213, main_v214, main_v215, main_v216, main_v217, main_v218, main_v219, main_v220, main_v221, main_v222, main_cst_40, main_v223, main_v224, main_v225, main_v226, main_v227, main_v228, main_cst_41, main_v229, main_c_42, main_v230, main_v231, main_c_43, main_v232, main_v233, main_v234, main_v235, main_v236, main_cst_44, main_v237, main_v238, main_v239, main_c_45, main_v240, main_v241, main_c_46, main_v242, main_v243, main_v244, main_v245, main_v246, main_v247, main_c_47, main_v248, main_v249]

theorem writes4 : (ops4 : List (HloOp τ sig (Elt F))).Forall fun op => op.writes ⊆ ((written4).map (Proc.devRef (τ := τ) .tc)).toFinset := by
  simp only [ops4, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep4 (V : Valuation τ sig (Elt F)) (r : Ref sig .tc) (h : r ∉ written4) :
    after (ops4 (F := F)) V (Proc.devRef .tc r) = V (Proc.devRef .tc r) :=
  after_of_writes_sub (ops4 (F := F)) V writes4 h

set_option maxHeartbeats 2000000 in
/-- What main_v218 holds after the window. -/
theorem value4_main_v218 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v198 : V (Proc.devRef .tc main_v198) = (Cert.ReferenceIdeal.Stages.val_main_v198 (F := F)))
    (h_main_v187 : V (Proc.devRef .tc main_v187) = (Cert.ReferenceIdeal.Stages.val_main_v187 (F := F)))
    (h_main_v197 : V (Proc.devRef .tc main_v197) = (Cert.ReferenceIdeal.Stages.val_main_v197 (F := F) a0 a1 a2 a3 a10 a11 a12 a13 a14 a15 a16))
    (h_main_v170 : V (Proc.devRef .tc main_v170) = (Cert.ReferenceIdeal.Stages.val_main_v170 (F := F) a2 a3))
    (h_main_v159 : V (Proc.devRef .tc main_v159) = (Cert.ReferenceIdeal.Stages.val_main_v159 (F := F) a0 a1 a2 a3 a10 a11 a12 a13 a14 a15 a16))
    (h_main_v158 : V (Proc.devRef .tc main_v158) = (Cert.ReferenceIdeal.Stages.val_main_v158 (F := F) a16))
    (h_main_arg17 : V (Proc.devRef .tc main_arg17) = a17)
    (h_main_v154 : V (Proc.devRef .tc main_v154) = (Cert.ReferenceIdeal.Stages.val_main_v154 (F := F) a0 a1 a2 a3 a10 a11 a12 a13 a14 a15 a16 a17))
    (h_main_arg4 : V (Proc.devRef .tc main_arg4) = a4)
    (h_main_arg15 : V (Proc.devRef .tc main_arg15) = a15)
    (h_main_arg16 : V (Proc.devRef .tc main_arg16) = a16)
    (h_main_v20 : V (Proc.devRef .tc main_v20) = (Cert.ReferenceIdeal.Stages.val_main_v20 (F := F) a0 a1 a10 a11 a12 a13 a14))
    (h_main_arg5 : V (Proc.devRef .tc main_arg5) = a5) :
    after (ops4 (F := F)) V (Proc.devRef .tc main_v218) = (Cert.ReferenceIdeal.Stages.val_main_v218 (F := F) a0 a1 a2 a3 a10 a11 a12 a13 a14 a15 a16 a17) := by
  subst_vars
  simp only [ops4]
  after_results_simp
  try simp only [TRef.ofBuf, TRef.toBuf, cast_eq]
  try simp only [h_main_v25, h_main_v198, h_main_v187, h_main_v197, h_main_v170, h_main_v159, h_main_v158, h_main_v154, h_main_v20]
  all_goals rfl

set_option maxHeartbeats 2000000 in
/-- What main_v220 holds after the window. -/
theorem value4_main_v220 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v198 : V (Proc.devRef .tc main_v198) = (Cert.ReferenceIdeal.Stages.val_main_v198 (F := F)))
    (h_main_v187 : V (Proc.devRef .tc main_v187) = (Cert.ReferenceIdeal.Stages.val_main_v187 (F := F)))
    (h_main_v197 : V (Proc.devRef .tc main_v197) = (Cert.ReferenceIdeal.Stages.val_main_v197 (F := F) a0 a1 a2 a3 a10 a11 a12 a13 a14 a15 a16))
    (h_main_v170 : V (Proc.devRef .tc main_v170) = (Cert.ReferenceIdeal.Stages.val_main_v170 (F := F) a2 a3))
    (h_main_v159 : V (Proc.devRef .tc main_v159) = (Cert.ReferenceIdeal.Stages.val_main_v159 (F := F) a0 a1 a2 a3 a10 a11 a12 a13 a14 a15 a16))
    (h_main_v158 : V (Proc.devRef .tc main_v158) = (Cert.ReferenceIdeal.Stages.val_main_v158 (F := F) a16))
    (h_main_arg17 : V (Proc.devRef .tc main_arg17) = a17)
    (h_main_v154 : V (Proc.devRef .tc main_v154) = (Cert.ReferenceIdeal.Stages.val_main_v154 (F := F) a0 a1 a2 a3 a10 a11 a12 a13 a14 a15 a16 a17))
    (h_main_arg4 : V (Proc.devRef .tc main_arg4) = a4)
    (h_main_arg15 : V (Proc.devRef .tc main_arg15) = a15)
    (h_main_arg16 : V (Proc.devRef .tc main_arg16) = a16)
    (h_main_v20 : V (Proc.devRef .tc main_v20) = (Cert.ReferenceIdeal.Stages.val_main_v20 (F := F) a0 a1 a10 a11 a12 a13 a14))
    (h_main_arg5 : V (Proc.devRef .tc main_arg5) = a5) :
    after (ops4 (F := F)) V (Proc.devRef .tc main_v220) = (Cert.ReferenceIdeal.Stages.val_main_v220 (F := F) a4) := by
  subst_vars
  simp only [ops4]
  after_results_simp
  try simp only [TRef.ofBuf, TRef.toBuf, cast_eq]
  try simp only [h_main_v25, h_main_v198, h_main_v187, h_main_v197, h_main_v170, h_main_v159, h_main_v158, h_main_v154, h_main_v20]
  all_goals rfl

set_option maxHeartbeats 2000000 in
/-- What main_v222 holds after the window. -/
theorem value4_main_v222 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v198 : V (Proc.devRef .tc main_v198) = (Cert.ReferenceIdeal.Stages.val_main_v198 (F := F)))
    (h_main_v187 : V (Proc.devRef .tc main_v187) = (Cert.ReferenceIdeal.Stages.val_main_v187 (F := F)))
    (h_main_v197 : V (Proc.devRef .tc main_v197) = (Cert.ReferenceIdeal.Stages.val_main_v197 (F := F) a0 a1 a2 a3 a10 a11 a12 a13 a14 a15 a16))
    (h_main_v170 : V (Proc.devRef .tc main_v170) = (Cert.ReferenceIdeal.Stages.val_main_v170 (F := F) a2 a3))
    (h_main_v159 : V (Proc.devRef .tc main_v159) = (Cert.ReferenceIdeal.Stages.val_main_v159 (F := F) a0 a1 a2 a3 a10 a11 a12 a13 a14 a15 a16))
    (h_main_v158 : V (Proc.devRef .tc main_v158) = (Cert.ReferenceIdeal.Stages.val_main_v158 (F := F) a16))
    (h_main_arg17 : V (Proc.devRef .tc main_arg17) = a17)
    (h_main_v154 : V (Proc.devRef .tc main_v154) = (Cert.ReferenceIdeal.Stages.val_main_v154 (F := F) a0 a1 a2 a3 a10 a11 a12 a13 a14 a15 a16 a17))
    (h_main_arg4 : V (Proc.devRef .tc main_arg4) = a4)
    (h_main_arg15 : V (Proc.devRef .tc main_arg15) = a15)
    (h_main_arg16 : V (Proc.devRef .tc main_arg16) = a16)
    (h_main_v20 : V (Proc.devRef .tc main_v20) = (Cert.ReferenceIdeal.Stages.val_main_v20 (F := F) a0 a1 a10 a11 a12 a13 a14))
    (h_main_arg5 : V (Proc.devRef .tc main_arg5) = a5) :
    after (ops4 (F := F)) V (Proc.devRef .tc main_v222) = (Cert.ReferenceIdeal.Stages.val_main_v222 (F := F) a4) := by
  subst_vars
  simp only [ops4]
  after_results_simp
  try simp only [TRef.ofBuf, TRef.toBuf, cast_eq]
  try simp only [h_main_v25, h_main_v198, h_main_v187, h_main_v197, h_main_v170, h_main_v159, h_main_v158, h_main_v154, h_main_v20]
  all_goals rfl

set_option maxHeartbeats 2000000 in
/-- What main_v223 holds after the window. -/
theorem value4_main_v223 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v198 : V (Proc.devRef .tc main_v198) = (Cert.ReferenceIdeal.Stages.val_main_v198 (F := F)))
    (h_main_v187 : V (Proc.devRef .tc main_v187) = (Cert.ReferenceIdeal.Stages.val_main_v187 (F := F)))
    (h_main_v197 : V (Proc.devRef .tc main_v197) = (Cert.ReferenceIdeal.Stages.val_main_v197 (F := F) a0 a1 a2 a3 a10 a11 a12 a13 a14 a15 a16))
    (h_main_v170 : V (Proc.devRef .tc main_v170) = (Cert.ReferenceIdeal.Stages.val_main_v170 (F := F) a2 a3))
    (h_main_v159 : V (Proc.devRef .tc main_v159) = (Cert.ReferenceIdeal.Stages.val_main_v159 (F := F) a0 a1 a2 a3 a10 a11 a12 a13 a14 a15 a16))
    (h_main_v158 : V (Proc.devRef .tc main_v158) = (Cert.ReferenceIdeal.Stages.val_main_v158 (F := F) a16))
    (h_main_arg17 : V (Proc.devRef .tc main_arg17) = a17)
    (h_main_v154 : V (Proc.devRef .tc main_v154) = (Cert.ReferenceIdeal.Stages.val_main_v154 (F := F) a0 a1 a2 a3 a10 a11 a12 a13 a14 a15 a16 a17))
    (h_main_arg4 : V (Proc.devRef .tc main_arg4) = a4)
    (h_main_arg15 : V (Proc.devRef .tc main_arg15) = a15)
    (h_main_arg16 : V (Proc.devRef .tc main_arg16) = a16)
    (h_main_v20 : V (Proc.devRef .tc main_v20) = (Cert.ReferenceIdeal.Stages.val_main_v20 (F := F) a0 a1 a10 a11 a12 a13 a14))
    (h_main_arg5 : V (Proc.devRef .tc main_arg5) = a5) :
    after (ops4 (F := F)) V (Proc.devRef .tc main_v223) = (Cert.ReferenceIdeal.Stages.val_main_v223 (F := F)) := by
  subst_vars
  simp only [ops4]
  after_results_simp
  try simp only [TRef.ofBuf, TRef.toBuf, cast_eq]
  try simp only [h_main_v25, h_main_v198, h_main_v187, h_main_v197, h_main_v170, h_main_v159, h_main_v158, h_main_v154, h_main_v20]
  all_goals rfl

set_option maxHeartbeats 2000000 in
/-- What main_v227 holds after the window. -/
theorem value4_main_v227 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v198 : V (Proc.devRef .tc main_v198) = (Cert.ReferenceIdeal.Stages.val_main_v198 (F := F)))
    (h_main_v187 : V (Proc.devRef .tc main_v187) = (Cert.ReferenceIdeal.Stages.val_main_v187 (F := F)))
    (h_main_v197 : V (Proc.devRef .tc main_v197) = (Cert.ReferenceIdeal.Stages.val_main_v197 (F := F) a0 a1 a2 a3 a10 a11 a12 a13 a14 a15 a16))
    (h_main_v170 : V (Proc.devRef .tc main_v170) = (Cert.ReferenceIdeal.Stages.val_main_v170 (F := F) a2 a3))
    (h_main_v159 : V (Proc.devRef .tc main_v159) = (Cert.ReferenceIdeal.Stages.val_main_v159 (F := F) a0 a1 a2 a3 a10 a11 a12 a13 a14 a15 a16))
    (h_main_v158 : V (Proc.devRef .tc main_v158) = (Cert.ReferenceIdeal.Stages.val_main_v158 (F := F) a16))
    (h_main_arg17 : V (Proc.devRef .tc main_arg17) = a17)
    (h_main_v154 : V (Proc.devRef .tc main_v154) = (Cert.ReferenceIdeal.Stages.val_main_v154 (F := F) a0 a1 a2 a3 a10 a11 a12 a13 a14 a15 a16 a17))
    (h_main_arg4 : V (Proc.devRef .tc main_arg4) = a4)
    (h_main_arg15 : V (Proc.devRef .tc main_arg15) = a15)
    (h_main_arg16 : V (Proc.devRef .tc main_arg16) = a16)
    (h_main_v20 : V (Proc.devRef .tc main_v20) = (Cert.ReferenceIdeal.Stages.val_main_v20 (F := F) a0 a1 a10 a11 a12 a13 a14))
    (h_main_arg5 : V (Proc.devRef .tc main_arg5) = a5) :
    after (ops4 (F := F)) V (Proc.devRef .tc main_v227) = (Cert.ReferenceIdeal.Stages.val_main_v227 (F := F) a16) := by
  subst_vars
  simp only [ops4]
  after_results_simp
  try simp only [TRef.ofBuf, TRef.toBuf, cast_eq]
  try simp only [h_main_v25, h_main_v198, h_main_v187, h_main_v197, h_main_v170, h_main_v159, h_main_v158, h_main_v154, h_main_v20]
  all_goals rfl

set_option maxHeartbeats 2000000 in
/-- What main_v228 holds after the window. -/
theorem value4_main_v228 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v198 : V (Proc.devRef .tc main_v198) = (Cert.ReferenceIdeal.Stages.val_main_v198 (F := F)))
    (h_main_v187 : V (Proc.devRef .tc main_v187) = (Cert.ReferenceIdeal.Stages.val_main_v187 (F := F)))
    (h_main_v197 : V (Proc.devRef .tc main_v197) = (Cert.ReferenceIdeal.Stages.val_main_v197 (F := F) a0 a1 a2 a3 a10 a11 a12 a13 a14 a15 a16))
    (h_main_v170 : V (Proc.devRef .tc main_v170) = (Cert.ReferenceIdeal.Stages.val_main_v170 (F := F) a2 a3))
    (h_main_v159 : V (Proc.devRef .tc main_v159) = (Cert.ReferenceIdeal.Stages.val_main_v159 (F := F) a0 a1 a2 a3 a10 a11 a12 a13 a14 a15 a16))
    (h_main_v158 : V (Proc.devRef .tc main_v158) = (Cert.ReferenceIdeal.Stages.val_main_v158 (F := F) a16))
    (h_main_arg17 : V (Proc.devRef .tc main_arg17) = a17)
    (h_main_v154 : V (Proc.devRef .tc main_v154) = (Cert.ReferenceIdeal.Stages.val_main_v154 (F := F) a0 a1 a2 a3 a10 a11 a12 a13 a14 a15 a16 a17))
    (h_main_arg4 : V (Proc.devRef .tc main_arg4) = a4)
    (h_main_arg15 : V (Proc.devRef .tc main_arg15) = a15)
    (h_main_arg16 : V (Proc.devRef .tc main_arg16) = a16)
    (h_main_v20 : V (Proc.devRef .tc main_v20) = (Cert.ReferenceIdeal.Stages.val_main_v20 (F := F) a0 a1 a10 a11 a12 a13 a14))
    (h_main_arg5 : V (Proc.devRef .tc main_arg5) = a5) :
    after (ops4 (F := F)) V (Proc.devRef .tc main_v228) = (Cert.ReferenceIdeal.Stages.val_main_v228 (F := F) a0 a1 a10 a11 a12 a13 a14 a15) := by
  subst_vars
  simp only [ops4]
  after_results_simp
  try simp only [TRef.ofBuf, TRef.toBuf, cast_eq]
  try simp only [h_main_v25, h_main_v198, h_main_v187, h_main_v197, h_main_v170, h_main_v159, h_main_v158, h_main_v154, h_main_v20]
  all_goals rfl

set_option maxHeartbeats 2000000 in
/-- What main_v239 holds after the window. -/
theorem value4_main_v239 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v198 : V (Proc.devRef .tc main_v198) = (Cert.ReferenceIdeal.Stages.val_main_v198 (F := F)))
    (h_main_v187 : V (Proc.devRef .tc main_v187) = (Cert.ReferenceIdeal.Stages.val_main_v187 (F := F)))
    (h_main_v197 : V (Proc.devRef .tc main_v197) = (Cert.ReferenceIdeal.Stages.val_main_v197 (F := F) a0 a1 a2 a3 a10 a11 a12 a13 a14 a15 a16))
    (h_main_v170 : V (Proc.devRef .tc main_v170) = (Cert.ReferenceIdeal.Stages.val_main_v170 (F := F) a2 a3))
    (h_main_v159 : V (Proc.devRef .tc main_v159) = (Cert.ReferenceIdeal.Stages.val_main_v159 (F := F) a0 a1 a2 a3 a10 a11 a12 a13 a14 a15 a16))
    (h_main_v158 : V (Proc.devRef .tc main_v158) = (Cert.ReferenceIdeal.Stages.val_main_v158 (F := F) a16))
    (h_main_arg17 : V (Proc.devRef .tc main_arg17) = a17)
    (h_main_v154 : V (Proc.devRef .tc main_v154) = (Cert.ReferenceIdeal.Stages.val_main_v154 (F := F) a0 a1 a2 a3 a10 a11 a12 a13 a14 a15 a16 a17))
    (h_main_arg4 : V (Proc.devRef .tc main_arg4) = a4)
    (h_main_arg15 : V (Proc.devRef .tc main_arg15) = a15)
    (h_main_arg16 : V (Proc.devRef .tc main_arg16) = a16)
    (h_main_v20 : V (Proc.devRef .tc main_v20) = (Cert.ReferenceIdeal.Stages.val_main_v20 (F := F) a0 a1 a10 a11 a12 a13 a14))
    (h_main_arg5 : V (Proc.devRef .tc main_arg5) = a5) :
    after (ops4 (F := F)) V (Proc.devRef .tc main_v239) = (Cert.ReferenceIdeal.Stages.val_main_v239 (F := F) a4 a5) := by
  subst_vars
  simp only [ops4]
  after_results_simp
  try simp only [TRef.ofBuf, TRef.toBuf, cast_eq]
  try simp only [h_main_v25, h_main_v198, h_main_v187, h_main_v197, h_main_v170, h_main_v159, h_main_v158, h_main_v154, h_main_v20]
  all_goals rfl

set_option maxHeartbeats 2000000 in
/-- What main_v247 holds after the window. -/
theorem value4_main_v247 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v198 : V (Proc.devRef .tc main_v198) = (Cert.ReferenceIdeal.Stages.val_main_v198 (F := F)))
    (h_main_v187 : V (Proc.devRef .tc main_v187) = (Cert.ReferenceIdeal.Stages.val_main_v187 (F := F)))
    (h_main_v197 : V (Proc.devRef .tc main_v197) = (Cert.ReferenceIdeal.Stages.val_main_v197 (F := F) a0 a1 a2 a3 a10 a11 a12 a13 a14 a15 a16))
    (h_main_v170 : V (Proc.devRef .tc main_v170) = (Cert.ReferenceIdeal.Stages.val_main_v170 (F := F) a2 a3))
    (h_main_v159 : V (Proc.devRef .tc main_v159) = (Cert.ReferenceIdeal.Stages.val_main_v159 (F := F) a0 a1 a2 a3 a10 a11 a12 a13 a14 a15 a16))
    (h_main_v158 : V (Proc.devRef .tc main_v158) = (Cert.ReferenceIdeal.Stages.val_main_v158 (F := F) a16))
    (h_main_arg17 : V (Proc.devRef .tc main_arg17) = a17)
    (h_main_v154 : V (Proc.devRef .tc main_v154) = (Cert.ReferenceIdeal.Stages.val_main_v154 (F := F) a0 a1 a2 a3 a10 a11 a12 a13 a14 a15 a16 a17))
    (h_main_arg4 : V (Proc.devRef .tc main_arg4) = a4)
    (h_main_arg15 : V (Proc.devRef .tc main_arg15) = a15)
    (h_main_arg16 : V (Proc.devRef .tc main_arg16) = a16)
    (h_main_v20 : V (Proc.devRef .tc main_v20) = (Cert.ReferenceIdeal.Stages.val_main_v20 (F := F) a0 a1 a10 a11 a12 a13 a14))
    (h_main_arg5 : V (Proc.devRef .tc main_arg5) = a5) :
    after (ops4 (F := F)) V (Proc.devRef .tc main_v247) = (Cert.ReferenceIdeal.Stages.val_main_v247 (F := F) a4 a5) := by
  subst_vars
  simp only [ops4]
  after_results_simp
  try simp only [TRef.ofBuf, TRef.toBuf, cast_eq]
  try simp only [h_main_v25, h_main_v198, h_main_v187, h_main_v197, h_main_v170, h_main_v159, h_main_v158, h_main_v154, h_main_v20]
  all_goals rfl

set_option maxHeartbeats 2000000 in
/-- What main_v249 holds after the window. -/
theorem value4_main_v249 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v25 : V (Proc.devRef .tc main_v25) = (Cert.ReferenceIdeal.Stages.val_main_v25 (F := F) a2))
    (h_main_v198 : V (Proc.devRef .tc main_v198) = (Cert.ReferenceIdeal.Stages.val_main_v198 (F := F)))
    (h_main_v187 : V (Proc.devRef .tc main_v187) = (Cert.ReferenceIdeal.Stages.val_main_v187 (F := F)))
    (h_main_v197 : V (Proc.devRef .tc main_v197) = (Cert.ReferenceIdeal.Stages.val_main_v197 (F := F) a0 a1 a2 a3 a10 a11 a12 a13 a14 a15 a16))
    (h_main_v170 : V (Proc.devRef .tc main_v170) = (Cert.ReferenceIdeal.Stages.val_main_v170 (F := F) a2 a3))
    (h_main_v159 : V (Proc.devRef .tc main_v159) = (Cert.ReferenceIdeal.Stages.val_main_v159 (F := F) a0 a1 a2 a3 a10 a11 a12 a13 a14 a15 a16))
    (h_main_v158 : V (Proc.devRef .tc main_v158) = (Cert.ReferenceIdeal.Stages.val_main_v158 (F := F) a16))
    (h_main_arg17 : V (Proc.devRef .tc main_arg17) = a17)
    (h_main_v154 : V (Proc.devRef .tc main_v154) = (Cert.ReferenceIdeal.Stages.val_main_v154 (F := F) a0 a1 a2 a3 a10 a11 a12 a13 a14 a15 a16 a17))
    (h_main_arg4 : V (Proc.devRef .tc main_arg4) = a4)
    (h_main_arg15 : V (Proc.devRef .tc main_arg15) = a15)
    (h_main_arg16 : V (Proc.devRef .tc main_arg16) = a16)
    (h_main_v20 : V (Proc.devRef .tc main_v20) = (Cert.ReferenceIdeal.Stages.val_main_v20 (F := F) a0 a1 a10 a11 a12 a13 a14))
    (h_main_arg5 : V (Proc.devRef .tc main_arg5) = a5) :
    after (ops4 (F := F)) V (Proc.devRef .tc main_v249) = (Cert.ReferenceIdeal.Stages.val_main_v249 (F := F) a4) := by
  subst_vars
  simp only [ops4]
  after_results_simp
  try simp only [TRef.ofBuf, TRef.toBuf, cast_eq]
  try simp only [h_main_v25, h_main_v198, h_main_v187, h_main_v197, h_main_v170, h_main_v159, h_main_v158, h_main_v154, h_main_v20]
  all_goals rfl

end Cert.ReferenceIdeal.Window

end
-- ==== Proof.RWin5.lean ====
/-
  The reference program's window number 5 (operations 301 to 360 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops5 : List (HloOp τ sig (Elt F)) :=
  [ nullary main_c_48 (constantI S_ 32 100000#32),
    unary main_c_48 main_v250 (broadcastInDim S400000 ![] bcast_S_S400000 : (⟨S_, .i32⟩ : BufTy).Contents (Elt F) → (⟨S400000, .i32⟩ : BufTy).Contents (Elt F)),
    binary main_v222 main_v250 main_v251 (addi : (⟨S400000, .i32⟩ : BufTy).Contents (Elt F) → (⟨S400000, .i32⟩ : BufTy).Contents (Elt F) → (⟨S400000, .i32⟩ : BufTy).Contents (Elt F)),
    ternary main_v249 main_v251 main_v222 main_v252 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v252 main_v253 (broadcastInDim S400000x1 ![0] bcast_S400000_S400000x1_0 : (⟨S400000, .i32⟩ : BufTy).Contents (Elt F) → (⟨S400000x1, .i32⟩ : BufTy).Contents (Elt F)),
    binary main_v239 main_v253 main_v254 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    binary main_v247 main_v254 main_v255 (mulf : (⟨S400000, .f32⟩ : BufTy).Contents (Elt F) → (⟨S400000, .f32⟩ : BufTy).Contents (Elt F) → (⟨S400000, .f32⟩ : BufTy).Contents (Elt F)),
    nullary main_cst_49 (constant S_ .f32 0x00000000#32),
    unary main_cst_49 main_v256 (broadcastInDim S100000x64 ![] bcast_S_S100000x64 : (⟨S_, .f32⟩ : BufTy).Contents (Elt F) → (⟨S100000x64, .f32⟩ : BufTy).Contents (Elt F)),
    unary main_v255 main_v257 (broadcastInDim S400000x1 ![0] bcast_S400000_S400000x1_0 : (⟨S400000, .f32⟩ : BufTy).Contents (Elt F) → (⟨S400000x1, .f32⟩ : BufTy).Contents (Elt F)),
    nullary main_c_50 (constantI S_ 32 0#32),
    unary main_c_50 main_v258 (broadcastInDim S400000 ![] bcast_S_S400000 : (⟨S_, .i32⟩ : BufTy).Contents (Elt F) → (⟨S400000, .i32⟩ : BufTy).Contents (Elt F)),
    binary main_v220 main_v258 main_v259 (cmpi .slt : (⟨S400000, .i32⟩ : BufTy).Contents (Elt F) → (⟨S400000, .i32⟩ : BufTy).Contents (Elt F) → (⟨S400000, .i1⟩ : BufTy).Contents (Elt F)),
    nullary main_c_51 (constantI S_ 32 100000#32),
    unary main_c_51 main_v260 (broadcastInDim S400000 ![] bcast_S_S400000 : (⟨S_, .i32⟩ : BufTy).Contents (Elt F) → (⟨S400000, .i32⟩ : BufTy).Contents (Elt F)),
    binary main_v220 main_v260 main_v261 (addi : (⟨S400000, .i32⟩ : BufTy).Contents (Elt F) → (⟨S400000, .i32⟩ : BufTy).Contents (Elt F) → (⟨S400000, .i32⟩ : BufTy).Contents (Elt F)),
    ternary main_v259 main_v261 main_v220 main_v262 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v262 main_v263 (broadcastInDim S400000x1 ![0] bcast_S400000_S400000x1_0 : (⟨S400000, .i32⟩ : BufTy).Contents (Elt F) → (⟨S400000x1, .i32⟩ : BufTy).Contents (Elt F)),
    binary main_v228 main_v263 main_v264 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    unary main_v257 main_v265 (broadcastInDim S400000x64 ![0, 1] bcast_S400000x1_S400000x64_0_1 : (⟨S400000x1, .f32⟩ : BufTy).Contents (Elt F) → (⟨S400000x64, .f32⟩ : BufTy).Contents (Elt F)),
    binary main_v265 main_v264 main_v266 (mulf : (⟨S400000x64, .f32⟩ : BufTy).Contents (Elt F) → (⟨S400000x64, .f32⟩ : BufTy).Contents (Elt F) → (⟨S400000x64, .f32⟩ : BufTy).Contents (Elt F)),
    nullary main_c_52 (constantI S_ 32 0#32),
    unary main_c_52 main_v267 (broadcastInDim S400000 ![] bcast_S_S400000 : (⟨S_, .i32⟩ : BufTy).Contents (Elt F) → (⟨S400000, .i32⟩ : BufTy).Contents (Elt F)),
    binary main_v222 main_v267 main_v268 (cmpi .slt : (⟨S400000, .i32⟩ : BufTy).Contents (Elt F) → (⟨S400000, .i32⟩ : BufTy).Contents (Elt F) → (⟨S400000, .i1⟩ : BufTy).Contents (Elt F)),
    nullary main_c_53 (constantI S_ 32 100000#32),
    unary main_c_53 main_v269 (broadcastInDim S400000 ![] bcast_S_S400000 : (⟨S_, .i32⟩ : BufTy).Contents (Elt F) → (⟨S400000, .i32⟩ : BufTy).Contents (Elt F)),
    binary main_v222 main_v269 main_v270 (addi : (⟨S400000, .i32⟩ : BufTy).Contents (Elt F) → (⟨S400000, .i32⟩ : BufTy).Contents (Elt F) → (⟨S400000, .i32⟩ : BufTy).Contents (Elt F)),
    ternary main_v268 main_v270 main_v222 main_v271 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v271 main_v272 (broadcastInDim S400000x1 ![0] bcast_S400000_S400000x1_0 : (⟨S400000, .i32⟩ : BufTy).Contents (Elt F) → (⟨S400000x1, .i32⟩ : BufTy).Contents (Elt F)),
    ternary main_v256 main_v272 main_v266 main_v273 ((fun x i u => Host.scatterAdd scatter_S100000x64_S400000x1_S400000x64_1_0_0_1 x i u) : (⟨S100000x64, .f32⟩ : BufTy).Contents (Elt F) → (⟨S400000x1, .i32⟩ : BufTy).Contents (Elt F) → (⟨S400000x64, .f32⟩ : BufTy).Contents (Elt F) → (⟨S100000x64, .f32⟩ : BufTy).Contents (Elt F)),
    binary main_v239 main_v239 main_v274 (mulf : (⟨S100000, .f32⟩ : BufTy).Contents (Elt F) → (⟨S100000, .f32⟩ : BufTy).Contents (Elt F) → (⟨S100000, .f32⟩ : BufTy).Contents (Elt F)),
    unary main_v274 main_v275 (broadcastInDim S100000x1 ![0] bcast_S100000_S100000x1_0 : (⟨S100000, .f32⟩ : BufTy).Contents (Elt F) → (⟨S100000x1, .f32⟩ : BufTy).Contents (Elt F)),
    unary main_v275 main_v276 (broadcastInDim S100000x64 ![0, 1] bcast_S100000x1_S100000x64_0_1 : (⟨S100000x1, .f32⟩ : BufTy).Contents (Elt F) → (⟨S100000x64, .f32⟩ : BufTy).Contents (Elt F)),
    binary main_v228 main_v276 main_v277 (mulf : (⟨S100000x64, .f32⟩ : BufTy).Contents (Elt F) → (⟨S100000x64, .f32⟩ : BufTy).Contents (Elt F) → (⟨S100000x64, .f32⟩ : BufTy).Contents (Elt F)),
    binary main_v273 main_v277 main_v278 (addf : (⟨S100000x64, .f32⟩ : BufTy).Contents (Elt F) → (⟨S100000x64, .f32⟩ : BufTy).Contents (Elt F) → (⟨S100000x64, .f32⟩ : BufTy).Contents (Elt F)),
    unary main_v227 main_v279 (broadcastInDim S1x64 ![1] bcast_S64_S1x64_1 : (⟨S64, .f32⟩ : BufTy).Contents (Elt F) → (⟨S1x64, .f32⟩ : BufTy).Contents (Elt F)),
    unary main_v279 main_v280 (broadcastInDim S100000x64 ![0, 1] bcast_S1x64_S100000x64_0_1 : (⟨S1x64, .f32⟩ : BufTy).Contents (Elt F) → (⟨S100000x64, .f32⟩ : BufTy).Contents (Elt F)),
    binary main_v278 main_v280 main_v281 (addf : (⟨S100000x64, .f32⟩ : BufTy).Contents (Elt F) → (⟨S100000x64, .f32⟩ : BufTy).Contents (Elt F) → (⟨S100000x64, .f32⟩ : BufTy).Contents (Elt F)),
    unary main_v281 main_v282 (Host.tanh : (⟨S100000x64, .f32⟩ : BufTy).Contents (Elt F) → (⟨S100000x64, .f32⟩ : BufTy).Contents (Elt F)),
    unary main_arg17 main_v283 ((extractStridedSlice S1x1 ![1, 0] · slices_S3x3_S1x1_1_0) : (⟨S3x3, .f32⟩ : BufTy).Contents (Elt F) → (⟨S1x1, .f32⟩ : BufTy).Contents (Elt F)),
    reshape main_v283 main_v284 rfl shapeCasts_S1x1_S_,
    unary main_v284 main_v285 (broadcastInDim S100000x64 ![] bcast_S_S100000x64 : (⟨S_, .f32⟩ : BufTy).Contents (Elt F) → (⟨S100000x64, .f32⟩ : BufTy).Contents (Elt F)),
    binary main_v285 main_v282 main_v286 (mulf : (⟨S100000x64, .f32⟩ : BufTy).Contents (Elt F) → (⟨S100000x64, .f32⟩ : BufTy).Contents (Elt F) → (⟨S100000x64, .f32⟩ : BufTy).Contents (Elt F)),
    binary main_v223 main_v286 main_v287 (addf : (⟨S100000x64, .f32⟩ : BufTy).Contents (Elt F) → (⟨S100000x64, .f32⟩ : BufTy).Contents (Elt F) → (⟨S100000x64, .f32⟩ : BufTy).Contents (Elt F)),
    unary main_arg15 main_v288 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v288 main_v289 rfl shapeCasts_S1x64x64_S64x64,
    unary main_arg16 main_v290 ((extractStridedSlice S1x64 ![1, 0] · slices_S3x64_S1x64_1_0) : (⟨S3x64, .f32⟩ : BufTy).Contents (Elt F) → (⟨S1x64, .f32⟩ : BufTy).Contents (Elt F)),
    reshape main_v290 main_v291 rfl shapeCasts_S1x64_S64,
    binary main_v282 main_v289 main_v292 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_54 (constant S_ .f32 0x00000000#32),
    unary main_cst_54 main_v293 (broadcastInDim S100000 ![] bcast_S_S100000 : (⟨S_, .f32⟩ : BufTy).Contents (Elt F) → (⟨S100000, .f32⟩ : BufTy).Contents (Elt F)),
    nullary main_c_55 (constantI S_ 32 0#32),
    unary main_c_55 main_v294 (broadcastInDim S400000 ![] bcast_S_S400000 : (⟨S_, .i32⟩ : BufTy).Contents (Elt F) → (⟨S400000, .i32⟩ : BufTy).Contents (Elt F)),
    binary main_v222 main_v294 main_v295 (cmpi .slt : (⟨S400000, .i32⟩ : BufTy).Contents (Elt F) → (⟨S400000, .i32⟩ : BufTy).Contents (Elt F) → (⟨S400000, .i1⟩ : BufTy).Contents (Elt F)),
    nullary main_c_56 (constantI S_ 32 100000#32),
    unary main_c_56 main_v296 (broadcastInDim S400000 ![] bcast_S_S400000 : (⟨S_, .i32⟩ : BufTy).Contents (Elt F) → (⟨S400000, .i32⟩ : BufTy).Contents (Elt F)),
    binary main_v222 main_v296 main_v297 (addi : (⟨S400000, .i32⟩ : BufTy).Contents (Elt F) → (⟨S400000, .i32⟩ : BufTy).Contents (Elt F) → (⟨S400000, .i32⟩ : BufTy).Contents (Elt F)),
    ternary main_v295 main_v297 main_v222 main_v298 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v298 main_v299 (broadcastInDim S400000x1 ![0] bcast_S400000_S400000x1_0 : (⟨S400000, .i32⟩ : BufTy).Contents (Elt F) → (⟨S400000x1, .i32⟩ : BufTy).Contents (Elt F)),
    ternary main_v293 main_v299 main_arg5 main_v300 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)) ]

theorem part5_eq (c : Dev nD) : main_part5 (F := F) c = seq ops5 := rfl

theorem ops5_sub : (ops5 : List (HloOp τ sig (Elt F))).Forall fun op => op.bufs ⊆ tcRefs τ sig :=
  ⟨nullary_bufs_sub .., unary_bufs_sub .., binary_bufs_sub .., ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., unary_bufs_sub .., reshape_bufs_sub .., unary_bufs_sub .., binary_bufs_sub .., binary_bufs_sub .., unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

theorem ops5_fresh : (ops5 : List (HloOp τ sig (Elt F))).Forall fun op => op.fresh = ∅ := by
  simp only [List.Forall]; repeat' constructor

/-- The buffers the window writes. -/
abbrev written5 : List (Ref sig .tc) := [main_c_48, main_v250, main_v251, main_v252, main_v253, main_v254, main_v255, main_cst_49, main_v256, main_v257, main_c_50, main_v258, main_v259, main_c_51, main_v260, main_v261, main_v262, main_v263, main_v264, main_v265, main_v266, main_c_52, main_v267, main_v268, main_c_53, main_v269, main_v270, main_v271, main_v272, main_v273, main_v274, main_v275, main_v276, main_v277, main_v278, main_v279, main_v280, main_v281, main_v282, main_v283, main_v284, main_v285, main_v286, main_v287, main_v288, main_v289, main_v290, main_v291, main_v292, main_cst_54, main_v293, main_c_55, main_v294, main_v295, main_c_56, main_v296, main_v297, main_v298, main_v299, main_v300]

theorem writes5 : (ops5 : List (HloOp τ sig (Elt F))).Forall fun op => op.writes ⊆ ((written5).map (Proc.devRef (τ := τ) .tc)).toFinset := by
  simp only [ops5, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep5 (V : Valuation τ sig (Elt F)) (r : Ref sig .tc) (h : r ∉ written5) :
    after (ops5 (F := F)) V (Proc.devRef .tc r) = V (Proc.devRef .tc r) :=
  after_of_writes_sub (ops5 (F := F)) V writes5 h

set_option maxHeartbeats 2000000 in
/-- What main_v287 holds after the window. -/
theorem value5_main_v287 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v249 : V (Proc.devRef .tc main_v249) = (Cert.ReferenceIdeal.Stages.val_main_v249 (F := F) a4))
    (h_main_v239 : V (Proc.devRef .tc main_v239) = (Cert.ReferenceIdeal.Stages.val_main_v239 (F := F) a4 a5))
    (h_main_v247 : V (Proc.devRef .tc main_v247) = (Cert.ReferenceIdeal.Stages.val_main_v247 (F := F) a4 a5))
    (h_main_v220 : V (Proc.devRef .tc main_v220) = (Cert.ReferenceIdeal.Stages.val_main_v220 (F := F) a4))
    (h_main_v228 : V (Proc.devRef .tc main_v228) = (Cert.ReferenceIdeal.Stages.val_main_v228 (F := F) a0 a1 a10 a11 a12 a13 a14 a15))
    (h_main_v227 : V (Proc.devRef .tc main_v227) = (Cert.ReferenceIdeal.Stages.val_main_v227 (F := F) a16))
    (h_main_arg17 : V (Proc.devRef .tc main_arg17) = a17)
    (h_main_v223 : V (Proc.devRef .tc main_v223) = (Cert.ReferenceIdeal.Stages.val_main_v223 (F := F)))
    (h_main_arg15 : V (Proc.devRef .tc main_arg15) = a15)
    (h_main_arg16 : V (Proc.devRef .tc main_arg16) = a16)
    (h_main_arg5 : V (Proc.devRef .tc main_arg5) = a5) :
    after (ops5 (F := F)) V (Proc.devRef .tc main_v287) = (Cert.ReferenceIdeal.Stages.val_main_v287 (F := F) a0 a1 a4 a5 a10 a11 a12 a13 a14 a15 a16 a17) := by
  subst_vars
  simp only [ops5]
  after_results_simp
  try simp only [TRef.ofBuf, TRef.toBuf, cast_eq]
  try simp only [h_main_v222, h_main_v249, h_main_v239, h_main_v247, h_main_v220, h_main_v228, h_main_v227, h_main_v223]
  all_goals rfl

set_option maxHeartbeats 2000000 in
/-- What main_v291 holds after the window. -/
theorem value5_main_v291 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v249 : V (Proc.devRef .tc main_v249) = (Cert.ReferenceIdeal.Stages.val_main_v249 (F := F) a4))
    (h_main_v239 : V (Proc.devRef .tc main_v239) = (Cert.ReferenceIdeal.Stages.val_main_v239 (F := F) a4 a5))
    (h_main_v247 : V (Proc.devRef .tc main_v247) = (Cert.ReferenceIdeal.Stages.val_main_v247 (F := F) a4 a5))
    (h_main_v220 : V (Proc.devRef .tc main_v220) = (Cert.ReferenceIdeal.Stages.val_main_v220 (F := F) a4))
    (h_main_v228 : V (Proc.devRef .tc main_v228) = (Cert.ReferenceIdeal.Stages.val_main_v228 (F := F) a0 a1 a10 a11 a12 a13 a14 a15))
    (h_main_v227 : V (Proc.devRef .tc main_v227) = (Cert.ReferenceIdeal.Stages.val_main_v227 (F := F) a16))
    (h_main_arg17 : V (Proc.devRef .tc main_arg17) = a17)
    (h_main_v223 : V (Proc.devRef .tc main_v223) = (Cert.ReferenceIdeal.Stages.val_main_v223 (F := F)))
    (h_main_arg15 : V (Proc.devRef .tc main_arg15) = a15)
    (h_main_arg16 : V (Proc.devRef .tc main_arg16) = a16)
    (h_main_arg5 : V (Proc.devRef .tc main_arg5) = a5) :
    after (ops5 (F := F)) V (Proc.devRef .tc main_v291) = (Cert.ReferenceIdeal.Stages.val_main_v291 (F := F) a16) := by
  subst_vars
  simp only [ops5]
  after_results_simp
  try simp only [TRef.ofBuf, TRef.toBuf, cast_eq]
  try simp only [h_main_v222, h_main_v249, h_main_v239, h_main_v247, h_main_v220, h_main_v228, h_main_v227, h_main_v223]
  all_goals rfl

set_option maxHeartbeats 2000000 in
/-- What main_v292 holds after the window. -/
theorem value5_main_v292 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v249 : V (Proc.devRef .tc main_v249) = (Cert.ReferenceIdeal.Stages.val_main_v249 (F := F) a4))
    (h_main_v239 : V (Proc.devRef .tc main_v239) = (Cert.ReferenceIdeal.Stages.val_main_v239 (F := F) a4 a5))
    (h_main_v247 : V (Proc.devRef .tc main_v247) = (Cert.ReferenceIdeal.Stages.val_main_v247 (F := F) a4 a5))
    (h_main_v220 : V (Proc.devRef .tc main_v220) = (Cert.ReferenceIdeal.Stages.val_main_v220 (F := F) a4))
    (h_main_v228 : V (Proc.devRef .tc main_v228) = (Cert.ReferenceIdeal.Stages.val_main_v228 (F := F) a0 a1 a10 a11 a12 a13 a14 a15))
    (h_main_v227 : V (Proc.devRef .tc main_v227) = (Cert.ReferenceIdeal.Stages.val_main_v227 (F := F) a16))
    (h_main_arg17 : V (Proc.devRef .tc main_arg17) = a17)
    (h_main_v223 : V (Proc.devRef .tc main_v223) = (Cert.ReferenceIdeal.Stages.val_main_v223 (F := F)))
    (h_main_arg15 : V (Proc.devRef .tc main_arg15) = a15)
    (h_main_arg16 : V (Proc.devRef .tc main_arg16) = a16)
    (h_main_arg5 : V (Proc.devRef .tc main_arg5) = a5) :
    after (ops5 (F := F)) V (Proc.devRef .tc main_v292) = (Cert.ReferenceIdeal.Stages.val_main_v292 (F := F) a0 a1 a4 a5 a10 a11 a12 a13 a14 a15 a16) := by
  subst_vars
  simp only [ops5]
  after_results_simp
  try simp only [TRef.ofBuf, TRef.toBuf, cast_eq]
  try simp only [h_main_v222, h_main_v249, h_main_v239, h_main_v247, h_main_v220, h_main_v228, h_main_v227, h_main_v223]
  all_goals rfl

set_option maxHeartbeats 2000000 in
/-- What main_v300 holds after the window. -/
theorem value5_main_v300 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v249 : V (Proc.devRef .tc main_v249) = (Cert.ReferenceIdeal.Stages.val_main_v249 (F := F) a4))
    (h_main_v239 : V (Proc.devRef .tc main_v239) = (Cert.ReferenceIdeal.Stages.val_main_v239 (F := F) a4 a5))
    (h_main_v247 : V (Proc.devRef .tc main_v247) = (Cert.ReferenceIdeal.Stages.val_main_v247 (F := F) a4 a5))
    (h_main_v220 : V (Proc.devRef .tc main_v220) = (Cert.ReferenceIdeal.Stages.val_main_v220 (F := F) a4))
    (h_main_v228 : V (Proc.devRef .tc main_v228) = (Cert.ReferenceIdeal.Stages.val_main_v228 (F := F) a0 a1 a10 a11 a12 a13 a14 a15))
    (h_main_v227 : V (Proc.devRef .tc main_v227) = (Cert.ReferenceIdeal.Stages.val_main_v227 (F := F) a16))
    (h_main_arg17 : V (Proc.devRef .tc main_arg17) = a17)
    (h_main_v223 : V (Proc.devRef .tc main_v223) = (Cert.ReferenceIdeal.Stages.val_main_v223 (F := F)))
    (h_main_arg15 : V (Proc.devRef .tc main_arg15) = a15)
    (h_main_arg16 : V (Proc.devRef .tc main_arg16) = a16)
    (h_main_arg5 : V (Proc.devRef .tc main_arg5) = a5) :
    after (ops5 (F := F)) V (Proc.devRef .tc main_v300) = (Cert.ReferenceIdeal.Stages.val_main_v300 (F := F) a4 a5) := by
  subst_vars
  simp only [ops5]
  after_results_simp
  try simp only [TRef.ofBuf, TRef.toBuf, cast_eq]
  try simp only [h_main_v222, h_main_v249, h_main_v239, h_main_v247, h_main_v220, h_main_v228, h_main_v227, h_main_v223]
  all_goals rfl

end Cert.ReferenceIdeal.Window

end
-- ==== Proof.RWin6.lean ====
/-
  The reference program's window number 6 (operations 361 to 420 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops6 : List (HloOp τ sig (Elt F)) :=
  [ nullary main_cst_57 (constant S_ .f32 0x3F800000#32),
    unary main_cst_57 main_v301 (broadcastInDim S100000 ![] bcast_S_S100000 : (⟨S_, .f32⟩ : BufTy).Contents (Elt F) → (⟨S100000, .f32⟩ : BufTy).Contents (Elt F)),
    binary main_v300 main_v301 main_v302 (addf : (⟨S100000, .f32⟩ : BufTy).Contents (Elt F) → (⟨S100000, .f32⟩ : BufTy).Contents (Elt F) → (⟨S100000, .f32⟩ : BufTy).Contents (Elt F)),
    unary main_v302 main_v303 (Host.rsqrt : (⟨S100000, .f32⟩ : BufTy).Contents (Elt F) → (⟨S100000, .f32⟩ : BufTy).Contents (Elt F)),
    nullary main_c_58 (constantI S_ 32 0#32),
    unary main_c_58 main_v304 (broadcastInDim S400000 ![] bcast_S_S400000 : (⟨S_, .i32⟩ : BufTy).Contents (Elt F) → (⟨S400000, .i32⟩ : BufTy).Contents (Elt F)),
    binary main_v220 main_v304 main_v305 (cmpi .slt : (⟨S400000, .i32⟩ : BufTy).Contents (Elt F) → (⟨S400000, .i32⟩ : BufTy).Contents (Elt F) → (⟨S400000, .i1⟩ : BufTy).Contents (Elt F)),
    nullary main_c_59 (constantI S_ 32 100000#32),
    unary main_c_59 main_v306 (broadcastInDim S400000 ![] bcast_S_S400000 : (⟨S_, .i32⟩ : BufTy).Contents (Elt F) → (⟨S400000, .i32⟩ : BufTy).Contents (Elt F)),
    binary main_v220 main_v306 main_v307 (addi : (⟨S400000, .i32⟩ : BufTy).Contents (Elt F) → (⟨S400000, .i32⟩ : BufTy).Contents (Elt F) → (⟨S400000, .i32⟩ : BufTy).Contents (Elt F)),
    ternary main_v305 main_v307 main_v220 main_v308 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v308 main_v309 (broadcastInDim S400000x1 ![0] bcast_S400000_S400000x1_0 : (⟨S400000, .i32⟩ : BufTy).Contents (Elt F) → (⟨S400000x1, .i32⟩ : BufTy).Contents (Elt F)),
    binary main_v303 main_v309 main_v310 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    binary main_v310 main_arg5 main_v311 (mulf : (⟨S400000, .f32⟩ : BufTy).Contents (Elt F) → (⟨S400000, .f32⟩ : BufTy).Contents (Elt F) → (⟨S400000, .f32⟩ : BufTy).Contents (Elt F)),
    nullary main_c_60 (constantI S_ 32 0#32),
    unary main_c_60 main_v312 (broadcastInDim S400000 ![] bcast_S_S400000 : (⟨S_, .i32⟩ : BufTy).Contents (Elt F) → (⟨S400000, .i32⟩ : BufTy).Contents (Elt F)),
    binary main_v222 main_v312 main_v313 (cmpi .slt : (⟨S400000, .i32⟩ : BufTy).Contents (Elt F) → (⟨S400000, .i32⟩ : BufTy).Contents (Elt F) → (⟨S400000, .i1⟩ : BufTy).Contents (Elt F)),
    nullary main_c_61 (constantI S_ 32 100000#32),
    unary main_c_61 main_v314 (broadcastInDim S400000 ![] bcast_S_S400000 : (⟨S_, .i32⟩ : BufTy).Contents (Elt F) → (⟨S400000, .i32⟩ : BufTy).Contents (Elt F)),
    binary main_v222 main_v314 main_v315 (addi : (⟨S400000, .i32⟩ : BufTy).Contents (Elt F) → (⟨S400000, .i32⟩ : BufTy).Contents (Elt F) → (⟨S400000, .i32⟩ : BufTy).Contents (Elt F)),
    ternary main_v313 main_v315 main_v222 main_v316 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v316 main_v317 (broadcastInDim S400000x1 ![0] bcast_S400000_S400000x1_0 : (⟨S400000, .i32⟩ : BufTy).Contents (Elt F) → (⟨S400000x1, .i32⟩ : BufTy).Contents (Elt F)),
    binary main_v303 main_v317 main_v318 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    binary main_v311 main_v318 main_v319 (mulf : (⟨S400000, .f32⟩ : BufTy).Contents (Elt F) → (⟨S400000, .f32⟩ : BufTy).Contents (Elt F) → (⟨S400000, .f32⟩ : BufTy).Contents (Elt F)),
    nullary main_cst_62 (constant S_ .f32 0x00000000#32),
    unary main_cst_62 main_v320 (broadcastInDim S100000x64 ![] bcast_S_S100000x64 : (⟨S_, .f32⟩ : BufTy).Contents (Elt F) → (⟨S100000x64, .f32⟩ : BufTy).Contents (Elt F)),
    unary main_v319 main_v321 (broadcastInDim S400000x1 ![0] bcast_S400000_S400000x1_0 : (⟨S400000, .f32⟩ : BufTy).Contents (Elt F) → (⟨S400000x1, .f32⟩ : BufTy).Contents (Elt F)),
    nullary main_c_63 (constantI S_ 32 0#32),
    unary main_c_63 main_v322 (broadcastInDim S400000 ![] bcast_S_S400000 : (⟨S_, .i32⟩ : BufTy).Contents (Elt F) → (⟨S400000, .i32⟩ : BufTy).Contents (Elt F)),
    binary main_v220 main_v322 main_v323 (cmpi .slt : (⟨S400000, .i32⟩ : BufTy).Contents (Elt F) → (⟨S400000, .i32⟩ : BufTy).Contents (Elt F) → (⟨S400000, .i1⟩ : BufTy).Contents (Elt F)),
    nullary main_c_64 (constantI S_ 32 100000#32),
    unary main_c_64 main_v324 (broadcastInDim S400000 ![] bcast_S_S400000 : (⟨S_, .i32⟩ : BufTy).Contents (Elt F) → (⟨S400000, .i32⟩ : BufTy).Contents (Elt F)),
    binary main_v220 main_v324 main_v325 (addi : (⟨S400000, .i32⟩ : BufTy).Contents (Elt F) → (⟨S400000, .i32⟩ : BufTy).Contents (Elt F) → (⟨S400000, .i32⟩ : BufTy).Contents (Elt F)),
    ternary main_v323 main_v325 main_v220 main_v326 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v326 main_v327 (broadcastInDim S400000x1 ![0] bcast_S400000_S400000x1_0 : (⟨S400000, .i32⟩ : BufTy).Contents (Elt F) → (⟨S400000x1, .i32⟩ : BufTy).Contents (Elt F)),
    binary main_v292 main_v327 main_v328 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    unary main_v321 main_v329 (broadcastInDim S400000x64 ![0, 1] bcast_S400000x1_S400000x64_0_1 : (⟨S400000x1, .f32⟩ : BufTy).Contents (Elt F) → (⟨S400000x64, .f32⟩ : BufTy).Contents (Elt F)),
    binary main_v329 main_v328 main_v330 (mulf : (⟨S400000x64, .f32⟩ : BufTy).Contents (Elt F) → (⟨S400000x64, .f32⟩ : BufTy).Contents (Elt F) → (⟨S400000x64, .f32⟩ : BufTy).Contents (Elt F)),
    nullary main_c_65 (constantI S_ 32 0#32),
    unary main_c_65 main_v331 (broadcastInDim S400000 ![] bcast_S_S400000 : (⟨S_, .i32⟩ : BufTy).Contents (Elt F) → (⟨S400000, .i32⟩ : BufTy).Contents (Elt F)),
    binary main_v222 main_v331 main_v332 (cmpi .slt : (⟨S400000, .i32⟩ : BufTy).Contents (Elt F) → (⟨S400000, .i32⟩ : BufTy).Contents (Elt F) → (⟨S400000, .i1⟩ : BufTy).Contents (Elt F)),
    nullary main_c_66 (constantI S_ 32 100000#32),
    unary main_c_66 main_v333 (broadcastInDim S400000 ![] bcast_S_S400000 : (⟨S_, .i32⟩ : BufTy).Contents (Elt F) → (⟨S400000, .i32⟩ : BufTy).Contents (Elt F)),
    binary main_v222 main_v333 main_v334 (addi : (⟨S400000, .i32⟩ : BufTy).Contents (Elt F) → (⟨S400000, .i32⟩ : BufTy).Contents (Elt F) → (⟨S400000, .i32⟩ : BufTy).Contents (Elt F)),
    ternary main_v332 main_v334 main_v222 main_v335 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v335 main_v336 (broadcastInDim S400000x1 ![0] bcast_S400000_S400000x1_0 : (⟨S400000, .i32⟩ : BufTy).Contents (Elt F) → (⟨S400000x1, .i32⟩ : BufTy).Contents (Elt F)),
    ternary main_v320 main_v336 main_v330 main_v337 ((fun x i u => Host.scatterAdd scatter_S100000x64_S400000x1_S400000x64_1_0_0_1 x i u) : (⟨S100000x64, .f32⟩ : BufTy).Contents (Elt F) → (⟨S400000x1, .i32⟩ : BufTy).Contents (Elt F) → (⟨S400000x64, .f32⟩ : BufTy).Contents (Elt F) → (⟨S100000x64, .f32⟩ : BufTy).Contents (Elt F)),
    binary main_v303 main_v303 main_v338 (mulf : (⟨S100000, .f32⟩ : BufTy).Contents (Elt F) → (⟨S100000, .f32⟩ : BufTy).Contents (Elt F) → (⟨S100000, .f32⟩ : BufTy).Contents (Elt F)),
    unary main_v338 main_v339 (broadcastInDim S100000x1 ![0] bcast_S100000_S100000x1_0 : (⟨S100000, .f32⟩ : BufTy).Contents (Elt F) → (⟨S100000x1, .f32⟩ : BufTy).Contents (Elt F)),
    unary main_v339 main_v340 (broadcastInDim S100000x64 ![0, 1] bcast_S100000x1_S100000x64_0_1 : (⟨S100000x1, .f32⟩ : BufTy).Contents (Elt F) → (⟨S100000x64, .f32⟩ : BufTy).Contents (Elt F)),
    binary main_v292 main_v340 main_v341 (mulf : (⟨S100000x64, .f32⟩ : BufTy).Contents (Elt F) → (⟨S100000x64, .f32⟩ : BufTy).Contents (Elt F) → (⟨S100000x64, .f32⟩ : BufTy).Contents (Elt F)),
    binary main_v337 main_v341 main_v342 (addf : (⟨S100000x64, .f32⟩ : BufTy).Contents (Elt F) → (⟨S100000x64, .f32⟩ : BufTy).Contents (Elt F) → (⟨S100000x64, .f32⟩ : BufTy).Contents (Elt F)),
    unary main_v291 main_v343 (broadcastInDim S1x64 ![1] bcast_S64_S1x64_1 : (⟨S64, .f32⟩ : BufTy).Contents (Elt F) → (⟨S1x64, .f32⟩ : BufTy).Contents (Elt F)),
    unary main_v343 main_v344 (broadcastInDim S100000x64 ![0, 1] bcast_S1x64_S100000x64_0_1 : (⟨S1x64, .f32⟩ : BufTy).Contents (Elt F) → (⟨S100000x64, .f32⟩ : BufTy).Contents (Elt F)),
    binary main_v342 main_v344 main_v345 (addf : (⟨S100000x64, .f32⟩ : BufTy).Contents (Elt F) → (⟨S100000x64, .f32⟩ : BufTy).Contents (Elt F) → (⟨S100000x64, .f32⟩ : BufTy).Contents (Elt F)),
    unary main_v345 main_v346 (Host.tanh : (⟨S100000x64, .f32⟩ : BufTy).Contents (Elt F) → (⟨S100000x64, .f32⟩ : BufTy).Contents (Elt F)),
    unary main_arg17 main_v347 ((extractStridedSlice S1x1 ![1, 1] · slices_S3x3_S1x1_1_1) : (⟨S3x3, .f32⟩ : BufTy).Contents (Elt F) → (⟨S1x1, .f32⟩ : BufTy).Contents (Elt F)),
    reshape main_v347 main_v348 rfl shapeCasts_S1x1_S_,
    unary main_v348 main_v349 (broadcastInDim S100000x64 ![] bcast_S_S100000x64 : (⟨S_, .f32⟩ : BufTy).Contents (Elt F) → (⟨S100000x64, .f32⟩ : BufTy).Contents (Elt F)),
    binary main_v349 main_v346 main_v350 (mulf : (⟨S100000x64, .f32⟩ : BufTy).Contents (Elt F) → (⟨S100000x64, .f32⟩ : BufTy).Contents (Elt F) → (⟨S100000x64, .f32⟩ : BufTy).Contents (Elt F)) ]

theorem part6_eq (c : Dev nD) : main_part6 (F := F) c = seq ops6 := rfl

theorem ops6_sub : (ops6 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., unary_bufs_sub .., reshape_bufs_sub .., unary_bufs_sub .., binary_bufs_sub ..⟩

theorem ops6_fresh : (ops6 : List (HloOp τ sig (Elt F))).Forall fun op => op.fresh = ∅ := by
  simp only [List.Forall]; repeat' constructor

/-- The buffers the window writes. -/
abbrev written6 : List (Ref sig .tc) := [main_cst_57, main_v301, main_v302, main_v303, main_c_58, main_v304, main_v305, main_c_59, main_v306, main_v307, main_v308, main_v309, main_v310, main_v311, main_c_60, main_v312, main_v313, main_c_61, main_v314, main_v315, main_v316, main_v317, main_v318, main_v319, main_cst_62, main_v320, main_v321, main_c_63, main_v322, main_v323, main_c_64, main_v324, main_v325, main_v326, main_v327, main_v328, main_v329, main_v330, main_c_65, main_v331, main_v332, main_c_66, main_v333, main_v334, main_v335, main_v336, main_v337, main_v338, main_v339, main_v340, main_v341, main_v342, main_v343, main_v344, main_v345, main_v346, main_v347, main_v348, main_v349, main_v350]

theorem writes6 : (ops6 : List (HloOp τ sig (Elt F))).Forall fun op => op.writes ⊆ ((written6).map (Proc.devRef (τ := τ) .tc)).toFinset := by
  simp only [ops6, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep6 (V : Valuation τ sig (Elt F)) (r : Ref sig .tc) (h : r ∉ written6) :
    after (ops6 (F := F)) V (Proc.devRef .tc r) = V (Proc.devRef .tc r) :=
  after_of_writes_sub (ops6 (F := F)) V writes6 h

set_option maxHeartbeats 2000000 in
/-- What main_v346 holds after the window. -/
theorem value6_main_v346 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v300 : V (Proc.devRef .tc main_v300) = (Cert.ReferenceIdeal.Stages.val_main_v300 (F := F) a4 a5))
    (h_main_v220 : V (Proc.devRef .tc main_v220) = (Cert.ReferenceIdeal.Stages.val_main_v220 (F := F) a4))
    (h_main_arg5 : V (Proc.devRef .tc main_arg5) = a5)
    (h_main_v222 : V (Proc.devRef .tc main_v222) = (Cert.ReferenceIdeal.Stages.val_main_v222 (F := F) a4))
    (h_main_v292 : V (Proc.devRef .tc main_v292) = (Cert.ReferenceIdeal.Stages.val_main_v292 (F := F) a0 a1 a4 a5 a10 a11 a12 a13 a14 a15 a16))
    (h_main_v291 : V (Proc.devRef .tc main_v291) = (Cert.ReferenceIdeal.Stages.val_main_v291 (F := F) a16))
    (h_main_arg17 : V (Proc.devRef .tc main_arg17) = a17) :
    after (ops6 (F := F)) V (Proc.devRef .tc main_v346) = (Cert.ReferenceIdeal.Stages.val_main_v346 (F := F) a0 a1 a4 a5 a10 a11 a12 a13 a14 a15 a16) := by
  subst_vars
  simp only [ops6]
  after_results_simp
  try simp only [TRef.ofBuf, TRef.toBuf, cast_eq]
  try simp only [h_main_v300, h_main_v220, h_main_v222, h_main_v292, h_main_v291]
  all_goals rfl

set_option maxHeartbeats 2000000 in
/-- What main_v350 holds after the window. -/
theorem value6_main_v350 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v300 : V (Proc.devRef .tc main_v300) = (Cert.ReferenceIdeal.Stages.val_main_v300 (F := F) a4 a5))
    (h_main_v220 : V (Proc.devRef .tc main_v220) = (Cert.ReferenceIdeal.Stages.val_main_v220 (F := F) a4))
    (h_main_arg5 : V (Proc.devRef .tc main_arg5) = a5)
    (h_main_v222 : V (Proc.devRef .tc main_v222) = (Cert.ReferenceIdeal.Stages.val_main_v222 (F := F) a4))
    (h_main_v292 : V (Proc.devRef .tc main_v292) = (Cert.ReferenceIdeal.Stages.val_main_v292 (F := F) a0 a1 a4 a5 a10 a11 a12 a13 a14 a15 a16))
    (h_main_v291 : V (Proc.devRef .tc main_v291) = (Cert.ReferenceIdeal.Stages.val_main_v291 (F := F) a16))
    (h_main_arg17 : V (Proc.devRef .tc main_arg17) = a17) :
    after (ops6 (F := F)) V (Proc.devRef .tc main_v350) = (Cert.ReferenceIdeal.Stages.val_main_v350 (F := F) a0 a1 a4 a5 a10 a11 a12 a13 a14 a15 a16 a17) := by
  subst_vars
  simp only [ops6]
  after_results_simp
  try simp only [TRef.ofBuf, TRef.toBuf, cast_eq]
  try simp only [h_main_v300, h_main_v220, h_main_v222, h_main_v292, h_main_v291]
  all_goals rfl

end Cert.ReferenceIdeal.Window

end
-- ==== Proof.RWin7.lean ====
/-
  The reference program's window number 7 (operations 421 to 480 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops7 : List (HloOp τ sig (Elt F)) :=
  [ binary main_v287 main_v350 main_v351 (addf : (⟨S100000x64, .f32⟩ : BufTy).Contents (Elt F) → (⟨S100000x64, .f32⟩ : BufTy).Contents (Elt F) → (⟨S100000x64, .f32⟩ : BufTy).Contents (Elt F)),
    unary main_arg15 main_v352 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v352 main_v353 rfl shapeCasts_S1x64x64_S64x64,
    unary main_arg16 main_v354 ((extractStridedSlice S1x64 ![1, 0] · slices_S3x64_S1x64_1_0) : (⟨S3x64, .f32⟩ : BufTy).Contents (Elt F) → (⟨S1x64, .f32⟩ : BufTy).Contents (Elt F)),
    reshape main_v354 main_v355 rfl shapeCasts_S1x64_S64,
    binary main_v346 main_v353 main_v356 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_67 (constant S_ .f32 0x00000000#32),
    unary main_cst_67 main_v357 (broadcastInDim S100000 ![] bcast_S_S100000 : (⟨S_, .f32⟩ : BufTy).Contents (Elt F) → (⟨S100000, .f32⟩ : BufTy).Contents (Elt F)),
    nullary main_c_68 (constantI S_ 32 0#32),
    unary main_c_68 main_v358 (broadcastInDim S400000 ![] bcast_S_S400000 : (⟨S_, .i32⟩ : BufTy).Contents (Elt F) → (⟨S400000, .i32⟩ : BufTy).Contents (Elt F)),
    binary main_v222 main_v358 main_v359 (cmpi .slt : (⟨S400000, .i32⟩ : BufTy).Contents (Elt F) → (⟨S400000, .i32⟩ : BufTy).Contents (Elt F) → (⟨S400000, .i1⟩ : BufTy).Contents (Elt F)),
    nullary main_c_69 (constantI S_ 32 100000#32),
    unary main_c_69 main_v360 (broadcastInDim S400000 ![] bcast_S_S400000 : (⟨S_, .i32⟩ : BufTy).Contents (Elt F) → (⟨S400000, .i32⟩ : BufTy).Contents (Elt F)),
    binary main_v222 main_v360 main_v361 (addi : (⟨S400000, .i32⟩ : BufTy).Contents (Elt F) → (⟨S400000, .i32⟩ : BufTy).Contents (Elt F) → (⟨S400000, .i32⟩ : BufTy).Contents (Elt F)),
    ternary main_v359 main_v361 main_v222 main_v362 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v362 main_v363 (broadcastInDim S400000x1 ![0] bcast_S400000_S400000x1_0 : (⟨S400000, .i32⟩ : BufTy).Contents (Elt F) → (⟨S400000x1, .i32⟩ : BufTy).Contents (Elt F)),
    ternary main_v357 main_v363 main_arg5 main_v364 ((fun x i u => Host.scatterAdd scatter_S100000_S400000x1_S400000_n_0_0_1 x i u) : (⟨S100000, .f32⟩ : BufTy).Contents (Elt F) → (⟨S400000x1, .i32⟩ : BufTy).Contents (Elt F) → (⟨S400000, .f32⟩ : BufTy).Contents (Elt F) → (⟨S100000, .f32⟩ : BufTy).Contents (Elt F)),
    nullary main_cst_70 (constant S_ .f32 0x3F800000#32),
    unary main_cst_70 main_v365 (broadcastInDim S100000 ![] bcast_S_S100000 : (⟨S_, .f32⟩ : BufTy).Contents (Elt F) → (⟨S100000, .f32⟩ : BufTy).Contents (Elt F)),
    binary main_v364 main_v365 main_v366 (addf : (⟨S100000, .f32⟩ : BufTy).Contents (Elt F) → (⟨S100000, .f32⟩ : BufTy).Contents (Elt F) → (⟨S100000, .f32⟩ : BufTy).Contents (Elt F)),
    unary main_v366 main_v367 (Host.rsqrt : (⟨S100000, .f32⟩ : BufTy).Contents (Elt F) → (⟨S100000, .f32⟩ : BufTy).Contents (Elt F)),
    nullary main_c_71 (constantI S_ 32 0#32),
    unary main_c_71 main_v368 (broadcastInDim S400000 ![] bcast_S_S400000 : (⟨S_, .i32⟩ : BufTy).Contents (Elt F) → (⟨S400000, .i32⟩ : BufTy).Contents (Elt F)),
    binary main_v220 main_v368 main_v369 (cmpi .slt : (⟨S400000, .i32⟩ : BufTy).Contents (Elt F) → (⟨S400000, .i32⟩ : BufTy).Contents (Elt F) → (⟨S400000, .i1⟩ : BufTy).Contents (Elt F)),
    nullary main_c_72 (constantI S_ 32 100000#32),
    unary main_c_72 main_v370 (broadcastInDim S400000 ![] bcast_S_S400000 : (⟨S_, .i32⟩ : BufTy).Contents (Elt F) → (⟨S400000, .i32⟩ : BufTy).Contents (Elt F)),
    binary main_v220 main_v370 main_v371 (addi : (⟨S400000, .i32⟩ : BufTy).Contents (Elt F) → (⟨S400000, .i32⟩ : BufTy).Contents (Elt F) → (⟨S400000, .i32⟩ : BufTy).Contents (Elt F)),
    ternary main_v369 main_v371 main_v220 main_v372 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v372 main_v373 (broadcastInDim S400000x1 ![0] bcast_S400000_S400000x1_0 : (⟨S400000, .i32⟩ : BufTy).Contents (Elt F) → (⟨S400000x1, .i32⟩ : BufTy).Contents (Elt F)),
    binary main_v367 main_v373 main_v374 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    binary main_v374 main_arg5 main_v375 (mulf : (⟨S400000, .f32⟩ : BufTy).Contents (Elt F) → (⟨S400000, .f32⟩ : BufTy).Contents (Elt F) → (⟨S400000, .f32⟩ : BufTy).Contents (Elt F)),
    nullary main_c_73 (constantI S_ 32 0#32),
    unary main_c_73 main_v376 (broadcastInDim S400000 ![] bcast_S_S400000 : (⟨S_, .i32⟩ : BufTy).Contents (Elt F) → (⟨S400000, .i32⟩ : BufTy).Contents (Elt F)),
    binary main_v222 main_v376 main_v377 (cmpi .slt : (⟨S400000, .i32⟩ : BufTy).Contents (Elt F) → (⟨S400000, .i32⟩ : BufTy).Contents (Elt F) → (⟨S400000, .i1⟩ : BufTy).Contents (Elt F)),
    nullary main_c_74 (constantI S_ 32 100000#32),
    unary main_c_74 main_v378 (broadcastInDim S400000 ![] bcast_S_S400000 : (⟨S_, .i32⟩ : BufTy).Contents (Elt F) → (⟨S400000, .i32⟩ : BufTy).Contents (Elt F)),
    binary main_v222 main_v378 main_v379 (addi : (⟨S400000, .i32⟩ : BufTy).Contents (Elt F) → (⟨S400000, .i32⟩ : BufTy).Contents (Elt F) → (⟨S400000, .i32⟩ : BufTy).Contents (Elt F)),
    ternary main_v377 main_v379 main_v222 main_v380 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v380 main_v381 (broadcastInDim S400000x1 ![0] bcast_S400000_S400000x1_0 : (⟨S400000, .i32⟩ : BufTy).Contents (Elt F) → (⟨S400000x1, .i32⟩ : BufTy).Contents (Elt F)),
    binary main_v367 main_v381 main_v382 ((fun x i => Host.gather gather_S100000_S400000x1_S400000_n_0_n_n_0_1_1 x i) : (⟨S100000, .f32⟩ : BufTy).Contents (Elt F) → (⟨S400000x1, .i32⟩ : BufTy).Contents (Elt F) → (⟨S400000, .f32⟩ : BufTy).Contents (Elt F)),
    binary main_v375 main_v382 main_v383 (mulf : (⟨S400000, .f32⟩ : BufTy).Contents (Elt F) → (⟨S400000, .f32⟩ : BufTy).Contents (Elt F) → (⟨S400000, .f32⟩ : BufTy).Contents (Elt F)),
    nullary main_cst_75 (constant S_ .f32 0x00000000#32),
    unary main_cst_75 main_v384 (broadcastInDim S100000x64 ![] bcast_S_S100000x64 : (⟨S_, .f32⟩ : BufTy).Contents (Elt F) → (⟨S100000x64, .f32⟩ : BufTy).Contents (Elt F)),
    unary main_v383 main_v385 (broadcastInDim S400000x1 ![0] bcast_S400000_S400000x1_0 : (⟨S400000, .f32⟩ : BufTy).Contents (Elt F) → (⟨S400000x1, .f32⟩ : BufTy).Contents (Elt F)),
    nullary main_c_76 (constantI S_ 32 0#32),
    unary main_c_76 main_v386 (broadcastInDim S400000 ![] bcast_S_S400000 : (⟨S_, .i32⟩ : BufTy).Contents (Elt F) → (⟨S400000, .i32⟩ : BufTy).Contents (Elt F)),
    binary main_v220 main_v386 main_v387 (cmpi .slt : (⟨S400000, .i32⟩ : BufTy).Contents (Elt F) → (⟨S400000, .i32⟩ : BufTy).Contents (Elt F) → (⟨S400000, .i1⟩ : BufTy).Contents (Elt F)),
    nullary main_c_77 (constantI S_ 32 100000#32),
    unary main_c_77 main_v388 (broadcastInDim S400000 ![] bcast_S_S400000 : (⟨S_, .i32⟩ : BufTy).Contents (Elt F) → (⟨S400000, .i32⟩ : BufTy).Contents (Elt F)),
    binary main_v220 main_v388 main_v389 (addi : (⟨S400000, .i32⟩ : BufTy).Contents (Elt F) → (⟨S400000, .i32⟩ : BufTy).Contents (Elt F) → (⟨S400000, .i32⟩ : BufTy).Contents (Elt F)),
    ternary main_v387 main_v389 main_v220 main_v390 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v390 main_v391 (broadcastInDim S400000x1 ![0] bcast_S400000_S400000x1_0 : (⟨S400000, .i32⟩ : BufTy).Contents (Elt F) → (⟨S400000x1, .i32⟩ : BufTy).Contents (Elt F)),
    binary main_v356 main_v391 main_v392 ((fun x i => Host.gather gather_S100000x64_S400000x1_S400000x64_1_0_n_n_0_1_164 x i) : (⟨S100000x64, .f32⟩ : BufTy).Contents (Elt F) → (⟨S400000x1, .i32⟩ : BufTy).Contents (Elt F) → (⟨S400000x64, .f32⟩ : BufTy).Contents (Elt F)),
    unary main_v385 main_v393 (broadcastInDim S400000x64 ![0, 1] bcast_S400000x1_S400000x64_0_1 : (⟨S400000x1, .f32⟩ : BufTy).Contents (Elt F) → (⟨S400000x64, .f32⟩ : BufTy).Contents (Elt F)),
    binary main_v393 main_v392 main_v394 (mulf : (⟨S400000x64, .f32⟩ : BufTy).Contents (Elt F) → (⟨S400000x64, .f32⟩ : BufTy).Contents (Elt F) → (⟨S400000x64, .f32⟩ : BufTy).Contents (Elt F)),
    nullary main_c_78 (constantI S_ 32 0#32),
    unary main_c_78 main_v395 (broadcastInDim S400000 ![] bcast_S_S400000 : (⟨S_, .i32⟩ : BufTy).Contents (Elt F) → (⟨S400000, .i32⟩ : BufTy).Contents (Elt F)),
    binary main_v222 main_v395 main_v396 (cmpi .slt : (⟨S400000, .i32⟩ : BufTy).Contents (Elt F) → (⟨S400000, .i32⟩ : BufTy).Contents (Elt F) → (⟨S400000, .i1⟩ : BufTy).Contents (Elt F)),
    nullary main_c_79 (constantI S_ 32 100000#32),
    unary main_c_79 main_v397 (broadcastInDim S400000 ![] bcast_S_S400000 : (⟨S_, .i32⟩ : BufTy).Contents (Elt F) → (⟨S400000, .i32⟩ : BufTy).Contents (Elt F)) ]

theorem part7_eq (c : Dev nD) : main_part7 (F := F) c = seq ops7 := rfl

theorem ops7_sub : (ops7 : List (HloOp τ sig (Elt F))).Forall fun op => op.bufs ⊆ tcRefs τ sig :=
  ⟨binary_bufs_sub .., unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub ..⟩

theorem ops7_fresh : (ops7 : List (HloOp τ sig (Elt F))).Forall fun op => op.fresh = ∅ := by
  simp only [List.Forall]; repeat' constructor

/-- The buffers the window writes. -/
abbrev written7 : List (Ref sig .tc) := [main_v351, main_v352, main_v353, main_v354, main_v355, main_v356, main_cst_67, main_v357, main_c_68, main_v358, main_v359, main_c_69, main_v360, main_v361, main_v362, main_v363, main_v364, main_cst_70, main_v365, main_v366, main_v367, main_c_71, main_v368, main_v369, main_c_72, main_v370, main_v371, main_v372, main_v373, main_v374, main_v375, main_c_73, main_v376, main_v377, main_c_74, main_v378, main_v379, main_v380, main_v381, main_v382, main_v383, main_cst_75, main_v384, main_v385, main_c_76, main_v386, main_v387, main_c_77, main_v388, main_v389, main_v390, main_v391, main_v392, main_v393, main_v394, main_c_78, main_v395, main_v396, main_c_79, main_v397]

theorem writes7 : (ops7 : List (HloOp τ sig (Elt F))).Forall fun op => op.writes ⊆ ((written7).map (Proc.devRef (τ := τ) .tc)).toFinset := by
  simp only [ops7, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep7 (V : Valuation τ sig (Elt F)) (r : Ref sig .tc) (h : r ∉ written7) :
    after (ops7 (F := F)) V (Proc.devRef .tc r) = V (Proc.devRef .tc r) :=
  after_of_writes_sub (ops7 (F := F)) V writes7 h

set_option maxHeartbeats 2000000 in
/-- What main_v351 holds after the window. -/
theorem value7_main_v351 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v287 : V (Proc.devRef .tc main_v287) = (Cert.ReferenceIdeal.Stages.val_main_v287 (F := F) a0 a1 a4 a5 a10 a11 a12 a13 a14 a15 a16 a17))
    (h_main_v350 : V (Proc.devRef .tc main_v350) = (Cert.ReferenceIdeal.Stages.val_main_v350 (F := F) a0 a1 a4 a5 a10 a11 a12 a13 a14 a15 a16 a17))
    (h_main_arg15 : V (Proc.devRef .tc main_arg15) = a15)
    (h_main_arg16 : V (Proc.devRef .tc main_arg16) = a16)
    (h_main_v346 : V (Proc.devRef .tc main_v346) = (Cert.ReferenceIdeal.Stages.val_main_v346 (F := F) a0 a1 a4 a5 a10 a11 a12 a13 a14 a15 a16))
    (h_main_v222 : V (Proc.devRef .tc main_v222) = (Cert.ReferenceIdeal.Stages.val_main_v222 (F := F) a4))
    (h_main_arg5 : V (Proc.devRef .tc main_arg5) = a5)
    (h_main_v220 : V (Proc.devRef .tc main_v220) = (Cert.ReferenceIdeal.Stages.val_main_v220 (F := F) a4)) :
    after (ops7 (F := F)) V (Proc.devRef .tc main_v351) = (Cert.ReferenceIdeal.Stages.val_main_v351 (F := F) a0 a1 a4 a5 a10 a11 a12 a13 a14 a15 a16 a17) := by
  subst_vars
  simp only [ops7]
  after_results_simp
  try simp only [TRef.ofBuf, TRef.toBuf, cast_eq]
  try simp only [h_main_v287, h_main_v350, h_main_v346, h_main_v222, h_main_v220]
  all_goals rfl

set_option maxHeartbeats 2000000 in
/-- What main_v355 holds after the window. -/
theorem value7_main_v355 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v287 : V (Proc.devRef .tc main_v287) = (Cert.ReferenceIdeal.Stages.val_main_v287 (F := F) a0 a1 a4 a5 a10 a11 a12 a13 a14 a15 a16 a17))
    (h_main_v350 : V (Proc.devRef .tc main_v350) = (Cert.ReferenceIdeal.Stages.val_main_v350 (F := F) a0 a1 a4 a5 a10 a11 a12 a13 a14 a15 a16 a17))
    (h_main_arg15 : V (Proc.devRef .tc main_arg15) = a15)
    (h_main_arg16 : V (Proc.devRef .tc main_arg16) = a16)
    (h_main_v346 : V (Proc.devRef .tc main_v346) = (Cert.ReferenceIdeal.Stages.val_main_v346 (F := F) a0 a1 a4 a5 a10 a11 a12 a13 a14 a15 a16))
    (h_main_v222 : V (Proc.devRef .tc main_v222) = (Cert.ReferenceIdeal.Stages.val_main_v222 (F := F) a4))
    (h_main_arg5 : V (Proc.devRef .tc main_arg5) = a5)
    (h_main_v220 : V (Proc.devRef .tc main_v220) = (Cert.ReferenceIdeal.Stages.val_main_v220 (F := F) a4)) :
    after (ops7 (F := F)) V (Proc.devRef .tc main_v355) = (Cert.ReferenceIdeal.Stages.val_main_v355 (F := F) a16) := by
  subst_vars
  simp only [ops7]
  after_results_simp
  try simp only [TRef.ofBuf, TRef.toBuf, cast_eq]
  try simp only [h_main_v287, h_main_v350, h_main_v346, h_main_v222, h_main_v220]
  all_goals rfl

set_option maxHeartbeats 2000000 in
/-- What main_v356 holds after the window. -/
theorem value7_main_v356 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v287 : V (Proc.devRef .tc main_v287) = (Cert.ReferenceIdeal.Stages.val_main_v287 (F := F) a0 a1 a4 a5 a10 a11 a12 a13 a14 a15 a16 a17))
    (h_main_v350 : V (Proc.devRef .tc main_v350) = (Cert.ReferenceIdeal.Stages.val_main_v350 (F := F) a0 a1 a4 a5 a10 a11 a12 a13 a14 a15 a16 a17))
    (h_main_arg15 : V (Proc.devRef .tc main_arg15) = a15)
    (h_main_arg16 : V (Proc.devRef .tc main_arg16) = a16)
    (h_main_v346 : V (Proc.devRef .tc main_v346) = (Cert.ReferenceIdeal.Stages.val_main_v346 (F := F) a0 a1 a4 a5 a10 a11 a12 a13 a14 a15 a16))
    (h_main_v222 : V (Proc.devRef .tc main_v222) = (Cert.ReferenceIdeal.Stages.val_main_v222 (F := F) a4))
    (h_main_arg5 : V (Proc.devRef .tc main_arg5) = a5)
    (h_main_v220 : V (Proc.devRef .tc main_v220) = (Cert.ReferenceIdeal.Stages.val_main_v220 (F := F) a4)) :
    after (ops7 (F := F)) V (Proc.devRef .tc main_v356) = (Cert.ReferenceIdeal.Stages.val_main_v356 (F := F) a0 a1 a4 a5 a10 a11 a12 a13 a14 a15 a16) := by
  subst_vars
  simp only [ops7]
  after_results_simp
  try simp only [TRef.ofBuf, TRef.toBuf, cast_eq]
  try simp only [h_main_v287, h_main_v350, h_main_v346, h_main_v222, h_main_v220]
  all_goals rfl

set_option maxHeartbeats 2000000 in
/-- What main_v367 holds after the window. -/
theorem value7_main_v367 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v287 : V (Proc.devRef .tc main_v287) = (Cert.ReferenceIdeal.Stages.val_main_v287 (F := F) a0 a1 a4 a5 a10 a11 a12 a13 a14 a15 a16 a17))
    (h_main_v350 : V (Proc.devRef .tc main_v350) = (Cert.ReferenceIdeal.Stages.val_main_v350 (F := F) a0 a1 a4 a5 a10 a11 a12 a13 a14 a15 a16 a17))
    (h_main_arg15 : V (Proc.devRef .tc main_arg15) = a15)
    (h_main_arg16 : V (Proc.devRef .tc main_arg16) = a16)
    (h_main_v346 : V (Proc.devRef .tc main_v346) = (Cert.ReferenceIdeal.Stages.val_main_v346 (F := F) a0 a1 a4 a5 a10 a11 a12 a13 a14 a15 a16))
    (h_main_v222 : V (Proc.devRef .tc main_v222) = (Cert.ReferenceIdeal.Stages.val_main_v222 (F := F) a4))
    (h_main_arg5 : V (Proc.devRef .tc main_arg5) = a5)
    (h_main_v220 : V (Proc.devRef .tc main_v220) = (Cert.ReferenceIdeal.Stages.val_main_v220 (F := F) a4)) :
    after (ops7 (F := F)) V (Proc.devRef .tc main_v367) = (Cert.ReferenceIdeal.Stages.val_main_v367 (F := F) a4 a5) := by
  subst_vars
  simp only [ops7]
  after_results_simp
  try simp only [TRef.ofBuf, TRef.toBuf, cast_eq]
  try simp only [h_main_v287, h_main_v350, h_main_v346, h_main_v222, h_main_v220]
  all_goals rfl

set_option maxHeartbeats 2000000 in
/-- What main_v384 holds after the window. -/
theorem value7_main_v384 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v287 : V (Proc.devRef .tc main_v287) = (Cert.ReferenceIdeal.Stages.val_main_v287 (F := F) a0 a1 a4 a5 a10 a11 a12 a13 a14 a15 a16 a17))
    (h_main_v350 : V (Proc.devRef .tc main_v350) = (Cert.ReferenceIdeal.Stages.val_main_v350 (F := F) a0 a1 a4 a5 a10 a11 a12 a13 a14 a15 a16 a17))
    (h_main_arg15 : V (Proc.devRef .tc main_arg15) = a15)
    (h_main_arg16 : V (Proc.devRef .tc main_arg16) = a16)
    (h_main_v346 : V (Proc.devRef .tc main_v346) = (Cert.ReferenceIdeal.Stages.val_main_v346 (F := F) a0 a1 a4 a5 a10 a11 a12 a13 a14 a15 a16))
    (h_main_v222 : V (Proc.devRef .tc main_v222) = (Cert.ReferenceIdeal.Stages.val_main_v222 (F := F) a4))
    (h_main_arg5 : V (Proc.devRef .tc main_arg5) = a5)
    (h_main_v220 : V (Proc.devRef .tc main_v220) = (Cert.ReferenceIdeal.Stages.val_main_v220 (F := F) a4)) :
    after (ops7 (F := F)) V (Proc.devRef .tc main_v384) = (Cert.ReferenceIdeal.Stages.val_main_v384 (F := F)) := by
  subst_vars
  simp only [ops7]
  after_results_simp
  try simp only [TRef.ofBuf, TRef.toBuf, cast_eq]
  try simp only [h_main_v287, h_main_v350, h_main_v346, h_main_v222, h_main_v220]
  all_goals rfl

set_option maxHeartbeats 2000000 in
/-- What main_v394 holds after the window. -/
theorem value7_main_v394 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v287 : V (Proc.devRef .tc main_v287) = (Cert.ReferenceIdeal.Stages.val_main_v287 (F := F) a0 a1 a4 a5 a10 a11 a12 a13 a14 a15 a16 a17))
    (h_main_v350 : V (Proc.devRef .tc main_v350) = (Cert.ReferenceIdeal.Stages.val_main_v350 (F := F) a0 a1 a4 a5 a10 a11 a12 a13 a14 a15 a16 a17))
    (h_main_arg15 : V (Proc.devRef .tc main_arg15) = a15)
    (h_main_arg16 : V (Proc.devRef .tc main_arg16) = a16)
    (h_main_v346 : V (Proc.devRef .tc main_v346) = (Cert.ReferenceIdeal.Stages.val_main_v346 (F := F) a0 a1 a4 a5 a10 a11 a12 a13 a14 a15 a16))
    (h_main_v222 : V (Proc.devRef .tc main_v222) = (Cert.ReferenceIdeal.Stages.val_main_v222 (F := F) a4))
    (h_main_arg5 : V (Proc.devRef .tc main_arg5) = a5)
    (h_main_v220 : V (Proc.devRef .tc main_v220) = (Cert.ReferenceIdeal.Stages.val_main_v220 (F := F) a4)) :
    after (ops7 (F := F)) V (Proc.devRef .tc main_v394) = (Cert.ReferenceIdeal.Stages.val_main_v394 (F := F) a0 a1 a4 a5 a10 a11 a12 a13 a14 a15 a16) := by
  subst_vars
  simp only [ops7]
  after_results_simp
  try simp only [TRef.ofBuf, TRef.toBuf, cast_eq]
  try simp only [h_main_v287, h_main_v350, h_main_v346, h_main_v222, h_main_v220]
  all_goals rfl

set_option maxHeartbeats 2000000 in
/-- What main_v396 holds after the window. -/
theorem value7_main_v396 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v287 : V (Proc.devRef .tc main_v287) = (Cert.ReferenceIdeal.Stages.val_main_v287 (F := F) a0 a1 a4 a5 a10 a11 a12 a13 a14 a15 a16 a17))
    (h_main_v350 : V (Proc.devRef .tc main_v350) = (Cert.ReferenceIdeal.Stages.val_main_v350 (F := F) a0 a1 a4 a5 a10 a11 a12 a13 a14 a15 a16 a17))
    (h_main_arg15 : V (Proc.devRef .tc main_arg15) = a15)
    (h_main_arg16 : V (Proc.devRef .tc main_arg16) = a16)
    (h_main_v346 : V (Proc.devRef .tc main_v346) = (Cert.ReferenceIdeal.Stages.val_main_v346 (F := F) a0 a1 a4 a5 a10 a11 a12 a13 a14 a15 a16))
    (h_main_v222 : V (Proc.devRef .tc main_v222) = (Cert.ReferenceIdeal.Stages.val_main_v222 (F := F) a4))
    (h_main_arg5 : V (Proc.devRef .tc main_arg5) = a5)
    (h_main_v220 : V (Proc.devRef .tc main_v220) = (Cert.ReferenceIdeal.Stages.val_main_v220 (F := F) a4)) :
    after (ops7 (F := F)) V (Proc.devRef .tc main_v396) = (Cert.ReferenceIdeal.Stages.val_main_v396 (F := F) a4) := by
  subst_vars
  simp only [ops7]
  after_results_simp
  try simp only [TRef.ofBuf, TRef.toBuf, cast_eq]
  try simp only [h_main_v287, h_main_v350, h_main_v346, h_main_v222, h_main_v220]
  all_goals rfl

set_option maxHeartbeats 2000000 in
/-- What main_v397 holds after the window. -/
theorem value7_main_v397 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v287 : V (Proc.devRef .tc main_v287) = (Cert.ReferenceIdeal.Stages.val_main_v287 (F := F) a0 a1 a4 a5 a10 a11 a12 a13 a14 a15 a16 a17))
    (h_main_v350 : V (Proc.devRef .tc main_v350) = (Cert.ReferenceIdeal.Stages.val_main_v350 (F := F) a0 a1 a4 a5 a10 a11 a12 a13 a14 a15 a16 a17))
    (h_main_arg15 : V (Proc.devRef .tc main_arg15) = a15)
    (h_main_arg16 : V (Proc.devRef .tc main_arg16) = a16)
    (h_main_v346 : V (Proc.devRef .tc main_v346) = (Cert.ReferenceIdeal.Stages.val_main_v346 (F := F) a0 a1 a4 a5 a10 a11 a12 a13 a14 a15 a16))
    (h_main_v222 : V (Proc.devRef .tc main_v222) = (Cert.ReferenceIdeal.Stages.val_main_v222 (F := F) a4))
    (h_main_arg5 : V (Proc.devRef .tc main_arg5) = a5)
    (h_main_v220 : V (Proc.devRef .tc main_v220) = (Cert.ReferenceIdeal.Stages.val_main_v220 (F := F) a4)) :
    after (ops7 (F := F)) V (Proc.devRef .tc main_v397) = (Cert.ReferenceIdeal.Stages.val_main_v397 (F := F)) := by
  subst_vars
  simp only [ops7]
  after_results_simp
  try simp only [TRef.ofBuf, TRef.toBuf, cast_eq]
  try simp only [h_main_v287, h_main_v350, h_main_v346, h_main_v222, h_main_v220]
  all_goals rfl

end Cert.ReferenceIdeal.Window

end
-- ==== Proof.RWin8.lean ====
/-
  The reference program's window number 8 (operations 481 to 540 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops8 : List (HloOp τ sig (Elt F)) :=
  [ binary main_v222 main_v397 main_v398 (addi : (⟨S400000, .i32⟩ : BufTy).Contents (Elt F) → (⟨S400000, .i32⟩ : BufTy).Contents (Elt F) → (⟨S400000, .i32⟩ : BufTy).Contents (Elt F)),
    ternary main_v396 main_v398 main_v222 main_v399 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v399 main_v400 (broadcastInDim S400000x1 ![0] bcast_S400000_S400000x1_0 : (⟨S400000, .i32⟩ : BufTy).Contents (Elt F) → (⟨S400000x1, .i32⟩ : BufTy).Contents (Elt F)),
    ternary main_v384 main_v400 main_v394 main_v401 ((fun x i u => Host.scatterAdd scatter_S100000x64_S400000x1_S400000x64_1_0_0_1 x i u) : (⟨S100000x64, .f32⟩ : BufTy).Contents (Elt F) → (⟨S400000x1, .i32⟩ : BufTy).Contents (Elt F) → (⟨S400000x64, .f32⟩ : BufTy).Contents (Elt F) → (⟨S100000x64, .f32⟩ : BufTy).Contents (Elt F)),
    binary main_v367 main_v367 main_v402 (mulf : (⟨S100000, .f32⟩ : BufTy).Contents (Elt F) → (⟨S100000, .f32⟩ : BufTy).Contents (Elt F) → (⟨S100000, .f32⟩ : BufTy).Contents (Elt F)),
    unary main_v402 main_v403 (broadcastInDim S100000x1 ![0] bcast_S100000_S100000x1_0 : (⟨S100000, .f32⟩ : BufTy).Contents (Elt F) → (⟨S100000x1, .f32⟩ : BufTy).Contents (Elt F)),
    unary main_v403 main_v404 (broadcastInDim S100000x64 ![0, 1] bcast_S100000x1_S100000x64_0_1 : (⟨S100000x1, .f32⟩ : BufTy).Contents (Elt F) → (⟨S100000x64, .f32⟩ : BufTy).Contents (Elt F)),
    binary main_v356 main_v404 main_v405 (mulf : (⟨S100000x64, .f32⟩ : BufTy).Contents (Elt F) → (⟨S100000x64, .f32⟩ : BufTy).Contents (Elt F) → (⟨S100000x64, .f32⟩ : BufTy).Contents (Elt F)),
    binary main_v401 main_v405 main_v406 (addf : (⟨S100000x64, .f32⟩ : BufTy).Contents (Elt F) → (⟨S100000x64, .f32⟩ : BufTy).Contents (Elt F) → (⟨S100000x64, .f32⟩ : BufTy).Contents (Elt F)),
    unary main_v355 main_v407 (broadcastInDim S1x64 ![1] bcast_S64_S1x64_1 : (⟨S64, .f32⟩ : BufTy).Contents (Elt F) → (⟨S1x64, .f32⟩ : BufTy).Contents (Elt F)),
    unary main_v407 main_v408 (broadcastInDim S100000x64 ![0, 1] bcast_S1x64_S100000x64_0_1 : (⟨S1x64, .f32⟩ : BufTy).Contents (Elt F) → (⟨S100000x64, .f32⟩ : BufTy).Contents (Elt F)),
    binary main_v406 main_v408 main_v409 (addf : (⟨S100000x64, .f32⟩ : BufTy).Contents (Elt F) → (⟨S100000x64, .f32⟩ : BufTy).Contents (Elt F) → (⟨S100000x64, .f32⟩ : BufTy).Contents (Elt F)),
    unary main_v409 main_v410 (Host.tanh : (⟨S100000x64, .f32⟩ : BufTy).Contents (Elt F) → (⟨S100000x64, .f32⟩ : BufTy).Contents (Elt F)),
    unary main_arg17 main_v411 ((extractStridedSlice S1x1 ![1, 2] · slices_S3x3_S1x1_1_2) : (⟨S3x3, .f32⟩ : BufTy).Contents (Elt F) → (⟨S1x1, .f32⟩ : BufTy).Contents (Elt F)),
    reshape main_v411 main_v412 rfl shapeCasts_S1x1_S_,
    unary main_v412 main_v413 (broadcastInDim S100000x64 ![] bcast_S_S100000x64 : (⟨S_, .f32⟩ : BufTy).Contents (Elt F) → (⟨S100000x64, .f32⟩ : BufTy).Contents (Elt F)),
    binary main_v413 main_v410 main_v414 (mulf : (⟨S100000x64, .f32⟩ : BufTy).Contents (Elt F) → (⟨S100000x64, .f32⟩ : BufTy).Contents (Elt F) → (⟨S100000x64, .f32⟩ : BufTy).Contents (Elt F)),
    binary main_v351 main_v414 main_v415 (addf : (⟨S100000x64, .f32⟩ : BufTy).Contents (Elt F) → (⟨S100000x64, .f32⟩ : BufTy).Contents (Elt F) → (⟨S100000x64, .f32⟩ : BufTy).Contents (Elt F)),
    unary main_arg6 main_v416 ((extractStridedSlice S1x100000 ![0, 0] · slices_S2x100000_S1x100000_0_0) : (⟨S2x100000, .i32⟩ : BufTy).Contents (Elt F) → (⟨S1x100000, .i32⟩ : BufTy).Contents (Elt F)),
    reshape main_v416 main_v417 rfl shapeCasts_S1x100000_S100000,
    unary main_arg6 main_v418 ((extractStridedSlice S1x100000 ![1, 0] · slices_S2x100000_S1x100000_1_0) : (⟨S2x100000, .i32⟩ : BufTy).Contents (Elt F) → (⟨S1x100000, .i32⟩ : BufTy).Contents (Elt F)),
    reshape main_v418 main_v419 rfl shapeCasts_S1x100000_S100000,
    nullary main_cst_80 (constant S_ .f32 0x00000000#32),
    unary main_cst_80 main_v420 (broadcastInDim S25000x64 ![] bcast_S_S25000x64 : (⟨S_, .f32⟩ : BufTy).Contents (Elt F) → (⟨S25000x64, .f32⟩ : BufTy).Contents (Elt F)),
    unary main_arg15 main_v421 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v421 main_v422 rfl shapeCasts_S1x64x64_S64x64,
    unary main_arg16 main_v423 ((extractStridedSlice S1x64 ![2, 0] · slices_S3x64_S1x64_2_0) : (⟨S3x64, .f32⟩ : BufTy).Contents (Elt F) → (⟨S1x64, .f32⟩ : BufTy).Contents (Elt F)),
    reshape main_v423 main_v424 rfl shapeCasts_S1x64_S64,
    binary main_v21 main_v422 main_v425 ((fun l r => Host.dotGeneral dot_S25000x64_S64x64_S25000x64_1_0_0_1_n_n none l r) : (⟨S25000x64, .f32⟩ : BufTy).Contents (Elt F) → (⟨S64x64, .f32⟩ : BufTy).Contents (Elt F) → (⟨S25000x64, .f32⟩ : BufTy).Contents (Elt F)),
    nullary main_cst_81 (constant S_ .f32 0x00000000#32),
    unary main_cst_81 main_v426 (broadcastInDim S25000 ![] bcast_S_S25000 : (⟨S_, .f32⟩ : BufTy).Contents (Elt F) → (⟨S25000, .f32⟩ : BufTy).Contents (Elt F)),
    nullary main_c_82 (constantI S_ 32 0#32),
    unary main_c_82 main_v427 (broadcastInDim S100000 ![] bcast_S_S100000 : (⟨S_, .i32⟩ : BufTy).Contents (Elt F) → (⟨S100000, .i32⟩ : BufTy).Contents (Elt F)),
    binary main_v419 main_v427 main_v428 (cmpi .slt : (⟨S100000, .i32⟩ : BufTy).Contents (Elt F) → (⟨S100000, .i32⟩ : BufTy).Contents (Elt F) → (⟨S100000, .i1⟩ : BufTy).Contents (Elt F)),
    nullary main_c_83 (constantI S_ 32 25000#32),
    unary main_c_83 main_v429 (broadcastInDim S100000 ![] bcast_S_S100000 : (⟨S_, .i32⟩ : BufTy).Contents (Elt F) → (⟨S100000, .i32⟩ : BufTy).Contents (Elt F)),
    binary main_v419 main_v429 main_v430 (addi : (⟨S100000, .i32⟩ : BufTy).Contents (Elt F) → (⟨S100000, .i32⟩ : BufTy).Contents (Elt F) → (⟨S100000, .i32⟩ : BufTy).Contents (Elt F)),
    ternary main_v428 main_v430 main_v419 main_v431 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v431 main_v432 (broadcastInDim S100000x1 ![0] bcast_S100000_S100000x1_0 : (⟨S100000, .i32⟩ : BufTy).Contents (Elt F) → (⟨S100000x1, .i32⟩ : BufTy).Contents (Elt F)),
    ternary main_v426 main_v432 main_arg7 main_v433 ((fun x i u => Host.scatterAdd scatter_S25000_S100000x1_S100000_n_0_0_1 x i u) : (⟨S25000, .f32⟩ : BufTy).Contents (Elt F) → (⟨S100000x1, .i32⟩ : BufTy).Contents (Elt F) → (⟨S100000, .f32⟩ : BufTy).Contents (Elt F) → (⟨S25000, .f32⟩ : BufTy).Contents (Elt F)),
    nullary main_cst_84 (constant S_ .f32 0x3F800000#32),
    unary main_cst_84 main_v434 (broadcastInDim S25000 ![] bcast_S_S25000 : (⟨S_, .f32⟩ : BufTy).Contents (Elt F) → (⟨S25000, .f32⟩ : BufTy).Contents (Elt F)),
    binary main_v433 main_v434 main_v435 (addf : (⟨S25000, .f32⟩ : BufTy).Contents (Elt F) → (⟨S25000, .f32⟩ : BufTy).Contents (Elt F) → (⟨S25000, .f32⟩ : BufTy).Contents (Elt F)),
    unary main_v435 main_v436 (Host.rsqrt : (⟨S25000, .f32⟩ : BufTy).Contents (Elt F) → (⟨S25000, .f32⟩ : BufTy).Contents (Elt F)),
    nullary main_c_85 (constantI S_ 32 0#32),
    unary main_c_85 main_v437 (broadcastInDim S100000 ![] bcast_S_S100000 : (⟨S_, .i32⟩ : BufTy).Contents (Elt F) → (⟨S100000, .i32⟩ : BufTy).Contents (Elt F)),
    binary main_v417 main_v437 main_v438 (cmpi .slt : (⟨S100000, .i32⟩ : BufTy).Contents (Elt F) → (⟨S100000, .i32⟩ : BufTy).Contents (Elt F) → (⟨S100000, .i1⟩ : BufTy).Contents (Elt F)),
    nullary main_c_86 (constantI S_ 32 25000#32),
    unary main_c_86 main_v439 (broadcastInDim S100000 ![] bcast_S_S100000 : (⟨S_, .i32⟩ : BufTy).Contents (Elt F) → (⟨S100000, .i32⟩ : BufTy).Contents (Elt F)),
    binary main_v417 main_v439 main_v440 (addi : (⟨S100000, .i32⟩ : BufTy).Contents (Elt F) → (⟨S100000, .i32⟩ : BufTy).Contents (Elt F) → (⟨S100000, .i32⟩ : BufTy).Contents (Elt F)),
    ternary main_v438 main_v440 main_v417 main_v441 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v441 main_v442 (broadcastInDim S100000x1 ![0] bcast_S100000_S100000x1_0 : (⟨S100000, .i32⟩ : BufTy).Contents (Elt F) → (⟨S100000x1, .i32⟩ : BufTy).Contents (Elt F)),
    binary main_v436 main_v442 main_v443 ((fun x i => Host.gather gather_S25000_S100000x1_S100000_n_0_n_n_0_1_1 x i) : (⟨S25000, .f32⟩ : BufTy).Contents (Elt F) → (⟨S100000x1, .i32⟩ : BufTy).Contents (Elt F) → (⟨S100000, .f32⟩ : BufTy).Contents (Elt F)),
    binary main_v443 main_arg7 main_v444 (mulf : (⟨S100000, .f32⟩ : BufTy).Contents (Elt F) → (⟨S100000, .f32⟩ : BufTy).Contents (Elt F) → (⟨S100000, .f32⟩ : BufTy).Contents (Elt F)),
    nullary main_c_87 (constantI S_ 32 0#32),
    unary main_c_87 main_v445 (broadcastInDim S100000 ![] bcast_S_S100000 : (⟨S_, .i32⟩ : BufTy).Contents (Elt F) → (⟨S100000, .i32⟩ : BufTy).Contents (Elt F)),
    binary main_v419 main_v445 main_v446 (cmpi .slt : (⟨S100000, .i32⟩ : BufTy).Contents (Elt F) → (⟨S100000, .i32⟩ : BufTy).Contents (Elt F) → (⟨S100000, .i1⟩ : BufTy).Contents (Elt F)),
    nullary main_c_88 (constantI S_ 32 25000#32),
    unary main_c_88 main_v447 (broadcastInDim S100000 ![] bcast_S_S100000 : (⟨S_, .i32⟩ : BufTy).Contents (Elt F) → (⟨S100000, .i32⟩ : BufTy).Contents (Elt F)),
    binary main_v419 main_v447 main_v448 (addi : (⟨S100000, .i32⟩ : BufTy).Contents (Elt F) → (⟨S100000, .i32⟩ : BufTy).Contents (Elt F) → (⟨S100000, .i32⟩ : BufTy).Contents (Elt F)) ]

theorem part8_eq (c : Dev nD) : main_part8 (F := F) c = seq ops8 := rfl

theorem ops8_sub : (ops8 : List (HloOp τ sig (Elt F))).Forall fun op => op.bufs ⊆ tcRefs τ sig :=
  ⟨binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., unary_bufs_sub .., reshape_bufs_sub .., unary_bufs_sub .., binary_bufs_sub .., binary_bufs_sub .., unary_bufs_sub .., reshape_bufs_sub .., unary_bufs_sub .., reshape_bufs_sub .., nullary_bufs_sub .., unary_bufs_sub .., unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub ..⟩

theorem ops8_fresh : (ops8 : List (HloOp τ sig (Elt F))).Forall fun op => op.fresh = ∅ := by
  simp only [List.Forall]; repeat' constructor

/-- The buffers the window writes. -/
abbrev written8 : List (Ref sig .tc) := [main_v398, main_v399, main_v400, main_v401, main_v402, main_v403, main_v404, main_v405, main_v406, main_v407, main_v408, main_v409, main_v410, main_v411, main_v412, main_v413, main_v414, main_v415, main_v416, main_v417, main_v418, main_v419, main_cst_80, main_v420, main_v421, main_v422, main_v423, main_v424, main_v425, main_cst_81, main_v426, main_c_82, main_v427, main_v428, main_c_83, main_v429, main_v430, main_v431, main_v432, main_v433, main_cst_84, main_v434, main_v435, main_v436, main_c_85, main_v437, main_v438, main_c_86, main_v439, main_v440, main_v441, main_v442, main_v443, main_v444, main_c_87, main_v445, main_v446, main_c_88, main_v447, main_v448]

theorem writes8 : (ops8 : List (HloOp τ sig (Elt F))).Forall fun op => op.writes ⊆ ((written8).map (Proc.devRef (τ := τ) .tc)).toFinset := by
  simp only [ops8, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep8 (V : Valuation τ sig (Elt F)) (r : Ref sig .tc) (h : r ∉ written8) :
    after (ops8 (F := F)) V (Proc.devRef .tc r) = V (Proc.devRef .tc r) :=
  after_of_writes_sub (ops8 (F := F)) V writes8 h

set_option maxHeartbeats 2000000 in
/-- What main_v415 holds after the window. -/
theorem value8_main_v415 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v415) = (Cert.ReferenceIdeal.Stages.val_main_v415 (F := F) a0 a1 a4 a5 a10 a11 a12 a13 a14 a15 a16 a17) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

set_option maxHeartbeats 2000000 in
/-- What main_v417 holds after the window. -/
theorem value8_main_v417 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v417) = (Cert.ReferenceIdeal.Stages.val_main_v417 (F := F) a6) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

set_option maxHeartbeats 2000000 in
/-- What main_v419 holds after the window. -/
theorem value8_main_v419 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v419) = (Cert.ReferenceIdeal.Stages.val_main_v419 (F := F) a6) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

set_option maxHeartbeats 2000000 in
/-- What main_v420 holds after the window. -/
theorem value8_main_v420 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v420) = (Cert.ReferenceIdeal.Stages.val_main_v420 (F := F)) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

set_option maxHeartbeats 2000000 in
/-- What main_v424 holds after the window. -/
theorem value8_main_v424 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v424) = (Cert.ReferenceIdeal.Stages.val_main_v424 (F := F) a16) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

set_option maxHeartbeats 2000000 in
/-- What main_v425 holds after the window. -/
theorem value8_main_v425 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v425) = (Cert.ReferenceIdeal.Stages.val_main_v425 (F := F) a0 a1 a10 a11 a12 a13 a14 a15) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

set_option maxHeartbeats 2000000 in
/-- What main_v436 holds after the window. -/
theorem value8_main_v436 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v436) = (Cert.ReferenceIdeal.Stages.val_main_v436 (F := F) a6 a7) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

set_option maxHeartbeats 2000000 in
/-- What main_v444 holds after the window. -/
theorem value8_main_v444 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v444) = (Cert.ReferenceIdeal.Stages.val_main_v444 (F := F) a6 a7) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

set_option maxHeartbeats 2000000 in
/-- What main_v446 holds after the window. -/
theorem value8_main_v446 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v446) = (Cert.ReferenceIdeal.Stages.val_main_v446 (F := F) a6) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

set_option maxHeartbeats 2000000 in
/-- What main_v448 holds after the window. -/
theorem value8_main_v448 (V : Valuation τ sig (Elt F)) (a0 : (⟨S525000x6, .f32⟩ : BufTy).Contents (Elt F)) (a1 : (⟨S525000x10, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v222 : V (Proc.devRef .tc main_v222) = (Cert.ReferenceIdeal.Stages.val_main_v222 (F := F) a4))
    (h_main_v397 : V (Proc.devRef .tc main_v397) = (Cert.ReferenceIdeal.Stages.val_main_v397 (F := F)))
    (h_main_v396 : V (Proc.devRef .tc main_v396) = (Cert.ReferenceIdeal.Stages.val_main_v396 (F := F) a4))
    (h_main_v384 : V (Proc.devRef .tc main_v384) = (Cert.ReferenceIdeal.Stages.val_main_v384 (F := F)))
    (h_main_v394 : V (Proc.devRef .tc main_v394) = (Cert.ReferenceIdeal.Stages.val_main_v394 (F := F) a0 a1 a4 a5 a10 a11 a12 a13 a14 a15 a16))
    (h_main_v367 : V (Proc.devRef .tc main_v367) = (Cert.ReferenceIdeal.Stages.val_main_v367 (F := F) a4 a5))
    (h_main_v356 : V (Proc.devRef .tc main_v356) = (Cert.ReferenceIdeal.Stages.val_main_v356 (F := F) a0 a1 a4 a5 a10 a11 a12 a13 a14 a15 a16))
    (h_main_v355 : V (Proc.devRef .tc main_v355) = (Cert.ReferenceIdeal.Stages.val_main_v355 (F := F) a16))
    (h_main_arg17 : V (Proc.devRef .tc main_arg17) = a17)
    (h_main_v351 : V (Proc.devRef .tc main_v351) = (Cert.ReferenceIdeal.Stages.val_main_v351 (F := F) a0 a1 a4 a5 a10 a11 a12 a13 a14 a15 a16 a17))
    (h_main_arg6 : V (Proc.devRef .tc main_arg6) = a6)
    (h_main_arg15 : V (Proc.devRef .tc main_arg15) = a15)
    (h_main_arg16 : V (Proc.devRef .tc main_arg16) = a16)
    (h_main_v21 : V (Proc.devRef .tc main_v21) = (Cert.ReferenceIdeal.Stages.val_main_v21 (F := F) a0 a1 a10 a11 a12 a13 a14))
    (h_main_arg7 : V (Proc.devRef .tc main_arg7) = a7) :
    after (ops8 (F := F)) V (Proc.devRef .tc main_v448) = (Cert.ReferenceIdeal.Stages.val_main_v448 (F := F) a6) := by
  subst_vars
  simp only [ops8]
  after_results_simp
  try simp only [TRef.ofBuf, TRef.toBuf, cast_eq]
  try simp only [h_main_v222, h_main_v397, h_main_v396, h_main_v384, h_main_v394, h_main_v367, h_main_v356, h_main_v355, h_main_v351, h_main_v21]
  all_goals rfl

end Cert.ReferenceIdeal.Window

end
-- ==== Proof.RWin9.lean ====
/-
  The reference program's window number 9 (operations 541 to 600 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops9 : List (HloOp τ sig (Elt F)) :=
  [ ternary main_v446 main_v448 main_v419 main_v449 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v449 main_v450 (broadcastInDim S100000x1 ![0] bcast_S100000_S100000x1_0 : (⟨S100000, .i32⟩ : BufTy).Contents (Elt F) → (⟨S100000x1, .i32⟩ : BufTy).Contents (Elt F)),
    binary main_v436 main_v450 main_v451 ((fun x i => Host.gather gather_S25000_S100000x1_S100000_n_0_n_n_0_1_1 x i) : (⟨S25000, .f32⟩ : BufTy).Contents (Elt F) → (⟨S100000x1, .i32⟩ : BufTy).Contents (Elt F) → (⟨S100000, .f32⟩ : BufTy).Contents (Elt F)),
    binary main_v444 main_v451 main_v452 (mulf : (⟨S100000, .f32⟩ : BufTy).Contents (Elt F) → (⟨S100000, .f32⟩ : BufTy).Contents (Elt F) → (⟨S100000, .f32⟩ : BufTy).Contents (Elt F)),
    nullary main_cst_89 (constant S_ .f32 0x00000000#32),
    unary main_cst_89 main_v453 (broadcastInDim S25000x64 ![] bcast_S_S25000x64 : (⟨S_, .f32⟩ : BufTy).Contents (Elt F) → (⟨S25000x64, .f32⟩ : BufTy).Contents (Elt F)),
    unary main_v452 main_v454 (broadcastInDim S100000x1 ![0] bcast_S100000_S100000x1_0 : (⟨S100000, .f32⟩ : BufTy).Contents (Elt F) → (⟨S100000x1, .f32⟩ : BufTy).Contents (Elt F)),
    nullary main_c_90 (constantI S_ 32 0#32),
    unary main_c_90 main_v455 (broadcastInDim S100000 ![] bcast_S_S100000 : (⟨S_, .i32⟩ : BufTy).Contents (Elt F) → (⟨S100000, .i32⟩ : BufTy).Contents (Elt F)),
    binary main_v417 main_v455 main_v456 (cmpi .slt : (⟨S100000, .i32⟩ : BufTy).Contents (Elt F) → (⟨S100000, .i32⟩ : BufTy).Contents (Elt F) → (⟨S100000, .i1⟩ : BufTy).Contents (Elt F)),
    nullary main_c_91 (constantI S_ 32 25000#32),
    unary main_c_91 main_v457 (broadcastInDim S100000 ![] bcast_S_S100000 : (⟨S_, .i32⟩ : BufTy).Contents (Elt F) → (⟨S100000, .i32⟩ : BufTy).Contents (Elt F)),
    binary main_v417 main_v457 main_v458 (addi : (⟨S100000, .i32⟩ : BufTy).Contents (Elt F) → (⟨S100000, .i32⟩ : BufTy).Contents (Elt F) → (⟨S100000, .i32⟩ : BufTy).Contents (Elt F)),
    ternary main_v456 main_v458 main_v417 main_v459 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v459 main_v460 (broadcastInDim S100000x1 ![0] bcast_S100000_S100000x1_0 : (⟨S100000, .i32⟩ : BufTy).Contents (Elt F) → (⟨S100000x1, .i32⟩ : BufTy).Contents (Elt F)),
    binary main_v425 main_v460 main_v461 ((fun x i => Host.gather gather_S25000x64_S100000x1_S100000x64_1_0_n_n_0_1_164 x i) : (⟨S25000x64, .f32⟩ : BufTy).Contents (Elt F) → (⟨S100000x1, .i32⟩ : BufTy).Contents (Elt F) → (⟨S100000x64, .f32⟩ : BufTy).Contents (Elt F)),
    unary main_v454 main_v462 (broadcastInDim S100000x64 ![0, 1] bcast_S100000x1_S100000x64_0_1 : (⟨S100000x1, .f32⟩ : BufTy).Contents (Elt F) → (⟨S100000x64, .f32⟩ : BufTy).Contents (Elt F)),
    binary main_v462 main_v461 main_v463 (mulf : (⟨S100000x64, .f32⟩ : BufTy).Contents (Elt F) → (⟨S100000x64, .f32⟩ : BufTy).Contents (Elt F) → (⟨S100000x64, .f32⟩ : BufTy).Contents (Elt F)),
    nullary main_c_92 (constantI S_ 32 0#32),
    unary main_c_92 main_v464 (broadcastInDim S100000 ![] bcast_S_S100000 : (⟨S_, .i32⟩ : BufTy).Contents (Elt F) → (⟨S100000, .i32⟩ : BufTy).Contents (Elt F)),
    binary main_v419 main_v464 main_v465 (cmpi .slt : (⟨S100000, .i32⟩ : BufTy).Contents (Elt F) → (⟨S100000, .i32⟩ : BufTy).Contents (Elt F) → (⟨S100000, .i1⟩ : BufTy).Contents (Elt F)),
    nullary main_c_93 (constantI S_ 32 25000#32),
    unary main_c_93 main_v466 (broadcastInDim S100000 ![] bcast_S_S100000 : (⟨S_, .i32⟩ : BufTy).Contents (Elt F) → (⟨S100000, .i32⟩ : BufTy).Contents (Elt F)),
    binary main_v419 main_v466 main_v467 (addi : (⟨S100000, .i32⟩ : BufTy).Contents (Elt F) → (⟨S100000, .i32⟩ : BufTy).Contents (Elt F) → (⟨S100000, .i32⟩ : BufTy).Contents (Elt F)),
    ternary main_v465 main_v467 main_v419 main_v468 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v468 main_v469 (broadcastInDim S100000x1 ![0] bcast_S100000_S100000x1_0 : (⟨S100000, .i32⟩ : BufTy).Contents (Elt F) → (⟨S100000x1, .i32⟩ : BufTy).Contents (Elt F)),
    ternary main_v453 main_v469 main_v463 main_v470 ((fun x i u => Host.scatterAdd scatter_S25000x64_S100000x1_S100000x64_1_0_0_1 x i u) : (⟨S25000x64, .f32⟩ : BufTy).Contents (Elt F) → (⟨S100000x1, .i32⟩ : BufTy).Contents (Elt F) → (⟨S100000x64, .f32⟩ : BufTy).Contents (Elt F) → (⟨S25000x64, .f32⟩ : BufTy).Contents (Elt F)),
    binary main_v436 main_v436 main_v471 (mulf : (⟨S25000, .f32⟩ : BufTy).Contents (Elt F) → (⟨S25000, .f32⟩ : BufTy).Contents (Elt F) → (⟨S25000, .f32⟩ : BufTy).Contents (Elt F)),
    unary main_v471 main_v472 (broadcastInDim S25000x1 ![0] bcast_S25000_S25000x1_0 : (⟨S25000, .f32⟩ : BufTy).Contents (Elt F) → (⟨S25000x1, .f32⟩ : BufTy).Contents (Elt F)),
    unary main_v472 main_v473 (broadcastInDim S25000x64 ![0, 1] bcast_S25000x1_S25000x64_0_1 : (⟨S25000x1, .f32⟩ : BufTy).Contents (Elt F) → (⟨S25000x64, .f32⟩ : BufTy).Contents (Elt F)),
    binary main_v425 main_v473 main_v474 (mulf : (⟨S25000x64, .f32⟩ : BufTy).Contents (Elt F) → (⟨S25000x64, .f32⟩ : BufTy).Contents (Elt F) → (⟨S25000x64, .f32⟩ : BufTy).Contents (Elt F)),
    binary main_v470 main_v474 main_v475 (addf : (⟨S25000x64, .f32⟩ : BufTy).Contents (Elt F) → (⟨S25000x64, .f32⟩ : BufTy).Contents (Elt F) → (⟨S25000x64, .f32⟩ : BufTy).Contents (Elt F)),
    unary main_v424 main_v476 (broadcastInDim S1x64 ![1] bcast_S64_S1x64_1 : (⟨S64, .f32⟩ : BufTy).Contents (Elt F) → (⟨S1x64, .f32⟩ : BufTy).Contents (Elt F)),
    unary main_v476 main_v477 (broadcastInDim S25000x64 ![0, 1] bcast_S1x64_S25000x64_0_1 : (⟨S1x64, .f32⟩ : BufTy).Contents (Elt F) → (⟨S25000x64, .f32⟩ : BufTy).Contents (Elt F)),
    binary main_v475 main_v477 main_v478 (addf : (⟨S25000x64, .f32⟩ : BufTy).Contents (Elt F) → (⟨S25000x64, .f32⟩ : BufTy).Contents (Elt F) → (⟨S25000x64, .f32⟩ : BufTy).Contents (Elt F)),
    unary main_v478 main_v479 (Host.tanh : (⟨S25000x64, .f32⟩ : BufTy).Contents (Elt F) → (⟨S25000x64, .f32⟩ : BufTy).Contents (Elt F)),
    unary main_arg17 main_v480 ((extractStridedSlice S1x1 ![2, 0] · slices_S3x3_S1x1_2_0) : (⟨S3x3, .f32⟩ : BufTy).Contents (Elt F) → (⟨S1x1, .f32⟩ : BufTy).Contents (Elt F)),
    reshape main_v480 main_v481 rfl shapeCasts_S1x1_S_,
    unary main_v481 main_v482 (broadcastInDim S25000x64 ![] bcast_S_S25000x64 : (⟨S_, .f32⟩ : BufTy).Contents (Elt F) → (⟨S25000x64, .f32⟩ : BufTy).Contents (Elt F)),
    binary main_v482 main_v479 main_v483 (mulf : (⟨S25000x64, .f32⟩ : BufTy).Contents (Elt F) → (⟨S25000x64, .f32⟩ : BufTy).Contents (Elt F) → (⟨S25000x64, .f32⟩ : BufTy).Contents (Elt F)),
    binary main_v420 main_v483 main_v484 (addf : (⟨S25000x64, .f32⟩ : BufTy).Contents (Elt F) → (⟨S25000x64, .f32⟩ : BufTy).Contents (Elt F) → (⟨S25000x64, .f32⟩ : BufTy).Contents (Elt F)),
    unary main_arg15 main_v485 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v485 main_v486 rfl shapeCasts_S1x64x64_S64x64,
    unary main_arg16 main_v487 ((extractStridedSlice S1x64 ![2, 0] · slices_S3x64_S1x64_2_0) : (⟨S3x64, .f32⟩ : BufTy).Contents (Elt F) → (⟨S1x64, .f32⟩ : BufTy).Contents (Elt F)),
    reshape main_v487 main_v488 rfl shapeCasts_S1x64_S64,
    binary main_v479 main_v486 main_v489 ((fun l r => Host.dotGeneral dot_S25000x64_S64x64_S25000x64_1_0_0_1_n_n none l r) : (⟨S25000x64, .f32⟩ : BufTy).Contents (Elt F) → (⟨S64x64, .f32⟩ : BufTy).Contents (Elt F) → (⟨S25000x64, .f32⟩ : BufTy).Contents (Elt F)),
    nullary main_cst_94 (constant S_ .f32 0x00000000#32),
    unary main_cst_94 main_v490 (broadcastInDim S25000 ![] bcast_S_S25000 : (⟨S_, .f32⟩ : BufTy).Contents (Elt F) → (⟨S25000, .f32⟩ : BufTy).Contents (Elt F)),
    nullary main_c_95 (constantI S_ 32 0#32),
    unary main_c_95 main_v491 (broadcastInDim S100000 ![] bcast_S_S100000 : (⟨S_, .i32⟩ : BufTy).Contents (Elt F) → (⟨S100000, .i32⟩ : BufTy).Contents (Elt F)),
    binary main_v419 main_v491 main_v492 (cmpi .slt : (⟨S100000, .i32⟩ : BufTy).Contents (Elt F) → (⟨S100000, .i32⟩ : BufTy).Contents (Elt F) → (⟨S100000, .i1⟩ : BufTy).Contents (Elt F)),
    nullary main_c_96 (constantI S_ 32 25000#32),
    unary main_c_96 main_v493 (broadcastInDim S100000 ![] bcast_S_S100000 : (⟨S_, .i32⟩ : BufTy).Contents (Elt F) → (⟨S100000, .i32⟩ : BufTy).Contents (Elt F)),
    binary main_v419 main_v493 main_v494 (addi : (⟨S100000, .i32⟩ : BufTy).Contents (Elt F) → (⟨S100000, .i32⟩ : BufTy).Contents (Elt F) → (⟨S100000, .i32⟩ : BufTy).Contents (Elt F)),
    ternary main_v492 main_v494 main_v419 main_v495 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v495 main_v496 (broadcastInDim S100000x1 ![0] bcast_S100000_S100000x1_0 : (⟨S100000, .i32⟩ : BufTy).Contents (Elt F) → (⟨S100000x1, .i32⟩ : BufTy).Contents (Elt F)),
    ternary main_v490 main_v496 main_arg7 main_v497 ((fun x i u => Host.scatterAdd scatter_S25000_S100000x1_S100000_n_0_0_1 x i u) : (⟨S25000, .f32⟩ : BufTy).Contents (Elt F) → (⟨S100000x1, .i32⟩ : BufTy).Contents (Elt F) → (⟨S100000, .f32⟩ : BufTy).Contents (Elt F) → (⟨S25000, .f32⟩ : BufTy).Contents (Elt F)),
    nullary main_cst_97 (constant S_ .f32 0x3F800000#32),
    unary main_cst_97 main_v498 (broadcastInDim S25000 ![] bcast_S_S25000 : (⟨S_, .f32⟩ : BufTy).Contents (Elt F) → (⟨S25000, .f32⟩ : BufTy).Contents (Elt F)),
    binary main_v497 main_v498 main_v499 (addf : (⟨S25000, .f32⟩ : BufTy).Contents (Elt F) → (⟨S25000, .f32⟩ : BufTy).Contents (Elt F) → (⟨S25000, .f32⟩ : BufTy).Contents (Elt F)) ]

theorem part9_eq (c : Dev nD) : main_part9 (F := F) c = seq ops9 := rfl

theorem ops9_sub : (ops9 : List (HloOp τ sig (Elt F))).Forall fun op => op.bufs ⊆ tcRefs τ sig :=
  ⟨ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., unary_bufs_sub .., reshape_bufs_sub .., unary_bufs_sub .., binary_bufs_sub .., binary_bufs_sub .., unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub ..⟩

theorem ops9_fresh : (ops9 : List (HloOp τ sig (Elt F))).Forall fun op => op.fresh = ∅ := by
  simp only [List.Forall]; repeat' constructor

/-- The buffers the window writes. -/
abbrev written9 : List (Ref sig .tc) := [main_v449, main_v450, main_v451, main_v452, main_cst_89, main_v453, main_v454, main_c_90, main_v455, main_v456, main_c_91, main_v457, main_v458, main_v459, main_v460, main_v461, main_v462, main_v463, main_c_92, main_v464, main_v465, main_c_93, main_v466, main_v467, main_v468, main_v469, main_v470, main_v471, main_v472, main_v473, main_v474, main_v475, main_v476, main_v477, main_v478, main_v479, main_v480, main_v481, main_v482, main_v483, main_v484, main_v485, main_v486, main_v487, main_v488, main_v489, main_cst_94, main_v490, main_c_95, main_v491, main_v492, main_c_96, main_v493, main_v494, main_v495, main_v496, main_v497, main_cst_97, main_v498, main_v499]

theorem writes9 : (ops9 : List (HloOp τ sig (Elt F))).Forall fun op => op.writes ⊆ ((written9).map (Proc.devRef (τ := τ) .tc)).toFinset := by
  simp only [ops9, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep9 (V : Valuation τ sig (Elt F)) (r : Ref sig .tc) (h : r ∉ written9) :
    after (ops9 (F := F)) V (Proc.devRef .tc r) = V (Proc.devRef .tc r) :=
  after_of_writes_sub (ops9 (F := F)) V writes9 h

set_option maxHeartbeats 2000000 in
/-- What main_v484 holds after the window. -/
theorem value9_main_v484 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v446 : V (Proc.devRef .tc main_v446) = (Cert.ReferenceIdeal.Stages.val_main_v446 (F := F) a6))
    (h_main_v448 : V (Proc.devRef .tc main_v448) = (Cert.ReferenceIdeal.Stages.val_main_v448 (F := F) a6))
    (h_main_v419 : V (Proc.devRef .tc main_v419) = (Cert.ReferenceIdeal.Stages.val_main_v419 (F := F) a6))
    (h_main_v436 : V (Proc.devRef .tc main_v436) = (Cert.ReferenceIdeal.Stages.val_main_v436 (F := F) a6 a7))
    (h_main_v444 : V (Proc.devRef .tc main_v444) = (Cert.ReferenceIdeal.Stages.val_main_v444 (F := F) a6 a7))
    (h_main_v417 : V (Proc.devRef .tc main_v417) = (Cert.ReferenceIdeal.Stages.val_main_v417 (F := F) a6))
    (h_main_v425 : V (Proc.devRef .tc main_v425) = (Cert.ReferenceIdeal.Stages.val_main_v425 (F := F) a0 a1 a10 a11 a12 a13 a14 a15))
    (h_main_v424 : V (Proc.devRef .tc main_v424) = (Cert.ReferenceIdeal.Stages.val_main_v424 (F := F) a16))
    (h_main_arg17 : V (Proc.devRef .tc main_arg17) = a17)
    (h_main_v420 : V (Proc.devRef .tc main_v420) = (Cert.ReferenceIdeal.Stages.val_main_v420 (F := F)))
    (h_main_arg15 : V (Proc.devRef .tc main_arg15) = a15)
    (h_main_arg16 : V (Proc.devRef .tc main_arg16) = a16)
    (h_main_arg7 : V (Proc.devRef .tc main_arg7) = a7) :
    after (ops9 (F := F)) V (Proc.devRef .tc main_v484) = (Cert.ReferenceIdeal.Stages.val_main_v484 (F := F) a0 a1 a6 a7 a10 a11 a12 a13 a14 a15 a16 a17) := by
  subst_vars
  simp only [ops9]
  after_results_simp
  try simp only [TRef.ofBuf, TRef.toBuf, cast_eq]
  try simp only [h_main_v446, h_main_v448, h_main_v419, h_main_v436, h_main_v444, h_main_v417, h_main_v425, h_main_v424, h_main_v420]
  all_goals rfl

set_option maxHeartbeats 2000000 in
/-- What main_v488 holds after the window. -/
theorem value9_main_v488 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v446 : V (Proc.devRef .tc main_v446) = (Cert.ReferenceIdeal.Stages.val_main_v446 (F := F) a6))
    (h_main_v448 : V (Proc.devRef .tc main_v448) = (Cert.ReferenceIdeal.Stages.val_main_v448 (F := F) a6))
    (h_main_v419 : V (Proc.devRef .tc main_v419) = (Cert.ReferenceIdeal.Stages.val_main_v419 (F := F) a6))
    (h_main_v436 : V (Proc.devRef .tc main_v436) = (Cert.ReferenceIdeal.Stages.val_main_v436 (F := F) a6 a7))
    (h_main_v444 : V (Proc.devRef .tc main_v444) = (Cert.ReferenceIdeal.Stages.val_main_v444 (F := F) a6 a7))
    (h_main_v417 : V (Proc.devRef .tc main_v417) = (Cert.ReferenceIdeal.Stages.val_main_v417 (F := F) a6))
    (h_main_v425 : V (Proc.devRef .tc main_v425) = (Cert.ReferenceIdeal.Stages.val_main_v425 (F := F) a0 a1 a10 a11 a12 a13 a14 a15))
    (h_main_v424 : V (Proc.devRef .tc main_v424) = (Cert.ReferenceIdeal.Stages.val_main_v424 (F := F) a16))
    (h_main_arg17 : V (Proc.devRef .tc main_arg17) = a17)
    (h_main_v420 : V (Proc.devRef .tc main_v420) = (Cert.ReferenceIdeal.Stages.val_main_v420 (F := F)))
    (h_main_arg15 : V (Proc.devRef .tc main_arg15) = a15)
    (h_main_arg16 : V (Proc.devRef .tc main_arg16) = a16)
    (h_main_arg7 : V (Proc.devRef .tc main_arg7) = a7) :
    after (ops9 (F := F)) V (Proc.devRef .tc main_v488) = (Cert.ReferenceIdeal.Stages.val_main_v488 (F := F) a16) := by
  subst_vars
  simp only [ops9]
  after_results_simp
  try simp only [TRef.ofBuf, TRef.toBuf, cast_eq]
  try simp only [h_main_v446, h_main_v448, h_main_v419, h_main_v436, h_main_v444, h_main_v417, h_main_v425, h_main_v424, h_main_v420]
  all_goals rfl

set_option maxHeartbeats 2000000 in
/-- What main_v489 holds after the window. -/
theorem value9_main_v489 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v446 : V (Proc.devRef .tc main_v446) = (Cert.ReferenceIdeal.Stages.val_main_v446 (F := F) a6))
    (h_main_v448 : V (Proc.devRef .tc main_v448) = (Cert.ReferenceIdeal.Stages.val_main_v448 (F := F) a6))
    (h_main_v419 : V (Proc.devRef .tc main_v419) = (Cert.ReferenceIdeal.Stages.val_main_v419 (F := F) a6))
    (h_main_v436 : V (Proc.devRef .tc main_v436) = (Cert.ReferenceIdeal.Stages.val_main_v436 (F := F) a6 a7))
    (h_main_v444 : V (Proc.devRef .tc main_v444) = (Cert.ReferenceIdeal.Stages.val_main_v444 (F := F) a6 a7))
    (h_main_v417 : V (Proc.devRef .tc main_v417) = (Cert.ReferenceIdeal.Stages.val_main_v417 (F := F) a6))
    (h_main_v425 : V (Proc.devRef .tc main_v425) = (Cert.ReferenceIdeal.Stages.val_main_v425 (F := F) a0 a1 a10 a11 a12 a13 a14 a15))
    (h_main_v424 : V (Proc.devRef .tc main_v424) = (Cert.ReferenceIdeal.Stages.val_main_v424 (F := F) a16))
    (h_main_arg17 : V (Proc.devRef .tc main_arg17) = a17)
    (h_main_v420 : V (Proc.devRef .tc main_v420) = (Cert.ReferenceIdeal.Stages.val_main_v420 (F := F)))
    (h_main_arg15 : V (Proc.devRef .tc main_arg15) = a15)
    (h_main_arg16 : V (Proc.devRef .tc main_arg16) = a16)
    (h_main_arg7 : V (Proc.devRef .tc main_arg7) = a7) :
    after (ops9 (F := F)) V (Proc.devRef .tc main_v489) = (Cert.ReferenceIdeal.Stages.val_main_v489 (F := F) a0 a1 a6 a7 a10 a11 a12 a13 a14 a15 a16) := by
  subst_vars
  simp only [ops9]
  after_results_simp
  try simp only [TRef.ofBuf, TRef.toBuf, cast_eq]
  try simp only [h_main_v446, h_main_v448, h_main_v419, h_main_v436, h_main_v444, h_main_v417, h_main_v425, h_main_v424, h_main_v420]
  all_goals rfl

set_option maxHeartbeats 2000000 in
/-- What main_v499 holds after the window. -/
theorem value9_main_v499 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v446 : V (Proc.devRef .tc main_v446) = (Cert.ReferenceIdeal.Stages.val_main_v446 (F := F) a6))
    (h_main_v448 : V (Proc.devRef .tc main_v448) = (Cert.ReferenceIdeal.Stages.val_main_v448 (F := F) a6))
    (h_main_v419 : V (Proc.devRef .tc main_v419) = (Cert.ReferenceIdeal.Stages.val_main_v419 (F := F) a6))
    (h_main_v436 : V (Proc.devRef .tc main_v436) = (Cert.ReferenceIdeal.Stages.val_main_v436 (F := F) a6 a7))
    (h_main_v444 : V (Proc.devRef .tc main_v444) = (Cert.ReferenceIdeal.Stages.val_main_v444 (F := F) a6 a7))
    (h_main_v417 : V (Proc.devRef .tc main_v417) = (Cert.ReferenceIdeal.Stages.val_main_v417 (F := F) a6))
    (h_main_v425 : V (Proc.devRef .tc main_v425) = (Cert.ReferenceIdeal.Stages.val_main_v425 (F := F) a0 a1 a10 a11 a12 a13 a14 a15))
    (h_main_v424 : V (Proc.devRef .tc main_v424) = (Cert.ReferenceIdeal.Stages.val_main_v424 (F := F) a16))
    (h_main_arg17 : V (Proc.devRef .tc main_arg17) = a17)
    (h_main_v420 : V (Proc.devRef .tc main_v420) = (Cert.ReferenceIdeal.Stages.val_main_v420 (F := F)))
    (h_main_arg15 : V (Proc.devRef .tc main_arg15) = a15)
    (h_main_arg16 : V (Proc.devRef .tc main_arg16) = a16)
    (h_main_arg7 : V (Proc.devRef .tc main_arg7) = a7) :
    after (ops9 (F := F)) V (Proc.devRef .tc main_v499) = (Cert.ReferenceIdeal.Stages.val_main_v499 (F := F) a6 a7) := by
  subst_vars
  simp only [ops9]
  after_results_simp
  try simp only [TRef.ofBuf, TRef.toBuf, cast_eq]
  try simp only [h_main_v446, h_main_v448, h_main_v419, h_main_v436, h_main_v444, h_main_v417, h_main_v425, h_main_v424, h_main_v420]
  all_goals rfl

end Cert.ReferenceIdeal.Window

end
-- ==== Proof.RWin10.lean ====
/-
  The reference program's window number 10 (operations 601 to 660 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops10 : List (HloOp τ sig (Elt F)) :=
  [ unary main_v499 main_v500 (Host.rsqrt : (⟨S25000, .f32⟩ : BufTy).Contents (Elt F) → (⟨S25000, .f32⟩ : BufTy).Contents (Elt F)),
    nullary main_c_98 (constantI S_ 32 0#32),
    unary main_c_98 main_v501 (broadcastInDim S100000 ![] bcast_S_S100000 : (⟨S_, .i32⟩ : BufTy).Contents (Elt F) → (⟨S100000, .i32⟩ : BufTy).Contents (Elt F)),
    binary main_v417 main_v501 main_v502 (cmpi .slt : (⟨S100000, .i32⟩ : BufTy).Contents (Elt F) → (⟨S100000, .i32⟩ : BufTy).Contents (Elt F) → (⟨S100000, .i1⟩ : BufTy).Contents (Elt F)),
    nullary main_c_99 (constantI S_ 32 25000#32),
    unary main_c_99 main_v503 (broadcastInDim S100000 ![] bcast_S_S100000 : (⟨S_, .i32⟩ : BufTy).Contents (Elt F) → (⟨S100000, .i32⟩ : BufTy).Contents (Elt F)),
    binary main_v417 main_v503 main_v504 (addi : (⟨S100000, .i32⟩ : BufTy).Contents (Elt F) → (⟨S100000, .i32⟩ : BufTy).Contents (Elt F) → (⟨S100000, .i32⟩ : BufTy).Contents (Elt F)),
    ternary main_v502 main_v504 main_v417 main_v505 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v505 main_v506 (broadcastInDim S100000x1 ![0] bcast_S100000_S100000x1_0 : (⟨S100000, .i32⟩ : BufTy).Contents (Elt F) → (⟨S100000x1, .i32⟩ : BufTy).Contents (Elt F)),
    binary main_v500 main_v506 main_v507 ((fun x i => Host.gather gather_S25000_S100000x1_S100000_n_0_n_n_0_1_1 x i) : (⟨S25000, .f32⟩ : BufTy).Contents (Elt F) → (⟨S100000x1, .i32⟩ : BufTy).Contents (Elt F) → (⟨S100000, .f32⟩ : BufTy).Contents (Elt F)),
    binary main_v507 main_arg7 main_v508 (mulf : (⟨S100000, .f32⟩ : BufTy).Contents (Elt F) → (⟨S100000, .f32⟩ : BufTy).Contents (Elt F) → (⟨S100000, .f32⟩ : BufTy).Contents (Elt F)),
    nullary main_c_100 (constantI S_ 32 0#32),
    unary main_c_100 main_v509 (broadcastInDim S100000 ![] bcast_S_S100000 : (⟨S_, .i32⟩ : BufTy).Contents (Elt F) → (⟨S100000, .i32⟩ : BufTy).Contents (Elt F)),
    binary main_v419 main_v509 main_v510 (cmpi .slt : (⟨S100000, .i32⟩ : BufTy).Contents (Elt F) → (⟨S100000, .i32⟩ : BufTy).Contents (Elt F) → (⟨S100000, .i1⟩ : BufTy).Contents (Elt F)),
    nullary main_c_101 (constantI S_ 32 25000#32),
    unary main_c_101 main_v511 (broadcastInDim S100000 ![] bcast_S_S100000 : (⟨S_, .i32⟩ : BufTy).Contents (Elt F) → (⟨S100000, .i32⟩ : BufTy).Contents (Elt F)),
    binary main_v419 main_v511 main_v512 (addi : (⟨S100000, .i32⟩ : BufTy).Contents (Elt F) → (⟨S100000, .i32⟩ : BufTy).Contents (Elt F) → (⟨S100000, .i32⟩ : BufTy).Contents (Elt F)),
    ternary main_v510 main_v512 main_v419 main_v513 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v513 main_v514 (broadcastInDim S100000x1 ![0] bcast_S100000_S100000x1_0 : (⟨S100000, .i32⟩ : BufTy).Contents (Elt F) → (⟨S100000x1, .i32⟩ : BufTy).Contents (Elt F)),
    binary main_v500 main_v514 main_v515 ((fun x i => Host.gather gather_S25000_S100000x1_S100000_n_0_n_n_0_1_1 x i) : (⟨S25000, .f32⟩ : BufTy).Contents (Elt F) → (⟨S100000x1, .i32⟩ : BufTy).Contents (Elt F) → (⟨S100000, .f32⟩ : BufTy).Contents (Elt F)),
    binary main_v508 main_v515 main_v516 (mulf : (⟨S100000, .f32⟩ : BufTy).Contents (Elt F) → (⟨S100000, .f32⟩ : BufTy).Contents (Elt F) → (⟨S100000, .f32⟩ : BufTy).Contents (Elt F)),
    nullary main_cst_102 (constant S_ .f32 0x00000000#32),
    unary main_cst_102 main_v517 (broadcastInDim S25000x64 ![] bcast_S_S25000x64 : (⟨S_, .f32⟩ : BufTy).Contents (Elt F) → (⟨S25000x64, .f32⟩ : BufTy).Contents (Elt F)),
    unary main_v516 main_v518 (broadcastInDim S100000x1 ![0] bcast_S100000_S100000x1_0 : (⟨S100000, .f32⟩ : BufTy).Contents (Elt F) → (⟨S100000x1, .f32⟩ : BufTy).Contents (Elt F)),
    nullary main_c_103 (constantI S_ 32 0#32),
    unary main_c_103 main_v519 (broadcastInDim S100000 ![] bcast_S_S100000 : (⟨S_, .i32⟩ : BufTy).Contents (Elt F) → (⟨S100000, .i32⟩ : BufTy).Contents (Elt F)),
    binary main_v417 main_v519 main_v520 (cmpi .slt : (⟨S100000, .i32⟩ : BufTy).Contents (Elt F) → (⟨S100000, .i32⟩ : BufTy).Contents (Elt F) → (⟨S100000, .i1⟩ : BufTy).Contents (Elt F)),
    nullary main_c_104 (constantI S_ 32 25000#32),
    unary main_c_104 main_v521 (broadcastInDim S100000 ![] bcast_S_S100000 : (⟨S_, .i32⟩ : BufTy).Contents (Elt F) → (⟨S100000, .i32⟩ : BufTy).Contents (Elt F)),
    binary main_v417 main_v521 main_v522 (addi : (⟨S100000, .i32⟩ : BufTy).Contents (Elt F) → (⟨S100000, .i32⟩ : BufTy).Contents (Elt F) → (⟨S100000, .i32⟩ : BufTy).Contents (Elt F)),
    ternary main_v520 main_v522 main_v417 main_v523 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v523 main_v524 (broadcastInDim S100000x1 ![0] bcast_S100000_S100000x1_0 : (⟨S100000, .i32⟩ : BufTy).Contents (Elt F) → (⟨S100000x1, .i32⟩ : BufTy).Contents (Elt F)),
    binary main_v489 main_v524 main_v525 ((fun x i => Host.gather gather_S25000x64_S100000x1_S100000x64_1_0_n_n_0_1_164 x i) : (⟨S25000x64, .f32⟩ : BufTy).Contents (Elt F) → (⟨S100000x1, .i32⟩ : BufTy).Contents (Elt F) → (⟨S100000x64, .f32⟩ : BufTy).Contents (Elt F)),
    unary main_v518 main_v526 (broadcastInDim S100000x64 ![0, 1] bcast_S100000x1_S100000x64_0_1 : (⟨S100000x1, .f32⟩ : BufTy).Contents (Elt F) → (⟨S100000x64, .f32⟩ : BufTy).Contents (Elt F)),
    binary main_v526 main_v525 main_v527 (mulf : (⟨S100000x64, .f32⟩ : BufTy).Contents (Elt F) → (⟨S100000x64, .f32⟩ : BufTy).Contents (Elt F) → (⟨S100000x64, .f32⟩ : BufTy).Contents (Elt F)),
    nullary main_c_105 (constantI S_ 32 0#32),
    unary main_c_105 main_v528 (broadcastInDim S100000 ![] bcast_S_S100000 : (⟨S_, .i32⟩ : BufTy).Contents (Elt F) → (⟨S100000, .i32⟩ : BufTy).Contents (Elt F)),
    binary main_v419 main_v528 main_v529 (cmpi .slt : (⟨S100000, .i32⟩ : BufTy).Contents (Elt F) → (⟨S100000, .i32⟩ : BufTy).Contents (Elt F) → (⟨S100000, .i1⟩ : BufTy).Contents (Elt F)),
    nullary main_c_106 (constantI S_ 32 25000#32),
    unary main_c_106 main_v530 (broadcastInDim S100000 ![] bcast_S_S100000 : (⟨S_, .i32⟩ : BufTy).Contents (Elt F) → (⟨S100000, .i32⟩ : BufTy).Contents (Elt F)),
    binary main_v419 main_v530 main_v531 (addi : (⟨S100000, .i32⟩ : BufTy).Contents (Elt F) → (⟨S100000, .i32⟩ : BufTy).Contents (Elt F) → (⟨S100000, .i32⟩ : BufTy).Contents (Elt F)),
    ternary main_v529 main_v531 main_v419 main_v532 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v532 main_v533 (broadcastInDim S100000x1 ![0] bcast_S100000_S100000x1_0 : (⟨S100000, .i32⟩ : BufTy).Contents (Elt F) → (⟨S100000x1, .i32⟩ : BufTy).Contents (Elt F)),
    ternary main_v517 main_v533 main_v527 main_v534 ((fun x i u => Host.scatterAdd scatter_S25000x64_S100000x1_S100000x64_1_0_0_1 x i u) : (⟨S25000x64, .f32⟩ : BufTy).Contents (Elt F) → (⟨S100000x1, .i32⟩ : BufTy).Contents (Elt F) → (⟨S100000x64, .f32⟩ : BufTy).Contents (Elt F) → (⟨S25000x64, .f32⟩ : BufTy).Contents (Elt F)),
    binary main_v500 main_v500 main_v535 (mulf : (⟨S25000, .f32⟩ : BufTy).Contents (Elt F) → (⟨S25000, .f32⟩ : BufTy).Contents (Elt F) → (⟨S25000, .f32⟩ : BufTy).Contents (Elt F)),
    unary main_v535 main_v536 (broadcastInDim S25000x1 ![0] bcast_S25000_S25000x1_0 : (⟨S25000, .f32⟩ : BufTy).Contents (Elt F) → (⟨S25000x1, .f32⟩ : BufTy).Contents (Elt F)),
    unary main_v536 main_v537 (broadcastInDim S25000x64 ![0, 1] bcast_S25000x1_S25000x64_0_1 : (⟨S25000x1, .f32⟩ : BufTy).Contents (Elt F) → (⟨S25000x64, .f32⟩ : BufTy).Contents (Elt F)),
    binary main_v489 main_v537 main_v538 (mulf : (⟨S25000x64, .f32⟩ : BufTy).Contents (Elt F) → (⟨S25000x64, .f32⟩ : BufTy).Contents (Elt F) → (⟨S25000x64, .f32⟩ : BufTy).Contents (Elt F)),
    binary main_v534 main_v538 main_v539 (addf : (⟨S25000x64, .f32⟩ : BufTy).Contents (Elt F) → (⟨S25000x64, .f32⟩ : BufTy).Contents (Elt F) → (⟨S25000x64, .f32⟩ : BufTy).Contents (Elt F)),
    unary main_v488 main_v540 (broadcastInDim S1x64 ![1] bcast_S64_S1x64_1 : (⟨S64, .f32⟩ : BufTy).Contents (Elt F) → (⟨S1x64, .f32⟩ : BufTy).Contents (Elt F)),
    unary main_v540 main_v541 (broadcastInDim S25000x64 ![0, 1] bcast_S1x64_S25000x64_0_1 : (⟨S1x64, .f32⟩ : BufTy).Contents (Elt F) → (⟨S25000x64, .f32⟩ : BufTy).Contents (Elt F)),
    binary main_v539 main_v541 main_v542 (addf : (⟨S25000x64, .f32⟩ : BufTy).Contents (Elt F) → (⟨S25000x64, .f32⟩ : BufTy).Contents (Elt F) → (⟨S25000x64, .f32⟩ : BufTy).Contents (Elt F)),
    unary main_v542 main_v543 (Host.tanh : (⟨S25000x64, .f32⟩ : BufTy).Contents (Elt F) → (⟨S25000x64, .f32⟩ : BufTy).Contents (Elt F)),
    unary main_arg17 main_v544 ((extractStridedSlice S1x1 ![2, 1] · slices_S3x3_S1x1_2_1) : (⟨S3x3, .f32⟩ : BufTy).Contents (Elt F) → (⟨S1x1, .f32⟩ : BufTy).Contents (Elt F)),
    reshape main_v544 main_v545 rfl shapeCasts_S1x1_S_,
    unary main_v545 main_v546 (broadcastInDim S25000x64 ![] bcast_S_S25000x64 : (⟨S_, .f32⟩ : BufTy).Contents (Elt F) → (⟨S25000x64, .f32⟩ : BufTy).Contents (Elt F)),
    binary main_v546 main_v543 main_v547 (mulf : (⟨S25000x64, .f32⟩ : BufTy).Contents (Elt F) → (⟨S25000x64, .f32⟩ : BufTy).Contents (Elt F) → (⟨S25000x64, .f32⟩ : BufTy).Contents (Elt F)),
    binary main_v484 main_v547 main_v548 (addf : (⟨S25000x64, .f32⟩ : BufTy).Contents (Elt F) → (⟨S25000x64, .f32⟩ : BufTy).Contents (Elt F) → (⟨S25000x64, .f32⟩ : BufTy).Contents (Elt F)),
    unary main_arg15 main_v549 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v549 main_v550 rfl shapeCasts_S1x64x64_S64x64 ]

theorem part10_eq (c : Dev nD) : main_part10 (F := F) c = seq ops10 := rfl

theorem ops10_sub : (ops10 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., unary_bufs_sub .., unary_bufs_sub .., reshape_bufs_sub .., unary_bufs_sub .., binary_bufs_sub .., binary_bufs_sub .., unary_bufs_sub .., reshape_bufs_sub ..⟩

theorem ops10_fresh : (ops10 : List (HloOp τ sig (Elt F))).Forall fun op => op.fresh = ∅ := by
  simp only [List.Forall]; repeat' constructor

/-- The buffers the window writes. -/
abbrev written10 : List (Ref sig .tc) := [main_v500, main_c_98, main_v501, main_v502, main_c_99, main_v503, main_v504, main_v505, main_v506, main_v507, main_v508, main_c_100, main_v509, main_v510, main_c_101, main_v511, main_v512, main_v513, main_v514, main_v515, main_v516, main_cst_102, main_v517, main_v518, main_c_103, main_v519, main_v520, main_c_104, main_v521, main_v522, main_v523, main_v524, main_v525, main_v526, main_v527, main_c_105, main_v528, main_v529, main_c_106, main_v530, main_v531, main_v532, main_v533, main_v534, main_v535, main_v536, main_v537, main_v538, main_v539, main_v540, main_v541, main_v542, main_v543, main_v544, main_v545, main_v546, main_v547, main_v548, main_v549, main_v550]

theorem writes10 : (ops10 : List (HloOp τ sig (Elt F))).Forall fun op => op.writes ⊆ ((written10).map (Proc.devRef (τ := τ) .tc)).toFinset := by
  simp only [ops10, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep10 (V : Valuation τ sig (Elt F)) (r : Ref sig .tc) (h : r ∉ written10) :
    after (ops10 (F := F)) V (Proc.devRef .tc r) = V (Proc.devRef .tc r) :=
  after_of_writes_sub (ops10 (F := F)) V writes10 h

set_option maxHeartbeats 2000000 in
/-- What main_v543 holds after the window. -/
theorem value10_main_v543 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v499 : V (Proc.devRef .tc main_v499) = (Cert.ReferenceIdeal.Stages.val_main_v499 (F := F) a6 a7))
    (h_main_v417 : V (Proc.devRef .tc main_v417) = (Cert.ReferenceIdeal.Stages.val_main_v417 (F := F) a6))
    (h_main_arg7 : V (Proc.devRef .tc main_arg7) = a7)
    (h_main_v419 : V (Proc.devRef .tc main_v419) = (Cert.ReferenceIdeal.Stages.val_main_v419 (F := F) a6))
    (h_main_v489 : V (Proc.devRef .tc main_v489) = (Cert.ReferenceIdeal.Stages.val_main_v489 (F := F) a0 a1 a6 a7 a10 a11 a12 a13 a14 a15 a16))
    (h_main_v488 : V (Proc.devRef .tc main_v488) = (Cert.ReferenceIdeal.Stages.val_main_v488 (F := F) a16))
    (h_main_arg17 : V (Proc.devRef .tc main_arg17) = a17)
    (h_main_v484 : V (Proc.devRef .tc main_v484) = (Cert.ReferenceIdeal.Stages.val_main_v484 (F := F) a0 a1 a6 a7 a10 a11 a12 a13 a14 a15 a16 a17))
    (h_main_arg15 : V (Proc.devRef .tc main_arg15) = a15) :
    after (ops10 (F := F)) V (Proc.devRef .tc main_v543) = (Cert.ReferenceIdeal.Stages.val_main_v543 (F := F) a0 a1 a6 a7 a10 a11 a12 a13 a14 a15 a16) := by
  subst_vars
  simp only [ops10]
  after_results_simp
  try simp only [TRef.ofBuf, TRef.toBuf, cast_eq]
  try simp only [h_main_v499, h_main_v417, h_main_v419, h_main_v489, h_main_v488, h_main_v484]
  all_goals rfl

set_option maxHeartbeats 2000000 in
/-- What main_v548 holds after the window. -/
theorem value10_main_v548 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v499 : V (Proc.devRef .tc main_v499) = (Cert.ReferenceIdeal.Stages.val_main_v499 (F := F) a6 a7))
    (h_main_v417 : V (Proc.devRef .tc main_v417) = (Cert.ReferenceIdeal.Stages.val_main_v417 (F := F) a6))
    (h_main_arg7 : V (Proc.devRef .tc main_arg7) = a7)
    (h_main_v419 : V (Proc.devRef .tc main_v419) = (Cert.ReferenceIdeal.Stages.val_main_v419 (F := F) a6))
    (h_main_v489 : V (Proc.devRef .tc main_v489) = (Cert.ReferenceIdeal.Stages.val_main_v489 (F := F) a0 a1 a6 a7 a10 a11 a12 a13 a14 a15 a16))
    (h_main_v488 : V (Proc.devRef .tc main_v488) = (Cert.ReferenceIdeal.Stages.val_main_v488 (F := F) a16))
    (h_main_arg17 : V (Proc.devRef .tc main_arg17) = a17)
    (h_main_v484 : V (Proc.devRef .tc main_v484) = (Cert.ReferenceIdeal.Stages.val_main_v484 (F := F) a0 a1 a6 a7 a10 a11 a12 a13 a14 a15 a16 a17))
    (h_main_arg15 : V (Proc.devRef .tc main_arg15) = a15) :
    after (ops10 (F := F)) V (Proc.devRef .tc main_v548) = (Cert.ReferenceIdeal.Stages.val_main_v548 (F := F) a0 a1 a6 a7 a10 a11 a12 a13 a14 a15 a16 a17) := by
  subst_vars
  simp only [ops10]
  after_results_simp
  try simp only [TRef.ofBuf, TRef.toBuf, cast_eq]
  try simp only [h_main_v499, h_main_v417, h_main_v419, h_main_v489, h_main_v488, h_main_v484]
  all_goals rfl

set_option maxHeartbeats 2000000 in
/-- What main_v550 holds after the window. -/
theorem value10_main_v550 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v499 : V (Proc.devRef .tc main_v499) = (Cert.ReferenceIdeal.Stages.val_main_v499 (F := F) a6 a7))
    (h_main_v417 : V (Proc.devRef .tc main_v417) = (Cert.ReferenceIdeal.Stages.val_main_v417 (F := F) a6))
    (h_main_arg7 : V (Proc.devRef .tc main_arg7) = a7)
    (h_main_v419 : V (Proc.devRef .tc main_v419) = (Cert.ReferenceIdeal.Stages.val_main_v419 (F := F) a6))
    (h_main_v489 : V (Proc.devRef .tc main_v489) = (Cert.ReferenceIdeal.Stages.val_main_v489 (F := F) a0 a1 a6 a7 a10 a11 a12 a13 a14 a15 a16))
    (h_main_v488 : V (Proc.devRef .tc main_v488) = (Cert.ReferenceIdeal.Stages.val_main_v488 (F := F) a16))
    (h_main_arg17 : V (Proc.devRef .tc main_arg17) = a17)
    (h_main_v484 : V (Proc.devRef .tc main_v484) = (Cert.ReferenceIdeal.Stages.val_main_v484 (F := F) a0 a1 a6 a7 a10 a11 a12 a13 a14 a15 a16 a17))
    (h_main_arg15 : V (Proc.devRef .tc main_arg15) = a15) :
    after (ops10 (F := F)) V (Proc.devRef .tc main_v550) = (Cert.ReferenceIdeal.Stages.val_main_v550 (F := F) a15) := by
  subst_vars
  simp only [ops10]
  after_results_simp
  try simp only [TRef.ofBuf, TRef.toBuf, cast_eq]
  try simp only [h_main_v499, h_main_v417, h_main_v419, h_main_v489, h_main_v488, h_main_v484]
  all_goals rfl

end Cert.ReferenceIdeal.Window

end
-- ==== Proof.RWin11.lean ====
/-
  The reference program's window number 11 (operations 661 to 720 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops11 : List (HloOp τ sig (Elt F)) :=
  [ unary main_arg16 main_v551 ((extractStridedSlice S1x64 ![2, 0] · slices_S3x64_S1x64_2_0) : (⟨S3x64, .f32⟩ : BufTy).Contents (Elt F) → (⟨S1x64, .f32⟩ : BufTy).Contents (Elt F)),
    reshape main_v551 main_v552 rfl shapeCasts_S1x64_S64,
    binary main_v543 main_v550 main_v553 ((fun l r => Host.dotGeneral dot_S25000x64_S64x64_S25000x64_1_0_0_1_n_n none l r) : (⟨S25000x64, .f32⟩ : BufTy).Contents (Elt F) → (⟨S64x64, .f32⟩ : BufTy).Contents (Elt F) → (⟨S25000x64, .f32⟩ : BufTy).Contents (Elt F)),
    nullary main_cst_107 (constant S_ .f32 0x00000000#32),
    unary main_cst_107 main_v554 (broadcastInDim S25000 ![] bcast_S_S25000 : (⟨S_, .f32⟩ : BufTy).Contents (Elt F) → (⟨S25000, .f32⟩ : BufTy).Contents (Elt F)),
    nullary main_c_108 (constantI S_ 32 0#32),
    unary main_c_108 main_v555 (broadcastInDim S100000 ![] bcast_S_S100000 : (⟨S_, .i32⟩ : BufTy).Contents (Elt F) → (⟨S100000, .i32⟩ : BufTy).Contents (Elt F)),
    binary main_v419 main_v555 main_v556 (cmpi .slt : (⟨S100000, .i32⟩ : BufTy).Contents (Elt F) → (⟨S100000, .i32⟩ : BufTy).Contents (Elt F) → (⟨S100000, .i1⟩ : BufTy).Contents (Elt F)),
    nullary main_c_109 (constantI S_ 32 25000#32),
    unary main_c_109 main_v557 (broadcastInDim S100000 ![] bcast_S_S100000 : (⟨S_, .i32⟩ : BufTy).Contents (Elt F) → (⟨S100000, .i32⟩ : BufTy).Contents (Elt F)),
    binary main_v419 main_v557 main_v558 (addi : (⟨S100000, .i32⟩ : BufTy).Contents (Elt F) → (⟨S100000, .i32⟩ : BufTy).Contents (Elt F) → (⟨S100000, .i32⟩ : BufTy).Contents (Elt F)),
    ternary main_v556 main_v558 main_v419 main_v559 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v559 main_v560 (broadcastInDim S100000x1 ![0] bcast_S100000_S100000x1_0 : (⟨S100000, .i32⟩ : BufTy).Contents (Elt F) → (⟨S100000x1, .i32⟩ : BufTy).Contents (Elt F)),
    ternary main_v554 main_v560 main_arg7 main_v561 ((fun x i u => Host.scatterAdd scatter_S25000_S100000x1_S100000_n_0_0_1 x i u) : (⟨S25000, .f32⟩ : BufTy).Contents (Elt F) → (⟨S100000x1, .i32⟩ : BufTy).Contents (Elt F) → (⟨S100000, .f32⟩ : BufTy).Contents (Elt F) → (⟨S25000, .f32⟩ : BufTy).Contents (Elt F)),
    nullary main_cst_110 (constant S_ .f32 0x3F800000#32),
    unary main_cst_110 main_v562 (broadcastInDim S25000 ![] bcast_S_S25000 : (⟨S_, .f32⟩ : BufTy).Contents (Elt F) → (⟨S25000, .f32⟩ : BufTy).Contents (Elt F)),
    binary main_v561 main_v562 main_v563 (addf : (⟨S25000, .f32⟩ : BufTy).Contents (Elt F) → (⟨S25000, .f32⟩ : BufTy).Contents (Elt F) → (⟨S25000, .f32⟩ : BufTy).Contents (Elt F)),
    unary main_v563 main_v564 (Host.rsqrt : (⟨S25000, .f32⟩ : BufTy).Contents (Elt F) → (⟨S25000, .f32⟩ : BufTy).Contents (Elt F)),
    nullary main_c_111 (constantI S_ 32 0#32),
    unary main_c_111 main_v565 (broadcastInDim S100000 ![] bcast_S_S100000 : (⟨S_, .i32⟩ : BufTy).Contents (Elt F) → (⟨S100000, .i32⟩ : BufTy).Contents (Elt F)),
    binary main_v417 main_v565 main_v566 (cmpi .slt : (⟨S100000, .i32⟩ : BufTy).Contents (Elt F) → (⟨S100000, .i32⟩ : BufTy).Contents (Elt F) → (⟨S100000, .i1⟩ : BufTy).Contents (Elt F)),
    nullary main_c_112 (constantI S_ 32 25000#32),
    unary main_c_112 main_v567 (broadcastInDim S100000 ![] bcast_S_S100000 : (⟨S_, .i32⟩ : BufTy).Contents (Elt F) → (⟨S100000, .i32⟩ : BufTy).Contents (Elt F)),
    binary main_v417 main_v567 main_v568 (addi : (⟨S100000, .i32⟩ : BufTy).Contents (Elt F) → (⟨S100000, .i32⟩ : BufTy).Contents (Elt F) → (⟨S100000, .i32⟩ : BufTy).Contents (Elt F)),
    ternary main_v566 main_v568 main_v417 main_v569 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v569 main_v570 (broadcastInDim S100000x1 ![0] bcast_S100000_S100000x1_0 : (⟨S100000, .i32⟩ : BufTy).Contents (Elt F) → (⟨S100000x1, .i32⟩ : BufTy).Contents (Elt F)),
    binary main_v564 main_v570 main_v571 ((fun x i => Host.gather gather_S25000_S100000x1_S100000_n_0_n_n_0_1_1 x i) : (⟨S25000, .f32⟩ : BufTy).Contents (Elt F) → (⟨S100000x1, .i32⟩ : BufTy).Contents (Elt F) → (⟨S100000, .f32⟩ : BufTy).Contents (Elt F)),
    binary main_v571 main_arg7 main_v572 (mulf : (⟨S100000, .f32⟩ : BufTy).Contents (Elt F) → (⟨S100000, .f32⟩ : BufTy).Contents (Elt F) → (⟨S100000, .f32⟩ : BufTy).Contents (Elt F)),
    nullary main_c_113 (constantI S_ 32 0#32),
    unary main_c_113 main_v573 (broadcastInDim S100000 ![] bcast_S_S100000 : (⟨S_, .i32⟩ : BufTy).Contents (Elt F) → (⟨S100000, .i32⟩ : BufTy).Contents (Elt F)),
    binary main_v419 main_v573 main_v574 (cmpi .slt : (⟨S100000, .i32⟩ : BufTy).Contents (Elt F) → (⟨S100000, .i32⟩ : BufTy).Contents (Elt F) → (⟨S100000, .i1⟩ : BufTy).Contents (Elt F)),
    nullary main_c_114 (constantI S_ 32 25000#32),
    unary main_c_114 main_v575 (broadcastInDim S100000 ![] bcast_S_S100000 : (⟨S_, .i32⟩ : BufTy).Contents (Elt F) → (⟨S100000, .i32⟩ : BufTy).Contents (Elt F)),
    binary main_v419 main_v575 main_v576 (addi : (⟨S100000, .i32⟩ : BufTy).Contents (Elt F) → (⟨S100000, .i32⟩ : BufTy).Contents (Elt F) → (⟨S100000, .i32⟩ : BufTy).Contents (Elt F)),
    ternary main_v574 main_v576 main_v419 main_v577 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v577 main_v578 (broadcastInDim S100000x1 ![0] bcast_S100000_S100000x1_0 : (⟨S100000, .i32⟩ : BufTy).Contents (Elt F) → (⟨S100000x1, .i32⟩ : BufTy).Contents (Elt F)),
    binary main_v564 main_v578 main_v579 ((fun x i => Host.gather gather_S25000_S100000x1_S100000_n_0_n_n_0_1_1 x i) : (⟨S25000, .f32⟩ : BufTy).Contents (Elt F) → (⟨S100000x1, .i32⟩ : BufTy).Contents (Elt F) → (⟨S100000, .f32⟩ : BufTy).Contents (Elt F)),
    binary main_v572 main_v579 main_v580 (mulf : (⟨S100000, .f32⟩ : BufTy).Contents (Elt F) → (⟨S100000, .f32⟩ : BufTy).Contents (Elt F) → (⟨S100000, .f32⟩ : BufTy).Contents (Elt F)),
    nullary main_cst_115 (constant S_ .f32 0x00000000#32),
    unary main_cst_115 main_v581 (broadcastInDim S25000x64 ![] bcast_S_S25000x64 : (⟨S_, .f32⟩ : BufTy).Contents (Elt F) → (⟨S25000x64, .f32⟩ : BufTy).Contents (Elt F)),
    unary main_v580 main_v582 (broadcastInDim S100000x1 ![0] bcast_S100000_S100000x1_0 : (⟨S100000, .f32⟩ : BufTy).Contents (Elt F) → (⟨S100000x1, .f32⟩ : BufTy).Contents (Elt F)),
    nullary main_c_116 (constantI S_ 32 0#32),
    unary main_c_116 main_v583 (broadcastInDim S100000 ![] bcast_S_S100000 : (⟨S_, .i32⟩ : BufTy).Contents (Elt F) → (⟨S100000, .i32⟩ : BufTy).Contents (Elt F)),
    binary main_v417 main_v583 main_v584 (cmpi .slt : (⟨S100000, .i32⟩ : BufTy).Contents (Elt F) → (⟨S100000, .i32⟩ : BufTy).Contents (Elt F) → (⟨S100000, .i1⟩ : BufTy).Contents (Elt F)),
    nullary main_c_117 (constantI S_ 32 25000#32),
    unary main_c_117 main_v585 (broadcastInDim S100000 ![] bcast_S_S100000 : (⟨S_, .i32⟩ : BufTy).Contents (Elt F) → (⟨S100000, .i32⟩ : BufTy).Contents (Elt F)),
    binary main_v417 main_v585 main_v586 (addi : (⟨S100000, .i32⟩ : BufTy).Contents (Elt F) → (⟨S100000, .i32⟩ : BufTy).Contents (Elt F) → (⟨S100000, .i32⟩ : BufTy).Contents (Elt F)),
    ternary main_v584 main_v586 main_v417 main_v587 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v587 main_v588 (broadcastInDim S100000x1 ![0] bcast_S100000_S100000x1_0 : (⟨S100000, .i32⟩ : BufTy).Contents (Elt F) → (⟨S100000x1, .i32⟩ : BufTy).Contents (Elt F)),
    binary main_v553 main_v588 main_v589 ((fun x i => Host.gather gather_S25000x64_S100000x1_S100000x64_1_0_n_n_0_1_164 x i) : (⟨S25000x64, .f32⟩ : BufTy).Contents (Elt F) → (⟨S100000x1, .i32⟩ : BufTy).Contents (Elt F) → (⟨S100000x64, .f32⟩ : BufTy).Contents (Elt F)),
    unary main_v582 main_v590 (broadcastInDim S100000x64 ![0, 1] bcast_S100000x1_S100000x64_0_1 : (⟨S100000x1, .f32⟩ : BufTy).Contents (Elt F) → (⟨S100000x64, .f32⟩ : BufTy).Contents (Elt F)),
    binary main_v590 main_v589 main_v591 (mulf : (⟨S100000x64, .f32⟩ : BufTy).Contents (Elt F) → (⟨S100000x64, .f32⟩ : BufTy).Contents (Elt F) → (⟨S100000x64, .f32⟩ : BufTy).Contents (Elt F)),
    nullary main_c_118 (constantI S_ 32 0#32),
    unary main_c_118 main_v592 (broadcastInDim S100000 ![] bcast_S_S100000 : (⟨S_, .i32⟩ : BufTy).Contents (Elt F) → (⟨S100000, .i32⟩ : BufTy).Contents (Elt F)),
    binary main_v419 main_v592 main_v593 (cmpi .slt : (⟨S100000, .i32⟩ : BufTy).Contents (Elt F) → (⟨S100000, .i32⟩ : BufTy).Contents (Elt F) → (⟨S100000, .i1⟩ : BufTy).Contents (Elt F)),
    nullary main_c_119 (constantI S_ 32 25000#32),
    unary main_c_119 main_v594 (broadcastInDim S100000 ![] bcast_S_S100000 : (⟨S_, .i32⟩ : BufTy).Contents (Elt F) → (⟨S100000, .i32⟩ : BufTy).Contents (Elt F)),
    binary main_v419 main_v594 main_v595 (addi : (⟨S100000, .i32⟩ : BufTy).Contents (Elt F) → (⟨S100000, .i32⟩ : BufTy).Contents (Elt F) → (⟨S100000, .i32⟩ : BufTy).Contents (Elt F)),
    ternary main_v593 main_v595 main_v419 main_v596 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v596 main_v597 (broadcastInDim S100000x1 ![0] bcast_S100000_S100000x1_0 : (⟨S100000, .i32⟩ : BufTy).Contents (Elt F) → (⟨S100000x1, .i32⟩ : BufTy).Contents (Elt F)) ]

theorem part11_eq (c : Dev nD) : main_part11 (F := F) c = seq ops11 := rfl

theorem ops11_sub : (ops11 : List (HloOp τ sig (Elt F))).Forall fun op => op.bufs ⊆ tcRefs τ sig :=
  ⟨unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

theorem ops11_fresh : (ops11 : List (HloOp τ sig (Elt F))).Forall fun op => op.fresh = ∅ := by
  simp only [List.Forall]; repeat' constructor

/-- The buffers the window writes. -/
abbrev written11 : List (Ref sig .tc) := [main_v551, main_v552, main_v553, main_cst_107, main_v554, main_c_108, main_v555, main_v556, main_c_109, main_v557, main_v558, main_v559, main_v560, main_v561, main_cst_110, main_v562, main_v563, main_v564, main_c_111, main_v565, main_v566, main_c_112, main_v567, main_v568, main_v569, main_v570, main_v571, main_v572, main_c_113, main_v573, main_v574, main_c_114, main_v575, main_v576, main_v577, main_v578, main_v579, main_v580, main_cst_115, main_v581, main_v582, main_c_116, main_v583, main_v584, main_c_117, main_v585, main_v586, main_v587, main_v588, main_v589, main_v590, main_v591, main_c_118, main_v592, main_v593, main_c_119, main_v594, main_v595, main_v596, main_v597]

theorem writes11 : (ops11 : List (HloOp τ sig (Elt F))).Forall fun op => op.writes ⊆ ((written11).map (Proc.devRef (τ := τ) .tc)).toFinset := by
  simp only [ops11, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep11 (V : Valuation τ sig (Elt F)) (r : Ref sig .tc) (h : r ∉ written11) :
    after (ops11 (F := F)) V (Proc.devRef .tc r) = V (Proc.devRef .tc r) :=
  after_of_writes_sub (ops11 (F := F)) V writes11 h

set_option maxHeartbeats 2000000 in
/-- What main_v552 holds after the window. -/
theorem value11_main_v552 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg16 : V (Proc.devRef .tc main_arg16) = a16)
    (h_main_v543 : V (Proc.devRef .tc main_v543) = (Cert.ReferenceIdeal.Stages.val_main_v543 (F := F) a0 a1 a6 a7 a10 a11 a12 a13 a14 a15 a16))
    (h_main_v550 : V (Proc.devRef .tc main_v550) = (Cert.ReferenceIdeal.Stages.val_main_v550 (F := F) a15))
    (h_main_v419 : V (Proc.devRef .tc main_v419) = (Cert.ReferenceIdeal.Stages.val_main_v419 (F := F) a6))
    (h_main_arg7 : V (Proc.devRef .tc main_arg7) = a7)
    (h_main_v417 : V (Proc.devRef .tc main_v417) = (Cert.ReferenceIdeal.Stages.val_main_v417 (F := F) a6)) :
    after (ops11 (F := F)) V (Proc.devRef .tc main_v552) = (Cert.ReferenceIdeal.Stages.val_main_v552 (F := F) a16) := by
  subst_vars
  simp only [ops11]
  after_results_simp
  try simp only [TRef.ofBuf, TRef.toBuf, cast_eq]
  try simp only [h_main_v543, h_main_v550, h_main_v419, h_main_v417]
  all_goals rfl

set_option maxHeartbeats 2000000 in
/-- What main_v553 holds after the window. -/
theorem value11_main_v553 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg16 : V (Proc.devRef .tc main_arg16) = a16)
    (h_main_v543 : V (Proc.devRef .tc main_v543) = (Cert.ReferenceIdeal.Stages.val_main_v543 (F := F) a0 a1 a6 a7 a10 a11 a12 a13 a14 a15 a16))
    (h_main_v550 : V (Proc.devRef .tc main_v550) = (Cert.ReferenceIdeal.Stages.val_main_v550 (F := F) a15))
    (h_main_v419 : V (Proc.devRef .tc main_v419) = (Cert.ReferenceIdeal.Stages.val_main_v419 (F := F) a6))
    (h_main_arg7 : V (Proc.devRef .tc main_arg7) = a7)
    (h_main_v417 : V (Proc.devRef .tc main_v417) = (Cert.ReferenceIdeal.Stages.val_main_v417 (F := F) a6)) :
    after (ops11 (F := F)) V (Proc.devRef .tc main_v553) = (Cert.ReferenceIdeal.Stages.val_main_v553 (F := F) a0 a1 a6 a7 a10 a11 a12 a13 a14 a15 a16) := by
  subst_vars
  simp only [ops11]
  after_results_simp
  try simp only [TRef.ofBuf, TRef.toBuf, cast_eq]
  try simp only [h_main_v543, h_main_v550, h_main_v419, h_main_v417]
  all_goals rfl

set_option maxHeartbeats 2000000 in
/-- What main_v564 holds after the window. -/
theorem value11_main_v564 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg16 : V (Proc.devRef .tc main_arg16) = a16)
    (h_main_v543 : V (Proc.devRef .tc main_v543) = (Cert.ReferenceIdeal.Stages.val_main_v543 (F := F) a0 a1 a6 a7 a10 a11 a12 a13 a14 a15 a16))
    (h_main_v550 : V (Proc.devRef .tc main_v550) = (Cert.ReferenceIdeal.Stages.val_main_v550 (F := F) a15))
    (h_main_v419 : V (Proc.devRef .tc main_v419) = (Cert.ReferenceIdeal.Stages.val_main_v419 (F := F) a6))
    (h_main_arg7 : V (Proc.devRef .tc main_arg7) = a7)
    (h_main_v417 : V (Proc.devRef .tc main_v417) = (Cert.ReferenceIdeal.Stages.val_main_v417 (F := F) a6)) :
    after (ops11 (F := F)) V (Proc.devRef .tc main_v564) = (Cert.ReferenceIdeal.Stages.val_main_v564 (F := F) a6 a7) := by
  subst_vars
  simp only [ops11]
  after_results_simp
  try simp only [TRef.ofBuf, TRef.toBuf, cast_eq]
  try simp only [h_main_v543, h_main_v550, h_main_v419, h_main_v417]
  all_goals rfl

set_option maxHeartbeats 2000000 in
/-- What main_v581 holds after the window. -/
theorem value11_main_v581 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg16 : V (Proc.devRef .tc main_arg16) = a16)
    (h_main_v543 : V (Proc.devRef .tc main_v543) = (Cert.ReferenceIdeal.Stages.val_main_v543 (F := F) a0 a1 a6 a7 a10 a11 a12 a13 a14 a15 a16))
    (h_main_v550 : V (Proc.devRef .tc main_v550) = (Cert.ReferenceIdeal.Stages.val_main_v550 (F := F) a15))
    (h_main_v419 : V (Proc.devRef .tc main_v419) = (Cert.ReferenceIdeal.Stages.val_main_v419 (F := F) a6))
    (h_main_arg7 : V (Proc.devRef .tc main_arg7) = a7)
    (h_main_v417 : V (Proc.devRef .tc main_v417) = (Cert.ReferenceIdeal.Stages.val_main_v417 (F := F) a6)) :
    after (ops11 (F := F)) V (Proc.devRef .tc main_v581) = (Cert.ReferenceIdeal.Stages.val_main_v581 (F := F)) := by
  subst_vars
  simp only [ops11]
  after_results_simp
  try simp only [TRef.ofBuf, TRef.toBuf, cast_eq]
  try simp only [h_main_v543, h_main_v550, h_main_v419, h_main_v417]
  all_goals rfl

set_option maxHeartbeats 2000000 in
/-- What main_v591 holds after the window. -/
theorem value11_main_v591 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg16 : V (Proc.devRef .tc main_arg16) = a16)
    (h_main_v543 : V (Proc.devRef .tc main_v543) = (Cert.ReferenceIdeal.Stages.val_main_v543 (F := F) a0 a1 a6 a7 a10 a11 a12 a13 a14 a15 a16))
    (h_main_v550 : V (Proc.devRef .tc main_v550) = (Cert.ReferenceIdeal.Stages.val_main_v550 (F := F) a15))
    (h_main_v419 : V (Proc.devRef .tc main_v419) = (Cert.ReferenceIdeal.Stages.val_main_v419 (F := F) a6))
    (h_main_arg7 : V (Proc.devRef .tc main_arg7) = a7)
    (h_main_v417 : V (Proc.devRef .tc main_v417) = (Cert.ReferenceIdeal.Stages.val_main_v417 (F := F) a6)) :
    after (ops11 (F := F)) V (Proc.devRef .tc main_v591) = (Cert.ReferenceIdeal.Stages.val_main_v591 (F := F) a0 a1 a6 a7 a10 a11 a12 a13 a14 a15 a16) := by
  subst_vars
  simp only [ops11]
  after_results_simp
  try simp only [TRef.ofBuf, TRef.toBuf, cast_eq]
  try simp only [h_main_v543, h_main_v550, h_main_v419, h_main_v417]
  all_goals rfl

set_option maxHeartbeats 2000000 in
/-- What main_v597 holds after the window. -/
theorem value11_main_v597 (V : Valuation τ sig (Elt F)) (a0 : (⟨S525000x6, .f32⟩ : BufTy).Contents (Elt F)) (a1 : (⟨S525000x10, .f32⟩ : BufTy).Contents (Elt F)) (a6 : (⟨S2x100000, .i32⟩ : BufTy).Contents (Elt F)) (a7 : (⟨S100000, .f32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F))
    (h_main_arg16 : V (Proc.devRef .tc main_arg16) = a16)
    (h_main_v543 : V (Proc.devRef .tc main_v543) = (Cert.ReferenceIdeal.Stages.val_main_v543 (F := F) a0 a1 a6 a7 a10 a11 a12 a13 a14 a15 a16))
    (h_main_v550 : V (Proc.devRef .tc main_v550) = (Cert.ReferenceIdeal.Stages.val_main_v550 (F := F) a15))
    (h_main_v419 : V (Proc.devRef .tc main_v419) = (Cert.ReferenceIdeal.Stages.val_main_v419 (F := F) a6))
    (h_main_arg7 : V (Proc.devRef .tc main_arg7) = a7)
    (h_main_v417 : V (Proc.devRef .tc main_v417) = (Cert.ReferenceIdeal.Stages.val_main_v417 (F := F) a6)) :
    after (ops11 (F := F)) V (Proc.devRef .tc main_v597) = (Cert.ReferenceIdeal.Stages.val_main_v597 (F := F) a6) := by
  subst_vars
  simp only [ops11]
  after_results_simp
  try simp only [TRef.ofBuf, TRef.toBuf, cast_eq]
  try simp only [h_main_v543, h_main_v550, h_main_v419, h_main_v417]
  all_goals rfl

end Cert.ReferenceIdeal.Window

end
-- ==== Proof.RWin12.lean ====
/-
  The reference program's window number 12 (operations 721 to 780 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops12 : List (HloOp τ sig (Elt F)) :=
  [ ternary main_v581 main_v597 main_v591 main_v598 ((fun x i u => Host.scatterAdd scatter_S25000x64_S100000x1_S100000x64_1_0_0_1 x i u) : (⟨S25000x64, .f32⟩ : BufTy).Contents (Elt F) → (⟨S100000x1, .i32⟩ : BufTy).Contents (Elt F) → (⟨S100000x64, .f32⟩ : BufTy).Contents (Elt F) → (⟨S25000x64, .f32⟩ : BufTy).Contents (Elt F)),
    binary main_v564 main_v564 main_v599 (mulf : (⟨S25000, .f32⟩ : BufTy).Contents (Elt F) → (⟨S25000, .f32⟩ : BufTy).Contents (Elt F) → (⟨S25000, .f32⟩ : BufTy).Contents (Elt F)),
    unary main_v599 main_v600 (broadcastInDim S25000x1 ![0] bcast_S25000_S25000x1_0 : (⟨S25000, .f32⟩ : BufTy).Contents (Elt F) → (⟨S25000x1, .f32⟩ : BufTy).Contents (Elt F)),
    unary main_v600 main_v601 (broadcastInDim S25000x64 ![0, 1] bcast_S25000x1_S25000x64_0_1 : (⟨S25000x1, .f32⟩ : BufTy).Contents (Elt F) → (⟨S25000x64, .f32⟩ : BufTy).Contents (Elt F)),
    binary main_v553 main_v601 main_v602 (mulf : (⟨S25000x64, .f32⟩ : BufTy).Contents (Elt F) → (⟨S25000x64, .f32⟩ : BufTy).Contents (Elt F) → (⟨S25000x64, .f32⟩ : BufTy).Contents (Elt F)),
    binary main_v598 main_v602 main_v603 (addf : (⟨S25000x64, .f32⟩ : BufTy).Contents (Elt F) → (⟨S25000x64, .f32⟩ : BufTy).Contents (Elt F) → (⟨S25000x64, .f32⟩ : BufTy).Contents (Elt F)),
    unary main_v552 main_v604 (broadcastInDim S1x64 ![1] bcast_S64_S1x64_1 : (⟨S64, .f32⟩ : BufTy).Contents (Elt F) → (⟨S1x64, .f32⟩ : BufTy).Contents (Elt F)),
    unary main_v604 main_v605 (broadcastInDim S25000x64 ![0, 1] bcast_S1x64_S25000x64_0_1 : (⟨S1x64, .f32⟩ : BufTy).Contents (Elt F) → (⟨S25000x64, .f32⟩ : BufTy).Contents (Elt F)),
    binary main_v603 main_v605 main_v606 (addf : (⟨S25000x64, .f32⟩ : BufTy).Contents (Elt F) → (⟨S25000x64, .f32⟩ : BufTy).Contents (Elt F) → (⟨S25000x64, .f32⟩ : BufTy).Contents (Elt F)),
    unary main_v606 main_v607 (Host.tanh : (⟨S25000x64, .f32⟩ : BufTy).Contents (Elt F) → (⟨S25000x64, .f32⟩ : BufTy).Contents (Elt F)),
    unary main_arg17 main_v608 ((extractStridedSlice S1x1 ![2, 2] · slices_S3x3_S1x1_2_2) : (⟨S3x3, .f32⟩ : BufTy).Contents (Elt F) → (⟨S1x1, .f32⟩ : BufTy).Contents (Elt F)),
    reshape main_v608 main_v609 rfl shapeCasts_S1x1_S_,
    unary main_v609 main_v610 (broadcastInDim S25000x64 ![] bcast_S_S25000x64 : (⟨S_, .f32⟩ : BufTy).Contents (Elt F) → (⟨S25000x64, .f32⟩ : BufTy).Contents (Elt F)),
    binary main_v610 main_v607 main_v611 (mulf : (⟨S25000x64, .f32⟩ : BufTy).Contents (Elt F) → (⟨S25000x64, .f32⟩ : BufTy).Contents (Elt F) → (⟨S25000x64, .f32⟩ : BufTy).Contents (Elt F)),
    binary main_v548 main_v611 main_v612 (addf : (⟨S25000x64, .f32⟩ : BufTy).Contents (Elt F) → (⟨S25000x64, .f32⟩ : BufTy).Contents (Elt F) → (⟨S25000x64, .f32⟩ : BufTy).Contents (Elt F)),
    nullary main_cst_120 (constant S_ .f32 0x00000000#32),
    unary main_cst_120 main_v613 (broadcastInDim S400000 ![] bcast_S_S400000 : (⟨S_, .f32⟩ : BufTy).Contents (Elt F) → (⟨S400000, .f32⟩ : BufTy).Contents (Elt F)),
    nullary main_c_121 (constantI S_ 32 0#32),
    unary main_c_121 main_v614 (broadcastInDim S100000 ![] bcast_S_S100000 : (⟨S_, .i32⟩ : BufTy).Contents (Elt F) → (⟨S100000, .i32⟩ : BufTy).Contents (Elt F)),
    binary main_arg8 main_v614 main_v615 (cmpi .slt : (⟨S100000, .i32⟩ : BufTy).Contents (Elt F) → (⟨S100000, .i32⟩ : BufTy).Contents (Elt F) → (⟨S100000, .i1⟩ : BufTy).Contents (Elt F)),
    nullary main_c_122 (constantI S_ 32 400000#32),
    unary main_c_122 main_v616 (broadcastInDim S100000 ![] bcast_S_S100000 : (⟨S_, .i32⟩ : BufTy).Contents (Elt F) → (⟨S100000, .i32⟩ : BufTy).Contents (Elt F)),
    binary main_arg8 main_v616 main_v617 (addi : (⟨S100000, .i32⟩ : BufTy).Contents (Elt F) → (⟨S100000, .i32⟩ : BufTy).Contents (Elt F) → (⟨S100000, .i32⟩ : BufTy).Contents (Elt F)),
    ternary main_v615 main_v617 main_arg8 main_v618 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v618 main_v619 (broadcastInDim S100000x1 ![0] bcast_S100000_S100000x1_0 : (⟨S100000, .i32⟩ : BufTy).Contents (Elt F) → (⟨S100000x1, .i32⟩ : BufTy).Contents (Elt F)),
    nullary main_cst_123 (constant S_ .f32 0x3F800000#32),
    unary main_cst_123 main_v620 (broadcastInDim S100000 ![] bcast_S_S100000 : (⟨S_, .f32⟩ : BufTy).Contents (Elt F) → (⟨S100000, .f32⟩ : BufTy).Contents (Elt F)),
    ternary main_v613 main_v619 main_v620 main_v621 ((fun x i u => Host.scatterAdd scatter_S400000_S100000x1_S100000_n_0_0_1 x i u) : (⟨S400000, .f32⟩ : BufTy).Contents (Elt F) → (⟨S100000x1, .i32⟩ : BufTy).Contents (Elt F) → (⟨S100000, .f32⟩ : BufTy).Contents (Elt F) → (⟨S400000, .f32⟩ : BufTy).Contents (Elt F)),
    nullary main_cst_124 (constant S_ .f32 0x00000000#32),
    unary main_cst_124 main_v622 (broadcastInDim S400000x64 ![] bcast_S_S400000x64 : (⟨S_, .f32⟩ : BufTy).Contents (Elt F) → (⟨S400000x64, .f32⟩ : BufTy).Contents (Elt F)),
    nullary main_c_125 (constantI S_ 32 0#32),
    unary main_c_125 main_v623 (broadcastInDim S100000 ![] bcast_S_S100000 : (⟨S_, .i32⟩ : BufTy).Contents (Elt F) → (⟨S100000, .i32⟩ : BufTy).Contents (Elt F)),
    binary main_arg8 main_v623 main_v624 (cmpi .slt : (⟨S100000, .i32⟩ : BufTy).Contents (Elt F) → (⟨S100000, .i32⟩ : BufTy).Contents (Elt F) → (⟨S100000, .i1⟩ : BufTy).Contents (Elt F)),
    nullary main_c_126 (constantI S_ 32 400000#32),
    unary main_c_126 main_v625 (broadcastInDim S100000 ![] bcast_S_S100000 : (⟨S_, .i32⟩ : BufTy).Contents (Elt F) → (⟨S100000, .i32⟩ : BufTy).Contents (Elt F)),
    binary main_arg8 main_v625 main_v626 (addi : (⟨S100000, .i32⟩ : BufTy).Contents (Elt F) → (⟨S100000, .i32⟩ : BufTy).Contents (Elt F) → (⟨S100000, .i32⟩ : BufTy).Contents (Elt F)),
    ternary main_v624 main_v626 main_arg8 main_v627 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v627 main_v628 (broadcastInDim S100000x1 ![0] bcast_S100000_S100000x1_0 : (⟨S100000, .i32⟩ : BufTy).Contents (Elt F) → (⟨S100000x1, .i32⟩ : BufTy).Contents (Elt F)),
    ternary main_v622 main_v628 main_v415 main_v629 ((fun x i u => Host.scatterAdd scatter_S400000x64_S100000x1_S100000x64_1_0_0_1 x i u) : (⟨S400000x64, .f32⟩ : BufTy).Contents (Elt F) → (⟨S100000x1, .i32⟩ : BufTy).Contents (Elt F) → (⟨S100000x64, .f32⟩ : BufTy).Contents (Elt F) → (⟨S400000x64, .f32⟩ : BufTy).Contents (Elt F)),
    nullary main_cst_127 (constant S_ .f32 0x3F800000#32),
    unary main_cst_127 main_v630 (broadcastInDim S400000 ![] bcast_S_S400000 : (⟨S_, .f32⟩ : BufTy).Contents (Elt F) → (⟨S400000, .f32⟩ : BufTy).Contents (Elt F)),
    binary main_v621 main_v630 main_v631 (maximumf : (⟨S400000, .f32⟩ : BufTy).Contents (Elt F) → (⟨S400000, .f32⟩ : BufTy).Contents (Elt F) → (⟨S400000, .f32⟩ : BufTy).Contents (Elt F)),
    unary main_v631 main_v632 (broadcastInDim S400000x1 ![0] bcast_S400000_S400000x1_0 : (⟨S400000, .f32⟩ : BufTy).Contents (Elt F) → (⟨S400000x1, .f32⟩ : BufTy).Contents (Elt F)),
    unary main_v632 main_v633 (broadcastInDim S400000x64 ![0, 1] bcast_S400000x1_S400000x64_0_1 : (⟨S400000x1, .f32⟩ : BufTy).Contents (Elt F) → (⟨S400000x64, .f32⟩ : BufTy).Contents (Elt F)),
    binary main_v629 main_v633 main_v634 (Host.divf : (⟨S400000x64, .f32⟩ : BufTy).Contents (Elt F) → (⟨S400000x64, .f32⟩ : BufTy).Contents (Elt F) → (⟨S400000x64, .f32⟩ : BufTy).Contents (Elt F)),
    binary main_v218 main_v634 main_v635 (addf : (⟨S400000x64, .f32⟩ : BufTy).Contents (Elt F) → (⟨S400000x64, .f32⟩ : BufTy).Contents (Elt F) → (⟨S400000x64, .f32⟩ : BufTy).Contents (Elt F)),
    nullary main_cst_128 (constant S_ .f32 0x00000000#32),
    unary main_cst_128 main_v636 (broadcastInDim S400000 ![] bcast_S_S400000 : (⟨S_, .f32⟩ : BufTy).Contents (Elt F) → (⟨S400000, .f32⟩ : BufTy).Contents (Elt F)),
    nullary main_c_129 (constantI S_ 32 0#32),
    unary main_c_129 main_v637 (broadcastInDim S25000 ![] bcast_S_S25000 : (⟨S_, .i32⟩ : BufTy).Contents (Elt F) → (⟨S25000, .i32⟩ : BufTy).Contents (Elt F)),
    binary main_arg9 main_v637 main_v638 (cmpi .slt : (⟨S25000, .i32⟩ : BufTy).Contents (Elt F) → (⟨S25000, .i32⟩ : BufTy).Contents (Elt F) → (⟨S25000, .i1⟩ : BufTy).Contents (Elt F)),
    nullary main_c_130 (constantI S_ 32 400000#32),
    unary main_c_130 main_v639 (broadcastInDim S25000 ![] bcast_S_S25000 : (⟨S_, .i32⟩ : BufTy).Contents (Elt F) → (⟨S25000, .i32⟩ : BufTy).Contents (Elt F)),
    binary main_arg9 main_v639 main_v640 (addi : (⟨S25000, .i32⟩ : BufTy).Contents (Elt F) → (⟨S25000, .i32⟩ : BufTy).Contents (Elt F) → (⟨S25000, .i32⟩ : BufTy).Contents (Elt F)),
    ternary main_v638 main_v640 main_arg9 main_v641 (select : (⟨S25000, .i1⟩ : BufTy).Contents (Elt F) → (⟨S25000, .i32⟩ : BufTy).Contents (Elt F) → (⟨S25000, .i32⟩ : BufTy).Contents (Elt F) → (⟨S25000, .i32⟩ : BufTy).Contents (Elt F)),
    unary main_v641 main_v642 (broadcastInDim S25000x1 ![0] bcast_S25000_S25000x1_0 : (⟨S25000, .i32⟩ : BufTy).Contents (Elt F) → (⟨S25000x1, .i32⟩ : BufTy).Contents (Elt F)),
    nullary main_cst_131 (constant S_ .f32 0x3F800000#32),
    unary main_cst_131 main_v643 (broadcastInDim S25000 ![] bcast_S_S25000 : (⟨S_, .f32⟩ : BufTy).Contents (Elt F) → (⟨S25000, .f32⟩ : BufTy).Contents (Elt F)),
    ternary main_v636 main_v642 main_v643 main_v644 ((fun x i u => Host.scatterAdd scatter_S400000_S25000x1_S25000_n_0_0_1 x i u) : (⟨S400000, .f32⟩ : BufTy).Contents (Elt F) → (⟨S25000x1, .i32⟩ : BufTy).Contents (Elt F) → (⟨S25000, .f32⟩ : BufTy).Contents (Elt F) → (⟨S400000, .f32⟩ : BufTy).Contents (Elt F)),
    nullary main_cst_132 (constant S_ .f32 0x00000000#32) ]

theorem part12_eq (c : Dev nD) : main_part12 (F := F) c = seq ops12 := rfl

theorem ops12_sub : (ops12 : List (HloOp τ sig (Elt F))).Forall fun op => op.bufs ⊆ tcRefs τ sig :=
  ⟨ternary_bufs_sub .., binary_bufs_sub .., unary_bufs_sub .., unary_bufs_sub .., binary_bufs_sub .., binary_bufs_sub .., unary_bufs_sub .., unary_bufs_sub .., binary_bufs_sub .., unary_bufs_sub .., unary_bufs_sub .., reshape_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub ..⟩

theorem ops12_fresh : (ops12 : List (HloOp τ sig (Elt F))).Forall fun op => op.fresh = ∅ := by
  simp only [List.Forall]; repeat' constructor

/-- The buffers the window writes. -/
abbrev written12 : List (Ref sig .tc) := [main_v598, main_v599, main_v600, main_v601, main_v602, main_v603, main_v604, main_v605, main_v606, main_v607, main_v608, main_v609, main_v610, main_v611, main_v612, main_cst_120, main_v613, main_c_121, main_v614, main_v615, main_c_122, main_v616, main_v617, main_v618, main_v619, main_cst_123, main_v620, main_v621, main_cst_124, main_v622, main_c_125, main_v623, main_v624, main_c_126, main_v625, main_v626, main_v627, main_v628, main_v629, main_cst_127, main_v630, main_v631, main_v632, main_v633, main_v634, main_v635, main_cst_128, main_v636, main_c_129, main_v637, main_v638, main_c_130, main_v639, main_v640, main_v641, main_v642, main_cst_131, main_v643, main_v644, main_cst_132]

theorem writes12 : (ops12 : List (HloOp τ sig (Elt F))).Forall fun op => op.writes ⊆ ((written12).map (Proc.devRef (τ := τ) .tc)).toFinset := by
  simp only [ops12, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep12 (V : Valuation τ sig (Elt F)) (r : Ref sig .tc) (h : r ∉ written12) :
    after (ops12 (F := F)) V (Proc.devRef .tc r) = V (Proc.devRef .tc r) :=
  after_of_writes_sub (ops12 (F := F)) V writes12 h

set_option maxHeartbeats 2000000 in
/-- What main_v612 holds after the window. -/
theorem value12_main_v612 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a8 : (⟨S100000, .i32⟩ : BufTy).Contents (Elt F)) (a9 : (⟨S25000, .i32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v581 : V (Proc.devRef .tc main_v581) = (Cert.ReferenceIdeal.Stages.val_main_v581 (F := F)))
    (h_main_v597 : V (Proc.devRef .tc main_v597) = (Cert.ReferenceIdeal.Stages.val_main_v597 (F := F) a6))
    (h_main_v591 : V (Proc.devRef .tc main_v591) = (Cert.ReferenceIdeal.Stages.val_main_v591 (F := F) a0 a1 a6 a7 a10 a11 a12 a13 a14 a15 a16))
    (h_main_v564 : V (Proc.devRef .tc main_v564) = (Cert.ReferenceIdeal.Stages.val_main_v564 (F := F) a6 a7))
    (h_main_v553 : V (Proc.devRef .tc main_v553) = (Cert.ReferenceIdeal.Stages.val_main_v553 (F := F) a0 a1 a6 a7 a10 a11 a12 a13 a14 a15 a16))
    (h_main_v552 : V (Proc.devRef .tc main_v552) = (Cert.ReferenceIdeal.Stages.val_main_v552 (F := F) a16))
    (h_main_arg17 : V (Proc.devRef .tc main_arg17) = a17)
    (h_main_v548 : V (Proc.devRef .tc main_v548) = (Cert.ReferenceIdeal.Stages.val_main_v548 (F := F) a0 a1 a6 a7 a10 a11 a12 a13 a14 a15 a16 a17))
    (h_main_arg8 : V (Proc.devRef .tc main_arg8) = a8)
    (h_main_v415 : V (Proc.devRef .tc main_v415) = (Cert.ReferenceIdeal.Stages.val_main_v415 (F := F) a0 a1 a4 a5 a10 a11 a12 a13 a14 a15 a16 a17))
    (h_main_v218 : V (Proc.devRef .tc main_v218) = (Cert.ReferenceIdeal.Stages.val_main_v218 (F := F) a0 a1 a2 a3 a10 a11 a12 a13 a14 a15 a16 a17))
    (h_main_arg9 : V (Proc.devRef .tc main_arg9) = a9) :
    after (ops12 (F := F)) V (Proc.devRef .tc main_v612) = (Cert.ReferenceIdeal.Stages.val_main_v612 (F := F) a0 a1 a6 a7 a10 a11 a12 a13 a14 a15 a16 a17) := by
  subst_vars
  simp only [ops12]
  after_results_simp
  try simp only [TRef.ofBuf, TRef.toBuf, cast_eq]
  try simp only [h_main_v581, h_main_v597, h_main_v591, h_main_v564, h_main_v553, h_main_v552, h_main_v548, h_main_v415, h_main_v218]
  all_goals rfl

set_option maxHeartbeats 2000000 in
/-- What main_v635 holds after the window. -/
theorem value12_main_v635 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a8 : (⟨S100000, .i32⟩ : BufTy).Contents (Elt F)) (a9 : (⟨S25000, .i32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v581 : V (Proc.devRef .tc main_v581) = (Cert.ReferenceIdeal.Stages.val_main_v581 (F := F)))
    (h_main_v597 : V (Proc.devRef .tc main_v597) = (Cert.ReferenceIdeal.Stages.val_main_v597 (F := F) a6))
    (h_main_v591 : V (Proc.devRef .tc main_v591) = (Cert.ReferenceIdeal.Stages.val_main_v591 (F := F) a0 a1 a6 a7 a10 a11 a12 a13 a14 a15 a16))
    (h_main_v564 : V (Proc.devRef .tc main_v564) = (Cert.ReferenceIdeal.Stages.val_main_v564 (F := F) a6 a7))
    (h_main_v553 : V (Proc.devRef .tc main_v553) = (Cert.ReferenceIdeal.Stages.val_main_v553 (F := F) a0 a1 a6 a7 a10 a11 a12 a13 a14 a15 a16))
    (h_main_v552 : V (Proc.devRef .tc main_v552) = (Cert.ReferenceIdeal.Stages.val_main_v552 (F := F) a16))
    (h_main_arg17 : V (Proc.devRef .tc main_arg17) = a17)
    (h_main_v548 : V (Proc.devRef .tc main_v548) = (Cert.ReferenceIdeal.Stages.val_main_v548 (F := F) a0 a1 a6 a7 a10 a11 a12 a13 a14 a15 a16 a17))
    (h_main_arg8 : V (Proc.devRef .tc main_arg8) = a8)
    (h_main_v415 : V (Proc.devRef .tc main_v415) = (Cert.ReferenceIdeal.Stages.val_main_v415 (F := F) a0 a1 a4 a5 a10 a11 a12 a13 a14 a15 a16 a17))
    (h_main_v218 : V (Proc.devRef .tc main_v218) = (Cert.ReferenceIdeal.Stages.val_main_v218 (F := F) a0 a1 a2 a3 a10 a11 a12 a13 a14 a15 a16 a17))
    (h_main_arg9 : V (Proc.devRef .tc main_arg9) = a9) :
    after (ops12 (F := F)) V (Proc.devRef .tc main_v635) = (Cert.ReferenceIdeal.Stages.val_main_v635 (F := F) a0 a1 a2 a3 a4 a5 a8 a10 a11 a12 a13 a14 a15 a16 a17) := by
  subst_vars
  simp only [ops12]
  after_results_simp
  try simp only [TRef.ofBuf, TRef.toBuf, cast_eq]
  try simp only [h_main_v581, h_main_v597, h_main_v591, h_main_v564, h_main_v553, h_main_v552, h_main_v548, h_main_v415, h_main_v218]
  all_goals rfl

set_option maxHeartbeats 2000000 in
/-- What main_v644 holds after the window. -/
theorem value12_main_v644 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a8 : (⟨S100000, .i32⟩ : BufTy).Contents (Elt F)) (a9 : (⟨S25000, .i32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v581 : V (Proc.devRef .tc main_v581) = (Cert.ReferenceIdeal.Stages.val_main_v581 (F := F)))
    (h_main_v597 : V (Proc.devRef .tc main_v597) = (Cert.ReferenceIdeal.Stages.val_main_v597 (F := F) a6))
    (h_main_v591 : V (Proc.devRef .tc main_v591) = (Cert.ReferenceIdeal.Stages.val_main_v591 (F := F) a0 a1 a6 a7 a10 a11 a12 a13 a14 a15 a16))
    (h_main_v564 : V (Proc.devRef .tc main_v564) = (Cert.ReferenceIdeal.Stages.val_main_v564 (F := F) a6 a7))
    (h_main_v553 : V (Proc.devRef .tc main_v553) = (Cert.ReferenceIdeal.Stages.val_main_v553 (F := F) a0 a1 a6 a7 a10 a11 a12 a13 a14 a15 a16))
    (h_main_v552 : V (Proc.devRef .tc main_v552) = (Cert.ReferenceIdeal.Stages.val_main_v552 (F := F) a16))
    (h_main_arg17 : V (Proc.devRef .tc main_arg17) = a17)
    (h_main_v548 : V (Proc.devRef .tc main_v548) = (Cert.ReferenceIdeal.Stages.val_main_v548 (F := F) a0 a1 a6 a7 a10 a11 a12 a13 a14 a15 a16 a17))
    (h_main_arg8 : V (Proc.devRef .tc main_arg8) = a8)
    (h_main_v415 : V (Proc.devRef .tc main_v415) = (Cert.ReferenceIdeal.Stages.val_main_v415 (F := F) a0 a1 a4 a5 a10 a11 a12 a13 a14 a15 a16 a17))
    (h_main_v218 : V (Proc.devRef .tc main_v218) = (Cert.ReferenceIdeal.Stages.val_main_v218 (F := F) a0 a1 a2 a3 a10 a11 a12 a13 a14 a15 a16 a17))
    (h_main_arg9 : V (Proc.devRef .tc main_arg9) = a9) :
    after (ops12 (F := F)) V (Proc.devRef .tc main_v644) = (Cert.ReferenceIdeal.Stages.val_main_v644 (F := F) a9) := by
  subst_vars
  simp only [ops12]
  after_results_simp
  try simp only [TRef.ofBuf, TRef.toBuf, cast_eq]
  try simp only [h_main_v581, h_main_v597, h_main_v591, h_main_v564, h_main_v553, h_main_v552, h_main_v548, h_main_v415, h_main_v218]
  all_goals rfl

set_option maxHeartbeats 2000000 in
/-- What main_cst_132 holds after the window. -/
theorem value12_main_cst_132 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a8 : (⟨S100000, .i32⟩ : BufTy).Contents (Elt F)) (a9 : (⟨S25000, .i32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F))
    (h_main_v581 : V (Proc.devRef .tc main_v581) = (Cert.ReferenceIdeal.Stages.val_main_v581 (F := F)))
    (h_main_v597 : V (Proc.devRef .tc main_v597) = (Cert.ReferenceIdeal.Stages.val_main_v597 (F := F) a6))
    (h_main_v591 : V (Proc.devRef .tc main_v591) = (Cert.ReferenceIdeal.Stages.val_main_v591 (F := F) a0 a1 a6 a7 a10 a11 a12 a13 a14 a15 a16))
    (h_main_v564 : V (Proc.devRef .tc main_v564) = (Cert.ReferenceIdeal.Stages.val_main_v564 (F := F) a6 a7))
    (h_main_v553 : V (Proc.devRef .tc main_v553) = (Cert.ReferenceIdeal.Stages.val_main_v553 (F := F) a0 a1 a6 a7 a10 a11 a12 a13 a14 a15 a16))
    (h_main_v552 : V (Proc.devRef .tc main_v552) = (Cert.ReferenceIdeal.Stages.val_main_v552 (F := F) a16))
    (h_main_arg17 : V (Proc.devRef .tc main_arg17) = a17)
    (h_main_v548 : V (Proc.devRef .tc main_v548) = (Cert.ReferenceIdeal.Stages.val_main_v548 (F := F) a0 a1 a6 a7 a10 a11 a12 a13 a14 a15 a16 a17))
    (h_main_arg8 : V (Proc.devRef .tc main_arg8) = a8)
    (h_main_v415 : V (Proc.devRef .tc main_v415) = (Cert.ReferenceIdeal.Stages.val_main_v415 (F := F) a0 a1 a4 a5 a10 a11 a12 a13 a14 a15 a16 a17))
    (h_main_v218 : V (Proc.devRef .tc main_v218) = (Cert.ReferenceIdeal.Stages.val_main_v218 (F := F) a0 a1 a2 a3 a10 a11 a12 a13 a14 a15 a16 a17))
    (h_main_arg9 : V (Proc.devRef .tc main_arg9) = a9) :
    after (ops12 (F := F)) V (Proc.devRef .tc main_cst_132) = (Cert.ReferenceIdeal.Stages.val_main_cst_132 (F := F)) := by
  subst_vars
  simp only [ops12]
  after_results_simp
  try simp only [TRef.ofBuf, TRef.toBuf, cast_eq]
  try simp only [h_main_v581, h_main_v597, h_main_v591, h_main_v564, h_main_v553, h_main_v552, h_main_v548, h_main_v415, h_main_v218]
  all_goals rfl

end Cert.ReferenceIdeal.Window

end
-- ==== Proof.RWin13.lean ====
/-
  The reference program's window number 13 (operations 781 to 817 of 817), read as values: the window as a list of host
  operations, the buffers it writes, and for each of its buffers that a later window (or the return) reads, what it holds
  after the window given what the window's inputs hold before it: the stage value of that operation at the arguments,
  since each stage is defined as its operation of the stages of its operands.
-/
import proofs.«418542_j22608707846200_1_alg».proof.Proof.Gen.ReferenceIdeal
import proofs.«418542_j22608707846200_1_alg».proof.Proof.RefStages
import Idealize.ShloMosaic.Lib.StableHlo.Run

set_option maxRecDepth 16384

noncomputable section

namespace Cert.ReferenceIdeal.Window

open Cert.ReferenceIdeal Cert.ReferenceIdeal.Gen Idealize.ShloMosaic Idealize.ShloMosaic.TcCoe Idealize.SL.Sem Idealize.ShloMosaic.StableHlo

variable {F : FTy → Type} [FloatOps F]

/-- The window's operations, in order (a called function's operation stands in its call's place). -/
abbrev ops13 : List (HloOp τ sig (Elt F)) :=
  [ unary main_cst_132 main_v645 (broadcastInDim S400000x64 ![] bcast_S_S400000x64 : (⟨S_, .f32⟩ : BufTy).Contents (Elt F) → (⟨S400000x64, .f32⟩ : BufTy).Contents (Elt F)),
    nullary main_c_133 (constantI S_ 32 0#32),
    unary main_c_133 main_v646 (broadcastInDim S25000 ![] bcast_S_S25000 : (⟨S_, .i32⟩ : BufTy).Contents (Elt F) → (⟨S25000, .i32⟩ : BufTy).Contents (Elt F)),
    binary main_arg9 main_v646 main_v647 (cmpi .slt : (⟨S25000, .i32⟩ : BufTy).Contents (Elt F) → (⟨S25000, .i32⟩ : BufTy).Contents (Elt F) → (⟨S25000, .i1⟩ : BufTy).Contents (Elt F)),
    nullary main_c_134 (constantI S_ 32 400000#32),
    unary main_c_134 main_v648 (broadcastInDim S25000 ![] bcast_S_S25000 : (⟨S_, .i32⟩ : BufTy).Contents (Elt F) → (⟨S25000, .i32⟩ : BufTy).Contents (Elt F)),
    binary main_arg9 main_v648 main_v649 (addi : (⟨S25000, .i32⟩ : BufTy).Contents (Elt F) → (⟨S25000, .i32⟩ : BufTy).Contents (Elt F) → (⟨S25000, .i32⟩ : BufTy).Contents (Elt F)),
    ternary main_v647 main_v649 main_arg9 main_v650 (select : (⟨S25000, .i1⟩ : BufTy).Contents (Elt F) → (⟨S25000, .i32⟩ : BufTy).Contents (Elt F) → (⟨S25000, .i32⟩ : BufTy).Contents (Elt F) → (⟨S25000, .i32⟩ : BufTy).Contents (Elt F)),
    unary main_v650 main_v651 (broadcastInDim S25000x1 ![0] bcast_S25000_S25000x1_0 : (⟨S25000, .i32⟩ : BufTy).Contents (Elt F) → (⟨S25000x1, .i32⟩ : BufTy).Contents (Elt F)),
    ternary main_v645 main_v651 main_v612 main_v652 ((fun x i u => Host.scatterAdd scatter_S400000x64_S25000x1_S25000x64_1_0_0_1 x i u) : (⟨S400000x64, .f32⟩ : BufTy).Contents (Elt F) → (⟨S25000x1, .i32⟩ : BufTy).Contents (Elt F) → (⟨S25000x64, .f32⟩ : BufTy).Contents (Elt F) → (⟨S400000x64, .f32⟩ : BufTy).Contents (Elt F)),
    nullary main_cst_135 (constant S_ .f32 0x3F800000#32),
    unary main_cst_135 main_v653 (broadcastInDim S400000 ![] bcast_S_S400000 : (⟨S_, .f32⟩ : BufTy).Contents (Elt F) → (⟨S400000, .f32⟩ : BufTy).Contents (Elt F)),
    binary main_v644 main_v653 main_v654 (maximumf : (⟨S400000, .f32⟩ : BufTy).Contents (Elt F) → (⟨S400000, .f32⟩ : BufTy).Contents (Elt F) → (⟨S400000, .f32⟩ : BufTy).Contents (Elt F)),
    unary main_v654 main_v655 (broadcastInDim S400000x1 ![0] bcast_S400000_S400000x1_0 : (⟨S400000, .f32⟩ : BufTy).Contents (Elt F) → (⟨S400000x1, .f32⟩ : BufTy).Contents (Elt F)),
    unary main_v655 main_v656 (broadcastInDim S400000x64 ![0, 1] bcast_S400000x1_S400000x64_0_1 : (⟨S400000x1, .f32⟩ : BufTy).Contents (Elt F) → (⟨S400000x64, .f32⟩ : BufTy).Contents (Elt F)),
    binary main_v652 main_v656 main_v657 (Host.divf : (⟨S400000x64, .f32⟩ : BufTy).Contents (Elt F) → (⟨S400000x64, .f32⟩ : BufTy).Contents (Elt F) → (⟨S400000x64, .f32⟩ : BufTy).Contents (Elt F)),
    binary main_v635 main_v657 main_v658 (addf : (⟨S400000x64, .f32⟩ : BufTy).Contents (Elt F) → (⟨S400000x64, .f32⟩ : BufTy).Contents (Elt F) → (⟨S400000x64, .f32⟩ : BufTy).Contents (Elt F)),
    binary main_v658 main_arg18 main_v659 ((fun l r => Host.dotGeneral dot_S400000x64_S64x64_S400000x64_1_0_0_1_n_n none l r) : (⟨S400000x64, .f32⟩ : BufTy).Contents (Elt F) → (⟨S64x64, .f32⟩ : BufTy).Contents (Elt F) → (⟨S400000x64, .f32⟩ : BufTy).Contents (Elt F)),
    unary main_arg19 main_v660 (broadcastInDim S1x64 ![1] bcast_S64_S1x64_1 : (⟨S64, .f32⟩ : BufTy).Contents (Elt F) → (⟨S1x64, .f32⟩ : BufTy).Contents (Elt F)),
    unary main_v660 main_v661 (broadcastInDim S400000x64 ![0, 1] bcast_S1x64_S400000x64_0_1 : (⟨S1x64, .f32⟩ : BufTy).Contents (Elt F) → (⟨S400000x64, .f32⟩ : BufTy).Contents (Elt F)),
    binary main_v659 main_v661 main_v662 (addf : (⟨S400000x64, .f32⟩ : BufTy).Contents (Elt F) → (⟨S400000x64, .f32⟩ : BufTy).Contents (Elt F) → (⟨S400000x64, .f32⟩ : BufTy).Contents (Elt F)),
    nullary main_cst_136 (constant S_ .f32 0x00000000#32),
    unary main_cst_136 main_v663 (broadcastInDim S400000x64 ![] bcast_S_S400000x64 : (⟨S_, .f32⟩ : BufTy).Contents (Elt F) → (⟨S400000x64, .f32⟩ : BufTy).Contents (Elt F)),
    binary main_v662 main_v663 main_v664 (cmpf .ogt : (⟨S400000x64, .f32⟩ : BufTy).Contents (Elt F) → (⟨S400000x64, .f32⟩ : BufTy).Contents (Elt F) → (⟨S400000x64, .i1⟩ : BufTy).Contents (Elt F)),
    unary main_arg22 main_v665 (broadcastInDim S400000x64 ![] bcast_S_S400000x64 : (⟨S_, .f32⟩ : BufTy).Contents (Elt F) → (⟨S400000x64, .f32⟩ : BufTy).Contents (Elt F)),
    binary main_v665 main_v662 main_v666 (mulf : (⟨S400000x64, .f32⟩ : BufTy).Contents (Elt F) → (⟨S400000x64, .f32⟩ : BufTy).Contents (Elt F) → (⟨S400000x64, .f32⟩ : BufTy).Contents (Elt F)),
    TRef.ternary (TRef.of (T := ⟨S400000x64, .i1⟩) main_v664) (TRef.of (T := ⟨S400000x64, .f32⟩) main_v662) (TRef.of (T := ⟨S400000x64, .f32⟩) main_v666) (TRef.of (T := ⟨S400000x64, .f32⟩) main_v667) select,
    binary main_v667 main_arg20 main_v668 ((fun l r => Host.dotGeneral dot_S400000x64_S64x2_S400000x2_1_0_0_1_n_n none l r) : (⟨S400000x64, .f32⟩ : BufTy).Contents (Elt F) → (⟨S64x2, .f32⟩ : BufTy).Contents (Elt F) → (⟨S400000x2, .f32⟩ : BufTy).Contents (Elt F)),
    unary main_arg21 main_v669 (broadcastInDim S1x2 ![1] bcast_S2_S1x2_1 : (⟨S2, .f32⟩ : BufTy).Contents (Elt F) → (⟨S1x2, .f32⟩ : BufTy).Contents (Elt F)),
    unary main_v669 main_v670 (broadcastInDim S400000x2 ![0, 1] bcast_S1x2_S400000x2_0_1 : (⟨S1x2, .f32⟩ : BufTy).Contents (Elt F) → (⟨S400000x2, .f32⟩ : BufTy).Contents (Elt F)),
    binary main_v668 main_v670 main_v671 (addf : (⟨S400000x2, .f32⟩ : BufTy).Contents (Elt F) → (⟨S400000x2, .f32⟩ : BufTy).Contents (Elt F) → (⟨S400000x2, .f32⟩ : BufTy).Contents (Elt F)),
    nullary main_cst_137 (constant S_ .f32 0x00000000#32),
    unary main_cst_137 main_v672 (broadcastInDim S400000x2 ![] bcast_S_S400000x2 : (⟨S_, .f32⟩ : BufTy).Contents (Elt F) → (⟨S400000x2, .f32⟩ : BufTy).Contents (Elt F)),
    binary main_v671 main_v672 main_v673 (cmpf .ogt : (⟨S400000x2, .f32⟩ : BufTy).Contents (Elt F) → (⟨S400000x2, .f32⟩ : BufTy).Contents (Elt F) → (⟨S400000x2, .i1⟩ : BufTy).Contents (Elt F)),
    unary main_arg22 main_v674 (broadcastInDim S400000x2 ![] bcast_S_S400000x2 : (⟨S_, .f32⟩ : BufTy).Contents (Elt F) → (⟨S400000x2, .f32⟩ : BufTy).Contents (Elt F)),
    binary main_v674 main_v671 main_v675 (mulf : (⟨S400000x2, .f32⟩ : BufTy).Contents (Elt F) → (⟨S400000x2, .f32⟩ : BufTy).Contents (Elt F) → (⟨S400000x2, .f32⟩ : BufTy).Contents (Elt F)),
    TRef.ternary (TRef.of (T := ⟨S400000x2, .i1⟩) main_v673) (TRef.of (T := ⟨S400000x2, .f32⟩) main_v671) (TRef.of (T := ⟨S400000x2, .f32⟩) main_v675) (TRef.of (T := ⟨S400000x2, .f32⟩) main_v676) select ]

theorem part13_eq (c : Dev nD) : main_part13 (F := F) c = seq ops13 := rfl

theorem ops13_sub : (ops13 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., unary_bufs_sub .., binary_bufs_sub .., ternary_bufs_sub .., binary_bufs_sub .., unary_bufs_sub .., unary_bufs_sub .., binary_bufs_sub .., nullary_bufs_sub .., unary_bufs_sub .., binary_bufs_sub .., unary_bufs_sub .., binary_bufs_sub .., ternary_bufs_sub ..⟩

theorem ops13_fresh : (ops13 : List (HloOp τ sig (Elt F))).Forall fun op => op.fresh = ∅ := by
  simp only [List.Forall]; repeat' constructor

/-- The buffers the window writes. -/
abbrev written13 : List (Ref sig .tc) := [main_v645, main_c_133, main_v646, main_v647, main_c_134, main_v648, main_v649, main_v650, main_v651, main_v652, main_cst_135, main_v653, main_v654, main_v655, main_v656, main_v657, main_v658, main_v659, main_v660, main_v661, main_v662, main_cst_136, main_v663, main_v664, main_v665, main_v666, main_v667, main_v668, main_v669, main_v670, main_v671, main_cst_137, main_v672, main_v673, main_v674, main_v675, main_v676]

theorem writes13 : (ops13 : List (HloOp τ sig (Elt F))).Forall fun op => op.writes ⊆ ((written13).map (Proc.devRef (τ := τ) .tc)).toFinset := by
  simp only [ops13, List.Forall]
  repeat' apply And.intro
  all_goals (simp only [nullary_writes, unary_writes, binary_writes, ternary_writes, quaternary_writes, reshape_writes, binaryIndexed_writes, nary_writes, unaryIndexed_writes, TRef.ternary, Finset.singleton_subset_iff, List.mem_toFinset]; exact List.mem_map_of_mem (by decide))

/-- A buffer the window does not write keeps its contents through it. -/
theorem keep13 (V : Valuation τ sig (Elt F)) (r : Ref sig .tc) (h : r ∉ written13) :
    after (ops13 (F := F)) V (Proc.devRef .tc r) = V (Proc.devRef .tc r) :=
  after_of_writes_sub (ops13 (F := F)) V writes13 h

set_option maxHeartbeats 2000000 in
/-- What main_v676 holds after the window. -/
theorem value13_main_v676 (V : Valuation τ sig (Elt F)) (a0 : (⟨S525000x6, .f32⟩ : BufTy).Contents (Elt F)) (a1 : (⟨S525000x10, .f32⟩ : BufTy).Contents (Elt F)) (a2 : (⟨S2x1600000, .i32⟩ : BufTy).Contents (Elt F)) (a3 : (⟨S1600000, .f32⟩ : BufTy).Contents (Elt F)) (a4 : (⟨S2x400000, .i32⟩ : BufTy).Contents (Elt F)) (a5 : (⟨S400000, .f32⟩ : BufTy).Contents (Elt F)) (a6 : (⟨S2x100000, .i32⟩ : BufTy).Contents (Elt F)) (a7 : (⟨S100000, .f32⟩ : BufTy).Contents (Elt F)) (a8 : (⟨S100000, .i32⟩ : BufTy).Contents (Elt F)) (a9 : (⟨S25000, .i32⟩ : BufTy).Contents (Elt F)) (a10 : (⟨S16x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S_, .f32⟩ : BufTy).Contents (Elt F)) (a15 : (⟨S3x64x64, .f32⟩ : BufTy).Contents (Elt F)) (a16 : (⟨S3x64, .f32⟩ : BufTy).Contents (Elt F)) (a17 : (⟨S3x3, .f32⟩ : BufTy).Contents (Elt F)) (a18 : (⟨S64x64, .f32⟩ : BufTy).Contents (Elt F)) (a19 : (⟨S64, .f32⟩ : BufTy).Contents (Elt F)) (a20 : (⟨S64x2, .f32⟩ : BufTy).Contents (Elt F)) (a21 : (⟨S2, .f32⟩ : BufTy).Contents (Elt F)) (a22 : (⟨S_, .f32⟩ : BufTy).Contents (Elt F))
    (h_main_cst_132 : V (Proc.devRef .tc main_cst_132) = (Cert.ReferenceIdeal.Stages.val_main_cst_132 (F := F)))
    (h_main_arg9 : V (Proc.devRef .tc main_arg9) = a9)
    (h_main_v612 : V (Proc.devRef .tc main_v612) = (Cert.ReferenceIdeal.Stages.val_main_v612 (F := F) a0 a1 a6 a7 a10 a11 a12 a13 a14 a15 a16 a17))
    (h_main_v644 : V (Proc.devRef .tc main_v644) = (Cert.ReferenceIdeal.Stages.val_main_v644 (F := F) a9))
    (h_main_v635 : V (Proc.devRef .tc main_v635) = (Cert.ReferenceIdeal.Stages.val_main_v635 (F := F) a0 a1 a2 a3 a4 a5 a8 a10 a11 a12 a13 a14 a15 a16 a17))
    (h_main_arg18 : V (Proc.devRef .tc main_arg18) = a18)
    (h_main_arg19 : V (Proc.devRef .tc main_arg19) = a19)
    (h_main_arg22 : V (Proc.devRef .tc main_arg22) = a22)
    (h_main_arg20 : V (Proc.devRef .tc main_arg20) = a20)
    (h_main_arg21 : V (Proc.devRef .tc main_arg21) = a21) :
    after (ops13 (F := F)) V (Proc.devRef .tc main_v676) = (Cert.ReferenceIdeal.Stages.val_main_v676 (F := F) a0 a1 a2 a3 a4 a5 a6 a7 a8 a9 a10 a11 a12 a13 a14 a15 a16 a17 a18 a19 a20 a21 a22) := by
  subst_vars
  simp only [ops13]
  after_results_simp
  try simp only [TRef.ofBuf, TRef.toBuf, cast_eq]
  try simp only [h_main_cst_132, h_main_v612, h_main_v644, h_main_v635]
  all_goals rfl

end Cert.ReferenceIdeal.Window

end
-- ==== Proof.RChain.lean ====
/-
  The reference program's run, read back window by window. @main is its 14 printed windows in order, each a list of host
  operations; a run of such a list from the launch memory ends, buffer by buffer, at the fold of the operations over the
  launch contents. The fold is taken one window at a time: after each window every buffer a later window reads holds the
  stage value of its operation at the launch arguments (the window's own lemma, fed with the same facts one window
  earlier), and a buffer the window does not write is carried along. So the returned buffer ends at the last stage of
  the arguments and the arguments end as launched.
-/
import proofs.«418542_j22608707846200_1_alg».proof.Proof.Gen.ReferenceIdeal
import proofs.«418542_j22608707846200_1_alg».proof.Proof.RefStages
import proofs.«418542_j22608707846200_1_alg».proof.Proof.RWin0
import proofs.«418542_j22608707846200_1_alg».proof.Proof.RWin1
import proofs.«418542_j22608707846200_1_alg».proof.Proof.RWin2
import proofs.«418542_j22608707846200_1_alg».proof.Proof.RWin3
import proofs.«418542_j22608707846200_1_alg».proof.Proof.RWin4
import proofs.«418542_j22608707846200_1_alg».proof.Proof.RWin5
import proofs.«418542_j22608707846200_1_alg».proof.Proof.RWin6
import proofs.«418542_j22608707846200_1_alg».proof.Proof.RWin7
import proofs.«418542_j22608707846200_1_alg».proof.Proof.RWin8
import proofs.«418542_j22608707846200_1_alg».proof.Proof.RWin9
import proofs.«418542_j22608707846200_1_alg».proof.Proof.RWin10
import proofs.«418542_j22608707846200_1_alg».proof.Proof.RWin11
import proofs.«418542_j22608707846200_1_alg».proof.Proof.RWin12
import proofs.«418542_j22608707846200_1_alg».proof.Proof.RWin13
import Idealize.ShloMosaic.Lib.StableHlo.Run

set_option maxRecDepth 16384

noncomputable section

namespace Cert.ReferenceIdeal.RunValue

open Cert.ReferenceIdeal Cert.ReferenceIdeal.Gen Cert.ReferenceIdeal.Window Idealize.ShloMosaic Idealize.ShloMosaic.TcCoe Idealize.SL.Sem Idealize.ShloMosaic.StableHlo

variable {F : FTy → Type} [FloatOps F]

/-- @main's operations: the windows' lists in order. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13)))))))))))))

theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c, ← part9_eq c, ← part10_eq c, ← part11_eq c, ← part12_eq c, ← part13_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h, List.forall_iff_forall_mem.mp ops7_sub op h, List.forall_iff_forall_mem.mp ops8_sub op h, List.forall_iff_forall_mem.mp ops9_sub op h, List.forall_iff_forall_mem.mp ops10_sub op h, List.forall_iff_forall_mem.mp ops11_sub op h, List.forall_iff_forall_mem.mp ops12_sub op h, List.forall_iff_forall_mem.mp ops13_sub op h]

theorem ops_fresh : ∀ op ∈ (ops : List (HloOp τ sig (Elt F))), op.fresh = ∅ := fun op h => by
    simp only [ops, List.mem_append] at h
    rcases h with h | h | h | h | h | h | h | h | h | h | h | h | h | h
    exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h, List.forall_iff_forall_mem.mp ops6_fresh op h, List.forall_iff_forall_mem.mp ops7_fresh op h, List.forall_iff_forall_mem.mp ops8_fresh op h, List.forall_iff_forall_mem.mp ops9_fresh op h, List.forall_iff_forall_mem.mp ops10_fresh op h, List.forall_iff_forall_mem.mp ops11_fresh op h, List.forall_iff_forall_mem.mp ops12_fresh op h, List.forall_iff_forall_mem.mp ops13_fresh op h]

/-- The buffer contents before the first window: the launch contents. -/
abbrev val0 (V0 : Valuation τ sig (Elt F)) : Valuation τ sig (Elt F) := V0
/-- The buffer contents after the first 1 windows. -/
def val1 (V0 : Valuation τ sig (Elt F)) : Valuation τ sig (Elt F) := after ops0 (val0 V0)
/-- The buffer contents after the first 2 windows. -/
def val2 (V0 : Valuation τ sig (Elt F)) : Valuation τ sig (Elt F) := after ops1 (val1 V0)
/-- The buffer contents after the first 3 windows. -/
def val3 (V0 : Valuation τ sig (Elt F)) : Valuation τ sig (Elt F) := after ops2 (val2 V0)
/-- The buffer contents after the first 4 windows. -/
def val4 (V0 : Valuation τ sig (Elt F)) : Valuation τ sig (Elt F) := after ops3 (val3 V0)
/-- The buffer contents after the first 5 windows. -/
def val5 (V0 : Valuation τ sig (Elt F)) : Valuation τ sig (Elt F) := after ops4 (val4 V0)
/-- The buffer contents after the first 6 windows. -/
def val6 (V0 : Valuation τ sig (Elt F)) : Valuation τ sig (Elt F) := after ops5 (val5 V0)
/-- The buffer contents after the first 7 windows. -/
def val7 (V0 : Valuation τ sig (Elt F)) : Valuation τ sig (Elt F) := after ops6 (val6 V0)
/-- The buffer contents after the first 8 windows. -/
def val8 (V0 : Valuation τ sig (Elt F)) : Valuation τ sig (Elt F) := after ops7 (val7 V0)
/-- The buffer contents after the first 9 windows. -/
def val9 (V0 : Valuation τ sig (Elt F)) : Valuation τ sig (Elt F) := after ops8 (val8 V0)
/-- The buffer contents after the first 10 windows. -/
def val10 (V0 : Valuation τ sig (Elt F)) : Valuation τ sig (Elt F) := after ops9 (val9 V0)
/-- The buffer contents after the first 11 windows. -/
def val11 (V0 : Valuation τ sig (Elt F)) : Valuation τ sig (Elt F) := after ops10 (val10 V0)
/-- The buffer contents after the first 12 windows. -/
def val12 (V0 : Valuation τ sig (Elt F)) : Valuation τ sig (Elt F) := after ops11 (val11 V0)
/-- The buffer contents after the first 13 windows. -/
def val13 (V0 : Valuation τ sig (Elt F)) : Valuation τ sig (Elt F) := after ops12 (val12 V0)
/-- The buffer contents after the first 14 windows. -/
def val14 (V0 : Valuation τ sig (Elt F)) : Valuation τ sig (Elt F) := after ops13 (val13 V0)

theorem after_ops (V0 : Valuation τ sig (Elt F)) : after ops V0 = val14 V0 := by
  simp only [ops, after_append]
  rfl

theorem at0_main_arg0 (V0 : Valuation τ sig (Elt F)) : val0 V0 (Proc.devRef .tc main_arg0) = (V0 (Proc.devRef .tc main_arg0)) := rfl
theorem at0_main_arg1 (V0 : Valuation τ sig (Elt F)) : val0 V0 (Proc.devRef .tc main_arg1) = (V0 (Proc.devRef .tc main_arg1)) := rfl
theorem at0_main_arg2 (V0 : Valuation τ sig (Elt F)) : val0 V0 (Proc.devRef .tc main_arg2) = (V0 (Proc.devRef .tc main_arg2)) := rfl
theorem at0_main_arg3 (V0 : Valuation τ sig (Elt F)) : val0 V0 (Proc.devRef .tc main_arg3) = (V0 (Proc.devRef .tc main_arg3)) := rfl
theorem at0_main_arg4 (V0 : Valuation τ sig (Elt F)) : val0 V0 (Proc.devRef .tc main_arg4) = (V0 (Proc.devRef .tc main_arg4)) := rfl
theorem at0_main_arg5 (V0 : Valuation τ sig (Elt F)) : val0 V0 (Proc.devRef .tc main_arg5) = (V0 (Proc.devRef .tc main_arg5)) := rfl
theorem at0_main_arg6 (V0 : Valuation τ sig (Elt F)) : val0 V0 (Proc.devRef .tc main_arg6) = (V0 (Proc.devRef .tc main_arg6)) := rfl
theorem at0_main_arg7 (V0 : Valuation τ sig (Elt F)) : val0 V0 (Proc.devRef .tc main_arg7) = (V0 (Proc.devRef .tc main_arg7)) := rfl
theorem at0_main_arg8 (V0 : Valuation τ sig (Elt F)) : val0 V0 (Proc.devRef .tc main_arg8) = (V0 (Proc.devRef .tc main_arg8)) := rfl
theorem at0_main_arg9 (V0 : Valuation τ sig (Elt F)) : val0 V0 (Proc.devRef .tc main_arg9) = (V0 (Proc.devRef .tc main_arg9)) := rfl
theorem at0_main_arg10 (V0 : Valuation τ sig (Elt F)) : val0 V0 (Proc.devRef .tc main_arg10) = (V0 (Proc.devRef .tc main_arg10)) := rfl
theorem at0_main_arg11 (V0 : Valuation τ sig (Elt F)) : val0 V0 (Proc.devRef .tc main_arg11) = (V0 (Proc.devRef .tc main_arg11)) := rfl
theorem at0_main_arg12 (V0 : Valuation τ sig (Elt F)) : val0 V0 (Proc.devRef .tc main_arg12) = (V0 (Proc.devRef .tc main_arg12)) := rfl
theorem at0_main_arg13 (V0 : Valuation τ sig (Elt F)) : val0 V0 (Proc.devRef .tc main_arg13) = (V0 (Proc.devRef .tc main_arg13)) := rfl
theorem at0_main_arg14 (V0 : Valuation τ sig (Elt F)) : val0 V0 (Proc.devRef .tc main_arg14) = (V0 (Proc.devRef .tc main_arg14)) := rfl
theorem at0_main_arg15 (V0 : Valuation τ sig (Elt F)) : val0 V0 (Proc.devRef .tc main_arg15) = (V0 (Proc.devRef .tc main_arg15)) := rfl
theorem at0_main_arg16 (V0 : Valuation τ sig (Elt F)) : val0 V0 (Proc.devRef .tc main_arg16) = (V0 (Proc.devRef .tc main_arg16)) := rfl
theorem at0_main_arg17 (V0 : Valuation τ sig (Elt F)) : val0 V0 (Proc.devRef .tc main_arg17) = (V0 (Proc.devRef .tc main_arg17)) := rfl
theorem at0_main_arg18 (V0 : Valuation τ sig (Elt F)) : val0 V0 (Proc.devRef .tc main_arg18) = (V0 (Proc.devRef .tc main_arg18)) := rfl
theorem at0_main_arg19 (V0 : Valuation τ sig (Elt F)) : val0 V0 (Proc.devRef .tc main_arg19) = (V0 (Proc.devRef .tc main_arg19)) := rfl
theorem at0_main_arg20 (V0 : Valuation τ sig (Elt F)) : val0 V0 (Proc.devRef .tc main_arg20) = (V0 (Proc.devRef .tc main_arg20)) := rfl
theorem at0_main_arg21 (V0 : Valuation τ sig (Elt F)) : val0 V0 (Proc.devRef .tc main_arg21) = (V0 (Proc.devRef .tc main_arg21)) := rfl
theorem at0_main_arg22 (V0 : Valuation τ sig (Elt F)) : val0 V0 (Proc.devRef .tc main_arg22) = (V0 (Proc.devRef .tc main_arg22)) := rfl

/-! ## After window 0 -/

theorem at1_main_v20 (V0 : Valuation τ sig (Elt F)) : val1 V0 (Proc.devRef .tc main_v20) = (Cert.ReferenceIdeal.Stages.val_main_v20 (F := F) (V0 (Proc.devRef .tc main_arg0)) (V0 (Proc.devRef .tc main_arg1)) (V0 (Proc.devRef .tc main_arg10)) (V0 (Proc.devRef .tc main_arg11)) (V0 (Proc.devRef .tc main_arg12)) (V0 (Proc.devRef .tc main_arg13)) (V0 (Proc.devRef .tc main_arg14))) :=
  value0_main_v20 (val0 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at0_main_arg0 V0) (at0_main_arg1 V0) (at0_main_arg10 V0) (at0_main_arg11 V0) (at0_main_arg14 V0) (at0_main_arg12 V0) (at0_main_arg13 V0) (at0_main_arg2 V0) (at0_main_arg15 V0) (at0_main_arg16 V0) (at0_main_arg3 V0)
theorem at1_main_v21 (V0 : Valuation τ sig (Elt F)) : val1 V0 (Proc.devRef .tc main_v21) = (Cert.ReferenceIdeal.Stages.val_main_v21 (F := F) (V0 (Proc.devRef .tc main_arg0)) (V0 (Proc.devRef .tc main_arg1)) (V0 (Proc.devRef .tc main_arg10)) (V0 (Proc.devRef .tc main_arg11)) (V0 (Proc.devRef .tc main_arg12)) (V0 (Proc.devRef .tc main_arg13)) (V0 (Proc.devRef .tc main_arg14))) :=
  value0_main_v21 (val0 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at0_main_arg0 V0) (at0_main_arg1 V0) (at0_main_arg10 V0) (at0_main_arg11 V0) (at0_main_arg14 V0) (at0_main_arg12 V0) (at0_main_arg13 V0) (at0_main_arg2 V0) (at0_main_arg15 V0) (at0_main_arg16 V0) (at0_main_arg3 V0)
theorem at1_main_v23 (V0 : Valuation τ sig (Elt F)) : val1 V0 (Proc.devRef .tc main_v23) = (Cert.ReferenceIdeal.Stages.val_main_v23 (F := F) (V0 (Proc.devRef .tc main_arg2))) :=
  value0_main_v23 (val0 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at0_main_arg0 V0) (at0_main_arg1 V0) (at0_main_arg10 V0) (at0_main_arg11 V0) (at0_main_arg14 V0) (at0_main_arg12 V0) (at0_main_arg13 V0) (at0_main_arg2 V0) (at0_main_arg15 V0) (at0_main_arg16 V0) (at0_main_arg3 V0)
theorem at1_main_v25 (V0 : Valuation τ sig (Elt F)) : val1 V0 (Proc.devRef .tc main_v25) = (Cert.ReferenceIdeal.Stages.val_main_v25 (F := F) (V0 (Proc.devRef .tc main_arg2))) :=
  value0_main_v25 (val0 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at0_main_arg0 V0) (at0_main_arg1 V0) (at0_main_arg10 V0) (at0_main_arg11 V0) (at0_main_arg14 V0) (at0_main_arg12 V0) (at0_main_arg13 V0) (at0_main_arg2 V0) (at0_main_arg15 V0) (at0_main_arg16 V0) (at0_main_arg3 V0)
theorem at1_main_v26 (V0 : Valuation τ sig (Elt F)) : val1 V0 (Proc.devRef .tc main_v26) = (Cert.ReferenceIdeal.Stages.val_main_v26 (F := F)) :=
  value0_main_v26 (val0 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at0_main_arg0 V0) (at0_main_arg1 V0) (at0_main_arg10 V0) (at0_main_arg11 V0) (at0_main_arg14 V0) (at0_main_arg12 V0) (at0_main_arg13 V0) (at0_main_arg2 V0) (at0_main_arg15 V0) (at0_main_arg16 V0) (at0_main_arg3 V0)
theorem at1_main_v30 (V0 : Valuation τ sig (Elt F)) : val1 V0 (Proc.devRef .tc main_v30) = (Cert.ReferenceIdeal.Stages.val_main_v30 (F := F) (V0 (Proc.devRef .tc main_arg16))) :=
  value0_main_v30 (val0 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at0_main_arg0 V0) (at0_main_arg1 V0) (at0_main_arg10 V0) (at0_main_arg11 V0) (at0_main_arg14 V0) (at0_main_arg12 V0) (at0_main_arg13 V0) (at0_main_arg2 V0) (at0_main_arg15 V0) (at0_main_arg16 V0) (at0_main_arg3 V0)
theorem at1_main_v31 (V0 : Valuation τ sig (Elt F)) : val1 V0 (Proc.devRef .tc main_v31) = (Cert.ReferenceIdeal.Stages.val_main_v31 (F := F) (V0 (Proc.devRef .tc main_arg0)) (V0 (Proc.devRef .tc main_arg1)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))) :=
  value0_main_v31 (val0 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at0_main_arg0 V0) (at0_main_arg1 V0) (at0_main_arg10 V0) (at0_main_arg11 V0) (at0_main_arg14 V0) (at0_main_arg12 V0) (at0_main_arg13 V0) (at0_main_arg2 V0) (at0_main_arg15 V0) (at0_main_arg16 V0) (at0_main_arg3 V0)
theorem at1_main_v42 (V0 : Valuation τ sig (Elt F)) : val1 V0 (Proc.devRef .tc main_v42) = (Cert.ReferenceIdeal.Stages.val_main_v42 (F := F) (V0 (Proc.devRef .tc main_arg2)) (V0 (Proc.devRef .tc main_arg3))) :=
  value0_main_v42 (val0 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at0_main_arg0 V0) (at0_main_arg1 V0) (at0_main_arg10 V0) (at0_main_arg11 V0) (at0_main_arg14 V0) (at0_main_arg12 V0) (at0_main_arg13 V0) (at0_main_arg2 V0) (at0_main_arg15 V0) (at0_main_arg16 V0) (at0_main_arg3 V0)
theorem at1_main_v50 (V0 : Valuation τ sig (Elt F)) : val1 V0 (Proc.devRef .tc main_v50) = (Cert.ReferenceIdeal.Stages.val_main_v50 (F := F) (V0 (Proc.devRef .tc main_arg2)) (V0 (Proc.devRef .tc main_arg3))) :=
  value0_main_v50 (val0 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at0_main_arg0 V0) (at0_main_arg1 V0) (at0_main_arg10 V0) (at0_main_arg11 V0) (at0_main_arg14 V0) (at0_main_arg12 V0) (at0_main_arg13 V0) (at0_main_arg2 V0) (at0_main_arg15 V0) (at0_main_arg16 V0) (at0_main_arg3 V0)

/-! ## After window 1 -/

theorem at1_main_arg17 (V0 : Valuation τ sig (Elt F)) : val1 V0 (Proc.devRef .tc main_arg17) = (V0 (Proc.devRef .tc main_arg17)) :=
  (keep0 (val0 V0) main_arg17 (by decide)).trans (at0_main_arg17 V0)
theorem at1_main_arg15 (V0 : Valuation τ sig (Elt F)) : val1 V0 (Proc.devRef .tc main_arg15) = (V0 (Proc.devRef .tc main_arg15)) :=
  (keep0 (val0 V0) main_arg15 (by decide)).trans (at0_main_arg15 V0)
theorem at1_main_arg16 (V0 : Valuation τ sig (Elt F)) : val1 V0 (Proc.devRef .tc main_arg16) = (V0 (Proc.devRef .tc main_arg16)) :=
  (keep0 (val0 V0) main_arg16 (by decide)).trans (at0_main_arg16 V0)
theorem at2_main_v90 (V0 : Valuation τ sig (Elt F)) : val2 V0 (Proc.devRef .tc main_v90) = (Cert.ReferenceIdeal.Stages.val_main_v90 (F := F) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value1_main_v90 (val1 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at1_main_v25 V0) (at1_main_v42 V0) (at1_main_v50 V0) (at1_main_v23 V0) (at1_main_v31 V0) (at1_main_v30 V0) (at1_main_arg17 V0) (at1_main_v26 V0) (at1_main_arg15 V0) (at1_main_arg16 V0)
theorem at2_main_v94 (V0 : Valuation τ sig (Elt F)) : val2 V0 (Proc.devRef .tc main_v94) = (Cert.ReferenceIdeal.Stages.val_main_v94 (F := F) (V0 (Proc.devRef .tc main_arg16))) :=
  value1_main_v94 (val1 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at1_main_v25 V0) (at1_main_v42 V0) (at1_main_v50 V0) (at1_main_v23 V0) (at1_main_v31 V0) (at1_main_v30 V0) (at1_main_arg17 V0) (at1_main_v26 V0) (at1_main_arg15 V0) (at1_main_arg16 V0)
theorem at2_main_v95 (V0 : Valuation τ sig (Elt F)) : val2 V0 (Proc.devRef .tc main_v95) = (Cert.ReferenceIdeal.Stages.val_main_v95 (F := F) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value1_main_v95 (val1 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at1_main_v25 V0) (at1_main_v42 V0) (at1_main_v50 V0) (at1_main_v23 V0) (at1_main_v31 V0) (at1_main_v30 V0) (at1_main_arg17 V0) (at1_main_v26 V0) (at1_main_arg15 V0) (at1_main_arg16 V0)
theorem at2_main_v96 (V0 : Valuation τ sig (Elt F)) : val2 V0 (Proc.devRef .tc main_v96) = (Cert.ReferenceIdeal.Stages.val_main_v96 (F := F)) :=
  value1_main_v96 (val1 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at1_main_v25 V0) (at1_main_v42 V0) (at1_main_v50 V0) (at1_main_v23 V0) (at1_main_v31 V0) (at1_main_v30 V0) (at1_main_arg17 V0) (at1_main_v26 V0) (at1_main_arg15 V0) (at1_main_arg16 V0)
theorem at2_main_v98 (V0 : Valuation τ sig (Elt F)) : val2 V0 (Proc.devRef .tc main_v98) = (Cert.ReferenceIdeal.Stages.val_main_v98 (F := F) (V0 (Proc.devRef .tc main_arg2))) :=
  value1_main_v98 (val1 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at1_main_v25 V0) (at1_main_v42 V0) (at1_main_v50 V0) (at1_main_v23 V0) (at1_main_v31 V0) (at1_main_v30 V0) (at1_main_arg17 V0) (at1_main_v26 V0) (at1_main_arg15 V0) (at1_main_arg16 V0)
theorem at2_main_v100 (V0 : Valuation τ sig (Elt F)) : val2 V0 (Proc.devRef .tc main_v100) = (Cert.ReferenceIdeal.Stages.val_main_v100 (F := F) (V0 (Proc.devRef .tc main_arg2))) :=
  value1_main_v100 (val1 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at1_main_v25 V0) (at1_main_v42 V0) (at1_main_v50 V0) (at1_main_v23 V0) (at1_main_v31 V0) (at1_main_v30 V0) (at1_main_arg17 V0) (at1_main_v26 V0) (at1_main_arg15 V0) (at1_main_arg16 V0)

/-! ## After window 2 -/

theorem at2_main_v25 (V0 : Valuation τ sig (Elt F)) : val2 V0 (Proc.devRef .tc main_v25) = (Cert.ReferenceIdeal.Stages.val_main_v25 (F := F) (V0 (Proc.devRef .tc main_arg2))) :=
  (keep1 (val1 V0) main_v25 (by decide)).trans (at1_main_v25 V0)
theorem at2_main_arg3 (V0 : Valuation τ sig (Elt F)) : val2 V0 (Proc.devRef .tc main_arg3) = (V0 (Proc.devRef .tc main_arg3)) :=
  (keep1 (val1 V0) main_arg3 (by decide)).trans ((keep0 (val0 V0) main_arg3 (by decide)).trans (at0_main_arg3 V0))
theorem at2_main_v23 (V0 : Valuation τ sig (Elt F)) : val2 V0 (Proc.devRef .tc main_v23) = (Cert.ReferenceIdeal.Stages.val_main_v23 (F := F) (V0 (Proc.devRef .tc main_arg2))) :=
  (keep1 (val1 V0) main_v23 (by decide)).trans (at1_main_v23 V0)
theorem at2_main_arg17 (V0 : Valuation τ sig (Elt F)) : val2 V0 (Proc.devRef .tc main_arg17) = (V0 (Proc.devRef .tc main_arg17)) :=
  (keep1 (val1 V0) main_arg17 (by decide)).trans (at1_main_arg17 V0)
theorem at3_main_v149 (V0 : Valuation τ sig (Elt F)) : val3 V0 (Proc.devRef .tc main_v149) = (Cert.ReferenceIdeal.Stages.val_main_v149 (F := F) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value2_main_v149 (val2 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at2_main_v98 V0) (at2_main_v100 V0) (at2_main_v25 V0) (at2_main_v96 V0) (at2_main_arg3 V0) (at2_main_v23 V0) (at2_main_v95 V0) (at2_main_v94 V0) (at2_main_arg17 V0)
theorem at3_main_v150 (V0 : Valuation τ sig (Elt F)) : val3 V0 (Proc.devRef .tc main_v150) = (Cert.ReferenceIdeal.Stages.val_main_v150 (F := F) (V0 (Proc.devRef .tc main_arg17))) :=
  value2_main_v150 (val2 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at2_main_v98 V0) (at2_main_v100 V0) (at2_main_v25 V0) (at2_main_v96 V0) (at2_main_arg3 V0) (at2_main_v23 V0) (at2_main_v95 V0) (at2_main_v94 V0) (at2_main_arg17 V0)

/-! ## After window 3 -/

theorem at3_main_v90 (V0 : Valuation τ sig (Elt F)) : val3 V0 (Proc.devRef .tc main_v90) = (Cert.ReferenceIdeal.Stages.val_main_v90 (F := F) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  (keep2 (val2 V0) main_v90 (by decide)).trans (at2_main_v90 V0)
theorem at3_main_arg15 (V0 : Valuation τ sig (Elt F)) : val3 V0 (Proc.devRef .tc main_arg15) = (V0 (Proc.devRef .tc main_arg15)) :=
  (keep2 (val2 V0) main_arg15 (by decide)).trans ((keep1 (val1 V0) main_arg15 (by decide)).trans (at1_main_arg15 V0))
theorem at3_main_arg16 (V0 : Valuation τ sig (Elt F)) : val3 V0 (Proc.devRef .tc main_arg16) = (V0 (Proc.devRef .tc main_arg16)) :=
  (keep2 (val2 V0) main_arg16 (by decide)).trans ((keep1 (val1 V0) main_arg16 (by decide)).trans (at1_main_arg16 V0))
theorem at3_main_v25 (V0 : Valuation τ sig (Elt F)) : val3 V0 (Proc.devRef .tc main_v25) = (Cert.ReferenceIdeal.Stages.val_main_v25 (F := F) (V0 (Proc.devRef .tc main_arg2))) :=
  (keep2 (val2 V0) main_v25 (by decide)).trans (at2_main_v25 V0)
theorem at3_main_arg3 (V0 : Valuation τ sig (Elt F)) : val3 V0 (Proc.devRef .tc main_arg3) = (V0 (Proc.devRef .tc main_arg3)) :=
  (keep2 (val2 V0) main_arg3 (by decide)).trans (at2_main_arg3 V0)
theorem at3_main_v23 (V0 : Valuation τ sig (Elt F)) : val3 V0 (Proc.devRef .tc main_v23) = (Cert.ReferenceIdeal.Stages.val_main_v23 (F := F) (V0 (Proc.devRef .tc main_arg2))) :=
  (keep2 (val2 V0) main_v23 (by decide)).trans (at2_main_v23 V0)
theorem at4_main_v154 (V0 : Valuation τ sig (Elt F)) : val4 V0 (Proc.devRef .tc main_v154) = (Cert.ReferenceIdeal.Stages.val_main_v154 (F := F) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value3_main_v154 (val3 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at3_main_v150 V0) (at3_main_v149 V0) (at3_main_v90 V0) (at3_main_arg15 V0) (at3_main_arg16 V0) (at3_main_v25 V0) (at3_main_arg3 V0) (at3_main_v23 V0)
theorem at4_main_v158 (V0 : Valuation τ sig (Elt F)) : val4 V0 (Proc.devRef .tc main_v158) = (Cert.ReferenceIdeal.Stages.val_main_v158 (F := F) (V0 (Proc.devRef .tc main_arg16))) :=
  value3_main_v158 (val3 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at3_main_v150 V0) (at3_main_v149 V0) (at3_main_v90 V0) (at3_main_arg15 V0) (at3_main_arg16 V0) (at3_main_v25 V0) (at3_main_arg3 V0) (at3_main_v23 V0)
theorem at4_main_v159 (V0 : Valuation τ sig (Elt F)) : val4 V0 (Proc.devRef .tc main_v159) = (Cert.ReferenceIdeal.Stages.val_main_v159 (F := F) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value3_main_v159 (val3 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at3_main_v150 V0) (at3_main_v149 V0) (at3_main_v90 V0) (at3_main_arg15 V0) (at3_main_arg16 V0) (at3_main_v25 V0) (at3_main_arg3 V0) (at3_main_v23 V0)
theorem at4_main_v170 (V0 : Valuation τ sig (Elt F)) : val4 V0 (Proc.devRef .tc main_v170) = (Cert.ReferenceIdeal.Stages.val_main_v170 (F := F) (V0 (Proc.devRef .tc main_arg2)) (V0 (Proc.devRef .tc main_arg3))) :=
  value3_main_v170 (val3 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at3_main_v150 V0) (at3_main_v149 V0) (at3_main_v90 V0) (at3_main_arg15 V0) (at3_main_arg16 V0) (at3_main_v25 V0) (at3_main_arg3 V0) (at3_main_v23 V0)
theorem at4_main_v187 (V0 : Valuation τ sig (Elt F)) : val4 V0 (Proc.devRef .tc main_v187) = (Cert.ReferenceIdeal.Stages.val_main_v187 (F := F)) :=
  value3_main_v187 (val3 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at3_main_v150 V0) (at3_main_v149 V0) (at3_main_v90 V0) (at3_main_arg15 V0) (at3_main_arg16 V0) (at3_main_v25 V0) (at3_main_arg3 V0) (at3_main_v23 V0)
theorem at4_main_v197 (V0 : Valuation τ sig (Elt F)) : val4 V0 (Proc.devRef .tc main_v197) = (Cert.ReferenceIdeal.Stages.val_main_v197 (F := F) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value3_main_v197 (val3 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at3_main_v150 V0) (at3_main_v149 V0) (at3_main_v90 V0) (at3_main_arg15 V0) (at3_main_arg16 V0) (at3_main_v25 V0) (at3_main_arg3 V0) (at3_main_v23 V0)
theorem at4_main_v198 (V0 : Valuation τ sig (Elt F)) : val4 V0 (Proc.devRef .tc main_v198) = (Cert.ReferenceIdeal.Stages.val_main_v198 (F := F)) :=
  value3_main_v198 (val3 V0) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at3_main_v150 V0) (at3_main_v149 V0) (at3_main_v90 V0) (at3_main_arg15 V0) (at3_main_arg16 V0) (at3_main_v25 V0) (at3_main_arg3 V0) (at3_main_v23 V0)

/-! ## After window 4 -/

theorem at4_main_v25 (V0 : Valuation τ sig (Elt F)) : val4 V0 (Proc.devRef .tc main_v25) = (Cert.ReferenceIdeal.Stages.val_main_v25 (F := F) (V0 (Proc.devRef .tc main_arg2))) :=
  (keep3 (val3 V0) main_v25 (by decide)).trans (at3_main_v25 V0)
theorem at4_main_arg17 (V0 : Valuation τ sig (Elt F)) : val4 V0 (Proc.devRef .tc main_arg17) = (V0 (Proc.devRef .tc main_arg17)) :=
  (keep3 (val3 V0) main_arg17 (by decide)).trans ((keep2 (val2 V0) main_arg17 (by decide)).trans (at2_main_arg17 V0))
theorem at4_main_arg4 (V0 : Valuation τ sig (Elt F)) : val4 V0 (Proc.devRef .tc main_arg4) = (V0 (Proc.devRef .tc main_arg4)) :=
  (keep3 (val3 V0) main_arg4 (by decide)).trans ((keep2 (val2 V0) main_arg4 (by decide)).trans ((keep1 (val1 V0) main_arg4 (by decide)).trans ((keep0 (val0 V0) main_arg4 (by decide)).trans (at0_main_arg4 V0))))
theorem at4_main_arg15 (V0 : Valuation τ sig (Elt F)) : val4 V0 (Proc.devRef .tc main_arg15) = (V0 (Proc.devRef .tc main_arg15)) :=
  (keep3 (val3 V0) main_arg15 (by decide)).trans (at3_main_arg15 V0)
theorem at4_main_arg16 (V0 : Valuation τ sig (Elt F)) : val4 V0 (Proc.devRef .tc main_arg16) = (V0 (Proc.devRef .tc main_arg16)) :=
  (keep3 (val3 V0) main_arg16 (by decide)).trans (at3_main_arg16 V0)
theorem at4_main_v20 (V0 : Valuation τ sig (Elt F)) : val4 V0 (Proc.devRef .tc main_v20) = (Cert.ReferenceIdeal.Stages.val_main_v20 (F := F) (V0 (Proc.devRef .tc main_arg0)) (V0 (Proc.devRef .tc main_arg1)) (V0 (Proc.devRef .tc main_arg10)) (V0 (Proc.devRef .tc main_arg11)) (V0 (Proc.devRef .tc main_arg12)) (V0 (Proc.devRef .tc main_arg13)) (V0 (Proc.devRef .tc main_arg14))) :=
  (keep3 (val3 V0) main_v20 (by decide)).trans ((keep2 (val2 V0) main_v20 (by decide)).trans ((keep1 (val1 V0) main_v20 (by decide)).trans (at1_main_v20 V0)))
theorem at4_main_arg5 (V0 : Valuation τ sig (Elt F)) : val4 V0 (Proc.devRef .tc main_arg5) = (V0 (Proc.devRef .tc main_arg5)) :=
  (keep3 (val3 V0) main_arg5 (by decide)).trans ((keep2 (val2 V0) main_arg5 (by decide)).trans ((keep1 (val1 V0) main_arg5 (by decide)).trans ((keep0 (val0 V0) main_arg5 (by decide)).trans (at0_main_arg5 V0))))
theorem at5_main_v218 (V0 : Valuation τ sig (Elt F)) : val5 V0 (Proc.devRef .tc main_v218) = (Cert.ReferenceIdeal.Stages.val_main_v218 (F := F) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value4_main_v218 (val4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at4_main_v25 V0) (at4_main_v198 V0) (at4_main_v187 V0) (at4_main_v197 V0) (at4_main_v170 V0) (at4_main_v159 V0) (at4_main_v158 V0) (at4_main_arg17 V0) (at4_main_v154 V0) (at4_main_arg4 V0) (at4_main_arg15 V0) (at4_main_arg16 V0) (at4_main_v20 V0) (at4_main_arg5 V0)
theorem at5_main_v220 (V0 : Valuation τ sig (Elt F)) : val5 V0 (Proc.devRef .tc main_v220) = (Cert.ReferenceIdeal.Stages.val_main_v220 (F := F) (V0 (Proc.devRef .tc main_arg4))) :=
  value4_main_v220 (val4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at4_main_v25 V0) (at4_main_v198 V0) (at4_main_v187 V0) (at4_main_v197 V0) (at4_main_v170 V0) (at4_main_v159 V0) (at4_main_v158 V0) (at4_main_arg17 V0) (at4_main_v154 V0) (at4_main_arg4 V0) (at4_main_arg15 V0) (at4_main_arg16 V0) (at4_main_v20 V0) (at4_main_arg5 V0)
theorem at5_main_v222 (V0 : Valuation τ sig (Elt F)) : val5 V0 (Proc.devRef .tc main_v222) = (Cert.ReferenceIdeal.Stages.val_main_v222 (F := F) (V0 (Proc.devRef .tc main_arg4))) :=
  value4_main_v222 (val4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at4_main_v25 V0) (at4_main_v198 V0) (at4_main_v187 V0) (at4_main_v197 V0) (at4_main_v170 V0) (at4_main_v159 V0) (at4_main_v158 V0) (at4_main_arg17 V0) (at4_main_v154 V0) (at4_main_arg4 V0) (at4_main_arg15 V0) (at4_main_arg16 V0) (at4_main_v20 V0) (at4_main_arg5 V0)
theorem at5_main_v223 (V0 : Valuation τ sig (Elt F)) : val5 V0 (Proc.devRef .tc main_v223) = (Cert.ReferenceIdeal.Stages.val_main_v223 (F := F)) :=
  value4_main_v223 (val4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at4_main_v25 V0) (at4_main_v198 V0) (at4_main_v187 V0) (at4_main_v197 V0) (at4_main_v170 V0) (at4_main_v159 V0) (at4_main_v158 V0) (at4_main_arg17 V0) (at4_main_v154 V0) (at4_main_arg4 V0) (at4_main_arg15 V0) (at4_main_arg16 V0) (at4_main_v20 V0) (at4_main_arg5 V0)
theorem at5_main_v227 (V0 : Valuation τ sig (Elt F)) : val5 V0 (Proc.devRef .tc main_v227) = (Cert.ReferenceIdeal.Stages.val_main_v227 (F := F) (V0 (Proc.devRef .tc main_arg16))) :=
  value4_main_v227 (val4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at4_main_v25 V0) (at4_main_v198 V0) (at4_main_v187 V0) (at4_main_v197 V0) (at4_main_v170 V0) (at4_main_v159 V0) (at4_main_v158 V0) (at4_main_arg17 V0) (at4_main_v154 V0) (at4_main_arg4 V0) (at4_main_arg15 V0) (at4_main_arg16 V0) (at4_main_v20 V0) (at4_main_arg5 V0)
theorem at5_main_v228 (V0 : Valuation τ sig (Elt F)) : val5 V0 (Proc.devRef .tc main_v228) = (Cert.ReferenceIdeal.Stages.val_main_v228 (F := F) (V0 (Proc.devRef .tc main_arg0)) (V0 (Proc.devRef .tc main_arg1)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))) :=
  value4_main_v228 (val4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at4_main_v25 V0) (at4_main_v198 V0) (at4_main_v187 V0) (at4_main_v197 V0) (at4_main_v170 V0) (at4_main_v159 V0) (at4_main_v158 V0) (at4_main_arg17 V0) (at4_main_v154 V0) (at4_main_arg4 V0) (at4_main_arg15 V0) (at4_main_arg16 V0) (at4_main_v20 V0) (at4_main_arg5 V0)
theorem at5_main_v239 (V0 : Valuation τ sig (Elt F)) : val5 V0 (Proc.devRef .tc main_v239) = (Cert.ReferenceIdeal.Stages.val_main_v239 (F := F) (V0 (Proc.devRef .tc main_arg4)) (V0 (Proc.devRef .tc main_arg5))) :=
  value4_main_v239 (val4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at4_main_v25 V0) (at4_main_v198 V0) (at4_main_v187 V0) (at4_main_v197 V0) (at4_main_v170 V0) (at4_main_v159 V0) (at4_main_v158 V0) (at4_main_arg17 V0) (at4_main_v154 V0) (at4_main_arg4 V0) (at4_main_arg15 V0) (at4_main_arg16 V0) (at4_main_v20 V0) (at4_main_arg5 V0)
theorem at5_main_v247 (V0 : Valuation τ sig (Elt F)) : val5 V0 (Proc.devRef .tc main_v247) = (Cert.ReferenceIdeal.Stages.val_main_v247 (F := F) (V0 (Proc.devRef .tc main_arg4)) (V0 (Proc.devRef .tc main_arg5))) :=
  value4_main_v247 (val4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at4_main_v25 V0) (at4_main_v198 V0) (at4_main_v187 V0) (at4_main_v197 V0) (at4_main_v170 V0) (at4_main_v159 V0) (at4_main_v158 V0) (at4_main_arg17 V0) (at4_main_v154 V0) (at4_main_arg4 V0) (at4_main_arg15 V0) (at4_main_arg16 V0) (at4_main_v20 V0) (at4_main_arg5 V0)
theorem at5_main_v249 (V0 : Valuation τ sig (Elt F)) : val5 V0 (Proc.devRef .tc main_v249) = (Cert.ReferenceIdeal.Stages.val_main_v249 (F := F) (V0 (Proc.devRef .tc main_arg4))) :=
  value4_main_v249 (val4 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at4_main_v25 V0) (at4_main_v198 V0) (at4_main_v187 V0) (at4_main_v197 V0) (at4_main_v170 V0) (at4_main_v159 V0) (at4_main_v158 V0) (at4_main_arg17 V0) (at4_main_v154 V0) (at4_main_arg4 V0) (at4_main_arg15 V0) (at4_main_arg16 V0) (at4_main_v20 V0) (at4_main_arg5 V0)

/-! ## After window 5 -/

theorem at5_main_arg17 (V0 : Valuation τ sig (Elt F)) : val5 V0 (Proc.devRef .tc main_arg17) = (V0 (Proc.devRef .tc main_arg17)) :=
  (keep4 (val4 V0) main_arg17 (by decide)).trans (at4_main_arg17 V0)
theorem at5_main_arg15 (V0 : Valuation τ sig (Elt F)) : val5 V0 (Proc.devRef .tc main_arg15) = (V0 (Proc.devRef .tc main_arg15)) :=
  (keep4 (val4 V0) main_arg15 (by decide)).trans (at4_main_arg15 V0)
theorem at5_main_arg16 (V0 : Valuation τ sig (Elt F)) : val5 V0 (Proc.devRef .tc main_arg16) = (V0 (Proc.devRef .tc main_arg16)) :=
  (keep4 (val4 V0) main_arg16 (by decide)).trans (at4_main_arg16 V0)
theorem at5_main_arg5 (V0 : Valuation τ sig (Elt F)) : val5 V0 (Proc.devRef .tc main_arg5) = (V0 (Proc.devRef .tc main_arg5)) :=
  (keep4 (val4 V0) main_arg5 (by decide)).trans (at4_main_arg5 V0)
theorem at6_main_v287 (V0 : Valuation τ sig (Elt F)) : val6 V0 (Proc.devRef .tc main_v287) = (Cert.ReferenceIdeal.Stages.val_main_v287 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value5_main_v287 (val5 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at5_main_v222 V0) (at5_main_v249 V0) (at5_main_v239 V0) (at5_main_v247 V0) (at5_main_v220 V0) (at5_main_v228 V0) (at5_main_v227 V0) (at5_main_arg17 V0) (at5_main_v223 V0) (at5_main_arg15 V0) (at5_main_arg16 V0) (at5_main_arg5 V0)
theorem at6_main_v291 (V0 : Valuation τ sig (Elt F)) : val6 V0 (Proc.devRef .tc main_v291) = (Cert.ReferenceIdeal.Stages.val_main_v291 (F := F) (V0 (Proc.devRef .tc main_arg16))) :=
  value5_main_v291 (val5 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at5_main_v222 V0) (at5_main_v249 V0) (at5_main_v239 V0) (at5_main_v247 V0) (at5_main_v220 V0) (at5_main_v228 V0) (at5_main_v227 V0) (at5_main_arg17 V0) (at5_main_v223 V0) (at5_main_arg15 V0) (at5_main_arg16 V0) (at5_main_arg5 V0)
theorem at6_main_v292 (V0 : Valuation τ sig (Elt F)) : val6 V0 (Proc.devRef .tc main_v292) = (Cert.ReferenceIdeal.Stages.val_main_v292 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value5_main_v292 (val5 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at5_main_v222 V0) (at5_main_v249 V0) (at5_main_v239 V0) (at5_main_v247 V0) (at5_main_v220 V0) (at5_main_v228 V0) (at5_main_v227 V0) (at5_main_arg17 V0) (at5_main_v223 V0) (at5_main_arg15 V0) (at5_main_arg16 V0) (at5_main_arg5 V0)
theorem at6_main_v300 (V0 : Valuation τ sig (Elt F)) : val6 V0 (Proc.devRef .tc main_v300) = (Cert.ReferenceIdeal.Stages.val_main_v300 (F := F) (V0 (Proc.devRef .tc main_arg4)) (V0 (Proc.devRef .tc main_arg5))) :=
  value5_main_v300 (val5 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at5_main_v222 V0) (at5_main_v249 V0) (at5_main_v239 V0) (at5_main_v247 V0) (at5_main_v220 V0) (at5_main_v228 V0) (at5_main_v227 V0) (at5_main_arg17 V0) (at5_main_v223 V0) (at5_main_arg15 V0) (at5_main_arg16 V0) (at5_main_arg5 V0)

/-! ## After window 6 -/

theorem at6_main_v220 (V0 : Valuation τ sig (Elt F)) : val6 V0 (Proc.devRef .tc main_v220) = (Cert.ReferenceIdeal.Stages.val_main_v220 (F := F) (V0 (Proc.devRef .tc main_arg4))) :=
  (keep5 (val5 V0) main_v220 (by decide)).trans (at5_main_v220 V0)
theorem at6_main_arg5 (V0 : Valuation τ sig (Elt F)) : val6 V0 (Proc.devRef .tc main_arg5) = (V0 (Proc.devRef .tc main_arg5)) :=
  (keep5 (val5 V0) main_arg5 (by decide)).trans (at5_main_arg5 V0)
theorem at6_main_v222 (V0 : Valuation τ sig (Elt F)) : val6 V0 (Proc.devRef .tc main_v222) = (Cert.ReferenceIdeal.Stages.val_main_v222 (F := F) (V0 (Proc.devRef .tc main_arg4))) :=
  (keep5 (val5 V0) main_v222 (by decide)).trans (at5_main_v222 V0)
theorem at6_main_arg17 (V0 : Valuation τ sig (Elt F)) : val6 V0 (Proc.devRef .tc main_arg17) = (V0 (Proc.devRef .tc main_arg17)) :=
  (keep5 (val5 V0) main_arg17 (by decide)).trans (at5_main_arg17 V0)
theorem at7_main_v346 (V0 : Valuation τ sig (Elt F)) : val7 V0 (Proc.devRef .tc main_v346) = (Cert.ReferenceIdeal.Stages.val_main_v346 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value6_main_v346 (val6 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at6_main_v300 V0) (at6_main_v220 V0) (at6_main_arg5 V0) (at6_main_v222 V0) (at6_main_v292 V0) (at6_main_v291 V0) (at6_main_arg17 V0)
theorem at7_main_v350 (V0 : Valuation τ sig (Elt F)) : val7 V0 (Proc.devRef .tc main_v350) = (Cert.ReferenceIdeal.Stages.val_main_v350 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value6_main_v350 (val6 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at6_main_v300 V0) (at6_main_v220 V0) (at6_main_arg5 V0) (at6_main_v222 V0) (at6_main_v292 V0) (at6_main_v291 V0) (at6_main_arg17 V0)

/-! ## After window 7 -/

theorem at7_main_v287 (V0 : Valuation τ sig (Elt F)) : val7 V0 (Proc.devRef .tc main_v287) = (Cert.ReferenceIdeal.Stages.val_main_v287 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  (keep6 (val6 V0) main_v287 (by decide)).trans (at6_main_v287 V0)
theorem at7_main_arg15 (V0 : Valuation τ sig (Elt F)) : val7 V0 (Proc.devRef .tc main_arg15) = (V0 (Proc.devRef .tc main_arg15)) :=
  (keep6 (val6 V0) main_arg15 (by decide)).trans ((keep5 (val5 V0) main_arg15 (by decide)).trans (at5_main_arg15 V0))
theorem at7_main_arg16 (V0 : Valuation τ sig (Elt F)) : val7 V0 (Proc.devRef .tc main_arg16) = (V0 (Proc.devRef .tc main_arg16)) :=
  (keep6 (val6 V0) main_arg16 (by decide)).trans ((keep5 (val5 V0) main_arg16 (by decide)).trans (at5_main_arg16 V0))
theorem at7_main_v222 (V0 : Valuation τ sig (Elt F)) : val7 V0 (Proc.devRef .tc main_v222) = (Cert.ReferenceIdeal.Stages.val_main_v222 (F := F) (V0 (Proc.devRef .tc main_arg4))) :=
  (keep6 (val6 V0) main_v222 (by decide)).trans (at6_main_v222 V0)
theorem at7_main_arg5 (V0 : Valuation τ sig (Elt F)) : val7 V0 (Proc.devRef .tc main_arg5) = (V0 (Proc.devRef .tc main_arg5)) :=
  (keep6 (val6 V0) main_arg5 (by decide)).trans (at6_main_arg5 V0)
theorem at7_main_v220 (V0 : Valuation τ sig (Elt F)) : val7 V0 (Proc.devRef .tc main_v220) = (Cert.ReferenceIdeal.Stages.val_main_v220 (F := F) (V0 (Proc.devRef .tc main_arg4))) :=
  (keep6 (val6 V0) main_v220 (by decide)).trans (at6_main_v220 V0)
theorem at8_main_v351 (V0 : Valuation τ sig (Elt F)) : val8 V0 (Proc.devRef .tc main_v351) = (Cert.ReferenceIdeal.Stages.val_main_v351 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value7_main_v351 (val7 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at7_main_v287 V0) (at7_main_v350 V0) (at7_main_arg15 V0) (at7_main_arg16 V0) (at7_main_v346 V0) (at7_main_v222 V0) (at7_main_arg5 V0) (at7_main_v220 V0)
theorem at8_main_v355 (V0 : Valuation τ sig (Elt F)) : val8 V0 (Proc.devRef .tc main_v355) = (Cert.ReferenceIdeal.Stages.val_main_v355 (F := F) (V0 (Proc.devRef .tc main_arg16))) :=
  value7_main_v355 (val7 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at7_main_v287 V0) (at7_main_v350 V0) (at7_main_arg15 V0) (at7_main_arg16 V0) (at7_main_v346 V0) (at7_main_v222 V0) (at7_main_arg5 V0) (at7_main_v220 V0)
theorem at8_main_v356 (V0 : Valuation τ sig (Elt F)) : val8 V0 (Proc.devRef .tc main_v356) = (Cert.ReferenceIdeal.Stages.val_main_v356 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value7_main_v356 (val7 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at7_main_v287 V0) (at7_main_v350 V0) (at7_main_arg15 V0) (at7_main_arg16 V0) (at7_main_v346 V0) (at7_main_v222 V0) (at7_main_arg5 V0) (at7_main_v220 V0)
theorem at8_main_v367 (V0 : Valuation τ sig (Elt F)) : val8 V0 (Proc.devRef .tc main_v367) = (Cert.ReferenceIdeal.Stages.val_main_v367 (F := F) (V0 (Proc.devRef .tc main_arg4)) (V0 (Proc.devRef .tc main_arg5))) :=
  value7_main_v367 (val7 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at7_main_v287 V0) (at7_main_v350 V0) (at7_main_arg15 V0) (at7_main_arg16 V0) (at7_main_v346 V0) (at7_main_v222 V0) (at7_main_arg5 V0) (at7_main_v220 V0)
theorem at8_main_v384 (V0 : Valuation τ sig (Elt F)) : val8 V0 (Proc.devRef .tc main_v384) = (Cert.ReferenceIdeal.Stages.val_main_v384 (F := F)) :=
  value7_main_v384 (val7 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at7_main_v287 V0) (at7_main_v350 V0) (at7_main_arg15 V0) (at7_main_arg16 V0) (at7_main_v346 V0) (at7_main_v222 V0) (at7_main_arg5 V0) (at7_main_v220 V0)
theorem at8_main_v394 (V0 : Valuation τ sig (Elt F)) : val8 V0 (Proc.devRef .tc main_v394) = (Cert.ReferenceIdeal.Stages.val_main_v394 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value7_main_v394 (val7 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at7_main_v287 V0) (at7_main_v350 V0) (at7_main_arg15 V0) (at7_main_arg16 V0) (at7_main_v346 V0) (at7_main_v222 V0) (at7_main_arg5 V0) (at7_main_v220 V0)
theorem at8_main_v396 (V0 : Valuation τ sig (Elt F)) : val8 V0 (Proc.devRef .tc main_v396) = (Cert.ReferenceIdeal.Stages.val_main_v396 (F := F) (V0 (Proc.devRef .tc main_arg4))) :=
  value7_main_v396 (val7 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at7_main_v287 V0) (at7_main_v350 V0) (at7_main_arg15 V0) (at7_main_arg16 V0) (at7_main_v346 V0) (at7_main_v222 V0) (at7_main_arg5 V0) (at7_main_v220 V0)
theorem at8_main_v397 (V0 : Valuation τ sig (Elt F)) : val8 V0 (Proc.devRef .tc main_v397) = (Cert.ReferenceIdeal.Stages.val_main_v397 (F := F)) :=
  value7_main_v397 (val7 V0) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at7_main_v287 V0) (at7_main_v350 V0) (at7_main_arg15 V0) (at7_main_arg16 V0) (at7_main_v346 V0) (at7_main_v222 V0) (at7_main_arg5 V0) (at7_main_v220 V0)

/-! ## After window 8 -/

theorem at8_main_v222 (V0 : Valuation τ sig (Elt F)) : val8 V0 (Proc.devRef .tc main_v222) = (Cert.ReferenceIdeal.Stages.val_main_v222 (F := F) (V0 (Proc.devRef .tc main_arg4))) :=
  (keep7 (val7 V0) main_v222 (by decide)).trans (at7_main_v222 V0)
theorem at8_main_arg17 (V0 : Valuation τ sig (Elt F)) : val8 V0 (Proc.devRef .tc main_arg17) = (V0 (Proc.devRef .tc main_arg17)) :=
  (keep7 (val7 V0) main_arg17 (by decide)).trans ((keep6 (val6 V0) main_arg17 (by decide)).trans (at6_main_arg17 V0))
theorem at8_main_arg6 (V0 : Valuation τ sig (Elt F)) : val8 V0 (Proc.devRef .tc main_arg6) = (V0 (Proc.devRef .tc main_arg6)) :=
  (keep7 (val7 V0) main_arg6 (by decide)).trans ((keep6 (val6 V0) main_arg6 (by decide)).trans ((keep5 (val5 V0) main_arg6 (by decide)).trans ((keep4 (val4 V0) main_arg6 (by decide)).trans ((keep3 (val3 V0) main_arg6 (by decide)).trans ((keep2 (val2 V0) main_arg6 (by decide)).trans ((keep1 (val1 V0) main_arg6 (by decide)).trans ((keep0 (val0 V0) main_arg6 (by decide)).trans (at0_main_arg6 V0))))))))
theorem at8_main_arg15 (V0 : Valuation τ sig (Elt F)) : val8 V0 (Proc.devRef .tc main_arg15) = (V0 (Proc.devRef .tc main_arg15)) :=
  (keep7 (val7 V0) main_arg15 (by decide)).trans (at7_main_arg15 V0)
theorem at8_main_arg16 (V0 : Valuation τ sig (Elt F)) : val8 V0 (Proc.devRef .tc main_arg16) = (V0 (Proc.devRef .tc main_arg16)) :=
  (keep7 (val7 V0) main_arg16 (by decide)).trans (at7_main_arg16 V0)
theorem at8_main_v21 (V0 : Valuation τ sig (Elt F)) : val8 V0 (Proc.devRef .tc main_v21) = (Cert.ReferenceIdeal.Stages.val_main_v21 (F := F) (V0 (Proc.devRef .tc main_arg0)) (V0 (Proc.devRef .tc main_arg1)) (V0 (Proc.devRef .tc main_arg10)) (V0 (Proc.devRef .tc main_arg11)) (V0 (Proc.devRef .tc main_arg12)) (V0 (Proc.devRef .tc main_arg13)) (V0 (Proc.devRef .tc main_arg14))) :=
  (keep7 (val7 V0) main_v21 (by decide)).trans ((keep6 (val6 V0) main_v21 (by decide)).trans ((keep5 (val5 V0) main_v21 (by decide)).trans ((keep4 (val4 V0) main_v21 (by decide)).trans ((keep3 (val3 V0) main_v21 (by decide)).trans ((keep2 (val2 V0) main_v21 (by decide)).trans ((keep1 (val1 V0) main_v21 (by decide)).trans (at1_main_v21 V0)))))))
theorem at8_main_arg7 (V0 : Valuation τ sig (Elt F)) : val8 V0 (Proc.devRef .tc main_arg7) = (V0 (Proc.devRef .tc main_arg7)) :=
  (keep7 (val7 V0) main_arg7 (by decide)).trans ((keep6 (val6 V0) main_arg7 (by decide)).trans ((keep5 (val5 V0) main_arg7 (by decide)).trans ((keep4 (val4 V0) main_arg7 (by decide)).trans ((keep3 (val3 V0) main_arg7 (by decide)).trans ((keep2 (val2 V0) main_arg7 (by decide)).trans ((keep1 (val1 V0) main_arg7 (by decide)).trans ((keep0 (val0 V0) main_arg7 (by decide)).trans (at0_main_arg7 V0))))))))
theorem at9_main_v415 (V0 : Valuation τ sig (Elt F)) : val9 V0 (Proc.devRef .tc main_v415) = (Cert.ReferenceIdeal.Stages.val_main_v415 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value8_main_v415 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)
theorem at9_main_v417 (V0 : Valuation τ sig (Elt F)) : val9 V0 (Proc.devRef .tc main_v417) = (Cert.ReferenceIdeal.Stages.val_main_v417 (F := F) (V0 (Proc.devRef .tc main_arg6))) :=
  value8_main_v417 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)
theorem at9_main_v419 (V0 : Valuation τ sig (Elt F)) : val9 V0 (Proc.devRef .tc main_v419) = (Cert.ReferenceIdeal.Stages.val_main_v419 (F := F) (V0 (Proc.devRef .tc main_arg6))) :=
  value8_main_v419 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)
theorem at9_main_v420 (V0 : Valuation τ sig (Elt F)) : val9 V0 (Proc.devRef .tc main_v420) = (Cert.ReferenceIdeal.Stages.val_main_v420 (F := F)) :=
  value8_main_v420 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)
theorem at9_main_v424 (V0 : Valuation τ sig (Elt F)) : val9 V0 (Proc.devRef .tc main_v424) = (Cert.ReferenceIdeal.Stages.val_main_v424 (F := F) (V0 (Proc.devRef .tc main_arg16))) :=
  value8_main_v424 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)
theorem at9_main_v425 (V0 : Valuation τ sig (Elt F)) : val9 V0 (Proc.devRef .tc main_v425) = (Cert.ReferenceIdeal.Stages.val_main_v425 (F := F) (V0 (Proc.devRef .tc main_arg0)) (V0 (Proc.devRef .tc main_arg1)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))) :=
  value8_main_v425 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)
theorem at9_main_v436 (V0 : Valuation τ sig (Elt F)) : val9 V0 (Proc.devRef .tc main_v436) = (Cert.ReferenceIdeal.Stages.val_main_v436 (F := F) (V0 (Proc.devRef .tc main_arg6)) (V0 (Proc.devRef .tc main_arg7))) :=
  value8_main_v436 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)
theorem at9_main_v444 (V0 : Valuation τ sig (Elt F)) : val9 V0 (Proc.devRef .tc main_v444) = (Cert.ReferenceIdeal.Stages.val_main_v444 (F := F) (V0 (Proc.devRef .tc main_arg6)) (V0 (Proc.devRef .tc main_arg7))) :=
  value8_main_v444 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)
theorem at9_main_v446 (V0 : Valuation τ sig (Elt F)) : val9 V0 (Proc.devRef .tc main_v446) = (Cert.ReferenceIdeal.Stages.val_main_v446 (F := F) (V0 (Proc.devRef .tc main_arg6))) :=
  value8_main_v446 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)
theorem at9_main_v448 (V0 : Valuation τ sig (Elt F)) : val9 V0 (Proc.devRef .tc main_v448) = (Cert.ReferenceIdeal.Stages.val_main_v448 (F := F) (V0 (Proc.devRef .tc main_arg6))) :=
  value8_main_v448 (val8 V0) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at8_main_v222 V0) (at8_main_v397 V0) (at8_main_v396 V0) (at8_main_v384 V0) (at8_main_v394 V0) (at8_main_v367 V0) (at8_main_v356 V0) (at8_main_v355 V0) (at8_main_arg17 V0) (at8_main_v351 V0) (at8_main_arg6 V0) (at8_main_arg15 V0) (at8_main_arg16 V0) (at8_main_v21 V0) (at8_main_arg7 V0)

/-! ## After window 9 -/

theorem at9_main_arg17 (V0 : Valuation τ sig (Elt F)) : val9 V0 (Proc.devRef .tc main_arg17) = (V0 (Proc.devRef .tc main_arg17)) :=
  (keep8 (val8 V0) main_arg17 (by decide)).trans (at8_main_arg17 V0)
theorem at9_main_arg15 (V0 : Valuation τ sig (Elt F)) : val9 V0 (Proc.devRef .tc main_arg15) = (V0 (Proc.devRef .tc main_arg15)) :=
  (keep8 (val8 V0) main_arg15 (by decide)).trans (at8_main_arg15 V0)
theorem at9_main_arg16 (V0 : Valuation τ sig (Elt F)) : val9 V0 (Proc.devRef .tc main_arg16) = (V0 (Proc.devRef .tc main_arg16)) :=
  (keep8 (val8 V0) main_arg16 (by decide)).trans (at8_main_arg16 V0)
theorem at9_main_arg7 (V0 : Valuation τ sig (Elt F)) : val9 V0 (Proc.devRef .tc main_arg7) = (V0 (Proc.devRef .tc main_arg7)) :=
  (keep8 (val8 V0) main_arg7 (by decide)).trans (at8_main_arg7 V0)
theorem at10_main_v484 (V0 : Valuation τ sig (Elt F)) : val10 V0 (Proc.devRef .tc main_v484) = (Cert.ReferenceIdeal.Stages.val_main_v484 (F := F) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value9_main_v484 (val9 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at9_main_v446 V0) (at9_main_v448 V0) (at9_main_v419 V0) (at9_main_v436 V0) (at9_main_v444 V0) (at9_main_v417 V0) (at9_main_v425 V0) (at9_main_v424 V0) (at9_main_arg17 V0) (at9_main_v420 V0) (at9_main_arg15 V0) (at9_main_arg16 V0) (at9_main_arg7 V0)
theorem at10_main_v488 (V0 : Valuation τ sig (Elt F)) : val10 V0 (Proc.devRef .tc main_v488) = (Cert.ReferenceIdeal.Stages.val_main_v488 (F := F) (V0 (Proc.devRef .tc main_arg16))) :=
  value9_main_v488 (val9 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at9_main_v446 V0) (at9_main_v448 V0) (at9_main_v419 V0) (at9_main_v436 V0) (at9_main_v444 V0) (at9_main_v417 V0) (at9_main_v425 V0) (at9_main_v424 V0) (at9_main_arg17 V0) (at9_main_v420 V0) (at9_main_arg15 V0) (at9_main_arg16 V0) (at9_main_arg7 V0)
theorem at10_main_v489 (V0 : Valuation τ sig (Elt F)) : val10 V0 (Proc.devRef .tc main_v489) = (Cert.ReferenceIdeal.Stages.val_main_v489 (F := F) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value9_main_v489 (val9 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at9_main_v446 V0) (at9_main_v448 V0) (at9_main_v419 V0) (at9_main_v436 V0) (at9_main_v444 V0) (at9_main_v417 V0) (at9_main_v425 V0) (at9_main_v424 V0) (at9_main_arg17 V0) (at9_main_v420 V0) (at9_main_arg15 V0) (at9_main_arg16 V0) (at9_main_arg7 V0)
theorem at10_main_v499 (V0 : Valuation τ sig (Elt F)) : val10 V0 (Proc.devRef .tc main_v499) = (Cert.ReferenceIdeal.Stages.val_main_v499 (F := F) (V0 (Proc.devRef .tc main_arg6)) (V0 (Proc.devRef .tc main_arg7))) :=
  value9_main_v499 (val9 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at9_main_v446 V0) (at9_main_v448 V0) (at9_main_v419 V0) (at9_main_v436 V0) (at9_main_v444 V0) (at9_main_v417 V0) (at9_main_v425 V0) (at9_main_v424 V0) (at9_main_arg17 V0) (at9_main_v420 V0) (at9_main_arg15 V0) (at9_main_arg16 V0) (at9_main_arg7 V0)

/-! ## After window 10 -/

theorem at10_main_v417 (V0 : Valuation τ sig (Elt F)) : val10 V0 (Proc.devRef .tc main_v417) = (Cert.ReferenceIdeal.Stages.val_main_v417 (F := F) (V0 (Proc.devRef .tc main_arg6))) :=
  (keep9 (val9 V0) main_v417 (by decide)).trans (at9_main_v417 V0)
theorem at10_main_arg7 (V0 : Valuation τ sig (Elt F)) : val10 V0 (Proc.devRef .tc main_arg7) = (V0 (Proc.devRef .tc main_arg7)) :=
  (keep9 (val9 V0) main_arg7 (by decide)).trans (at9_main_arg7 V0)
theorem at10_main_v419 (V0 : Valuation τ sig (Elt F)) : val10 V0 (Proc.devRef .tc main_v419) = (Cert.ReferenceIdeal.Stages.val_main_v419 (F := F) (V0 (Proc.devRef .tc main_arg6))) :=
  (keep9 (val9 V0) main_v419 (by decide)).trans (at9_main_v419 V0)
theorem at10_main_arg17 (V0 : Valuation τ sig (Elt F)) : val10 V0 (Proc.devRef .tc main_arg17) = (V0 (Proc.devRef .tc main_arg17)) :=
  (keep9 (val9 V0) main_arg17 (by decide)).trans (at9_main_arg17 V0)
theorem at10_main_arg15 (V0 : Valuation τ sig (Elt F)) : val10 V0 (Proc.devRef .tc main_arg15) = (V0 (Proc.devRef .tc main_arg15)) :=
  (keep9 (val9 V0) main_arg15 (by decide)).trans (at9_main_arg15 V0)
theorem at11_main_v543 (V0 : Valuation τ sig (Elt F)) : val11 V0 (Proc.devRef .tc main_v543) = (Cert.ReferenceIdeal.Stages.val_main_v543 (F := F) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value10_main_v543 (val10 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at10_main_v499 V0) (at10_main_v417 V0) (at10_main_arg7 V0) (at10_main_v419 V0) (at10_main_v489 V0) (at10_main_v488 V0) (at10_main_arg17 V0) (at10_main_v484 V0) (at10_main_arg15 V0)
theorem at11_main_v548 (V0 : Valuation τ sig (Elt F)) : val11 V0 (Proc.devRef .tc main_v548) = (Cert.ReferenceIdeal.Stages.val_main_v548 (F := F) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value10_main_v548 (val10 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at10_main_v499 V0) (at10_main_v417 V0) (at10_main_arg7 V0) (at10_main_v419 V0) (at10_main_v489 V0) (at10_main_v488 V0) (at10_main_arg17 V0) (at10_main_v484 V0) (at10_main_arg15 V0)
theorem at11_main_v550 (V0 : Valuation τ sig (Elt F)) : val11 V0 (Proc.devRef .tc main_v550) = (Cert.ReferenceIdeal.Stages.val_main_v550 (F := F) (V0 (Proc.devRef .tc main_arg15))) :=
  value10_main_v550 (val10 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at10_main_v499 V0) (at10_main_v417 V0) (at10_main_arg7 V0) (at10_main_v419 V0) (at10_main_v489 V0) (at10_main_v488 V0) (at10_main_arg17 V0) (at10_main_v484 V0) (at10_main_arg15 V0)

/-! ## After window 11 -/

theorem at11_main_arg16 (V0 : Valuation τ sig (Elt F)) : val11 V0 (Proc.devRef .tc main_arg16) = (V0 (Proc.devRef .tc main_arg16)) :=
  (keep10 (val10 V0) main_arg16 (by decide)).trans ((keep9 (val9 V0) main_arg16 (by decide)).trans (at9_main_arg16 V0))
theorem at11_main_v419 (V0 : Valuation τ sig (Elt F)) : val11 V0 (Proc.devRef .tc main_v419) = (Cert.ReferenceIdeal.Stages.val_main_v419 (F := F) (V0 (Proc.devRef .tc main_arg6))) :=
  (keep10 (val10 V0) main_v419 (by decide)).trans (at10_main_v419 V0)
theorem at11_main_arg7 (V0 : Valuation τ sig (Elt F)) : val11 V0 (Proc.devRef .tc main_arg7) = (V0 (Proc.devRef .tc main_arg7)) :=
  (keep10 (val10 V0) main_arg7 (by decide)).trans (at10_main_arg7 V0)
theorem at11_main_v417 (V0 : Valuation τ sig (Elt F)) : val11 V0 (Proc.devRef .tc main_v417) = (Cert.ReferenceIdeal.Stages.val_main_v417 (F := F) (V0 (Proc.devRef .tc main_arg6))) :=
  (keep10 (val10 V0) main_v417 (by decide)).trans (at10_main_v417 V0)
theorem at12_main_v552 (V0 : Valuation τ sig (Elt F)) : val12 V0 (Proc.devRef .tc main_v552) = (Cert.ReferenceIdeal.Stages.val_main_v552 (F := F) (V0 (Proc.devRef .tc main_arg16))) :=
  value11_main_v552 (val11 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at11_main_arg16 V0) (at11_main_v543 V0) (at11_main_v550 V0) (at11_main_v419 V0) (at11_main_arg7 V0) (at11_main_v417 V0)
theorem at12_main_v553 (V0 : Valuation τ sig (Elt F)) : val12 V0 (Proc.devRef .tc main_v553) = (Cert.ReferenceIdeal.Stages.val_main_v553 (F := F) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value11_main_v553 (val11 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at11_main_arg16 V0) (at11_main_v543 V0) (at11_main_v550 V0) (at11_main_v419 V0) (at11_main_arg7 V0) (at11_main_v417 V0)
theorem at12_main_v564 (V0 : Valuation τ sig (Elt F)) : val12 V0 (Proc.devRef .tc main_v564) = (Cert.ReferenceIdeal.Stages.val_main_v564 (F := F) (V0 (Proc.devRef .tc main_arg6)) (V0 (Proc.devRef .tc main_arg7))) :=
  value11_main_v564 (val11 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at11_main_arg16 V0) (at11_main_v543 V0) (at11_main_v550 V0) (at11_main_v419 V0) (at11_main_arg7 V0) (at11_main_v417 V0)
theorem at12_main_v581 (V0 : Valuation τ sig (Elt F)) : val12 V0 (Proc.devRef .tc main_v581) = (Cert.ReferenceIdeal.Stages.val_main_v581 (F := F)) :=
  value11_main_v581 (val11 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at11_main_arg16 V0) (at11_main_v543 V0) (at11_main_v550 V0) (at11_main_v419 V0) (at11_main_arg7 V0) (at11_main_v417 V0)
theorem at12_main_v591 (V0 : Valuation τ sig (Elt F)) : val12 V0 (Proc.devRef .tc main_v591) = (Cert.ReferenceIdeal.Stages.val_main_v591 (F := F) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16))) :=
  value11_main_v591 (val11 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at11_main_arg16 V0) (at11_main_v543 V0) (at11_main_v550 V0) (at11_main_v419 V0) (at11_main_arg7 V0) (at11_main_v417 V0)
theorem at12_main_v597 (V0 : Valuation τ sig (Elt F)) : val12 V0 (Proc.devRef .tc main_v597) = (Cert.ReferenceIdeal.Stages.val_main_v597 (F := F) (V0 (Proc.devRef .tc main_arg6))) :=
  value11_main_v597 (val11 V0) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (at11_main_arg16 V0) (at11_main_v543 V0) (at11_main_v550 V0) (at11_main_v419 V0) (at11_main_arg7 V0) (at11_main_v417 V0)

/-! ## After window 12 -/

theorem at12_main_arg17 (V0 : Valuation τ sig (Elt F)) : val12 V0 (Proc.devRef .tc main_arg17) = (V0 (Proc.devRef .tc main_arg17)) :=
  (keep11 (val11 V0) main_arg17 (by decide)).trans ((keep10 (val10 V0) main_arg17 (by decide)).trans (at10_main_arg17 V0))
theorem at12_main_v548 (V0 : Valuation τ sig (Elt F)) : val12 V0 (Proc.devRef .tc main_v548) = (Cert.ReferenceIdeal.Stages.val_main_v548 (F := F) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  (keep11 (val11 V0) main_v548 (by decide)).trans (at11_main_v548 V0)
theorem at12_main_arg8 (V0 : Valuation τ sig (Elt F)) : val12 V0 (Proc.devRef .tc main_arg8) = (V0 (Proc.devRef .tc main_arg8)) :=
  (keep11 (val11 V0) main_arg8 (by decide)).trans ((keep10 (val10 V0) main_arg8 (by decide)).trans ((keep9 (val9 V0) main_arg8 (by decide)).trans ((keep8 (val8 V0) main_arg8 (by decide)).trans ((keep7 (val7 V0) main_arg8 (by decide)).trans ((keep6 (val6 V0) main_arg8 (by decide)).trans ((keep5 (val5 V0) main_arg8 (by decide)).trans ((keep4 (val4 V0) main_arg8 (by decide)).trans ((keep3 (val3 V0) main_arg8 (by decide)).trans ((keep2 (val2 V0) main_arg8 (by decide)).trans ((keep1 (val1 V0) main_arg8 (by decide)).trans ((keep0 (val0 V0) main_arg8 (by decide)).trans (at0_main_arg8 V0))))))))))))
theorem at12_main_v415 (V0 : Valuation τ sig (Elt F)) : val12 V0 (Proc.devRef .tc main_v415) = (Cert.ReferenceIdeal.Stages.val_main_v415 (F := F) (V0 (Proc.devRef .tc main_arg0)) (V0 (Proc.devRef .tc main_arg1)) (V0 (Proc.devRef .tc main_arg4)) (V0 (Proc.devRef .tc main_arg5)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  (keep11 (val11 V0) main_v415 (by decide)).trans ((keep10 (val10 V0) main_v415 (by decide)).trans ((keep9 (val9 V0) main_v415 (by decide)).trans (at9_main_v415 V0)))
theorem at12_main_v218 (V0 : Valuation τ sig (Elt F)) : val12 V0 (Proc.devRef .tc main_v218) = (Cert.ReferenceIdeal.Stages.val_main_v218 (F := F) (V0 (Proc.devRef .tc main_arg0)) (V0 (Proc.devRef .tc main_arg1)) (V0 (Proc.devRef .tc main_arg2)) (V0 (Proc.devRef .tc main_arg3)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  (keep11 (val11 V0) main_v218 (by decide)).trans ((keep10 (val10 V0) main_v218 (by decide)).trans ((keep9 (val9 V0) main_v218 (by decide)).trans ((keep8 (val8 V0) main_v218 (by decide)).trans ((keep7 (val7 V0) main_v218 (by decide)).trans ((keep6 (val6 V0) main_v218 (by decide)).trans ((keep5 (val5 V0) main_v218 (by decide)).trans (at5_main_v218 V0)))))))
theorem at12_main_arg9 (V0 : Valuation τ sig (Elt F)) : val12 V0 (Proc.devRef .tc main_arg9) = (V0 (Proc.devRef .tc main_arg9)) :=
  (keep11 (val11 V0) main_arg9 (by decide)).trans ((keep10 (val10 V0) main_arg9 (by decide)).trans ((keep9 (val9 V0) main_arg9 (by decide)).trans ((keep8 (val8 V0) main_arg9 (by decide)).trans ((keep7 (val7 V0) main_arg9 (by decide)).trans ((keep6 (val6 V0) main_arg9 (by decide)).trans ((keep5 (val5 V0) main_arg9 (by decide)).trans ((keep4 (val4 V0) main_arg9 (by decide)).trans ((keep3 (val3 V0) main_arg9 (by decide)).trans ((keep2 (val2 V0) main_arg9 (by decide)).trans ((keep1 (val1 V0) main_arg9 (by decide)).trans ((keep0 (val0 V0) main_arg9 (by decide)).trans (at0_main_arg9 V0))))))))))))
theorem at13_main_v612 (V0 : Valuation τ sig (Elt F)) : val13 V0 (Proc.devRef .tc main_v612) = (Cert.ReferenceIdeal.Stages.val_main_v612 (F := F) (V0 (Proc.devRef .tc main_arg0)) (V0 (Proc.devRef .tc main_arg1)) (V0 (Proc.devRef .tc main_arg6)) (V0 (Proc.devRef .tc main_arg7)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value12_main_v612 (val12 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at12_main_v581 V0) (at12_main_v597 V0) (at12_main_v591 V0) (at12_main_v564 V0) (at12_main_v553 V0) (at12_main_v552 V0) (at12_main_arg17 V0) (at12_main_v548 V0) (at12_main_arg8 V0) (at12_main_v415 V0) (at12_main_v218 V0) (at12_main_arg9 V0)
theorem at13_main_v635 (V0 : Valuation τ sig (Elt F)) : val13 V0 (Proc.devRef .tc main_v635) = (Cert.ReferenceIdeal.Stages.val_main_v635 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg8)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17))) :=
  value12_main_v635 (val12 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at12_main_v581 V0) (at12_main_v597 V0) (at12_main_v591 V0) (at12_main_v564 V0) (at12_main_v553 V0) (at12_main_v552 V0) (at12_main_arg17 V0) (at12_main_v548 V0) (at12_main_arg8 V0) (at12_main_v415 V0) (at12_main_v218 V0) (at12_main_arg9 V0)
theorem at13_main_v644 (V0 : Valuation τ sig (Elt F)) : val13 V0 (Proc.devRef .tc main_v644) = (Cert.ReferenceIdeal.Stages.val_main_v644 (F := F) (V0 (Proc.devRef .tc main_arg9))) :=
  value12_main_v644 (val12 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at12_main_v581 V0) (at12_main_v597 V0) (at12_main_v591 V0) (at12_main_v564 V0) (at12_main_v553 V0) (at12_main_v552 V0) (at12_main_arg17 V0) (at12_main_v548 V0) (at12_main_arg8 V0) (at12_main_v415 V0) (at12_main_v218 V0) (at12_main_arg9 V0)
theorem at13_main_cst_132 (V0 : Valuation τ sig (Elt F)) : val13 V0 (Proc.devRef .tc main_cst_132) = (Cert.ReferenceIdeal.Stages.val_main_cst_132 (F := F)) :=
  value12_main_cst_132 (val12 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (at12_main_v581 V0) (at12_main_v597 V0) (at12_main_v591 V0) (at12_main_v564 V0) (at12_main_v553 V0) (at12_main_v552 V0) (at12_main_arg17 V0) (at12_main_v548 V0) (at12_main_arg8 V0) (at12_main_v415 V0) (at12_main_v218 V0) (at12_main_arg9 V0)

/-! ## After window 13 -/

theorem at13_main_arg9 (V0 : Valuation τ sig (Elt F)) : val13 V0 (Proc.devRef .tc main_arg9) = (V0 (Proc.devRef .tc main_arg9)) :=
  (keep12 (val12 V0) main_arg9 (by decide)).trans (at12_main_arg9 V0)
theorem at13_main_arg18 (V0 : Valuation τ sig (Elt F)) : val13 V0 (Proc.devRef .tc main_arg18) = (V0 (Proc.devRef .tc main_arg18)) :=
  (keep12 (val12 V0) main_arg18 (by decide)).trans ((keep11 (val11 V0) main_arg18 (by decide)).trans ((keep10 (val10 V0) main_arg18 (by decide)).trans ((keep9 (val9 V0) main_arg18 (by decide)).trans ((keep8 (val8 V0) main_arg18 (by decide)).trans ((keep7 (val7 V0) main_arg18 (by decide)).trans ((keep6 (val6 V0) main_arg18 (by decide)).trans ((keep5 (val5 V0) main_arg18 (by decide)).trans ((keep4 (val4 V0) main_arg18 (by decide)).trans ((keep3 (val3 V0) main_arg18 (by decide)).trans ((keep2 (val2 V0) main_arg18 (by decide)).trans ((keep1 (val1 V0) main_arg18 (by decide)).trans ((keep0 (val0 V0) main_arg18 (by decide)).trans (at0_main_arg18 V0)))))))))))))
theorem at13_main_arg19 (V0 : Valuation τ sig (Elt F)) : val13 V0 (Proc.devRef .tc main_arg19) = (V0 (Proc.devRef .tc main_arg19)) :=
  (keep12 (val12 V0) main_arg19 (by decide)).trans ((keep11 (val11 V0) main_arg19 (by decide)).trans ((keep10 (val10 V0) main_arg19 (by decide)).trans ((keep9 (val9 V0) main_arg19 (by decide)).trans ((keep8 (val8 V0) main_arg19 (by decide)).trans ((keep7 (val7 V0) main_arg19 (by decide)).trans ((keep6 (val6 V0) main_arg19 (by decide)).trans ((keep5 (val5 V0) main_arg19 (by decide)).trans ((keep4 (val4 V0) main_arg19 (by decide)).trans ((keep3 (val3 V0) main_arg19 (by decide)).trans ((keep2 (val2 V0) main_arg19 (by decide)).trans ((keep1 (val1 V0) main_arg19 (by decide)).trans ((keep0 (val0 V0) main_arg19 (by decide)).trans (at0_main_arg19 V0)))))))))))))
theorem at13_main_arg22 (V0 : Valuation τ sig (Elt F)) : val13 V0 (Proc.devRef .tc main_arg22) = (V0 (Proc.devRef .tc main_arg22)) :=
  (keep12 (val12 V0) main_arg22 (by decide)).trans ((keep11 (val11 V0) main_arg22 (by decide)).trans ((keep10 (val10 V0) main_arg22 (by decide)).trans ((keep9 (val9 V0) main_arg22 (by decide)).trans ((keep8 (val8 V0) main_arg22 (by decide)).trans ((keep7 (val7 V0) main_arg22 (by decide)).trans ((keep6 (val6 V0) main_arg22 (by decide)).trans ((keep5 (val5 V0) main_arg22 (by decide)).trans ((keep4 (val4 V0) main_arg22 (by decide)).trans ((keep3 (val3 V0) main_arg22 (by decide)).trans ((keep2 (val2 V0) main_arg22 (by decide)).trans ((keep1 (val1 V0) main_arg22 (by decide)).trans ((keep0 (val0 V0) main_arg22 (by decide)).trans (at0_main_arg22 V0)))))))))))))
theorem at13_main_arg20 (V0 : Valuation τ sig (Elt F)) : val13 V0 (Proc.devRef .tc main_arg20) = (V0 (Proc.devRef .tc main_arg20)) :=
  (keep12 (val12 V0) main_arg20 (by decide)).trans ((keep11 (val11 V0) main_arg20 (by decide)).trans ((keep10 (val10 V0) main_arg20 (by decide)).trans ((keep9 (val9 V0) main_arg20 (by decide)).trans ((keep8 (val8 V0) main_arg20 (by decide)).trans ((keep7 (val7 V0) main_arg20 (by decide)).trans ((keep6 (val6 V0) main_arg20 (by decide)).trans ((keep5 (val5 V0) main_arg20 (by decide)).trans ((keep4 (val4 V0) main_arg20 (by decide)).trans ((keep3 (val3 V0) main_arg20 (by decide)).trans ((keep2 (val2 V0) main_arg20 (by decide)).trans ((keep1 (val1 V0) main_arg20 (by decide)).trans ((keep0 (val0 V0) main_arg20 (by decide)).trans (at0_main_arg20 V0)))))))))))))
theorem at13_main_arg21 (V0 : Valuation τ sig (Elt F)) : val13 V0 (Proc.devRef .tc main_arg21) = (V0 (Proc.devRef .tc main_arg21)) :=
  (keep12 (val12 V0) main_arg21 (by decide)).trans ((keep11 (val11 V0) main_arg21 (by decide)).trans ((keep10 (val10 V0) main_arg21 (by decide)).trans ((keep9 (val9 V0) main_arg21 (by decide)).trans ((keep8 (val8 V0) main_arg21 (by decide)).trans ((keep7 (val7 V0) main_arg21 (by decide)).trans ((keep6 (val6 V0) main_arg21 (by decide)).trans ((keep5 (val5 V0) main_arg21 (by decide)).trans ((keep4 (val4 V0) main_arg21 (by decide)).trans ((keep3 (val3 V0) main_arg21 (by decide)).trans ((keep2 (val2 V0) main_arg21 (by decide)).trans ((keep1 (val1 V0) main_arg21 (by decide)).trans ((keep0 (val0 V0) main_arg21 (by decide)).trans (at0_main_arg21 V0)))))))))))))
theorem at14_main_v676 (V0 : Valuation τ sig (Elt F)) : val14 V0 (Proc.devRef .tc main_v676) = (Cert.ReferenceIdeal.Stages.val_main_v676 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22))) :=
  value13_main_v676 (val13 V0) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (at13_main_cst_132 V0) (at13_main_arg9 V0) (at13_main_v612 V0) (at13_main_v644 V0) (at13_main_v635 V0) (at13_main_arg18 V0) (at13_main_arg19 V0) (at13_main_arg22 V0) (at13_main_arg20 V0) (at13_main_arg21 V0)

/-! ## The end of @main -/

theorem at14_main_arg0 (V0 : Valuation τ sig (Elt F)) : val14 V0 (Proc.devRef .tc main_arg0) = (V0 (Proc.devRef .tc main_arg0)) :=
  (keep13 (val13 V0) main_arg0 (by decide)).trans ((keep12 (val12 V0) main_arg0 (by decide)).trans ((keep11 (val11 V0) main_arg0 (by decide)).trans ((keep10 (val10 V0) main_arg0 (by decide)).trans ((keep9 (val9 V0) main_arg0 (by decide)).trans ((keep8 (val8 V0) main_arg0 (by decide)).trans ((keep7 (val7 V0) main_arg0 (by decide)).trans ((keep6 (val6 V0) main_arg0 (by decide)).trans ((keep5 (val5 V0) main_arg0 (by decide)).trans ((keep4 (val4 V0) main_arg0 (by decide)).trans ((keep3 (val3 V0) main_arg0 (by decide)).trans ((keep2 (val2 V0) main_arg0 (by decide)).trans ((keep1 (val1 V0) main_arg0 (by decide)).trans ((keep0 (val0 V0) main_arg0 (by decide)).trans (at0_main_arg0 V0))))))))))))))
theorem at14_main_arg1 (V0 : Valuation τ sig (Elt F)) : val14 V0 (Proc.devRef .tc main_arg1) = (V0 (Proc.devRef .tc main_arg1)) :=
  (keep13 (val13 V0) main_arg1 (by decide)).trans ((keep12 (val12 V0) main_arg1 (by decide)).trans ((keep11 (val11 V0) main_arg1 (by decide)).trans ((keep10 (val10 V0) main_arg1 (by decide)).trans ((keep9 (val9 V0) main_arg1 (by decide)).trans ((keep8 (val8 V0) main_arg1 (by decide)).trans ((keep7 (val7 V0) main_arg1 (by decide)).trans ((keep6 (val6 V0) main_arg1 (by decide)).trans ((keep5 (val5 V0) main_arg1 (by decide)).trans ((keep4 (val4 V0) main_arg1 (by decide)).trans ((keep3 (val3 V0) main_arg1 (by decide)).trans ((keep2 (val2 V0) main_arg1 (by decide)).trans ((keep1 (val1 V0) main_arg1 (by decide)).trans ((keep0 (val0 V0) main_arg1 (by decide)).trans (at0_main_arg1 V0))))))))))))))
theorem at14_main_arg2 (V0 : Valuation τ sig (Elt F)) : val14 V0 (Proc.devRef .tc main_arg2) = (V0 (Proc.devRef .tc main_arg2)) :=
  (keep13 (val13 V0) main_arg2 (by decide)).trans ((keep12 (val12 V0) main_arg2 (by decide)).trans ((keep11 (val11 V0) main_arg2 (by decide)).trans ((keep10 (val10 V0) main_arg2 (by decide)).trans ((keep9 (val9 V0) main_arg2 (by decide)).trans ((keep8 (val8 V0) main_arg2 (by decide)).trans ((keep7 (val7 V0) main_arg2 (by decide)).trans ((keep6 (val6 V0) main_arg2 (by decide)).trans ((keep5 (val5 V0) main_arg2 (by decide)).trans ((keep4 (val4 V0) main_arg2 (by decide)).trans ((keep3 (val3 V0) main_arg2 (by decide)).trans ((keep2 (val2 V0) main_arg2 (by decide)).trans ((keep1 (val1 V0) main_arg2 (by decide)).trans ((keep0 (val0 V0) main_arg2 (by decide)).trans (at0_main_arg2 V0))))))))))))))
theorem at14_main_arg3 (V0 : Valuation τ sig (Elt F)) : val14 V0 (Proc.devRef .tc main_arg3) = (V0 (Proc.devRef .tc main_arg3)) :=
  (keep13 (val13 V0) main_arg3 (by decide)).trans ((keep12 (val12 V0) main_arg3 (by decide)).trans ((keep11 (val11 V0) main_arg3 (by decide)).trans ((keep10 (val10 V0) main_arg3 (by decide)).trans ((keep9 (val9 V0) main_arg3 (by decide)).trans ((keep8 (val8 V0) main_arg3 (by decide)).trans ((keep7 (val7 V0) main_arg3 (by decide)).trans ((keep6 (val6 V0) main_arg3 (by decide)).trans ((keep5 (val5 V0) main_arg3 (by decide)).trans ((keep4 (val4 V0) main_arg3 (by decide)).trans ((keep3 (val3 V0) main_arg3 (by decide)).trans (at3_main_arg3 V0)))))))))))
theorem at14_main_arg4 (V0 : Valuation τ sig (Elt F)) : val14 V0 (Proc.devRef .tc main_arg4) = (V0 (Proc.devRef .tc main_arg4)) :=
  (keep13 (val13 V0) main_arg4 (by decide)).trans ((keep12 (val12 V0) main_arg4 (by decide)).trans ((keep11 (val11 V0) main_arg4 (by decide)).trans ((keep10 (val10 V0) main_arg4 (by decide)).trans ((keep9 (val9 V0) main_arg4 (by decide)).trans ((keep8 (val8 V0) main_arg4 (by decide)).trans ((keep7 (val7 V0) main_arg4 (by decide)).trans ((keep6 (val6 V0) main_arg4 (by decide)).trans ((keep5 (val5 V0) main_arg4 (by decide)).trans ((keep4 (val4 V0) main_arg4 (by decide)).trans (at4_main_arg4 V0))))))))))
theorem at14_main_arg5 (V0 : Valuation τ sig (Elt F)) : val14 V0 (Proc.devRef .tc main_arg5) = (V0 (Proc.devRef .tc main_arg5)) :=
  (keep13 (val13 V0) main_arg5 (by decide)).trans ((keep12 (val12 V0) main_arg5 (by decide)).trans ((keep11 (val11 V0) main_arg5 (by decide)).trans ((keep10 (val10 V0) main_arg5 (by decide)).trans ((keep9 (val9 V0) main_arg5 (by decide)).trans ((keep8 (val8 V0) main_arg5 (by decide)).trans ((keep7 (val7 V0) main_arg5 (by decide)).trans (at7_main_arg5 V0)))))))
theorem at14_main_arg6 (V0 : Valuation τ sig (Elt F)) : val14 V0 (Proc.devRef .tc main_arg6) = (V0 (Proc.devRef .tc main_arg6)) :=
  (keep13 (val13 V0) main_arg6 (by decide)).trans ((keep12 (val12 V0) main_arg6 (by decide)).trans ((keep11 (val11 V0) main_arg6 (by decide)).trans ((keep10 (val10 V0) main_arg6 (by decide)).trans ((keep9 (val9 V0) main_arg6 (by decide)).trans ((keep8 (val8 V0) main_arg6 (by decide)).trans (at8_main_arg6 V0))))))
theorem at14_main_arg7 (V0 : Valuation τ sig (Elt F)) : val14 V0 (Proc.devRef .tc main_arg7) = (V0 (Proc.devRef .tc main_arg7)) :=
  (keep13 (val13 V0) main_arg7 (by decide)).trans ((keep12 (val12 V0) main_arg7 (by decide)).trans ((keep11 (val11 V0) main_arg7 (by decide)).trans (at11_main_arg7 V0)))
theorem at14_main_arg8 (V0 : Valuation τ sig (Elt F)) : val14 V0 (Proc.devRef .tc main_arg8) = (V0 (Proc.devRef .tc main_arg8)) :=
  (keep13 (val13 V0) main_arg8 (by decide)).trans ((keep12 (val12 V0) main_arg8 (by decide)).trans (at12_main_arg8 V0))
theorem at14_main_arg9 (V0 : Valuation τ sig (Elt F)) : val14 V0 (Proc.devRef .tc main_arg9) = (V0 (Proc.devRef .tc main_arg9)) :=
  (keep13 (val13 V0) main_arg9 (by decide)).trans (at13_main_arg9 V0)
theorem at14_main_arg10 (V0 : Valuation τ sig (Elt F)) : val14 V0 (Proc.devRef .tc main_arg10) = (V0 (Proc.devRef .tc main_arg10)) :=
  (keep13 (val13 V0) main_arg10 (by decide)).trans ((keep12 (val12 V0) main_arg10 (by decide)).trans ((keep11 (val11 V0) main_arg10 (by decide)).trans ((keep10 (val10 V0) main_arg10 (by decide)).trans ((keep9 (val9 V0) main_arg10 (by decide)).trans ((keep8 (val8 V0) main_arg10 (by decide)).trans ((keep7 (val7 V0) main_arg10 (by decide)).trans ((keep6 (val6 V0) main_arg10 (by decide)).trans ((keep5 (val5 V0) main_arg10 (by decide)).trans ((keep4 (val4 V0) main_arg10 (by decide)).trans ((keep3 (val3 V0) main_arg10 (by decide)).trans ((keep2 (val2 V0) main_arg10 (by decide)).trans ((keep1 (val1 V0) main_arg10 (by decide)).trans ((keep0 (val0 V0) main_arg10 (by decide)).trans (at0_main_arg10 V0))))))))))))))
theorem at14_main_arg11 (V0 : Valuation τ sig (Elt F)) : val14 V0 (Proc.devRef .tc main_arg11) = (V0 (Proc.devRef .tc main_arg11)) :=
  (keep13 (val13 V0) main_arg11 (by decide)).trans ((keep12 (val12 V0) main_arg11 (by decide)).trans ((keep11 (val11 V0) main_arg11 (by decide)).trans ((keep10 (val10 V0) main_arg11 (by decide)).trans ((keep9 (val9 V0) main_arg11 (by decide)).trans ((keep8 (val8 V0) main_arg11 (by decide)).trans ((keep7 (val7 V0) main_arg11 (by decide)).trans ((keep6 (val6 V0) main_arg11 (by decide)).trans ((keep5 (val5 V0) main_arg11 (by decide)).trans ((keep4 (val4 V0) main_arg11 (by decide)).trans ((keep3 (val3 V0) main_arg11 (by decide)).trans ((keep2 (val2 V0) main_arg11 (by decide)).trans ((keep1 (val1 V0) main_arg11 (by decide)).trans ((keep0 (val0 V0) main_arg11 (by decide)).trans (at0_main_arg11 V0))))))))))))))
theorem at14_main_arg12 (V0 : Valuation τ sig (Elt F)) : val14 V0 (Proc.devRef .tc main_arg12) = (V0 (Proc.devRef .tc main_arg12)) :=
  (keep13 (val13 V0) main_arg12 (by decide)).trans ((keep12 (val12 V0) main_arg12 (by decide)).trans ((keep11 (val11 V0) main_arg12 (by decide)).trans ((keep10 (val10 V0) main_arg12 (by decide)).trans ((keep9 (val9 V0) main_arg12 (by decide)).trans ((keep8 (val8 V0) main_arg12 (by decide)).trans ((keep7 (val7 V0) main_arg12 (by decide)).trans ((keep6 (val6 V0) main_arg12 (by decide)).trans ((keep5 (val5 V0) main_arg12 (by decide)).trans ((keep4 (val4 V0) main_arg12 (by decide)).trans ((keep3 (val3 V0) main_arg12 (by decide)).trans ((keep2 (val2 V0) main_arg12 (by decide)).trans ((keep1 (val1 V0) main_arg12 (by decide)).trans ((keep0 (val0 V0) main_arg12 (by decide)).trans (at0_main_arg12 V0))))))))))))))
theorem at14_main_arg13 (V0 : Valuation τ sig (Elt F)) : val14 V0 (Proc.devRef .tc main_arg13) = (V0 (Proc.devRef .tc main_arg13)) :=
  (keep13 (val13 V0) main_arg13 (by decide)).trans ((keep12 (val12 V0) main_arg13 (by decide)).trans ((keep11 (val11 V0) main_arg13 (by decide)).trans ((keep10 (val10 V0) main_arg13 (by decide)).trans ((keep9 (val9 V0) main_arg13 (by decide)).trans ((keep8 (val8 V0) main_arg13 (by decide)).trans ((keep7 (val7 V0) main_arg13 (by decide)).trans ((keep6 (val6 V0) main_arg13 (by decide)).trans ((keep5 (val5 V0) main_arg13 (by decide)).trans ((keep4 (val4 V0) main_arg13 (by decide)).trans ((keep3 (val3 V0) main_arg13 (by decide)).trans ((keep2 (val2 V0) main_arg13 (by decide)).trans ((keep1 (val1 V0) main_arg13 (by decide)).trans ((keep0 (val0 V0) main_arg13 (by decide)).trans (at0_main_arg13 V0))))))))))))))
theorem at14_main_arg14 (V0 : Valuation τ sig (Elt F)) : val14 V0 (Proc.devRef .tc main_arg14) = (V0 (Proc.devRef .tc main_arg14)) :=
  (keep13 (val13 V0) main_arg14 (by decide)).trans ((keep12 (val12 V0) main_arg14 (by decide)).trans ((keep11 (val11 V0) main_arg14 (by decide)).trans ((keep10 (val10 V0) main_arg14 (by decide)).trans ((keep9 (val9 V0) main_arg14 (by decide)).trans ((keep8 (val8 V0) main_arg14 (by decide)).trans ((keep7 (val7 V0) main_arg14 (by decide)).trans ((keep6 (val6 V0) main_arg14 (by decide)).trans ((keep5 (val5 V0) main_arg14 (by decide)).trans ((keep4 (val4 V0) main_arg14 (by decide)).trans ((keep3 (val3 V0) main_arg14 (by decide)).trans ((keep2 (val2 V0) main_arg14 (by decide)).trans ((keep1 (val1 V0) main_arg14 (by decide)).trans ((keep0 (val0 V0) main_arg14 (by decide)).trans (at0_main_arg14 V0))))))))))))))
theorem at14_main_arg15 (V0 : Valuation τ sig (Elt F)) : val14 V0 (Proc.devRef .tc main_arg15) = (V0 (Proc.devRef .tc main_arg15)) :=
  (keep13 (val13 V0) main_arg15 (by decide)).trans ((keep12 (val12 V0) main_arg15 (by decide)).trans ((keep11 (val11 V0) main_arg15 (by decide)).trans ((keep10 (val10 V0) main_arg15 (by decide)).trans (at10_main_arg15 V0))))
theorem at14_main_arg16 (V0 : Valuation τ sig (Elt F)) : val14 V0 (Proc.devRef .tc main_arg16) = (V0 (Proc.devRef .tc main_arg16)) :=
  (keep13 (val13 V0) main_arg16 (by decide)).trans ((keep12 (val12 V0) main_arg16 (by decide)).trans ((keep11 (val11 V0) main_arg16 (by decide)).trans (at11_main_arg16 V0)))
theorem at14_main_arg17 (V0 : Valuation τ sig (Elt F)) : val14 V0 (Proc.devRef .tc main_arg17) = (V0 (Proc.devRef .tc main_arg17)) :=
  (keep13 (val13 V0) main_arg17 (by decide)).trans ((keep12 (val12 V0) main_arg17 (by decide)).trans (at12_main_arg17 V0))
theorem at14_main_arg18 (V0 : Valuation τ sig (Elt F)) : val14 V0 (Proc.devRef .tc main_arg18) = (V0 (Proc.devRef .tc main_arg18)) :=
  (keep13 (val13 V0) main_arg18 (by decide)).trans (at13_main_arg18 V0)
theorem at14_main_arg19 (V0 : Valuation τ sig (Elt F)) : val14 V0 (Proc.devRef .tc main_arg19) = (V0 (Proc.devRef .tc main_arg19)) :=
  (keep13 (val13 V0) main_arg19 (by decide)).trans (at13_main_arg19 V0)
theorem at14_main_arg20 (V0 : Valuation τ sig (Elt F)) : val14 V0 (Proc.devRef .tc main_arg20) = (V0 (Proc.devRef .tc main_arg20)) :=
  (keep13 (val13 V0) main_arg20 (by decide)).trans (at13_main_arg20 V0)
theorem at14_main_arg21 (V0 : Valuation τ sig (Elt F)) : val14 V0 (Proc.devRef .tc main_arg21) = (V0 (Proc.devRef .tc main_arg21)) :=
  (keep13 (val13 V0) main_arg21 (by decide)).trans (at13_main_arg21 V0)
theorem at14_main_arg22 (V0 : Valuation τ sig (Elt F)) : val14 V0 (Proc.devRef .tc main_arg22) = (V0 (Proc.devRef .tc main_arg22)) :=
  (keep13 (val13 V0) main_arg22 (by decide)).trans (at13_main_arg22 V0)

/-- Every weakly fair execution of the reference terminates without a fault, the returned buffer at the last stage of
    the launch arguments and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v676) = Cert.ReferenceIdeal.Stages.val_main_v676 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v676).trans (by simp only [after_ops]; exact at14_main_v676 (launchContents m c)),
      (h c main_arg0).trans (by simp only [after_ops]; exact at14_main_arg0 (launchContents m c)),
      (h c main_arg1).trans (by simp only [after_ops]; exact at14_main_arg1 (launchContents m c)),
      (h c main_arg2).trans (by simp only [after_ops]; exact at14_main_arg2 (launchContents m c)),
      (h c main_arg3).trans (by simp only [after_ops]; exact at14_main_arg3 (launchContents m c)),
      (h c main_arg4).trans (by simp only [after_ops]; exact at14_main_arg4 (launchContents m c)),
      (h c main_arg5).trans (by simp only [after_ops]; exact at14_main_arg5 (launchContents m c)),
      (h c main_arg6).trans (by simp only [after_ops]; exact at14_main_arg6 (launchContents m c)),
      (h c main_arg7).trans (by simp only [after_ops]; exact at14_main_arg7 (launchContents m c)),
      (h c main_arg8).trans (by simp only [after_ops]; exact at14_main_arg8 (launchContents m c)),
      (h c main_arg9).trans (by simp only [after_ops]; exact at14_main_arg9 (launchContents m c)),
      (h c main_arg10).trans (by simp only [after_ops]; exact at14_main_arg10 (launchContents m c)),
      (h c main_arg11).trans (by simp only [after_ops]; exact at14_main_arg11 (launchContents m c)),
      (h c main_arg12).trans (by simp only [after_ops]; exact at14_main_arg12 (launchContents m c)),
      (h c main_arg13).trans (by simp only [after_ops]; exact at14_main_arg13 (launchContents m c)),
      (h c main_arg14).trans (by simp only [after_ops]; exact at14_main_arg14 (launchContents m c)),
      (h c main_arg15).trans (by simp only [after_ops]; exact at14_main_arg15 (launchContents m c)),
      (h c main_arg16).trans (by simp only [after_ops]; exact at14_main_arg16 (launchContents m c)),
      (h c main_arg17).trans (by simp only [after_ops]; exact at14_main_arg17 (launchContents m c)),
      (h c main_arg18).trans (by simp only [after_ops]; exact at14_main_arg18 (launchContents m c)),
      (h c main_arg19).trans (by simp only [after_ops]; exact at14_main_arg19 (launchContents m c)),
      (h c main_arg20).trans (by simp only [after_ops]; exact at14_main_arg20 (launchContents m c)),
      (h c main_arg21).trans (by simp only [after_ops]; exact at14_main_arg21 (launchContents m c)),
      (h c main_arg22).trans (by simp only [after_ops]; exact at14_main_arg22 (launchContents m c))⟩)
    (run_seq scopedRefs_eq scopedSems_eq defs main (fun _ => ops) main_eq (fun _ => ops_sub) m ρ (fun _ => ops_fresh))

end Cert.ReferenceIdeal.RunValue

end
-- ==== Proof.lean ====
/-
  A three-scale graph network: two dense layers with a leaky rectifier encode 525000 nodes' features; on each of three
  scales (400000, 100000 and 25000 nodes) three rounds of symmetric-normalised graph convolution with self loops follow,
  each round a projection h W, a degree deg = 1 + (sum of the weights of the edges arriving), messages
  deg[src]^(-1/2) w deg[dst]^(-1/2) (h W)[src] summed at their destinations, then tanh (sum + (h W) / deg + b), the rounds
  mixed by the rows of a 3 x 3 table; the two coarser scales are averaged onto the finest by a pooling index, the three
  are added, and two more dense layers decode two numbers per node.

  The kernel program does the dense pieces (the two dense pairs, the nine projections, the nine closing steps
  tanh (s + h d d + b) with the running mixture, the sum of three) in row-tiled regions of 5000 rows and leaves the
  degrees, the gathers and the scatter-adds to the host; the reference does everything on the host. At the extended reals
  the two are one function of the arguments, operation by operation: the host operations are literally the same on the
  same operands; a region's array after its last grid point is the whole-array expression of its rows, because every
  entry of a block depends only on its own row of the row-shaped operands and on the whole small operands (a matrix
  product of a band of rows is the band of the product; the rest is entrywise); and the kernel's reshaped bias rows,
  degree columns and 1 x 1 scalars are the reference's broadcasts of the same vectors. No law of the extended reals is
  used that fails at an infinity (no distributivity, no cancelling), so the finiteness of the inputs is never opened.

  Proved in pieces: the value of each region's output arrays (one module per region), the kernel program's buffer
  contents boundary by boundary and the reference's window by window, both named by the reference's stage values
  (each stage is its operation of the stages of its operands), and here the five claims.
-/
import proofs.«418542_j22608707846200_1_alg».proof.Defs
import proofs.«418542_j22608707846200_1_alg».proof.Proof.Gen.Kernel
import proofs.«418542_j22608707846200_1_alg».proof.Proof.KernelFrameSegments
import proofs.«418542_j22608707846200_1_alg».proof.Proof.Gen.KernelIdeal
import proofs.«418542_j22608707846200_1_alg».proof.Proof.KernelIdealFrameSegments
import proofs.«418542_j22608707846200_1_alg».proof.Proof.Gen.ReferenceIdeal
import proofs.«418542_j22608707846200_1_alg».proof.Proof.Gen.Pre_finite_inputs
import proofs.«418542_j22608707846200_1_alg».proof.Proof.KernelRun
import proofs.«418542_j22608707846200_1_alg».proof.Proof.KChain
import proofs.«418542_j22608707846200_1_alg».proof.Proof.RChain

noncomputable section

namespace Cert.Proof

open Idealize.ShloMosaic Idealize.ShloMosaic.TcCoe Idealize.SL.Sem

/-- The word-level kernel program runs to its end without a fault and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- So does the reference: its run, with the returned value dropped. -/
theorem frame_referenceIdeal : Cert.frame_ReferenceIdeal := fun m ρ _ =>
  (θ_run Cert.ReferenceIdeal.defs _ _).mono (fun _ h c => (h c).2) (Cert.ReferenceIdeal.RunValue.run (F := Ideal) m ρ)

/-- The idealization rewrote no operation. -/
theorem preserves : Cert.preserves_Kernel_KernelIdeal := trivial

/-- From memories agreeing on the arguments, both programs end with the result at the reference's last stage of the
    arguments: the kernel program's last boundary holds it (the chain of boundary contents), the reference's run ends at
    it, and the stage is a function of the arguments alone. -/
theorem algebraic : Cert.algebraic_KernelIdeal_ReferenceIdeal := by
  intro m ρ m' ρ' _ hagree
  refine ⟨fun c => Cert.ReferenceIdeal.Stages.val_main_v676 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun _ h c => ⟨(h c).1.trans (Cert.KernelIdeal.Chain.result m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.RunValue.run (F := Ideal) m' ρ')
    obtain ⟨e0, e1, e2, e3, e4, e5, e6, e7, e8, e9, e10, e11, e12, e13, e14, e15, e16, e17, e18, e19, e20, e21, e22⟩ := hagree c
    rw [e0, e1, e2, e3, e4, e5, e6, e7, e8, e9, e10, e11, e12, e13, e14, e15, e16, e17, e18, e19, e20, e21, e22]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
